-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v462)) (v1 : (c : Dev Cert.KernelIdeal.nD) → Buf (Elt Ideal) ((c.tc : Thread Cert.KernelIdeal.nD Cert.KernelIdeal.τ).loc Cert.KernelIdeal.main_v514)) (v2 : (c : Dev Cert.KernelIdeal.nD) → Buf (Elt Ideal) ((c.tc : Thread Cert.KernelIdeal.nD Cert.KernelIdeal.τ).loc Cert.KernelIdeal.main_v578)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v462) = v0 c
          ∧ r.2.mem ((c.tc : Thread Cert.KernelIdeal.nD Cert.KernelIdeal.τ).loc Cert.KernelIdeal.main_v514) = v1 c
          ∧ r.2.mem ((c.tc : Thread Cert.KernelIdeal.nD Cert.KernelIdeal.τ).loc Cert.KernelIdeal.main_v578) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v551) = v0 c
          ∧ r.2.mem ((c.tc : Thread Cert.ReferenceIdeal.nD Cert.ReferenceIdeal.τ).loc Cert.ReferenceIdeal.main_v603) = v1 c
          ∧ r.2.mem ((c.tc : Thread Cert.ReferenceIdeal.nD Cert.ReferenceIdeal.τ).loc Cert.ReferenceIdeal.main_v657) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S3x128x128 : Shape := ⟨3, ![3, 128, 128]⟩
abbrev S3x128 : Shape := ⟨2, ![3, 128]⟩
abbrev S256x2 : Shape := ⟨2, ![256, 2]⟩
abbrev S2 : Shape := ⟨1, ![2]⟩
abbrev S128x2 : Shape := ⟨2, ![128, 2]⟩
abbrev S128 : Shape := ⟨1, ![128]⟩
abbrev S128x10 : Shape := ⟨2, ![128, 10]⟩
abbrev S10 : Shape := ⟨1, ![10]⟩
abbrev S256x128 : Shape := ⟨2, ![256, 128]⟩
abbrev S400000 : Shape := ⟨1, ![400000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S256x128 : S_.BroadcastsInDim S256x128 (![] : Fin 0 → Fin S256x128.rank)
  reducesTo_S256x128_S_d0_1 : S256x128.ReducesTo [0, 1] S_

variable [Facts]

def fn_part6 {F : FTy → Type} [FloatOps F] (main_arg21 : FVec F S128 .f32) (main_arg22 : FVec F S128x10 .f32) (main_arg23 : FVec F S10 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x10 .f32 := Host.absf main_arg22
  let main_cst_42 : FVec F S_ .f32 := constant S_ .f32 0x7F800000#32
  let main_v110 : FVec F S128x10 .f32 := broadcastInDim S128x10 ![] bcast_S_S128x10 main_cst_42
  let main_v111 : IVec S128x10 1 := cmpf .olt main_v109 main_v110
  let main_c_43 : IVec S_ 1 := constantI S_ 1 1#1
  let main_v112 : IVec S_ 1 := (fun x v => Host.reduce IntOp.andi x v reducesTo_S128x10_S_d0_1 h_S_) main_v111 main_c_43
  let main_v113 : IVec S_ 1 := andi main_v108 main_v112
  let main_v114 : FVec F S10 .f32 := Host.absf main_arg23
  let main_cst_44 : FVec F S_ .f32 := constant S_ .f32 0x7F800000#32
  let main_v115 : FVec F S10 .f32 := broadcastInDim S10 ![] bcast_S_S10 main_cst_44
  let main_v116 : IVec S10 1 := cmpf .olt main_v114 main_v115
  let main_c_45 : IVec S_ 1 := constantI S_ 1 1#1
  let main_v117 : IVec S_ 1 := (fun x v => Host.reduce IntOp.andi x v reducesTo_S10_S_d0 h_S_) main_v116 main_c_45
  let main_v118 : IVec S_ 1 := andi main_v113 main_v117
  main_v118

def fn_part5 {F : FTy → Type} [FloatOps F] (main_arg18 : FVec F S128x10 .f32) (main_arg19 : FVec F S10 .f32) (main_arg20 : FVec F S256x128 .f32) (main_arg21 : FVec F S128 .f32) (main_arg22 : FVec F S128x10 .f32) (main_arg23 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x10 .f32 := Host.absf main_arg18
  let main_cst_34 : FVec F S_ .f32 := constant S_ .f32 0x7F800000#32
  let main_v90 : FVec F S128x10 .f32 := broadcastInDim S128x10 ![] bcast_S_S128x10 main_cst_34
  let main_v91 : IVec S128x10 1 := cmpf .olt main_v89 main_v90
  let main_c_35 : IVec S_ 1 := constantI S_ 1 1#1
  let main_v92 : IVec S_ 1 := (fun x v => Host.reduce IntOp.andi x v reducesTo_S128x10_S_d0_1 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S256x128 .f32 := Host.absf main_arg20
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S128x10 .f32) (main_arg15 : FVec F S10 .f32) (main_arg16 : FVec F S128x128 .f32) (main_arg17 : FVec F S128 .f32) (main_arg18 : FVec F S128x10 .f32) (main_arg19 : FVec F S10 .f32) (main_arg20 : FVec F S256x128 .f32) (main_arg21 : FVec F S128 .f32) (main_arg22 : FVec F S128x10 .f32) (main_arg23 : FVec F S10 .f32) (main_v63 : IVec S_ 1) (main_v67 : IVec S_ 1) : IVec S_ 1 :=
  let main_v68 : IVec S_ 1 := andi main_v63 main_v67
  let main_v69 : FVec F S128x10 .f32 := Host.absf main_arg14
  let main_cst_26 : FVec F S_ .f32 := constant S_ .f32 0x7F800000#32
  let main_v70 : FVec F S128x10 .f32 := broadcastInDim S128x10 ![] bcast_S_S128x10 main_cst_26
  let main_v71 : IVec S128x10 1 := cmpf .olt main_v69 main_v70
  let main_c_27 : IVec S_ 1 := constantI S_ 1 1#1
  let main_v72 : IVec S_ 1 := (fun x v => Host.reduce IntOp.andi x v reducesTo_S128x10_S_d0_1 h_S_) main_v71 main_c_27
  let main_v73 : IVec S_ 1 := andi main_v68 main_v72
  let main_v74 : FVec F S10 .f32 := Host.absf main_arg15
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S128 .f32) (main_arg12 : FVec F S128x128 .f32) (main_arg13 : FVec F S128 .f32) (main_arg14 : FVec F S128x10 .f32) (main_arg15 : FVec F S10 .f32) (main_arg16 : FVec F S128x128 .f32) (main_arg17 : FVec F S128 .f32) (main_arg18 : FVec F S128x10 .f32) (main_arg19 : FVec F S10 .f32) (main_arg20 : FVec F S256x128 .f32) (main_arg21 : FVec F S128 .f32) (main_arg22 : FVec F S128x10 .f32) (main_arg23 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S2 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) (main_arg16 : FVec F S128x128 .f32) (main_arg17 : FVec F S128 .f32) (main_arg18 : FVec F S128x10 .f32) (main_arg19 : FVec F S10 .f32) (main_arg20 : FVec F S256x128 .f32) (main_arg21 : FVec F S128 .f32) (main_arg22 : FVec F S128x10 .f32) (main_arg23 : FVec F S10 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S256x2 .f32) (main_arg5 : FVec F S2 .f32) (main_arg6 : FVec F S128x2 .f32) (main_arg7 : FVec F S2 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) (main_arg16 : FVec F S128x128 .f32) (main_arg17 : FVec F S128 .f32) (main_arg18 : FVec F S128x10 .f32) (main_arg19 : FVec F S10 .f32) (main_arg20 : FVec F S256x128 .f32) (main_arg21 : FVec F S128 .f32) (main_arg22 : FVec F S128x10 .f32) (main_arg23 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S256x2 .f32 := Host.absf main_arg4
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : FVec F S128x128 .f32) (main_arg2 : FVec F S3x128x128 .f32) (main_arg3 : FVec F S3x128 .f32) (main_arg4 : FVec F S256x2 .f32) (main_arg5 : FVec F S2 .f32) (main_arg6 : FVec F S128x2 .f32) (main_arg7 : FVec F S2 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) (main_arg16 : FVec F S128x128 .f32) (main_arg17 : FVec F S128 .f32) (main_arg18 : FVec F S128x10 .f32) (main_arg19 : FVec F S10 .f32) (main_arg20 : FVec F S256x128 .f32) (main_arg21 : FVec F S128 .f32) (main_arg22 : FVec F S128x10 .f32) (main_arg23 : FVec F S10 .f32) (main_arg24 : IVec S400000 32) (main_arg25 : IVec S400000 32) (main_arg26 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S128x128 : Shape := ⟨2, ![128, 128]⟩
abbrev S3x128x128 : Shape := ⟨3, ![3, 128, 128]⟩
abbrev S3x128 : Shape := ⟨2, ![3, 128]⟩
abbrev S256x2 : Shape := ⟨2, ![256, 2]⟩
abbrev S2 : Shape := ⟨1, ![2]⟩
abbrev S128x2 : Shape := ⟨2, ![128, 2]⟩
abbrev S128 : Shape := ⟨1, ![128]⟩
abbrev S128x10 : Shape := ⟨2, ![128, 10]⟩
abbrev S10 : Shape := ⟨1, ![10]⟩
abbrev S256x128 : Shape := ⟨2, ![256, 128]⟩
abbrev S400000 : Shape := ⟨1, ![400000]⟩
abbrev S50000 : Shape := ⟨1, ![50000]⟩
abbrev S1x128 : Shape := ⟨2, ![1, 128]⟩
abbrev S5000x128 : Shape := ⟨2, ![5000, 128]⟩
abbrev S_ : Shape := ⟨0, ![]⟩
abbrev S1x128x128 : Shape := ⟨3, ![1, 128, 128]⟩
abbrev S450000 : Shape := ⟨1, ![450000]⟩
abbrev S450000x1 : Shape := ⟨2, ![450000, 1]⟩
abbrev S450000x128 : Shape := ⟨2, ![450000, 128]⟩
abbrev S400000x1 : Shape := ⟨2, ![400000, 1]⟩
abbrev S400000x128 : Shape := ⟨2, ![400000, 128]⟩
abbrev S400000x2 : Shape := ⟨2, ![400000, 2]⟩
abbrev S1x2 : Shape := ⟨2, ![1, 2]⟩
abbrev S50000x2 : Shape := ⟨2, ![50000, 2]⟩
abbrev S450000x2 : Shape := ⟨2, ![450000, 2]⟩
abbrev S50000x1 : Shape := ⟨2, ![50000, 1]⟩
abbrev S512x128 : Shape := ⟨2, ![512, 128]⟩
abbrev S512x10 : Shape := ⟨2, ![512, 10]⟩
abbrev S1x10 : Shape := ⟨2, ![1, 10]⟩
abbrev S512 : Shape := ⟨1, ![512]⟩
abbrev S512x1 : Shape := ⟨2, ![512, 1]⟩
abbrev S512x256 : Shape := ⟨2, ![512, 256]⟩
abbrev S256 : Shape := ⟨1, ![256]⟩
abbrev S1x256 : Shape := ⟨2, ![1, 256]⟩

abbrev nBuf : Space → Nat
  | .hbm => 811
  | .vmem => 96
  | .smem => 0
  | _ => 0

abbrev hbmTy0_0 (i : Nat) : BufTy := match i % 128 with
  | 0 => ⟨S50000x128, .f32⟩
  | 1 => ⟨S128x128, .f32⟩
  | 2 => ⟨S3x128x128, .f32⟩
  | 3 => ⟨S3x128, .f32⟩
  | 4 => ⟨S256x2, .f32⟩
  | 5 => ⟨S2, .f32⟩
  | 6 => ⟨S128x2, .f32⟩
  | 7 => ⟨S2, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x10, .f32⟩
  | 15 => ⟨S10, .f32⟩
  | 16 => ⟨S128x128, .f32⟩
  | 17 => ⟨S128, .f32⟩
  | 18 => ⟨S128x10, .f32⟩
  | 19 => ⟨S10, .f32⟩
  | 20 => ⟨S256x128, .f32⟩
  | 21 => ⟨S128, .f32⟩
  | 22 => ⟨S128x10, .f32⟩
  | 23 => ⟨S10, .f32⟩
  | 24 => ⟨S400000, .i32⟩
  | 25 => ⟨S400000, .i32⟩
  | 26 => ⟨S50000, .i32⟩
  | 27 => ⟨S1x128, .f32⟩
  | 28 => ⟨S1x128, .f32⟩
  | 29 => ⟨S_, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S1x128, .f32⟩
  | 37 => ⟨S50000x128, .f32⟩
  | 38 => ⟨S_, .f32⟩
  | 39 => ⟨S128, .f32⟩
  | 40 => ⟨S1x128, .f32⟩
  | 41 => ⟨S50000x128, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S1x128, .f32⟩
  | 51 => ⟨S1x128, .f32⟩
  | 52 => ⟨S1x128x128, .f32⟩
  | 53 => ⟨S128x128, .f32⟩
  | 54 => ⟨S50000x128, .f32⟩
  | 55 => ⟨S_, .f32⟩
  | 56 => ⟨S400000, .f32⟩
  | 57 => ⟨S50000, .i32⟩
  | 58 => ⟨S450000, .i32⟩
  | 59 => ⟨S450000, .i32⟩
  | 60 => ⟨S_, .f32⟩
  | 61 => ⟨S50000, .f32⟩
  | 62 => ⟨S450000, .f32⟩
  | 63 => ⟨S_, .f32⟩
  | 64 => ⟨S50000, .f32⟩
  | 65 => ⟨S450000x1, .i32⟩
  | 66 => ⟨S50000, .f32⟩
  | 67 => ⟨S_, .f32⟩
  | 68 => ⟨S50000, .f32⟩
  | 69 => ⟨S50000, .i1⟩
  | 70 => ⟨S_, .f32⟩
  | 71 => ⟨S_, .f32⟩
  | 72 => ⟨S50000, .f32⟩
  | 73 => ⟨S50000, .f32⟩
  | 74 => ⟨S50000, .f32⟩
  | 75 => ⟨S_, .f32⟩
  | 76 => ⟨S50000, .f32⟩
  | 77 => ⟨S50000, .i1⟩
  | 78 => ⟨S50000, .f32⟩
  | 79 => ⟨S50000, .f32⟩
  | 80 => ⟨S_, .i32⟩
  | 81 => ⟨S450000, .i32⟩
  | 82 => ⟨S450000, .i1⟩
  | 83 => ⟨S_, .i32⟩
  | 84 => ⟨S450000, .i32⟩
  | 85 => ⟨S450000, .i32⟩
  | 86 => ⟨S450000, .i32⟩
  | 87 => ⟨S450000x1, .i32⟩
  | 88 => ⟨S450000, .f32⟩
  | 89 => ⟨S450000, .f32⟩
  | 90 => ⟨S_, .i32⟩
  | 91 => ⟨S450000, .i32⟩
  | 92 => ⟨S450000, .i1⟩
  | 93 => ⟨S_, .i32⟩
  | 94 => ⟨S450000, .i32⟩
  | 95 => ⟨S450000, .i32⟩
  | 96 => ⟨S450000, .i32⟩
  | 97 => ⟨S450000x1, .i32⟩
  | 98 => ⟨S450000, .f32⟩
  | 99 => ⟨S450000, .f32⟩
  | 100 => ⟨S450000x1, .f32⟩
  | 101 => ⟨S_, .i32⟩
  | 102 => ⟨S450000, .i32⟩
  | 103 => ⟨S450000, .i1⟩
  | 104 => ⟨S_, .i32⟩
  | 105 => ⟨S450000, .i32⟩
  | 106 => ⟨S450000, .i32⟩
  | 107 => ⟨S450000, .i32⟩
  | 108 => ⟨S450000x1, .i32⟩
  | 109 => ⟨S450000x128, .f32⟩
  | 110 => ⟨S450000x128, .f32⟩
  | 111 => ⟨S450000x128, .f32⟩
  | 112 => ⟨S_, .f32⟩
  | 113 => ⟨S50000x128, .f32⟩
  | 114 => ⟨S450000x1, .i32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S1x128x128, .f32⟩
  | 3 => ⟨S128x128, .f32⟩
  | 4 => ⟨S50000x128, .f32⟩
  | 5 => ⟨S_, .f32⟩
  | 6 => ⟨S400000, .f32⟩
  | 7 => ⟨S50000, .i32⟩
  | 8 => ⟨S450000, .i32⟩
  | 9 => ⟨S450000, .i32⟩
  | 10 => ⟨S_, .f32⟩
  | 11 => ⟨S50000, .f32⟩
  | 12 => ⟨S450000, .f32⟩
  | 13 => ⟨S_, .f32⟩
  | 14 => ⟨S50000, .f32⟩
  | 15 => ⟨S450000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S_, .f32⟩
  | 22 => ⟨S50000, .f32⟩
  | 23 => ⟨S50000, .f32⟩
  | 24 => ⟨S50000, .f32⟩
  | 25 => ⟨S_, .f32⟩
  | 26 => ⟨S50000, .f32⟩
  | 27 => ⟨S50000, .i1⟩
  | 28 => ⟨S50000, .f32⟩
  | 29 => ⟨S50000, .f32⟩
  | 30 => ⟨S_, .i32⟩
  | 31 => ⟨S450000, .i32⟩
  | 32 => ⟨S450000, .i1⟩
  | 33 => ⟨S_, .i32⟩
  | 34 => ⟨S450000, .i32⟩
  | 35 => ⟨S450000, .i32⟩
  | 36 => ⟨S450000, .i32⟩
  | 37 => ⟨S450000x1, .i32⟩
  | 38 => ⟨S450000, .f32⟩
  | 39 => ⟨S450000, .f32⟩
  | 40 => ⟨S_, .i32⟩
  | 41 => ⟨S450000, .i32⟩
  | 42 => ⟨S450000, .i1⟩
  | 43 => ⟨S_, .i32⟩
  | 44 => ⟨S450000, .i32⟩
  | 45 => ⟨S450000, .i32⟩
  | 46 => ⟨S450000, .i32⟩
  | 47 => ⟨S450000x1, .i32⟩
  | 48 => ⟨S450000, .f32⟩
  | 49 => ⟨S450000, .f32⟩
  | 50 => ⟨S450000x1, .f32⟩
  | 51 => ⟨S_, .i32⟩
  | 52 => ⟨S450000, .i32⟩
  | 53 => ⟨S450000, .i1⟩
  | 54 => ⟨S_, .i32⟩
  | 55 => ⟨S450000, .i32⟩
  | 56 => ⟨S450000, .i32⟩
  | 57 => ⟨S450000, .i32⟩
  | 58 => ⟨S450000x1, .i32⟩
  | 59 => ⟨S450000x128, .f32⟩
  | 60 => ⟨S450000x128, .f32⟩
  | 61 => ⟨S450000x128, .f32⟩
  | 62 => ⟨S_, .f32⟩
  | 63 => ⟨S50000x128, .f32⟩
  | 64 => ⟨S450000x1, .i32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S1x128x128, .f32⟩
  | 81 => ⟨S128x128, .f32⟩
  | 82 => ⟨S50000x128, .f32⟩
  | 83 => ⟨S_, .f32⟩
  | 84 => ⟨S400000, .f32⟩
  | 85 => ⟨S50000, .i32⟩
  | 86 => ⟨S450000, .i32⟩
  | 87 => ⟨S450000, .i32⟩
  | 88 => ⟨S_, .f32⟩
  | 89 => ⟨S50000, .f32⟩
  | 90 => ⟨S450000, .f32⟩
  | 91 => ⟨S_, .f32⟩
  | 92 => ⟨S50000, .f32⟩
  | 93 => ⟨S450000x1, .i32⟩
  | 94 => ⟨S50000, .f32⟩
  | 95 => ⟨S_, .f32⟩
  | 96 => ⟨S50000, .f32⟩
  | 97 => ⟨S50000, .i1⟩
  | 98 => ⟨S_, .f32⟩
  | 99 => ⟨S_, .f32⟩
  | 100 => ⟨S50000, .f32⟩
  | 101 => ⟨S50000, .f32⟩
  | 102 => ⟨S50000, .f32⟩
  | 103 => ⟨S_, .f32⟩
  | 104 => ⟨S50000, .f32⟩
  | 105 => ⟨S50000, .i1⟩
  | 106 => ⟨S50000, .f32⟩
  | 107 => ⟨S50000, .f32⟩
  | 108 => ⟨S_, .i32⟩
  | 109 => ⟨S450000, .i32⟩
  | 110 => ⟨S450000, .i1⟩
  | 111 => ⟨S_, .i32⟩
  | 112 => ⟨S450000, .i32⟩
  | 113 => ⟨S450000, .i32⟩
  | 114 => ⟨S450000, .i32⟩
  | 115 => ⟨S450000x1, .i32⟩
  | 116 => ⟨S450000, .f32⟩
  | 117 => ⟨S450000, .f32⟩
  | 118 => ⟨S_, .i32⟩
  | 119 => ⟨S450000, .i32⟩
  | 120 => ⟨S450000, .i1⟩
  | 121 => ⟨S_, .i32⟩
  | 122 => ⟨S450000, .i32⟩
  | 123 => ⟨S450000, .i32⟩
  | 124 => ⟨S450000, .i32⟩
  | 125 => ⟨S450000x1, .i32⟩
  | 126 => ⟨S450000, .f32⟩
  | 127 => ⟨S450000, .f32⟩
  | _ => ⟨S50000x128, .f32⟩

abbrev hbmTy0_2 (i : Nat) : BufTy := match i % 128 with
  | 0 => ⟨S450000x1, .f32⟩
  | 1 => ⟨S_, .i32⟩
  | 2 => ⟨S450000, .i32⟩
  | 3 => ⟨S450000, .i1⟩
  | 4 => ⟨S_, .i32⟩
  | 5 => ⟨S450000, .i32⟩
  | 6 => ⟨S450000, .i32⟩
  | 7 => ⟨S450000, .i32⟩
  | 8 => ⟨S450000x1, .i32⟩
  | 9 => ⟨S450000x128, .f32⟩
  | 10 => ⟨S450000x128, .f32⟩
  | 11 => ⟨S450000x128, .f32⟩
  | 12 => ⟨S_, .f32⟩
  | 13 => ⟨S50000x128, .f32⟩
  | 14 => ⟨S450000x1, .i32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S128x2, .f32⟩
  | 39 => ⟨S400000x2, .f32⟩
  | 40 => ⟨S128x2, .f32⟩
  | 41 => ⟨S400000x2, .f32⟩
  | 42 => ⟨S400000x2, .f32⟩
  | 43 => ⟨S1x2, .f32⟩
  | 44 => ⟨S400000x2, .f32⟩
  | 45 => ⟨S400000x2, .f32⟩
  | 46 => ⟨S_, .f32⟩
  | 47 => ⟨S400000, .f32⟩
  | 48 => ⟨S_, .f32⟩
  | 49 => ⟨S400000, .f32⟩
  | 50 => ⟨S400000, .f32⟩
  | 51 => ⟨S400000x1, .f32⟩
  | 52 => ⟨S400000x2, .f32⟩
  | 53 => ⟨S400000x2, .f32⟩
  | 54 => ⟨S400000x2, .f32⟩
  | 55 => ⟨S_, .f32⟩
  | 56 => ⟨S400000, .f32⟩
  | 57 => ⟨S400000x1, .f32⟩
  | 58 => ⟨S400000x2, .f32⟩
  | 59 => ⟨S400000x2, .f32⟩
  | 60 => ⟨S50000x2, .f32⟩
  | 61 => ⟨S_, .f32⟩
  | 62 => ⟨S400000, .f32⟩
  | 63 => ⟨S50000, .i32⟩
  | 64 => ⟨S450000, .i32⟩
  | 65 => ⟨S450000, .i32⟩
  | 66 => ⟨S_, .f32⟩
  | 67 => ⟨S50000, .f32⟩
  | 68 => ⟨S450000, .f32⟩
  | 69 => ⟨S_, .f32⟩
  | 70 => ⟨S50000, .f32⟩
  | 71 => ⟨S450000x1, .i32⟩
  | 72 => ⟨S50000, .f32⟩
  | 73 => ⟨S_, .f32⟩
  | 74 => ⟨S50000, .f32⟩
  | 75 => ⟨S50000, .i1⟩
  | 76 => ⟨S_, .f32⟩
  | 77 => ⟨S_, .f32⟩
  | 78 => ⟨S50000, .f32⟩
  | 79 => ⟨S50000, .f32⟩
  | 80 => ⟨S50000, .f32⟩
  | 81 => ⟨S_, .f32⟩
  | 82 => ⟨S50000, .f32⟩
  | 83 => ⟨S50000, .i1⟩
  | 84 => ⟨S50000, .f32⟩
  | 85 => ⟨S50000, .f32⟩
  | 86 => ⟨S_, .i32⟩
  | 87 => ⟨S450000, .i32⟩
  | 88 => ⟨S450000, .i1⟩
  | 89 => ⟨S_, .i32⟩
  | 90 => ⟨S450000, .i32⟩
  | 91 => ⟨S450000, .i32⟩
  | 92 => ⟨S450000, .i32⟩
  | 93 => ⟨S450000x1, .i32⟩
  | 94 => ⟨S450000, .f32⟩
  | 95 => ⟨S450000, .f32⟩
  | 96 => ⟨S_, .i32⟩
  | 97 => ⟨S450000, .i32⟩
  | 98 => ⟨S450000, .i1⟩
  | 99 => ⟨S_, .i32⟩
  | 100 => ⟨S450000, .i32⟩
  | 101 => ⟨S450000, .i32⟩
  | 102 => ⟨S450000, .i32⟩
  | 103 => ⟨S450000x1, .i32⟩
  | 104 => ⟨S450000, .f32⟩
  | 105 => ⟨S450000, .f32⟩
  | 106 => ⟨S450000x1, .f32⟩
  | 107 => ⟨S_, .i32⟩
  | 108 => ⟨S450000, .i32⟩
  | 109 => ⟨S450000, .i1⟩
  | 110 => ⟨S_, .i32⟩
  | 111 => ⟨S450000, .i32⟩
  | 112 => ⟨S450000, .i32⟩
  | 113 => ⟨S450000, .i32⟩
  | 114 => ⟨S450000x1, .i32⟩
  | 115 => ⟨S450000x2, .f32⟩
  | 116 => ⟨S450000x2, .f32⟩
  | 117 => ⟨S450000x2, .f32⟩
  | 118 => ⟨S_, .f32⟩
  | 119 => ⟨S50000x2, .f32⟩
  | 120 => ⟨S450000x1, .i32⟩
  | 121 => ⟨S50000x2, .f32⟩
  | 122 => ⟨S1x2, .f32⟩
  | 123 => ⟨S50000x2, .f32⟩
  | 124 => ⟨S50000x2, .f32⟩
  | 125 => ⟨S_, .f32⟩
  | 126 => ⟨S50000, .f32⟩
  | 127 => ⟨S_, .f32⟩
  | _ => ⟨S50000x128, .f32⟩

abbrev hbmTy0_3 (i : Nat) : BufTy := match i % 128 with
  | 0 => ⟨S50000, .f32⟩
  | 1 => ⟨S50000, .f32⟩
  | 2 => ⟨S50000x1, .f32⟩
  | 3 => ⟨S50000x2, .f32⟩
  | 4 => ⟨S50000x2, .f32⟩
  | 5 => ⟨S50000x2, .f32⟩
  | 6 => ⟨S_, .f32⟩
  | 7 => ⟨S50000, .f32⟩
  | 8 => ⟨S50000x1, .f32⟩
  | 9 => ⟨S50000x2, .f32⟩
  | 10 => ⟨S50000x2, .f32⟩
  | 11 => ⟨S50000x1, .f32⟩
  | 12 => ⟨S50000x128, .f32⟩
  | 13 => ⟨S50000x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S1x128, .f32⟩
  | 24 => ⟨S50000x128, .f32⟩
  | 25 => ⟨S400000x1, .f32⟩
  | 26 => ⟨S400000, .f32⟩
  | 27 => ⟨S50000, .i32⟩
  | 28 => ⟨S450000, .i32⟩
  | 29 => ⟨S450000, .i32⟩
  | 30 => ⟨S_, .f32⟩
  | 31 => ⟨S50000, .f32⟩
  | 32 => ⟨S450000, .f32⟩
  | 33 => ⟨S_, .f32⟩
  | 34 => ⟨S50000, .f32⟩
  | 35 => ⟨S450000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S_, .f32⟩
  | 42 => ⟨S50000, .f32⟩
  | 43 => ⟨S50000, .f32⟩
  | 44 => ⟨S50000, .f32⟩
  | 45 => ⟨S_, .f32⟩
  | 46 => ⟨S50000, .f32⟩
  | 47 => ⟨S50000, .i1⟩
  | 48 => ⟨S50000, .f32⟩
  | 49 => ⟨S50000, .f32⟩
  | 50 => ⟨S_, .i32⟩
  | 51 => ⟨S450000, .i32⟩
  | 52 => ⟨S450000, .i1⟩
  | 53 => ⟨S_, .i32⟩
  | 54 => ⟨S450000, .i32⟩
  | 55 => ⟨S450000, .i32⟩
  | 56 => ⟨S450000, .i32⟩
  | 57 => ⟨S450000x1, .i32⟩
  | 58 => ⟨S450000, .f32⟩
  | 59 => ⟨S450000, .f32⟩
  | 60 => ⟨S_, .i32⟩
  | 61 => ⟨S450000, .i32⟩
  | 62 => ⟨S450000, .i1⟩
  | 63 => ⟨S_, .i32⟩
  | 64 => ⟨S450000, .i32⟩
  | 65 => ⟨S450000, .i32⟩
  | 66 => ⟨S450000, .i32⟩
  | 67 => ⟨S450000x1, .i32⟩
  | 68 => ⟨S450000, .f32⟩
  | 69 => ⟨S450000, .f32⟩
  | 70 => ⟨S450000x1, .f32⟩
  | 71 => ⟨S_, .i32⟩
  | 72 => ⟨S450000, .i32⟩
  | 73 => ⟨S450000, .i1⟩
  | 74 => ⟨S_, .i32⟩
  | 75 => ⟨S450000, .i32⟩
  | 76 => ⟨S450000, .i32⟩
  | 77 => ⟨S450000, .i32⟩
  | 78 => ⟨S450000x1, .i32⟩
  | 79 => ⟨S450000x128, .f32⟩
  | 80 => ⟨S450000x128, .f32⟩
  | 81 => ⟨S450000x128, .f32⟩
  | 82 => ⟨S_, .f32⟩
  | 83 => ⟨S50000x128, .f32⟩
  | 84 => ⟨S450000x1, .i32⟩
  | 85 => ⟨S50000x128, .f32⟩
  | 86 => ⟨S1x128, .f32⟩
  | 87 => ⟨S50000x128, .f32⟩
  | 88 => ⟨S_, .f32⟩
  | 89 => ⟨S512x128, .f32⟩
  | 90 => ⟨S50000x1, .i32⟩
  | 91 => ⟨S512x128, .f32⟩
  | 92 => ⟨S50000x1, .f32⟩
  | 93 => ⟨S50000x128, .f32⟩
  | 94 => ⟨S50000x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S50000x128, .f32⟩
  | 106 => ⟨S400000x1, .f32⟩
  | 107 => ⟨S400000, .f32⟩
  | 108 => ⟨S50000, .i32⟩
  | 109 => ⟨S450000, .i32⟩
  | 110 => ⟨S450000, .i32⟩
  | 111 => ⟨S_, .f32⟩
  | 112 => ⟨S50000, .f32⟩
  | 113 => ⟨S450000, .f32⟩
  | 114 => ⟨S_, .f32⟩
  | 115 => ⟨S50000, .f32⟩
  | 116 => ⟨S450000x1, .i32⟩
  | 117 => ⟨S50000, .f32⟩
  | 118 => ⟨S_, .f32⟩
  | 119 => ⟨S50000, .f32⟩
  | 120 => ⟨S50000, .i1⟩
  | 121 => ⟨S_, .f32⟩
  | 122 => ⟨S_, .f32⟩
  | 123 => ⟨S50000, .f32⟩
  | 124 => ⟨S50000, .f32⟩
  | 125 => ⟨S50000, .f32⟩
  | 126 => ⟨S_, .f32⟩
  | 127 => ⟨S50000, .f32⟩
  | _ => ⟨S50000x128, .f32⟩

abbrev hbmTy0_4 (i : Nat) : BufTy := match i % 128 with
  | 0 => ⟨S50000, .i1⟩
  | 1 => ⟨S50000, .f32⟩
  | 2 => ⟨S50000, .f32⟩
  | 3 => ⟨S_, .i32⟩
  | 4 => ⟨S450000, .i32⟩
  | 5 => ⟨S450000, .i1⟩
  | 6 => ⟨S_, .i32⟩
  | 7 => ⟨S450000, .i32⟩
  | 8 => ⟨S450000, .i32⟩
  | 9 => ⟨S450000, .i32⟩
  | 10 => ⟨S450000x1, .i32⟩
  | 11 => ⟨S450000, .f32⟩
  | 12 => ⟨S450000, .f32⟩
  | 13 => ⟨S_, .i32⟩
  | 14 => ⟨S450000, .i32⟩
  | 15 => ⟨S450000, .i1⟩
  | 16 => ⟨S_, .i32⟩
  | 17 => ⟨S450000, .i32⟩
  | 18 => ⟨S450000, .i32⟩
  | 19 => ⟨S450000, .i32⟩
  | 20 => ⟨S450000x1, .i32⟩
  | 21 => ⟨S450000, .f32⟩
  | 22 => ⟨S450000, .f32⟩
  | 23 => ⟨S450000x1, .f32⟩
  | 24 => ⟨S_, .i32⟩
  | 25 => ⟨S450000, .i32⟩
  | 26 => ⟨S450000, .i1⟩
  | 27 => ⟨S_, .i32⟩
  | 28 => ⟨S450000, .i32⟩
  | 29 => ⟨S450000, .i32⟩
  | 30 => ⟨S450000, .i32⟩
  | 31 => ⟨S450000x1, .i32⟩
  | 32 => ⟨S450000x128, .f32⟩
  | 33 => ⟨S450000x128, .f32⟩
  | 34 => ⟨S450000x128, .f32⟩
  | 35 => ⟨S_, .f32⟩
  | 36 => ⟨S50000x128, .f32⟩
  | 37 => ⟨S450000x1, .i32⟩
  | 38 => ⟨S50000x128, .f32⟩
  | 39 => ⟨S1x128, .f32⟩
  | 40 => ⟨S50000x128, .f32⟩
  | 41 => ⟨S_, .f32⟩
  | 42 => ⟨S512x128, .f32⟩
  | 43 => ⟨S50000x1, .i32⟩
  | 44 => ⟨S512x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S512x128, .f32⟩
  | 52 => ⟨S512x128, .f32⟩
  | 53 => ⟨S512x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S512x128, .f32⟩
  | 61 => ⟨S512x128, .f32⟩
  | 62 => ⟨S_, .f32⟩
  | 63 => ⟨S128, .f32⟩
  | 64 => ⟨S128, .f32⟩
  | 65 => ⟨S128, .f32⟩
  | 66 => ⟨S1x128, .f32⟩
  | 67 => ⟨S512x128, .f32⟩
  | 68 => ⟨S512x128, .f32⟩
  | 69 => ⟨S_, .f32⟩
  | 70 => ⟨S512x128, .f32⟩
  | 71 => ⟨S512x128, .f32⟩
  | 72 => ⟨S512x128, .f32⟩
  | 73 => ⟨S1x128, .f32⟩
  | 74 => ⟨S512x128, .f32⟩
  | 75 => ⟨S512x128, .f32⟩
  | 76 => ⟨S_, .f32⟩
  | 77 => ⟨S512x128, .f32⟩
  | 78 => ⟨S512x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S512x128, .f32⟩
  | 86 => ⟨S512x128, .f32⟩
  | 87 => ⟨S512x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S512x128, .f32⟩
  | 95 => ⟨S512x128, .f32⟩
  | 96 => ⟨S_, .f32⟩
  | 97 => ⟨S128, .f32⟩
  | 98 => ⟨S128, .f32⟩
  | 99 => ⟨S128, .f32⟩
  | 100 => ⟨S1x128, .f32⟩
  | 101 => ⟨S512x128, .f32⟩
  | 102 => ⟨S512x128, .f32⟩
  | 103 => ⟨S_, .f32⟩
  | 104 => ⟨S512x128, .f32⟩
  | 105 => ⟨S512x128, .f32⟩
  | 106 => ⟨S512x10, .f32⟩
  | 107 => ⟨S1x10, .f32⟩
  | 108 => ⟨S512x10, .f32⟩
  | 109 => ⟨S512x10, .f32⟩
  | 110 => ⟨S_, .f32⟩
  | 111 => ⟨S512, .f32⟩
  | 112 => ⟨S_, .f32⟩
  | 113 => ⟨S512, .f32⟩
  | 114 => ⟨S512, .f32⟩
  | 115 => ⟨S512x1, .f32⟩
  | 116 => ⟨S512x10, .f32⟩
  | 117 => ⟨S512x10, .f32⟩
  | 118 => ⟨S512x10, .f32⟩
  | 119 => ⟨S_, .f32⟩
  | 120 => ⟨S512, .f32⟩
  | 121 => ⟨S512x1, .f32⟩
  | 122 => ⟨S512x1, .f32⟩
  | 123 => ⟨S512x10, .f32⟩
  | 124 => ⟨S512x10, .f32⟩
  | 125 => ⟨S_, .f32⟩
  | 126 => ⟨S128, .f32⟩
  | 127 => ⟨S_, .f32⟩
  | _ => ⟨S50000x128, .f32⟩

abbrev hbmTy0_5 (i : Nat) : BufTy := match i % 128 with
  | 0 => ⟨S128, .f32⟩
  | 1 => ⟨S128, .f32⟩
  | 2 => ⟨S1x128, .f32⟩
  | 3 => ⟨S512x128, .f32⟩
  | 4 => ⟨S512x128, .f32⟩
  | 5 => ⟨S512x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S512x128, .f32⟩
  | 13 => ⟨S512x128, .f32⟩
  | 14 => ⟨S_, .f32⟩
  | 15 => ⟨S128, .f32⟩
  | 16 => ⟨S128, .f32⟩
  | 17 => ⟨S128, .f32⟩
  | 18 => ⟨S1x128, .f32⟩
  | 19 => ⟨S512x128, .f32⟩
  | 20 => ⟨S512x128, .f32⟩
  | 21 => ⟨S_, .f32⟩
  | 22 => ⟨S512x128, .f32⟩
  | 23 => ⟨S512x128, .f32⟩
  | 24 => ⟨S512x128, .f32⟩
  | 25 => ⟨S1x128, .f32⟩
  | 26 => ⟨S512x128, .f32⟩
  | 27 => ⟨S512x128, .f32⟩
  | 28 => ⟨S_, .f32⟩
  | 29 => ⟨S512x128, .f32⟩
  | 30 => ⟨S512x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S512x128, .f32⟩
  | 38 => ⟨S512x128, .f32⟩
  | 39 => ⟨S512x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S512x128, .f32⟩
  | 47 => ⟨S512x128, .f32⟩
  | 48 => ⟨S_, .f32⟩
  | 49 => ⟨S128, .f32⟩
  | 50 => ⟨S128, .f32⟩
  | 51 => ⟨S128, .f32⟩
  | 52 => ⟨S1x128, .f32⟩
  | 53 => ⟨S512x128, .f32⟩
  | 54 => ⟨S512x128, .f32⟩
  | 55 => ⟨S_, .f32⟩
  | 56 => ⟨S512x128, .f32⟩
  | 57 => ⟨S512x128, .f32⟩
  | 58 => ⟨S512x10, .f32⟩
  | 59 => ⟨S1x10, .f32⟩
  | 60 => ⟨S512x10, .f32⟩
  | 61 => ⟨S512x10, .f32⟩
  | 62 => ⟨S_, .f32⟩
  | 63 => ⟨S512, .f32⟩
  | 64 => ⟨S_, .f32⟩
  | 65 => ⟨S512, .f32⟩
  | 66 => ⟨S512, .f32⟩
  | 67 => ⟨S512x1, .f32⟩
  | 68 => ⟨S512x10, .f32⟩
  | 69 => ⟨S512x10, .f32⟩
  | 70 => ⟨S512x10, .f32⟩
  | 71 => ⟨S_, .f32⟩
  | 72 => ⟨S512, .f32⟩
  | 73 => ⟨S512x1, .f32⟩
  | 74 => ⟨S512x1, .f32⟩
  | 75 => ⟨S512x10, .f32⟩
  | 76 => ⟨S512x10, .f32⟩
  | 77 => ⟨S512x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S512x256, .f32⟩
  | 85 => ⟨S512x256, .f32⟩
  | 86 => ⟨S512x256, .f32⟩
  | 87 => ⟨S_, .f32⟩
  | 88 => ⟨S256, .f32⟩
  | 89 => ⟨S_, .f32⟩
  | 90 => ⟨S256, .f32⟩
  | 91 => ⟨S256, .f32⟩
  | 92 => ⟨S1x256, .f32⟩
  | 93 => ⟨S512x256, .f32⟩
  | 94 => ⟨S512x256, .f32⟩
  | 95 => ⟨S_, .f32⟩
  | 96 => ⟨S256, .f32⟩
  | 97 => ⟨S256, .f32⟩
  | 98 => ⟨S256, .f32⟩
  | 99 => ⟨S1x256, .f32⟩
  | 100 => ⟨S512x256, .f32⟩
  | 101 => ⟨S512x256, .f32⟩
  | 102 => ⟨S_, .f32⟩
  | 103 => ⟨S512x256, .f32⟩
  | 104 => ⟨S512x256, .f32⟩
  | 105 => ⟨S512x128, .f32⟩
  | 106 => ⟨S1x128, .f32⟩
  | 107 => ⟨S512x128, .f32⟩
  | 108 => ⟨S512x128, .f32⟩
  | 109 => ⟨S_, .f32⟩
  | 110 => ⟨S512x128, .f32⟩
  | 111 => ⟨S512x128, .i1⟩
  | 112 => ⟨S512x128, .f32⟩
  | 113 => ⟨S_, .f32⟩
  | 114 => ⟨S512x128, .f32⟩
  | 115 => ⟨S512x128, .f32⟩
  | 116 => ⟨S512x128, .f32⟩
  | 117 => ⟨S_, .f32⟩
  | 118 => ⟨S512x128, .f32⟩
  | 119 => ⟨S512x128, .i1⟩
  | 120 => ⟨S512x128, .f32⟩
  | 121 => ⟨S_, .f32⟩
  | 122 => ⟨S512x128, .f32⟩
  | 123 => ⟨S512x128, .f32⟩
  | 124 => ⟨S512x128, .f32⟩
  | 125 => ⟨S_, .f32⟩
  | 126 => ⟨S128, .f32⟩
  | 127 => ⟨S_, .f32⟩
  | _ => ⟨S50000x128, .f32⟩

abbrev hbmTy0_6 (i : Nat) : BufTy := match i % 128 with
  | 0 => ⟨S128, .f32⟩
  | 1 => ⟨S128, .f32⟩
  | 2 => ⟨S1x128, .f32⟩
  | 3 => ⟨S512x128, .f32⟩
  | 4 => ⟨S512x128, .f32⟩
  | 5 => ⟨S512x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S512x128, .f32⟩
  | 13 => ⟨S512x128, .f32⟩
  | 14 => ⟨S_, .f32⟩
  | 15 => ⟨S128, .f32⟩
  | 16 => ⟨S128, .f32⟩
  | 17 => ⟨S128, .f32⟩
  | 18 => ⟨S1x128, .f32⟩
  | 19 => ⟨S512x128, .f32⟩
  | 20 => ⟨S512x128, .f32⟩
  | 21 => ⟨S_, .f32⟩
  | 22 => ⟨S512x128, .f32⟩
  | 23 => ⟨S512x128, .f32⟩
  | 24 => ⟨S512x10, .f32⟩
  | 25 => ⟨S1x10, .f32⟩
  | 26 => ⟨S512x10, .f32⟩
  | 27 => ⟨S512x10, .f32⟩
  | 28 => ⟨S_, .f32⟩
  | 29 => ⟨S512, .f32⟩
  | 30 => ⟨S_, .f32⟩
  | 31 => ⟨S512, .f32⟩
  | 32 => ⟨S512, .f32⟩
  | 33 => ⟨S512x1, .f32⟩
  | 34 => ⟨S512x10, .f32⟩
  | 35 => ⟨S512x10, .f32⟩
  | 36 => ⟨S512x10, .f32⟩
  | 37 => ⟨S_, .f32⟩
  | 38 => ⟨S512, .f32⟩
  | 39 => ⟨S512x1, .f32⟩
  | 40 => ⟨S512x1, .f32⟩
  | 41 => ⟨S512x10, .f32⟩
  | 42 => ⟨S512x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S128x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S1x128, .f32⟩
  | .local _ .vmem, ⟨83, _⟩ => ⟨S1x128, .f32⟩
  | .local _ .vmem, ⟨84, _⟩ => ⟨S5000x128, .f32⟩
  | .local _ .vmem, ⟨85, _⟩ => ⟨S5000x128, .f32⟩
  | .local _ .vmem, ⟨86, _⟩ => ⟨S1x128, .f32⟩
  | .local _ .vmem, ⟨87, _⟩ => ⟨S1x128, .f32⟩
  | .local _ .vmem, ⟨88, _⟩ => ⟨S128x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S1x128, .f32⟩
  | .local _ .vmem, ⟨94, _⟩ => ⟨S5000x128, .f32⟩
  | .local _ .vmem, ⟨95, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0_0 : Ref sig .tc := ⟨.hbm, 27, rfl⟩
abbrev main_v0_1 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_cst_0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11_0 : Ref sig .tc := ⟨.hbm, 42, rfl⟩
abbrev main_v11_1 : Ref sig .tc := ⟨.hbm, 43, rfl⟩
abbrev main_cst_2 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_5 : Ref sig .tc := ⟨.hbm, 60, rfl⟩
abbrev main_v25 : Ref sig .tc := ⟨.hbm, 61, rfl⟩
abbrev main_v26 : Ref sig .tc := ⟨.hbm, 62, rfl⟩
abbrev main_cst_6 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_7 : Ref sig .tc := ⟨.hbm, 67, rfl⟩
abbrev main_v30 : Ref sig .tc := ⟨.hbm, 68, rfl⟩
abbrev main_v31 : Ref sig .tc := ⟨.hbm, 69, rfl⟩
abbrev main_cst_8 : Ref sig .tc := ⟨.hbm, 70, rfl⟩
abbrev main_call0_v0 : Ref sig .tc := ⟨.hbm, 71, rfl⟩
abbrev main_call0_v1 : Ref sig .tc := ⟨.hbm, 72, rfl⟩
abbrev main_v32 : Ref sig .tc := ⟨.hbm, 73, rfl⟩
abbrev main_v33 : Ref sig .tc := ⟨.hbm, 74, rfl⟩
abbrev main_cst_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c : Ref sig .tc := ⟨.hbm, 80, rfl⟩
abbrev main_v38 : Ref sig .tc := ⟨.hbm, 81, rfl⟩
abbrev main_v39 : Ref sig .tc := ⟨.hbm, 82, rfl⟩
abbrev main_c_10 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_c_11 : Ref sig .tc := ⟨.hbm, 90, rfl⟩
abbrev main_v46 : Ref sig .tc := ⟨.hbm, 91, rfl⟩
abbrev main_v47 : Ref sig .tc := ⟨.hbm, 92, rfl⟩
abbrev main_c_12 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_13 : Ref sig .tc := ⟨.hbm, 101, rfl⟩
abbrev main_v55 : Ref sig .tc := ⟨.hbm, 102, rfl⟩
abbrev main_v56 : Ref sig .tc := ⟨.hbm, 103, rfl⟩
abbrev main_c_14 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_15 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71_0 : Ref sig .tc := ⟨.hbm, 120, rfl⟩
abbrev main_v71_1 : Ref sig .tc := ⟨.hbm, 121, rfl⟩
abbrev main_cst_16 : Ref sig .tc := ⟨.hbm, 122, rfl⟩
abbrev main_v72 : Ref sig .tc := ⟨.hbm, 123, rfl⟩
abbrev main_v73 : Ref sig .tc := ⟨.hbm, 124, rfl⟩
abbrev main_cst_17 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_18 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_19 : Ref sig .tc := ⟨.hbm, 138, rfl⟩
abbrev main_v85 : Ref sig .tc := ⟨.hbm, 139, rfl⟩
abbrev main_v86 : Ref sig .tc := ⟨.hbm, 140, rfl⟩
abbrev main_cst_20 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_21 : Ref sig .tc := ⟨.hbm, 145, rfl⟩
abbrev main_v90 : Ref sig .tc := ⟨.hbm, 146, rfl⟩
abbrev main_v91 : Ref sig .tc := ⟨.hbm, 147, rfl⟩
abbrev main_cst_22 : Ref sig .tc := ⟨.hbm, 148, rfl⟩
abbrev main_call1_v0 : Ref sig .tc := ⟨.hbm, 149, rfl⟩
abbrev main_call1_v1 : Ref sig .tc := ⟨.hbm, 150, rfl⟩
abbrev main_v92 : Ref sig .tc := ⟨.hbm, 151, rfl⟩
abbrev main_v93 : Ref sig .tc := ⟨.hbm, 152, rfl⟩
abbrev main_cst_23 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_c_24 : Ref sig .tc := ⟨.hbm, 158, rfl⟩
abbrev main_v98 : Ref sig .tc := ⟨.hbm, 159, rfl⟩
abbrev main_v99 : Ref sig .tc := ⟨.hbm, 160, rfl⟩
abbrev main_c_25 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_c_26 : Ref sig .tc := ⟨.hbm, 168, rfl⟩
abbrev main_v106 : Ref sig .tc := ⟨.hbm, 169, rfl⟩
abbrev main_v107 : Ref sig .tc := ⟨.hbm, 170, rfl⟩
abbrev main_c_27 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_c_28 : Ref sig .tc := ⟨.hbm, 179, rfl⟩
abbrev main_v115 : Ref sig .tc := ⟨.hbm, 180, rfl⟩
abbrev main_v116 : Ref sig .tc := ⟨.hbm, 181, rfl⟩
abbrev main_c_29 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_cst_30 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131_0 : Ref sig .tc := ⟨.hbm, 198, rfl⟩
abbrev main_v131_1 : Ref sig .tc := ⟨.hbm, 199, rfl⟩
abbrev main_cst_31 : Ref sig .tc := ⟨.hbm, 200, rfl⟩
abbrev main_v132 : Ref sig .tc := ⟨.hbm, 201, rfl⟩
abbrev main_v133 : Ref sig .tc := ⟨.hbm, 202, rfl⟩
abbrev main_cst_32 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_cst_33 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_cst_34 : Ref sig .tc := ⟨.hbm, 216, rfl⟩
abbrev main_v145 : Ref sig .tc := ⟨.hbm, 217, rfl⟩
abbrev main_v146 : Ref sig .tc := ⟨.hbm, 218, rfl⟩
abbrev main_cst_35 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_cst_36 : Ref sig .tc := ⟨.hbm, 223, rfl⟩
abbrev main_v150 : Ref sig .tc := ⟨.hbm, 224, rfl⟩
abbrev main_v151 : Ref sig .tc := ⟨.hbm, 225, rfl⟩
abbrev main_cst_37 : Ref sig .tc := ⟨.hbm, 226, rfl⟩
abbrev main_call2_v0 : Ref sig .tc := ⟨.hbm, 227, rfl⟩
abbrev main_call2_v1 : Ref sig .tc := ⟨.hbm, 228, rfl⟩
abbrev main_v152 : Ref sig .tc := ⟨.hbm, 229, rfl⟩
abbrev main_v153 : Ref sig .tc := ⟨.hbm, 230, rfl⟩
abbrev main_cst_38 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_c_39 : Ref sig .tc := ⟨.hbm, 236, rfl⟩
abbrev main_v158 : Ref sig .tc := ⟨.hbm, 237, rfl⟩
abbrev main_v159 : Ref sig .tc := ⟨.hbm, 238, rfl⟩
abbrev main_c_40 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_c_41 : Ref sig .tc := ⟨.hbm, 246, rfl⟩
abbrev main_v166 : Ref sig .tc := ⟨.hbm, 247, rfl⟩
abbrev main_v167 : Ref sig .tc := ⟨.hbm, 248, rfl⟩
abbrev main_c_42 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_c_43 : Ref sig .tc := ⟨.hbm, 257, rfl⟩
abbrev main_v175 : Ref sig .tc := ⟨.hbm, 258, rfl⟩
abbrev main_v176 : Ref sig .tc := ⟨.hbm, 259, rfl⟩
abbrev main_c_44 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_cst_45 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_c_46 : Ref sig .tc := ⟨.hbm, 276, rfl⟩
abbrev main_v191 : Ref sig .tc := ⟨.hbm, 277, rfl⟩
abbrev main_v192 : Ref sig .tc := ⟨.hbm, 278, rfl⟩
abbrev main_c_47 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_c_48 : Ref sig .tc := ⟨.hbm, 285, rfl⟩
abbrev main_v198 : Ref sig .tc := ⟨.hbm, 286, rfl⟩
abbrev main_v199 : Ref sig .tc := ⟨.hbm, 287, rfl⟩
abbrev main_c_49 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_cst_50 : Ref sig .tc := ⟨.hbm, 302, rfl⟩
abbrev main_v213 : Ref sig .tc := ⟨.hbm, 303, rfl⟩
abbrev main_cst_51 : Ref sig .tc := ⟨.hbm, 304, rfl⟩
abbrev main_v214 : Ref sig .tc := ⟨.hbm, 305, rfl⟩
abbrev main_v215 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_v219 : Ref sig .tc := ⟨.hbm, 310, rfl⟩
abbrev main_cst_52 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_cst_53 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_cst_54 : Ref sig .tc := ⟨.hbm, 322, rfl⟩
abbrev main_v229 : Ref sig .tc := ⟨.hbm, 323, rfl⟩
abbrev main_v230 : Ref sig .tc := ⟨.hbm, 324, rfl⟩
abbrev main_cst_55 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_cst_56 : Ref sig .tc := ⟨.hbm, 329, rfl⟩
abbrev main_v234 : Ref sig .tc := ⟨.hbm, 330, rfl⟩
abbrev main_v235 : Ref sig .tc := ⟨.hbm, 331, rfl⟩
abbrev main_cst_57 : Ref sig .tc := ⟨.hbm, 332, rfl⟩
abbrev main_call3_v0 : Ref sig .tc := ⟨.hbm, 333, rfl⟩
abbrev main_call3_v1 : Ref sig .tc := ⟨.hbm, 334, rfl⟩
abbrev main_v236 : Ref sig .tc := ⟨.hbm, 335, rfl⟩
abbrev main_v237 : Ref sig .tc := ⟨.hbm, 336, rfl⟩
abbrev main_cst_58 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_c_59 : Ref sig .tc := ⟨.hbm, 342, rfl⟩
abbrev main_v242 : Ref sig .tc := ⟨.hbm, 343, rfl⟩
abbrev main_v243 : Ref sig .tc := ⟨.hbm, 344, rfl⟩
abbrev main_c_60 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_c_61 : Ref sig .tc := ⟨.hbm, 352, rfl⟩
abbrev main_v250 : Ref sig .tc := ⟨.hbm, 353, rfl⟩
abbrev main_v251 : Ref sig .tc := ⟨.hbm, 354, rfl⟩
abbrev main_c_62 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_c_63 : Ref sig .tc := ⟨.hbm, 363, rfl⟩
abbrev main_v259 : Ref sig .tc := ⟨.hbm, 364, rfl⟩
abbrev main_v260 : Ref sig .tc := ⟨.hbm, 365, rfl⟩
abbrev main_c_64 : Ref sig .tc := ⟨.hbm, 366, rfl⟩
abbrev main_v261 : Ref sig .tc := ⟨.hbm, 367, rfl⟩
abbrev main_v262 : Ref sig .tc := ⟨.hbm, 368, rfl⟩
abbrev main_v263 : Ref sig .tc := ⟨.hbm, 369, rfl⟩
abbrev main_v264 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_cst_65 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_v271 : Ref sig .tc := ⟨.hbm, 378, rfl⟩
abbrev main_v272 : Ref sig .tc := ⟨.hbm, 379, rfl⟩
abbrev main_v273 : Ref sig .tc := ⟨.hbm, 380, rfl⟩
abbrev main_cst_66 : Ref sig .tc := ⟨.hbm, 381, rfl⟩
abbrev main_v274 : Ref sig .tc := ⟨.hbm, 382, rfl⟩
abbrev main_cst_67 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_cst_68 : Ref sig .tc := ⟨.hbm, 390, rfl⟩
abbrev main_v281 : Ref sig .tc := ⟨.hbm, 391, rfl⟩
abbrev main_v282 : Ref sig .tc := ⟨.hbm, 392, rfl⟩
abbrev main_v283 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_v287 : Ref sig .tc := ⟨.hbm, 397, rfl⟩
abbrev main_v288_0 : Ref sig .tc := ⟨.hbm, 398, rfl⟩
abbrev main_v288_1 : Ref sig .tc := ⟨.hbm, 399, rfl⟩
abbrev main_cst_69 : Ref sig .tc := ⟨.hbm, 400, rfl⟩
abbrev main_v289 : Ref sig .tc := ⟨.hbm, 401, rfl⟩
abbrev main_v290 : Ref sig .tc := ⟨.hbm, 402, rfl⟩
abbrev main_cst_70 : Ref sig .tc := ⟨.hbm, 403, rfl⟩
abbrev main_v291 : Ref sig .tc := ⟨.hbm, 404, rfl⟩
abbrev main_v292 : Ref sig .tc := ⟨.hbm, 405, rfl⟩
abbrev main_v293 : Ref sig .tc := ⟨.hbm, 406, rfl⟩
abbrev main_v294 : Ref sig .tc := ⟨.hbm, 407, rfl⟩
abbrev main_v295 : Ref sig .tc := ⟨.hbm, 408, rfl⟩
abbrev main_v296 : Ref sig .tc := ⟨.hbm, 409, rfl⟩
abbrev main_v297 : Ref sig .tc := ⟨.hbm, 410, rfl⟩
abbrev main_v298 : Ref sig .tc := ⟨.hbm, 411, rfl⟩
abbrev main_v299 : Ref sig .tc := ⟨.hbm, 412, rfl⟩
abbrev main_v300 : Ref sig .tc := ⟨.hbm, 413, rfl⟩
abbrev main_cst_71 : Ref sig .tc := ⟨.hbm, 414, rfl⟩
abbrev main_v301 : Ref sig .tc := ⟨.hbm, 415, rfl⟩
abbrev main_v302 : Ref sig .tc := ⟨.hbm, 416, rfl⟩
abbrev main_cst_72 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_cst_73 : Ref sig .tc := ⟨.hbm, 421, rfl⟩
abbrev main_v306 : Ref sig .tc := ⟨.hbm, 422, rfl⟩
abbrev main_v307 : Ref sig .tc := ⟨.hbm, 423, rfl⟩
abbrev main_cst_74 : Ref sig .tc := ⟨.hbm, 424, rfl⟩
abbrev main_call4_v0 : Ref sig .tc := ⟨.hbm, 425, rfl⟩
abbrev main_call4_v1 : Ref sig .tc := ⟨.hbm, 426, rfl⟩
abbrev main_v308 : Ref sig .tc := ⟨.hbm, 427, rfl⟩
abbrev main_v309 : Ref sig .tc := ⟨.hbm, 428, rfl⟩
abbrev main_cst_75 : Ref sig .tc := ⟨.hbm, 429, rfl⟩
abbrev main_v310 : Ref sig .tc := ⟨.hbm, 430, rfl⟩
abbrev main_v311 : Ref sig .tc := ⟨.hbm, 431, rfl⟩
abbrev main_v312 : Ref sig .tc := ⟨.hbm, 432, rfl⟩
abbrev main_v313 : Ref sig .tc := ⟨.hbm, 433, rfl⟩
abbrev main_c_76 : Ref sig .tc := ⟨.hbm, 434, rfl⟩
abbrev main_v314 : Ref sig .tc := ⟨.hbm, 435, rfl⟩
abbrev main_v315 : Ref sig .tc := ⟨.hbm, 436, rfl⟩
abbrev main_c_77 : Ref sig .tc := ⟨.hbm, 437, rfl⟩
abbrev main_v316 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_c_78 : Ref sig .tc := ⟨.hbm, 444, rfl⟩
abbrev main_v322 : Ref sig .tc := ⟨.hbm, 445, rfl⟩
abbrev main_v323 : Ref sig .tc := ⟨.hbm, 446, rfl⟩
abbrev main_c_79 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩
abbrev main_v327 : Ref sig .tc := ⟨.hbm, 451, rfl⟩
abbrev main_v328 : Ref sig .tc := ⟨.hbm, 452, rfl⟩
abbrev main_v329 : Ref sig .tc := ⟨.hbm, 453, rfl⟩
abbrev main_v330 : Ref sig .tc := ⟨.hbm, 454, rfl⟩
abbrev main_c_80 : Ref sig .tc := ⟨.hbm, 455, rfl⟩
abbrev main_v331 : Ref sig .tc := ⟨.hbm, 456, rfl⟩
abbrev main_v332 : Ref sig .tc := ⟨.hbm, 457, rfl⟩
abbrev main_c_81 : Ref sig .tc := ⟨.hbm, 458, rfl⟩
abbrev main_v333 : Ref sig .tc := ⟨.hbm, 459, rfl⟩
abbrev main_v334 : Ref sig .tc := ⟨.hbm, 460, rfl⟩
abbrev main_v335 : Ref sig .tc := ⟨.hbm, 461, rfl⟩
abbrev main_v336 : Ref sig .tc := ⟨.hbm, 462, rfl⟩
abbrev main_v337 : Ref sig .tc := ⟨.hbm, 463, rfl⟩
abbrev main_v338 : Ref sig .tc := ⟨.hbm, 464, rfl⟩
abbrev main_v339 : Ref sig .tc := ⟨.hbm, 465, rfl⟩
abbrev main_cst_82 : Ref sig .tc := ⟨.hbm, 466, rfl⟩
abbrev main_v340 : Ref sig .tc := ⟨.hbm, 467, rfl⟩
abbrev main_v341 : Ref sig .tc := ⟨.hbm, 468, rfl⟩
abbrev main_v342 : Ref sig .tc := ⟨.hbm, 469, rfl⟩
abbrev main_v343 : Ref sig .tc := ⟨.hbm, 470, rfl⟩
abbrev main_v344 : Ref sig .tc := ⟨.hbm, 471, rfl⟩
abbrev main_cst_83 : Ref sig .tc := ⟨.hbm, 472, rfl⟩
abbrev main_v345 : Ref sig .tc := ⟨.hbm, 473, rfl⟩
abbrev main_v346 : Ref sig .tc := ⟨.hbm, 474, rfl⟩
abbrev main_v347 : Ref sig .tc := ⟨.hbm, 475, rfl⟩
abbrev main_v348 : Ref sig .tc := ⟨.hbm, 476, rfl⟩
abbrev main_v349 : Ref sig .tc := ⟨.hbm, 477, rfl⟩
abbrev main_v350 : Ref sig .tc := ⟨.hbm, 478, rfl⟩
abbrev main_v351_0 : Ref sig .tc := ⟨.hbm, 479, rfl⟩
abbrev main_v351_1 : Ref sig .tc := ⟨.hbm, 480, rfl⟩
abbrev main_cst_84 : Ref sig .tc := ⟨.hbm, 481, rfl⟩
abbrev main_v352 : Ref sig .tc := ⟨.hbm, 482, rfl⟩
abbrev main_v353 : Ref sig .tc := ⟨.hbm, 483, rfl⟩
abbrev main_cst_85 : Ref sig .tc := ⟨.hbm, 484, rfl⟩
abbrev main_v354 : Ref sig .tc := ⟨.hbm, 485, rfl⟩
abbrev main_v355 : Ref sig .tc := ⟨.hbm, 486, rfl⟩
abbrev main_v356 : Ref sig .tc := ⟨.hbm, 487, rfl⟩
abbrev main_v357 : Ref sig .tc := ⟨.hbm, 488, rfl⟩
abbrev main_v358 : Ref sig .tc := ⟨.hbm, 489, rfl⟩
abbrev main_v359 : Ref sig .tc := ⟨.hbm, 490, rfl⟩
abbrev main_v360 : Ref sig .tc := ⟨.hbm, 491, rfl⟩
abbrev main_v361 : Ref sig .tc := ⟨.hbm, 492, rfl⟩
abbrev main_v362 : Ref sig .tc := ⟨.hbm, 493, rfl⟩
abbrev main_v363 : Ref sig .tc := ⟨.hbm, 494, rfl⟩
abbrev main_cst_86 : Ref sig .tc := ⟨.hbm, 495, rfl⟩
abbrev main_v364 : Ref sig .tc := ⟨.hbm, 496, rfl⟩
abbrev main_v365 : Ref sig .tc := ⟨.hbm, 497, rfl⟩
abbrev main_cst_87 : Ref sig .tc := ⟨.hbm, 498, rfl⟩
abbrev main_v366 : Ref sig .tc := ⟨.hbm, 499, rfl⟩
abbrev main_v367 : Ref sig .tc := ⟨.hbm, 500, rfl⟩
abbrev main_v368 : Ref sig .tc := ⟨.hbm, 501, rfl⟩
abbrev main_cst_88 : Ref sig .tc := ⟨.hbm, 502, rfl⟩
abbrev main_v369 : Ref sig .tc := ⟨.hbm, 503, rfl⟩
abbrev main_v370 : Ref sig .tc := ⟨.hbm, 504, rfl⟩
abbrev main_cst_89 : Ref sig .tc := ⟨.hbm, 505, rfl⟩
abbrev main_call5_v0 : Ref sig .tc := ⟨.hbm, 506, rfl⟩
abbrev main_call5_v1 : Ref sig .tc := ⟨.hbm, 507, rfl⟩
abbrev main_v371 : Ref sig .tc := ⟨.hbm, 508, rfl⟩
abbrev main_v372 : Ref sig .tc := ⟨.hbm, 509, rfl⟩
abbrev main_cst_90 : Ref sig .tc := ⟨.hbm, 510, rfl⟩
abbrev main_v373 : Ref sig .tc := ⟨.hbm, 511, rfl⟩
abbrev main_v374 : Ref sig .tc := ⟨.hbm, 512, rfl⟩
abbrev main_v375 : Ref sig .tc := ⟨.hbm, 513, rfl⟩
abbrev main_v376 : Ref sig .tc := ⟨.hbm, 514, rfl⟩
abbrev main_c_91 : Ref sig .tc := ⟨.hbm, 515, rfl⟩
abbrev main_v377 : Ref sig .tc := ⟨.hbm, 516, rfl⟩
abbrev main_v378 : Ref sig .tc := ⟨.hbm, 517, rfl⟩
abbrev main_c_92 : Ref sig .tc := ⟨.hbm, 518, rfl⟩
abbrev main_v379 : Ref sig .tc := ⟨.hbm, 519, rfl⟩
abbrev main_v380 : Ref sig .tc := ⟨.hbm, 520, rfl⟩
abbrev main_v381 : Ref sig .tc := ⟨.hbm, 521, rfl⟩
abbrev main_v382 : Ref sig .tc := ⟨.hbm, 522, rfl⟩
abbrev main_v383 : Ref sig .tc := ⟨.hbm, 523, rfl⟩
abbrev main_v384 : Ref sig .tc := ⟨.hbm, 524, rfl⟩
abbrev main_c_93 : Ref sig .tc := ⟨.hbm, 525, rfl⟩
abbrev main_v385 : Ref sig .tc := ⟨.hbm, 526, rfl⟩
abbrev main_v386 : Ref sig .tc := ⟨.hbm, 527, rfl⟩
abbrev main_c_94 : Ref sig .tc := ⟨.hbm, 528, rfl⟩
abbrev main_v387 : Ref sig .tc := ⟨.hbm, 529, rfl⟩
abbrev main_v388 : Ref sig .tc := ⟨.hbm, 530, rfl⟩
abbrev main_v389 : Ref sig .tc := ⟨.hbm, 531, rfl⟩
abbrev main_v390 : Ref sig .tc := ⟨.hbm, 532, rfl⟩
abbrev main_v391 : Ref sig .tc := ⟨.hbm, 533, rfl⟩
abbrev main_v392 : Ref sig .tc := ⟨.hbm, 534, rfl⟩
abbrev main_v393 : Ref sig .tc := ⟨.hbm, 535, rfl⟩
abbrev main_c_95 : Ref sig .tc := ⟨.hbm, 536, rfl⟩
abbrev main_v394 : Ref sig .tc := ⟨.hbm, 537, rfl⟩
abbrev main_v395 : Ref sig .tc := ⟨.hbm, 538, rfl⟩
abbrev main_c_96 : Ref sig .tc := ⟨.hbm, 539, rfl⟩
abbrev main_v396 : Ref sig .tc := ⟨.hbm, 540, rfl⟩
abbrev main_v397 : Ref sig .tc := ⟨.hbm, 541, rfl⟩
abbrev main_v398 : Ref sig .tc := ⟨.hbm, 542, rfl⟩
abbrev main_v399 : Ref sig .tc := ⟨.hbm, 543, rfl⟩
abbrev main_v400 : Ref sig .tc := ⟨.hbm, 544, rfl⟩
abbrev main_v401 : Ref sig .tc := ⟨.hbm, 545, rfl⟩
abbrev main_v402 : Ref sig .tc := ⟨.hbm, 546, rfl⟩
abbrev main_cst_97 : Ref sig .tc := ⟨.hbm, 547, rfl⟩
abbrev main_v403 : Ref sig .tc := ⟨.hbm, 548, rfl⟩
abbrev main_v404 : Ref sig .tc := ⟨.hbm, 549, rfl⟩
abbrev main_v405 : Ref sig .tc := ⟨.hbm, 550, rfl⟩
abbrev main_v406 : Ref sig .tc := ⟨.hbm, 551, rfl⟩
abbrev main_v407 : Ref sig .tc := ⟨.hbm, 552, rfl⟩
abbrev main_cst_98 : Ref sig .tc := ⟨.hbm, 553, rfl⟩
abbrev main_v408 : Ref sig .tc := ⟨.hbm, 554, rfl⟩
abbrev main_v409 : Ref sig .tc := ⟨.hbm, 555, rfl⟩
abbrev main_v410 : Ref sig .tc := ⟨.hbm, 556, rfl⟩
abbrev main_cst_99 : Ref sig .tc := ⟨.hbm, 557, rfl⟩
abbrev main_v411 : Ref sig .tc := ⟨.hbm, 558, rfl⟩
abbrev main_cst_100 : Ref sig .tc := ⟨.hbm, 559, rfl⟩
abbrev main_v412 : Ref sig .tc := ⟨.hbm, 560, rfl⟩
abbrev main_v413 : Ref sig .tc := ⟨.hbm, 561, rfl⟩
abbrev main_v414 : Ref sig .tc := ⟨.hbm, 562, rfl⟩
abbrev main_v415 : Ref sig .tc := ⟨.hbm, 563, rfl⟩
abbrev main_v416 : Ref sig .tc := ⟨.hbm, 564, rfl⟩
abbrev main_v417 : Ref sig .tc := ⟨.hbm, 565, rfl⟩
abbrev main_cst_101 : Ref sig .tc := ⟨.hbm, 566, rfl⟩
abbrev main_v418 : Ref sig .tc := ⟨.hbm, 567, rfl⟩
abbrev main_cst_102 : Ref sig .tc := ⟨.hbm, 568, rfl⟩
abbrev main_v419 : Ref sig .tc := ⟨.hbm, 569, rfl⟩
abbrev main_v420 : Ref sig .tc := ⟨.hbm, 570, rfl⟩
abbrev main_v421 : Ref sig .tc := ⟨.hbm, 571, rfl⟩
abbrev main_v422 : Ref sig .tc := ⟨.hbm, 572, rfl⟩
abbrev main_v423 : Ref sig .tc := ⟨.hbm, 573, rfl⟩
abbrev main_cst_103 : Ref sig .tc := ⟨.hbm, 574, rfl⟩
abbrev main_v424 : Ref sig .tc := ⟨.hbm, 575, rfl⟩
abbrev main_v425 : Ref sig .tc := ⟨.hbm, 576, rfl⟩
abbrev main_v426 : Ref sig .tc := ⟨.hbm, 577, rfl⟩
abbrev main_v427 : Ref sig .tc := ⟨.hbm, 578, rfl⟩
abbrev main_v428 : Ref sig .tc := ⟨.hbm, 579, rfl⟩
abbrev main_v429 : Ref sig .tc := ⟨.hbm, 580, rfl⟩
abbrev main_cst_104 : Ref sig .tc := ⟨.hbm, 581, rfl⟩
abbrev main_v430 : Ref sig .tc := ⟨.hbm, 582, rfl⟩
abbrev main_v431 : Ref sig .tc := ⟨.hbm, 583, rfl⟩
abbrev main_v432 : Ref sig .tc := ⟨.hbm, 584, rfl⟩
abbrev main_v433 : Ref sig .tc := ⟨.hbm, 585, rfl⟩
abbrev main_v434 : Ref sig .tc := ⟨.hbm, 586, rfl⟩
abbrev main_v435 : Ref sig .tc := ⟨.hbm, 587, rfl⟩
abbrev main_call6_cst : Ref sig .tc := ⟨.hbm, 588, rfl⟩
abbrev main_call6_v0 : Ref sig .tc := ⟨.hbm, 589, rfl⟩
abbrev main_v436 : Ref sig .tc := ⟨.hbm, 590, rfl⟩
abbrev main_cst_105 : Ref sig .tc := ⟨.hbm, 591, rfl⟩
abbrev main_v437 : Ref sig .tc := ⟨.hbm, 592, rfl⟩
abbrev main_cst_106 : Ref sig .tc := ⟨.hbm, 593, rfl⟩
abbrev main_v438 : Ref sig .tc := ⟨.hbm, 594, rfl⟩
abbrev main_v439 : Ref sig .tc := ⟨.hbm, 595, rfl⟩
abbrev main_v440 : Ref sig .tc := ⟨.hbm, 596, rfl⟩
abbrev main_v441 : Ref sig .tc := ⟨.hbm, 597, rfl⟩
abbrev main_v442 : Ref sig .tc := ⟨.hbm, 598, rfl⟩
abbrev main_v443 : Ref sig .tc := ⟨.hbm, 599, rfl⟩
abbrev main_cst_107 : Ref sig .tc := ⟨.hbm, 600, rfl⟩
abbrev main_v444 : Ref sig .tc := ⟨.hbm, 601, rfl⟩
abbrev main_cst_108 : Ref sig .tc := ⟨.hbm, 602, rfl⟩
abbrev main_v445 : Ref sig .tc := ⟨.hbm, 603, rfl⟩
abbrev main_v446 : Ref sig .tc := ⟨.hbm, 604, rfl⟩
abbrev main_v447 : Ref sig .tc := ⟨.hbm, 605, rfl⟩
abbrev main_v448 : Ref sig .tc := ⟨.hbm, 606, rfl⟩
abbrev main_v449 : Ref sig .tc := ⟨.hbm, 607, rfl⟩
abbrev main_cst_109 : Ref sig .tc := ⟨.hbm, 608, rfl⟩
abbrev main_v450 : Ref sig .tc := ⟨.hbm, 609, rfl⟩
abbrev main_v451 : Ref sig .tc := ⟨.hbm, 610, rfl⟩
abbrev main_v452 : Ref sig .tc := ⟨.hbm, 611, rfl⟩
abbrev main_v453 : Ref sig .tc := ⟨.hbm, 612, rfl⟩
abbrev main_v454 : Ref sig .tc := ⟨.hbm, 613, rfl⟩
abbrev main_v455 : Ref sig .tc := ⟨.hbm, 614, rfl⟩
abbrev main_cst_110 : Ref sig .tc := ⟨.hbm, 615, rfl⟩
abbrev main_v456 : Ref sig .tc := ⟨.hbm, 616, rfl⟩
abbrev main_v457 : Ref sig .tc := ⟨.hbm, 617, rfl⟩
abbrev main_v458 : Ref sig .tc := ⟨.hbm, 618, rfl⟩
abbrev main_v459 : Ref sig .tc := ⟨.hbm, 619, rfl⟩
abbrev main_v460 : Ref sig .tc := ⟨.hbm, 620, rfl⟩
abbrev main_v461 : Ref sig .tc := ⟨.hbm, 621, rfl⟩
abbrev main_call7_cst : Ref sig .tc := ⟨.hbm, 622, rfl⟩
abbrev main_call7_v0 : Ref sig .tc := ⟨.hbm, 623, rfl⟩
abbrev main_call7_cst_0 : Ref sig .tc := ⟨.hbm, 624, rfl⟩
abbrev main_call7_v1 : Ref sig .tc := ⟨.hbm, 625, rfl⟩
abbrev main_call7_v2 : Ref sig .tc := ⟨.hbm, 626, rfl⟩
abbrev main_call7_v3 : Ref sig .tc := ⟨.hbm, 627, rfl⟩
abbrev main_call7_v4 : Ref sig .tc := ⟨.hbm, 628, rfl⟩
abbrev main_call7_v5 : Ref sig .tc := ⟨.hbm, 629, rfl⟩
abbrev main_call7_v6 : Ref sig .tc := ⟨.hbm, 630, rfl⟩
abbrev main_call7_cst_1 : Ref sig .tc := ⟨.hbm, 631, rfl⟩
abbrev main_call7_v7 : Ref sig .tc := ⟨.hbm, 632, rfl⟩
abbrev main_call7_v8 : Ref sig .tc := ⟨.hbm, 633, rfl⟩
abbrev main_call7_v9 : Ref sig .tc := ⟨.hbm, 634, rfl⟩
abbrev main_call7_v10 : Ref sig .tc := ⟨.hbm, 635, rfl⟩
abbrev main_v462 : Ref sig .tc := ⟨.hbm, 636, rfl⟩
abbrev main_cst_111 : Ref sig .tc := ⟨.hbm, 637, rfl⟩
abbrev main_v463 : Ref sig .tc := ⟨.hbm, 638, rfl⟩
abbrev main_cst_112 : Ref sig .tc := ⟨.hbm, 639, rfl⟩
abbrev main_v464 : Ref sig .tc := ⟨.hbm, 640, rfl⟩
abbrev main_v465 : Ref sig .tc := ⟨.hbm, 641, rfl⟩
abbrev main_v466 : Ref sig .tc := ⟨.hbm, 642, rfl⟩
abbrev main_v467 : Ref sig .tc := ⟨.hbm, 643, rfl⟩
abbrev main_v468 : Ref sig .tc := ⟨.hbm, 644, rfl⟩
abbrev main_v469 : Ref sig .tc := ⟨.hbm, 645, rfl⟩
abbrev main_cst_113 : Ref sig .tc := ⟨.hbm, 646, rfl⟩
abbrev main_v470 : Ref sig .tc := ⟨.hbm, 647, rfl⟩
abbrev main_cst_114 : Ref sig .tc := ⟨.hbm, 648, rfl⟩
abbrev main_v471 : Ref sig .tc := ⟨.hbm, 649, rfl⟩
abbrev main_v472 : Ref sig .tc := ⟨.hbm, 650, rfl⟩
abbrev main_v473 : Ref sig .tc := ⟨.hbm, 651, rfl⟩
abbrev main_v474 : Ref sig .tc := ⟨.hbm, 652, rfl⟩
abbrev main_v475 : Ref sig .tc := ⟨.hbm, 653, rfl⟩
abbrev main_cst_115 : Ref sig .tc := ⟨.hbm, 654, rfl⟩
abbrev main_v476 : Ref sig .tc := ⟨.hbm, 655, rfl⟩
abbrev main_v477 : Ref sig .tc := ⟨.hbm, 656, rfl⟩
abbrev main_v478 : Ref sig .tc := ⟨.hbm, 657, rfl⟩
abbrev main_v479 : Ref sig .tc := ⟨.hbm, 658, rfl⟩
abbrev main_v480 : Ref sig .tc := ⟨.hbm, 659, rfl⟩
abbrev main_v481 : Ref sig .tc := ⟨.hbm, 660, rfl⟩
abbrev main_cst_116 : Ref sig .tc := ⟨.hbm, 661, rfl⟩
abbrev main_v482 : Ref sig .tc := ⟨.hbm, 662, rfl⟩
abbrev main_v483 : Ref sig .tc := ⟨.hbm, 663, rfl⟩
abbrev main_v484 : Ref sig .tc := ⟨.hbm, 664, rfl⟩
abbrev main_v485 : Ref sig .tc := ⟨.hbm, 665, rfl⟩
abbrev main_v486 : Ref sig .tc := ⟨.hbm, 666, rfl⟩
abbrev main_v487 : Ref sig .tc := ⟨.hbm, 667, rfl⟩
abbrev main_call8_cst : Ref sig .tc := ⟨.hbm, 668, rfl⟩
abbrev main_call8_v0 : Ref sig .tc := ⟨.hbm, 669, rfl⟩
abbrev main_v488 : Ref sig .tc := ⟨.hbm, 670, rfl⟩
abbrev main_cst_117 : Ref sig .tc := ⟨.hbm, 671, rfl⟩
abbrev main_v489 : Ref sig .tc := ⟨.hbm, 672, rfl⟩
abbrev main_cst_118 : Ref sig .tc := ⟨.hbm, 673, rfl⟩
abbrev main_v490 : Ref sig .tc := ⟨.hbm, 674, rfl⟩
abbrev main_v491 : Ref sig .tc := ⟨.hbm, 675, rfl⟩
abbrev main_v492 : Ref sig .tc := ⟨.hbm, 676, rfl⟩
abbrev main_v493 : Ref sig .tc := ⟨.hbm, 677, rfl⟩
abbrev main_v494 : Ref sig .tc := ⟨.hbm, 678, rfl⟩
abbrev main_v495 : Ref sig .tc := ⟨.hbm, 679, rfl⟩
abbrev main_cst_119 : Ref sig .tc := ⟨.hbm, 680, rfl⟩
abbrev main_v496 : Ref sig .tc := ⟨.hbm, 681, rfl⟩
abbrev main_cst_120 : Ref sig .tc := ⟨.hbm, 682, rfl⟩
abbrev main_v497 : Ref sig .tc := ⟨.hbm, 683, rfl⟩
abbrev main_v498 : Ref sig .tc := ⟨.hbm, 684, rfl⟩
abbrev main_v499 : Ref sig .tc := ⟨.hbm, 685, rfl⟩
abbrev main_v500 : Ref sig .tc := ⟨.hbm, 686, rfl⟩
abbrev main_v501 : Ref sig .tc := ⟨.hbm, 687, rfl⟩
abbrev main_cst_121 : Ref sig .tc := ⟨.hbm, 688, rfl⟩
abbrev main_v502 : Ref sig .tc := ⟨.hbm, 689, rfl⟩
abbrev main_v503 : Ref sig .tc := ⟨.hbm, 690, rfl⟩
abbrev main_v504 : Ref sig .tc := ⟨.hbm, 691, rfl⟩
abbrev main_v505 : Ref sig .tc := ⟨.hbm, 692, rfl⟩
abbrev main_v506 : Ref sig .tc := ⟨.hbm, 693, rfl⟩
abbrev main_v507 : Ref sig .tc := ⟨.hbm, 694, rfl⟩
abbrev main_cst_122 : Ref sig .tc := ⟨.hbm, 695, rfl⟩
abbrev main_v508 : Ref sig .tc := ⟨.hbm, 696, rfl⟩
abbrev main_v509 : Ref sig .tc := ⟨.hbm, 697, rfl⟩
abbrev main_v510 : Ref sig .tc := ⟨.hbm, 698, rfl⟩
abbrev main_v511 : Ref sig .tc := ⟨.hbm, 699, rfl⟩
abbrev main_v512 : Ref sig .tc := ⟨.hbm, 700, rfl⟩
abbrev main_v513 : Ref sig .tc := ⟨.hbm, 701, rfl⟩
abbrev main_call9_cst : Ref sig .tc := ⟨.hbm, 702, rfl⟩
abbrev main_call9_v0 : Ref sig .tc := ⟨.hbm, 703, rfl⟩
abbrev main_call9_cst_0 : Ref sig .tc := ⟨.hbm, 704, rfl⟩
abbrev main_call9_v1 : Ref sig .tc := ⟨.hbm, 705, rfl⟩
abbrev main_call9_v2 : Ref sig .tc := ⟨.hbm, 706, rfl⟩
abbrev main_call9_v3 : Ref sig .tc := ⟨.hbm, 707, rfl⟩
abbrev main_call9_v4 : Ref sig .tc := ⟨.hbm, 708, rfl⟩
abbrev main_call9_v5 : Ref sig .tc := ⟨.hbm, 709, rfl⟩
abbrev main_call9_v6 : Ref sig .tc := ⟨.hbm, 710, rfl⟩
abbrev main_call9_cst_1 : Ref sig .tc := ⟨.hbm, 711, rfl⟩
abbrev main_call9_v7 : Ref sig .tc := ⟨.hbm, 712, rfl⟩
abbrev main_call9_v8 : Ref sig .tc := ⟨.hbm, 713, rfl⟩
abbrev main_call9_v9 : Ref sig .tc := ⟨.hbm, 714, rfl⟩
abbrev main_call9_v10 : Ref sig .tc := ⟨.hbm, 715, rfl⟩
abbrev main_v514 : Ref sig .tc := ⟨.hbm, 716, rfl⟩
abbrev main_v515 : Ref sig .tc := ⟨.hbm, 717, rfl⟩
abbrev main_cst_123 : Ref sig .tc := ⟨.hbm, 718, rfl⟩
abbrev main_v516 : Ref sig .tc := ⟨.hbm, 719, rfl⟩
abbrev main_cst_124 : Ref sig .tc := ⟨.hbm, 720, rfl⟩
abbrev main_v517 : Ref sig .tc := ⟨.hbm, 721, rfl⟩
abbrev main_v518 : Ref sig .tc := ⟨.hbm, 722, rfl⟩
abbrev main_v519 : Ref sig .tc := ⟨.hbm, 723, rfl⟩
abbrev main_v520 : Ref sig .tc := ⟨.hbm, 724, rfl⟩
abbrev main_v521 : Ref sig .tc := ⟨.hbm, 725, rfl⟩
abbrev main_v522 : Ref sig .tc := ⟨.hbm, 726, rfl⟩
abbrev main_cst_125 : Ref sig .tc := ⟨.hbm, 727, rfl⟩
abbrev main_v523 : Ref sig .tc := ⟨.hbm, 728, rfl⟩
abbrev main_cst_126 : Ref sig .tc := ⟨.hbm, 729, rfl⟩
abbrev main_v524 : Ref sig .tc := ⟨.hbm, 730, rfl⟩
abbrev main_v525 : Ref sig .tc := ⟨.hbm, 731, rfl⟩
abbrev main_v526 : Ref sig .tc := ⟨.hbm, 732, rfl⟩
abbrev main_v527 : Ref sig .tc := ⟨.hbm, 733, rfl⟩
abbrev main_v528 : Ref sig .tc := ⟨.hbm, 734, rfl⟩
abbrev main_cst_127 : Ref sig .tc := ⟨.hbm, 735, rfl⟩
abbrev main_v529 : Ref sig .tc := ⟨.hbm, 736, rfl⟩
abbrev main_v530 : Ref sig .tc := ⟨.hbm, 737, rfl⟩
abbrev main_v531 : Ref sig .tc := ⟨.hbm, 738, rfl⟩
abbrev main_v532 : Ref sig .tc := ⟨.hbm, 739, rfl⟩
abbrev main_v533 : Ref sig .tc := ⟨.hbm, 740, rfl⟩
abbrev main_v534 : Ref sig .tc := ⟨.hbm, 741, rfl⟩
abbrev main_cst_128 : Ref sig .tc := ⟨.hbm, 742, rfl⟩
abbrev main_v535 : Ref sig .tc := ⟨.hbm, 743, rfl⟩
abbrev main_v536 : Ref sig .tc := ⟨.hbm, 744, rfl⟩
abbrev main_v537 : Ref sig .tc := ⟨.hbm, 745, rfl⟩
abbrev main_v538 : Ref sig .tc := ⟨.hbm, 746, rfl⟩
abbrev main_v539 : Ref sig .tc := ⟨.hbm, 747, rfl⟩
abbrev main_v540 : Ref sig .tc := ⟨.hbm, 748, rfl⟩
abbrev main_cst_129 : Ref sig .tc := ⟨.hbm, 749, rfl⟩
abbrev main_v541 : Ref sig .tc := ⟨.hbm, 750, rfl⟩
abbrev main_v542 : Ref sig .tc := ⟨.hbm, 751, rfl⟩
abbrev main_v543 : Ref sig .tc := ⟨.hbm, 752, rfl⟩
abbrev main_cst_130 : Ref sig .tc := ⟨.hbm, 753, rfl⟩
abbrev main_v544 : Ref sig .tc := ⟨.hbm, 754, rfl⟩
abbrev main_v545 : Ref sig .tc := ⟨.hbm, 755, rfl⟩
abbrev main_v546 : Ref sig .tc := ⟨.hbm, 756, rfl⟩
abbrev main_cst_131 : Ref sig .tc := ⟨.hbm, 757, rfl⟩
abbrev main_v547 : Ref sig .tc := ⟨.hbm, 758, rfl⟩
abbrev main_v548 : Ref sig .tc := ⟨.hbm, 759, rfl⟩
abbrev main_v549 : Ref sig .tc := ⟨.hbm, 760, rfl⟩
abbrev main_cst_132 : Ref sig .tc := ⟨.hbm, 761, rfl⟩
abbrev main_v550 : Ref sig .tc := ⟨.hbm, 762, rfl⟩
abbrev main_v551 : Ref sig .tc := ⟨.hbm, 763, rfl⟩
abbrev main_v552 : Ref sig .tc := ⟨.hbm, 764, rfl⟩
abbrev main_cst_133 : Ref sig .tc := ⟨.hbm, 765, rfl⟩
abbrev main_v553 : Ref sig .tc := ⟨.hbm, 766, rfl⟩
abbrev main_cst_134 : Ref sig .tc := ⟨.hbm, 767, rfl⟩
abbrev main_v554 : Ref sig .tc := ⟨.hbm, 768, rfl⟩
abbrev main_v555 : Ref sig .tc := ⟨.hbm, 769, rfl⟩
abbrev main_v556 : Ref sig .tc := ⟨.hbm, 770, rfl⟩
abbrev main_v557 : Ref sig .tc := ⟨.hbm, 771, rfl⟩
abbrev main_v558 : Ref sig .tc := ⟨.hbm, 772, rfl⟩
abbrev main_v559 : Ref sig .tc := ⟨.hbm, 773, rfl⟩
abbrev main_cst_135 : Ref sig .tc := ⟨.hbm, 774, rfl⟩
abbrev main_v560 : Ref sig .tc := ⟨.hbm, 775, rfl⟩
abbrev main_cst_136 : Ref sig .tc := ⟨.hbm, 776, rfl⟩
abbrev main_v561 : Ref sig .tc := ⟨.hbm, 777, rfl⟩
abbrev main_v562 : Ref sig .tc := ⟨.hbm, 778, rfl⟩
abbrev main_v563 : Ref sig .tc := ⟨.hbm, 779, rfl⟩
abbrev main_v564 : Ref sig .tc := ⟨.hbm, 780, rfl⟩
abbrev main_v565 : Ref sig .tc := ⟨.hbm, 781, rfl⟩
abbrev main_cst_137 : Ref sig .tc := ⟨.hbm, 782, rfl⟩
abbrev main_v566 : Ref sig .tc := ⟨.hbm, 783, rfl⟩
abbrev main_v567 : Ref sig .tc := ⟨.hbm, 784, rfl⟩
abbrev main_v568 : Ref sig .tc := ⟨.hbm, 785, rfl⟩
abbrev main_v569 : Ref sig .tc := ⟨.hbm, 786, rfl⟩
abbrev main_v570 : Ref sig .tc := ⟨.hbm, 787, rfl⟩
abbrev main_v571 : Ref sig .tc := ⟨.hbm, 788, rfl⟩
abbrev main_cst_138 : Ref sig .tc := ⟨.hbm, 789, rfl⟩
abbrev main_v572 : Ref sig .tc := ⟨.hbm, 790, rfl⟩
abbrev main_v573 : Ref sig .tc := ⟨.hbm, 791, rfl⟩
abbrev main_v574 : Ref sig .tc := ⟨.hbm, 792, rfl⟩
abbrev main_v575 : Ref sig .tc := ⟨.hbm, 793, rfl⟩
abbrev main_v576 : Ref sig .tc := ⟨.hbm, 794, rfl⟩
abbrev main_v577 : Ref sig .tc := ⟨.hbm, 795, rfl⟩
abbrev main_call12_cst : Ref sig .tc := ⟨.hbm, 796, rfl⟩
abbrev main_call12_v0 : Ref sig .tc := ⟨.hbm, 797, rfl⟩
abbrev main_call12_cst_0 : Ref sig .tc := ⟨.hbm, 798, rfl⟩
abbrev main_call12_v1 : Ref sig .tc := ⟨.hbm, 799, rfl⟩
abbrev main_call12_v2 : Ref sig .tc := ⟨.hbm, 800, rfl⟩
abbrev main_call12_v3 : Ref sig .tc := ⟨.hbm, 801, rfl⟩
abbrev main_call12_v4 : Ref sig .tc := ⟨.hbm, 802, rfl⟩
abbrev main_call12_v5 : Ref sig .tc := ⟨.hbm, 803, rfl⟩
abbrev main_call12_v6 : Ref sig .tc := ⟨.hbm, 804, rfl⟩
abbrev main_call12_cst_1 : Ref sig .tc := ⟨.hbm, 805, rfl⟩
abbrev main_call12_v7 : Ref sig .tc := ⟨.hbm, 806, rfl⟩
abbrev main_call12_v8 : Ref sig .tc := ⟨.hbm, 807, rfl⟩
abbrev main_call12_v9 : Ref sig .tc := ⟨.hbm, 808, rfl⟩
abbrev main_call12_v10 : Ref sig .tc := ⟨.hbm, 809, rfl⟩
abbrev main_v578 : Ref sig .tc := ⟨.hbm, 810, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg4_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg4_0 : Ref sig .tc := ⟨.vmem, 41, rfl⟩
abbrev cc7_stg4_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg2_0 : Ref sig .tc := ⟨.vmem, 51, rfl⟩
abbrev cc10_stg0_0 : Ref sig .tc := ⟨.vmem, 52, rfl⟩
abbrev cc10_stg0_1 : Ref sig .tc := ⟨.vmem, 53, rfl⟩
abbrev cc10_stg1_0 : Ref sig .tc := ⟨.vmem, 54, rfl⟩
abbrev cc10_stg2_0 : Ref sig .tc := ⟨.vmem, 55, rfl⟩
abbrev cc10_stg3_0 : Ref sig .tc := ⟨.vmem, 56, rfl⟩
abbrev cc10_stg4_0 : Ref sig .tc := ⟨.vmem, 57, rfl⟩
abbrev cc10_stg4_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc12_stg0_0 : Ref sig .tc := ⟨.vmem, 64, rfl⟩
abbrev cc12_stg0_1 : Ref sig .tc := ⟨.vmem, 65, rfl⟩
abbrev cc12_stg1_0 : Ref sig .tc := ⟨.vmem, 66, rfl⟩
abbrev cc12_stg2_0 : Ref sig .tc := ⟨.vmem, 67, rfl⟩
abbrev cc13_stg0_0 : Ref sig .tc := ⟨.vmem, 68, rfl⟩
abbrev cc13_stg0_1 : Ref sig .tc := ⟨.vmem, 69, rfl⟩
abbrev cc13_stg1_0 : Ref sig .tc := ⟨.vmem, 70, rfl⟩
abbrev cc13_stg2_0 : Ref sig .tc := ⟨.vmem, 71, rfl⟩
abbrev cc13_stg3_0 : Ref sig .tc := ⟨.vmem, 72, rfl⟩
abbrev cc13_stg4_0 : Ref sig .tc := ⟨.vmem, 73, rfl⟩
abbrev cc13_stg4_1 : Ref sig .tc := ⟨.vmem, 74, rfl⟩
abbrev cc14_stg0_0 : Ref sig .tc := ⟨.vmem, 75, rfl⟩
abbrev cc14_stg0_1 : Ref sig .tc := ⟨.vmem, 76, rfl⟩
abbrev cc14_stg1_0 : Ref sig .tc := ⟨.vmem, 77, rfl⟩
abbrev cc14_stg2_0 : Ref sig .tc := ⟨.vmem, 78, rfl⟩
abbrev cc14_stg2_1 : Ref sig .tc := ⟨.vmem, 79, rfl⟩
abbrev cc15_stg0_0 : Ref sig .tc := ⟨.vmem, 80, rfl⟩
abbrev cc15_stg0_1 : Ref sig .tc := ⟨.vmem, 81, rfl⟩
abbrev cc15_stg1_0 : Ref sig .tc := ⟨.vmem, 82, rfl⟩
abbrev cc15_stg2_0 : Ref sig .tc := ⟨.vmem, 83, rfl⟩
abbrev cc16_stg0_0 : Ref sig .tc := ⟨.vmem, 84, rfl⟩
abbrev cc16_stg0_1 : Ref sig .tc := ⟨.vmem, 85, rfl⟩
abbrev cc16_stg1_0 : Ref sig .tc := ⟨.vmem, 86, rfl⟩
abbrev cc16_stg2_0 : Ref sig .tc := ⟨.vmem, 87, rfl⟩
abbrev cc16_stg3_0 : Ref sig .tc := ⟨.vmem, 88, rfl⟩
abbrev cc16_stg4_0 : Ref sig .tc := ⟨.vmem, 89, rfl⟩
abbrev cc16_stg4_1 : Ref sig .tc := ⟨.vmem, 90, rfl⟩
abbrev cc17_stg0_0 : Ref sig .tc := ⟨.vmem, 91, rfl⟩
abbrev cc17_stg0_1 : Ref sig .tc := ⟨.vmem, 92, rfl⟩
abbrev cc17_stg1_0 : Ref sig .tc := ⟨.vmem, 93, rfl⟩
abbrev cc17_stg2_0 : Ref sig .tc := ⟨.vmem, 94, rfl⟩
abbrev cc17_stg2_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem4_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem4_0 : DmaSem sig := 41
abbrev cc7_sem4_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc9_sem0_0 : DmaSem sig := 48
abbrev cc9_sem0_1 : DmaSem sig := 49
abbrev cc9_sem1_0 : DmaSem sig := 50
abbrev cc9_sem2_0 : DmaSem sig := 51
abbrev cc10_sem0_0 : DmaSem sig := 52
abbrev cc10_sem0_1 : DmaSem sig := 53
abbrev cc10_sem1_0 : DmaSem sig := 54
abbrev cc10_sem2_0 : DmaSem sig := 55
abbrev cc10_sem3_0 : DmaSem sig := 56
abbrev cc10_sem4_0 : DmaSem sig := 57
abbrev cc10_sem4_1 : DmaSem sig := 58
abbrev cc11_sem0_0 : DmaSem sig := 59
abbrev cc11_sem0_1 : DmaSem sig := 60
abbrev cc11_sem1_0 : DmaSem sig := 61
abbrev cc11_sem2_0 : DmaSem sig := 62
abbrev cc11_sem2_1 : DmaSem sig := 63
abbrev cc12_sem0_0 : DmaSem sig := 64
abbrev cc12_sem0_1 : DmaSem sig := 65
abbrev cc12_sem1_0 : DmaSem sig := 66
abbrev cc12_sem2_0 : DmaSem sig := 67
abbrev cc13_sem0_0 : DmaSem sig := 68
abbrev cc13_sem0_1 : DmaSem sig := 69
abbrev cc13_sem1_0 : DmaSem sig := 70
abbrev cc13_sem2_0 : DmaSem sig := 71
abbrev cc13_sem3_0 : DmaSem sig := 72
abbrev cc13_sem4_0 : DmaSem sig := 73
abbrev cc13_sem4_1 : DmaSem sig := 74
abbrev cc14_sem0_0 : DmaSem sig := 75
abbrev cc14_sem0_1 : DmaSem sig := 76
abbrev cc14_sem1_0 : DmaSem sig := 77
abbrev cc14_sem2_0 : DmaSem sig := 78
abbrev cc14_sem2_1 : DmaSem sig := 79
abbrev cc15_sem0_0 : DmaSem sig := 80
abbrev cc15_sem0_1 : DmaSem sig := 81
abbrev cc15_sem1_0 : DmaSem sig := 82
abbrev cc15_sem2_0 : DmaSem sig := 83
abbrev cc16_sem0_0 : DmaSem sig := 84
abbrev cc16_sem0_1 : DmaSem sig := 85
abbrev cc16_sem1_0 : DmaSem sig := 86
abbrev cc16_sem2_0 : DmaSem sig := 87
abbrev cc16_sem3_0 : DmaSem sig := 88
abbrev cc16_sem4_0 : DmaSem sig := 89
abbrev cc16_sem4_1 : DmaSem sig := 90
abbrev cc17_sem0_0 : DmaSem sig := 91
abbrev cc17_sem0_1 : DmaSem sig := 92
abbrev cc17_sem1_0 : DmaSem sig := 93
abbrev cc17_sem2_0 : DmaSem sig := 94
abbrev cc17_sem2_1 : DmaSem sig := 95

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S5000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S128x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 2 → Memref sig .tc .vmem S5000x128 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S5000x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

class Facts₀ : Prop where
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S128 : S_.BroadcastsInDim S128 (![] : Fin 0 → Fin S128.rank)
  shapeCasts_S5000x128_S5000x128 : S5000x128.ShapeCasts S5000x128
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  bcast_S_S400000 : S_.BroadcastsInDim S400000 (![] : Fin 0 → Fin S400000.rank)
  concatenates_S400000_S50000_S450000_d0 : Shape.Concatenates [S400000, S50000] S450000 0
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S400000_S400000x1_0 : S400000.BroadcastsInDim S400000x1 (![0] : Fin 1 → Fin S400000x1.rank)
  slices_S256x2_S128x2_0_0 : S256x2.Slices ![0, 0] S128x2
  slices_S256x2_S128x2_128_0 : S256x2.Slices ![128, 0] S128x2
  bcast_S2_S1x2_1 : S2.BroadcastsInDim S1x2 (![1] : Fin 1 → Fin S1x2.rank)
  bcast_S1x2_S400000x2_0_1 : S1x2.BroadcastsInDim S400000x2 (![0, 1] : Fin 2 → Fin S400000x2.rank)
  reducesTo_S400000x2_S400000_d1 : S400000x2.ReducesTo [1] S400000
  h_S_ : 0 < S_.numel
  bcast_S400000x1_S400000x2_0_1 : S400000x1.BroadcastsInDim S400000x2 (![0, 1] : Fin 2 → Fin S400000x2.rank)
  bcast_S450000x1_S450000x2_0_1 : S450000x1.BroadcastsInDim S450000x2 (![0, 1] : Fin 2 → Fin S450000x2.rank)
  bcast_S_S50000x2 : S_.BroadcastsInDim S50000x2 (![] : Fin 0 → Fin S50000x2.rank)
  bcast_S1x2_S50000x2_0_1 : S1x2.BroadcastsInDim S50000x2 (![0, 1] : Fin 2 → Fin S50000x2.rank)
  reducesTo_S50000x2_S50000_d1 : S50000x2.ReducesTo [1] S50000
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  slices_S50000x2_S50000x1_0_0 : S50000x2.Slices ![0, 0] S50000x1
  bcast_S50000x1_S50000x128_0_1 : S50000x1.BroadcastsInDim S50000x128 (![0, 1] : Fin 2 → Fin S50000x128.rank)
  slices_S400000x2_S400000x1_0_0 : S400000x2.Slices ![0, 0] S400000x1
  shapeCasts_S400000x1_S400000 : S400000x1.ShapeCasts S400000
  bcast_S_S512x128 : S_.BroadcastsInDim S512x128 (![] : Fin 0 → Fin S512x128.rank)
  slices_S50000x2_S50000x1_0_1 : S50000x2.Slices ![0, 1] S50000x1
  slices_S400000x2_S400000x1_0_1 : S400000x2.Slices ![0, 1] S400000x1
  reducesTo_S512x128_S128_d0 : S512x128.ReducesTo [0] S128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  concatenates_S512x128_S512x128_S512x256_d1 : Shape.Concatenates [S512x128, S512x128] S512x256 1
  reducesTo_S512x256_S256_d0 : S512x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  dot_S5000x128_S128x128_S5000x128_1_0_0_1_n_n_wf : DotDims.WF S5000x128 S128x128 S5000x128 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  gather_S50000x128_S400000x1_S400000x128_1_0_n_n_0_1_1128_wf : GatherDims.WF S50000x128 S400000x1 S400000x128 [1] [0] [] [0] [] 1 ![1, 128]
  dot_S400000x128_S128x2_S400000x2_1_0_0_1_n_n_wf : DotDims.WF S400000x128 S128x2 S400000x2 [1] [0] [0] [1] [] []
  dot_S50000x128_S128x2_S50000x2_1_0_0_1_n_n_wf : DotDims.WF S50000x128 S128x2 S50000x2 [1] [0] [0] [1] [] []
  gather_S50000x2_S450000x1_S450000x2_1_0_n_n_0_1_12_wf : GatherDims.WF S50000x2 S450000x1 S450000x2 [1] [0] [] [0] [] 1 ![1, 2]
  scatter_S50000x2_S450000x1_S450000x2_1_0_0_1_wf : ScatterDims.WF S50000x2 S450000x1 S450000x2 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x128.size a ≤ S50000x128.size a
  hwx10_4 : ∀ i : grid10.Coords, EltTy.bits .f32 = 32 ∨ (Rect.block (s := S50000x128) S5000x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S50000x128.size a
  hwx11_2 : ∀ i : grid11.Coords, EltTy.bits .f32 = 32 ∨ (Rect.block (s := S50000x128) S5000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x128.size a ≤ S50000x128.size a
  hwx13_4 : ∀ i : grid13.Coords, EltTy.bits .f32 = 32 ∨ (Rect.block (s := S50000x128) S5000x128.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x128.size a ≤ S50000x128.size a
  hwx14_2 : ∀ i : grid14.Coords, EltTy.bits .f32 = 32 ∨ (Rect.block (s := S50000x128) S5000x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128.size a ≤ S1x128.size a
  hwx16_1 : ∀ i : grid16.Coords, EltTy.bits .f32 = 32 ∨ (Rect.block (s := S1x128) S1x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x128.size a ≤ S128x128.size a
  hwx16_3 : ∀ i : grid16.Coords, EltTy.bits .f32 = 32 ∨ (Rect.block (s := S128x128) S128x128.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S5000x128.size a ≤ S50000x128.size a
  hwx16_4 : ∀ i : grid16.Coords, EltTy.bits .f32 = 32 ∨ (Rect.block (s := S50000x128) S5000x128.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S50000x128.size a
  hwx17_0 : ∀ i : grid17.Coords, EltTy.bits .f32 = 32 ∨ (Rect.block (s := S50000x128) S5000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x128.size a ≤ S50000x128.size a
  hwx17_2 : ∀ i : grid17.Coords, EltTy.bits .f32 = 32 ∨ (Rect.block (s := S50000x128) S5000x128.size (cc17_transform_2 i) (hinb17_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x128_S128x2_S400000x2_1_0_0_1_n_n : DotDims S400000x128 S128x2 S400000x2 where
  lhsContracting := [1]
  rhsContracting := [0]
  lhsNonContracting := [0]
  rhsNonContracting := [1]
  lhsBatch := []
  rhsBatch := []
  wf := dot_S400000x128_S128x2_S400000x2_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S450000x1_S450000x2_1_0_n_n_0_1_12 : GatherDims S50000x2 S450000x1 S450000x2 where
  offsetDims := [1]
  collapsedSliceDims := [0]
  operandBatchingDims := []
  startIndicesBatchingDims := []
  startIndexMap := [0]
  indexVectorDim := 1
  sliceSizes := ![1, 2]
  wf := gather_S50000x2_S450000x1_S450000x2_1_0_n_n_0_1_12_wf
def scatter_S50000x2_S450000x1_S450000x2_1_0_0_1 : ScatterDims S50000x2 S450000x1 S450000x2 where
  updateWindowDims := [1]
  insertedWindowDims := [0]
  scatterDimsToOperandDims := [0]
  indexVectorDim := 1
  wf := scatter_S50000x2_S450000x1_S450000x2_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v7) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11_0) S1x128.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11_1) S1x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v10) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v20) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v66) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71_0) S1x128.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71_1) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v70) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v73) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v77) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v79) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v80) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v126) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v129) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v130) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v130) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v131_0) S1x128.size cc9_transform_1 reads9_1 true true 1 stage9_1 sem9_1
    hrank9 hreads9_1 hinb9_1 nbuf9_1 (Memref.isWhole_whole _) hwx9_1 hstage9_1

abbrev win9_2 : Pipeline.Window sig grid9 :=
  Pipeline.Window.ofSpec (Memref.whole main_v131_1) S1x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v130) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v133) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v137) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v139) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v140) S5000x128.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v186) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v189) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v190) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v287) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v288_0) S1x128.size cc12_transform_1 reads12_1 true true 1 stage12_1 sem12_1
    hrank12 hreads12_1 hinb12_1 nbuf12_1 (Memref.isWhole_whole _) hwx12_1 hstage12_1

abbrev win12_2 : Pipeline.Window sig grid12 :=
  Pipeline.Window.ofSpec (Memref.whole main_v288_1) S1x128.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v287) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v290) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v294) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg8) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v295) S5000x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v342) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v343) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v344) S5000x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v350) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v351_0) S1x128.size cc15_transform_1 reads15_1 true true 1 stage15_1 sem15_1
    hrank15 hreads15_1 hinb15_1 nbuf15_1 (Memref.isWhole_whole _) hwx15_1 hstage15_1

abbrev win15_2 : Pipeline.Window sig grid15 :=
  Pipeline.Window.ofSpec (Memref.whole main_v351_1) S1x128.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v350) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v353) S1x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v357) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_arg10) S128x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v358) S5000x128.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v405) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v406) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v407) S5000x128.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S3x128x128 : Shape := ⟨3, ![3, 128, 128]⟩
abbrev S3x128 : Shape := ⟨2, ![3, 128]⟩
abbrev S256x2 : Shape := ⟨2, ![256, 2]⟩
abbrev S2 : Shape := ⟨1, ![2]⟩
abbrev S128x2 : Shape := ⟨2, ![128, 2]⟩
abbrev S128 : Shape := ⟨1, ![128]⟩
abbrev S128x10 : Shape := ⟨2, ![128, 10]⟩
abbrev S10 : Shape := ⟨1, ![10]⟩
abbrev S256x128 : Shape := ⟨2, ![256, 128]⟩
abbrev S400000 : Shape := ⟨1, ![400000]⟩
abbrev S50000 : Shape := ⟨1, ![50000]⟩
abbrev S_ : Shape := ⟨0, ![]⟩
abbrev S1x128 : Shape := ⟨2, ![1, 128]⟩
abbrev S1x128x128 : Shape := ⟨3, ![1, 128, 128]⟩
abbrev S450000 : Shape := ⟨1, ![450000]⟩
abbrev S450000x1 : Shape := ⟨2, ![450000, 1]⟩
abbrev S450000x128 : Shape := ⟨2, ![450000, 128]⟩
abbrev S400000x1 : Shape := ⟨2, ![400000, 1]⟩
abbrev S400000x128 : Shape := ⟨2, ![400000, 128]⟩
abbrev S400000x256 : Shape := ⟨2, ![400000, 256]⟩
abbrev S400000x2 : Shape := ⟨2, ![400000, 2]⟩
abbrev S1x2 : Shape := ⟨2, ![1, 2]⟩
abbrev S50000x2 : Shape := ⟨2, ![50000, 2]⟩
abbrev S450000x2 : Shape := ⟨2, ![450000, 2]⟩
abbrev S50000x1 : Shape := ⟨2, ![50000, 1]⟩
abbrev S512x128 : Shape := ⟨2, ![512, 128]⟩
abbrev S512x10 : Shape := ⟨2, ![512, 10]⟩
abbrev S1x10 : Shape := ⟨2, ![1, 10]⟩
abbrev S512 : Shape := ⟨1, ![512]⟩
abbrev S512x1 : Shape := ⟨2, ![512, 1]⟩
abbrev S512x256 : Shape := ⟨2, ![512, 256]⟩
abbrev S256 : Shape := ⟨1, ![256]⟩
abbrev S1x256 : Shape := ⟨2, ![1, 256]⟩

abbrev nBuf : Space → Nat
  | .hbm => 967
  | .vmem => 0
  | .smem => 0
  | _ => 0

abbrev hbmTy0_0 (i : Nat) : BufTy := match i % 128 with
  | 0 => ⟨S50000x128, .f32⟩
  | 1 => ⟨S128x128, .f32⟩
  | 2 => ⟨S3x128x128, .f32⟩
  | 3 => ⟨S3x128, .f32⟩
  | 4 => ⟨S256x2, .f32⟩
  | 5 => ⟨S2, .f32⟩
  | 6 => ⟨S128x2, .f32⟩
  | 7 => ⟨S2, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x10, .f32⟩
  | 15 => ⟨S10, .f32⟩
  | 16 => ⟨S128x128, .f32⟩
  | 17 => ⟨S128, .f32⟩
  | 18 => ⟨S128x10, .f32⟩
  | 19 => ⟨S10, .f32⟩
  | 20 => ⟨S256x128, .f32⟩
  | 21 => ⟨S128, .f32⟩
  | 22 => ⟨S128x10, .f32⟩
  | 23 => ⟨S10, .f32⟩
  | 24 => ⟨S400000, .i32⟩
  | 25 => ⟨S400000, .i32⟩
  | 26 => ⟨S50000, .i32⟩
  | 27 => ⟨S_, .f32⟩
  | 28 => ⟨S128, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S128, .f32⟩
  | 38 => ⟨S_, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S128, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S1x128x128, .f32⟩
  | 86 => ⟨S128x128, .f32⟩
  | 87 => ⟨S1x128, .f32⟩
  | 88 => ⟨S128, .f32⟩
  | 89 => ⟨S50000x128, .f32⟩
  | 90 => ⟨S_, .f32⟩
  | 91 => ⟨S400000, .f32⟩
  | 92 => ⟨S50000, .i32⟩
  | 93 => ⟨S450000, .i32⟩
  | 94 => ⟨S450000, .i32⟩
  | 95 => ⟨S_, .f32⟩
  | 96 => ⟨S50000, .f32⟩
  | 97 => ⟨S450000, .f32⟩
  | 98 => ⟨S_, .f32⟩
  | 99 => ⟨S50000, .f32⟩
  | 100 => ⟨S450000x1, .i32⟩
  | 101 => ⟨S50000, .f32⟩
  | 102 => ⟨S_, .f32⟩
  | 103 => ⟨S50000, .f32⟩
  | 104 => ⟨S50000, .i1⟩
  | 105 => ⟨S_, .f32⟩
  | 106 => ⟨S_, .f32⟩
  | 107 => ⟨S50000, .f32⟩
  | 108 => ⟨S50000, .f32⟩
  | 109 => ⟨S50000, .f32⟩
  | 110 => ⟨S_, .f32⟩
  | 111 => ⟨S50000, .f32⟩
  | 112 => ⟨S50000, .i1⟩
  | 113 => ⟨S50000, .f32⟩
  | 114 => ⟨S50000, .f32⟩
  | 115 => ⟨S_, .i32⟩
  | 116 => ⟨S450000, .i32⟩
  | 117 => ⟨S450000, .i1⟩
  | 118 => ⟨S_, .i32⟩
  | 119 => ⟨S450000, .i32⟩
  | 120 => ⟨S450000, .i32⟩
  | 121 => ⟨S450000, .i32⟩
  | 122 => ⟨S450000x1, .i32⟩
  | 123 => ⟨S450000, .f32⟩
  | 124 => ⟨S450000, .f32⟩
  | 125 => ⟨S_, .i32⟩
  | 126 => ⟨S450000, .i32⟩
  | 127 => ⟨S450000, .i1⟩
  | _ => ⟨S50000x128, .f32⟩

abbrev hbmTy0_1 (i : Nat) : BufTy := match i % 128 with
  | 0 => ⟨S_, .i32⟩
  | 1 => ⟨S450000, .i32⟩
  | 2 => ⟨S450000, .i32⟩
  | 3 => ⟨S450000, .i32⟩
  | 4 => ⟨S450000x1, .i32⟩
  | 5 => ⟨S450000, .f32⟩
  | 6 => ⟨S450000, .f32⟩
  | 7 => ⟨S450000x1, .f32⟩
  | 8 => ⟨S_, .i32⟩
  | 9 => ⟨S450000, .i32⟩
  | 10 => ⟨S450000, .i1⟩
  | 11 => ⟨S_, .i32⟩
  | 12 => ⟨S450000, .i32⟩
  | 13 => ⟨S450000, .i32⟩
  | 14 => ⟨S450000, .i32⟩
  | 15 => ⟨S450000x1, .i32⟩
  | 16 => ⟨S450000x128, .f32⟩
  | 17 => ⟨S450000x128, .f32⟩
  | 18 => ⟨S450000x128, .f32⟩
  | 19 => ⟨S_, .f32⟩
  | 20 => ⟨S50000x128, .f32⟩
  | 21 => ⟨S450000x1, .i32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S1x128x128, .f32⟩
  | 57 => ⟨S128x128, .f32⟩
  | 58 => ⟨S1x128, .f32⟩
  | 59 => ⟨S128, .f32⟩
  | 60 => ⟨S50000x128, .f32⟩
  | 61 => ⟨S_, .f32⟩
  | 62 => ⟨S400000, .f32⟩
  | 63 => ⟨S50000, .i32⟩
  | 64 => ⟨S450000, .i32⟩
  | 65 => ⟨S450000, .i32⟩
  | 66 => ⟨S_, .f32⟩
  | 67 => ⟨S50000, .f32⟩
  | 68 => ⟨S450000, .f32⟩
  | 69 => ⟨S_, .f32⟩
  | 70 => ⟨S50000, .f32⟩
  | 71 => ⟨S450000x1, .i32⟩
  | 72 => ⟨S50000, .f32⟩
  | 73 => ⟨S_, .f32⟩
  | 74 => ⟨S50000, .f32⟩
  | 75 => ⟨S50000, .i1⟩
  | 76 => ⟨S_, .f32⟩
  | 77 => ⟨S_, .f32⟩
  | 78 => ⟨S50000, .f32⟩
  | 79 => ⟨S50000, .f32⟩
  | 80 => ⟨S50000, .f32⟩
  | 81 => ⟨S_, .f32⟩
  | 82 => ⟨S50000, .f32⟩
  | 83 => ⟨S50000, .i1⟩
  | 84 => ⟨S50000, .f32⟩
  | 85 => ⟨S50000, .f32⟩
  | 86 => ⟨S_, .i32⟩
  | 87 => ⟨S450000, .i32⟩
  | 88 => ⟨S450000, .i1⟩
  | 89 => ⟨S_, .i32⟩
  | 90 => ⟨S450000, .i32⟩
  | 91 => ⟨S450000, .i32⟩
  | 92 => ⟨S450000, .i32⟩
  | 93 => ⟨S450000x1, .i32⟩
  | 94 => ⟨S450000, .f32⟩
  | 95 => ⟨S450000, .f32⟩
  | 96 => ⟨S_, .i32⟩
  | 97 => ⟨S450000, .i32⟩
  | 98 => ⟨S450000, .i1⟩
  | 99 => ⟨S_, .i32⟩
  | 100 => ⟨S450000, .i32⟩
  | 101 => ⟨S450000, .i32⟩
  | 102 => ⟨S450000, .i32⟩
  | 103 => ⟨S450000x1, .i32⟩
  | 104 => ⟨S450000, .f32⟩
  | 105 => ⟨S450000, .f32⟩
  | 106 => ⟨S450000x1, .f32⟩
  | 107 => ⟨S_, .i32⟩
  | 108 => ⟨S450000, .i32⟩
  | 109 => ⟨S450000, .i1⟩
  | 110 => ⟨S_, .i32⟩
  | 111 => ⟨S450000, .i32⟩
  | 112 => ⟨S450000, .i32⟩
  | 113 => ⟨S450000, .i32⟩
  | 114 => ⟨S450000x1, .i32⟩
  | 115 => ⟨S450000x128, .f32⟩
  | 116 => ⟨S450000x128, .f32⟩
  | 117 => ⟨S450000x128, .f32⟩
  | 118 => ⟨S_, .f32⟩
  | 119 => ⟨S50000x128, .f32⟩
  | 120 => ⟨S450000x1, .i32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S_, .f32⟩
  | 18 => ⟨S128, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S50000x128, .f32⟩
  | 32 => ⟨S_, .f32⟩
  | 33 => ⟨S400000, .f32⟩
  | 34 => ⟨S50000, .i32⟩
  | 35 => ⟨S450000, .i32⟩
  | 36 => ⟨S450000, .i32⟩
  | 37 => ⟨S_, .f32⟩
  | 38 => ⟨S50000, .f32⟩
  | 39 => ⟨S450000, .f32⟩
  | 40 => ⟨S_, .f32⟩
  | 41 => ⟨S50000, .f32⟩
  | 42 => ⟨S450000x1, .i32⟩
  | 43 => ⟨S50000, .f32⟩
  | 44 => ⟨S_, .f32⟩
  | 45 => ⟨S50000, .f32⟩
  | 46 => ⟨S50000, .i1⟩
  | 47 => ⟨S_, .f32⟩
  | 48 => ⟨S_, .f32⟩
  | 49 => ⟨S50000, .f32⟩
  | 50 => ⟨S50000, .f32⟩
  | 51 => ⟨S50000, .f32⟩
  | 52 => ⟨S_, .f32⟩
  | 53 => ⟨S50000, .f32⟩
  | 54 => ⟨S50000, .i1⟩
  | 55 => ⟨S50000, .f32⟩
  | 56 => ⟨S50000, .f32⟩
  | 57 => ⟨S_, .i32⟩
  | 58 => ⟨S450000, .i32⟩
  | 59 => ⟨S450000, .i1⟩
  | 60 => ⟨S_, .i32⟩
  | 61 => ⟨S450000, .i32⟩
  | 62 => ⟨S450000, .i32⟩
  | 63 => ⟨S450000, .i32⟩
  | 64 => ⟨S450000x1, .i32⟩
  | 65 => ⟨S450000, .f32⟩
  | 66 => ⟨S450000, .f32⟩
  | 67 => ⟨S_, .i32⟩
  | 68 => ⟨S450000, .i32⟩
  | 69 => ⟨S450000, .i1⟩
  | 70 => ⟨S_, .i32⟩
  | 71 => ⟨S450000, .i32⟩
  | 72 => ⟨S450000, .i32⟩
  | 73 => ⟨S450000, .i32⟩
  | 74 => ⟨S450000x1, .i32⟩
  | 75 => ⟨S450000, .f32⟩
  | 76 => ⟨S450000, .f32⟩
  | 77 => ⟨S450000x1, .f32⟩
  | 78 => ⟨S_, .i32⟩
  | 79 => ⟨S450000, .i32⟩
  | 80 => ⟨S450000, .i1⟩
  | 81 => ⟨S_, .i32⟩
  | 82 => ⟨S450000, .i32⟩
  | 83 => ⟨S450000, .i32⟩
  | 84 => ⟨S450000, .i32⟩
  | 85 => ⟨S450000x1, .i32⟩
  | 86 => ⟨S450000x128, .f32⟩
  | 87 => ⟨S450000x128, .f32⟩
  | 88 => ⟨S450000x128, .f32⟩
  | 89 => ⟨S_, .f32⟩
  | 90 => ⟨S50000x128, .f32⟩
  | 91 => ⟨S450000x1, .i32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x128, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x128, .f32⟩
  | 117 => ⟨S400000x256, .f32⟩
  | 118 => ⟨S400000x2, .f32⟩
  | 119 => ⟨S1x2, .f32⟩
  | 120 => ⟨S400000x2, .f32⟩
  | 121 => ⟨S400000x2, .f32⟩
  | 122 => ⟨S_, .f32⟩
  | 123 => ⟨S400000, .f32⟩
  | 124 => ⟨S_, .f32⟩
  | 125 => ⟨S400000, .f32⟩
  | 126 => ⟨S400000, .f32⟩
  | 127 => ⟨S400000x1, .f32⟩
  | _ => ⟨S50000x128, .f32⟩

abbrev hbmTy0_3 (i : Nat) : BufTy := match i % 128 with
  | 0 => ⟨S400000x2, .f32⟩
  | 1 => ⟨S400000x2, .f32⟩
  | 2 => ⟨S400000x2, .f32⟩
  | 3 => ⟨S_, .f32⟩
  | 4 => ⟨S400000, .f32⟩
  | 5 => ⟨S400000x1, .f32⟩
  | 6 => ⟨S400000x2, .f32⟩
  | 7 => ⟨S400000x2, .f32⟩
  | 8 => ⟨S50000x2, .f32⟩
  | 9 => ⟨S_, .f32⟩
  | 10 => ⟨S400000, .f32⟩
  | 11 => ⟨S50000, .i32⟩
  | 12 => ⟨S450000, .i32⟩
  | 13 => ⟨S450000, .i32⟩
  | 14 => ⟨S_, .f32⟩
  | 15 => ⟨S50000, .f32⟩
  | 16 => ⟨S450000, .f32⟩
  | 17 => ⟨S_, .f32⟩
  | 18 => ⟨S50000, .f32⟩
  | 19 => ⟨S450000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S_, .f32⟩
  | 26 => ⟨S50000, .f32⟩
  | 27 => ⟨S50000, .f32⟩
  | 28 => ⟨S50000, .f32⟩
  | 29 => ⟨S_, .f32⟩
  | 30 => ⟨S50000, .f32⟩
  | 31 => ⟨S50000, .i1⟩
  | 32 => ⟨S50000, .f32⟩
  | 33 => ⟨S50000, .f32⟩
  | 34 => ⟨S_, .i32⟩
  | 35 => ⟨S450000, .i32⟩
  | 36 => ⟨S450000, .i1⟩
  | 37 => ⟨S_, .i32⟩
  | 38 => ⟨S450000, .i32⟩
  | 39 => ⟨S450000, .i32⟩
  | 40 => ⟨S450000, .i32⟩
  | 41 => ⟨S450000x1, .i32⟩
  | 42 => ⟨S450000, .f32⟩
  | 43 => ⟨S450000, .f32⟩
  | 44 => ⟨S_, .i32⟩
  | 45 => ⟨S450000, .i32⟩
  | 46 => ⟨S450000, .i1⟩
  | 47 => ⟨S_, .i32⟩
  | 48 => ⟨S450000, .i32⟩
  | 49 => ⟨S450000, .i32⟩
  | 50 => ⟨S450000, .i32⟩
  | 51 => ⟨S450000x1, .i32⟩
  | 52 => ⟨S450000, .f32⟩
  | 53 => ⟨S450000, .f32⟩
  | 54 => ⟨S450000x1, .f32⟩
  | 55 => ⟨S_, .i32⟩
  | 56 => ⟨S450000, .i32⟩
  | 57 => ⟨S450000, .i1⟩
  | 58 => ⟨S_, .i32⟩
  | 59 => ⟨S450000, .i32⟩
  | 60 => ⟨S450000, .i32⟩
  | 61 => ⟨S450000, .i32⟩
  | 62 => ⟨S450000x1, .i32⟩
  | 63 => ⟨S450000x2, .f32⟩
  | 64 => ⟨S450000x2, .f32⟩
  | 65 => ⟨S450000x2, .f32⟩
  | 66 => ⟨S_, .f32⟩
  | 67 => ⟨S50000x2, .f32⟩
  | 68 => ⟨S450000x1, .i32⟩
  | 69 => ⟨S50000x2, .f32⟩
  | 70 => ⟨S1x2, .f32⟩
  | 71 => ⟨S50000x2, .f32⟩
  | 72 => ⟨S50000x2, .f32⟩
  | 73 => ⟨S_, .f32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x2, .f32⟩
  | 80 => ⟨S50000x2, .f32⟩
  | 81 => ⟨S50000x2, .f32⟩
  | 82 => ⟨S_, .f32⟩
  | 83 => ⟨S50000, .f32⟩
  | 84 => ⟨S50000x1, .f32⟩
  | 85 => ⟨S50000x2, .f32⟩
  | 86 => ⟨S50000x2, .f32⟩
  | 87 => ⟨S50000x1, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S128, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S400000x1, .f32⟩
  | 118 => ⟨S400000, .f32⟩
  | 119 => ⟨S50000x128, .f32⟩
  | 120 => ⟨S50000, .i32⟩
  | 121 => ⟨S450000, .i32⟩
  | 122 => ⟨S450000, .i32⟩
  | 123 => ⟨S_, .f32⟩
  | 124 => ⟨S50000, .f32⟩
  | 125 => ⟨S450000, .f32⟩
  | 126 => ⟨S_, .f32⟩
  | 127 => ⟨S50000, .f32⟩
  | _ => ⟨S50000x128, .f32⟩

abbrev hbmTy0_4 (i : Nat) : BufTy := match i % 128 with
  | 0 => ⟨S450000x1, .i32⟩
  | 1 => ⟨S50000, .f32⟩
  | 2 => ⟨S_, .f32⟩
  | 3 => ⟨S50000, .f32⟩
  | 4 => ⟨S50000, .i1⟩
  | 5 => ⟨S_, .f32⟩
  | 6 => ⟨S_, .f32⟩
  | 7 => ⟨S50000, .f32⟩
  | 8 => ⟨S50000, .f32⟩
  | 9 => ⟨S50000, .f32⟩
  | 10 => ⟨S_, .f32⟩
  | 11 => ⟨S50000, .f32⟩
  | 12 => ⟨S50000, .i1⟩
  | 13 => ⟨S50000, .f32⟩
  | 14 => ⟨S50000, .f32⟩
  | 15 => ⟨S_, .i32⟩
  | 16 => ⟨S450000, .i32⟩
  | 17 => ⟨S450000, .i1⟩
  | 18 => ⟨S_, .i32⟩
  | 19 => ⟨S450000, .i32⟩
  | 20 => ⟨S450000, .i32⟩
  | 21 => ⟨S450000, .i32⟩
  | 22 => ⟨S450000x1, .i32⟩
  | 23 => ⟨S450000, .f32⟩
  | 24 => ⟨S450000, .f32⟩
  | 25 => ⟨S_, .i32⟩
  | 26 => ⟨S450000, .i32⟩
  | 27 => ⟨S450000, .i1⟩
  | 28 => ⟨S_, .i32⟩
  | 29 => ⟨S450000, .i32⟩
  | 30 => ⟨S450000, .i32⟩
  | 31 => ⟨S450000, .i32⟩
  | 32 => ⟨S450000x1, .i32⟩
  | 33 => ⟨S450000, .f32⟩
  | 34 => ⟨S450000, .f32⟩
  | 35 => ⟨S450000x1, .f32⟩
  | 36 => ⟨S_, .i32⟩
  | 37 => ⟨S450000, .i32⟩
  | 38 => ⟨S450000, .i1⟩
  | 39 => ⟨S_, .i32⟩
  | 40 => ⟨S450000, .i32⟩
  | 41 => ⟨S450000, .i32⟩
  | 42 => ⟨S450000, .i32⟩
  | 43 => ⟨S450000x1, .i32⟩
  | 44 => ⟨S450000x128, .f32⟩
  | 45 => ⟨S450000x128, .f32⟩
  | 46 => ⟨S450000x128, .f32⟩
  | 47 => ⟨S_, .f32⟩
  | 48 => ⟨S50000x128, .f32⟩
  | 49 => ⟨S450000x1, .i32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .i1⟩
  | 57 => ⟨S_, .f32⟩
  | 58 => ⟨S50000x128, .f32⟩
  | 59 => ⟨S50000x128, .i1⟩
  | 60 => ⟨S_, .f32⟩
  | 61 => ⟨S_, .f32⟩
  | 62 => ⟨S50000x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S_, .f32⟩
  | 70 => ⟨S512x128, .f32⟩
  | 71 => ⟨S50000x1, .i32⟩
  | 72 => ⟨S512x128, .f32⟩
  | 73 => ⟨S50000x1, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S400000x1, .f32⟩
  | 104 => ⟨S400000, .f32⟩
  | 105 => ⟨S50000x128, .f32⟩
  | 106 => ⟨S50000, .i32⟩
  | 107 => ⟨S450000, .i32⟩
  | 108 => ⟨S450000, .i32⟩
  | 109 => ⟨S_, .f32⟩
  | 110 => ⟨S50000, .f32⟩
  | 111 => ⟨S450000, .f32⟩
  | 112 => ⟨S_, .f32⟩
  | 113 => ⟨S50000, .f32⟩
  | 114 => ⟨S450000x1, .i32⟩
  | 115 => ⟨S50000, .f32⟩
  | 116 => ⟨S_, .f32⟩
  | 117 => ⟨S50000, .f32⟩
  | 118 => ⟨S50000, .i1⟩
  | 119 => ⟨S_, .f32⟩
  | 120 => ⟨S_, .f32⟩
  | 121 => ⟨S50000, .f32⟩
  | 122 => ⟨S50000, .f32⟩
  | 123 => ⟨S50000, .f32⟩
  | 124 => ⟨S_, .f32⟩
  | 125 => ⟨S50000, .f32⟩
  | 126 => ⟨S50000, .i1⟩
  | 127 => ⟨S50000, .f32⟩
  | _ => ⟨S50000x128, .f32⟩

abbrev hbmTy0_5 (i : Nat) : BufTy := match i % 128 with
  | 0 => ⟨S50000, .f32⟩
  | 1 => ⟨S_, .i32⟩
  | 2 => ⟨S450000, .i32⟩
  | 3 => ⟨S450000, .i1⟩
  | 4 => ⟨S_, .i32⟩
  | 5 => ⟨S450000, .i32⟩
  | 6 => ⟨S450000, .i32⟩
  | 7 => ⟨S450000, .i32⟩
  | 8 => ⟨S450000x1, .i32⟩
  | 9 => ⟨S450000, .f32⟩
  | 10 => ⟨S450000, .f32⟩
  | 11 => ⟨S_, .i32⟩
  | 12 => ⟨S450000, .i32⟩
  | 13 => ⟨S450000, .i1⟩
  | 14 => ⟨S_, .i32⟩
  | 15 => ⟨S450000, .i32⟩
  | 16 => ⟨S450000, .i32⟩
  | 17 => ⟨S450000, .i32⟩
  | 18 => ⟨S450000x1, .i32⟩
  | 19 => ⟨S450000, .f32⟩
  | 20 => ⟨S450000, .f32⟩
  | 21 => ⟨S450000x1, .f32⟩
  | 22 => ⟨S_, .i32⟩
  | 23 => ⟨S450000, .i32⟩
  | 24 => ⟨S450000, .i1⟩
  | 25 => ⟨S_, .i32⟩
  | 26 => ⟨S450000, .i32⟩
  | 27 => ⟨S450000, .i32⟩
  | 28 => ⟨S450000, .i32⟩
  | 29 => ⟨S450000x1, .i32⟩
  | 30 => ⟨S450000x128, .f32⟩
  | 31 => ⟨S450000x128, .f32⟩
  | 32 => ⟨S450000x128, .f32⟩
  | 33 => ⟨S_, .f32⟩
  | 34 => ⟨S50000x128, .f32⟩
  | 35 => ⟨S450000x1, .i32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .i1⟩
  | 43 => ⟨S_, .f32⟩
  | 44 => ⟨S50000x128, .f32⟩
  | 45 => ⟨S50000x128, .i1⟩
  | 46 => ⟨S_, .f32⟩
  | 47 => ⟨S_, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S_, .f32⟩
  | 56 => ⟨S512x128, .f32⟩
  | 57 => ⟨S50000x1, .i32⟩
  | 58 => ⟨S512x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S512x128, .f32⟩
  | 66 => ⟨S512x128, .f32⟩
  | 67 => ⟨S512x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S512x128, .f32⟩
  | 75 => ⟨S512x128, .f32⟩
  | 76 => ⟨S_, .f32⟩
  | 77 => ⟨S128, .f32⟩
  | 78 => ⟨S128, .f32⟩
  | 79 => ⟨S128, .f32⟩
  | 80 => ⟨S1x128, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S512x128, .f32⟩
  | 87 => ⟨S1x128, .f32⟩
  | 88 => ⟨S512x128, .f32⟩
  | 89 => ⟨S512x128, .f32⟩
  | 90 => ⟨S_, .f32⟩
  | 91 => ⟨S512x128, .f32⟩
  | 92 => ⟨S512x128, .f32⟩
  | 93 => ⟨S_, .f32⟩
  | 94 => ⟨S128, .f32⟩
  | 95 => ⟨S_, .f32⟩
  | 96 => ⟨S128, .f32⟩
  | 97 => ⟨S128, .f32⟩
  | 98 => ⟨S1x128, .f32⟩
  | 99 => ⟨S512x128, .f32⟩
  | 100 => ⟨S512x128, .f32⟩
  | 101 => ⟨S512x128, .f32⟩
  | 102 => ⟨S_, .f32⟩
  | 103 => ⟨S128, .f32⟩
  | 104 => ⟨S_, .f32⟩
  | 105 => ⟨S128, .f32⟩
  | 106 => ⟨S128, .f32⟩
  | 107 => ⟨S1x128, .f32⟩
  | 108 => ⟨S512x128, .f32⟩
  | 109 => ⟨S512x128, .f32⟩
  | 110 => ⟨S_, .f32⟩
  | 111 => ⟨S128, .f32⟩
  | 112 => ⟨S128, .f32⟩
  | 113 => ⟨S128, .f32⟩
  | 114 => ⟨S1x128, .f32⟩
  | 115 => ⟨S512x128, .f32⟩
  | 116 => ⟨S512x128, .f32⟩
  | 117 => ⟨S_, .f32⟩
  | 118 => ⟨S512x128, .f32⟩
  | 119 => ⟨S512x128, .f32⟩
  | 120 => ⟨S512x10, .f32⟩
  | 121 => ⟨S1x10, .f32⟩
  | 122 => ⟨S512x10, .f32⟩
  | 123 => ⟨S512x10, .f32⟩
  | 124 => ⟨S_, .f32⟩
  | 125 => ⟨S512, .f32⟩
  | 126 => ⟨S_, .f32⟩
  | 127 => ⟨S512, .f32⟩
  | _ => ⟨S50000x128, .f32⟩

abbrev hbmTy0_6 (i : Nat) : BufTy := match i % 128 with
  | 0 => ⟨S512, .f32⟩
  | 1 => ⟨S512x1, .f32⟩
  | 2 => ⟨S512x10, .f32⟩
  | 3 => ⟨S512x10, .f32⟩
  | 4 => ⟨S512x10, .f32⟩
  | 5 => ⟨S_, .f32⟩
  | 6 => ⟨S512, .f32⟩
  | 7 => ⟨S512x1, .f32⟩
  | 8 => ⟨S512x1, .f32⟩
  | 9 => ⟨S512x10, .f32⟩
  | 10 => ⟨S512x10, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S512x128, .f32⟩
  | 18 => ⟨S512x128, .f32⟩
  | 19 => ⟨S512x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S512x128, .f32⟩
  | 27 => ⟨S512x128, .f32⟩
  | 28 => ⟨S_, .f32⟩
  | 29 => ⟨S128, .f32⟩
  | 30 => ⟨S128, .f32⟩
  | 31 => ⟨S128, .f32⟩
  | 32 => ⟨S1x128, .f32⟩
  | 33 => ⟨S512x128, .f32⟩
  | 34 => ⟨S512x128, .f32⟩
  | 35 => ⟨S_, .f32⟩
  | 36 => ⟨S512x128, .f32⟩
  | 37 => ⟨S512x128, .f32⟩
  | 38 => ⟨S512x128, .f32⟩
  | 39 => ⟨S1x128, .f32⟩
  | 40 => ⟨S512x128, .f32⟩
  | 41 => ⟨S512x128, .f32⟩
  | 42 => ⟨S_, .f32⟩
  | 43 => ⟨S512x128, .f32⟩
  | 44 => ⟨S512x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S512x128, .f32⟩
  | 52 => ⟨S512x128, .f32⟩
  | 53 => ⟨S512x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S512x128, .f32⟩
  | 61 => ⟨S512x128, .f32⟩
  | 62 => ⟨S_, .f32⟩
  | 63 => ⟨S128, .f32⟩
  | 64 => ⟨S128, .f32⟩
  | 65 => ⟨S128, .f32⟩
  | 66 => ⟨S1x128, .f32⟩
  | 67 => ⟨S512x128, .f32⟩
  | 68 => ⟨S512x128, .f32⟩
  | 69 => ⟨S_, .f32⟩
  | 70 => ⟨S512x128, .f32⟩
  | 71 => ⟨S512x128, .f32⟩
  | 72 => ⟨S512x10, .f32⟩
  | 73 => ⟨S1x10, .f32⟩
  | 74 => ⟨S512x10, .f32⟩
  | 75 => ⟨S512x10, .f32⟩
  | 76 => ⟨S_, .f32⟩
  | 77 => ⟨S512, .f32⟩
  | 78 => ⟨S_, .f32⟩
  | 79 => ⟨S512, .f32⟩
  | 80 => ⟨S512, .f32⟩
  | 81 => ⟨S512x1, .f32⟩
  | 82 => ⟨S512x10, .f32⟩
  | 83 => ⟨S512x10, .f32⟩
  | 84 => ⟨S512x10, .f32⟩
  | 85 => ⟨S_, .f32⟩
  | 86 => ⟨S512, .f32⟩
  | 87 => ⟨S512x1, .f32⟩
  | 88 => ⟨S512x1, .f32⟩
  | 89 => ⟨S512x10, .f32⟩
  | 90 => ⟨S512x10, .f32⟩
  | 91 => ⟨S512x256, .f32⟩
  | 92 => ⟨S_, .f32⟩
  | 93 => ⟨S256, .f32⟩
  | 94 => ⟨S_, .f32⟩
  | 95 => ⟨S256, .f32⟩
  | 96 => ⟨S256, .f32⟩
  | 97 => ⟨S1x256, .f32⟩
  | 98 => ⟨S512x256, .f32⟩
  | 99 => ⟨S512x256, .f32⟩
  | 100 => ⟨S512x256, .f32⟩
  | 101 => ⟨S_, .f32⟩
  | 102 => ⟨S256, .f32⟩
  | 103 => ⟨S_, .f32⟩
  | 104 => ⟨S256, .f32⟩
  | 105 => ⟨S256, .f32⟩
  | 106 => ⟨S1x256, .f32⟩
  | 107 => ⟨S512x256, .f32⟩
  | 108 => ⟨S512x256, .f32⟩
  | 109 => ⟨S_, .f32⟩
  | 110 => ⟨S256, .f32⟩
  | 111 => ⟨S256, .f32⟩
  | 112 => ⟨S256, .f32⟩
  | 113 => ⟨S1x256, .f32⟩
  | 114 => ⟨S512x256, .f32⟩
  | 115 => ⟨S512x256, .f32⟩
  | 116 => ⟨S_, .f32⟩
  | 117 => ⟨S512x256, .f32⟩
  | 118 => ⟨S512x256, .f32⟩
  | 119 => ⟨S512x128, .f32⟩
  | 120 => ⟨S1x128, .f32⟩
  | 121 => ⟨S512x128, .f32⟩
  | 122 => ⟨S512x128, .f32⟩
  | 123 => ⟨S_, .f32⟩
  | 124 => ⟨S512x128, .f32⟩
  | 125 => ⟨S512x128, .i1⟩
  | 126 => ⟨S_, .f32⟩
  | 127 => ⟨S512x128, .f32⟩
  | _ => ⟨S50000x128, .f32⟩

abbrev hbmTy0_7 (i : Nat) : BufTy := match i % 128 with
  | 0 => ⟨S512x128, .i1⟩
  | 1 => ⟨S_, .f32⟩
  | 2 => ⟨S_, .f32⟩
  | 3 => ⟨S512x128, .f32⟩
  | 4 => ⟨S512x128, .f32⟩
  | 5 => ⟨S512x128, .f32⟩
  | 6 => ⟨S_, .f32⟩
  | 7 => ⟨S512x128, .f32⟩
  | 8 => ⟨S512x128, .f32⟩
  | 9 => ⟨S512x128, .f32⟩
  | 10 => ⟨S_, .f32⟩
  | 11 => ⟨S512x128, .f32⟩
  | 12 => ⟨S512x128, .i1⟩
  | 13 => ⟨S_, .f32⟩
  | 14 => ⟨S512x128, .f32⟩
  | 15 => ⟨S512x128, .i1⟩
  | 16 => ⟨S_, .f32⟩
  | 17 => ⟨S_, .f32⟩
  | 18 => ⟨S512x128, .f32⟩
  | 19 => ⟨S512x128, .f32⟩
  | 20 => ⟨S512x128, .f32⟩
  | 21 => ⟨S_, .f32⟩
  | 22 => ⟨S512x128, .f32⟩
  | 23 => ⟨S512x128, .f32⟩
  | 24 => ⟨S512x128, .f32⟩
  | 25 => ⟨S_, .f32⟩
  | 26 => ⟨S128, .f32⟩
  | 27 => ⟨S_, .f32⟩
  | 28 => ⟨S128, .f32⟩
  | 29 => ⟨S128, .f32⟩
  | 30 => ⟨S1x128, .f32⟩
  | 31 => ⟨S512x128, .f32⟩
  | 32 => ⟨S512x128, .f32⟩
  | 33 => ⟨S512x128, .f32⟩
  | 34 => ⟨S_, .f32⟩
  | 35 => ⟨S128, .f32⟩
  | 36 => ⟨S_, .f32⟩
  | 37 => ⟨S128, .f32⟩
  | 38 => ⟨S128, .f32⟩
  | 39 => ⟨S1x128, .f32⟩
  | 40 => ⟨S512x128, .f32⟩
  | 41 => ⟨S512x128, .f32⟩
  | 42 => ⟨S_, .f32⟩
  | 43 => ⟨S128, .f32⟩
  | 44 => ⟨S128, .f32⟩
  | 45 => ⟨S128, .f32⟩
  | 46 => ⟨S1x128, .f32⟩
  | 47 => ⟨S512x128, .f32⟩
  | 48 => ⟨S512x128, .f32⟩
  | 49 => ⟨S_, .f32⟩
  | 50 => ⟨S512x128, .f32⟩
  | 51 => ⟨S512x128, .f32⟩
  | 52 => ⟨S512x10, .f32⟩
  | 53 => ⟨S1x10, .f32⟩
  | 54 => ⟨S512x10, .f32⟩
  | 55 => ⟨S512x10, .f32⟩
  | 56 => ⟨S_, .f32⟩
  | 57 => ⟨S512, .f32⟩
  | 58 => ⟨S_, .f32⟩
  | 59 => ⟨S512, .f32⟩
  | 60 => ⟨S512, .f32⟩
  | 61 => ⟨S512x1, .f32⟩
  | 62 => ⟨S512x10, .f32⟩
  | 63 => ⟨S512x10, .f32⟩
  | 64 => ⟨S512x10, .f32⟩
  | 65 => ⟨S_, .f32⟩
  | 66 => ⟨S512, .f32⟩
  | 67 => ⟨S512x1, .f32⟩
  | 68 => ⟨S512x1, .f32⟩
  | 69 => ⟨S512x10, .f32⟩
  | 70 => ⟨S512x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_cst_0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_cst_2 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_3 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_4 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call0_cst : Ref sig .tc := ⟨.hbm, 55, rfl⟩
abbrev main_call0_v0 : Ref sig .tc := ⟨.hbm, 56, rfl⟩
abbrev main_v22 : Ref sig .tc := ⟨.hbm, 57, rfl⟩
abbrev main_cst_5 : Ref sig .tc := ⟨.hbm, 58, rfl⟩
abbrev main_v23 : Ref sig .tc := ⟨.hbm, 59, rfl⟩
abbrev main_cst_6 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_7 : Ref sig .tc := ⟨.hbm, 67, rfl⟩
abbrev main_v30 : Ref sig .tc := ⟨.hbm, 68, rfl⟩
abbrev main_cst_8 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_9 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_10 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_11 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_12 : Ref sig .tc := ⟨.hbm, 95, rfl⟩
abbrev main_v53 : Ref sig .tc := ⟨.hbm, 96, rfl⟩
abbrev main_v54 : Ref sig .tc := ⟨.hbm, 97, rfl⟩
abbrev main_cst_13 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_14 : Ref sig .tc := ⟨.hbm, 102, rfl⟩
abbrev main_v58 : Ref sig .tc := ⟨.hbm, 103, rfl⟩
abbrev main_v59 : Ref sig .tc := ⟨.hbm, 104, rfl⟩
abbrev main_cst_15 : Ref sig .tc := ⟨.hbm, 105, rfl⟩
abbrev main_call1_v0 : Ref sig .tc := ⟨.hbm, 106, rfl⟩
abbrev main_call1_v1 : Ref sig .tc := ⟨.hbm, 107, rfl⟩
abbrev main_v60 : Ref sig .tc := ⟨.hbm, 108, rfl⟩
abbrev main_v61 : Ref sig .tc := ⟨.hbm, 109, rfl⟩
abbrev main_cst_16 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_c : Ref sig .tc := ⟨.hbm, 115, rfl⟩
abbrev main_v66 : Ref sig .tc := ⟨.hbm, 116, rfl⟩
abbrev main_v67 : Ref sig .tc := ⟨.hbm, 117, rfl⟩
abbrev main_c_17 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_c_18 : Ref sig .tc := ⟨.hbm, 125, rfl⟩
abbrev main_v74 : Ref sig .tc := ⟨.hbm, 126, rfl⟩
abbrev main_v75 : Ref sig .tc := ⟨.hbm, 127, rfl⟩
abbrev main_c_19 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_c_20 : Ref sig .tc := ⟨.hbm, 136, rfl⟩
abbrev main_v83 : Ref sig .tc := ⟨.hbm, 137, rfl⟩
abbrev main_v84 : Ref sig .tc := ⟨.hbm, 138, rfl⟩
abbrev main_c_21 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_22 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_call2_cst : Ref sig .tc := ⟨.hbm, 154, rfl⟩
abbrev main_call2_v0 : Ref sig .tc := ⟨.hbm, 155, rfl⟩
abbrev main_v98 : Ref sig .tc := ⟨.hbm, 156, rfl⟩
abbrev main_cst_23 : Ref sig .tc := ⟨.hbm, 157, rfl⟩
abbrev main_v99 : Ref sig .tc := ⟨.hbm, 158, rfl⟩
abbrev main_cst_24 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_25 : Ref sig .tc := ⟨.hbm, 166, rfl⟩
abbrev main_v106 : Ref sig .tc := ⟨.hbm, 167, rfl⟩
abbrev main_cst_26 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_27 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_28 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_cst_29 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_cst_30 : Ref sig .tc := ⟨.hbm, 194, rfl⟩
abbrev main_v129 : Ref sig .tc := ⟨.hbm, 195, rfl⟩
abbrev main_v130 : Ref sig .tc := ⟨.hbm, 196, rfl⟩
abbrev main_cst_31 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_32 : Ref sig .tc := ⟨.hbm, 201, rfl⟩
abbrev main_v134 : Ref sig .tc := ⟨.hbm, 202, rfl⟩
abbrev main_v135 : Ref sig .tc := ⟨.hbm, 203, rfl⟩
abbrev main_cst_33 : Ref sig .tc := ⟨.hbm, 204, rfl⟩
abbrev main_call3_v0 : Ref sig .tc := ⟨.hbm, 205, rfl⟩
abbrev main_call3_v1 : Ref sig .tc := ⟨.hbm, 206, rfl⟩
abbrev main_v136 : Ref sig .tc := ⟨.hbm, 207, rfl⟩
abbrev main_v137 : Ref sig .tc := ⟨.hbm, 208, rfl⟩
abbrev main_cst_34 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_c_35 : Ref sig .tc := ⟨.hbm, 214, rfl⟩
abbrev main_v142 : Ref sig .tc := ⟨.hbm, 215, rfl⟩
abbrev main_v143 : Ref sig .tc := ⟨.hbm, 216, rfl⟩
abbrev main_c_36 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_c_37 : Ref sig .tc := ⟨.hbm, 224, rfl⟩
abbrev main_v150 : Ref sig .tc := ⟨.hbm, 225, rfl⟩
abbrev main_v151 : Ref sig .tc := ⟨.hbm, 226, rfl⟩
abbrev main_c_38 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_c_39 : Ref sig .tc := ⟨.hbm, 235, rfl⟩
abbrev main_v159 : Ref sig .tc := ⟨.hbm, 236, rfl⟩
abbrev main_v160 : Ref sig .tc := ⟨.hbm, 237, rfl⟩
abbrev main_c_40 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_cst_41 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_call4_cst : Ref sig .tc := ⟨.hbm, 253, rfl⟩
abbrev main_call4_v0 : Ref sig .tc := ⟨.hbm, 254, rfl⟩
abbrev main_v174 : Ref sig .tc := ⟨.hbm, 255, rfl⟩
abbrev main_cst_42 : Ref sig .tc := ⟨.hbm, 256, rfl⟩
abbrev main_v175 : Ref sig .tc := ⟨.hbm, 257, rfl⟩
abbrev main_cst_43 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_cst_44 : Ref sig .tc := ⟨.hbm, 265, rfl⟩
abbrev main_v182 : Ref sig .tc := ⟨.hbm, 266, rfl⟩
abbrev main_cst_45 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_cst_46 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_cst_47 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_cst_48 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_cst_49 : Ref sig .tc := ⟨.hbm, 293, rfl⟩
abbrev main_v205 : Ref sig .tc := ⟨.hbm, 294, rfl⟩
abbrev main_v206 : Ref sig .tc := ⟨.hbm, 295, rfl⟩
abbrev main_cst_50 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_cst_51 : Ref sig .tc := ⟨.hbm, 300, rfl⟩
abbrev main_v210 : Ref sig .tc := ⟨.hbm, 301, rfl⟩
abbrev main_v211 : Ref sig .tc := ⟨.hbm, 302, rfl⟩
abbrev main_cst_52 : Ref sig .tc := ⟨.hbm, 303, rfl⟩
abbrev main_call5_v0 : Ref sig .tc := ⟨.hbm, 304, rfl⟩
abbrev main_call5_v1 : Ref sig .tc := ⟨.hbm, 305, rfl⟩
abbrev main_v212 : Ref sig .tc := ⟨.hbm, 306, rfl⟩
abbrev main_v213 : Ref sig .tc := ⟨.hbm, 307, rfl⟩
abbrev main_cst_53 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_c_54 : Ref sig .tc := ⟨.hbm, 313, rfl⟩
abbrev main_v218 : Ref sig .tc := ⟨.hbm, 314, rfl⟩
abbrev main_v219 : Ref sig .tc := ⟨.hbm, 315, rfl⟩
abbrev main_c_55 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_c_56 : Ref sig .tc := ⟨.hbm, 323, rfl⟩
abbrev main_v226 : Ref sig .tc := ⟨.hbm, 324, rfl⟩
abbrev main_v227 : Ref sig .tc := ⟨.hbm, 325, rfl⟩
abbrev main_c_57 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_c_58 : Ref sig .tc := ⟨.hbm, 334, rfl⟩
abbrev main_v235 : Ref sig .tc := ⟨.hbm, 335, rfl⟩
abbrev main_v236 : Ref sig .tc := ⟨.hbm, 336, rfl⟩
abbrev main_c_59 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_cst_60 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_call6_cst : Ref sig .tc := ⟨.hbm, 352, rfl⟩
abbrev main_call6_v0 : Ref sig .tc := ⟨.hbm, 353, rfl⟩
abbrev main_v250 : Ref sig .tc := ⟨.hbm, 354, rfl⟩
abbrev main_c_61 : Ref sig .tc := ⟨.hbm, 355, rfl⟩
abbrev main_v251 : Ref sig .tc := ⟨.hbm, 356, rfl⟩
abbrev main_v252 : Ref sig .tc := ⟨.hbm, 357, rfl⟩
abbrev main_c_62 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_c_63 : Ref sig .tc := ⟨.hbm, 364, rfl⟩
abbrev main_v258 : Ref sig .tc := ⟨.hbm, 365, rfl⟩
abbrev main_v259 : Ref sig .tc := ⟨.hbm, 366, rfl⟩
abbrev main_c_64 : Ref sig .tc := ⟨.hbm, 367, rfl⟩
abbrev main_v260 : Ref sig .tc := ⟨.hbm, 368, rfl⟩
abbrev main_v261 : Ref sig .tc := ⟨.hbm, 369, rfl⟩
abbrev main_v262 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_v269 : Ref sig .tc := ⟨.hbm, 377, rfl⟩
abbrev main_cst_65 : Ref sig .tc := ⟨.hbm, 378, rfl⟩
abbrev main_v270 : Ref sig .tc := ⟨.hbm, 379, rfl⟩
abbrev main_cst_66 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_v276 : Ref sig .tc := ⟨.hbm, 386, rfl⟩
abbrev main_cst_67 : Ref sig .tc := ⟨.hbm, 387, rfl⟩
abbrev main_v277 : Ref sig .tc := ⟨.hbm, 388, rfl⟩
abbrev main_v278 : Ref sig .tc := ⟨.hbm, 389, rfl⟩
abbrev main_v279 : Ref sig .tc := ⟨.hbm, 390, rfl⟩
abbrev main_v280 : Ref sig .tc := ⟨.hbm, 391, rfl⟩
abbrev main_v281 : Ref sig .tc := ⟨.hbm, 392, rfl⟩
abbrev main_cst_68 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_cst_69 : Ref sig .tc := ⟨.hbm, 398, rfl⟩
abbrev main_v286 : Ref sig .tc := ⟨.hbm, 399, rfl⟩
abbrev main_v287 : Ref sig .tc := ⟨.hbm, 400, rfl⟩
abbrev main_cst_70 : Ref sig .tc := ⟨.hbm, 401, rfl⟩
abbrev main_v288 : Ref sig .tc := ⟨.hbm, 402, rfl⟩
abbrev main_v289 : Ref sig .tc := ⟨.hbm, 403, rfl⟩
abbrev main_v290 : Ref sig .tc := ⟨.hbm, 404, rfl⟩
abbrev main_cst_71 : Ref sig .tc := ⟨.hbm, 405, rfl⟩
abbrev main_v291 : Ref sig .tc := ⟨.hbm, 406, rfl⟩
abbrev main_v292 : Ref sig .tc := ⟨.hbm, 407, rfl⟩
abbrev main_cst_72 : Ref sig .tc := ⟨.hbm, 408, rfl⟩
abbrev main_call7_v0 : Ref sig .tc := ⟨.hbm, 409, rfl⟩
abbrev main_call7_v1 : Ref sig .tc := ⟨.hbm, 410, rfl⟩
abbrev main_v293 : Ref sig .tc := ⟨.hbm, 411, rfl⟩
abbrev main_v294 : Ref sig .tc := ⟨.hbm, 412, rfl⟩
abbrev main_cst_73 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_v298 : Ref sig .tc := ⟨.hbm, 417, rfl⟩
abbrev main_c_74 : Ref sig .tc := ⟨.hbm, 418, rfl⟩
abbrev main_v299 : Ref sig .tc := ⟨.hbm, 419, rfl⟩
abbrev main_v300 : Ref sig .tc := ⟨.hbm, 420, rfl⟩
abbrev main_c_75 : Ref sig .tc := ⟨.hbm, 421, rfl⟩
abbrev main_v301 : Ref sig .tc := ⟨.hbm, 422, rfl⟩
abbrev main_v302 : Ref sig .tc := ⟨.hbm, 423, rfl⟩
abbrev main_v303 : Ref sig .tc := ⟨.hbm, 424, rfl⟩
abbrev main_v304 : Ref sig .tc := ⟨.hbm, 425, rfl⟩
abbrev main_v305 : Ref sig .tc := ⟨.hbm, 426, rfl⟩
abbrev main_v306 : Ref sig .tc := ⟨.hbm, 427, rfl⟩
abbrev main_c_76 : Ref sig .tc := ⟨.hbm, 428, rfl⟩
abbrev main_v307 : Ref sig .tc := ⟨.hbm, 429, rfl⟩
abbrev main_v308 : Ref sig .tc := ⟨.hbm, 430, rfl⟩
abbrev main_c_77 : Ref sig .tc := ⟨.hbm, 431, rfl⟩
abbrev main_v309 : Ref sig .tc := ⟨.hbm, 432, rfl⟩
abbrev main_v310 : Ref sig .tc := ⟨.hbm, 433, rfl⟩
abbrev main_v311 : Ref sig .tc := ⟨.hbm, 434, rfl⟩
abbrev main_v312 : Ref sig .tc := ⟨.hbm, 435, rfl⟩
abbrev main_v313 : Ref sig .tc := ⟨.hbm, 436, rfl⟩
abbrev main_v314 : Ref sig .tc := ⟨.hbm, 437, rfl⟩
abbrev main_v315 : Ref sig .tc := ⟨.hbm, 438, rfl⟩
abbrev main_c_78 : Ref sig .tc := ⟨.hbm, 439, rfl⟩
abbrev main_v316 : Ref sig .tc := ⟨.hbm, 440, rfl⟩
abbrev main_v317 : Ref sig .tc := ⟨.hbm, 441, rfl⟩
abbrev main_c_79 : Ref sig .tc := ⟨.hbm, 442, rfl⟩
abbrev main_v318 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_v323 : Ref sig .tc := ⟨.hbm, 448, rfl⟩
abbrev main_v324 : Ref sig .tc := ⟨.hbm, 449, rfl⟩
abbrev main_cst_80 : Ref sig .tc := ⟨.hbm, 450, rfl⟩
abbrev main_v325 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_v329 : Ref sig .tc := ⟨.hbm, 455, rfl⟩
abbrev main_v330 : Ref sig .tc := ⟨.hbm, 456, rfl⟩
abbrev main_cst_81 : Ref sig .tc := ⟨.hbm, 457, rfl⟩
abbrev main_v331 : Ref sig .tc := ⟨.hbm, 458, rfl⟩
abbrev main_cst_82 : Ref sig .tc := ⟨.hbm, 459, rfl⟩
abbrev main_v332 : Ref sig .tc := ⟨.hbm, 460, rfl⟩
abbrev main_v333 : Ref sig .tc := ⟨.hbm, 461, rfl⟩
abbrev main_v334 : Ref sig .tc := ⟨.hbm, 462, rfl⟩
abbrev main_v335 : Ref sig .tc := ⟨.hbm, 463, rfl⟩
abbrev main_v336 : Ref sig .tc := ⟨.hbm, 464, rfl⟩
abbrev main_v337 : Ref sig .tc := ⟨.hbm, 465, rfl⟩
abbrev main_cst_83 : Ref sig .tc := ⟨.hbm, 466, rfl⟩
abbrev main_v338 : Ref sig .tc := ⟨.hbm, 467, rfl⟩
abbrev main_v339 : Ref sig .tc := ⟨.hbm, 468, rfl⟩
abbrev main_v340 : Ref sig .tc := ⟨.hbm, 469, rfl⟩
abbrev main_v341 : Ref sig .tc := ⟨.hbm, 470, rfl⟩
abbrev main_v342 : Ref sig .tc := ⟨.hbm, 471, rfl⟩
abbrev main_v343 : Ref sig .tc := ⟨.hbm, 472, rfl⟩
abbrev main_v344 : Ref sig .tc := ⟨.hbm, 473, rfl⟩
abbrev main_cst_84 : Ref sig .tc := ⟨.hbm, 474, rfl⟩
abbrev main_v345 : Ref sig .tc := ⟨.hbm, 475, rfl⟩
abbrev main_cst_85 : Ref sig .tc := ⟨.hbm, 476, rfl⟩
abbrev main_v346 : Ref sig .tc := ⟨.hbm, 477, rfl⟩
abbrev main_v347 : Ref sig .tc := ⟨.hbm, 478, rfl⟩
abbrev main_v348 : Ref sig .tc := ⟨.hbm, 479, rfl⟩
abbrev main_v349 : Ref sig .tc := ⟨.hbm, 480, rfl⟩
abbrev main_v350 : Ref sig .tc := ⟨.hbm, 481, rfl⟩
abbrev main_v351 : Ref sig .tc := ⟨.hbm, 482, rfl⟩
abbrev main_cst_86 : Ref sig .tc := ⟨.hbm, 483, rfl⟩
abbrev main_v352 : Ref sig .tc := ⟨.hbm, 484, rfl⟩
abbrev main_cst_87 : Ref sig .tc := ⟨.hbm, 485, rfl⟩
abbrev main_v353 : Ref sig .tc := ⟨.hbm, 486, rfl⟩
abbrev main_v354 : Ref sig .tc := ⟨.hbm, 487, rfl⟩
abbrev main_v355 : Ref sig .tc := ⟨.hbm, 488, rfl⟩
abbrev main_v356 : Ref sig .tc := ⟨.hbm, 489, rfl⟩
abbrev main_v357 : Ref sig .tc := ⟨.hbm, 490, rfl⟩
abbrev main_cst_88 : Ref sig .tc := ⟨.hbm, 491, rfl⟩
abbrev main_v358 : Ref sig .tc := ⟨.hbm, 492, rfl⟩
abbrev main_v359 : Ref sig .tc := ⟨.hbm, 493, rfl⟩
abbrev main_v360 : Ref sig .tc := ⟨.hbm, 494, rfl⟩
abbrev main_v361 : Ref sig .tc := ⟨.hbm, 495, rfl⟩
abbrev main_v362 : Ref sig .tc := ⟨.hbm, 496, rfl⟩
abbrev main_v363 : Ref sig .tc := ⟨.hbm, 497, rfl⟩
abbrev main_cst_89 : Ref sig .tc := ⟨.hbm, 498, rfl⟩
abbrev main_v364 : Ref sig .tc := ⟨.hbm, 499, rfl⟩
abbrev main_v365 : Ref sig .tc := ⟨.hbm, 500, rfl⟩
abbrev main_v366 : Ref sig .tc := ⟨.hbm, 501, rfl⟩
abbrev main_v367 : Ref sig .tc := ⟨.hbm, 502, rfl⟩
abbrev main_v368 : Ref sig .tc := ⟨.hbm, 503, rfl⟩
abbrev main_v369 : Ref sig .tc := ⟨.hbm, 504, rfl⟩
abbrev main_v370 : Ref sig .tc := ⟨.hbm, 505, rfl⟩
abbrev main_v371 : Ref sig .tc := ⟨.hbm, 506, rfl⟩
abbrev main_cst_90 : Ref sig .tc := ⟨.hbm, 507, rfl⟩
abbrev main_v372 : Ref sig .tc := ⟨.hbm, 508, rfl⟩
abbrev main_v373 : Ref sig .tc := ⟨.hbm, 509, rfl⟩
abbrev main_cst_91 : Ref sig .tc := ⟨.hbm, 510, rfl⟩
abbrev main_v374 : Ref sig .tc := ⟨.hbm, 511, rfl⟩
abbrev main_v375 : Ref sig .tc := ⟨.hbm, 512, rfl⟩
abbrev main_v376 : Ref sig .tc := ⟨.hbm, 513, rfl⟩
abbrev main_cst_92 : Ref sig .tc := ⟨.hbm, 514, rfl⟩
abbrev main_v377 : Ref sig .tc := ⟨.hbm, 515, rfl⟩
abbrev main_v378 : Ref sig .tc := ⟨.hbm, 516, rfl⟩
abbrev main_cst_93 : Ref sig .tc := ⟨.hbm, 517, rfl⟩
abbrev main_call8_v0 : Ref sig .tc := ⟨.hbm, 518, rfl⟩
abbrev main_call8_v1 : Ref sig .tc := ⟨.hbm, 519, rfl⟩
abbrev main_v379 : Ref sig .tc := ⟨.hbm, 520, rfl⟩
abbrev main_v380 : Ref sig .tc := ⟨.hbm, 521, rfl⟩
abbrev main_cst_94 : Ref sig .tc := ⟨.hbm, 522, rfl⟩
abbrev main_v381 : Ref sig .tc := ⟨.hbm, 523, rfl⟩
abbrev main_v382 : Ref sig .tc := ⟨.hbm, 524, rfl⟩
abbrev main_v383 : Ref sig .tc := ⟨.hbm, 525, rfl⟩
abbrev main_v384 : Ref sig .tc := ⟨.hbm, 526, rfl⟩
abbrev main_c_95 : Ref sig .tc := ⟨.hbm, 527, rfl⟩
abbrev main_v385 : Ref sig .tc := ⟨.hbm, 528, rfl⟩
abbrev main_v386 : Ref sig .tc := ⟨.hbm, 529, rfl⟩
abbrev main_c_96 : Ref sig .tc := ⟨.hbm, 530, rfl⟩
abbrev main_v387 : Ref sig .tc := ⟨.hbm, 531, rfl⟩
abbrev main_v388 : Ref sig .tc := ⟨.hbm, 532, rfl⟩
abbrev main_v389 : Ref sig .tc := ⟨.hbm, 533, rfl⟩
abbrev main_v390 : Ref sig .tc := ⟨.hbm, 534, rfl⟩
abbrev main_v391 : Ref sig .tc := ⟨.hbm, 535, rfl⟩
abbrev main_v392 : Ref sig .tc := ⟨.hbm, 536, rfl⟩
abbrev main_c_97 : Ref sig .tc := ⟨.hbm, 537, rfl⟩
abbrev main_v393 : Ref sig .tc := ⟨.hbm, 538, rfl⟩
abbrev main_v394 : Ref sig .tc := ⟨.hbm, 539, rfl⟩
abbrev main_c_98 : Ref sig .tc := ⟨.hbm, 540, rfl⟩
abbrev main_v395 : Ref sig .tc := ⟨.hbm, 541, rfl⟩
abbrev main_v396 : Ref sig .tc := ⟨.hbm, 542, rfl⟩
abbrev main_v397 : Ref sig .tc := ⟨.hbm, 543, rfl⟩
abbrev main_v398 : Ref sig .tc := ⟨.hbm, 544, rfl⟩
abbrev main_v399 : Ref sig .tc := ⟨.hbm, 545, rfl⟩
abbrev main_v400 : Ref sig .tc := ⟨.hbm, 546, rfl⟩
abbrev main_v401 : Ref sig .tc := ⟨.hbm, 547, rfl⟩
abbrev main_c_99 : Ref sig .tc := ⟨.hbm, 548, rfl⟩
abbrev main_v402 : Ref sig .tc := ⟨.hbm, 549, rfl⟩
abbrev main_v403 : Ref sig .tc := ⟨.hbm, 550, rfl⟩
abbrev main_c_100 : Ref sig .tc := ⟨.hbm, 551, rfl⟩
abbrev main_v404 : Ref sig .tc := ⟨.hbm, 552, rfl⟩
abbrev main_v405 : Ref sig .tc := ⟨.hbm, 553, rfl⟩
abbrev main_v406 : Ref sig .tc := ⟨.hbm, 554, rfl⟩
abbrev main_v407 : Ref sig .tc := ⟨.hbm, 555, rfl⟩
abbrev main_v408 : Ref sig .tc := ⟨.hbm, 556, rfl⟩
abbrev main_v409 : Ref sig .tc := ⟨.hbm, 557, rfl⟩
abbrev main_v410 : Ref sig .tc := ⟨.hbm, 558, rfl⟩
abbrev main_cst_101 : Ref sig .tc := ⟨.hbm, 559, rfl⟩
abbrev main_v411 : Ref sig .tc := ⟨.hbm, 560, rfl⟩
abbrev main_v412 : Ref sig .tc := ⟨.hbm, 561, rfl⟩
abbrev main_v413 : Ref sig .tc := ⟨.hbm, 562, rfl⟩
abbrev main_v414 : Ref sig .tc := ⟨.hbm, 563, rfl⟩
abbrev main_v415 : Ref sig .tc := ⟨.hbm, 564, rfl⟩
abbrev main_v416 : Ref sig .tc := ⟨.hbm, 565, rfl⟩
abbrev main_call9_cst : Ref sig .tc := ⟨.hbm, 566, rfl⟩
abbrev main_call9_v0 : Ref sig .tc := ⟨.hbm, 567, rfl⟩
abbrev main_call9_v1 : Ref sig .tc := ⟨.hbm, 568, rfl⟩
abbrev main_call9_cst_0 : Ref sig .tc := ⟨.hbm, 569, rfl⟩
abbrev main_call9_v2 : Ref sig .tc := ⟨.hbm, 570, rfl⟩
abbrev main_call9_v3 : Ref sig .tc := ⟨.hbm, 571, rfl⟩
abbrev main_call9_cst_1 : Ref sig .tc := ⟨.hbm, 572, rfl⟩
abbrev main_call9_call0_v0 : Ref sig .tc := ⟨.hbm, 573, rfl⟩
abbrev main_call9_call0_v1 : Ref sig .tc := ⟨.hbm, 574, rfl⟩
abbrev main_call9_v4 : Ref sig .tc := ⟨.hbm, 575, rfl⟩
abbrev main_call9_v5 : Ref sig .tc := ⟨.hbm, 576, rfl⟩
abbrev main_call9_cst_2 : Ref sig .tc := ⟨.hbm, 577, rfl⟩
abbrev main_call9_v6 : Ref sig .tc := ⟨.hbm, 578, rfl⟩
abbrev main_call9_v7 : Ref sig .tc := ⟨.hbm, 579, rfl⟩
abbrev main_v417 : Ref sig .tc := ⟨.hbm, 580, rfl⟩
abbrev main_cst_102 : Ref sig .tc := ⟨.hbm, 581, rfl⟩
abbrev main_v418 : Ref sig .tc := ⟨.hbm, 582, rfl⟩
abbrev main_v419 : Ref sig .tc := ⟨.hbm, 583, rfl⟩
abbrev main_v420 : Ref sig .tc := ⟨.hbm, 584, rfl⟩
abbrev main_v421 : Ref sig .tc := ⟨.hbm, 585, rfl⟩
abbrev main_v422 : Ref sig .tc := ⟨.hbm, 586, rfl⟩
abbrev main_v423 : Ref sig .tc := ⟨.hbm, 587, rfl⟩
abbrev main_cst_103 : Ref sig .tc := ⟨.hbm, 588, rfl⟩
abbrev main_v424 : Ref sig .tc := ⟨.hbm, 589, rfl⟩
abbrev main_cst_104 : Ref sig .tc := ⟨.hbm, 590, rfl⟩
abbrev main_v425 : Ref sig .tc := ⟨.hbm, 591, rfl⟩
abbrev main_v426 : Ref sig .tc := ⟨.hbm, 592, rfl⟩
abbrev main_v427 : Ref sig .tc := ⟨.hbm, 593, rfl⟩
abbrev main_v428 : Ref sig .tc := ⟨.hbm, 594, rfl⟩
abbrev main_v429 : Ref sig .tc := ⟨.hbm, 595, rfl⟩
abbrev main_v430 : Ref sig .tc := ⟨.hbm, 596, rfl⟩
abbrev main_cst_105 : Ref sig .tc := ⟨.hbm, 597, rfl⟩
abbrev main_v431 : Ref sig .tc := ⟨.hbm, 598, rfl⟩
abbrev main_cst_106 : Ref sig .tc := ⟨.hbm, 599, rfl⟩
abbrev main_v432 : Ref sig .tc := ⟨.hbm, 600, rfl⟩
abbrev main_v433 : Ref sig .tc := ⟨.hbm, 601, rfl⟩
abbrev main_v434 : Ref sig .tc := ⟨.hbm, 602, rfl⟩
abbrev main_v435 : Ref sig .tc := ⟨.hbm, 603, rfl⟩
abbrev main_v436 : Ref sig .tc := ⟨.hbm, 604, rfl⟩
abbrev main_cst_107 : Ref sig .tc := ⟨.hbm, 605, rfl⟩
abbrev main_v437 : Ref sig .tc := ⟨.hbm, 606, rfl⟩
abbrev main_v438 : Ref sig .tc := ⟨.hbm, 607, rfl⟩
abbrev main_v439 : Ref sig .tc := ⟨.hbm, 608, rfl⟩
abbrev main_v440 : Ref sig .tc := ⟨.hbm, 609, rfl⟩
abbrev main_v441 : Ref sig .tc := ⟨.hbm, 610, rfl⟩
abbrev main_v442 : Ref sig .tc := ⟨.hbm, 611, rfl⟩
abbrev main_cst_108 : Ref sig .tc := ⟨.hbm, 612, rfl⟩
abbrev main_v443 : Ref sig .tc := ⟨.hbm, 613, rfl⟩
abbrev main_v444 : Ref sig .tc := ⟨.hbm, 614, rfl⟩
abbrev main_v445 : Ref sig .tc := ⟨.hbm, 615, rfl⟩
abbrev main_v446 : Ref sig .tc := ⟨.hbm, 616, rfl⟩
abbrev main_v447 : Ref sig .tc := ⟨.hbm, 617, rfl⟩
abbrev main_v448 : Ref sig .tc := ⟨.hbm, 618, rfl⟩
abbrev main_v449 : Ref sig .tc := ⟨.hbm, 619, rfl⟩
abbrev main_v450 : Ref sig .tc := ⟨.hbm, 620, rfl⟩
abbrev main_cst_109 : Ref sig .tc := ⟨.hbm, 621, rfl⟩
abbrev main_v451 : Ref sig .tc := ⟨.hbm, 622, rfl⟩
abbrev main_v452 : Ref sig .tc := ⟨.hbm, 623, rfl⟩
abbrev main_cst_110 : Ref sig .tc := ⟨.hbm, 624, rfl⟩
abbrev main_v453 : Ref sig .tc := ⟨.hbm, 625, rfl⟩
abbrev main_v454 : Ref sig .tc := ⟨.hbm, 626, rfl⟩
abbrev main_v455 : Ref sig .tc := ⟨.hbm, 627, rfl⟩
abbrev main_cst_111 : Ref sig .tc := ⟨.hbm, 628, rfl⟩
abbrev main_v456 : Ref sig .tc := ⟨.hbm, 629, rfl⟩
abbrev main_v457 : Ref sig .tc := ⟨.hbm, 630, rfl⟩
abbrev main_cst_112 : Ref sig .tc := ⟨.hbm, 631, rfl⟩
abbrev main_call10_v0 : Ref sig .tc := ⟨.hbm, 632, rfl⟩
abbrev main_call10_v1 : Ref sig .tc := ⟨.hbm, 633, rfl⟩
abbrev main_v458 : Ref sig .tc := ⟨.hbm, 634, rfl⟩
abbrev main_v459 : Ref sig .tc := ⟨.hbm, 635, rfl⟩
abbrev main_cst_113 : Ref sig .tc := ⟨.hbm, 636, rfl⟩
abbrev main_v460 : Ref sig .tc := ⟨.hbm, 637, rfl⟩
abbrev main_v461 : Ref sig .tc := ⟨.hbm, 638, rfl⟩
abbrev main_v462 : Ref sig .tc := ⟨.hbm, 639, rfl⟩
abbrev main_v463 : Ref sig .tc := ⟨.hbm, 640, rfl⟩
abbrev main_c_114 : Ref sig .tc := ⟨.hbm, 641, rfl⟩
abbrev main_v464 : Ref sig .tc := ⟨.hbm, 642, rfl⟩
abbrev main_v465 : Ref sig .tc := ⟨.hbm, 643, rfl⟩
abbrev main_c_115 : Ref sig .tc := ⟨.hbm, 644, rfl⟩
abbrev main_v466 : Ref sig .tc := ⟨.hbm, 645, rfl⟩
abbrev main_v467 : Ref sig .tc := ⟨.hbm, 646, rfl⟩
abbrev main_v468 : Ref sig .tc := ⟨.hbm, 647, rfl⟩
abbrev main_v469 : Ref sig .tc := ⟨.hbm, 648, rfl⟩
abbrev main_v470 : Ref sig .tc := ⟨.hbm, 649, rfl⟩
abbrev main_v471 : Ref sig .tc := ⟨.hbm, 650, rfl⟩
abbrev main_c_116 : Ref sig .tc := ⟨.hbm, 651, rfl⟩
abbrev main_v472 : Ref sig .tc := ⟨.hbm, 652, rfl⟩
abbrev main_v473 : Ref sig .tc := ⟨.hbm, 653, rfl⟩
abbrev main_c_117 : Ref sig .tc := ⟨.hbm, 654, rfl⟩
abbrev main_v474 : Ref sig .tc := ⟨.hbm, 655, rfl⟩
abbrev main_v475 : Ref sig .tc := ⟨.hbm, 656, rfl⟩
abbrev main_v476 : Ref sig .tc := ⟨.hbm, 657, rfl⟩
abbrev main_v477 : Ref sig .tc := ⟨.hbm, 658, rfl⟩
abbrev main_v478 : Ref sig .tc := ⟨.hbm, 659, rfl⟩
abbrev main_v479 : Ref sig .tc := ⟨.hbm, 660, rfl⟩
abbrev main_v480 : Ref sig .tc := ⟨.hbm, 661, rfl⟩
abbrev main_c_118 : Ref sig .tc := ⟨.hbm, 662, rfl⟩
abbrev main_v481 : Ref sig .tc := ⟨.hbm, 663, rfl⟩
abbrev main_v482 : Ref sig .tc := ⟨.hbm, 664, rfl⟩
abbrev main_c_119 : Ref sig .tc := ⟨.hbm, 665, rfl⟩
abbrev main_v483 : Ref sig .tc := ⟨.hbm, 666, rfl⟩
abbrev main_v484 : Ref sig .tc := ⟨.hbm, 667, rfl⟩
abbrev main_v485 : Ref sig .tc := ⟨.hbm, 668, rfl⟩
abbrev main_v486 : Ref sig .tc := ⟨.hbm, 669, rfl⟩
abbrev main_v487 : Ref sig .tc := ⟨.hbm, 670, rfl⟩
abbrev main_v488 : Ref sig .tc := ⟨.hbm, 671, rfl⟩
abbrev main_v489 : Ref sig .tc := ⟨.hbm, 672, rfl⟩
abbrev main_cst_120 : Ref sig .tc := ⟨.hbm, 673, rfl⟩
abbrev main_v490 : Ref sig .tc := ⟨.hbm, 674, rfl⟩
abbrev main_v491 : Ref sig .tc := ⟨.hbm, 675, rfl⟩
abbrev main_v492 : Ref sig .tc := ⟨.hbm, 676, rfl⟩
abbrev main_v493 : Ref sig .tc := ⟨.hbm, 677, rfl⟩
abbrev main_v494 : Ref sig .tc := ⟨.hbm, 678, rfl⟩
abbrev main_v495 : Ref sig .tc := ⟨.hbm, 679, rfl⟩
abbrev main_call11_cst : Ref sig .tc := ⟨.hbm, 680, rfl⟩
abbrev main_call11_v0 : Ref sig .tc := ⟨.hbm, 681, rfl⟩
abbrev main_call11_v1 : Ref sig .tc := ⟨.hbm, 682, rfl⟩
abbrev main_call11_cst_0 : Ref sig .tc := ⟨.hbm, 683, rfl⟩
abbrev main_call11_v2 : Ref sig .tc := ⟨.hbm, 684, rfl⟩
abbrev main_call11_v3 : Ref sig .tc := ⟨.hbm, 685, rfl⟩
abbrev main_call11_cst_1 : Ref sig .tc := ⟨.hbm, 686, rfl⟩
abbrev main_call11_call0_v0 : Ref sig .tc := ⟨.hbm, 687, rfl⟩
abbrev main_call11_call0_v1 : Ref sig .tc := ⟨.hbm, 688, rfl⟩
abbrev main_call11_v4 : Ref sig .tc := ⟨.hbm, 689, rfl⟩
abbrev main_call11_v5 : Ref sig .tc := ⟨.hbm, 690, rfl⟩
abbrev main_call11_cst_2 : Ref sig .tc := ⟨.hbm, 691, rfl⟩
abbrev main_call11_v6 : Ref sig .tc := ⟨.hbm, 692, rfl⟩
abbrev main_call11_v7 : Ref sig .tc := ⟨.hbm, 693, rfl⟩
abbrev main_v496 : Ref sig .tc := ⟨.hbm, 694, rfl⟩
abbrev main_cst_121 : Ref sig .tc := ⟨.hbm, 695, rfl⟩
abbrev main_v497 : Ref sig .tc := ⟨.hbm, 696, rfl⟩
abbrev main_v498 : Ref sig .tc := ⟨.hbm, 697, rfl⟩
abbrev main_v499 : Ref sig .tc := ⟨.hbm, 698, rfl⟩
abbrev main_cst_122 : Ref sig .tc := ⟨.hbm, 699, rfl⟩
abbrev main_v500 : Ref sig .tc := ⟨.hbm, 700, rfl⟩
abbrev main_cst_123 : Ref sig .tc := ⟨.hbm, 701, rfl⟩
abbrev main_v501 : Ref sig .tc := ⟨.hbm, 702, rfl⟩
abbrev main_v502 : Ref sig .tc := ⟨.hbm, 703, rfl⟩
abbrev main_v503 : Ref sig .tc := ⟨.hbm, 704, rfl⟩
abbrev main_v504 : Ref sig .tc := ⟨.hbm, 705, rfl⟩
abbrev main_v505 : Ref sig .tc := ⟨.hbm, 706, rfl⟩
abbrev main_v506 : Ref sig .tc := ⟨.hbm, 707, rfl⟩
abbrev main_cst_124 : Ref sig .tc := ⟨.hbm, 708, rfl⟩
abbrev main_v507 : Ref sig .tc := ⟨.hbm, 709, rfl⟩
abbrev main_cst_125 : Ref sig .tc := ⟨.hbm, 710, rfl⟩
abbrev main_v508 : Ref sig .tc := ⟨.hbm, 711, rfl⟩
abbrev main_v509 : Ref sig .tc := ⟨.hbm, 712, rfl⟩
abbrev main_v510 : Ref sig .tc := ⟨.hbm, 713, rfl⟩
abbrev main_v511 : Ref sig .tc := ⟨.hbm, 714, rfl⟩
abbrev main_v512 : Ref sig .tc := ⟨.hbm, 715, rfl⟩
abbrev main_cst_126 : Ref sig .tc := ⟨.hbm, 716, rfl⟩
abbrev main_v513 : Ref sig .tc := ⟨.hbm, 717, rfl⟩
abbrev main_v514 : Ref sig .tc := ⟨.hbm, 718, rfl⟩
abbrev main_v515 : Ref sig .tc := ⟨.hbm, 719, rfl⟩
abbrev main_v516 : Ref sig .tc := ⟨.hbm, 720, rfl⟩
abbrev main_v517 : Ref sig .tc := ⟨.hbm, 721, rfl⟩
abbrev main_v518 : Ref sig .tc := ⟨.hbm, 722, rfl⟩
abbrev main_cst_127 : Ref sig .tc := ⟨.hbm, 723, rfl⟩
abbrev main_v519 : Ref sig .tc := ⟨.hbm, 724, rfl⟩
abbrev main_v520 : Ref sig .tc := ⟨.hbm, 725, rfl⟩
abbrev main_v521 : Ref sig .tc := ⟨.hbm, 726, rfl⟩
abbrev main_v522 : Ref sig .tc := ⟨.hbm, 727, rfl⟩
abbrev main_v523 : Ref sig .tc := ⟨.hbm, 728, rfl⟩
abbrev main_v524 : Ref sig .tc := ⟨.hbm, 729, rfl⟩
abbrev main_call12_cst : Ref sig .tc := ⟨.hbm, 730, rfl⟩
abbrev main_call12_v0 : Ref sig .tc := ⟨.hbm, 731, rfl⟩
abbrev main_v525 : Ref sig .tc := ⟨.hbm, 732, rfl⟩
abbrev main_cst_128 : Ref sig .tc := ⟨.hbm, 733, rfl⟩
abbrev main_v526 : Ref sig .tc := ⟨.hbm, 734, rfl⟩
abbrev main_cst_129 : Ref sig .tc := ⟨.hbm, 735, rfl⟩
abbrev main_v527 : Ref sig .tc := ⟨.hbm, 736, rfl⟩
abbrev main_v528 : Ref sig .tc := ⟨.hbm, 737, rfl⟩
abbrev main_v529 : Ref sig .tc := ⟨.hbm, 738, rfl⟩
abbrev main_v530 : Ref sig .tc := ⟨.hbm, 739, rfl⟩
abbrev main_v531 : Ref sig .tc := ⟨.hbm, 740, rfl⟩
abbrev main_v532 : Ref sig .tc := ⟨.hbm, 741, rfl⟩
abbrev main_cst_130 : Ref sig .tc := ⟨.hbm, 742, rfl⟩
abbrev main_v533 : Ref sig .tc := ⟨.hbm, 743, rfl⟩
abbrev main_cst_131 : Ref sig .tc := ⟨.hbm, 744, rfl⟩
abbrev main_v534 : Ref sig .tc := ⟨.hbm, 745, rfl⟩
abbrev main_v535 : Ref sig .tc := ⟨.hbm, 746, rfl⟩
abbrev main_v536 : Ref sig .tc := ⟨.hbm, 747, rfl⟩
abbrev main_v537 : Ref sig .tc := ⟨.hbm, 748, rfl⟩
abbrev main_v538 : Ref sig .tc := ⟨.hbm, 749, rfl⟩
abbrev main_cst_132 : Ref sig .tc := ⟨.hbm, 750, rfl⟩
abbrev main_v539 : Ref sig .tc := ⟨.hbm, 751, rfl⟩
abbrev main_v540 : Ref sig .tc := ⟨.hbm, 752, rfl⟩
abbrev main_v541 : Ref sig .tc := ⟨.hbm, 753, rfl⟩
abbrev main_v542 : Ref sig .tc := ⟨.hbm, 754, rfl⟩
abbrev main_v543 : Ref sig .tc := ⟨.hbm, 755, rfl⟩
abbrev main_v544 : Ref sig .tc := ⟨.hbm, 756, rfl⟩
abbrev main_cst_133 : Ref sig .tc := ⟨.hbm, 757, rfl⟩
abbrev main_v545 : Ref sig .tc := ⟨.hbm, 758, rfl⟩
abbrev main_v546 : Ref sig .tc := ⟨.hbm, 759, rfl⟩
abbrev main_v547 : Ref sig .tc := ⟨.hbm, 760, rfl⟩
abbrev main_v548 : Ref sig .tc := ⟨.hbm, 761, rfl⟩
abbrev main_v549 : Ref sig .tc := ⟨.hbm, 762, rfl⟩
abbrev main_v550 : Ref sig .tc := ⟨.hbm, 763, rfl⟩
abbrev main_call13_cst : Ref sig .tc := ⟨.hbm, 764, rfl⟩
abbrev main_call13_v0 : Ref sig .tc := ⟨.hbm, 765, rfl⟩
abbrev main_call13_cst_0 : Ref sig .tc := ⟨.hbm, 766, rfl⟩
abbrev main_call13_v1 : Ref sig .tc := ⟨.hbm, 767, rfl⟩
abbrev main_call13_v2 : Ref sig .tc := ⟨.hbm, 768, rfl⟩
abbrev main_call13_v3 : Ref sig .tc := ⟨.hbm, 769, rfl⟩
abbrev main_call13_v4 : Ref sig .tc := ⟨.hbm, 770, rfl⟩
abbrev main_call13_v5 : Ref sig .tc := ⟨.hbm, 771, rfl⟩
abbrev main_call13_v6 : Ref sig .tc := ⟨.hbm, 772, rfl⟩
abbrev main_call13_cst_1 : Ref sig .tc := ⟨.hbm, 773, rfl⟩
abbrev main_call13_v7 : Ref sig .tc := ⟨.hbm, 774, rfl⟩
abbrev main_call13_v8 : Ref sig .tc := ⟨.hbm, 775, rfl⟩
abbrev main_call13_v9 : Ref sig .tc := ⟨.hbm, 776, rfl⟩
abbrev main_call13_v10 : Ref sig .tc := ⟨.hbm, 777, rfl⟩
abbrev main_v551 : Ref sig .tc := ⟨.hbm, 778, rfl⟩
abbrev main_cst_134 : Ref sig .tc := ⟨.hbm, 779, rfl⟩
abbrev main_v552 : Ref sig .tc := ⟨.hbm, 780, rfl⟩
abbrev main_cst_135 : Ref sig .tc := ⟨.hbm, 781, rfl⟩
abbrev main_v553 : Ref sig .tc := ⟨.hbm, 782, rfl⟩
abbrev main_v554 : Ref sig .tc := ⟨.hbm, 783, rfl⟩
abbrev main_v555 : Ref sig .tc := ⟨.hbm, 784, rfl⟩
abbrev main_v556 : Ref sig .tc := ⟨.hbm, 785, rfl⟩
abbrev main_v557 : Ref sig .tc := ⟨.hbm, 786, rfl⟩
abbrev main_v558 : Ref sig .tc := ⟨.hbm, 787, rfl⟩
abbrev main_cst_136 : Ref sig .tc := ⟨.hbm, 788, rfl⟩
abbrev main_v559 : Ref sig .tc := ⟨.hbm, 789, rfl⟩
abbrev main_cst_137 : Ref sig .tc := ⟨.hbm, 790, rfl⟩
abbrev main_v560 : Ref sig .tc := ⟨.hbm, 791, rfl⟩
abbrev main_v561 : Ref sig .tc := ⟨.hbm, 792, rfl⟩
abbrev main_v562 : Ref sig .tc := ⟨.hbm, 793, rfl⟩
abbrev main_v563 : Ref sig .tc := ⟨.hbm, 794, rfl⟩
abbrev main_v564 : Ref sig .tc := ⟨.hbm, 795, rfl⟩
abbrev main_cst_138 : Ref sig .tc := ⟨.hbm, 796, rfl⟩
abbrev main_v565 : Ref sig .tc := ⟨.hbm, 797, rfl⟩
abbrev main_v566 : Ref sig .tc := ⟨.hbm, 798, rfl⟩
abbrev main_v567 : Ref sig .tc := ⟨.hbm, 799, rfl⟩
abbrev main_v568 : Ref sig .tc := ⟨.hbm, 800, rfl⟩
abbrev main_v569 : Ref sig .tc := ⟨.hbm, 801, rfl⟩
abbrev main_v570 : Ref sig .tc := ⟨.hbm, 802, rfl⟩
abbrev main_cst_139 : Ref sig .tc := ⟨.hbm, 803, rfl⟩
abbrev main_v571 : Ref sig .tc := ⟨.hbm, 804, rfl⟩
abbrev main_v572 : Ref sig .tc := ⟨.hbm, 805, rfl⟩
abbrev main_v573 : Ref sig .tc := ⟨.hbm, 806, rfl⟩
abbrev main_v574 : Ref sig .tc := ⟨.hbm, 807, rfl⟩
abbrev main_v575 : Ref sig .tc := ⟨.hbm, 808, rfl⟩
abbrev main_v576 : Ref sig .tc := ⟨.hbm, 809, rfl⟩
abbrev main_call14_cst : Ref sig .tc := ⟨.hbm, 810, rfl⟩
abbrev main_call14_v0 : Ref sig .tc := ⟨.hbm, 811, rfl⟩
abbrev main_v577 : Ref sig .tc := ⟨.hbm, 812, rfl⟩
abbrev main_cst_140 : Ref sig .tc := ⟨.hbm, 813, rfl⟩
abbrev main_v578 : Ref sig .tc := ⟨.hbm, 814, rfl⟩
abbrev main_cst_141 : Ref sig .tc := ⟨.hbm, 815, rfl⟩
abbrev main_v579 : Ref sig .tc := ⟨.hbm, 816, rfl⟩
abbrev main_v580 : Ref sig .tc := ⟨.hbm, 817, rfl⟩
abbrev main_v581 : Ref sig .tc := ⟨.hbm, 818, rfl⟩
abbrev main_v582 : Ref sig .tc := ⟨.hbm, 819, rfl⟩
abbrev main_v583 : Ref sig .tc := ⟨.hbm, 820, rfl⟩
abbrev main_v584 : Ref sig .tc := ⟨.hbm, 821, rfl⟩
abbrev main_cst_142 : Ref sig .tc := ⟨.hbm, 822, rfl⟩
abbrev main_v585 : Ref sig .tc := ⟨.hbm, 823, rfl⟩
abbrev main_cst_143 : Ref sig .tc := ⟨.hbm, 824, rfl⟩
abbrev main_v586 : Ref sig .tc := ⟨.hbm, 825, rfl⟩
abbrev main_v587 : Ref sig .tc := ⟨.hbm, 826, rfl⟩
abbrev main_v588 : Ref sig .tc := ⟨.hbm, 827, rfl⟩
abbrev main_v589 : Ref sig .tc := ⟨.hbm, 828, rfl⟩
abbrev main_v590 : Ref sig .tc := ⟨.hbm, 829, rfl⟩
abbrev main_cst_144 : Ref sig .tc := ⟨.hbm, 830, rfl⟩
abbrev main_v591 : Ref sig .tc := ⟨.hbm, 831, rfl⟩
abbrev main_v592 : Ref sig .tc := ⟨.hbm, 832, rfl⟩
abbrev main_v593 : Ref sig .tc := ⟨.hbm, 833, rfl⟩
abbrev main_v594 : Ref sig .tc := ⟨.hbm, 834, rfl⟩
abbrev main_v595 : Ref sig .tc := ⟨.hbm, 835, rfl⟩
abbrev main_v596 : Ref sig .tc := ⟨.hbm, 836, rfl⟩
abbrev main_cst_145 : Ref sig .tc := ⟨.hbm, 837, rfl⟩
abbrev main_v597 : Ref sig .tc := ⟨.hbm, 838, rfl⟩
abbrev main_v598 : Ref sig .tc := ⟨.hbm, 839, rfl⟩
abbrev main_v599 : Ref sig .tc := ⟨.hbm, 840, rfl⟩
abbrev main_v600 : Ref sig .tc := ⟨.hbm, 841, rfl⟩
abbrev main_v601 : Ref sig .tc := ⟨.hbm, 842, rfl⟩
abbrev main_v602 : Ref sig .tc := ⟨.hbm, 843, rfl⟩
abbrev main_call15_cst : Ref sig .tc := ⟨.hbm, 844, rfl⟩
abbrev main_call15_v0 : Ref sig .tc := ⟨.hbm, 845, rfl⟩
abbrev main_call15_cst_0 : Ref sig .tc := ⟨.hbm, 846, rfl⟩
abbrev main_call15_v1 : Ref sig .tc := ⟨.hbm, 847, rfl⟩
abbrev main_call15_v2 : Ref sig .tc := ⟨.hbm, 848, rfl⟩
abbrev main_call15_v3 : Ref sig .tc := ⟨.hbm, 849, rfl⟩
abbrev main_call15_v4 : Ref sig .tc := ⟨.hbm, 850, rfl⟩
abbrev main_call15_v5 : Ref sig .tc := ⟨.hbm, 851, rfl⟩
abbrev main_call15_v6 : Ref sig .tc := ⟨.hbm, 852, rfl⟩
abbrev main_call15_cst_1 : Ref sig .tc := ⟨.hbm, 853, rfl⟩
abbrev main_call15_v7 : Ref sig .tc := ⟨.hbm, 854, rfl⟩
abbrev main_call15_v8 : Ref sig .tc := ⟨.hbm, 855, rfl⟩
abbrev main_call15_v9 : Ref sig .tc := ⟨.hbm, 856, rfl⟩
abbrev main_call15_v10 : Ref sig .tc := ⟨.hbm, 857, rfl⟩
abbrev main_v603 : Ref sig .tc := ⟨.hbm, 858, rfl⟩
abbrev main_v604 : Ref sig .tc := ⟨.hbm, 859, rfl⟩
abbrev main_cst_146 : Ref sig .tc := ⟨.hbm, 860, rfl⟩
abbrev main_v605 : Ref sig .tc := ⟨.hbm, 861, rfl⟩
abbrev main_cst_147 : Ref sig .tc := ⟨.hbm, 862, rfl⟩
abbrev main_v606 : Ref sig .tc := ⟨.hbm, 863, rfl⟩
abbrev main_v607 : Ref sig .tc := ⟨.hbm, 864, rfl⟩
abbrev main_v608 : Ref sig .tc := ⟨.hbm, 865, rfl⟩
abbrev main_v609 : Ref sig .tc := ⟨.hbm, 866, rfl⟩
abbrev main_v610 : Ref sig .tc := ⟨.hbm, 867, rfl⟩
abbrev main_v611 : Ref sig .tc := ⟨.hbm, 868, rfl⟩
abbrev main_cst_148 : Ref sig .tc := ⟨.hbm, 869, rfl⟩
abbrev main_v612 : Ref sig .tc := ⟨.hbm, 870, rfl⟩
abbrev main_cst_149 : Ref sig .tc := ⟨.hbm, 871, rfl⟩
abbrev main_v613 : Ref sig .tc := ⟨.hbm, 872, rfl⟩
abbrev main_v614 : Ref sig .tc := ⟨.hbm, 873, rfl⟩
abbrev main_v615 : Ref sig .tc := ⟨.hbm, 874, rfl⟩
abbrev main_v616 : Ref sig .tc := ⟨.hbm, 875, rfl⟩
abbrev main_v617 : Ref sig .tc := ⟨.hbm, 876, rfl⟩
abbrev main_cst_150 : Ref sig .tc := ⟨.hbm, 877, rfl⟩
abbrev main_v618 : Ref sig .tc := ⟨.hbm, 878, rfl⟩
abbrev main_v619 : Ref sig .tc := ⟨.hbm, 879, rfl⟩
abbrev main_v620 : Ref sig .tc := ⟨.hbm, 880, rfl⟩
abbrev main_v621 : Ref sig .tc := ⟨.hbm, 881, rfl⟩
abbrev main_v622 : Ref sig .tc := ⟨.hbm, 882, rfl⟩
abbrev main_v623 : Ref sig .tc := ⟨.hbm, 883, rfl⟩
abbrev main_cst_151 : Ref sig .tc := ⟨.hbm, 884, rfl⟩
abbrev main_v624 : Ref sig .tc := ⟨.hbm, 885, rfl⟩
abbrev main_v625 : Ref sig .tc := ⟨.hbm, 886, rfl⟩
abbrev main_v626 : Ref sig .tc := ⟨.hbm, 887, rfl⟩
abbrev main_v627 : Ref sig .tc := ⟨.hbm, 888, rfl⟩
abbrev main_v628 : Ref sig .tc := ⟨.hbm, 889, rfl⟩
abbrev main_v629 : Ref sig .tc := ⟨.hbm, 890, rfl⟩
abbrev main_call16_cst : Ref sig .tc := ⟨.hbm, 891, rfl⟩
abbrev main_call16_v0 : Ref sig .tc := ⟨.hbm, 892, rfl⟩
abbrev main_call16_v1 : Ref sig .tc := ⟨.hbm, 893, rfl⟩
abbrev main_call16_cst_0 : Ref sig .tc := ⟨.hbm, 894, rfl⟩
abbrev main_call16_v2 : Ref sig .tc := ⟨.hbm, 895, rfl⟩
abbrev main_call16_v3 : Ref sig .tc := ⟨.hbm, 896, rfl⟩
abbrev main_call16_cst_1 : Ref sig .tc := ⟨.hbm, 897, rfl⟩
abbrev main_call16_call0_v0 : Ref sig .tc := ⟨.hbm, 898, rfl⟩
abbrev main_call16_call0_v1 : Ref sig .tc := ⟨.hbm, 899, rfl⟩
abbrev main_call16_v4 : Ref sig .tc := ⟨.hbm, 900, rfl⟩
abbrev main_call16_v5 : Ref sig .tc := ⟨.hbm, 901, rfl⟩
abbrev main_call16_cst_2 : Ref sig .tc := ⟨.hbm, 902, rfl⟩
abbrev main_call16_v6 : Ref sig .tc := ⟨.hbm, 903, rfl⟩
abbrev main_call16_v7 : Ref sig .tc := ⟨.hbm, 904, rfl⟩
abbrev main_v630 : Ref sig .tc := ⟨.hbm, 905, rfl⟩
abbrev main_call17_cst : Ref sig .tc := ⟨.hbm, 906, rfl⟩
abbrev main_call17_v0 : Ref sig .tc := ⟨.hbm, 907, rfl⟩
abbrev main_call17_v1 : Ref sig .tc := ⟨.hbm, 908, rfl⟩
abbrev main_call17_cst_0 : Ref sig .tc := ⟨.hbm, 909, rfl⟩
abbrev main_call17_v2 : Ref sig .tc := ⟨.hbm, 910, rfl⟩
abbrev main_call17_v3 : Ref sig .tc := ⟨.hbm, 911, rfl⟩
abbrev main_call17_cst_1 : Ref sig .tc := ⟨.hbm, 912, rfl⟩
abbrev main_call17_call0_v0 : Ref sig .tc := ⟨.hbm, 913, rfl⟩
abbrev main_call17_call0_v1 : Ref sig .tc := ⟨.hbm, 914, rfl⟩
abbrev main_call17_v4 : Ref sig .tc := ⟨.hbm, 915, rfl⟩
abbrev main_call17_v5 : Ref sig .tc := ⟨.hbm, 916, rfl⟩
abbrev main_call17_cst_2 : Ref sig .tc := ⟨.hbm, 917, rfl⟩
abbrev main_call17_v6 : Ref sig .tc := ⟨.hbm, 918, rfl⟩
abbrev main_call17_v7 : Ref sig .tc := ⟨.hbm, 919, rfl⟩
abbrev main_v631 : Ref sig .tc := ⟨.hbm, 920, rfl⟩
abbrev main_cst_152 : Ref sig .tc := ⟨.hbm, 921, rfl⟩
abbrev main_v632 : Ref sig .tc := ⟨.hbm, 922, rfl⟩
abbrev main_cst_153 : Ref sig .tc := ⟨.hbm, 923, rfl⟩
abbrev main_v633 : Ref sig .tc := ⟨.hbm, 924, rfl⟩
abbrev main_v634 : Ref sig .tc := ⟨.hbm, 925, rfl⟩
abbrev main_v635 : Ref sig .tc := ⟨.hbm, 926, rfl⟩
abbrev main_v636 : Ref sig .tc := ⟨.hbm, 927, rfl⟩
abbrev main_v637 : Ref sig .tc := ⟨.hbm, 928, rfl⟩
abbrev main_v638 : Ref sig .tc := ⟨.hbm, 929, rfl⟩
abbrev main_cst_154 : Ref sig .tc := ⟨.hbm, 930, rfl⟩
abbrev main_v639 : Ref sig .tc := ⟨.hbm, 931, rfl⟩
abbrev main_cst_155 : Ref sig .tc := ⟨.hbm, 932, rfl⟩
abbrev main_v640 : Ref sig .tc := ⟨.hbm, 933, rfl⟩
abbrev main_v641 : Ref sig .tc := ⟨.hbm, 934, rfl⟩
abbrev main_v642 : Ref sig .tc := ⟨.hbm, 935, rfl⟩
abbrev main_v643 : Ref sig .tc := ⟨.hbm, 936, rfl⟩
abbrev main_v644 : Ref sig .tc := ⟨.hbm, 937, rfl⟩
abbrev main_cst_156 : Ref sig .tc := ⟨.hbm, 938, rfl⟩
abbrev main_v645 : Ref sig .tc := ⟨.hbm, 939, rfl⟩
abbrev main_v646 : Ref sig .tc := ⟨.hbm, 940, rfl⟩
abbrev main_v647 : Ref sig .tc := ⟨.hbm, 941, rfl⟩
abbrev main_v648 : Ref sig .tc := ⟨.hbm, 942, rfl⟩
abbrev main_v649 : Ref sig .tc := ⟨.hbm, 943, rfl⟩
abbrev main_v650 : Ref sig .tc := ⟨.hbm, 944, rfl⟩
abbrev main_cst_157 : Ref sig .tc := ⟨.hbm, 945, rfl⟩
abbrev main_v651 : Ref sig .tc := ⟨.hbm, 946, rfl⟩
abbrev main_v652 : Ref sig .tc := ⟨.hbm, 947, rfl⟩
abbrev main_v653 : Ref sig .tc := ⟨.hbm, 948, rfl⟩
abbrev main_v654 : Ref sig .tc := ⟨.hbm, 949, rfl⟩
abbrev main_v655 : Ref sig .tc := ⟨.hbm, 950, rfl⟩
abbrev main_v656 : Ref sig .tc := ⟨.hbm, 951, rfl⟩
abbrev main_call18_cst : Ref sig .tc := ⟨.hbm, 952, rfl⟩
abbrev main_call18_v0 : Ref sig .tc := ⟨.hbm, 953, rfl⟩
abbrev main_call18_cst_0 : Ref sig .tc := ⟨.hbm, 954, rfl⟩
abbrev main_call18_v1 : Ref sig .tc := ⟨.hbm, 955, rfl⟩
abbrev main_call18_v2 : Ref sig .tc := ⟨.hbm, 956, rfl⟩
abbrev main_call18_v3 : Ref sig .tc := ⟨.hbm, 957, rfl⟩
abbrev main_call18_v4 : Ref sig .tc := ⟨.hbm, 958, rfl⟩
abbrev main_call18_v5 : Ref sig .tc := ⟨.hbm, 959, rfl⟩
abbrev main_call18_v6 : Ref sig .tc := ⟨.hbm, 960, rfl⟩
abbrev main_call18_cst_1 : Ref sig .tc := ⟨.hbm, 961, rfl⟩
abbrev main_call18_v7 : Ref sig .tc := ⟨.hbm, 962, rfl⟩
abbrev main_call18_v8 : Ref sig .tc := ⟨.hbm, 963, rfl⟩
abbrev main_call18_v9 : Ref sig .tc := ⟨.hbm, 964, rfl⟩
abbrev main_call18_v10 : Ref sig .tc := ⟨.hbm, 965, rfl⟩
abbrev main_v657 : Ref sig .tc := ⟨.hbm, 966, rfl⟩

abbrev nD : Nat := 1
abbrev τ : Topo := Topo.v7x

variable {F : FTy → Type} [FloatOps F]

class Facts₀ : Prop where
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S400000 : S_.BroadcastsInDim S400000 (![] : Fin 0 → Fin S400000.rank)
  concatenates_S400000_S50000_S450000_d0 : Shape.Concatenates [S400000, S50000] S450000 0
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x128_0_1 : S450000x1.BroadcastsInDim S450000x128 (![0, 1] : Fin 2 → Fin S450000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S400000_S400000x1_0 : S400000.BroadcastsInDim S400000x1 (![0] : Fin 1 → Fin S400000x1.rank)
  concatenates_S400000x128_S400000x128_S400000x256_d1 : Shape.Concatenates [S400000x128, S400000x128] S400000x256 1
  bcast_S2_S1x2_1 : S2.BroadcastsInDim S1x2 (![1] : Fin 1 → Fin S1x2.rank)
  bcast_S1x2_S400000x2_0_1 : S1x2.BroadcastsInDim S400000x2 (![0, 1] : Fin 2 → Fin S400000x2.rank)
  reducesTo_S400000x2_S400000_d1 : S400000x2.ReducesTo [1] S400000
  bcast_S400000x1_S400000x2_0_1 : S400000x1.BroadcastsInDim S400000x2 (![0, 1] : Fin 2 → Fin S400000x2.rank)
  bcast_S450000x1_S450000x2_0_1 : S450000x1.BroadcastsInDim S450000x2 (![0, 1] : Fin 2 → Fin S450000x2.rank)
  bcast_S_S50000x2 : S_.BroadcastsInDim S50000x2 (![] : Fin 0 → Fin S50000x2.rank)
  bcast_S1x2_S50000x2_0_1 : S1x2.BroadcastsInDim S50000x2 (![0, 1] : Fin 2 → Fin S50000x2.rank)
  reducesTo_S50000x2_S50000_d1 : S50000x2.ReducesTo [1] S50000
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  slices_S50000x2_S50000x1_0_0 : S50000x2.Slices ![0, 0] S50000x1
  bcast_S50000x1_S50000x128_0_1 : S50000x1.BroadcastsInDim S50000x128 (![0, 1] : Fin 2 → Fin S50000x128.rank)
  slices_S400000x2_S400000x1_0_0 : S400000x2.Slices ![0, 0] S400000x1
  shapeCasts_S400000x1_S400000 : S400000x1.ShapeCasts S400000
  bcast_S_S512x128 : S_.BroadcastsInDim S512x128 (![] : Fin 0 → Fin S512x128.rank)
  slices_S50000x2_S50000x1_0_1 : S50000x2.Slices ![0, 1] S50000x1
  slices_S400000x2_S400000x1_0_1 : S400000x2.Slices ![0, 1] S400000x1
  reducesTo_S512x128_S128_d0 : S512x128.ReducesTo [0] S128
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  concatenates_S512x128_S512x128_S512x256_d1 : Shape.Concatenates [S512x128, S512x128] S512x256 1
  reducesTo_S512x256_S256_d0 : S512x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  dot_S50000x128_S128x128_S50000x128_1_0_0_1_n_n_wf : DotDims.WF S50000x128 S128x128 S50000x128 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  gather_S50000x128_S400000x1_S400000x128_1_0_n_n_0_1_1128_wf : GatherDims.WF S50000x128 S400000x1 S400000x128 [1] [0] [] [0] [] 1 ![1, 128]
  dot_S400000x256_S256x2_S400000x2_1_0_0_1_n_n_wf : DotDims.WF S400000x256 S256x2 S400000x2 [1] [0] [0] [1] [] []
  dot_S50000x128_S128x2_S50000x2_1_0_0_1_n_n_wf : DotDims.WF S50000x128 S128x2 S50000x2 [1] [0] [0] [1] [] []
  gather_S50000x2_S450000x1_S450000x2_1_0_n_n_0_1_12_wf : GatherDims.WF S50000x2 S450000x1 S450000x2 [1] [0] [] [0] [] 1 ![1, 2]
  scatter_S50000x2_S450000x1_S450000x2_1_0_0_1_wf : ScatterDims.WF S50000x2 S450000x1 S450000x2 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  dot_S512x256_S256x128_S512x128_1_0_0_1_n_n_wf : DotDims.WF S512x256 S256x128 S512x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x256_S256x2_S400000x2_1_0_0_1_n_n : DotDims S400000x256 S256x2 S400000x2 where
  lhsContracting := [1]
  rhsContracting := [0]
  lhsNonContracting := [0]
  rhsNonContracting := [1]
  lhsBatch := []
  rhsBatch := []
  wf := dot_S400000x256_S256x2_S400000x2_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S450000x1_S450000x2_1_0_n_n_0_1_12 : GatherDims S50000x2 S450000x1 S450000x2 where
  offsetDims := [1]
  collapsedSliceDims := [0]
  operandBatchingDims := []
  startIndicesBatchingDims := []
  startIndexMap := [0]
  indexVectorDim := 1
  sliceSizes := ![1, 2]
  wf := gather_S50000x2_S450000x1_S450000x2_1_0_n_n_0_1_12_wf
def scatter_S50000x2_S450000x1_S450000x2_1_0_0_1 : ScatterDims S50000x2 S450000x1 S450000x2 where
  updateWindowDims := [1]
  insertedWindowDims := [0]
  scatterDimsToOperandDims := [0]
  indexVectorDim := 1
  wf := scatter_S50000x2_S450000x1_S450000x2_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.KCarryK.lean ====
/- What each segment of the kernel's @main may write, and what every later boundary state therefore still holds (the word-level program).

   The boundary states W0 .. W58 of the generated frame fold the buffer contents through @main: a host stretch rewrites the
   result buffer of each of its operations, a region rewrites the arrays of its windows. Here, per segment k (the one between
   W k and W (k+1)), the list `wl k` of references it may CHANGE — a stretch's result buffers; a region's OUTPUT arrays, since an
   input window's array is handed back as entered — with `keep k`: a reference outside the list reads the same on both sides.
   `wlFrom k` collects the lists from k to the end and `carry k` chains the `keep`s: a reference nothing writes from boundary k
   on reads at the end what it read at k. Every reference is written once in the whole run (single assignment), so a region's
   arrays reach the end as the region left them; an argument, which nothing writes, ends as launched (`argN`). Membership in the lists
   is decidable, reference by reference. -/
import proofs.«407945_j8993661518245_1_alg».proof.Proof.FrameK

noncomputable section

namespace Cert.Kernel.KCarry

open Cert.Kernel Cert.Kernel.Gen Cert.Kernel.GenP Idealize.ShloMosaic Idealize.ShloMosaic.TcCoe Idealize.ShloMosaic.StableHlo

variable {F : FTy → Type} [FloatOps F]

/-- A member of a list differs from every reference outside it. -/
theorem ne_of_mem_of_not_mem {l : List (Ref sig .tc)} {x b : Ref sig .tc} (hx : x ∈ l) (hb : b ∉ l) : x ≠ b :=
  fun e => hb (e ▸ hx)

/-- A line whose operations write, one by one, exactly the references of a list writes inside that list. -/
theorem writes_sub_of_forall₂ {τ : Topo} {sig : RefSig} {Val : EltTy → Type} {ops : List (HloOp τ sig Val)} {rs : List (Ref sig .tc)}
    (h : List.Forall₂ (fun op r => op.writes = {Proc.devRef (τ := τ) .tc r}) ops rs) :
    ops.Forall fun op => op.writes ⊆ (rs.map (Proc.devRef (τ := τ) .tc)).toFinset := by
  rw [List.forall_iff_forall_mem]
  induction h with
  | nil => intro op hop; cases hop
  | @cons op r ops rs hab _ ih =>
    intro o ho
    rcases List.mem_cons.mp ho with rfl | ho
    · rw [hab, Finset.singleton_subset_iff, List.mem_toFinset]; exact List.mem_map_of_mem List.mem_cons_self
    · exact (ih o ho).trans fun x hx => by
        rw [List.mem_toFinset] at hx ⊢; rw [List.map_cons]; exact List.mem_cons_of_mem _ hx

/-! ## The tables -/

/-- Segment 0: the arrays of region 0's output windows. -/
abbrev wl0 : List (Ref sig .tc) := [main_v0_0, main_v0_1]
/-- Segment 1: the result buffers of `hostOps1`, in order. -/
abbrev wl1 : List (Ref sig .tc) := [main_cst, main_v1, main_v2, main_cst_0, main_v3, main_v4, main_v5, main_v6]
/-- Segment 2: the arrays of region 1's output windows. -/
abbrev wl2 : List (Ref sig .tc) := [main_v7]
/-- Segment 3: the result buffers of `hostOps2`, in order. -/
abbrev wl3 : List (Ref sig .tc) := [main_cst_1, main_v8, main_v9]
/-- Segment 4: the arrays of region 2's output windows. -/
abbrev wl4 : List (Ref sig .tc) := [main_v10]
/-- Segment 5: the arrays of region 3's output windows. -/
abbrev wl5 : List (Ref sig .tc) := [main_v11_0, main_v11_1]
/-- Segment 6: the result buffers of `hostOps4`, in order. -/
abbrev wl6 : List (Ref sig .tc) := [main_cst_2, main_v12, main_v13, main_cst_3, main_v14, main_v15, main_v16, main_v17, main_v18, main_v19]
/-- Segment 7: the arrays of region 4's output windows. -/
abbrev wl7 : List (Ref sig .tc) := [main_v20]
/-- Segment 8: the result buffers of `hostOps5`, in order. -/
abbrev wl8 : List (Ref sig .tc) := [main_cst_4, main_v21, main_v22, main_v23, main_v24, main_cst_5, main_v25, main_v26, main_cst_6, main_v27, main_v28, main_v29, main_cst_7, main_v30, main_v31, main_cst_8]
/-- Segment 9: the result buffers of `hostOps5_1`, in order. -/
abbrev wl9 : List (Ref sig .tc) := [main_call0_v0, main_call0_v1, main_v32]
/-- Segment 10: the result buffers of `hostOps5_2`, in order. -/
abbrev wl10 : List (Ref sig .tc) := [main_v33, main_cst_9, main_v34, main_v35, main_v36, main_v37, main_c, main_v38, main_v39, main_c_10, main_v40, main_v41, main_v42, main_v43, main_v44, main_v45, main_c_11, main_v46, main_v47, main_c_12, main_v48, main_v49, main_v50, main_v51, main_v52, main_v53, main_v54, main_c_13, main_v55, main_v56, main_c_14, main_v57, main_v58, main_v59, main_v60, main_v61, main_v62, main_v63, main_cst_15, main_v64, main_v65, main_v66, main_v67, main_v68, main_v69]
/-- Segment 11: the arrays of region 5's output windows. -/
abbrev wl11 : List (Ref sig .tc) := [main_v70]
/-- Segment 12: the arrays of region 6's output windows. -/
abbrev wl12 : List (Ref sig .tc) := [main_v71_0, main_v71_1]
/-- Segment 13: the result buffers of `hostOps7`, in order. -/
abbrev wl13 : List (Ref sig .tc) := [main_cst_16, main_v72, main_v73, main_cst_17, main_v74, main_v75, main_v76, main_v77, main_v78, main_v79]
/-- Segment 14: the arrays of region 7's output windows. -/
abbrev wl14 : List (Ref sig .tc) := [main_v80]
/-- Segment 15: the result buffers of `hostOps8`, in order. -/
abbrev wl15 : List (Ref sig .tc) := [main_cst_18, main_v81, main_v82, main_v83, main_v84, main_cst_19, main_v85, main_v86, main_cst_20, main_v87, main_v88, main_v89, main_cst_21, main_v90, main_v91, main_cst_22]
/-- Segment 16: the result buffers of `hostOps8_1`, in order. -/
abbrev wl16 : List (Ref sig .tc) := [main_call1_v0, main_call1_v1, main_v92]
/-- Segment 17: the result buffers of `hostOps8_2`, in order. -/
abbrev wl17 : List (Ref sig .tc) := [main_v93, main_cst_23, main_v94, main_v95, main_v96, main_v97, main_c_24, main_v98, main_v99, main_c_25, main_v100, main_v101, main_v102, main_v103, main_v104, main_v105, main_c_26, main_v106, main_v107, main_c_27, main_v108, main_v109, main_v110, main_v111, main_v112, main_v113, main_v114, main_c_28, main_v115, main_v116, main_c_29, main_v117, main_v118, main_v119, main_v120, main_v121, main_v122, main_v123, main_cst_30, main_v124, main_v125, main_v126, main_v127, main_v128, main_v129]
/-- Segment 18: the arrays of region 8's output windows. -/
abbrev wl18 : List (Ref sig .tc) := [main_v130]
/-- Segment 19: the arrays of region 9's output windows. -/
abbrev wl19 : List (Ref sig .tc) := [main_v131_0, main_v131_1]
/-- Segment 20: the result buffers of `hostOps10`, in order. -/
abbrev wl20 : List (Ref sig .tc) := [main_cst_31, main_v132, main_v133, main_cst_32, main_v134, main_v135, main_v136, main_v137, main_v138, main_v139]
/-- Segment 21: the arrays of region 10's output windows. -/
abbrev wl21 : List (Ref sig .tc) := [main_v140]
/-- Segment 22: the result buffers of `hostOps11`, in order. -/
abbrev wl22 : List (Ref sig .tc) := [main_cst_33, main_v141, main_v142, main_v143, main_v144, main_cst_34, main_v145, main_v146, main_cst_35, main_v147, main_v148, main_v149, main_cst_36, main_v150, main_v151, main_cst_37]
/-- Segment 23: the result buffers of `hostOps11_1`, in order. -/
abbrev wl23 : List (Ref sig .tc) := [main_call2_v0, main_call2_v1, main_v152]
/-- Segment 24: the result buffers of `hostOps11_2`, in order. -/
abbrev wl24 : List (Ref sig .tc) := [main_v153, main_cst_38, main_v154, main_v155, main_v156, main_v157, main_c_39, main_v158, main_v159, main_c_40, main_v160, main_v161, main_v162, main_v163, main_v164, main_v165, main_c_41, main_v166, main_v167, main_c_42, main_v168, main_v169, main_v170, main_v171, main_v172, main_v173, main_v174, main_c_43, main_v175, main_v176, main_c_44, main_v177, main_v178, main_v179, main_v180, main_v181, main_v182, main_v183, main_cst_45, main_v184, main_v185, main_v186, main_v187, main_v188, main_v189]
/-- Segment 25: the arrays of region 11's output windows. -/
abbrev wl25 : List (Ref sig .tc) := [main_v190]
/-- Segment 26: the result buffers of `hostOps12`, in order. -/
abbrev wl26 : List (Ref sig .tc) := [main_c_46, main_v191, main_v192, main_c_47, main_v193, main_v194, main_v195, main_v196, main_v197, main_c_48, main_v198, main_v199, main_c_49, main_v200, main_v201, main_v202, main_v203, main_v204, main_v205, main_v206, main_v207, main_v208, main_v209, main_v210, main_v211, main_v212, main_cst_50, main_v213, main_cst_51, main_v214, main_v215, main_v216, main_v217, main_v218, main_v219, main_cst_52, main_v220, main_v221, main_v222, main_v223, main_v224, main_cst_53, main_v225, main_v226, main_v227, main_v228, main_cst_54, main_v229, main_v230, main_cst_55, main_v231, main_v232, main_v233, main_cst_56, main_v234, main_v235, main_cst_57]
/-- Segment 27: the result buffers of `hostOps12_1`, in order. -/
abbrev wl27 : List (Ref sig .tc) := [main_call3_v0, main_call3_v1, main_v236]
/-- Segment 28: the result buffers of `hostOps12_2`, in order. -/
abbrev wl28 : List (Ref sig .tc) := [main_v237, main_cst_58, main_v238, main_v239, main_v240, main_v241, main_c_59, main_v242, main_v243, main_c_60, main_v244, main_v245, main_v246, main_v247, main_v248, main_v249, main_c_61, main_v250, main_v251, main_c_62, main_v252, main_v253, main_v254, main_v255, main_v256, main_v257, main_v258, main_c_63, main_v259, main_v260, main_c_64, main_v261, main_v262, main_v263, main_v264, main_v265, main_v266, main_v267, main_cst_65, main_v268, main_v269, main_v270, main_v271, main_v272, main_v273, main_cst_66, main_v274, main_cst_67, main_v275, main_v276, main_v277, main_v278, main_v279, main_v280, main_cst_68, main_v281, main_v282, main_v283, main_v284, main_v285, main_v286, main_v287]
/-- Segment 29: the arrays of region 12's output windows. -/
abbrev wl29 : List (Ref sig .tc) := [main_v288_0, main_v288_1]
/-- Segment 30: the result buffers of `hostOps13`, in order. -/
abbrev wl30 : List (Ref sig .tc) := [main_cst_69, main_v289, main_v290, main_cst_70, main_v291, main_v292, main_v293, main_v294]
/-- Segment 31: the arrays of region 13's output windows. -/
abbrev wl31 : List (Ref sig .tc) := [main_v295]
/-- Segment 32: the result buffers of `hostOps14`, in order. -/
abbrev wl32 : List (Ref sig .tc) := [main_v296, main_v297, main_v298, main_v299, main_v300, main_cst_71, main_v301, main_v302, main_cst_72, main_v303, main_v304, main_v305, main_cst_73, main_v306, main_v307, main_cst_74]
/-- Segment 33: the result buffers of `hostOps14_1`, in order. -/
abbrev wl33 : List (Ref sig .tc) := [main_call4_v0, main_call4_v1, main_v308]
/-- Segment 34: the result buffers of `hostOps14_2`, in order. -/
abbrev wl34 : List (Ref sig .tc) := [main_v309, main_cst_75, main_v310, main_v311, main_v312, main_v313, main_c_76, main_v314, main_v315, main_c_77, main_v316, main_v317, main_v318, main_v319, main_v320, main_v321, main_c_78, main_v322, main_v323, main_c_79, main_v324, main_v325, main_v326, main_v327, main_v328, main_v329, main_v330, main_c_80, main_v331, main_v332, main_c_81, main_v333, main_v334, main_v335, main_v336, main_v337, main_v338, main_v339, main_cst_82, main_v340, main_v341, main_v342, main_v343]
/-- Segment 35: the arrays of region 14's output windows. -/
abbrev wl35 : List (Ref sig .tc) := [main_v344]
/-- Segment 36: the result buffers of `hostOps15`, in order. -/
abbrev wl36 : List (Ref sig .tc) := [main_cst_83, main_v345, main_v346, main_v347, main_v348, main_v349, main_v350]
/-- Segment 37: the arrays of region 15's output windows. -/
abbrev wl37 : List (Ref sig .tc) := [main_v351_0, main_v351_1]
/-- Segment 38: the result buffers of `hostOps16`, in order. -/
abbrev wl38 : List (Ref sig .tc) := [main_cst_84, main_v352, main_v353, main_cst_85, main_v354, main_v355, main_v356, main_v357]
/-- Segment 39: the arrays of region 16's output windows. -/
abbrev wl39 : List (Ref sig .tc) := [main_v358]
/-- Segment 40: the result buffers of `hostOps17`, in order. -/
abbrev wl40 : List (Ref sig .tc) := [main_v359, main_v360, main_v361, main_v362, main_v363, main_cst_86, main_v364, main_v365, main_cst_87, main_v366, main_v367, main_v368, main_cst_88, main_v369, main_v370, main_cst_89]
/-- Segment 41: the result buffers of `hostOps17_1`, in order. -/
abbrev wl41 : List (Ref sig .tc) := [main_call5_v0, main_call5_v1, main_v371]
/-- Segment 42: the result buffers of `hostOps17_2`, in order. -/
abbrev wl42 : List (Ref sig .tc) := [main_v372, main_cst_90, main_v373, main_v374, main_v375, main_v376, main_c_91, main_v377, main_v378, main_c_92, main_v379, main_v380, main_v381, main_v382, main_v383, main_v384, main_c_93, main_v385, main_v386, main_c_94, main_v387, main_v388, main_v389, main_v390, main_v391, main_v392, main_v393, main_c_95, main_v394, main_v395, main_c_96, main_v396, main_v397, main_v398, main_v399, main_v400, main_v401, main_v402, main_cst_97, main_v403, main_v404, main_v405, main_v406]
/-- Segment 43: the arrays of region 17's output windows. -/
abbrev wl43 : List (Ref sig .tc) := [main_v407]
/-- Segment 44: the result buffers of `hostOps18`, in order. -/
abbrev wl44 : List (Ref sig .tc) := [main_cst_98, main_v408, main_v409, main_v410, main_cst_99, main_v411, main_cst_100, main_v412, main_v413, main_v414, main_v415, main_v416, main_v417, main_cst_101, main_v418, main_cst_102, main_v419, main_v420, main_v421, main_v422, main_v423, main_cst_103, main_v424, main_v425, main_v426, main_v427, main_v428, main_v429, main_cst_104, main_v430, main_v431, main_v432, main_v433, main_v434, main_v435]
/-- Segment 45: the result buffers of `hostOps18_1`, in order. -/
abbrev wl45 : List (Ref sig .tc) := [main_call6_cst, main_call6_v0, main_v436]
/-- Segment 46: the result buffers of `hostOps18_2`, in order. -/
abbrev wl46 : List (Ref sig .tc) := [main_cst_105, main_v437, main_cst_106, main_v438, main_v439, main_v440, main_v441, main_v442, main_v443, main_cst_107, main_v444, main_cst_108, main_v445, main_v446, main_v447, main_v448, main_v449, main_cst_109, main_v450, main_v451, main_v452, main_v453, main_v454, main_v455, main_cst_110, main_v456, main_v457, main_v458, main_v459, main_v460, main_v461]
/-- Segment 47: the result buffers of `hostOps18_3`, in order. -/
abbrev wl47 : List (Ref sig .tc) := [main_call7_cst, main_call7_v0, main_call7_cst_0, main_call7_v1, main_call7_v2, main_call7_v3, main_call7_v4, main_call7_v5, main_call7_v6, main_call7_cst_1, main_call7_v7, main_call7_v8, main_call7_v9, main_call7_v10, main_v462]
/-- Segment 48: the result buffers of `hostOps18_4`, in order. -/
abbrev wl48 : List (Ref sig .tc) := [main_cst_111, main_v463, main_cst_112, main_v464, main_v465, main_v466, main_v467, main_v468, main_v469, main_cst_113, main_v470, main_cst_114, main_v471, main_v472, main_v473, main_v474, main_v475, main_cst_115, main_v476, main_v477, main_v478, main_v479, main_v480, main_v481, main_cst_116, main_v482, main_v483, main_v484, main_v485, main_v486, main_v487]
/-- Segment 49: the result buffers of `hostOps18_5`, in order. -/
abbrev wl49 : List (Ref sig .tc) := [main_call8_cst, main_call8_v0, main_v488]
/-- Segment 50: the result buffers of `hostOps18_6`, in order. -/
abbrev wl50 : List (Ref sig .tc) := [main_cst_117, main_v489, main_cst_118, main_v490, main_v491, main_v492, main_v493, main_v494, main_v495, main_cst_119, main_v496, main_cst_120, main_v497, main_v498, main_v499, main_v500, main_v501, main_cst_121, main_v502, main_v503, main_v504, main_v505, main_v506, main_v507, main_cst_122, main_v508, main_v509, main_v510, main_v511, main_v512, main_v513]
/-- Segment 51: the result buffers of `hostOps18_7`, in order. -/
abbrev wl51 : List (Ref sig .tc) := [main_call9_cst, main_call9_v0, main_call9_cst_0, main_call9_v1, main_call9_v2, main_call9_v3, main_call9_v4, main_call9_v5, main_call9_v6, main_call9_cst_1, main_call9_v7, main_call9_v8, main_call9_v9, main_call9_v10, main_v514]
/-- Segment 52: the result buffers of `hostOps18_8`, in order. -/
abbrev wl52 : List (Ref sig .tc) := [main_v515, main_cst_123, main_v516, main_cst_124, main_v517, main_v518, main_v519, main_v520, main_v521, main_v522, main_cst_125, main_v523, main_cst_126, main_v524, main_v525, main_v526, main_v527, main_v528, main_cst_127, main_v529, main_v530, main_v531, main_v532, main_v533, main_v534, main_cst_128, main_v535, main_v536, main_v537, main_v538, main_v539, main_v540, main_cst_129, main_v541, main_v542, main_v543, main_cst_130, main_v544, main_v545]
/-- Segment 53: the result buffers of `hostOps18_9`, in order. -/
abbrev wl53 : List (Ref sig .tc) := [main_v546]
/-- Segment 54: the result buffers of `hostOps18_10`, in order. -/
abbrev wl54 : List (Ref sig .tc) := [main_cst_131, main_v547, main_v548, main_v549, main_cst_132, main_v550, main_v551]
/-- Segment 55: the result buffers of `hostOps18_11`, in order. -/
abbrev wl55 : List (Ref sig .tc) := [main_v552]
/-- Segment 56: the result buffers of `hostOps18_12`, in order. -/
abbrev wl56 : List (Ref sig .tc) := [main_cst_133, main_v553, main_cst_134, main_v554, main_v555, main_v556, main_v557, main_v558, main_v559, main_cst_135, main_v560, main_cst_136, main_v561, main_v562, main_v563, main_v564, main_v565, main_cst_137, main_v566, main_v567, main_v568, main_v569, main_v570, main_v571, main_cst_138, main_v572, main_v573, main_v574, main_v575, main_v576, main_v577]
/-- Segment 57: the result buffers of `hostOps18_13`, in order. -/
abbrev wl57 : List (Ref sig .tc) := [main_call12_cst, main_call12_v0, main_call12_cst_0, main_call12_v1, main_call12_v2, main_call12_v3, main_call12_v4, main_call12_v5, main_call12_v6, main_call12_cst_1, main_call12_v7, main_call12_v8, main_call12_v9, main_call12_v10, main_v578]

/-- Nothing is written after the last boundary. -/
abbrev wlFrom58 : List (Ref sig .tc) := []
/-- Everything written from boundary 57 on. -/
abbrev wlFrom57 : List (Ref sig .tc) := wl57 ++ wlFrom58
/-- Everything written from boundary 56 on. -/
abbrev wlFrom56 : List (Ref sig .tc) := wl56 ++ wlFrom57
/-- Everything written from boundary 55 on. -/
abbrev wlFrom55 : List (Ref sig .tc) := wl55 ++ wlFrom56
/-- Everything written from boundary 54 on. -/
abbrev wlFrom54 : List (Ref sig .tc) := wl54 ++ wlFrom55
/-- Everything written from boundary 53 on. -/
abbrev wlFrom53 : List (Ref sig .tc) := wl53 ++ wlFrom54
/-- Everything written from boundary 52 on. -/
abbrev wlFrom52 : List (Ref sig .tc) := wl52 ++ wlFrom53
/-- Everything written from boundary 51 on. -/
abbrev wlFrom51 : List (Ref sig .tc) := wl51 ++ wlFrom52
/-- Everything written from boundary 50 on. -/
abbrev wlFrom50 : List (Ref sig .tc) := wl50 ++ wlFrom51
/-- Everything written from boundary 49 on. -/
abbrev wlFrom49 : List (Ref sig .tc) := wl49 ++ wlFrom50
/-- Everything written from boundary 48 on. -/
abbrev wlFrom48 : List (Ref sig .tc) := wl48 ++ wlFrom49
/-- Everything written from boundary 47 on. -/
abbrev wlFrom47 : List (Ref sig .tc) := wl47 ++ wlFrom48
/-- Everything written from boundary 46 on. -/
abbrev wlFrom46 : List (Ref sig .tc) := wl46 ++ wlFrom47
/-- Everything written from boundary 45 on. -/
abbrev wlFrom45 : List (Ref sig .tc) := wl45 ++ wlFrom46
/-- Everything written from boundary 44 on. -/
abbrev wlFrom44 : List (Ref sig .tc) := wl44 ++ wlFrom45
/-- Everything written from boundary 43 on. -/
abbrev wlFrom43 : List (Ref sig .tc) := wl43 ++ wlFrom44
/-- Everything written from boundary 42 on. -/
abbrev wlFrom42 : List (Ref sig .tc) := wl42 ++ wlFrom43
/-- Everything written from boundary 41 on. -/
abbrev wlFrom41 : List (Ref sig .tc) := wl41 ++ wlFrom42
/-- Everything written from boundary 40 on. -/
abbrev wlFrom40 : List (Ref sig .tc) := wl40 ++ wlFrom41
/-- Everything written from boundary 39 on. -/
abbrev wlFrom39 : List (Ref sig .tc) := wl39 ++ wlFrom40
/-- Everything written from boundary 38 on. -/
abbrev wlFrom38 : List (Ref sig .tc) := wl38 ++ wlFrom39
/-- Everything written from boundary 37 on. -/
abbrev wlFrom37 : List (Ref sig .tc) := wl37 ++ wlFrom38
/-- Everything written from boundary 36 on. -/
abbrev wlFrom36 : List (Ref sig .tc) := wl36 ++ wlFrom37
/-- Everything written from boundary 35 on. -/
abbrev wlFrom35 : List (Ref sig .tc) := wl35 ++ wlFrom36
/-- Everything written from boundary 34 on. -/
abbrev wlFrom34 : List (Ref sig .tc) := wl34 ++ wlFrom35
/-- Everything written from boundary 33 on. -/
abbrev wlFrom33 : List (Ref sig .tc) := wl33 ++ wlFrom34
/-- Everything written from boundary 32 on. -/
abbrev wlFrom32 : List (Ref sig .tc) := wl32 ++ wlFrom33
/-- Everything written from boundary 31 on. -/
abbrev wlFrom31 : List (Ref sig .tc) := wl31 ++ wlFrom32
/-- Everything written from boundary 30 on. -/
abbrev wlFrom30 : List (Ref sig .tc) := wl30 ++ wlFrom31
/-- Everything written from boundary 29 on. -/
abbrev wlFrom29 : List (Ref sig .tc) := wl29 ++ wlFrom30
/-- Everything written from boundary 28 on. -/
abbrev wlFrom28 : List (Ref sig .tc) := wl28 ++ wlFrom29
/-- Everything written from boundary 27 on. -/
abbrev wlFrom27 : List (Ref sig .tc) := wl27 ++ wlFrom28
/-- Everything written from boundary 26 on. -/
abbrev wlFrom26 : List (Ref sig .tc) := wl26 ++ wlFrom27
/-- Everything written from boundary 25 on. -/
abbrev wlFrom25 : List (Ref sig .tc) := wl25 ++ wlFrom26
/-- Everything written from boundary 24 on. -/
abbrev wlFrom24 : List (Ref sig .tc) := wl24 ++ wlFrom25
/-- Everything written from boundary 23 on. -/
abbrev wlFrom23 : List (Ref sig .tc) := wl23 ++ wlFrom24
/-- Everything written from boundary 22 on. -/
abbrev wlFrom22 : List (Ref sig .tc) := wl22 ++ wlFrom23
/-- Everything written from boundary 21 on. -/
abbrev wlFrom21 : List (Ref sig .tc) := wl21 ++ wlFrom22
/-- Everything written from boundary 20 on. -/
abbrev wlFrom20 : List (Ref sig .tc) := wl20 ++ wlFrom21
/-- Everything written from boundary 19 on. -/
abbrev wlFrom19 : List (Ref sig .tc) := wl19 ++ wlFrom20
/-- Everything written from boundary 18 on. -/
abbrev wlFrom18 : List (Ref sig .tc) := wl18 ++ wlFrom19
/-- Everything written from boundary 17 on. -/
abbrev wlFrom17 : List (Ref sig .tc) := wl17 ++ wlFrom18
/-- Everything written from boundary 16 on. -/
abbrev wlFrom16 : List (Ref sig .tc) := wl16 ++ wlFrom17
/-- Everything written from boundary 15 on. -/
abbrev wlFrom15 : List (Ref sig .tc) := wl15 ++ wlFrom16
/-- Everything written from boundary 14 on. -/
abbrev wlFrom14 : List (Ref sig .tc) := wl14 ++ wlFrom15
/-- Everything written from boundary 13 on. -/
abbrev wlFrom13 : List (Ref sig .tc) := wl13 ++ wlFrom14
/-- Everything written from boundary 12 on. -/
abbrev wlFrom12 : List (Ref sig .tc) := wl12 ++ wlFrom13
/-- Everything written from boundary 11 on. -/
abbrev wlFrom11 : List (Ref sig .tc) := wl11 ++ wlFrom12
/-- Everything written from boundary 10 on. -/
abbrev wlFrom10 : List (Ref sig .tc) := wl10 ++ wlFrom11
/-- Everything written from boundary 9 on. -/
abbrev wlFrom9 : List (Ref sig .tc) := wl9 ++ wlFrom10
/-- Everything written from boundary 8 on. -/
abbrev wlFrom8 : List (Ref sig .tc) := wl8 ++ wlFrom9
/-- Everything written from boundary 7 on. -/
abbrev wlFrom7 : List (Ref sig .tc) := wl7 ++ wlFrom8
/-- Everything written from boundary 6 on. -/
abbrev wlFrom6 : List (Ref sig .tc) := wl6 ++ wlFrom7
/-- Everything written from boundary 5 on. -/
abbrev wlFrom5 : List (Ref sig .tc) := wl5 ++ wlFrom6
/-- Everything written from boundary 4 on. -/
abbrev wlFrom4 : List (Ref sig .tc) := wl4 ++ wlFrom5
/-- Everything written from boundary 3 on. -/
abbrev wlFrom3 : List (Ref sig .tc) := wl3 ++ wlFrom4
/-- Everything written from boundary 2 on. -/
abbrev wlFrom2 : List (Ref sig .tc) := wl2 ++ wlFrom3
/-- Everything written from boundary 1 on. -/
abbrev wlFrom1 : List (Ref sig .tc) := wl1 ++ wlFrom2
/-- Everything written from boundary 0 on. -/
abbrev wlFrom0 : List (Ref sig .tc) := wl0 ++ wlFrom1

/-! ## Each host stretch writes inside its table: its operations write, one by one, exactly the list's references -/

theorem writes1 : (hostOps1 : List (HloOp τ sig (Elt F))).Forall fun op => op.writes ⊆ (wl1.map (Proc.devRef (τ := τ) .tc)).toFinset :=
  writes_sub_of_forall₂ (.cons rfl (.cons rfl (.cons rfl (.cons rfl (.cons rfl (.cons rfl (.cons rfl (.cons rfl (.nil)))))))))
theorem writes3 : (hostOps2 : List (HloOp τ sig (Elt F))).Forall fun op => op.writes ⊆ (wl3.map (Proc.devRef (τ := τ) .tc)).toFinset :=
  writes_sub_of_forall₂ (.cons rfl (.cons rfl (.cons rfl (.nil))))
theorem writes6 : (hostOps4 : List (HloOp τ sig (Elt F))).Forall fun op => op.writes ⊆ (wl6.map (Proc.devRef (τ := τ) .tc)).toFinset :=
  writes_sub_of_forall₂ (.cons rfl (.cons rfl (.cons rfl (.cons rfl (.cons rfl (.cons rfl (.cons rfl (.cons rfl (.cons rfl (.cons rfl (.nil)))))))))))
theorem writes8 : (hostOps5 : List (HloOp τ sig (Elt F))).Forall fun op => op.writes ⊆ (wl8.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes9 : (hostOps5_1 : List (HloOp τ sig (Elt F))).Forall fun op => op.writes ⊆ (wl9.map (Proc.devRef (τ := τ) .tc)).toFinset :=
  writes_sub_of_forall₂ (.cons rfl (.cons rfl (.cons rfl (.nil))))
theorem writes10 : (hostOps5_2 : List (HloOp τ sig (Elt F))).Forall fun op => op.writes ⊆ (wl10.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))
theorem writes13 : (hostOps7 : List (HloOp τ sig (Elt F))).Forall fun op => op.writes ⊆ (wl13.map (Proc.devRef (τ := τ) .tc)).toFinset :=
  writes_sub_of_forall₂ (.cons rfl (.cons rfl (.cons rfl (.cons rfl (.cons rfl (.cons rfl (.cons rfl (.cons rfl (.cons rfl (.cons rfl (.nil)))))))))))
theorem writes15 : (hostOps8 : List (HloOp τ sig (Elt F))).Forall fun op => op.writes ⊆ (wl15.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes16 : (hostOps8_1 : List (HloOp τ sig (Elt F))).Forall fun op => op.writes ⊆ (wl16.map (Proc.devRef (τ := τ) .tc)).toFinset :=
  writes_sub_of_forall₂ (.cons rfl (.cons rfl (.cons rfl (.nil))))
theorem writes17 : (hostOps8_2 : List (HloOp τ sig (Elt F))).Forall fun op => op.writes ⊆ (wl17.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))
theorem writes20 : (hostOps10 : List (HloOp τ sig (Elt F))).Forall fun op => op.writes ⊆ (wl20.map (Proc.devRef (τ := τ) .tc)).toFinset :=
  writes_sub_of_forall₂ (.cons rfl (.cons rfl (.cons rfl (.cons rfl (.cons rfl (.cons rfl (.cons rfl (.cons rfl (.cons rfl (.cons rfl (.nil)))))))))))
theorem writes22 : (hostOps11 : List (HloOp τ sig (Elt F))).Forall fun op => op.writes ⊆ (wl22.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes23 : (hostOps11_1 : List (HloOp τ sig (Elt F))).Forall fun op => op.writes ⊆ (wl23.map (Proc.devRef (τ := τ) .tc)).toFinset :=
  writes_sub_of_forall₂ (.cons rfl (.cons rfl (.cons rfl (.nil))))
theorem writes24 : (hostOps11_2 : List (HloOp τ sig (Elt F))).Forall fun op => op.writes ⊆ (wl24.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))
theorem writes26 : (hostOps12 : List (HloOp τ sig (Elt F))).Forall fun op => op.writes ⊆ (wl26.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))
theorem writes27 : (hostOps12_1 : List (HloOp τ sig (Elt F))).Forall fun op => op.writes ⊆ (wl27.map (Proc.devRef (τ := τ) .tc)).toFinset :=
  writes_sub_of_forall₂ (.cons rfl (.cons rfl (.cons rfl (.nil))))
theorem writes28 : (hostOps12_2 : List (HloOp τ sig (Elt F))).Forall fun op => op.writes ⊆ (wl28.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))
theorem writes30 : (hostOps13 : List (HloOp τ sig (Elt F))).Forall fun op => op.writes ⊆ (wl30.map (Proc.devRef (τ := τ) .tc)).toFinset :=
  writes_sub_of_forall₂ (.cons rfl (.cons rfl (.cons rfl (.cons rfl (.cons rfl (.cons rfl (.cons rfl (.cons rfl (.nil)))))))))
theorem writes32 : (hostOps14 : List (HloOp τ sig (Elt F))).Forall fun op => op.writes ⊆ (wl32.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes33 : (hostOps14_1 : List (HloOp τ sig (Elt F))).Forall fun op => op.writes ⊆ (wl33.map (Proc.devRef (τ := τ) .tc)).toFinset :=
  writes_sub_of_forall₂ (.cons rfl (.cons rfl (.cons rfl (.nil))))
theorem writes34 : (hostOps14_2 : List (HloOp τ sig (Elt F))).Forall fun op => op.writes ⊆ (wl34.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))
theorem writes36 : (hostOps15 : List (HloOp τ sig (Elt F))).Forall fun op => op.writes ⊆ (wl36.map (Proc.devRef (τ := τ) .tc)).toFinset :=
  writes_sub_of_forall₂ (.cons rfl (.cons rfl (.cons rfl (.cons rfl (.cons rfl (.cons rfl (.cons rfl (.nil))))))))
theorem writes38 : (hostOps16 : List (HloOp τ sig (Elt F))).Forall fun op => op.writes ⊆ (wl38.map (Proc.devRef (τ := τ) .tc)).toFinset :=
  writes_sub_of_forall₂ (.cons rfl (.cons rfl (.cons rfl (.cons rfl (.cons rfl (.cons rfl (.cons rfl (.cons rfl (.nil)))))))))
theorem writes40 : (hostOps17 : List (HloOp τ sig (Elt F))).Forall fun op => op.writes ⊆ (wl40.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes41 : (hostOps17_1 : List (HloOp τ sig (Elt F))).Forall fun op => op.writes ⊆ (wl41.map (Proc.devRef (τ := τ) .tc)).toFinset :=
  writes_sub_of_forall₂ (.cons rfl (.cons rfl (.cons rfl (.nil))))
theorem writes42 : (hostOps17_2 : List (HloOp τ sig (Elt F))).Forall fun op => op.writes ⊆ (wl42.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))
theorem writes44 : (hostOps18 : List (HloOp τ sig (Elt F))).Forall fun op => op.writes ⊆ (wl44.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))
theorem writes45 : (hostOps18_1 : List (HloOp τ sig (Elt F))).Forall fun op => op.writes ⊆ (wl45.map (Proc.devRef (τ := τ) .tc)).toFinset :=
  writes_sub_of_forall₂ (.cons rfl (.cons rfl (.cons rfl (.nil))))
theorem writes46 : (hostOps18_2 : List (HloOp τ sig (Elt F))).Forall fun op => op.writes ⊆ (wl46.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))
theorem writes47 : (hostOps18_3 : List (HloOp τ sig (Elt F))).Forall fun op => op.writes ⊆ (wl47.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.nil))))))))))))))))
theorem writes48 : (hostOps18_4 : List (HloOp τ sig (Elt F))).Forall fun op => op.writes ⊆ (wl48.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))
theorem writes49 : (hostOps18_5 : List (HloOp τ sig (Elt F))).Forall fun op => op.writes ⊆ (wl49.map (Proc.devRef (τ := τ) .tc)).toFinset :=
  writes_sub_of_forall₂ (.cons rfl (.cons rfl (.cons rfl (.nil))))
theorem writes50 : (hostOps18_6 : List (HloOp τ sig (Elt F))).Forall fun op => op.writes ⊆ (wl50.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))
theorem writes51 : (hostOps18_7 : List (HloOp τ sig (Elt F))).Forall fun op => op.writes ⊆ (wl51.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.nil))))))))))))))))
theorem writes52 : (hostOps18_8 : List (HloOp τ sig (Elt F))).Forall fun op => op.writes ⊆ (wl52.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))
theorem writes53 : (hostOps18_9 : List (HloOp τ sig (Elt F))).Forall fun op => op.writes ⊆ (wl53.map (Proc.devRef (τ := τ) .tc)).toFinset :=
  writes_sub_of_forall₂ (.cons rfl (.nil))
theorem writes54 : (hostOps18_10 : List (HloOp τ sig (Elt F))).Forall fun op => op.writes ⊆ (wl54.map (Proc.devRef (τ := τ) .tc)).toFinset :=
  writes_sub_of_forall₂ (.cons rfl (.cons rfl (.cons rfl (.cons rfl (.cons rfl (.cons rfl (.cons rfl (.nil))))))))
theorem writes55 : (hostOps18_11 : List (HloOp τ sig (Elt F))).Forall fun op => op.writes ⊆ (wl55.map (Proc.devRef (τ := τ) .tc)).toFinset :=
  writes_sub_of_forall₂ (.cons rfl (.nil))
theorem writes56 : (hostOps18_12 : List (HloOp τ sig (Elt F))).Forall fun op => op.writes ⊆ (wl56.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))
theorem writes57 : (hostOps18_13 : List (HloOp τ sig (Elt F))).Forall fun op => op.writes ⊆ (wl57.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.nil))))))))))))))))

variable (m : (ℓ : Loc nD τ sig) → Buf (Elt F) ℓ) (ρ : Dev nD → PrngReg)

/-! ## One segment: a reference outside its table reads the same before and after -/

theorem keep0 (c : Dev nD) (b : Ref sig .tc) (hb : b ∉ wl0) :
    W1 m ρ c (Proc.devRef .tc b) = W0 m ρ c (Proc.devRef .tc b) := by
  by_cases h0 : b = main_arg0
  · subst h0; exact (W1_arr m ρ c 0).trans (((dat0 (V0 m ρ) c).arrAt_in 0 rfl _).trans (A_eq0 (V0 m ρ) c 0))
  exact W1_of_ne m ρ c b fun
    | 0 => fun e => h0 e.symm
    | 1 => ne_of_mem_of_not_mem (x := main_v0_0) (l := wl0) (by decide) hb
    | 2 => ne_of_mem_of_not_mem (x := main_v0_1) (l := wl0) (by decide) hb
    | ⟨_ + 3, h⟩ => absurd h (Nat.not_lt.2 (Nat.le_add_left _ _))
theorem keep1 (c : Dev nD) (b : Ref sig .tc) (hb : b ∉ wl1) :
    W2 m ρ c (Proc.devRef .tc b) = W1 m ρ c (Proc.devRef .tc b) :=
  StableHlo.after_of_writes_sub hostOps1 _ writes1 hb
theorem keep2 (c : Dev nD) (b : Ref sig .tc) (hb : b ∉ wl2) :
    W3 m ρ c (Proc.devRef .tc b) = W2 m ρ c (Proc.devRef .tc b) := by
  by_cases h0 : b = main_arg0
  · subst h0; exact (W3_arr m ρ c 0).trans (((dat1 (V2 m ρ) c).arrAt_in 0 rfl _).trans (A_eq1 (V2 m ρ) c 0))
  by_cases h1 : b = main_v2
  · subst h1; exact (W3_arr m ρ c 1).trans (((dat1 (V2 m ρ) c).arrAt_in 1 rfl _).trans (A_eq1 (V2 m ρ) c 1))
  by_cases h2 : b = main_v6
  · subst h2; exact (W3_arr m ρ c 2).trans (((dat1 (V2 m ρ) c).arrAt_in 2 rfl _).trans (A_eq1 (V2 m ρ) c 2))
  by_cases h3 : b = main_arg1
  · subst h3; exact (W3_arr m ρ c 3).trans (((dat1 (V2 m ρ) c).arrAt_in 3 rfl _).trans (A_eq1 (V2 m ρ) c 3))
  exact W3_of_ne m ρ c b fun
    | 0 => fun e => h0 e.symm
    | 1 => fun e => h1 e.symm
    | 2 => fun e => h2 e.symm
    | 3 => fun e => h3 e.symm
    | 4 => ne_of_mem_of_not_mem (x := main_v7) (l := wl2) (by decide) hb
    | ⟨_ + 5, h⟩ => absurd h (Nat.not_lt.2 (Nat.le_add_left _ _))
theorem keep3 (c : Dev nD) (b : Ref sig .tc) (hb : b ∉ wl3) :
    W4 m ρ c (Proc.devRef .tc b) = W3 m ρ c (Proc.devRef .tc b) :=
  StableHlo.after_of_writes_sub hostOps2 _ writes3 hb
theorem keep4 (c : Dev nD) (b : Ref sig .tc) (hb : b ∉ wl4) :
    W5 m ρ c (Proc.devRef .tc b) = W4 m ρ c (Proc.devRef .tc b) := by
  by_cases h0 : b = main_v7
  · subst h0; exact (W5_arr m ρ c 0).trans (((dat2 (V4 m ρ) c).arrAt_in 0 rfl _).trans (A_eq2 (V4 m ρ) c 0))
  by_cases h1 : b = main_v9
  · subst h1; exact (W5_arr m ρ c 1).trans (((dat2 (V4 m ρ) c).arrAt_in 1 rfl _).trans (A_eq2 (V4 m ρ) c 1))
  exact W5_of_ne m ρ c b fun
    | 0 => fun e => h0 e.symm
    | 1 => fun e => h1 e.symm
    | 2 => ne_of_mem_of_not_mem (x := main_v10) (l := wl4) (by decide) hb
    | ⟨_ + 3, h⟩ => absurd h (Nat.not_lt.2 (Nat.le_add_left _ _))
theorem keep5 (c : Dev nD) (b : Ref sig .tc) (hb : b ∉ wl5) :
    W6 m ρ c (Proc.devRef .tc b) = W5 m ρ c (Proc.devRef .tc b) := by
  by_cases h0 : b = main_v10
  · subst h0; exact (W6_arr m ρ c 0).trans (((dat3 (V5 m ρ) c).arrAt_in 0 rfl _).trans (A_eq3 (V5 m ρ) c 0))
  exact W6_of_ne m ρ c b fun
    | 0 => fun e => h0 e.symm
    | 1 => ne_of_mem_of_not_mem (x := main_v11_0) (l := wl5) (by decide) hb
    | 2 => ne_of_mem_of_not_mem (x := main_v11_1) (l := wl5) (by decide) hb
    | ⟨_ + 3, h⟩ => absurd h (Nat.not_lt.2 (Nat.le_add_left _ _))
theorem keep6 (c : Dev nD) (b : Ref sig .tc) (hb : b ∉ wl6) :
    W7 m ρ c (Proc.devRef .tc b) = W6 m ρ c (Proc.devRef .tc b) :=
  StableHlo.after_of_writes_sub hostOps4 _ writes6 hb
theorem keep7 (c : Dev nD) (b : Ref sig .tc) (hb : b ∉ wl7) :
    W8 m ρ c (Proc.devRef .tc b) = W7 m ρ c (Proc.devRef .tc b) := by
  by_cases h0 : b = main_v10
  · subst h0; exact (W8_arr m ρ c 0).trans (((dat4 (V7 m ρ) c).arrAt_in 0 rfl _).trans (A_eq4 (V7 m ρ) c 0))
  by_cases h1 : b = main_v13
  · subst h1; exact (W8_arr m ρ c 1).trans (((dat4 (V7 m ρ) c).arrAt_in 1 rfl _).trans (A_eq4 (V7 m ρ) c 1))
  by_cases h2 : b = main_v17
  · subst h2; exact (W8_arr m ρ c 2).trans (((dat4 (V7 m ρ) c).arrAt_in 2 rfl _).trans (A_eq4 (V7 m ρ) c 2))
  by_cases h3 : b = main_v19
  · subst h3; exact (W8_arr m ρ c 3).trans (((dat4 (V7 m ρ) c).arrAt_in 3 rfl _).trans (A_eq4 (V7 m ρ) c 3))
  exact W8_of_ne m ρ c b fun
    | 0 => fun e => h0 e.symm
    | 1 => fun e => h1 e.symm
    | 2 => fun e => h2 e.symm
    | 3 => fun e => h3 e.symm
    | 4 => ne_of_mem_of_not_mem (x := main_v20) (l := wl7) (by decide) hb
    | ⟨_ + 5, h⟩ => absurd h (Nat.not_lt.2 (Nat.le_add_left _ _))
theorem keep8 (c : Dev nD) (b : Ref sig .tc) (hb : b ∉ wl8) :
    W9 m ρ c (Proc.devRef .tc b) = W8 m ρ c (Proc.devRef .tc b) :=
  StableHlo.after_of_writes_sub hostOps5 _ writes8 hb
theorem keep9 (c : Dev nD) (b : Ref sig .tc) (hb : b ∉ wl9) :
    W10 m ρ c (Proc.devRef .tc b) = W9 m ρ c (Proc.devRef .tc b) :=
  StableHlo.after_of_writes_sub hostOps5_1 _ writes9 hb
theorem keep10 (c : Dev nD) (b : Ref sig .tc) (hb : b ∉ wl10) :
    W11 m ρ c (Proc.devRef .tc b) = W10 m ρ c (Proc.devRef .tc b) :=
  StableHlo.after_of_writes_sub hostOps5_2 _ writes10 hb
theorem keep11 (c : Dev nD) (b : Ref sig .tc) (hb : b ∉ wl11) :
    W12 m ρ c (Proc.devRef .tc b) = W11 m ρ c (Proc.devRef .tc b) := by
  by_cases h0 : b = main_v66
  · subst h0; exact (W12_arr m ρ c 0).trans (((dat5 (V11 m ρ) c).arrAt_in 0 rfl _).trans (A_eq5 (V11 m ρ) c 0))
  by_cases h1 : b = main_v69
  · subst h1; exact (W12_arr m ρ c 1).trans (((dat5 (V11 m ρ) c).arrAt_in 1 rfl _).trans (A_eq5 (V11 m ρ) c 1))
  exact W12_of_ne m ρ c b fun
    | 0 => fun e => h0 e.symm
    | 1 => fun e => h1 e.symm
    | 2 => ne_of_mem_of_not_mem (x := main_v70) (l := wl11) (by decide) hb
    | ⟨_ + 3, h⟩ => absurd h (Nat.not_lt.2 (Nat.le_add_left _ _))
theorem keep12 (c : Dev nD) (b : Ref sig .tc) (hb : b ∉ wl12) :
    W13 m ρ c (Proc.devRef .tc b) = W12 m ρ c (Proc.devRef .tc b) := by
  by_cases h0 : b = main_v70
  · subst h0; exact (W13_arr m ρ c 0).trans (((dat6 (V12 m ρ) c).arrAt_in 0 rfl _).trans (A_eq6 (V12 m ρ) c 0))
  exact W13_of_ne m ρ c b fun
    | 0 => fun e => h0 e.symm
    | 1 => ne_of_mem_of_not_mem (x := main_v71_0) (l := wl12) (by decide) hb
    | 2 => ne_of_mem_of_not_mem (x := main_v71_1) (l := wl12) (by decide) hb
    | ⟨_ + 3, h⟩ => absurd h (Nat.not_lt.2 (Nat.le_add_left _ _))
theorem keep13 (c : Dev nD) (b : Ref sig .tc) (hb : b ∉ wl13) :
    W14 m ρ c (Proc.devRef .tc b) = W13 m ρ c (Proc.devRef .tc b) :=
  StableHlo.after_of_writes_sub hostOps7 _ writes13 hb
theorem keep14 (c : Dev nD) (b : Ref sig .tc) (hb : b ∉ wl14) :
    W15 m ρ c (Proc.devRef .tc b) = W14 m ρ c (Proc.devRef .tc b) := by
  by_cases h0 : b = main_v70
  · subst h0; exact (W15_arr m ρ c 0).trans (((dat7 (V14 m ρ) c).arrAt_in 0 rfl _).trans (A_eq7 (V14 m ρ) c 0))
  by_cases h1 : b = main_v73
  · subst h1; exact (W15_arr m ρ c 1).trans (((dat7 (V14 m ρ) c).arrAt_in 1 rfl _).trans (A_eq7 (V14 m ρ) c 1))
  by_cases h2 : b = main_v77
  · subst h2; exact (W15_arr m ρ c 2).trans (((dat7 (V14 m ρ) c).arrAt_in 2 rfl _).trans (A_eq7 (V14 m ρ) c 2))
  by_cases h3 : b = main_v79
  · subst h3; exact (W15_arr m ρ c 3).trans (((dat7 (V14 m ρ) c).arrAt_in 3 rfl _).trans (A_eq7 (V14 m ρ) c 3))
  exact W15_of_ne m ρ c b fun
    | 0 => fun e => h0 e.symm
    | 1 => fun e => h1 e.symm
    | 2 => fun e => h2 e.symm
    | 3 => fun e => h3 e.symm
    | 4 => ne_of_mem_of_not_mem (x := main_v80) (l := wl14) (by decide) hb
    | ⟨_ + 5, h⟩ => absurd h (Nat.not_lt.2 (Nat.le_add_left _ _))
theorem keep15 (c : Dev nD) (b : Ref sig .tc) (hb : b ∉ wl15) :
    W16 m ρ c (Proc.devRef .tc b) = W15 m ρ c (Proc.devRef .tc b) :=
  StableHlo.after_of_writes_sub hostOps8 _ writes15 hb
theorem keep16 (c : Dev nD) (b : Ref sig .tc) (hb : b ∉ wl16) :
    W17 m ρ c (Proc.devRef .tc b) = W16 m ρ c (Proc.devRef .tc b) :=
  StableHlo.after_of_writes_sub hostOps8_1 _ writes16 hb
theorem keep17 (c : Dev nD) (b : Ref sig .tc) (hb : b ∉ wl17) :
    W18 m ρ c (Proc.devRef .tc b) = W17 m ρ c (Proc.devRef .tc b) :=
  StableHlo.after_of_writes_sub hostOps8_2 _ writes17 hb
theorem keep18 (c : Dev nD) (b : Ref sig .tc) (hb : b ∉ wl18) :
    W19 m ρ c (Proc.devRef .tc b) = W18 m ρ c (Proc.devRef .tc b) := by
  by_cases h0 : b = main_v126
  · subst h0; exact (W19_arr m ρ c 0).trans (((dat8 (V18 m ρ) c).arrAt_in 0 rfl _).trans (A_eq8 (V18 m ρ) c 0))
  by_cases h1 : b = main_v129
  · subst h1; exact (W19_arr m ρ c 1).trans (((dat8 (V18 m ρ) c).arrAt_in 1 rfl _).trans (A_eq8 (V18 m ρ) c 1))
  exact W19_of_ne m ρ c b fun
    | 0 => fun e => h0 e.symm
    | 1 => fun e => h1 e.symm
    | 2 => ne_of_mem_of_not_mem (x := main_v130) (l := wl18) (by decide) hb
    | ⟨_ + 3, h⟩ => absurd h (Nat.not_lt.2 (Nat.le_add_left _ _))
theorem keep19 (c : Dev nD) (b : Ref sig .tc) (hb : b ∉ wl19) :
    W20 m ρ c (Proc.devRef .tc b) = W19 m ρ c (Proc.devRef .tc b) := by
  by_cases h0 : b = main_v130
  · subst h0; exact (W20_arr m ρ c 0).trans (((dat9 (V19 m ρ) c).arrAt_in 0 rfl _).trans (A_eq9 (V19 m ρ) c 0))
  exact W20_of_ne m ρ c b fun
    | 0 => fun e => h0 e.symm
    | 1 => ne_of_mem_of_not_mem (x := main_v131_0) (l := wl19) (by decide) hb
    | 2 => ne_of_mem_of_not_mem (x := main_v131_1) (l := wl19) (by decide) hb
    | ⟨_ + 3, h⟩ => absurd h (Nat.not_lt.2 (Nat.le_add_left _ _))
theorem keep20 (c : Dev nD) (b : Ref sig .tc) (hb : b ∉ wl20) :
    W21 m ρ c (Proc.devRef .tc b) = W20 m ρ c (Proc.devRef .tc b) :=
  StableHlo.after_of_writes_sub hostOps10 _ writes20 hb
theorem keep21 (c : Dev nD) (b : Ref sig .tc) (hb : b ∉ wl21) :
    W22 m ρ c (Proc.devRef .tc b) = W21 m ρ c (Proc.devRef .tc b) := by
  by_cases h0 : b = main_v130
  · subst h0; exact (W22_arr m ρ c 0).trans (((dat10 (V21 m ρ) c).arrAt_in 0 rfl _).trans (A_eq10 (V21 m ρ) c 0))
  by_cases h1 : b = main_v133
  · subst h1; exact (W22_arr m ρ c 1).trans (((dat10 (V21 m ρ) c).arrAt_in 1 rfl _).trans (A_eq10 (V21 m ρ) c 1))
  by_cases h2 : b = main_v137
  · subst h2; exact (W22_arr m ρ c 2).trans (((dat10 (V21 m ρ) c).arrAt_in 2 rfl _).trans (A_eq10 (V21 m ρ) c 2))
  by_cases h3 : b = main_v139
  · subst h3; exact (W22_arr m ρ c 3).trans (((dat10 (V21 m ρ) c).arrAt_in 3 rfl _).trans (A_eq10 (V21 m ρ) c 3))
  exact W22_of_ne m ρ c b fun
    | 0 => fun e => h0 e.symm
    | 1 => fun e => h1 e.symm
    | 2 => fun e => h2 e.symm
    | 3 => fun e => h3 e.symm
    | 4 => ne_of_mem_of_not_mem (x := main_v140) (l := wl21) (by decide) hb
    | ⟨_ + 5, h⟩ => absurd h (Nat.not_lt.2 (Nat.le_add_left _ _))
theorem keep22 (c : Dev nD) (b : Ref sig .tc) (hb : b ∉ wl22) :
    W23 m ρ c (Proc.devRef .tc b) = W22 m ρ c (Proc.devRef .tc b) :=
  StableHlo.after_of_writes_sub hostOps11 _ writes22 hb
theorem keep23 (c : Dev nD) (b : Ref sig .tc) (hb : b ∉ wl23) :
    W24 m ρ c (Proc.devRef .tc b) = W23 m ρ c (Proc.devRef .tc b) :=
  StableHlo.after_of_writes_sub hostOps11_1 _ writes23 hb
theorem keep24 (c : Dev nD) (b : Ref sig .tc) (hb : b ∉ wl24) :
    W25 m ρ c (Proc.devRef .tc b) = W24 m ρ c (Proc.devRef .tc b) :=
  StableHlo.after_of_writes_sub hostOps11_2 _ writes24 hb
theorem keep25 (c : Dev nD) (b : Ref sig .tc) (hb : b ∉ wl25) :
    W26 m ρ c (Proc.devRef .tc b) = W25 m ρ c (Proc.devRef .tc b) := by
  by_cases h0 : b = main_v186
  · subst h0; exact (W26_arr m ρ c 0).trans (((dat11 (V25 m ρ) c).arrAt_in 0 rfl _).trans (A_eq11 (V25 m ρ) c 0))
  by_cases h1 : b = main_v189
  · subst h1; exact (W26_arr m ρ c 1).trans (((dat11 (V25 m ρ) c).arrAt_in 1 rfl _).trans (A_eq11 (V25 m ρ) c 1))
  exact W26_of_ne m ρ c b fun
    | 0 => fun e => h0 e.symm
    | 1 => fun e => h1 e.symm
    | 2 => ne_of_mem_of_not_mem (x := main_v190) (l := wl25) (by decide) hb
    | ⟨_ + 3, h⟩ => absurd h (Nat.not_lt.2 (Nat.le_add_left _ _))
theorem keep26 (c : Dev nD) (b : Ref sig .tc) (hb : b ∉ wl26) :
    W27 m ρ c (Proc.devRef .tc b) = W26 m ρ c (Proc.devRef .tc b) :=
  StableHlo.after_of_writes_sub hostOps12 _ writes26 hb
theorem keep27 (c : Dev nD) (b : Ref sig .tc) (hb : b ∉ wl27) :
    W28 m ρ c (Proc.devRef .tc b) = W27 m ρ c (Proc.devRef .tc b) :=
  StableHlo.after_of_writes_sub hostOps12_1 _ writes27 hb
theorem keep28 (c : Dev nD) (b : Ref sig .tc) (hb : b ∉ wl28) :
    W29 m ρ c (Proc.devRef .tc b) = W28 m ρ c (Proc.devRef .tc b) :=
  StableHlo.after_of_writes_sub hostOps12_2 _ writes28 hb
theorem keep29 (c : Dev nD) (b : Ref sig .tc) (hb : b ∉ wl29) :
    W30 m ρ c (Proc.devRef .tc b) = W29 m ρ c (Proc.devRef .tc b) := by
  by_cases h0 : b = main_v287
  · subst h0; exact (W30_arr m ρ c 0).trans (((dat12 (V29 m ρ) c).arrAt_in 0 rfl _).trans (A_eq12 (V29 m ρ) c 0))
  exact W30_of_ne m ρ c b fun
    | 0 => fun e => h0 e.symm
    | 1 => ne_of_mem_of_not_mem (x := main_v288_0) (l := wl29) (by decide) hb
    | 2 => ne_of_mem_of_not_mem (x := main_v288_1) (l := wl29) (by decide) hb
    | ⟨_ + 3, h⟩ => absurd h (Nat.not_lt.2 (Nat.le_add_left _ _))
theorem keep30 (c : Dev nD) (b : Ref sig .tc) (hb : b ∉ wl30) :
    W31 m ρ c (Proc.devRef .tc b) = W30 m ρ c (Proc.devRef .tc b) :=
  StableHlo.after_of_writes_sub hostOps13 _ writes30 hb
theorem keep31 (c : Dev nD) (b : Ref sig .tc) (hb : b ∉ wl31) :
    W32 m ρ c (Proc.devRef .tc b) = W31 m ρ c (Proc.devRef .tc b) := by
  by_cases h0 : b = main_v287
  · subst h0; exact (W32_arr m ρ c 0).trans (((dat13 (V31 m ρ) c).arrAt_in 0 rfl _).trans (A_eq13 (V31 m ρ) c 0))
  by_cases h1 : b = main_v290
  · subst h1; exact (W32_arr m ρ c 1).trans (((dat13 (V31 m ρ) c).arrAt_in 1 rfl _).trans (A_eq13 (V31 m ρ) c 1))
  by_cases h2 : b = main_v294
  · subst h2; exact (W32_arr m ρ c 2).trans (((dat13 (V31 m ρ) c).arrAt_in 2 rfl _).trans (A_eq13 (V31 m ρ) c 2))
  by_cases h3 : b = main_arg8
  · subst h3; exact (W32_arr m ρ c 3).trans (((dat13 (V31 m ρ) c).arrAt_in 3 rfl _).trans (A_eq13 (V31 m ρ) c 3))
  exact W32_of_ne m ρ c b fun
    | 0 => fun e => h0 e.symm
    | 1 => fun e => h1 e.symm
    | 2 => fun e => h2 e.symm
    | 3 => fun e => h3 e.symm
    | 4 => ne_of_mem_of_not_mem (x := main_v295) (l := wl31) (by decide) hb
    | ⟨_ + 5, h⟩ => absurd h (Nat.not_lt.2 (Nat.le_add_left _ _))
theorem keep32 (c : Dev nD) (b : Ref sig .tc) (hb : b ∉ wl32) :
    W33 m ρ c (Proc.devRef .tc b) = W32 m ρ c (Proc.devRef .tc b) :=
  StableHlo.after_of_writes_sub hostOps14 _ writes32 hb
theorem keep33 (c : Dev nD) (b : Ref sig .tc) (hb : b ∉ wl33) :
    W34 m ρ c (Proc.devRef .tc b) = W33 m ρ c (Proc.devRef .tc b) :=
  StableHlo.after_of_writes_sub hostOps14_1 _ writes33 hb
theorem keep34 (c : Dev nD) (b : Ref sig .tc) (hb : b ∉ wl34) :
    W35 m ρ c (Proc.devRef .tc b) = W34 m ρ c (Proc.devRef .tc b) :=
  StableHlo.after_of_writes_sub hostOps14_2 _ writes34 hb
theorem keep35 (c : Dev nD) (b : Ref sig .tc) (hb : b ∉ wl35) :
    W36 m ρ c (Proc.devRef .tc b) = W35 m ρ c (Proc.devRef .tc b) := by
  by_cases h0 : b = main_v342
  · subst h0; exact (W36_arr m ρ c 0).trans (((dat14 (V35 m ρ) c).arrAt_in 0 rfl _).trans (A_eq14 (V35 m ρ) c 0))
  by_cases h1 : b = main_v343
  · subst h1; exact (W36_arr m ρ c 1).trans (((dat14 (V35 m ρ) c).arrAt_in 1 rfl _).trans (A_eq14 (V35 m ρ) c 1))
  exact W36_of_ne m ρ c b fun
    | 0 => fun e => h0 e.symm
    | 1 => fun e => h1 e.symm
    | 2 => ne_of_mem_of_not_mem (x := main_v344) (l := wl35) (by decide) hb
    | ⟨_ + 3, h⟩ => absurd h (Nat.not_lt.2 (Nat.le_add_left _ _))
theorem keep36 (c : Dev nD) (b : Ref sig .tc) (hb : b ∉ wl36) :
    W37 m ρ c (Proc.devRef .tc b) = W36 m ρ c (Proc.devRef .tc b) :=
  StableHlo.after_of_writes_sub hostOps15 _ writes36 hb
theorem keep37 (c : Dev nD) (b : Ref sig .tc) (hb : b ∉ wl37) :
    W38 m ρ c (Proc.devRef .tc b) = W37 m ρ c (Proc.devRef .tc b) := by
  by_cases h0 : b = main_v350
  · subst h0; exact (W38_arr m ρ c 0).trans (((dat15 (V37 m ρ) c).arrAt_in 0 rfl _).trans (A_eq15 (V37 m ρ) c 0))
  exact W38_of_ne m ρ c b fun
    | 0 => fun e => h0 e.symm
    | 1 => ne_of_mem_of_not_mem (x := main_v351_0) (l := wl37) (by decide) hb
    | 2 => ne_of_mem_of_not_mem (x := main_v351_1) (l := wl37) (by decide) hb
    | ⟨_ + 3, h⟩ => absurd h (Nat.not_lt.2 (Nat.le_add_left _ _))
theorem keep38 (c : Dev nD) (b : Ref sig .tc) (hb : b ∉ wl38) :
    W39 m ρ c (Proc.devRef .tc b) = W38 m ρ c (Proc.devRef .tc b) :=
  StableHlo.after_of_writes_sub hostOps16 _ writes38 hb
theorem keep39 (c : Dev nD) (b : Ref sig .tc) (hb : b ∉ wl39) :
    W40 m ρ c (Proc.devRef .tc b) = W39 m ρ c (Proc.devRef .tc b) := by
  by_cases h0 : b = main_v350
  · subst h0; exact (W40_arr m ρ c 0).trans (((dat16 (V39 m ρ) c).arrAt_in 0 rfl _).trans (A_eq16 (V39 m ρ) c 0))
  by_cases h1 : b = main_v353
  · subst h1; exact (W40_arr m ρ c 1).trans (((dat16 (V39 m ρ) c).arrAt_in 1 rfl _).trans (A_eq16 (V39 m ρ) c 1))
  by_cases h2 : b = main_v357
  · subst h2; exact (W40_arr m ρ c 2).trans (((dat16 (V39 m ρ) c).arrAt_in 2 rfl _).trans (A_eq16 (V39 m ρ) c 2))
  by_cases h3 : b = main_arg10
  · subst h3; exact (W40_arr m ρ c 3).trans (((dat16 (V39 m ρ) c).arrAt_in 3 rfl _).trans (A_eq16 (V39 m ρ) c 3))
  exact W40_of_ne m ρ c b fun
    | 0 => fun e => h0 e.symm
    | 1 => fun e => h1 e.symm
    | 2 => fun e => h2 e.symm
    | 3 => fun e => h3 e.symm
    | 4 => ne_of_mem_of_not_mem (x := main_v358) (l := wl39) (by decide) hb
    | ⟨_ + 5, h⟩ => absurd h (Nat.not_lt.2 (Nat.le_add_left _ _))
theorem keep40 (c : Dev nD) (b : Ref sig .tc) (hb : b ∉ wl40) :
    W41 m ρ c (Proc.devRef .tc b) = W40 m ρ c (Proc.devRef .tc b) :=
  StableHlo.after_of_writes_sub hostOps17 _ writes40 hb
theorem keep41 (c : Dev nD) (b : Ref sig .tc) (hb : b ∉ wl41) :
    W42 m ρ c (Proc.devRef .tc b) = W41 m ρ c (Proc.devRef .tc b) :=
  StableHlo.after_of_writes_sub hostOps17_1 _ writes41 hb
theorem keep42 (c : Dev nD) (b : Ref sig .tc) (hb : b ∉ wl42) :
    W43 m ρ c (Proc.devRef .tc b) = W42 m ρ c (Proc.devRef .tc b) :=
  StableHlo.after_of_writes_sub hostOps17_2 _ writes42 hb
theorem keep43 (c : Dev nD) (b : Ref sig .tc) (hb : b ∉ wl43) :
    W44 m ρ c (Proc.devRef .tc b) = W43 m ρ c (Proc.devRef .tc b) := by
  by_cases h0 : b = main_v405
  · subst h0; exact (W44_arr m ρ c 0).trans (((dat17 (V43 m ρ) c).arrAt_in 0 rfl _).trans (A_eq17 (V43 m ρ) c 0))
  by_cases h1 : b = main_v406
  · subst h1; exact (W44_arr m ρ c 1).trans (((dat17 (V43 m ρ) c).arrAt_in 1 rfl _).trans (A_eq17 (V43 m ρ) c 1))
  exact W44_of_ne m ρ c b fun
    | 0 => fun e => h0 e.symm
    | 1 => fun e => h1 e.symm
    | 2 => ne_of_mem_of_not_mem (x := main_v407) (l := wl43) (by decide) hb
    | ⟨_ + 3, h⟩ => absurd h (Nat.not_lt.2 (Nat.le_add_left _ _))
theorem keep44 (c : Dev nD) (b : Ref sig .tc) (hb : b ∉ wl44) :
    W45 m ρ c (Proc.devRef .tc b) = W44 m ρ c (Proc.devRef .tc b) :=
  StableHlo.after_of_writes_sub hostOps18 _ writes44 hb
theorem keep45 (c : Dev nD) (b : Ref sig .tc) (hb : b ∉ wl45) :
    W46 m ρ c (Proc.devRef .tc b) = W45 m ρ c (Proc.devRef .tc b) :=
  StableHlo.after_of_writes_sub hostOps18_1 _ writes45 hb
theorem keep46 (c : Dev nD) (b : Ref sig .tc) (hb : b ∉ wl46) :
    W47 m ρ c (Proc.devRef .tc b) = W46 m ρ c (Proc.devRef .tc b) :=
  StableHlo.after_of_writes_sub hostOps18_2 _ writes46 hb
theorem keep47 (c : Dev nD) (b : Ref sig .tc) (hb : b ∉ wl47) :
    W48 m ρ c (Proc.devRef .tc b) = W47 m ρ c (Proc.devRef .tc b) :=
  StableHlo.after_of_writes_sub hostOps18_3 _ writes47 hb
theorem keep48 (c : Dev nD) (b : Ref sig .tc) (hb : b ∉ wl48) :
    W49 m ρ c (Proc.devRef .tc b) = W48 m ρ c (Proc.devRef .tc b) :=
  StableHlo.after_of_writes_sub hostOps18_4 _ writes48 hb
theorem keep49 (c : Dev nD) (b : Ref sig .tc) (hb : b ∉ wl49) :
    W50 m ρ c (Proc.devRef .tc b) = W49 m ρ c (Proc.devRef .tc b) :=
  StableHlo.after_of_writes_sub hostOps18_5 _ writes49 hb
theorem keep50 (c : Dev nD) (b : Ref sig .tc) (hb : b ∉ wl50) :
    W51 m ρ c (Proc.devRef .tc b) = W50 m ρ c (Proc.devRef .tc b) :=
  StableHlo.after_of_writes_sub hostOps18_6 _ writes50 hb
theorem keep51 (c : Dev nD) (b : Ref sig .tc) (hb : b ∉ wl51) :
    W52 m ρ c (Proc.devRef .tc b) = W51 m ρ c (Proc.devRef .tc b) :=
  StableHlo.after_of_writes_sub hostOps18_7 _ writes51 hb
theorem keep52 (c : Dev nD) (b : Ref sig .tc) (hb : b ∉ wl52) :
    W53 m ρ c (Proc.devRef .tc b) = W52 m ρ c (Proc.devRef .tc b) :=
  StableHlo.after_of_writes_sub hostOps18_8 _ writes52 hb
theorem keep53 (c : Dev nD) (b : Ref sig .tc) (hb : b ∉ wl53) :
    W54 m ρ c (Proc.devRef .tc b) = W53 m ρ c (Proc.devRef .tc b) :=
  StableHlo.after_of_writes_sub hostOps18_9 _ writes53 hb
theorem keep54 (c : Dev nD) (b : Ref sig .tc) (hb : b ∉ wl54) :
    W55 m ρ c (Proc.devRef .tc b) = W54 m ρ c (Proc.devRef .tc b) :=
  StableHlo.after_of_writes_sub hostOps18_10 _ writes54 hb
theorem keep55 (c : Dev nD) (b : Ref sig .tc) (hb : b ∉ wl55) :
    W56 m ρ c (Proc.devRef .tc b) = W55 m ρ c (Proc.devRef .tc b) :=
  StableHlo.after_of_writes_sub hostOps18_11 _ writes55 hb
theorem keep56 (c : Dev nD) (b : Ref sig .tc) (hb : b ∉ wl56) :
    W57 m ρ c (Proc.devRef .tc b) = W56 m ρ c (Proc.devRef .tc b) :=
  StableHlo.after_of_writes_sub hostOps18_12 _ writes56 hb
theorem keep57 (c : Dev nD) (b : Ref sig .tc) (hb : b ∉ wl57) :
    W58 m ρ c (Proc.devRef .tc b) = W57 m ρ c (Proc.devRef .tc b) :=
  StableHlo.after_of_writes_sub hostOps18_13 _ writes57 hb

/-! ## To the end: a reference nothing writes from boundary k on reads at the end what it read at k -/

theorem carry57 (c : Dev nD) (b : Ref sig .tc) (hb : b ∉ wlFrom57) :
    W58 m ρ c (Proc.devRef .tc b) = W57 m ρ c (Proc.devRef .tc b) :=
  keep57 m ρ c b fun h => hb (List.mem_append_left _ h)
theorem carry56 (c : Dev nD) (b : Ref sig .tc) (hb : b ∉ wlFrom56) :
    W58 m ρ c (Proc.devRef .tc b) = W56 m ρ c (Proc.devRef .tc b) :=
  (carry57 m ρ c b fun h => hb (List.mem_append_right _ h)).trans (keep56 m ρ c b fun h => hb (List.mem_append_left _ h))
theorem carry55 (c : Dev nD) (b : Ref sig .tc) (hb : b ∉ wlFrom55) :
    W58 m ρ c (Proc.devRef .tc b) = W55 m ρ c (Proc.devRef .tc b) :=
  (carry56 m ρ c b fun h => hb (List.mem_append_right _ h)).trans (keep55 m ρ c b fun h => hb (List.mem_append_left _ h))
theorem carry54 (c : Dev nD) (b : Ref sig .tc) (hb : b ∉ wlFrom54) :
    W58 m ρ c (Proc.devRef .tc b) = W54 m ρ c (Proc.devRef .tc b) :=
  (carry55 m ρ c b fun h => hb (List.mem_append_right _ h)).trans (keep54 m ρ c b fun h => hb (List.mem_append_left _ h))
theorem carry53 (c : Dev nD) (b : Ref sig .tc) (hb : b ∉ wlFrom53) :
    W58 m ρ c (Proc.devRef .tc b) = W53 m ρ c (Proc.devRef .tc b) :=
  (carry54 m ρ c b fun h => hb (List.mem_append_right _ h)).trans (keep53 m ρ c b fun h => hb (List.mem_append_left _ h))
theorem carry52 (c : Dev nD) (b : Ref sig .tc) (hb : b ∉ wlFrom52) :
    W58 m ρ c (Proc.devRef .tc b) = W52 m ρ c (Proc.devRef .tc b) :=
  (carry53 m ρ c b fun h => hb (List.mem_append_right _ h)).trans (keep52 m ρ c b fun h => hb (List.mem_append_left _ h))
theorem carry51 (c : Dev nD) (b : Ref sig .tc) (hb : b ∉ wlFrom51) :
    W58 m ρ c (Proc.devRef .tc b) = W51 m ρ c (Proc.devRef .tc b) :=
  (carry52 m ρ c b fun h => hb (List.mem_append_right _ h)).trans (keep51 m ρ c b fun h => hb (List.mem_append_left _ h))
theorem carry50 (c : Dev nD) (b : Ref sig .tc) (hb : b ∉ wlFrom50) :
    W58 m ρ c (Proc.devRef .tc b) = W50 m ρ c (Proc.devRef .tc b) :=
  (carry51 m ρ c b fun h => hb (List.mem_append_right _ h)).trans (keep50 m ρ c b fun h => hb (List.mem_append_left _ h))
theorem carry49 (c : Dev nD) (b : Ref sig .tc) (hb : b ∉ wlFrom49) :
    W58 m ρ c (Proc.devRef .tc b) = W49 m ρ c (Proc.devRef .tc b) :=
  (carry50 m ρ c b fun h => hb (List.mem_append_right _ h)).trans (keep49 m ρ c b fun h => hb (List.mem_append_left _ h))
theorem carry48 (c : Dev nD) (b : Ref sig .tc) (hb : b ∉ wlFrom48) :
    W58 m ρ c (Proc.devRef .tc b) = W48 m ρ c (Proc.devRef .tc b) :=
  (carry49 m ρ c b fun h => hb (List.mem_append_right _ h)).trans (keep48 m ρ c b fun h => hb (List.mem_append_left _ h))
theorem carry47 (c : Dev nD) (b : Ref sig .tc) (hb : b ∉ wlFrom47) :
    W58 m ρ c (Proc.devRef .tc b) = W47 m ρ c (Proc.devRef .tc b) :=
  (carry48 m ρ c b fun h => hb (List.mem_append_right _ h)).trans (keep47 m ρ c b fun h => hb (List.mem_append_left _ h))
theorem carry46 (c : Dev nD) (b : Ref sig .tc) (hb : b ∉ wlFrom46) :
    W58 m ρ c (Proc.devRef .tc b) = W46 m ρ c (Proc.devRef .tc b) :=
  (carry47 m ρ c b fun h => hb (List.mem_append_right _ h)).trans (keep46 m ρ c b fun h => hb (List.mem_append_left _ h))
theorem carry45 (c : Dev nD) (b : Ref sig .tc) (hb : b ∉ wlFrom45) :
    W58 m ρ c (Proc.devRef .tc b) = W45 m ρ c (Proc.devRef .tc b) :=
  (carry46 m ρ c b fun h => hb (List.mem_append_right _ h)).trans (keep45 m ρ c b fun h => hb (List.mem_append_left _ h))
theorem carry44 (c : Dev nD) (b : Ref sig .tc) (hb : b ∉ wlFrom44) :
    W58 m ρ c (Proc.devRef .tc b) = W44 m ρ c (Proc.devRef .tc b) :=
  (carry45 m ρ c b fun h => hb (List.mem_append_right _ h)).trans (keep44 m ρ c b fun h => hb (List.mem_append_left _ h))
theorem carry43 (c : Dev nD) (b : Ref sig .tc) (hb : b ∉ wlFrom43) :
    W58 m ρ c (Proc.devRef .tc b) = W43 m ρ c (Proc.devRef .tc b) :=
  (carry44 m ρ c b fun h => hb (List.mem_append_right _ h)).trans (keep43 m ρ c b fun h => hb (List.mem_append_left _ h))
theorem carry42 (c : Dev nD) (b : Ref sig .tc) (hb : b ∉ wlFrom42) :
    W58 m ρ c (Proc.devRef .tc b) = W42 m ρ c (Proc.devRef .tc b) :=
  (carry43 m ρ c b fun h => hb (List.mem_append_right _ h)).trans (keep42 m ρ c b fun h => hb (List.mem_append_left _ h))
theorem carry41 (c : Dev nD) (b : Ref sig .tc) (hb : b ∉ wlFrom41) :
    W58 m ρ c (Proc.devRef .tc b) = W41 m ρ c (Proc.devRef .tc b) :=
  (carry42 m ρ c b fun h => hb (List.mem_append_right _ h)).trans (keep41 m ρ c b fun h => hb (List.mem_append_left _ h))
theorem carry40 (c : Dev nD) (b : Ref sig .tc) (hb : b ∉ wlFrom40) :
    W58 m ρ c (Proc.devRef .tc b) = W40 m ρ c (Proc.devRef .tc b) :=
  (carry41 m ρ c b fun h => hb (List.mem_append_right _ h)).trans (keep40 m ρ c b fun h => hb (List.mem_append_left _ h))
theorem carry39 (c : Dev nD) (b : Ref sig .tc) (hb : b ∉ wlFrom39) :
    W58 m ρ c (Proc.devRef .tc b) = W39 m ρ c (Proc.devRef .tc b) :=
  (carry40 m ρ c b fun h => hb (List.mem_append_right _ h)).trans (keep39 m ρ c b fun h => hb (List.mem_append_left _ h))
theorem carry38 (c : Dev nD) (b : Ref sig .tc) (hb : b ∉ wlFrom38) :
    W58 m ρ c (Proc.devRef .tc b) = W38 m ρ c (Proc.devRef .tc b) :=
  (carry39 m ρ c b fun h => hb (List.mem_append_right _ h)).trans (keep38 m ρ c b fun h => hb (List.mem_append_left _ h))
theorem carry37 (c : Dev nD) (b : Ref sig .tc) (hb : b ∉ wlFrom37) :
    W58 m ρ c (Proc.devRef .tc b) = W37 m ρ c (Proc.devRef .tc b) :=
  (carry38 m ρ c b fun h => hb (List.mem_append_right _ h)).trans (keep37 m ρ c b fun h => hb (List.mem_append_left _ h))
theorem carry36 (c : Dev nD) (b : Ref sig .tc) (hb : b ∉ wlFrom36) :
    W58 m ρ c (Proc.devRef .tc b) = W36 m ρ c (Proc.devRef .tc b) :=
  (carry37 m ρ c b fun h => hb (List.mem_append_right _ h)).trans (keep36 m ρ c b fun h => hb (List.mem_append_left _ h))
theorem carry35 (c : Dev nD) (b : Ref sig .tc) (hb : b ∉ wlFrom35) :
    W58 m ρ c (Proc.devRef .tc b) = W35 m ρ c (Proc.devRef .tc b) :=
  (carry36 m ρ c b fun h => hb (List.mem_append_right _ h)).trans (keep35 m ρ c b fun h => hb (List.mem_append_left _ h))
theorem carry34 (c : Dev nD) (b : Ref sig .tc) (hb : b ∉ wlFrom34) :
    W58 m ρ c (Proc.devRef .tc b) = W34 m ρ c (Proc.devRef .tc b) :=
  (carry35 m ρ c b fun h => hb (List.mem_append_right _ h)).trans (keep34 m ρ c b fun h => hb (List.mem_append_left _ h))
theorem carry33 (c : Dev nD) (b : Ref sig .tc) (hb : b ∉ wlFrom33) :
    W58 m ρ c (Proc.devRef .tc b) = W33 m ρ c (Proc.devRef .tc b) :=
  (carry34 m ρ c b fun h => hb (List.mem_append_right _ h)).trans (keep33 m ρ c b fun h => hb (List.mem_append_left _ h))
theorem carry32 (c : Dev nD) (b : Ref sig .tc) (hb : b ∉ wlFrom32) :
    W58 m ρ c (Proc.devRef .tc b) = W32 m ρ c (Proc.devRef .tc b) :=
  (carry33 m ρ c b fun h => hb (List.mem_append_right _ h)).trans (keep32 m ρ c b fun h => hb (List.mem_append_left _ h))
theorem carry31 (c : Dev nD) (b : Ref sig .tc) (hb : b ∉ wlFrom31) :
    W58 m ρ c (Proc.devRef .tc b) = W31 m ρ c (Proc.devRef .tc b) :=
  (carry32 m ρ c b fun h => hb (List.mem_append_right _ h)).trans (keep31 m ρ c b fun h => hb (List.mem_append_left _ h))
theorem carry30 (c : Dev nD) (b : Ref sig .tc) (hb : b ∉ wlFrom30) :
    W58 m ρ c (Proc.devRef .tc b) = W30 m ρ c (Proc.devRef .tc b) :=
  (carry31 m ρ c b fun h => hb (List.mem_append_right _ h)).trans (keep30 m ρ c b fun h => hb (List.mem_append_left _ h))
theorem carry29 (c : Dev nD) (b : Ref sig .tc) (hb : b ∉ wlFrom29) :
    W58 m ρ c (Proc.devRef .tc b) = W29 m ρ c (Proc.devRef .tc b) :=
  (carry30 m ρ c b fun h => hb (List.mem_append_right _ h)).trans (keep29 m ρ c b fun h => hb (List.mem_append_left _ h))
theorem carry28 (c : Dev nD) (b : Ref sig .tc) (hb : b ∉ wlFrom28) :
    W58 m ρ c (Proc.devRef .tc b) = W28 m ρ c (Proc.devRef .tc b) :=
  (carry29 m ρ c b fun h => hb (List.mem_append_right _ h)).trans (keep28 m ρ c b fun h => hb (List.mem_append_left _ h))
theorem carry27 (c : Dev nD) (b : Ref sig .tc) (hb : b ∉ wlFrom27) :
    W58 m ρ c (Proc.devRef .tc b) = W27 m ρ c (Proc.devRef .tc b) :=
  (carry28 m ρ c b fun h => hb (List.mem_append_right _ h)).trans (keep27 m ρ c b fun h => hb (List.mem_append_left _ h))
theorem carry26 (c : Dev nD) (b : Ref sig .tc) (hb : b ∉ wlFrom26) :
    W58 m ρ c (Proc.devRef .tc b) = W26 m ρ c (Proc.devRef .tc b) :=
  (carry27 m ρ c b fun h => hb (List.mem_append_right _ h)).trans (keep26 m ρ c b fun h => hb (List.mem_append_left _ h))
theorem carry25 (c : Dev nD) (b : Ref sig .tc) (hb : b ∉ wlFrom25) :
    W58 m ρ c (Proc.devRef .tc b) = W25 m ρ c (Proc.devRef .tc b) :=
  (carry26 m ρ c b fun h => hb (List.mem_append_right _ h)).trans (keep25 m ρ c b fun h => hb (List.mem_append_left _ h))
theorem carry24 (c : Dev nD) (b : Ref sig .tc) (hb : b ∉ wlFrom24) :
    W58 m ρ c (Proc.devRef .tc b) = W24 m ρ c (Proc.devRef .tc b) :=
  (carry25 m ρ c b fun h => hb (List.mem_append_right _ h)).trans (keep24 m ρ c b fun h => hb (List.mem_append_left _ h))
theorem carry23 (c : Dev nD) (b : Ref sig .tc) (hb : b ∉ wlFrom23) :
    W58 m ρ c (Proc.devRef .tc b) = W23 m ρ c (Proc.devRef .tc b) :=
  (carry24 m ρ c b fun h => hb (List.mem_append_right _ h)).trans (keep23 m ρ c b fun h => hb (List.mem_append_left _ h))
theorem carry22 (c : Dev nD) (b : Ref sig .tc) (hb : b ∉ wlFrom22) :
    W58 m ρ c (Proc.devRef .tc b) = W22 m ρ c (Proc.devRef .tc b) :=
  (carry23 m ρ c b fun h => hb (List.mem_append_right _ h)).trans (keep22 m ρ c b fun h => hb (List.mem_append_left _ h))
theorem carry21 (c : Dev nD) (b : Ref sig .tc) (hb : b ∉ wlFrom21) :
    W58 m ρ c (Proc.devRef .tc b) = W21 m ρ c (Proc.devRef .tc b) :=
  (carry22 m ρ c b fun h => hb (List.mem_append_right _ h)).trans (keep21 m ρ c b fun h => hb (List.mem_append_left _ h))
theorem carry20 (c : Dev nD) (b : Ref sig .tc) (hb : b ∉ wlFrom20) :
    W58 m ρ c (Proc.devRef .tc b) = W20 m ρ c (Proc.devRef .tc b) :=
  (carry21 m ρ c b fun h => hb (List.mem_append_right _ h)).trans (keep20 m ρ c b fun h => hb (List.mem_append_left _ h))
theorem carry19 (c : Dev nD) (b : Ref sig .tc) (hb : b ∉ wlFrom19) :
    W58 m ρ c (Proc.devRef .tc b) = W19 m ρ c (Proc.devRef .tc b) :=
  (carry20 m ρ c b fun h => hb (List.mem_append_right _ h)).trans (keep19 m ρ c b fun h => hb (List.mem_append_left _ h))
theorem carry18 (c : Dev nD) (b : Ref sig .tc) (hb : b ∉ wlFrom18) :
    W58 m ρ c (Proc.devRef .tc b) = W18 m ρ c (Proc.devRef .tc b) :=
  (carry19 m ρ c b fun h => hb (List.mem_append_right _ h)).trans (keep18 m ρ c b fun h => hb (List.mem_append_left _ h))
theorem carry17 (c : Dev nD) (b : Ref sig .tc) (hb : b ∉ wlFrom17) :
    W58 m ρ c (Proc.devRef .tc b) = W17 m ρ c (Proc.devRef .tc b) :=
  (carry18 m ρ c b fun h => hb (List.mem_append_right _ h)).trans (keep17 m ρ c b fun h => hb (List.mem_append_left _ h))
theorem carry16 (c : Dev nD) (b : Ref sig .tc) (hb : b ∉ wlFrom16) :
    W58 m ρ c (Proc.devRef .tc b) = W16 m ρ c (Proc.devRef .tc b) :=
  (carry17 m ρ c b fun h => hb (List.mem_append_right _ h)).trans (keep16 m ρ c b fun h => hb (List.mem_append_left _ h))
theorem carry15 (c : Dev nD) (b : Ref sig .tc) (hb : b ∉ wlFrom15) :
    W58 m ρ c (Proc.devRef .tc b) = W15 m ρ c (Proc.devRef .tc b) :=
  (carry16 m ρ c b fun h => hb (List.mem_append_right _ h)).trans (keep15 m ρ c b fun h => hb (List.mem_append_left _ h))
theorem carry14 (c : Dev nD) (b : Ref sig .tc) (hb : b ∉ wlFrom14) :
    W58 m ρ c (Proc.devRef .tc b) = W14 m ρ c (Proc.devRef .tc b) :=
  (carry15 m ρ c b fun h => hb (List.mem_append_right _ h)).trans (keep14 m ρ c b fun h => hb (List.mem_append_left _ h))
theorem carry13 (c : Dev nD) (b : Ref sig .tc) (hb : b ∉ wlFrom13) :
    W58 m ρ c (Proc.devRef .tc b) = W13 m ρ c (Proc.devRef .tc b) :=
  (carry14 m ρ c b fun h => hb (List.mem_append_right _ h)).trans (keep13 m ρ c b fun h => hb (List.mem_append_left _ h))
theorem carry12 (c : Dev nD) (b : Ref sig .tc) (hb : b ∉ wlFrom12) :
    W58 m ρ c (Proc.devRef .tc b) = W12 m ρ c (Proc.devRef .tc b) :=
  (carry13 m ρ c b fun h => hb (List.mem_append_right _ h)).trans (keep12 m ρ c b fun h => hb (List.mem_append_left _ h))
theorem carry11 (c : Dev nD) (b : Ref sig .tc) (hb : b ∉ wlFrom11) :
    W58 m ρ c (Proc.devRef .tc b) = W11 m ρ c (Proc.devRef .tc b) :=
  (carry12 m ρ c b fun h => hb (List.mem_append_right _ h)).trans (keep11 m ρ c b fun h => hb (List.mem_append_left _ h))
theorem carry10 (c : Dev nD) (b : Ref sig .tc) (hb : b ∉ wlFrom10) :
    W58 m ρ c (Proc.devRef .tc b) = W10 m ρ c (Proc.devRef .tc b) :=
  (carry11 m ρ c b fun h => hb (List.mem_append_right _ h)).trans (keep10 m ρ c b fun h => hb (List.mem_append_left _ h))
theorem carry9 (c : Dev nD) (b : Ref sig .tc) (hb : b ∉ wlFrom9) :
    W58 m ρ c (Proc.devRef .tc b) = W9 m ρ c (Proc.devRef .tc b) :=
  (carry10 m ρ c b fun h => hb (List.mem_append_right _ h)).trans (keep9 m ρ c b fun h => hb (List.mem_append_left _ h))
theorem carry8 (c : Dev nD) (b : Ref sig .tc) (hb : b ∉ wlFrom8) :
    W58 m ρ c (Proc.devRef .tc b) = W8 m ρ c (Proc.devRef .tc b) :=
  (carry9 m ρ c b fun h => hb (List.mem_append_right _ h)).trans (keep8 m ρ c b fun h => hb (List.mem_append_left _ h))
theorem carry7 (c : Dev nD) (b : Ref sig .tc) (hb : b ∉ wlFrom7) :
    W58 m ρ c (Proc.devRef .tc b) = W7 m ρ c (Proc.devRef .tc b) :=
  (carry8 m ρ c b fun h => hb (List.mem_append_right _ h)).trans (keep7 m ρ c b fun h => hb (List.mem_append_left _ h))
theorem carry6 (c : Dev nD) (b : Ref sig .tc) (hb : b ∉ wlFrom6) :
    W58 m ρ c (Proc.devRef .tc b) = W6 m ρ c (Proc.devRef .tc b) :=
  (carry7 m ρ c b fun h => hb (List.mem_append_right _ h)).trans (keep6 m ρ c b fun h => hb (List.mem_append_left _ h))
theorem carry5 (c : Dev nD) (b : Ref sig .tc) (hb : b ∉ wlFrom5) :
    W58 m ρ c (Proc.devRef .tc b) = W5 m ρ c (Proc.devRef .tc b) :=
  (carry6 m ρ c b fun h => hb (List.mem_append_right _ h)).trans (keep5 m ρ c b fun h => hb (List.mem_append_left _ h))
theorem carry4 (c : Dev nD) (b : Ref sig .tc) (hb : b ∉ wlFrom4) :
    W58 m ρ c (Proc.devRef .tc b) = W4 m ρ c (Proc.devRef .tc b) :=
  (carry5 m ρ c b fun h => hb (List.mem_append_right _ h)).trans (keep4 m ρ c b fun h => hb (List.mem_append_left _ h))
theorem carry3 (c : Dev nD) (b : Ref sig .tc) (hb : b ∉ wlFrom3) :
    W58 m ρ c (Proc.devRef .tc b) = W3 m ρ c (Proc.devRef .tc b) :=
  (carry4 m ρ c b fun h => hb (List.mem_append_right _ h)).trans (keep3 m ρ c b fun h => hb (List.mem_append_left _ h))
theorem carry2 (c : Dev nD) (b : Ref sig .tc) (hb : b ∉ wlFrom2) :
    W58 m ρ c (Proc.devRef .tc b) = W2 m ρ c (Proc.devRef .tc b) :=
  (carry3 m ρ c b fun h => hb (List.mem_append_right _ h)).trans (keep2 m ρ c b fun h => hb (List.mem_append_left _ h))
theorem carry1 (c : Dev nD) (b : Ref sig .tc) (hb : b ∉ wlFrom1) :
    W58 m ρ c (Proc.devRef .tc b) = W1 m ρ c (Proc.devRef .tc b) :=
  (carry2 m ρ c b fun h => hb (List.mem_append_right _ h)).trans (keep1 m ρ c b fun h => hb (List.mem_append_left _ h))
theorem carry0 (c : Dev nD) (b : Ref sig .tc) (hb : b ∉ wlFrom0) :
    W58 m ρ c (Proc.devRef .tc b) = W0 m ρ c (Proc.devRef .tc b) :=
  (carry1 m ρ c b fun h => hb (List.mem_append_right _ h)).trans (keep0 m ρ c b fun h => hb (List.mem_append_left _ h))

/-! ## The arguments end as launched -/

theorem arg0 (c : Dev nD) : W58 m ρ c (Proc.devRef .tc main_arg0) = m ((c : Thread nD τ).loc main_arg0) :=
  (carry0 m ρ c main_arg0 (by decide)).trans rfl
theorem arg1 (c : Dev nD) : W58 m ρ c (Proc.devRef .tc main_arg1) = m ((c : Thread nD τ).loc main_arg1) :=
  (carry0 m ρ c main_arg1 (by decide)).trans rfl
theorem arg2 (c : Dev nD) : W58 m ρ c (Proc.devRef .tc main_arg2) = m ((c : Thread nD τ).loc main_arg2) :=
  (carry0 m ρ c main_arg2 (by decide)).trans rfl
theorem arg3 (c : Dev nD) : W58 m ρ c (Proc.devRef .tc main_arg3) = m ((c : Thread nD τ).loc main_arg3) :=
  (carry0 m ρ c main_arg3 (by decide)).trans rfl
theorem arg4 (c : Dev nD) : W58 m ρ c (Proc.devRef .tc main_arg4) = m ((c : Thread nD τ).loc main_arg4) :=
  (carry0 m ρ c main_arg4 (by decide)).trans rfl
theorem arg5 (c : Dev nD) : W58 m ρ c (Proc.devRef .tc main_arg5) = m ((c : Thread nD τ).loc main_arg5) :=
  (carry0 m ρ c main_arg5 (by decide)).trans rfl
theorem arg6 (c : Dev nD) : W58 m ρ c (Proc.devRef .tc main_arg6) = m ((c : Thread nD τ).loc main_arg6) :=
  (carry0 m ρ c main_arg6 (by decide)).trans rfl
theorem arg7 (c : Dev nD) : W58 m ρ c (Proc.devRef .tc main_arg7) = m ((c : Thread nD τ).loc main_arg7) :=
  (carry0 m ρ c main_arg7 (by decide)).trans rfl
theorem arg8 (c : Dev nD) : W58 m ρ c (Proc.devRef .tc main_arg8) = m ((c : Thread nD τ).loc main_arg8) :=
  (carry0 m ρ c main_arg8 (by decide)).trans rfl
theorem arg9 (c : Dev nD) : W58 m ρ c (Proc.devRef .tc main_arg9) = m ((c : Thread nD τ).loc main_arg9) :=
  (carry0 m ρ c main_arg9 (by decide)).trans rfl
theorem arg10 (c : Dev nD) : W58 m ρ c (Proc.devRef .tc main_arg10) = m ((c : Thread nD τ).loc main_arg10) :=
  (carry0 m ρ c main_arg10 (by decide)).trans rfl
theorem arg11 (c : Dev nD) : W58 m ρ c (Proc.devRef .tc main_arg11) = m ((c : Thread nD τ).loc main_arg11) :=
  (carry0 m ρ c main_arg11 (by decide)).trans rfl
theorem arg12 (c : Dev nD) : W58 m ρ c (Proc.devRef .tc main_arg12) = m ((c : Thread nD τ).loc main_arg12) :=
  (carry0 m ρ c main_arg12 (by decide)).trans rfl
theorem arg13 (c : Dev nD) : W58 m ρ c (Proc.devRef .tc main_arg13) = m ((c : Thread nD τ).loc main_arg13) :=
  (carry0 m ρ c main_arg13 (by decide)).trans rfl
theorem arg14 (c : Dev nD) : W58 m ρ c (Proc.devRef .tc main_arg14) = m ((c : Thread nD τ).loc main_arg14) :=
  (carry0 m ρ c main_arg14 (by decide)).trans rfl
theorem arg15 (c : Dev nD) : W58 m ρ c (Proc.devRef .tc main_arg15) = m ((c : Thread nD τ).loc main_arg15) :=
  (carry0 m ρ c main_arg15 (by decide)).trans rfl
theorem arg16 (c : Dev nD) : W58 m ρ c (Proc.devRef .tc main_arg16) = m ((c : Thread nD τ).loc main_arg16) :=
  (carry0 m ρ c main_arg16 (by decide)).trans rfl
theorem arg17 (c : Dev nD) : W58 m ρ c (Proc.devRef .tc main_arg17) = m ((c : Thread nD τ).loc main_arg17) :=
  (carry0 m ρ c main_arg17 (by decide)).trans rfl
theorem arg18 (c : Dev nD) : W58 m ρ c (Proc.devRef .tc main_arg18) = m ((c : Thread nD τ).loc main_arg18) :=
  (carry0 m ρ c main_arg18 (by decide)).trans rfl
theorem arg19 (c : Dev nD) : W58 m ρ c (Proc.devRef .tc main_arg19) = m ((c : Thread nD τ).loc main_arg19) :=
  (carry0 m ρ c main_arg19 (by decide)).trans rfl
theorem arg20 (c : Dev nD) : W58 m ρ c (Proc.devRef .tc main_arg20) = m ((c : Thread nD τ).loc main_arg20) :=
  (carry0 m ρ c main_arg20 (by decide)).trans rfl
theorem arg21 (c : Dev nD) : W58 m ρ c (Proc.devRef .tc main_arg21) = m ((c : Thread nD τ).loc main_arg21) :=
  (carry0 m ρ c main_arg21 (by decide)).trans rfl
theorem arg22 (c : Dev nD) : W58 m ρ c (Proc.devRef .tc main_arg22) = m ((c : Thread nD τ).loc main_arg22) :=
  (carry0 m ρ c main_arg22 (by decide)).trans rfl
theorem arg23 (c : Dev nD) : W58 m ρ c (Proc.devRef .tc main_arg23) = m ((c : Thread nD τ).loc main_arg23) :=
  (carry0 m ρ c main_arg23 (by decide)).trans rfl
theorem arg24 (c : Dev nD) : W58 m ρ c (Proc.devRef .tc main_arg24) = m ((c : Thread nD τ).loc main_arg24) :=
  (carry0 m ρ c main_arg24 (by decide)).trans rfl
theorem arg25 (c : Dev nD) : W58 m ρ c (Proc.devRef .tc main_arg25) = m ((c : Thread nD τ).loc main_arg25) :=
  (carry0 m ρ c main_arg25 (by decide)).trans rfl
theorem arg26 (c : Dev nD) : W58 m ρ c (Proc.devRef .tc main_arg26) = m ((c : Thread nD τ).loc main_arg26) :=
  (carry0 m ρ c main_arg26 (by decide)).trans rfl

end Cert.Kernel.KCarry
-- ==== Proof.KCarry.lean ====
/- What each segment of the kernel's @main may write, and what every later boundary state therefore still holds.

   The boundary states W0 .. W58 of the generated frame fold the buffer contents through @main: a host stretch rewrites the
   result buffer of each of its operations, a region rewrites the arrays of its windows. Here, per segment k (the one between
   W k and W (k+1)), the list `wl k` of references it may CHANGE — a stretch's result buffers; a region's OUTPUT arrays, since an
   input window's array is handed back as entered — with `keep k`: a reference outside the list reads the same on both sides.
   `wlFrom k` collects the lists from k to the end and `carry k` chains the `keep`s: a reference nothing writes from boundary k
   on reads at the end what it read at k. Every reference is written once in the whole run (single assignment), so a region's
   arrays reach the end as the region left them (`regP_arrW`) and what a region found in an input array is what the end still
   holds there (`regP_inW`); an argument, which nothing writes, ends as launched (`argN`). Membership in the lists is decidable,
   reference by reference. -/
import proofs.«407945_j8993661518245_1_alg».proof.Proof.FrameKI

noncomputable section

namespace Cert.KernelIdeal.KCarry

open Cert.KernelIdeal Cert.KernelIdeal.Gen Cert.KernelIdeal.GenP Idealize.ShloMosaic Idealize.ShloMosaic.TcCoe Idealize.ShloMosaic.StableHlo

variable {F : FTy → Type} [FloatOps F]

/-- A member of a list differs from every reference outside it. -/
theorem ne_of_mem_of_not_mem {l : List (Ref sig .tc)} {x b : Ref sig .tc} (hx : x ∈ l) (hb : b ∉ l) : x ≠ b :=
  fun e => hb (e ▸ hx)

/-- A line whose operations write, one by one, exactly the references of a list writes inside that list. -/
theorem writes_sub_of_forall₂ {τ : Topo} {sig : RefSig} {Val : EltTy → Type} {ops : List (HloOp τ sig Val)} {rs : List (Ref sig .tc)}
    (h : List.Forall₂ (fun op r => op.writes = {Proc.devRef (τ := τ) .tc r}) ops rs) :
    ops.Forall fun op => op.writes ⊆ (rs.map (Proc.devRef (τ := τ) .tc)).toFinset := by
  rw [List.forall_iff_forall_mem]
  induction h with
  | nil => intro op hop; cases hop
  | @cons op r ops rs hab _ ih =>
    intro o ho
    rcases List.mem_cons.mp ho with rfl | ho
    · rw [hab, Finset.singleton_subset_iff, List.mem_toFinset]; exact List.mem_map_of_mem List.mem_cons_self
    · exact (ih o ho).trans fun x hx => by
        rw [List.mem_toFinset] at hx ⊢; rw [List.map_cons]; exact List.mem_cons_of_mem _ hx

/-! ## The tables -/

/-- Segment 0: the arrays of region 0's output windows. -/
abbrev wl0 : List (Ref sig .tc) := [main_v0_0, main_v0_1]
/-- Segment 1: the result buffers of `hostOps1`, in order. -/
abbrev wl1 : List (Ref sig .tc) := [main_cst, main_v1, main_v2, main_cst_0, main_v3, main_v4, main_v5, main_v6]
/-- Segment 2: the arrays of region 1's output windows. -/
abbrev wl2 : List (Ref sig .tc) := [main_v7]
/-- Segment 3: the result buffers of `hostOps2`, in order. -/
abbrev wl3 : List (Ref sig .tc) := [main_cst_1, main_v8, main_v9]
/-- Segment 4: the arrays of region 2's output windows. -/
abbrev wl4 : List (Ref sig .tc) := [main_v10]
/-- Segment 5: the arrays of region 3's output windows. -/
abbrev wl5 : List (Ref sig .tc) := [main_v11_0, main_v11_1]
/-- Segment 6: the result buffers of `hostOps4`, in order. -/
abbrev wl6 : List (Ref sig .tc) := [main_cst_2, main_v12, main_v13, main_cst_3, main_v14, main_v15, main_v16, main_v17, main_v18, main_v19]
/-- Segment 7: the arrays of region 4's output windows. -/
abbrev wl7 : List (Ref sig .tc) := [main_v20]
/-- Segment 8: the result buffers of `hostOps5`, in order. -/
abbrev wl8 : List (Ref sig .tc) := [main_cst_4, main_v21, main_v22, main_v23, main_v24, main_cst_5, main_v25, main_v26, main_cst_6, main_v27, main_v28, main_v29, main_cst_7, main_v30, main_v31, main_cst_8]
/-- Segment 9: the result buffers of `hostOps5_1`, in order. -/
abbrev wl9 : List (Ref sig .tc) := [main_call0_v0, main_call0_v1, main_v32]
/-- Segment 10: the result buffers of `hostOps5_2`, in order. -/
abbrev wl10 : List (Ref sig .tc) := [main_v33, main_cst_9, main_v34, main_v35, main_v36, main_v37, main_c, main_v38, main_v39, main_c_10, main_v40, main_v41, main_v42, main_v43, main_v44, main_v45, main_c_11, main_v46, main_v47, main_c_12, main_v48, main_v49, main_v50, main_v51, main_v52, main_v53, main_v54, main_c_13, main_v55, main_v56, main_c_14, main_v57, main_v58, main_v59, main_v60, main_v61, main_v62, main_v63, main_cst_15, main_v64, main_v65, main_v66, main_v67, main_v68, main_v69]
/-- Segment 11: the arrays of region 5's output windows. -/
abbrev wl11 : List (Ref sig .tc) := [main_v70]
/-- Segment 12: the arrays of region 6's output windows. -/
abbrev wl12 : List (Ref sig .tc) := [main_v71_0, main_v71_1]
/-- Segment 13: the result buffers of `hostOps7`, in order. -/
abbrev wl13 : List (Ref sig .tc) := [main_cst_16, main_v72, main_v73, main_cst_17, main_v74, main_v75, main_v76, main_v77, main_v78, main_v79]
/-- Segment 14: the arrays of region 7's output windows. -/
abbrev wl14 : List (Ref sig .tc) := [main_v80]
/-- Segment 15: the result buffers of `hostOps8`, in order. -/
abbrev wl15 : List (Ref sig .tc) := [main_cst_18, main_v81, main_v82, main_v83, main_v84, main_cst_19, main_v85, main_v86, main_cst_20, main_v87, main_v88, main_v89, main_cst_21, main_v90, main_v91, main_cst_22]
/-- Segment 16: the result buffers of `hostOps8_1`, in order. -/
abbrev wl16 : List (Ref sig .tc) := [main_call1_v0, main_call1_v1, main_v92]
/-- Segment 17: the result buffers of `hostOps8_2`, in order. -/
abbrev wl17 : List (Ref sig .tc) := [main_v93, main_cst_23, main_v94, main_v95, main_v96, main_v97, main_c_24, main_v98, main_v99, main_c_25, main_v100, main_v101, main_v102, main_v103, main_v104, main_v105, main_c_26, main_v106, main_v107, main_c_27, main_v108, main_v109, main_v110, main_v111, main_v112, main_v113, main_v114, main_c_28, main_v115, main_v116, main_c_29, main_v117, main_v118, main_v119, main_v120, main_v121, main_v122, main_v123, main_cst_30, main_v124, main_v125, main_v126, main_v127, main_v128, main_v129]
/-- Segment 18: the arrays of region 8's output windows. -/
abbrev wl18 : List (Ref sig .tc) := [main_v130]
/-- Segment 19: the arrays of region 9's output windows. -/
abbrev wl19 : List (Ref sig .tc) := [main_v131_0, main_v131_1]
/-- Segment 20: the result buffers of `hostOps10`, in order. -/
abbrev wl20 : List (Ref sig .tc) := [main_cst_31, main_v132, main_v133, main_cst_32, main_v134, main_v135, main_v136, main_v137, main_v138, main_v139]
/-- Segment 21: the arrays of region 10's output windows. -/
abbrev wl21 : List (Ref sig .tc) := [main_v140]
/-- Segment 22: the result buffers of `hostOps11`, in order. -/
abbrev wl22 : List (Ref sig .tc) := [main_cst_33, main_v141, main_v142, main_v143, main_v144, main_cst_34, main_v145, main_v146, main_cst_35, main_v147, main_v148, main_v149, main_cst_36, main_v150, main_v151, main_cst_37]
/-- Segment 23: the result buffers of `hostOps11_1`, in order. -/
abbrev wl23 : List (Ref sig .tc) := [main_call2_v0, main_call2_v1, main_v152]
/-- Segment 24: the result buffers of `hostOps11_2`, in order. -/
abbrev wl24 : List (Ref sig .tc) := [main_v153, main_cst_38, main_v154, main_v155, main_v156, main_v157, main_c_39, main_v158, main_v159, main_c_40, main_v160, main_v161, main_v162, main_v163, main_v164, main_v165, main_c_41, main_v166, main_v167, main_c_42, main_v168, main_v169, main_v170, main_v171, main_v172, main_v173, main_v174, main_c_43, main_v175, main_v176, main_c_44, main_v177, main_v178, main_v179, main_v180, main_v181, main_v182, main_v183, main_cst_45, main_v184, main_v185, main_v186, main_v187, main_v188, main_v189]
/-- Segment 25: the arrays of region 11's output windows. -/
abbrev wl25 : List (Ref sig .tc) := [main_v190]
/-- Segment 26: the result buffers of `hostOps12`, in order. -/
abbrev wl26 : List (Ref sig .tc) := [main_c_46, main_v191, main_v192, main_c_47, main_v193, main_v194, main_v195, main_v196, main_v197, main_c_48, main_v198, main_v199, main_c_49, main_v200, main_v201, main_v202, main_v203, main_v204, main_v205, main_v206, main_v207, main_v208, main_v209, main_v210, main_v211, main_v212, main_cst_50, main_v213, main_cst_51, main_v214, main_v215, main_v216, main_v217, main_v218, main_v219, main_cst_52, main_v220, main_v221, main_v222, main_v223, main_v224, main_cst_53, main_v225, main_v226, main_v227, main_v228, main_cst_54, main_v229, main_v230, main_cst_55, main_v231, main_v232, main_v233, main_cst_56, main_v234, main_v235, main_cst_57]
/-- Segment 27: the result buffers of `hostOps12_1`, in order. -/
abbrev wl27 : List (Ref sig .tc) := [main_call3_v0, main_call3_v1, main_v236]
/-- Segment 28: the result buffers of `hostOps12_2`, in order. -/
abbrev wl28 : List (Ref sig .tc) := [main_v237, main_cst_58, main_v238, main_v239, main_v240, main_v241, main_c_59, main_v242, main_v243, main_c_60, main_v244, main_v245, main_v246, main_v247, main_v248, main_v249, main_c_61, main_v250, main_v251, main_c_62, main_v252, main_v253, main_v254, main_v255, main_v256, main_v257, main_v258, main_c_63, main_v259, main_v260, main_c_64, main_v261, main_v262, main_v263, main_v264, main_v265, main_v266, main_v267, main_cst_65, main_v268, main_v269, main_v270, main_v271, main_v272, main_v273, main_cst_66, main_v274, main_cst_67, main_v275, main_v276, main_v277, main_v278, main_v279, main_v280, main_cst_68, main_v281, main_v282, main_v283, main_v284, main_v285, main_v286, main_v287]
/-- Segment 29: the arrays of region 12's output windows. -/
abbrev wl29 : List (Ref sig .tc) := [main_v288_0, main_v288_1]
/-- Segment 30: the result buffers of `hostOps13`, in order. -/
abbrev wl30 : List (Ref sig .tc) := [main_cst_69, main_v289, main_v290, main_cst_70, main_v291, main_v292, main_v293, main_v294]
/-- Segment 31: the arrays of region 13's output windows. -/
abbrev wl31 : List (Ref sig .tc) := [main_v295]
/-- Segment 32: the result buffers of `hostOps14`, in order. -/
abbrev wl32 : List (Ref sig .tc) := [main_v296, main_v297, main_v298, main_v299, main_v300, main_cst_71, main_v301, main_v302, main_cst_72, main_v303, main_v304, main_v305, main_cst_73, main_v306, main_v307, main_cst_74]
/-- Segment 33: the result buffers of `hostOps14_1`, in order. -/
abbrev wl33 : List (Ref sig .tc) := [main_call4_v0, main_call4_v1, main_v308]
/-- Segment 34: the result buffers of `hostOps14_2`, in order. -/
abbrev wl34 : List (Ref sig .tc) := [main_v309, main_cst_75, main_v310, main_v311, main_v312, main_v313, main_c_76, main_v314, main_v315, main_c_77, main_v316, main_v317, main_v318, main_v319, main_v320, main_v321, main_c_78, main_v322, main_v323, main_c_79, main_v324, main_v325, main_v326, main_v327, main_v328, main_v329, main_v330, main_c_80, main_v331, main_v332, main_c_81, main_v333, main_v334, main_v335, main_v336, main_v337, main_v338, main_v339, main_cst_82, main_v340, main_v341, main_v342, main_v343]
/-- Segment 35: the arrays of region 14's output windows. -/
abbrev wl35 : List (Ref sig .tc) := [main_v344]
/-- Segment 36: the result buffers of `hostOps15`, in order. -/
abbrev wl36 : List (Ref sig .tc) := [main_cst_83, main_v345, main_v346, main_v347, main_v348, main_v349, main_v350]
/-- Segment 37: the arrays of region 15's output windows. -/
abbrev wl37 : List (Ref sig .tc) := [main_v351_0, main_v351_1]
/-- Segment 38: the result buffers of `hostOps16`, in order. -/
abbrev wl38 : List (Ref sig .tc) := [main_cst_84, main_v352, main_v353, main_cst_85, main_v354, main_v355, main_v356, main_v357]
/-- Segment 39: the arrays of region 16's output windows. -/
abbrev wl39 : List (Ref sig .tc) := [main_v358]
/-- Segment 40: the result buffers of `hostOps17`, in order. -/
abbrev wl40 : List (Ref sig .tc) := [main_v359, main_v360, main_v361, main_v362, main_v363, main_cst_86, main_v364, main_v365, main_cst_87, main_v366, main_v367, main_v368, main_cst_88, main_v369, main_v370, main_cst_89]
/-- Segment 41: the result buffers of `hostOps17_1`, in order. -/
abbrev wl41 : List (Ref sig .tc) := [main_call5_v0, main_call5_v1, main_v371]
/-- Segment 42: the result buffers of `hostOps17_2`, in order. -/
abbrev wl42 : List (Ref sig .tc) := [main_v372, main_cst_90, main_v373, main_v374, main_v375, main_v376, main_c_91, main_v377, main_v378, main_c_92, main_v379, main_v380, main_v381, main_v382, main_v383, main_v384, main_c_93, main_v385, main_v386, main_c_94, main_v387, main_v388, main_v389, main_v390, main_v391, main_v392, main_v393, main_c_95, main_v394, main_v395, main_c_96, main_v396, main_v397, main_v398, main_v399, main_v400, main_v401, main_v402, main_cst_97, main_v403, main_v404, main_v405, main_v406]
/-- Segment 43: the arrays of region 17's output windows. -/
abbrev wl43 : List (Ref sig .tc) := [main_v407]
/-- Segment 44: the result buffers of `hostOps18`, in order. -/
abbrev wl44 : List (Ref sig .tc) := [main_cst_98, main_v408, main_v409, main_v410, main_cst_99, main_v411, main_cst_100, main_v412, main_v413, main_v414, main_v415, main_v416, main_v417, main_cst_101, main_v418, main_cst_102, main_v419, main_v420, main_v421, main_v422, main_v423, main_cst_103, main_v424, main_v425, main_v426, main_v427, main_v428, main_v429, main_cst_104, main_v430, main_v431, main_v432, main_v433, main_v434, main_v435]
/-- Segment 45: the result buffers of `hostOps18_1`, in order. -/
abbrev wl45 : List (Ref sig .tc) := [main_call6_cst, main_call6_v0, main_v436]
/-- Segment 46: the result buffers of `hostOps18_2`, in order. -/
abbrev wl46 : List (Ref sig .tc) := [main_cst_105, main_v437, main_cst_106, main_v438, main_v439, main_v440, main_v441, main_v442, main_v443, main_cst_107, main_v444, main_cst_108, main_v445, main_v446, main_v447, main_v448, main_v449, main_cst_109, main_v450, main_v451, main_v452, main_v453, main_v454, main_v455, main_cst_110, main_v456, main_v457, main_v458, main_v459, main_v460, main_v461]
/-- Segment 47: the result buffers of `hostOps18_3`, in order. -/
abbrev wl47 : List (Ref sig .tc) := [main_call7_cst, main_call7_v0, main_call7_cst_0, main_call7_v1, main_call7_v2, main_call7_v3, main_call7_v4, main_call7_v5, main_call7_v6, main_call7_cst_1, main_call7_v7, main_call7_v8, main_call7_v9, main_call7_v10, main_v462]
/-- Segment 48: the result buffers of `hostOps18_4`, in order. -/
abbrev wl48 : List (Ref sig .tc) := [main_cst_111, main_v463, main_cst_112, main_v464, main_v465, main_v466, main_v467, main_v468, main_v469, main_cst_113, main_v470, main_cst_114, main_v471, main_v472, main_v473, main_v474, main_v475, main_cst_115, main_v476, main_v477, main_v478, main_v479, main_v480, main_v481, main_cst_116, main_v482, main_v483, main_v484, main_v485, main_v486, main_v487]
/-- Segment 49: the result buffers of `hostOps18_5`, in order. -/
abbrev wl49 : List (Ref sig .tc) := [main_call8_cst, main_call8_v0, main_v488]
/-- Segment 50: the result buffers of `hostOps18_6`, in order. -/
abbrev wl50 : List (Ref sig .tc) := [main_cst_117, main_v489, main_cst_118, main_v490, main_v491, main_v492, main_v493, main_v494, main_v495, main_cst_119, main_v496, main_cst_120, main_v497, main_v498, main_v499, main_v500, main_v501, main_cst_121, main_v502, main_v503, main_v504, main_v505, main_v506, main_v507, main_cst_122, main_v508, main_v509, main_v510, main_v511, main_v512, main_v513]
/-- Segment 51: the result buffers of `hostOps18_7`, in order. -/
abbrev wl51 : List (Ref sig .tc) := [main_call9_cst, main_call9_v0, main_call9_cst_0, main_call9_v1, main_call9_v2, main_call9_v3, main_call9_v4, main_call9_v5, main_call9_v6, main_call9_cst_1, main_call9_v7, main_call9_v8, main_call9_v9, main_call9_v10, main_v514]
/-- Segment 52: the result buffers of `hostOps18_8`, in order. -/
abbrev wl52 : List (Ref sig .tc) := [main_v515, main_cst_123, main_v516, main_cst_124, main_v517, main_v518, main_v519, main_v520, main_v521, main_v522, main_cst_125, main_v523, main_cst_126, main_v524, main_v525, main_v526, main_v527, main_v528, main_cst_127, main_v529, main_v530, main_v531, main_v532, main_v533, main_v534, main_cst_128, main_v535, main_v536, main_v537, main_v538, main_v539, main_v540, main_cst_129, main_v541, main_v542, main_v543, main_cst_130, main_v544, main_v545]
/-- Segment 53: the result buffers of `hostOps18_9`, in order. -/
abbrev wl53 : List (Ref sig .tc) := [main_v546]
/-- Segment 54: the result buffers of `hostOps18_10`, in order. -/
abbrev wl54 : List (Ref sig .tc) := [main_cst_131, main_v547, main_v548, main_v549, main_cst_132, main_v550, main_v551]
/-- Segment 55: the result buffers of `hostOps18_11`, in order. -/
abbrev wl55 : List (Ref sig .tc) := [main_v552]
/-- Segment 56: the result buffers of `hostOps18_12`, in order. -/
abbrev wl56 : List (Ref sig .tc) := [main_cst_133, main_v553, main_cst_134, main_v554, main_v555, main_v556, main_v557, main_v558, main_v559, main_cst_135, main_v560, main_cst_136, main_v561, main_v562, main_v563, main_v564, main_v565, main_cst_137, main_v566, main_v567, main_v568, main_v569, main_v570, main_v571, main_cst_138, main_v572, main_v573, main_v574, main_v575, main_v576, main_v577]
/-- Segment 57: the result buffers of `hostOps18_13`, in order. -/
abbrev wl57 : List (Ref sig .tc) := [main_call12_cst, main_call12_v0, main_call12_cst_0, main_call12_v1, main_call12_v2, main_call12_v3, main_call12_v4, main_call12_v5, main_call12_v6, main_call12_cst_1, main_call12_v7, main_call12_v8, main_call12_v9, main_call12_v10, main_v578]

/-- Nothing is written after the last boundary. -/
abbrev wlFrom58 : List (Ref sig .tc) := []
/-- Everything written from boundary 57 on. -/
abbrev wlFrom57 : List (Ref sig .tc) := wl57 ++ wlFrom58
/-- Everything written from boundary 56 on. -/
abbrev wlFrom56 : List (Ref sig .tc) := wl56 ++ wlFrom57
/-- Everything written from boundary 55 on. -/
abbrev wlFrom55 : List (Ref sig .tc) := wl55 ++ wlFrom56
/-- Everything written from boundary 54 on. -/
abbrev wlFrom54 : List (Ref sig .tc) := wl54 ++ wlFrom55
/-- Everything written from boundary 53 on. -/
abbrev wlFrom53 : List (Ref sig .tc) := wl53 ++ wlFrom54
/-- Everything written from boundary 52 on. -/
abbrev wlFrom52 : List (Ref sig .tc) := wl52 ++ wlFrom53
/-- Everything written from boundary 51 on. -/
abbrev wlFrom51 : List (Ref sig .tc) := wl51 ++ wlFrom52
/-- Everything written from boundary 50 on. -/
abbrev wlFrom50 : List (Ref sig .tc) := wl50 ++ wlFrom51
/-- Everything written from boundary 49 on. -/
abbrev wlFrom49 : List (Ref sig .tc) := wl49 ++ wlFrom50
/-- Everything written from boundary 48 on. -/
abbrev wlFrom48 : List (Ref sig .tc) := wl48 ++ wlFrom49
/-- Everything written from boundary 47 on. -/
abbrev wlFrom47 : List (Ref sig .tc) := wl47 ++ wlFrom48
/-- Everything written from boundary 46 on. -/
abbrev wlFrom46 : List (Ref sig .tc) := wl46 ++ wlFrom47
/-- Everything written from boundary 45 on. -/
abbrev wlFrom45 : List (Ref sig .tc) := wl45 ++ wlFrom46
/-- Everything written from boundary 44 on. -/
abbrev wlFrom44 : List (Ref sig .tc) := wl44 ++ wlFrom45
/-- Everything written from boundary 43 on. -/
abbrev wlFrom43 : List (Ref sig .tc) := wl43 ++ wlFrom44
/-- Everything written from boundary 42 on. -/
abbrev wlFrom42 : List (Ref sig .tc) := wl42 ++ wlFrom43
/-- Everything written from boundary 41 on. -/
abbrev wlFrom41 : List (Ref sig .tc) := wl41 ++ wlFrom42
/-- Everything written from boundary 40 on. -/
abbrev wlFrom40 : List (Ref sig .tc) := wl40 ++ wlFrom41
/-- Everything written from boundary 39 on. -/
abbrev wlFrom39 : List (Ref sig .tc) := wl39 ++ wlFrom40
/-- Everything written from boundary 38 on. -/
abbrev wlFrom38 : List (Ref sig .tc) := wl38 ++ wlFrom39
/-- Everything written from boundary 37 on. -/
abbrev wlFrom37 : List (Ref sig .tc) := wl37 ++ wlFrom38
/-- Everything written from boundary 36 on. -/
abbrev wlFrom36 : List (Ref sig .tc) := wl36 ++ wlFrom37
/-- Everything written from boundary 35 on. -/
abbrev wlFrom35 : List (Ref sig .tc) := wl35 ++ wlFrom36
/-- Everything written from boundary 34 on. -/
abbrev wlFrom34 : List (Ref sig .tc) := wl34 ++ wlFrom35
/-- Everything written from boundary 33 on. -/
abbrev wlFrom33 : List (Ref sig .tc) := wl33 ++ wlFrom34
/-- Everything written from boundary 32 on. -/
abbrev wlFrom32 : List (Ref sig .tc) := wl32 ++ wlFrom33
/-- Everything written from boundary 31 on. -/
abbrev wlFrom31 : List (Ref sig .tc) := wl31 ++ wlFrom32
/-- Everything written from boundary 30 on. -/
abbrev wlFrom30 : List (Ref sig .tc) := wl30 ++ wlFrom31
/-- Everything written from boundary 29 on. -/
abbrev wlFrom29 : List (Ref sig .tc) := wl29 ++ wlFrom30
/-- Everything written from boundary 28 on. -/
abbrev wlFrom28 : List (Ref sig .tc) := wl28 ++ wlFrom29
/-- Everything written from boundary 27 on. -/
abbrev wlFrom27 : List (Ref sig .tc) := wl27 ++ wlFrom28
/-- Everything written from boundary 26 on. -/
abbrev wlFrom26 : List (Ref sig .tc) := wl26 ++ wlFrom27
/-- Everything written from boundary 25 on. -/
abbrev wlFrom25 : List (Ref sig .tc) := wl25 ++ wlFrom26
/-- Everything written from boundary 24 on. -/
abbrev wlFrom24 : List (Ref sig .tc) := wl24 ++ wlFrom25
/-- Everything written from boundary 23 on. -/
abbrev wlFrom23 : List (Ref sig .tc) := wl23 ++ wlFrom24
/-- Everything written from boundary 22 on. -/
abbrev wlFrom22 : List (Ref sig .tc) := wl22 ++ wlFrom23
/-- Everything written from boundary 21 on. -/
abbrev wlFrom21 : List (Ref sig .tc) := wl21 ++ wlFrom22
/-- Everything written from boundary 20 on. -/
abbrev wlFrom20 : List (Ref sig .tc) := wl20 ++ wlFrom21
/-- Everything written from boundary 19 on. -/
abbrev wlFrom19 : List (Ref sig .tc) := wl19 ++ wlFrom20
/-- Everything written from boundary 18 on. -/
abbrev wlFrom18 : List (Ref sig .tc) := wl18 ++ wlFrom19
/-- Everything written from boundary 17 on. -/
abbrev wlFrom17 : List (Ref sig .tc) := wl17 ++ wlFrom18
/-- Everything written from boundary 16 on. -/
abbrev wlFrom16 : List (Ref sig .tc) := wl16 ++ wlFrom17
/-- Everything written from boundary 15 on. -/
abbrev wlFrom15 : List (Ref sig .tc) := wl15 ++ wlFrom16
/-- Everything written from boundary 14 on. -/
abbrev wlFrom14 : List (Ref sig .tc) := wl14 ++ wlFrom15
/-- Everything written from boundary 13 on. -/
abbrev wlFrom13 : List (Ref sig .tc) := wl13 ++ wlFrom14
/-- Everything written from boundary 12 on. -/
abbrev wlFrom12 : List (Ref sig .tc) := wl12 ++ wlFrom13
/-- Everything written from boundary 11 on. -/
abbrev wlFrom11 : List (Ref sig .tc) := wl11 ++ wlFrom12
/-- Everything written from boundary 10 on. -/
abbrev wlFrom10 : List (Ref sig .tc) := wl10 ++ wlFrom11
/-- Everything written from boundary 9 on. -/
abbrev wlFrom9 : List (Ref sig .tc) := wl9 ++ wlFrom10
/-- Everything written from boundary 8 on. -/
abbrev wlFrom8 : List (Ref sig .tc) := wl8 ++ wlFrom9
/-- Everything written from boundary 7 on. -/
abbrev wlFrom7 : List (Ref sig .tc) := wl7 ++ wlFrom8
/-- Everything written from boundary 6 on. -/
abbrev wlFrom6 : List (Ref sig .tc) := wl6 ++ wlFrom7
/-- Everything written from boundary 5 on. -/
abbrev wlFrom5 : List (Ref sig .tc) := wl5 ++ wlFrom6
/-- Everything written from boundary 4 on. -/
abbrev wlFrom4 : List (Ref sig .tc) := wl4 ++ wlFrom5
/-- Everything written from boundary 3 on. -/
abbrev wlFrom3 : List (Ref sig .tc) := wl3 ++ wlFrom4
/-- Everything written from boundary 2 on. -/
abbrev wlFrom2 : List (Ref sig .tc) := wl2 ++ wlFrom3
/-- Everything written from boundary 1 on. -/
abbrev wlFrom1 : List (Ref sig .tc) := wl1 ++ wlFrom2
/-- Everything written from boundary 0 on. -/
abbrev wlFrom0 : List (Ref sig .tc) := wl0 ++ wlFrom1

/-! ## Each host stretch writes inside its table: its operations write, one by one, exactly the list's references -/

theorem writes1 : (hostOps1 : List (HloOp τ sig (Elt F))).Forall fun op => op.writes ⊆ (wl1.map (Proc.devRef (τ := τ) .tc)).toFinset :=
  writes_sub_of_forall₂ (.cons rfl (.cons rfl (.cons rfl (.cons rfl (.cons rfl (.cons rfl (.cons rfl (.cons rfl (.nil)))))))))
theorem writes3 : (hostOps2 : List (HloOp τ sig (Elt F))).Forall fun op => op.writes ⊆ (wl3.map (Proc.devRef (τ := τ) .tc)).toFinset :=
  writes_sub_of_forall₂ (.cons rfl (.cons rfl (.cons rfl (.nil))))
theorem writes6 : (hostOps4 : List (HloOp τ sig (Elt F))).Forall fun op => op.writes ⊆ (wl6.map (Proc.devRef (τ := τ) .tc)).toFinset :=
  writes_sub_of_forall₂ (.cons rfl (.cons rfl (.cons rfl (.cons rfl (.cons rfl (.cons rfl (.cons rfl (.cons rfl (.cons rfl (.cons rfl (.nil)))))))))))
theorem writes8 : (hostOps5 : List (HloOp τ sig (Elt F))).Forall fun op => op.writes ⊆ (wl8.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes9 : (hostOps5_1 : List (HloOp τ sig (Elt F))).Forall fun op => op.writes ⊆ (wl9.map (Proc.devRef (τ := τ) .tc)).toFinset :=
  writes_sub_of_forall₂ (.cons rfl (.cons rfl (.cons rfl (.nil))))
theorem writes10 : (hostOps5_2 : List (HloOp τ sig (Elt F))).Forall fun op => op.writes ⊆ (wl10.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))
theorem writes13 : (hostOps7 : List (HloOp τ sig (Elt F))).Forall fun op => op.writes ⊆ (wl13.map (Proc.devRef (τ := τ) .tc)).toFinset :=
  writes_sub_of_forall₂ (.cons rfl (.cons rfl (.cons rfl (.cons rfl (.cons rfl (.cons rfl (.cons rfl (.cons rfl (.cons rfl (.cons rfl (.nil)))))))))))
theorem writes15 : (hostOps8 : List (HloOp τ sig (Elt F))).Forall fun op => op.writes ⊆ (wl15.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes16 : (hostOps8_1 : List (HloOp τ sig (Elt F))).Forall fun op => op.writes ⊆ (wl16.map (Proc.devRef (τ := τ) .tc)).toFinset :=
  writes_sub_of_forall₂ (.cons rfl (.cons rfl (.cons rfl (.nil))))
theorem writes17 : (hostOps8_2 : List (HloOp τ sig (Elt F))).Forall fun op => op.writes ⊆ (wl17.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))
theorem writes20 : (hostOps10 : List (HloOp τ sig (Elt F))).Forall fun op => op.writes ⊆ (wl20.map (Proc.devRef (τ := τ) .tc)).toFinset :=
  writes_sub_of_forall₂ (.cons rfl (.cons rfl (.cons rfl (.cons rfl (.cons rfl (.cons rfl (.cons rfl (.cons rfl (.cons rfl (.cons rfl (.nil)))))))))))
theorem writes22 : (hostOps11 : List (HloOp τ sig (Elt F))).Forall fun op => op.writes ⊆ (wl22.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes23 : (hostOps11_1 : List (HloOp τ sig (Elt F))).Forall fun op => op.writes ⊆ (wl23.map (Proc.devRef (τ := τ) .tc)).toFinset :=
  writes_sub_of_forall₂ (.cons rfl (.cons rfl (.cons rfl (.nil))))
theorem writes24 : (hostOps11_2 : List (HloOp τ sig (Elt F))).Forall fun op => op.writes ⊆ (wl24.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))
theorem writes26 : (hostOps12 : List (HloOp τ sig (Elt F))).Forall fun op => op.writes ⊆ (wl26.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))
theorem writes27 : (hostOps12_1 : List (HloOp τ sig (Elt F))).Forall fun op => op.writes ⊆ (wl27.map (Proc.devRef (τ := τ) .tc)).toFinset :=
  writes_sub_of_forall₂ (.cons rfl (.cons rfl (.cons rfl (.nil))))
theorem writes28 : (hostOps12_2 : List (HloOp τ sig (Elt F))).Forall fun op => op.writes ⊆ (wl28.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))
theorem writes30 : (hostOps13 : List (HloOp τ sig (Elt F))).Forall fun op => op.writes ⊆ (wl30.map (Proc.devRef (τ := τ) .tc)).toFinset :=
  writes_sub_of_forall₂ (.cons rfl (.cons rfl (.cons rfl (.cons rfl (.cons rfl (.cons rfl (.cons rfl (.cons rfl (.nil)))))))))
theorem writes32 : (hostOps14 : List (HloOp τ sig (Elt F))).Forall fun op => op.writes ⊆ (wl32.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes33 : (hostOps14_1 : List (HloOp τ sig (Elt F))).Forall fun op => op.writes ⊆ (wl33.map (Proc.devRef (τ := τ) .tc)).toFinset :=
  writes_sub_of_forall₂ (.cons rfl (.cons rfl (.cons rfl (.nil))))
theorem writes34 : (hostOps14_2 : List (HloOp τ sig (Elt F))).Forall fun op => op.writes ⊆ (wl34.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))
theorem writes36 : (hostOps15 : List (HloOp τ sig (Elt F))).Forall fun op => op.writes ⊆ (wl36.map (Proc.devRef (τ := τ) .tc)).toFinset :=
  writes_sub_of_forall₂ (.cons rfl (.cons rfl (.cons rfl (.cons rfl (.cons rfl (.cons rfl (.cons rfl (.nil))))))))
theorem writes38 : (hostOps16 : List (HloOp τ sig (Elt F))).Forall fun op => op.writes ⊆ (wl38.map (Proc.devRef (τ := τ) .tc)).toFinset :=
  writes_sub_of_forall₂ (.cons rfl (.cons rfl (.cons rfl (.cons rfl (.cons rfl (.cons rfl (.cons rfl (.cons rfl (.nil)))))))))
theorem writes40 : (hostOps17 : List (HloOp τ sig (Elt F))).Forall fun op => op.writes ⊆ (wl40.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))
theorem writes41 : (hostOps17_1 : List (HloOp τ sig (Elt F))).Forall fun op => op.writes ⊆ (wl41.map (Proc.devRef (τ := τ) .tc)).toFinset :=
  writes_sub_of_forall₂ (.cons rfl (.cons rfl (.cons rfl (.nil))))
theorem writes42 : (hostOps17_2 : List (HloOp τ sig (Elt F))).Forall fun op => op.writes ⊆ (wl42.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))
theorem writes44 : (hostOps18 : List (HloOp τ sig (Elt F))).Forall fun op => op.writes ⊆ (wl44.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))
theorem writes45 : (hostOps18_1 : List (HloOp τ sig (Elt F))).Forall fun op => op.writes ⊆ (wl45.map (Proc.devRef (τ := τ) .tc)).toFinset :=
  writes_sub_of_forall₂ (.cons rfl (.cons rfl (.cons rfl (.nil))))
theorem writes46 : (hostOps18_2 : List (HloOp τ sig (Elt F))).Forall fun op => op.writes ⊆ (wl46.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))
theorem writes47 : (hostOps18_3 : List (HloOp τ sig (Elt F))).Forall fun op => op.writes ⊆ (wl47.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.nil))))))))))))))))
theorem writes48 : (hostOps18_4 : List (HloOp τ sig (Elt F))).Forall fun op => op.writes ⊆ (wl48.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))
theorem writes49 : (hostOps18_5 : List (HloOp τ sig (Elt F))).Forall fun op => op.writes ⊆ (wl49.map (Proc.devRef (τ := τ) .tc)).toFinset :=
  writes_sub_of_forall₂ (.cons rfl (.cons rfl (.cons rfl (.nil))))
theorem writes50 : (hostOps18_6 : List (HloOp τ sig (Elt F))).Forall fun op => op.writes ⊆ (wl50.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))
theorem writes51 : (hostOps18_7 : List (HloOp τ sig (Elt F))).Forall fun op => op.writes ⊆ (wl51.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.nil))))))))))))))))
theorem writes52 : (hostOps18_8 : List (HloOp τ sig (Elt F))).Forall fun op => op.writes ⊆ (wl52.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))
theorem writes53 : (hostOps18_9 : List (HloOp τ sig (Elt F))).Forall fun op => op.writes ⊆ (wl53.map (Proc.devRef (τ := τ) .tc)).toFinset :=
  writes_sub_of_forall₂ (.cons rfl (.nil))
theorem writes54 : (hostOps18_10 : List (HloOp τ sig (Elt F))).Forall fun op => op.writes ⊆ (wl54.map (Proc.devRef (τ := τ) .tc)).toFinset :=
  writes_sub_of_forall₂ (.cons rfl (.cons rfl (.cons rfl (.cons rfl (.cons rfl (.cons rfl (.cons rfl (.nil))))))))
theorem writes55 : (hostOps18_11 : List (HloOp τ sig (Elt F))).Forall fun op => op.writes ⊆ (wl55.map (Proc.devRef (τ := τ) .tc)).toFinset :=
  writes_sub_of_forall₂ (.cons rfl (.nil))
theorem writes56 : (hostOps18_12 : List (HloOp τ sig (Elt F))).Forall fun op => op.writes ⊆ (wl56.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))
theorem writes57 : (hostOps18_13 : List (HloOp τ sig (Elt F))).Forall fun op => op.writes ⊆ (wl57.map (Proc.devRef (τ := τ) .tc)).toFinset :=
  writes_sub_of_forall₂ (.cons rfl (.cons rfl (.cons rfl (.cons rfl (.cons rfl (.cons rfl (.cons rfl (.cons rfl (.cons rfl (.cons rfl (.cons rfl (.cons rfl (.cons rfl (.cons rfl (.cons rfl (.nil))))))))))))))))

variable (m : (ℓ : Loc nD τ sig) → Buf (Elt F) ℓ) (ρ : Dev nD → PrngReg)

/-! ## One segment: a reference outside its table reads the same before and after -/

theorem keep0 (c : Dev nD) (b : Ref sig .tc) (hb : b ∉ wl0) :
    W1 m ρ c (Proc.devRef .tc b) = W0 m ρ c (Proc.devRef .tc b) := by
  by_cases h0 : b = main_arg0
  · subst h0; exact (W1_arr m ρ c 0).trans (((dat0 (V0 m ρ) c).arrAt_in 0 rfl _).trans (A_eq0 (V0 m ρ) c 0))
  exact W1_of_ne m ρ c b fun
    | 0 => fun e => h0 e.symm
    | 1 => ne_of_mem_of_not_mem (x := main_v0_0) (l := wl0) (by decide) hb
    | 2 => ne_of_mem_of_not_mem (x := main_v0_1) (l := wl0) (by decide) hb
    | ⟨_ + 3, h⟩ => absurd h (Nat.not_lt.2 (Nat.le_add_left _ _))
theorem keep1 (c : Dev nD) (b : Ref sig .tc) (hb : b ∉ wl1) :
    W2 m ρ c (Proc.devRef .tc b) = W1 m ρ c (Proc.devRef .tc b) :=
  StableHlo.after_of_writes_sub hostOps1 _ writes1 hb
theorem keep2 (c : Dev nD) (b : Ref sig .tc) (hb : b ∉ wl2) :
    W3 m ρ c (Proc.devRef .tc b) = W2 m ρ c (Proc.devRef .tc b) := by
  by_cases h0 : b = main_arg0
  · subst h0; exact (W3_arr m ρ c 0).trans (((dat1 (V2 m ρ) c).arrAt_in 0 rfl _).trans (A_eq1 (V2 m ρ) c 0))
  by_cases h1 : b = main_v2
  · subst h1; exact (W3_arr m ρ c 1).trans (((dat1 (V2 m ρ) c).arrAt_in 1 rfl _).trans (A_eq1 (V2 m ρ) c 1))
  by_cases h2 : b = main_v6
  · subst h2; exact (W3_arr m ρ c 2).trans (((dat1 (V2 m ρ) c).arrAt_in 2 rfl _).trans (A_eq1 (V2 m ρ) c 2))
  by_cases h3 : b = main_arg1
  · subst h3; exact (W3_arr m ρ c 3).trans (((dat1 (V2 m ρ) c).arrAt_in 3 rfl _).trans (A_eq1 (V2 m ρ) c 3))
  exact W3_of_ne m ρ c b fun
    | 0 => fun e => h0 e.symm
    | 1 => fun e => h1 e.symm
    | 2 => fun e => h2 e.symm
    | 3 => fun e => h3 e.symm
    | 4 => ne_of_mem_of_not_mem (x := main_v7) (l := wl2) (by decide) hb
    | ⟨_ + 5, h⟩ => absurd h (Nat.not_lt.2 (Nat.le_add_left _ _))
theorem keep3 (c : Dev nD) (b : Ref sig .tc) (hb : b ∉ wl3) :
    W4 m ρ c (Proc.devRef .tc b) = W3 m ρ c (Proc.devRef .tc b) :=
  StableHlo.after_of_writes_sub hostOps2 _ writes3 hb
theorem keep4 (c : Dev nD) (b : Ref sig .tc) (hb : b ∉ wl4) :
    W5 m ρ c (Proc.devRef .tc b) = W4 m ρ c (Proc.devRef .tc b) := by
  by_cases h0 : b = main_v7
  · subst h0; exact (W5_arr m ρ c 0).trans (((dat2 (V4 m ρ) c).arrAt_in 0 rfl _).trans (A_eq2 (V4 m ρ) c 0))
  by_cases h1 : b = main_v9
  · subst h1; exact (W5_arr m ρ c 1).trans (((dat2 (V4 m ρ) c).arrAt_in 1 rfl _).trans (A_eq2 (V4 m ρ) c 1))
  exact W5_of_ne m ρ c b fun
    | 0 => fun e => h0 e.symm
    | 1 => fun e => h1 e.symm
    | 2 => ne_of_mem_of_not_mem (x := main_v10) (l := wl4) (by decide) hb
    | ⟨_ + 3, h⟩ => absurd h (Nat.not_lt.2 (Nat.le_add_left _ _))
theorem keep5 (c : Dev nD) (b : Ref sig .tc) (hb : b ∉ wl5) :
    W6 m ρ c (Proc.devRef .tc b) = W5 m ρ c (Proc.devRef .tc b) := by
  by_cases h0 : b = main_v10
  · subst h0; exact (W6_arr m ρ c 0).trans (((dat3 (V5 m ρ) c).arrAt_in 0 rfl _).trans (A_eq3 (V5 m ρ) c 0))
  exact W6_of_ne m ρ c b fun
    | 0 => fun e => h0 e.symm
    | 1 => ne_of_mem_of_not_mem (x := main_v11_0) (l := wl5) (by decide) hb
    | 2 => ne_of_mem_of_not_mem (x := main_v11_1) (l := wl5) (by decide) hb
    | ⟨_ + 3, h⟩ => absurd h (Nat.not_lt.2 (Nat.le_add_left _ _))
theorem keep6 (c : Dev nD) (b : Ref sig .tc) (hb : b ∉ wl6) :
    W7 m ρ c (Proc.devRef .tc b) = W6 m ρ c (Proc.devRef .tc b) :=
  StableHlo.after_of_writes_sub hostOps4 _ writes6 hb
theorem keep7 (c : Dev nD) (b : Ref sig .tc) (hb : b ∉ wl7) :
    W8 m ρ c (Proc.devRef .tc b) = W7 m ρ c (Proc.devRef .tc b) := by
  by_cases h0 : b = main_v10
  · subst h0; exact (W8_arr m ρ c 0).trans (((dat4 (V7 m ρ) c).arrAt_in 0 rfl _).trans (A_eq4 (V7 m ρ) c 0))
  by_cases h1 : b = main_v13
  · subst h1; exact (W8_arr m ρ c 1).trans (((dat4 (V7 m ρ) c).arrAt_in 1 rfl _).trans (A_eq4 (V7 m ρ) c 1))
  by_cases h2 : b = main_v17
  · subst h2; exact (W8_arr m ρ c 2).trans (((dat4 (V7 m ρ) c).arrAt_in 2 rfl _).trans (A_eq4 (V7 m ρ) c 2))
  by_cases h3 : b = main_v19
  · subst h3; exact (W8_arr m ρ c 3).trans (((dat4 (V7 m ρ) c).arrAt_in 3 rfl _).trans (A_eq4 (V7 m ρ) c 3))
  exact W8_of_ne m ρ c b fun
    | 0 => fun e => h0 e.symm
    | 1 => fun e => h1 e.symm
    | 2 => fun e => h2 e.symm
    | 3 => fun e => h3 e.symm
    | 4 => ne_of_mem_of_not_mem (x := main_v20) (l := wl7) (by decide) hb
    | ⟨_ + 5, h⟩ => absurd h (Nat.not_lt.2 (Nat.le_add_left _ _))
theorem keep8 (c : Dev nD) (b : Ref sig .tc) (hb : b ∉ wl8) :
    W9 m ρ c (Proc.devRef .tc b) = W8 m ρ c (Proc.devRef .tc b) :=
  StableHlo.after_of_writes_sub hostOps5 _ writes8 hb
theorem keep9 (c : Dev nD) (b : Ref sig .tc) (hb : b ∉ wl9) :
    W10 m ρ c (Proc.devRef .tc b) = W9 m ρ c (Proc.devRef .tc b) :=
  StableHlo.after_of_writes_sub hostOps5_1 _ writes9 hb
theorem keep10 (c : Dev nD) (b : Ref sig .tc) (hb : b ∉ wl10) :
    W11 m ρ c (Proc.devRef .tc b) = W10 m ρ c (Proc.devRef .tc b) :=
  StableHlo.after_of_writes_sub hostOps5_2 _ writes10 hb
theorem keep11 (c : Dev nD) (b : Ref sig .tc) (hb : b ∉ wl11) :
    W12 m ρ c (Proc.devRef .tc b) = W11 m ρ c (Proc.devRef .tc b) := by
  by_cases h0 : b = main_v66
  · subst h0; exact (W12_arr m ρ c 0).trans (((dat5 (V11 m ρ) c).arrAt_in 0 rfl _).trans (A_eq5 (V11 m ρ) c 0))
  by_cases h1 : b = main_v69
  · subst h1; exact (W12_arr m ρ c 1).trans (((dat5 (V11 m ρ) c).arrAt_in 1 rfl _).trans (A_eq5 (V11 m ρ) c 1))
  exact W12_of_ne m ρ c b fun
    | 0 => fun e => h0 e.symm
    | 1 => fun e => h1 e.symm
    | 2 => ne_of_mem_of_not_mem (x := main_v70) (l := wl11) (by decide) hb
    | ⟨_ + 3, h⟩ => absurd h (Nat.not_lt.2 (Nat.le_add_left _ _))
theorem keep12 (c : Dev nD) (b : Ref sig .tc) (hb : b ∉ wl12) :
    W13 m ρ c (Proc.devRef .tc b) = W12 m ρ c (Proc.devRef .tc b) := by
  by_cases h0 : b = main_v70
  · subst h0; exact (W13_arr m ρ c 0).trans (((dat6 (V12 m ρ) c).arrAt_in 0 rfl _).trans (A_eq6 (V12 m ρ) c 0))
  exact W13_of_ne m ρ c b fun
    | 0 => fun e => h0 e.symm
    | 1 => ne_of_mem_of_not_mem (x := main_v71_0) (l := wl12) (by decide) hb
    | 2 => ne_of_mem_of_not_mem (x := main_v71_1) (l := wl12) (by decide) hb
    | ⟨_ + 3, h⟩ => absurd h (Nat.not_lt.2 (Nat.le_add_left _ _))
theorem keep13 (c : Dev nD) (b : Ref sig .tc) (hb : b ∉ wl13) :
    W14 m ρ c (Proc.devRef .tc b) = W13 m ρ c (Proc.devRef .tc b) :=
  StableHlo.after_of_writes_sub hostOps7 _ writes13 hb
theorem keep14 (c : Dev nD) (b : Ref sig .tc) (hb : b ∉ wl14) :
    W15 m ρ c (Proc.devRef .tc b) = W14 m ρ c (Proc.devRef .tc b) := by
  by_cases h0 : b = main_v70
  · subst h0; exact (W15_arr m ρ c 0).trans (((dat7 (V14 m ρ) c).arrAt_in 0 rfl _).trans (A_eq7 (V14 m ρ) c 0))
  by_cases h1 : b = main_v73
  · subst h1; exact (W15_arr m ρ c 1).trans (((dat7 (V14 m ρ) c).arrAt_in 1 rfl _).trans (A_eq7 (V14 m ρ) c 1))
  by_cases h2 : b = main_v77
  · subst h2; exact (W15_arr m ρ c 2).trans (((dat7 (V14 m ρ) c).arrAt_in 2 rfl _).trans (A_eq7 (V14 m ρ) c 2))
  by_cases h3 : b = main_v79
  · subst h3; exact (W15_arr m ρ c 3).trans (((dat7 (V14 m ρ) c).arrAt_in 3 rfl _).trans (A_eq7 (V14 m ρ) c 3))
  exact W15_of_ne m ρ c b fun
    | 0 => fun e => h0 e.symm
    | 1 => fun e => h1 e.symm
    | 2 => fun e => h2 e.symm
    | 3 => fun e => h3 e.symm
    | 4 => ne_of_mem_of_not_mem (x := main_v80) (l := wl14) (by decide) hb
    | ⟨_ + 5, h⟩ => absurd h (Nat.not_lt.2 (Nat.le_add_left _ _))
theorem keep15 (c : Dev nD) (b : Ref sig .tc) (hb : b ∉ wl15) :
    W16 m ρ c (Proc.devRef .tc b) = W15 m ρ c (Proc.devRef .tc b) :=
  StableHlo.after_of_writes_sub hostOps8 _ writes15 hb
theorem keep16 (c : Dev nD) (b : Ref sig .tc) (hb : b ∉ wl16) :
    W17 m ρ c (Proc.devRef .tc b) = W16 m ρ c (Proc.devRef .tc b) :=
  StableHlo.after_of_writes_sub hostOps8_1 _ writes16 hb
theorem keep17 (c : Dev nD) (b : Ref sig .tc) (hb : b ∉ wl17) :
    W18 m ρ c (Proc.devRef .tc b) = W17 m ρ c (Proc.devRef .tc b) :=
  StableHlo.after_of_writes_sub hostOps8_2 _ writes17 hb
theorem keep18 (c : Dev nD) (b : Ref sig .tc) (hb : b ∉ wl18) :
    W19 m ρ c (Proc.devRef .tc b) = W18 m ρ c (Proc.devRef .tc b) := by
  by_cases h0 : b = main_v126
  · subst h0; exact (W19_arr m ρ c 0).trans (((dat8 (V18 m ρ) c).arrAt_in 0 rfl _).trans (A_eq8 (V18 m ρ) c 0))
  by_cases h1 : b = main_v129
  · subst h1; exact (W19_arr m ρ c 1).trans (((dat8 (V18 m ρ) c).arrAt_in 1 rfl _).trans (A_eq8 (V18 m ρ) c 1))
  exact W19_of_ne m ρ c b fun
    | 0 => fun e => h0 e.symm
    | 1 => fun e => h1 e.symm
    | 2 => ne_of_mem_of_not_mem (x := main_v130) (l := wl18) (by decide) hb
    | ⟨_ + 3, h⟩ => absurd h (Nat.not_lt.2 (Nat.le_add_left _ _))
theorem keep19 (c : Dev nD) (b : Ref sig .tc) (hb : b ∉ wl19) :
    W20 m ρ c (Proc.devRef .tc b) = W19 m ρ c (Proc.devRef .tc b) := by
  by_cases h0 : b = main_v130
  · subst h0; exact (W20_arr m ρ c 0).trans (((dat9 (V19 m ρ) c).arrAt_in 0 rfl _).trans (A_eq9 (V19 m ρ) c 0))
  exact W20_of_ne m ρ c b fun
    | 0 => fun e => h0 e.symm
    | 1 => ne_of_mem_of_not_mem (x := main_v131_0) (l := wl19) (by decide) hb
    | 2 => ne_of_mem_of_not_mem (x := main_v131_1) (l := wl19) (by decide) hb
    | ⟨_ + 3, h⟩ => absurd h (Nat.not_lt.2 (Nat.le_add_left _ _))
theorem keep20 (c : Dev nD) (b : Ref sig .tc) (hb : b ∉ wl20) :
    W21 m ρ c (Proc.devRef .tc b) = W20 m ρ c (Proc.devRef .tc b) :=
  StableHlo.after_of_writes_sub hostOps10 _ writes20 hb
theorem keep21 (c : Dev nD) (b : Ref sig .tc) (hb : b ∉ wl21) :
    W22 m ρ c (Proc.devRef .tc b) = W21 m ρ c (Proc.devRef .tc b) := by
  by_cases h0 : b = main_v130
  · subst h0; exact (W22_arr m ρ c 0).trans (((dat10 (V21 m ρ) c).arrAt_in 0 rfl _).trans (A_eq10 (V21 m ρ) c 0))
  by_cases h1 : b = main_v133
  · subst h1; exact (W22_arr m ρ c 1).trans (((dat10 (V21 m ρ) c).arrAt_in 1 rfl _).trans (A_eq10 (V21 m ρ) c 1))
  by_cases h2 : b = main_v137
  · subst h2; exact (W22_arr m ρ c 2).trans (((dat10 (V21 m ρ) c).arrAt_in 2 rfl _).trans (A_eq10 (V21 m ρ) c 2))
  by_cases h3 : b = main_v139
  · subst h3; exact (W22_arr m ρ c 3).trans (((dat10 (V21 m ρ) c).arrAt_in 3 rfl _).trans (A_eq10 (V21 m ρ) c 3))
  exact W22_of_ne m ρ c b fun
    | 0 => fun e => h0 e.symm
    | 1 => fun e => h1 e.symm
    | 2 => fun e => h2 e.symm
    | 3 => fun e => h3 e.symm
    | 4 => ne_of_mem_of_not_mem (x := main_v140) (l := wl21) (by decide) hb
    | ⟨_ + 5, h⟩ => absurd h (Nat.not_lt.2 (Nat.le_add_left _ _))
theorem keep22 (c : Dev nD) (b : Ref sig .tc) (hb : b ∉ wl22) :
    W23 m ρ c (Proc.devRef .tc b) = W22 m ρ c (Proc.devRef .tc b) :=
  StableHlo.after_of_writes_sub hostOps11 _ writes22 hb
theorem keep23 (c : Dev nD) (b : Ref sig .tc) (hb : b ∉ wl23) :
    W24 m ρ c (Proc.devRef .tc b) = W23 m ρ c (Proc.devRef .tc b) :=
  StableHlo.after_of_writes_sub hostOps11_1 _ writes23 hb
theorem keep24 (c : Dev nD) (b : Ref sig .tc) (hb : b ∉ wl24) :
    W25 m ρ c (Proc.devRef .tc b) = W24 m ρ c (Proc.devRef .tc b) :=
  StableHlo.after_of_writes_sub hostOps11_2 _ writes24 hb
theorem keep25 (c : Dev nD) (b : Ref sig .tc) (hb : b ∉ wl25) :
    W26 m ρ c (Proc.devRef .tc b) = W25 m ρ c (Proc.devRef .tc b) := by
  by_cases h0 : b = main_v186
  · subst h0; exact (W26_arr m ρ c 0).trans (((dat11 (V25 m ρ) c).arrAt_in 0 rfl _).trans (A_eq11 (V25 m ρ) c 0))
  by_cases h1 : b = main_v189
  · subst h1; exact (W26_arr m ρ c 1).trans (((dat11 (V25 m ρ) c).arrAt_in 1 rfl _).trans (A_eq11 (V25 m ρ) c 1))
  exact W26_of_ne m ρ c b fun
    | 0 => fun e => h0 e.symm
    | 1 => fun e => h1 e.symm
    | 2 => ne_of_mem_of_not_mem (x := main_v190) (l := wl25) (by decide) hb
    | ⟨_ + 3, h⟩ => absurd h (Nat.not_lt.2 (Nat.le_add_left _ _))
theorem keep26 (c : Dev nD) (b : Ref sig .tc) (hb : b ∉ wl26) :
    W27 m ρ c (Proc.devRef .tc b) = W26 m ρ c (Proc.devRef .tc b) :=
  StableHlo.after_of_writes_sub hostOps12 _ writes26 hb
theorem keep27 (c : Dev nD) (b : Ref sig .tc) (hb : b ∉ wl27) :
    W28 m ρ c (Proc.devRef .tc b) = W27 m ρ c (Proc.devRef .tc b) :=
  StableHlo.after_of_writes_sub hostOps12_1 _ writes27 hb
theorem keep28 (c : Dev nD) (b : Ref sig .tc) (hb : b ∉ wl28) :
    W29 m ρ c (Proc.devRef .tc b) = W28 m ρ c (Proc.devRef .tc b) :=
  StableHlo.after_of_writes_sub hostOps12_2 _ writes28 hb
theorem keep29 (c : Dev nD) (b : Ref sig .tc) (hb : b ∉ wl29) :
    W30 m ρ c (Proc.devRef .tc b) = W29 m ρ c (Proc.devRef .tc b) := by
  by_cases h0 : b = main_v287
  · subst h0; exact (W30_arr m ρ c 0).trans (((dat12 (V29 m ρ) c).arrAt_in 0 rfl _).trans (A_eq12 (V29 m ρ) c 0))
  exact W30_of_ne m ρ c b fun
    | 0 => fun e => h0 e.symm
    | 1 => ne_of_mem_of_not_mem (x := main_v288_0) (l := wl29) (by decide) hb
    | 2 => ne_of_mem_of_not_mem (x := main_v288_1) (l := wl29) (by decide) hb
    | ⟨_ + 3, h⟩ => absurd h (Nat.not_lt.2 (Nat.le_add_left _ _))
theorem keep30 (c : Dev nD) (b : Ref sig .tc) (hb : b ∉ wl30) :
    W31 m ρ c (Proc.devRef .tc b) = W30 m ρ c (Proc.devRef .tc b) :=
  StableHlo.after_of_writes_sub hostOps13 _ writes30 hb
theorem keep31 (c : Dev nD) (b : Ref sig .tc) (hb : b ∉ wl31) :
    W32 m ρ c (Proc.devRef .tc b) = W31 m ρ c (Proc.devRef .tc b) := by
  by_cases h0 : b = main_v287
  · subst h0; exact (W32_arr m ρ c 0).trans (((dat13 (V31 m ρ) c).arrAt_in 0 rfl _).trans (A_eq13 (V31 m ρ) c 0))
  by_cases h1 : b = main_v290
  · subst h1; exact (W32_arr m ρ c 1).trans (((dat13 (V31 m ρ) c).arrAt_in 1 rfl _).trans (A_eq13 (V31 m ρ) c 1))
  by_cases h2 : b = main_v294
  · subst h2; exact (W32_arr m ρ c 2).trans (((dat13 (V31 m ρ) c).arrAt_in 2 rfl _).trans (A_eq13 (V31 m ρ) c 2))
  by_cases h3 : b = main_arg8
  · subst h3; exact (W32_arr m ρ c 3).trans (((dat13 (V31 m ρ) c).arrAt_in 3 rfl _).trans (A_eq13 (V31 m ρ) c 3))
  exact W32_of_ne m ρ c b fun
    | 0 => fun e => h0 e.symm
    | 1 => fun e => h1 e.symm
    | 2 => fun e => h2 e.symm
    | 3 => fun e => h3 e.symm
    | 4 => ne_of_mem_of_not_mem (x := main_v295) (l := wl31) (by decide) hb
    | ⟨_ + 5, h⟩ => absurd h (Nat.not_lt.2 (Nat.le_add_left _ _))
theorem keep32 (c : Dev nD) (b : Ref sig .tc) (hb : b ∉ wl32) :
    W33 m ρ c (Proc.devRef .tc b) = W32 m ρ c (Proc.devRef .tc b) :=
  StableHlo.after_of_writes_sub hostOps14 _ writes32 hb
theorem keep33 (c : Dev nD) (b : Ref sig .tc) (hb : b ∉ wl33) :
    W34 m ρ c (Proc.devRef .tc b) = W33 m ρ c (Proc.devRef .tc b) :=
  StableHlo.after_of_writes_sub hostOps14_1 _ writes33 hb
theorem keep34 (c : Dev nD) (b : Ref sig .tc) (hb : b ∉ wl34) :
    W35 m ρ c (Proc.devRef .tc b) = W34 m ρ c (Proc.devRef .tc b) :=
  StableHlo.after_of_writes_sub hostOps14_2 _ writes34 hb
theorem keep35 (c : Dev nD) (b : Ref sig .tc) (hb : b ∉ wl35) :
    W36 m ρ c (Proc.devRef .tc b) = W35 m ρ c (Proc.devRef .tc b) := by
  by_cases h0 : b = main_v342
  · subst h0; exact (W36_arr m ρ c 0).trans (((dat14 (V35 m ρ) c).arrAt_in 0 rfl _).trans (A_eq14 (V35 m ρ) c 0))
  by_cases h1 : b = main_v343
  · subst h1; exact (W36_arr m ρ c 1).trans (((dat14 (V35 m ρ) c).arrAt_in 1 rfl _).trans (A_eq14 (V35 m ρ) c 1))
  exact W36_of_ne m ρ c b fun
    | 0 => fun e => h0 e.symm
    | 1 => fun e => h1 e.symm
    | 2 => ne_of_mem_of_not_mem (x := main_v344) (l := wl35) (by decide) hb
    | ⟨_ + 3, h⟩ => absurd h (Nat.not_lt.2 (Nat.le_add_left _ _))
theorem keep36 (c : Dev nD) (b : Ref sig .tc) (hb : b ∉ wl36) :
    W37 m ρ c (Proc.devRef .tc b) = W36 m ρ c (Proc.devRef .tc b) :=
  StableHlo.after_of_writes_sub hostOps15 _ writes36 hb
theorem keep37 (c : Dev nD) (b : Ref sig .tc) (hb : b ∉ wl37) :
    W38 m ρ c (Proc.devRef .tc b) = W37 m ρ c (Proc.devRef .tc b) := by
  by_cases h0 : b = main_v350
  · subst h0; exact (W38_arr m ρ c 0).trans (((dat15 (V37 m ρ) c).arrAt_in 0 rfl _).trans (A_eq15 (V37 m ρ) c 0))
  exact W38_of_ne m ρ c b fun
    | 0 => fun e => h0 e.symm
    | 1 => ne_of_mem_of_not_mem (x := main_v351_0) (l := wl37) (by decide) hb
    | 2 => ne_of_mem_of_not_mem (x := main_v351_1) (l := wl37) (by decide) hb
    | ⟨_ + 3, h⟩ => absurd h (Nat.not_lt.2 (Nat.le_add_left _ _))
theorem keep38 (c : Dev nD) (b : Ref sig .tc) (hb : b ∉ wl38) :
    W39 m ρ c (Proc.devRef .tc b) = W38 m ρ c (Proc.devRef .tc b) :=
  StableHlo.after_of_writes_sub hostOps16 _ writes38 hb
theorem keep39 (c : Dev nD) (b : Ref sig .tc) (hb : b ∉ wl39) :
    W40 m ρ c (Proc.devRef .tc b) = W39 m ρ c (Proc.devRef .tc b) := by
  by_cases h0 : b = main_v350
  · subst h0; exact (W40_arr m ρ c 0).trans (((dat16 (V39 m ρ) c).arrAt_in 0 rfl _).trans (A_eq16 (V39 m ρ) c 0))
  by_cases h1 : b = main_v353
  · subst h1; exact (W40_arr m ρ c 1).trans (((dat16 (V39 m ρ) c).arrAt_in 1 rfl _).trans (A_eq16 (V39 m ρ) c 1))
  by_cases h2 : b = main_v357
  · subst h2; exact (W40_arr m ρ c 2).trans (((dat16 (V39 m ρ) c).arrAt_in 2 rfl _).trans (A_eq16 (V39 m ρ) c 2))
  by_cases h3 : b = main_arg10
  · subst h3; exact (W40_arr m ρ c 3).trans (((dat16 (V39 m ρ) c).arrAt_in 3 rfl _).trans (A_eq16 (V39 m ρ) c 3))
  exact W40_of_ne m ρ c b fun
    | 0 => fun e => h0 e.symm
    | 1 => fun e => h1 e.symm
    | 2 => fun e => h2 e.symm
    | 3 => fun e => h3 e.symm
    | 4 => ne_of_mem_of_not_mem (x := main_v358) (l := wl39) (by decide) hb
    | ⟨_ + 5, h⟩ => absurd h (Nat.not_lt.2 (Nat.le_add_left _ _))
theorem keep40 (c : Dev nD) (b : Ref sig .tc) (hb : b ∉ wl40) :
    W41 m ρ c (Proc.devRef .tc b) = W40 m ρ c (Proc.devRef .tc b) :=
  StableHlo.after_of_writes_sub hostOps17 _ writes40 hb
theorem keep41 (c : Dev nD) (b : Ref sig .tc) (hb : b ∉ wl41) :
    W42 m ρ c (Proc.devRef .tc b) = W41 m ρ c (Proc.devRef .tc b) :=
  StableHlo.after_of_writes_sub hostOps17_1 _ writes41 hb
theorem keep42 (c : Dev nD) (b : Ref sig .tc) (hb : b ∉ wl42) :
    W43 m ρ c (Proc.devRef .tc b) = W42 m ρ c (Proc.devRef .tc b) :=
  StableHlo.after_of_writes_sub hostOps17_2 _ writes42 hb
theorem keep43 (c : Dev nD) (b : Ref sig .tc) (hb : b ∉ wl43) :
    W44 m ρ c (Proc.devRef .tc b) = W43 m ρ c (Proc.devRef .tc b) := by
  by_cases h0 : b = main_v405
  · subst h0; exact (W44_arr m ρ c 0).trans (((dat17 (V43 m ρ) c).arrAt_in 0 rfl _).trans (A_eq17 (V43 m ρ) c 0))
  by_cases h1 : b = main_v406
  · subst h1; exact (W44_arr m ρ c 1).trans (((dat17 (V43 m ρ) c).arrAt_in 1 rfl _).trans (A_eq17 (V43 m ρ) c 1))
  exact W44_of_ne m ρ c b fun
    | 0 => fun e => h0 e.symm
    | 1 => fun e => h1 e.symm
    | 2 => ne_of_mem_of_not_mem (x := main_v407) (l := wl43) (by decide) hb
    | ⟨_ + 3, h⟩ => absurd h (Nat.not_lt.2 (Nat.le_add_left _ _))
theorem keep44 (c : Dev nD) (b : Ref sig .tc) (hb : b ∉ wl44) :
    W45 m ρ c (Proc.devRef .tc b) = W44 m ρ c (Proc.devRef .tc b) :=
  StableHlo.after_of_writes_sub hostOps18 _ writes44 hb
theorem keep45 (c : Dev nD) (b : Ref sig .tc) (hb : b ∉ wl45) :
    W46 m ρ c (Proc.devRef .tc b) = W45 m ρ c (Proc.devRef .tc b) :=
  StableHlo.after_of_writes_sub hostOps18_1 _ writes45 hb
theorem keep46 (c : Dev nD) (b : Ref sig .tc) (hb : b ∉ wl46) :
    W47 m ρ c (Proc.devRef .tc b) = W46 m ρ c (Proc.devRef .tc b) :=
  StableHlo.after_of_writes_sub hostOps18_2 _ writes46 hb
theorem keep47 (c : Dev nD) (b : Ref sig .tc) (hb : b ∉ wl47) :
    W48 m ρ c (Proc.devRef .tc b) = W47 m ρ c (Proc.devRef .tc b) :=
  StableHlo.after_of_writes_sub hostOps18_3 _ writes47 hb
theorem keep48 (c : Dev nD) (b : Ref sig .tc) (hb : b ∉ wl48) :
    W49 m ρ c (Proc.devRef .tc b) = W48 m ρ c (Proc.devRef .tc b) :=
  StableHlo.after_of_writes_sub hostOps18_4 _ writes48 hb
theorem keep49 (c : Dev nD) (b : Ref sig .tc) (hb : b ∉ wl49) :
    W50 m ρ c (Proc.devRef .tc b) = W49 m ρ c (Proc.devRef .tc b) :=
  StableHlo.after_of_writes_sub hostOps18_5 _ writes49 hb
theorem keep50 (c : Dev nD) (b : Ref sig .tc) (hb : b ∉ wl50) :
    W51 m ρ c (Proc.devRef .tc b) = W50 m ρ c (Proc.devRef .tc b) :=
  StableHlo.after_of_writes_sub hostOps18_6 _ writes50 hb
theorem keep51 (c : Dev nD) (b : Ref sig .tc) (hb : b ∉ wl51) :
    W52 m ρ c (Proc.devRef .tc b) = W51 m ρ c (Proc.devRef .tc b) :=
  StableHlo.after_of_writes_sub hostOps18_7 _ writes51 hb
theorem keep52 (c : Dev nD) (b : Ref sig .tc) (hb : b ∉ wl52) :
    W53 m ρ c (Proc.devRef .tc b) = W52 m ρ c (Proc.devRef .tc b) :=
  StableHlo.after_of_writes_sub hostOps18_8 _ writes52 hb
theorem keep53 (c : Dev nD) (b : Ref sig .tc) (hb : b ∉ wl53) :
    W54 m ρ c (Proc.devRef .tc b) = W53 m ρ c (Proc.devRef .tc b) :=
  StableHlo.after_of_writes_sub hostOps18_9 _ writes53 hb
theorem keep54 (c : Dev nD) (b : Ref sig .tc) (hb : b ∉ wl54) :
    W55 m ρ c (Proc.devRef .tc b) = W54 m ρ c (Proc.devRef .tc b) :=
  StableHlo.after_of_writes_sub hostOps18_10 _ writes54 hb
theorem keep55 (c : Dev nD) (b : Ref sig .tc) (hb : b ∉ wl55) :
    W56 m ρ c (Proc.devRef .tc b) = W55 m ρ c (Proc.devRef .tc b) :=
  StableHlo.after_of_writes_sub hostOps18_11 _ writes55 hb
theorem keep56 (c : Dev nD) (b : Ref sig .tc) (hb : b ∉ wl56) :
    W57 m ρ c (Proc.devRef .tc b) = W56 m ρ c (Proc.devRef .tc b) :=
  StableHlo.after_of_writes_sub hostOps18_12 _ writes56 hb
theorem keep57 (c : Dev nD) (b : Ref sig .tc) (hb : b ∉ wl57) :
    W58 m ρ c (Proc.devRef .tc b) = W57 m ρ c (Proc.devRef .tc b) :=
  StableHlo.after_of_writes_sub hostOps18_13 _ writes57 hb

/-! ## To the end: a reference nothing writes from boundary k on reads at the end what it read at k -/

theorem carry57 (c : Dev nD) (b : Ref sig .tc) (hb : b ∉ wlFrom57) :
    W58 m ρ c (Proc.devRef .tc b) = W57 m ρ c (Proc.devRef .tc b) :=
  keep57 m ρ c b fun h => hb (List.mem_append_left _ h)
theorem carry56 (c : Dev nD) (b : Ref sig .tc) (hb : b ∉ wlFrom56) :
    W58 m ρ c (Proc.devRef .tc b) = W56 m ρ c (Proc.devRef .tc b) :=
  (carry57 m ρ c b fun h => hb (List.mem_append_right _ h)).trans (keep56 m ρ c b fun h => hb (List.mem_append_left _ h))
theorem carry55 (c : Dev nD) (b : Ref sig .tc) (hb : b ∉ wlFrom55) :
    W58 m ρ c (Proc.devRef .tc b) = W55 m ρ c (Proc.devRef .tc b) :=
  (carry56 m ρ c b fun h => hb (List.mem_append_right _ h)).trans (keep55 m ρ c b fun h => hb (List.mem_append_left _ h))
theorem carry54 (c : Dev nD) (b : Ref sig .tc) (hb : b ∉ wlFrom54) :
    W58 m ρ c (Proc.devRef .tc b) = W54 m ρ c (Proc.devRef .tc b) :=
  (carry55 m ρ c b fun h => hb (List.mem_append_right _ h)).trans (keep54 m ρ c b fun h => hb (List.mem_append_left _ h))
theorem carry53 (c : Dev nD) (b : Ref sig .tc) (hb : b ∉ wlFrom53) :
    W58 m ρ c (Proc.devRef .tc b) = W53 m ρ c (Proc.devRef .tc b) :=
  (carry54 m ρ c b fun h => hb (List.mem_append_right _ h)).trans (keep53 m ρ c b fun h => hb (List.mem_append_left _ h))
theorem carry52 (c : Dev nD) (b : Ref sig .tc) (hb : b ∉ wlFrom52) :
    W58 m ρ c (Proc.devRef .tc b) = W52 m ρ c (Proc.devRef .tc b) :=
  (carry53 m ρ c b fun h => hb (List.mem_append_right _ h)).trans (keep52 m ρ c b fun h => hb (List.mem_append_left _ h))
theorem carry51 (c : Dev nD) (b : Ref sig .tc) (hb : b ∉ wlFrom51) :
    W58 m ρ c (Proc.devRef .tc b) = W51 m ρ c (Proc.devRef .tc b) :=
  (carry52 m ρ c b fun h => hb (List.mem_append_right _ h)).trans (keep51 m ρ c b fun h => hb (List.mem_append_left _ h))
theorem carry50 (c : Dev nD) (b : Ref sig .tc) (hb : b ∉ wlFrom50) :
    W58 m ρ c (Proc.devRef .tc b) = W50 m ρ c (Proc.devRef .tc b) :=
  (carry51 m ρ c b fun h => hb (List.mem_append_right _ h)).trans (keep50 m ρ c b fun h => hb (List.mem_append_left _ h))
theorem carry49 (c : Dev nD) (b : Ref sig .tc) (hb : b ∉ wlFrom49) :
    W58 m ρ c (Proc.devRef .tc b) = W49 m ρ c (Proc.devRef .tc b) :=
  (carry50 m ρ c b fun h => hb (List.mem_append_right _ h)).trans (keep49 m ρ c b fun h => hb (List.mem_append_left _ h))
theorem carry48 (c : Dev nD) (b : Ref sig .tc) (hb : b ∉ wlFrom48) :
    W58 m ρ c (Proc.devRef .tc b) = W48 m ρ c (Proc.devRef .tc b) :=
  (carry49 m ρ c b fun h => hb (List.mem_append_right _ h)).trans (keep48 m ρ c b fun h => hb (List.mem_append_left _ h))
theorem carry47 (c : Dev nD) (b : Ref sig .tc) (hb : b ∉ wlFrom47) :
    W58 m ρ c (Proc.devRef .tc b) = W47 m ρ c (Proc.devRef .tc b) :=
  (carry48 m ρ c b fun h => hb (List.mem_append_right _ h)).trans (keep47 m ρ c b fun h => hb (List.mem_append_left _ h))
theorem carry46 (c : Dev nD) (b : Ref sig .tc) (hb : b ∉ wlFrom46) :
    W58 m ρ c (Proc.devRef .tc b) = W46 m ρ c (Proc.devRef .tc b) :=
  (carry47 m ρ c b fun h => hb (List.mem_append_right _ h)).trans (keep46 m ρ c b fun h => hb (List.mem_append_left _ h))
theorem carry45 (c : Dev nD) (b : Ref sig .tc) (hb : b ∉ wlFrom45) :
    W58 m ρ c (Proc.devRef .tc b) = W45 m ρ c (Proc.devRef .tc b) :=
  (carry46 m ρ c b fun h => hb (List.mem_append_right _ h)).trans (keep45 m ρ c b fun h => hb (List.mem_append_left _ h))
theorem carry44 (c : Dev nD) (b : Ref sig .tc) (hb : b ∉ wlFrom44) :
    W58 m ρ c (Proc.devRef .tc b) = W44 m ρ c (Proc.devRef .tc b) :=
  (carry45 m ρ c b fun h => hb (List.mem_append_right _ h)).trans (keep44 m ρ c b fun h => hb (List.mem_append_left _ h))
theorem carry43 (c : Dev nD) (b : Ref sig .tc) (hb : b ∉ wlFrom43) :
    W58 m ρ c (Proc.devRef .tc b) = W43 m ρ c (Proc.devRef .tc b) :=
  (carry44 m ρ c b fun h => hb (List.mem_append_right _ h)).trans (keep43 m ρ c b fun h => hb (List.mem_append_left _ h))
theorem carry42 (c : Dev nD) (b : Ref sig .tc) (hb : b ∉ wlFrom42) :
    W58 m ρ c (Proc.devRef .tc b) = W42 m ρ c (Proc.devRef .tc b) :=
  (carry43 m ρ c b fun h => hb (List.mem_append_right _ h)).trans (keep42 m ρ c b fun h => hb (List.mem_append_left _ h))
theorem carry41 (c : Dev nD) (b : Ref sig .tc) (hb : b ∉ wlFrom41) :
    W58 m ρ c (Proc.devRef .tc b) = W41 m ρ c (Proc.devRef .tc b) :=
  (carry42 m ρ c b fun h => hb (List.mem_append_right _ h)).trans (keep41 m ρ c b fun h => hb (List.mem_append_left _ h))
theorem carry40 (c : Dev nD) (b : Ref sig .tc) (hb : b ∉ wlFrom40) :
    W58 m ρ c (Proc.devRef .tc b) = W40 m ρ c (Proc.devRef .tc b) :=
  (carry41 m ρ c b fun h => hb (List.mem_append_right _ h)).trans (keep40 m ρ c b fun h => hb (List.mem_append_left _ h))
theorem carry39 (c : Dev nD) (b : Ref sig .tc) (hb : b ∉ wlFrom39) :
    W58 m ρ c (Proc.devRef .tc b) = W39 m ρ c (Proc.devRef .tc b) :=
  (carry40 m ρ c b fun h => hb (List.mem_append_right _ h)).trans (keep39 m ρ c b fun h => hb (List.mem_append_left _ h))
theorem carry38 (c : Dev nD) (b : Ref sig .tc) (hb : b ∉ wlFrom38) :
    W58 m ρ c (Proc.devRef .tc b) = W38 m ρ c (Proc.devRef .tc b) :=
  (carry39 m ρ c b fun h => hb (List.mem_append_right _ h)).trans (keep38 m ρ c b fun h => hb (List.mem_append_left _ h))
theorem carry37 (c : Dev nD) (b : Ref sig .tc) (hb : b ∉ wlFrom37) :
    W58 m ρ c (Proc.devRef .tc b) = W37 m ρ c (Proc.devRef .tc b) :=
  (carry38 m ρ c b fun h => hb (List.mem_append_right _ h)).trans (keep37 m ρ c b fun h => hb (List.mem_append_left _ h))
theorem carry36 (c : Dev nD) (b : Ref sig .tc) (hb : b ∉ wlFrom36) :
    W58 m ρ c (Proc.devRef .tc b) = W36 m ρ c (Proc.devRef .tc b) :=
  (carry37 m ρ c b fun h => hb (List.mem_append_right _ h)).trans (keep36 m ρ c b fun h => hb (List.mem_append_left _ h))
theorem carry35 (c : Dev nD) (b : Ref sig .tc) (hb : b ∉ wlFrom35) :
    W58 m ρ c (Proc.devRef .tc b) = W35 m ρ c (Proc.devRef .tc b) :=
  (carry36 m ρ c b fun h => hb (List.mem_append_right _ h)).trans (keep35 m ρ c b fun h => hb (List.mem_append_left _ h))
theorem carry34 (c : Dev nD) (b : Ref sig .tc) (hb : b ∉ wlFrom34) :
    W58 m ρ c (Proc.devRef .tc b) = W34 m ρ c (Proc.devRef .tc b) :=
  (carry35 m ρ c b fun h => hb (List.mem_append_right _ h)).trans (keep34 m ρ c b fun h => hb (List.mem_append_left _ h))
theorem carry33 (c : Dev nD) (b : Ref sig .tc) (hb : b ∉ wlFrom33) :
    W58 m ρ c (Proc.devRef .tc b) = W33 m ρ c (Proc.devRef .tc b) :=
  (carry34 m ρ c b fun h => hb (List.mem_append_right _ h)).trans (keep33 m ρ c b fun h => hb (List.mem_append_left _ h))
theorem carry32 (c : Dev nD) (b : Ref sig .tc) (hb : b ∉ wlFrom32) :
    W58 m ρ c (Proc.devRef .tc b) = W32 m ρ c (Proc.devRef .tc b) :=
  (carry33 m ρ c b fun h => hb (List.mem_append_right _ h)).trans (keep32 m ρ c b fun h => hb (List.mem_append_left _ h))
theorem carry31 (c : Dev nD) (b : Ref sig .tc) (hb : b ∉ wlFrom31) :
    W58 m ρ c (Proc.devRef .tc b) = W31 m ρ c (Proc.devRef .tc b) :=
  (carry32 m ρ c b fun h => hb (List.mem_append_right _ h)).trans (keep31 m ρ c b fun h => hb (List.mem_append_left _ h))
theorem carry30 (c : Dev nD) (b : Ref sig .tc) (hb : b ∉ wlFrom30) :
    W58 m ρ c (Proc.devRef .tc b) = W30 m ρ c (Proc.devRef .tc b) :=
  (carry31 m ρ c b fun h => hb (List.mem_append_right _ h)).trans (keep30 m ρ c b fun h => hb (List.mem_append_left _ h))
theorem carry29 (c : Dev nD) (b : Ref sig .tc) (hb : b ∉ wlFrom29) :
    W58 m ρ c (Proc.devRef .tc b) = W29 m ρ c (Proc.devRef .tc b) :=
  (carry30 m ρ c b fun h => hb (List.mem_append_right _ h)).trans (keep29 m ρ c b fun h => hb (List.mem_append_left _ h))
theorem carry28 (c : Dev nD) (b : Ref sig .tc) (hb : b ∉ wlFrom28) :
    W58 m ρ c (Proc.devRef .tc b) = W28 m ρ c (Proc.devRef .tc b) :=
  (carry29 m ρ c b fun h => hb (List.mem_append_right _ h)).trans (keep28 m ρ c b fun h => hb (List.mem_append_left _ h))
theorem carry27 (c : Dev nD) (b : Ref sig .tc) (hb : b ∉ wlFrom27) :
    W58 m ρ c (Proc.devRef .tc b) = W27 m ρ c (Proc.devRef .tc b) :=
  (carry28 m ρ c b fun h => hb (List.mem_append_right _ h)).trans (keep27 m ρ c b fun h => hb (List.mem_append_left _ h))
theorem carry26 (c : Dev nD) (b : Ref sig .tc) (hb : b ∉ wlFrom26) :
    W58 m ρ c (Proc.devRef .tc b) = W26 m ρ c (Proc.devRef .tc b) :=
  (carry27 m ρ c b fun h => hb (List.mem_append_right _ h)).trans (keep26 m ρ c b fun h => hb (List.mem_append_left _ h))
theorem carry25 (c : Dev nD) (b : Ref sig .tc) (hb : b ∉ wlFrom25) :
    W58 m ρ c (Proc.devRef .tc b) = W25 m ρ c (Proc.devRef .tc b) :=
  (carry26 m ρ c b fun h => hb (List.mem_append_right _ h)).trans (keep25 m ρ c b fun h => hb (List.mem_append_left _ h))
theorem carry24 (c : Dev nD) (b : Ref sig .tc) (hb : b ∉ wlFrom24) :
    W58 m ρ c (Proc.devRef .tc b) = W24 m ρ c (Proc.devRef .tc b) :=
  (carry25 m ρ c b fun h => hb (List.mem_append_right _ h)).trans (keep24 m ρ c b fun h => hb (List.mem_append_left _ h))
theorem carry23 (c : Dev nD) (b : Ref sig .tc) (hb : b ∉ wlFrom23) :
    W58 m ρ c (Proc.devRef .tc b) = W23 m ρ c (Proc.devRef .tc b) :=
  (carry24 m ρ c b fun h => hb (List.mem_append_right _ h)).trans (keep23 m ρ c b fun h => hb (List.mem_append_left _ h))
theorem carry22 (c : Dev nD) (b : Ref sig .tc) (hb : b ∉ wlFrom22) :
    W58 m ρ c (Proc.devRef .tc b) = W22 m ρ c (Proc.devRef .tc b) :=
  (carry23 m ρ c b fun h => hb (List.mem_append_right _ h)).trans (keep22 m ρ c b fun h => hb (List.mem_append_left _ h))
theorem carry21 (c : Dev nD) (b : Ref sig .tc) (hb : b ∉ wlFrom21) :
    W58 m ρ c (Proc.devRef .tc b) = W21 m ρ c (Proc.devRef .tc b) :=
  (carry22 m ρ c b fun h => hb (List.mem_append_right _ h)).trans (keep21 m ρ c b fun h => hb (List.mem_append_left _ h))
theorem carry20 (c : Dev nD) (b : Ref sig .tc) (hb : b ∉ wlFrom20) :
    W58 m ρ c (Proc.devRef .tc b) = W20 m ρ c (Proc.devRef .tc b) :=
  (carry21 m ρ c b fun h => hb (List.mem_append_right _ h)).trans (keep20 m ρ c b fun h => hb (List.mem_append_left _ h))
theorem carry19 (c : Dev nD) (b : Ref sig .tc) (hb : b ∉ wlFrom19) :
    W58 m ρ c (Proc.devRef .tc b) = W19 m ρ c (Proc.devRef .tc b) :=
  (carry20 m ρ c b fun h => hb (List.mem_append_right _ h)).trans (keep19 m ρ c b fun h => hb (List.mem_append_left _ h))
theorem carry18 (c : Dev nD) (b : Ref sig .tc) (hb : b ∉ wlFrom18) :
    W58 m ρ c (Proc.devRef .tc b) = W18 m ρ c (Proc.devRef .tc b) :=
  (carry19 m ρ c b fun h => hb (List.mem_append_right _ h)).trans (keep18 m ρ c b fun h => hb (List.mem_append_left _ h))
theorem carry17 (c : Dev nD) (b : Ref sig .tc) (hb : b ∉ wlFrom17) :
    W58 m ρ c (Proc.devRef .tc b) = W17 m ρ c (Proc.devRef .tc b) :=
  (carry18 m ρ c b fun h => hb (List.mem_append_right _ h)).trans (keep17 m ρ c b fun h => hb (List.mem_append_left _ h))
theorem carry16 (c : Dev nD) (b : Ref sig .tc) (hb : b ∉ wlFrom16) :
    W58 m ρ c (Proc.devRef .tc b) = W16 m ρ c (Proc.devRef .tc b) :=
  (carry17 m ρ c b fun h => hb (List.mem_append_right _ h)).trans (keep16 m ρ c b fun h => hb (List.mem_append_left _ h))
theorem carry15 (c : Dev nD) (b : Ref sig .tc) (hb : b ∉ wlFrom15) :
    W58 m ρ c (Proc.devRef .tc b) = W15 m ρ c (Proc.devRef .tc b) :=
  (carry16 m ρ c b fun h => hb (List.mem_append_right _ h)).trans (keep15 m ρ c b fun h => hb (List.mem_append_left _ h))
theorem carry14 (c : Dev nD) (b : Ref sig .tc) (hb : b ∉ wlFrom14) :
    W58 m ρ c (Proc.devRef .tc b) = W14 m ρ c (Proc.devRef .tc b) :=
  (carry15 m ρ c b fun h => hb (List.mem_append_right _ h)).trans (keep14 m ρ c b fun h => hb (List.mem_append_left _ h))
theorem carry13 (c : Dev nD) (b : Ref sig .tc) (hb : b ∉ wlFrom13) :
    W58 m ρ c (Proc.devRef .tc b) = W13 m ρ c (Proc.devRef .tc b) :=
  (carry14 m ρ c b fun h => hb (List.mem_append_right _ h)).trans (keep13 m ρ c b fun h => hb (List.mem_append_left _ h))
theorem carry12 (c : Dev nD) (b : Ref sig .tc) (hb : b ∉ wlFrom12) :
    W58 m ρ c (Proc.devRef .tc b) = W12 m ρ c (Proc.devRef .tc b) :=
  (carry13 m ρ c b fun h => hb (List.mem_append_right _ h)).trans (keep12 m ρ c b fun h => hb (List.mem_append_left _ h))
theorem carry11 (c : Dev nD) (b : Ref sig .tc) (hb : b ∉ wlFrom11) :
    W58 m ρ c (Proc.devRef .tc b) = W11 m ρ c (Proc.devRef .tc b) :=
  (carry12 m ρ c b fun h => hb (List.mem_append_right _ h)).trans (keep11 m ρ c b fun h => hb (List.mem_append_left _ h))
theorem carry10 (c : Dev nD) (b : Ref sig .tc) (hb : b ∉ wlFrom10) :
    W58 m ρ c (Proc.devRef .tc b) = W10 m ρ c (Proc.devRef .tc b) :=
  (carry11 m ρ c b fun h => hb (List.mem_append_right _ h)).trans (keep10 m ρ c b fun h => hb (List.mem_append_left _ h))
theorem carry9 (c : Dev nD) (b : Ref sig .tc) (hb : b ∉ wlFrom9) :
    W58 m ρ c (Proc.devRef .tc b) = W9 m ρ c (Proc.devRef .tc b) :=
  (carry10 m ρ c b fun h => hb (List.mem_append_right _ h)).trans (keep9 m ρ c b fun h => hb (List.mem_append_left _ h))
theorem carry8 (c : Dev nD) (b : Ref sig .tc) (hb : b ∉ wlFrom8) :
    W58 m ρ c (Proc.devRef .tc b) = W8 m ρ c (Proc.devRef .tc b) :=
  (carry9 m ρ c b fun h => hb (List.mem_append_right _ h)).trans (keep8 m ρ c b fun h => hb (List.mem_append_left _ h))
theorem carry7 (c : Dev nD) (b : Ref sig .tc) (hb : b ∉ wlFrom7) :
    W58 m ρ c (Proc.devRef .tc b) = W7 m ρ c (Proc.devRef .tc b) :=
  (carry8 m ρ c b fun h => hb (List.mem_append_right _ h)).trans (keep7 m ρ c b fun h => hb (List.mem_append_left _ h))
theorem carry6 (c : Dev nD) (b : Ref sig .tc) (hb : b ∉ wlFrom6) :
    W58 m ρ c (Proc.devRef .tc b) = W6 m ρ c (Proc.devRef .tc b) :=
  (carry7 m ρ c b fun h => hb (List.mem_append_right _ h)).trans (keep6 m ρ c b fun h => hb (List.mem_append_left _ h))
theorem carry5 (c : Dev nD) (b : Ref sig .tc) (hb : b ∉ wlFrom5) :
    W58 m ρ c (Proc.devRef .tc b) = W5 m ρ c (Proc.devRef .tc b) :=
  (carry6 m ρ c b fun h => hb (List.mem_append_right _ h)).trans (keep5 m ρ c b fun h => hb (List.mem_append_left _ h))
theorem carry4 (c : Dev nD) (b : Ref sig .tc) (hb : b ∉ wlFrom4) :
    W58 m ρ c (Proc.devRef .tc b) = W4 m ρ c (Proc.devRef .tc b) :=
  (carry5 m ρ c b fun h => hb (List.mem_append_right _ h)).trans (keep4 m ρ c b fun h => hb (List.mem_append_left _ h))
theorem carry3 (c : Dev nD) (b : Ref sig .tc) (hb : b ∉ wlFrom3) :
    W58 m ρ c (Proc.devRef .tc b) = W3 m ρ c (Proc.devRef .tc b) :=
  (carry4 m ρ c b fun h => hb (List.mem_append_right _ h)).trans (keep3 m ρ c b fun h => hb (List.mem_append_left _ h))
theorem carry2 (c : Dev nD) (b : Ref sig .tc) (hb : b ∉ wlFrom2) :
    W58 m ρ c (Proc.devRef .tc b) = W2 m ρ c (Proc.devRef .tc b) :=
  (carry3 m ρ c b fun h => hb (List.mem_append_right _ h)).trans (keep2 m ρ c b fun h => hb (List.mem_append_left _ h))
theorem carry1 (c : Dev nD) (b : Ref sig .tc) (hb : b ∉ wlFrom1) :
    W58 m ρ c (Proc.devRef .tc b) = W1 m ρ c (Proc.devRef .tc b) :=
  (carry2 m ρ c b fun h => hb (List.mem_append_right _ h)).trans (keep1 m ρ c b fun h => hb (List.mem_append_left _ h))
theorem carry0 (c : Dev nD) (b : Ref sig .tc) (hb : b ∉ wlFrom0) :
    W58 m ρ c (Proc.devRef .tc b) = W0 m ρ c (Proc.devRef .tc b) :=
  (carry1 m ρ c b fun h => hb (List.mem_append_right _ h)).trans (keep0 m ρ c b fun h => hb (List.mem_append_left _ h))

/-! ## The arguments end as launched -/

theorem arg0 (c : Dev nD) : W58 m ρ c (Proc.devRef .tc main_arg0) = m ((c : Thread nD τ).loc main_arg0) :=
  (carry0 m ρ c main_arg0 (by decide)).trans rfl
theorem arg1 (c : Dev nD) : W58 m ρ c (Proc.devRef .tc main_arg1) = m ((c : Thread nD τ).loc main_arg1) :=
  (carry0 m ρ c main_arg1 (by decide)).trans rfl
theorem arg2 (c : Dev nD) : W58 m ρ c (Proc.devRef .tc main_arg2) = m ((c : Thread nD τ).loc main_arg2) :=
  (carry0 m ρ c main_arg2 (by decide)).trans rfl
theorem arg3 (c : Dev nD) : W58 m ρ c (Proc.devRef .tc main_arg3) = m ((c : Thread nD τ).loc main_arg3) :=
  (carry0 m ρ c main_arg3 (by decide)).trans rfl
theorem arg4 (c : Dev nD) : W58 m ρ c (Proc.devRef .tc main_arg4) = m ((c : Thread nD τ).loc main_arg4) :=
  (carry0 m ρ c main_arg4 (by decide)).trans rfl
theorem arg5 (c : Dev nD) : W58 m ρ c (Proc.devRef .tc main_arg5) = m ((c : Thread nD τ).loc main_arg5) :=
  (carry0 m ρ c main_arg5 (by decide)).trans rfl
theorem arg6 (c : Dev nD) : W58 m ρ c (Proc.devRef .tc main_arg6) = m ((c : Thread nD τ).loc main_arg6) :=
  (carry0 m ρ c main_arg6 (by decide)).trans rfl
theorem arg7 (c : Dev nD) : W58 m ρ c (Proc.devRef .tc main_arg7) = m ((c : Thread nD τ).loc main_arg7) :=
  (carry0 m ρ c main_arg7 (by decide)).trans rfl
theorem arg8 (c : Dev nD) : W58 m ρ c (Proc.devRef .tc main_arg8) = m ((c : Thread nD τ).loc main_arg8) :=
  (carry0 m ρ c main_arg8 (by decide)).trans rfl
theorem arg9 (c : Dev nD) : W58 m ρ c (Proc.devRef .tc main_arg9) = m ((c : Thread nD τ).loc main_arg9) :=
  (carry0 m ρ c main_arg9 (by decide)).trans rfl
theorem arg10 (c : Dev nD) : W58 m ρ c (Proc.devRef .tc main_arg10) = m ((c : Thread nD τ).loc main_arg10) :=
  (carry0 m ρ c main_arg10 (by decide)).trans rfl
theorem arg11 (c : Dev nD) : W58 m ρ c (Proc.devRef .tc main_arg11) = m ((c : Thread nD τ).loc main_arg11) :=
  (carry0 m ρ c main_arg11 (by decide)).trans rfl
theorem arg12 (c : Dev nD) : W58 m ρ c (Proc.devRef .tc main_arg12) = m ((c : Thread nD τ).loc main_arg12) :=
  (carry0 m ρ c main_arg12 (by decide)).trans rfl
theorem arg13 (c : Dev nD) : W58 m ρ c (Proc.devRef .tc main_arg13) = m ((c : Thread nD τ).loc main_arg13) :=
  (carry0 m ρ c main_arg13 (by decide)).trans rfl
theorem arg14 (c : Dev nD) : W58 m ρ c (Proc.devRef .tc main_arg14) = m ((c : Thread nD τ).loc main_arg14) :=
  (carry0 m ρ c main_arg14 (by decide)).trans rfl
theorem arg15 (c : Dev nD) : W58 m ρ c (Proc.devRef .tc main_arg15) = m ((c : Thread nD τ).loc main_arg15) :=
  (carry0 m ρ c main_arg15 (by decide)).trans rfl
theorem arg16 (c : Dev nD) : W58 m ρ c (Proc.devRef .tc main_arg16) = m ((c : Thread nD τ).loc main_arg16) :=
  (carry0 m ρ c main_arg16 (by decide)).trans rfl
theorem arg17 (c : Dev nD) : W58 m ρ c (Proc.devRef .tc main_arg17) = m ((c : Thread nD τ).loc main_arg17) :=
  (carry0 m ρ c main_arg17 (by decide)).trans rfl
theorem arg18 (c : Dev nD) : W58 m ρ c (Proc.devRef .tc main_arg18) = m ((c : Thread nD τ).loc main_arg18) :=
  (carry0 m ρ c main_arg18 (by decide)).trans rfl
theorem arg19 (c : Dev nD) : W58 m ρ c (Proc.devRef .tc main_arg19) = m ((c : Thread nD τ).loc main_arg19) :=
  (carry0 m ρ c main_arg19 (by decide)).trans rfl
theorem arg20 (c : Dev nD) : W58 m ρ c (Proc.devRef .tc main_arg20) = m ((c : Thread nD τ).loc main_arg20) :=
  (carry0 m ρ c main_arg20 (by decide)).trans rfl
theorem arg21 (c : Dev nD) : W58 m ρ c (Proc.devRef .tc main_arg21) = m ((c : Thread nD τ).loc main_arg21) :=
  (carry0 m ρ c main_arg21 (by decide)).trans rfl
theorem arg22 (c : Dev nD) : W58 m ρ c (Proc.devRef .tc main_arg22) = m ((c : Thread nD τ).loc main_arg22) :=
  (carry0 m ρ c main_arg22 (by decide)).trans rfl
theorem arg23 (c : Dev nD) : W58 m ρ c (Proc.devRef .tc main_arg23) = m ((c : Thread nD τ).loc main_arg23) :=
  (carry0 m ρ c main_arg23 (by decide)).trans rfl
theorem arg24 (c : Dev nD) : W58 m ρ c (Proc.devRef .tc main_arg24) = m ((c : Thread nD τ).loc main_arg24) :=
  (carry0 m ρ c main_arg24 (by decide)).trans rfl
theorem arg25 (c : Dev nD) : W58 m ρ c (Proc.devRef .tc main_arg25) = m ((c : Thread nD τ).loc main_arg25) :=
  (carry0 m ρ c main_arg25 (by decide)).trans rfl
theorem arg26 (c : Dev nD) : W58 m ρ c (Proc.devRef .tc main_arg26) = m ((c : Thread nD τ).loc main_arg26) :=
  (carry0 m ρ c main_arg26 (by decide)).trans rfl

/-! ## The regions' arrays at the end -/

/-- Region 0's window 0 (`main_arg0`, an input): its array ends as the region left it. -/
theorem reg0_arr0 (c : Dev nD) :
    W58 m ρ c (Proc.devRef .tc (Pipeline.arrRef spec0 0)) = (dat0 (V0 m ρ) c).arrAt 0 cfg0.N :=
  (carry1 m ρ c main_arg0 (by decide)).trans (W1_arr m ρ c 0)
/-- Region 0's window 1 (`main_v0_0`, an output): its array ends as the region left it. -/
theorem reg0_arr1 (c : Dev nD) :
    W58 m ρ c (Proc.devRef .tc (Pipeline.arrRef spec0 1)) = (dat0 (V0 m ρ) c).arrAt 1 cfg0.N :=
  (carry1 m ρ c main_v0_0 (by decide)).trans (W1_arr m ρ c 1)
/-- Region 0's window 2 (`main_v0_1`, an output): its array ends as the region left it. -/
theorem reg0_arr2 (c : Dev nD) :
    W58 m ρ c (Proc.devRef .tc (Pipeline.arrRef spec0 2)) = (dat0 (V0 m ρ) c).arrAt 2 cfg0.N :=
  (carry1 m ρ c main_v0_1 (by decide)).trans (W1_arr m ρ c 2)
/-- What region 0 found in its input window 0's array (`main_arg0`) is what the end still holds there. -/
theorem reg0_in0 (c : Dev nD) :
    V0 m ρ c (Pipeline.arrRef spec0 0) = W58 m ρ c (Proc.devRef .tc (Pipeline.arrRef spec0 0)) :=
  (carry0 m ρ c main_arg0 (by decide)).symm
/-- Region 1's window 0 (`main_arg0`, an input): its array ends as the region left it. -/
theorem reg1_arr0 (c : Dev nD) :
    W58 m ρ c (Proc.devRef .tc (Pipeline.arrRef spec1 0)) = (dat1 (V2 m ρ) c).arrAt 0 cfg1.N :=
  (carry3 m ρ c main_arg0 (by decide)).trans (W3_arr m ρ c 0)
/-- Region 1's window 1 (`main_v2`, an input): its array ends as the region left it. -/
theorem reg1_arr1 (c : Dev nD) :
    W58 m ρ c (Proc.devRef .tc (Pipeline.arrRef spec1 1)) = (dat1 (V2 m ρ) c).arrAt 1 cfg1.N :=
  (carry3 m ρ c main_v2 (by decide)).trans (W3_arr m ρ c 1)
/-- Region 1's window 2 (`main_v6`, an input): its array ends as the region left it. -/
theorem reg1_arr2 (c : Dev nD) :
    W58 m ρ c (Proc.devRef .tc (Pipeline.arrRef spec1 2)) = (dat1 (V2 m ρ) c).arrAt 2 cfg1.N :=
  (carry3 m ρ c main_v6 (by decide)).trans (W3_arr m ρ c 2)
/-- Region 1's window 3 (`main_arg1`, an input): its array ends as the region left it. -/
theorem reg1_arr3 (c : Dev nD) :
    W58 m ρ c (Proc.devRef .tc (Pipeline.arrRef spec1 3)) = (dat1 (V2 m ρ) c).arrAt 3 cfg1.N :=
  (carry3 m ρ c main_arg1 (by decide)).trans (W3_arr m ρ c 3)
/-- Region 1's window 4 (`main_v7`, an output): its array ends as the region left it. -/
theorem reg1_arr4 (c : Dev nD) :
    W58 m ρ c (Proc.devRef .tc (Pipeline.arrRef spec1 4)) = (dat1 (V2 m ρ) c).arrAt 4 cfg1.N :=
  (carry3 m ρ c main_v7 (by decide)).trans (W3_arr m ρ c 4)
/-- What region 1 found in its input window 0's array (`main_arg0`) is what the end still holds there. -/
theorem reg1_in0 (c : Dev nD) :
    V2 m ρ c (Pipeline.arrRef spec1 0) = W58 m ρ c (Proc.devRef .tc (Pipeline.arrRef spec1 0)) :=
  (carry2 m ρ c main_arg0 (by decide)).symm
/-- What region 1 found in its input window 1's array (`main_v2`) is what the end still holds there. -/
theorem reg1_in1 (c : Dev nD) :
    V2 m ρ c (Pipeline.arrRef spec1 1) = W58 m ρ c (Proc.devRef .tc (Pipeline.arrRef spec1 1)) :=
  (carry2 m ρ c main_v2 (by decide)).symm
/-- What region 1 found in its input window 2's array (`main_v6`) is what the end still holds there. -/
theorem reg1_in2 (c : Dev nD) :
    V2 m ρ c (Pipeline.arrRef spec1 2) = W58 m ρ c (Proc.devRef .tc (Pipeline.arrRef spec1 2)) :=
  (carry2 m ρ c main_v6 (by decide)).symm
/-- What region 1 found in its input window 3's array (`main_arg1`) is what the end still holds there. -/
theorem reg1_in3 (c : Dev nD) :
    V2 m ρ c (Pipeline.arrRef spec1 3) = W58 m ρ c (Proc.devRef .tc (Pipeline.arrRef spec1 3)) :=
  (carry2 m ρ c main_arg1 (by decide)).symm
/-- Region 2's window 0 (`main_v7`, an input): its array ends as the region left it. -/
theorem reg2_arr0 (c : Dev nD) :
    W58 m ρ c (Proc.devRef .tc (Pipeline.arrRef spec2 0)) = (dat2 (V4 m ρ) c).arrAt 0 cfg2.N :=
  (carry5 m ρ c main_v7 (by decide)).trans (W5_arr m ρ c 0)
/-- Region 2's window 1 (`main_v9`, an input): its array ends as the region left it. -/
theorem reg2_arr1 (c : Dev nD) :
    W58 m ρ c (Proc.devRef .tc (Pipeline.arrRef spec2 1)) = (dat2 (V4 m ρ) c).arrAt 1 cfg2.N :=
  (carry5 m ρ c main_v9 (by decide)).trans (W5_arr m ρ c 1)
/-- Region 2's window 2 (`main_v10`, an output): its array ends as the region left it. -/
theorem reg2_arr2 (c : Dev nD) :
    W58 m ρ c (Proc.devRef .tc (Pipeline.arrRef spec2 2)) = (dat2 (V4 m ρ) c).arrAt 2 cfg2.N :=
  (carry5 m ρ c main_v10 (by decide)).trans (W5_arr m ρ c 2)
/-- What region 2 found in its input window 0's array (`main_v7`) is what the end still holds there. -/
theorem reg2_in0 (c : Dev nD) :
    V4 m ρ c (Pipeline.arrRef spec2 0) = W58 m ρ c (Proc.devRef .tc (Pipeline.arrRef spec2 0)) :=
  (carry4 m ρ c main_v7 (by decide)).symm
/-- What region 2 found in its input window 1's array (`main_v9`) is what the end still holds there. -/
theorem reg2_in1 (c : Dev nD) :
    V4 m ρ c (Pipeline.arrRef spec2 1) = W58 m ρ c (Proc.devRef .tc (Pipeline.arrRef spec2 1)) :=
  (carry4 m ρ c main_v9 (by decide)).symm
/-- Region 3's window 0 (`main_v10`, an input): its array ends as the region left it. -/
theorem reg3_arr0 (c : Dev nD) :
    W58 m ρ c (Proc.devRef .tc (Pipeline.arrRef spec3 0)) = (dat3 (V5 m ρ) c).arrAt 0 cfg3.N :=
  (carry6 m ρ c main_v10 (by decide)).trans (W6_arr m ρ c 0)
/-- Region 3's window 1 (`main_v11_0`, an output): its array ends as the region left it. -/
theorem reg3_arr1 (c : Dev nD) :
    W58 m ρ c (Proc.devRef .tc (Pipeline.arrRef spec3 1)) = (dat3 (V5 m ρ) c).arrAt 1 cfg3.N :=
  (carry6 m ρ c main_v11_0 (by decide)).trans (W6_arr m ρ c 1)
/-- Region 3's window 2 (`main_v11_1`, an output): its array ends as the region left it. -/
theorem reg3_arr2 (c : Dev nD) :
    W58 m ρ c (Proc.devRef .tc (Pipeline.arrRef spec3 2)) = (dat3 (V5 m ρ) c).arrAt 2 cfg3.N :=
  (carry6 m ρ c main_v11_1 (by decide)).trans (W6_arr m ρ c 2)
/-- What region 3 found in its input window 0's array (`main_v10`) is what the end still holds there. -/
theorem reg3_in0 (c : Dev nD) :
    V5 m ρ c (Pipeline.arrRef spec3 0) = W58 m ρ c (Proc.devRef .tc (Pipeline.arrRef spec3 0)) :=
  (carry5 m ρ c main_v10 (by decide)).symm
/-- Region 4's window 0 (`main_v10`, an input): its array ends as the region left it. -/
theorem reg4_arr0 (c : Dev nD) :
    W58 m ρ c (Proc.devRef .tc (Pipeline.arrRef spec4 0)) = (dat4 (V7 m ρ) c).arrAt 0 cfg4.N :=
  (carry8 m ρ c main_v10 (by decide)).trans (W8_arr m ρ c 0)
/-- Region 4's window 1 (`main_v13`, an input): its array ends as the region left it. -/
theorem reg4_arr1 (c : Dev nD) :
    W58 m ρ c (Proc.devRef .tc (Pipeline.arrRef spec4 1)) = (dat4 (V7 m ρ) c).arrAt 1 cfg4.N :=
  (carry8 m ρ c main_v13 (by decide)).trans (W8_arr m ρ c 1)
/-- Region 4's window 2 (`main_v17`, an input): its array ends as the region left it. -/
theorem reg4_arr2 (c : Dev nD) :
    W58 m ρ c (Proc.devRef .tc (Pipeline.arrRef spec4 2)) = (dat4 (V7 m ρ) c).arrAt 2 cfg4.N :=
  (carry8 m ρ c main_v17 (by decide)).trans (W8_arr m ρ c 2)
/-- Region 4's window 3 (`main_v19`, an input): its array ends as the region left it. -/
theorem reg4_arr3 (c : Dev nD) :
    W58 m ρ c (Proc.devRef .tc (Pipeline.arrRef spec4 3)) = (dat4 (V7 m ρ) c).arrAt 3 cfg4.N :=
  (carry8 m ρ c main_v19 (by decide)).trans (W8_arr m ρ c 3)
/-- Region 4's window 4 (`main_v20`, an output): its array ends as the region left it. -/
theorem reg4_arr4 (c : Dev nD) :
    W58 m ρ c (Proc.devRef .tc (Pipeline.arrRef spec4 4)) = (dat4 (V7 m ρ) c).arrAt 4 cfg4.N :=
  (carry8 m ρ c main_v20 (by decide)).trans (W8_arr m ρ c 4)
/-- What region 4 found in its input window 0's array (`main_v10`) is what the end still holds there. -/
theorem reg4_in0 (c : Dev nD) :
    V7 m ρ c (Pipeline.arrRef spec4 0) = W58 m ρ c (Proc.devRef .tc (Pipeline.arrRef spec4 0)) :=
  (carry7 m ρ c main_v10 (by decide)).symm
/-- What region 4 found in its input window 1's array (`main_v13`) is what the end still holds there. -/
theorem reg4_in1 (c : Dev nD) :
    V7 m ρ c (Pipeline.arrRef spec4 1) = W58 m ρ c (Proc.devRef .tc (Pipeline.arrRef spec4 1)) :=
  (carry7 m ρ c main_v13 (by decide)).symm
/-- What region 4 found in its input window 2's array (`main_v17`) is what the end still holds there. -/
theorem reg4_in2 (c : Dev nD) :
    V7 m ρ c (Pipeline.arrRef spec4 2) = W58 m ρ c (Proc.devRef .tc (Pipeline.arrRef spec4 2)) :=
  (carry7 m ρ c main_v17 (by decide)).symm
/-- What region 4 found in its input window 3's array (`main_v19`) is what the end still holds there. -/
theorem reg4_in3 (c : Dev nD) :
    V7 m ρ c (Pipeline.arrRef spec4 3) = W58 m ρ c (Proc.devRef .tc (Pipeline.arrRef spec4 3)) :=
  (carry7 m ρ c main_v19 (by decide)).symm
/-- Region 5's window 0 (`main_v66`, an input): its array ends as the region left it. -/
theorem reg5_arr0 (c : Dev nD) :
    W58 m ρ c (Proc.devRef .tc (Pipeline.arrRef spec5 0)) = (dat5 (V11 m ρ) c).arrAt 0 cfg5.N :=
  (carry12 m ρ c main_v66 (by decide)).trans (W12_arr m ρ c 0)
/-- Region 5's window 1 (`main_v69`, an input): its array ends as the region left it. -/
theorem reg5_arr1 (c : Dev nD) :
    W58 m ρ c (Proc.devRef .tc (Pipeline.arrRef spec5 1)) = (dat5 (V11 m ρ) c).arrAt 1 cfg5.N :=
  (carry12 m ρ c main_v69 (by decide)).trans (W12_arr m ρ c 1)
/-- Region 5's window 2 (`main_v70`, an output): its array ends as the region left it. -/
theorem reg5_arr2 (c : Dev nD) :
    W58 m ρ c (Proc.devRef .tc (Pipeline.arrRef spec5 2)) = (dat5 (V11 m ρ) c).arrAt 2 cfg5.N :=
  (carry12 m ρ c main_v70 (by decide)).trans (W12_arr m ρ c 2)
/-- What region 5 found in its input window 0's array (`main_v66`) is what the end still holds there. -/
theorem reg5_in0 (c : Dev nD) :
    V11 m ρ c (Pipeline.arrRef spec5 0) = W58 m ρ c (Proc.devRef .tc (Pipeline.arrRef spec5 0)) :=
  (carry11 m ρ c main_v66 (by decide)).symm
/-- What region 5 found in its input window 1's array (`main_v69`) is what the end still holds there. -/
theorem reg5_in1 (c : Dev nD) :
    V11 m ρ c (Pipeline.arrRef spec5 1) = W58 m ρ c (Proc.devRef .tc (Pipeline.arrRef spec5 1)) :=
  (carry11 m ρ c main_v69 (by decide)).symm
/-- Region 6's window 0 (`main_v70`, an input): its array ends as the region left it. -/
theorem reg6_arr0 (c : Dev nD) :
    W58 m ρ c (Proc.devRef .tc (Pipeline.arrRef spec6 0)) = (dat6 (V12 m ρ) c).arrAt 0 cfg6.N :=
  (carry13 m ρ c main_v70 (by decide)).trans (W13_arr m ρ c 0)
/-- Region 6's window 1 (`main_v71_0`, an output): its array ends as the region left it. -/
theorem reg6_arr1 (c : Dev nD) :
    W58 m ρ c (Proc.devRef .tc (Pipeline.arrRef spec6 1)) = (dat6 (V12 m ρ) c).arrAt 1 cfg6.N :=
  (carry13 m ρ c main_v71_0 (by decide)).trans (W13_arr m ρ c 1)
/-- Region 6's window 2 (`main_v71_1`, an output): its array ends as the region left it. -/
theorem reg6_arr2 (c : Dev nD) :
    W58 m ρ c (Proc.devRef .tc (Pipeline.arrRef spec6 2)) = (dat6 (V12 m ρ) c).arrAt 2 cfg6.N :=
  (carry13 m ρ c main_v71_1 (by decide)).trans (W13_arr m ρ c 2)
/-- What region 6 found in its input window 0's array (`main_v70`) is what the end still holds there. -/
theorem reg6_in0 (c : Dev nD) :
    V12 m ρ c (Pipeline.arrRef spec6 0) = W58 m ρ c (Proc.devRef .tc (Pipeline.arrRef spec6 0)) :=
  (carry12 m ρ c main_v70 (by decide)).symm
/-- Region 7's window 0 (`main_v70`, an input): its array ends as the region left it. -/
theorem reg7_arr0 (c : Dev nD) :
    W58 m ρ c (Proc.devRef .tc (Pipeline.arrRef spec7 0)) = (dat7 (V14 m ρ) c).arrAt 0 cfg7.N :=
  (carry15 m ρ c main_v70 (by decide)).trans (W15_arr m ρ c 0)
/-- Region 7's window 1 (`main_v73`, an input): its array ends as the region left it. -/
theorem reg7_arr1 (c : Dev nD) :
    W58 m ρ c (Proc.devRef .tc (Pipeline.arrRef spec7 1)) = (dat7 (V14 m ρ) c).arrAt 1 cfg7.N :=
  (carry15 m ρ c main_v73 (by decide)).trans (W15_arr m ρ c 1)
/-- Region 7's window 2 (`main_v77`, an input): its array ends as the region left it. -/
theorem reg7_arr2 (c : Dev nD) :
    W58 m ρ c (Proc.devRef .tc (Pipeline.arrRef spec7 2)) = (dat7 (V14 m ρ) c).arrAt 2 cfg7.N :=
  (carry15 m ρ c main_v77 (by decide)).trans (W15_arr m ρ c 2)
/-- Region 7's window 3 (`main_v79`, an input): its array ends as the region left it. -/
theorem reg7_arr3 (c : Dev nD) :
    W58 m ρ c (Proc.devRef .tc (Pipeline.arrRef spec7 3)) = (dat7 (V14 m ρ) c).arrAt 3 cfg7.N :=
  (carry15 m ρ c main_v79 (by decide)).trans (W15_arr m ρ c 3)
/-- Region 7's window 4 (`main_v80`, an output): its array ends as the region left it. -/
theorem reg7_arr4 (c : Dev nD) :
    W58 m ρ c (Proc.devRef .tc (Pipeline.arrRef spec7 4)) = (dat7 (V14 m ρ) c).arrAt 4 cfg7.N :=
  (carry15 m ρ c main_v80 (by decide)).trans (W15_arr m ρ c 4)
/-- What region 7 found in its input window 0's array (`main_v70`) is what the end still holds there. -/
theorem reg7_in0 (c : Dev nD) :
    V14 m ρ c (Pipeline.arrRef spec7 0) = W58 m ρ c (Proc.devRef .tc (Pipeline.arrRef spec7 0)) :=
  (carry14 m ρ c main_v70 (by decide)).symm
/-- What region 7 found in its input window 1's array (`main_v73`) is what the end still holds there. -/
theorem reg7_in1 (c : Dev nD) :
    V14 m ρ c (Pipeline.arrRef spec7 1) = W58 m ρ c (Proc.devRef .tc (Pipeline.arrRef spec7 1)) :=
  (carry14 m ρ c main_v73 (by decide)).symm
/-- What region 7 found in its input window 2's array (`main_v77`) is what the end still holds there. -/
theorem reg7_in2 (c : Dev nD) :
    V14 m ρ c (Pipeline.arrRef spec7 2) = W58 m ρ c (Proc.devRef .tc (Pipeline.arrRef spec7 2)) :=
  (carry14 m ρ c main_v77 (by decide)).symm
/-- What region 7 found in its input window 3's array (`main_v79`) is what the end still holds there. -/
theorem reg7_in3 (c : Dev nD) :
    V14 m ρ c (Pipeline.arrRef spec7 3) = W58 m ρ c (Proc.devRef .tc (Pipeline.arrRef spec7 3)) :=
  (carry14 m ρ c main_v79 (by decide)).symm
/-- Region 8's window 0 (`main_v126`, an input): its array ends as the region left it. -/
theorem reg8_arr0 (c : Dev nD) :
    W58 m ρ c (Proc.devRef .tc (Pipeline.arrRef spec8 0)) = (dat8 (V18 m ρ) c).arrAt 0 cfg8.N :=
  (carry19 m ρ c main_v126 (by decide)).trans (W19_arr m ρ c 0)
/-- Region 8's window 1 (`main_v129`, an input): its array ends as the region left it. -/
theorem reg8_arr1 (c : Dev nD) :
    W58 m ρ c (Proc.devRef .tc (Pipeline.arrRef spec8 1)) = (dat8 (V18 m ρ) c).arrAt 1 cfg8.N :=
  (carry19 m ρ c main_v129 (by decide)).trans (W19_arr m ρ c 1)
/-- Region 8's window 2 (`main_v130`, an output): its array ends as the region left it. -/
theorem reg8_arr2 (c : Dev nD) :
    W58 m ρ c (Proc.devRef .tc (Pipeline.arrRef spec8 2)) = (dat8 (V18 m ρ) c).arrAt 2 cfg8.N :=
  (carry19 m ρ c main_v130 (by decide)).trans (W19_arr m ρ c 2)
/-- What region 8 found in its input window 0's array (`main_v126`) is what the end still holds there. -/
theorem reg8_in0 (c : Dev nD) :
    V18 m ρ c (Pipeline.arrRef spec8 0) = W58 m ρ c (Proc.devRef .tc (Pipeline.arrRef spec8 0)) :=
  (carry18 m ρ c main_v126 (by decide)).symm
/-- What region 8 found in its input window 1's array (`main_v129`) is what the end still holds there. -/
theorem reg8_in1 (c : Dev nD) :
    V18 m ρ c (Pipeline.arrRef spec8 1) = W58 m ρ c (Proc.devRef .tc (Pipeline.arrRef spec8 1)) :=
  (carry18 m ρ c main_v129 (by decide)).symm
/-- Region 9's window 0 (`main_v130`, an input): its array ends as the region left it. -/
theorem reg9_arr0 (c : Dev nD) :
    W58 m ρ c (Proc.devRef .tc (Pipeline.arrRef spec9 0)) = (dat9 (V19 m ρ) c).arrAt 0 cfg9.N :=
  (carry20 m ρ c main_v130 (by decide)).trans (W20_arr m ρ c 0)
/-- Region 9's window 1 (`main_v131_0`, an output): its array ends as the region left it. -/
theorem reg9_arr1 (c : Dev nD) :
    W58 m ρ c (Proc.devRef .tc (Pipeline.arrRef spec9 1)) = (dat9 (V19 m ρ) c).arrAt 1 cfg9.N :=
  (carry20 m ρ c main_v131_0 (by decide)).trans (W20_arr m ρ c 1)
/-- Region 9's window 2 (`main_v131_1`, an output): its array ends as the region left it. -/
theorem reg9_arr2 (c : Dev nD) :
    W58 m ρ c (Proc.devRef .tc (Pipeline.arrRef spec9 2)) = (dat9 (V19 m ρ) c).arrAt 2 cfg9.N :=
  (carry20 m ρ c main_v131_1 (by decide)).trans (W20_arr m ρ c 2)
/-- What region 9 found in its input window 0's array (`main_v130`) is what the end still holds there. -/
theorem reg9_in0 (c : Dev nD) :
    V19 m ρ c (Pipeline.arrRef spec9 0) = W58 m ρ c (Proc.devRef .tc (Pipeline.arrRef spec9 0)) :=
  (carry19 m ρ c main_v130 (by decide)).symm
/-- Region 10's window 0 (`main_v130`, an input): its array ends as the region left it. -/
theorem reg10_arr0 (c : Dev nD) :
    W58 m ρ c (Proc.devRef .tc (Pipeline.arrRef spec10 0)) = (dat10 (V21 m ρ) c).arrAt 0 cfg10.N :=
  (carry22 m ρ c main_v130 (by decide)).trans (W22_arr m ρ c 0)
/-- Region 10's window 1 (`main_v133`, an input): its array ends as the region left it. -/
theorem reg10_arr1 (c : Dev nD) :
    W58 m ρ c (Proc.devRef .tc (Pipeline.arrRef spec10 1)) = (dat10 (V21 m ρ) c).arrAt 1 cfg10.N :=
  (carry22 m ρ c main_v133 (by decide)).trans (W22_arr m ρ c 1)
/-- Region 10's window 2 (`main_v137`, an input): its array ends as the region left it. -/
theorem reg10_arr2 (c : Dev nD) :
    W58 m ρ c (Proc.devRef .tc (Pipeline.arrRef spec10 2)) = (dat10 (V21 m ρ) c).arrAt 2 cfg10.N :=
  (carry22 m ρ c main_v137 (by decide)).trans (W22_arr m ρ c 2)
/-- Region 10's window 3 (`main_v139`, an input): its array ends as the region left it. -/
theorem reg10_arr3 (c : Dev nD) :
    W58 m ρ c (Proc.devRef .tc (Pipeline.arrRef spec10 3)) = (dat10 (V21 m ρ) c).arrAt 3 cfg10.N :=
  (carry22 m ρ c main_v139 (by decide)).trans (W22_arr m ρ c 3)
/-- Region 10's window 4 (`main_v140`, an output): its array ends as the region left it. -/
theorem reg10_arr4 (c : Dev nD) :
    W58 m ρ c (Proc.devRef .tc (Pipeline.arrRef spec10 4)) = (dat10 (V21 m ρ) c).arrAt 4 cfg10.N :=
  (carry22 m ρ c main_v140 (by decide)).trans (W22_arr m ρ c 4)
/-- What region 10 found in its input window 0's array (`main_v130`) is what the end still holds there. -/
theorem reg10_in0 (c : Dev nD) :
    V21 m ρ c (Pipeline.arrRef spec10 0) = W58 m ρ c (Proc.devRef .tc (Pipeline.arrRef spec10 0)) :=
  (carry21 m ρ c main_v130 (by decide)).symm
/-- What region 10 found in its input window 1's array (`main_v133`) is what the end still holds there. -/
theorem reg10_in1 (c : Dev nD) :
    V21 m ρ c (Pipeline.arrRef spec10 1) = W58 m ρ c (Proc.devRef .tc (Pipeline.arrRef spec10 1)) :=
  (carry21 m ρ c main_v133 (by decide)).symm
/-- What region 10 found in its input window 2's array (`main_v137`) is what the end still holds there. -/
theorem reg10_in2 (c : Dev nD) :
    V21 m ρ c (Pipeline.arrRef spec10 2) = W58 m ρ c (Proc.devRef .tc (Pipeline.arrRef spec10 2)) :=
  (carry21 m ρ c main_v137 (by decide)).symm
/-- What region 10 found in its input window 3's array (`main_v139`) is what the end still holds there. -/
theorem reg10_in3 (c : Dev nD) :
    V21 m ρ c (Pipeline.arrRef spec10 3) = W58 m ρ c (Proc.devRef .tc (Pipeline.arrRef spec10 3)) :=
  (carry21 m ρ c main_v139 (by decide)).symm
/-- Region 11's window 0 (`main_v186`, an input): its array ends as the region left it. -/
theorem reg11_arr0 (c : Dev nD) :
    W58 m ρ c (Proc.devRef .tc (Pipeline.arrRef spec11 0)) = (dat11 (V25 m ρ) c).arrAt 0 cfg11.N :=
  (carry26 m ρ c main_v186 (by decide)).trans (W26_arr m ρ c 0)
/-- Region 11's window 1 (`main_v189`, an input): its array ends as the region left it. -/
theorem reg11_arr1 (c : Dev nD) :
    W58 m ρ c (Proc.devRef .tc (Pipeline.arrRef spec11 1)) = (dat11 (V25 m ρ) c).arrAt 1 cfg11.N :=
  (carry26 m ρ c main_v189 (by decide)).trans (W26_arr m ρ c 1)
/-- Region 11's window 2 (`main_v190`, an output): its array ends as the region left it. -/
theorem reg11_arr2 (c : Dev nD) :
    W58 m ρ c (Proc.devRef .tc (Pipeline.arrRef spec11 2)) = (dat11 (V25 m ρ) c).arrAt 2 cfg11.N :=
  (carry26 m ρ c main_v190 (by decide)).trans (W26_arr m ρ c 2)
/-- What region 11 found in its input window 0's array (`main_v186`) is what the end still holds there. -/
theorem reg11_in0 (c : Dev nD) :
    V25 m ρ c (Pipeline.arrRef spec11 0) = W58 m ρ c (Proc.devRef .tc (Pipeline.arrRef spec11 0)) :=
  (carry25 m ρ c main_v186 (by decide)).symm
/-- What region 11 found in its input window 1's array (`main_v189`) is what the end still holds there. -/
theorem reg11_in1 (c : Dev nD) :
    V25 m ρ c (Pipeline.arrRef spec11 1) = W58 m ρ c (Proc.devRef .tc (Pipeline.arrRef spec11 1)) :=
  (carry25 m ρ c main_v189 (by decide)).symm
/-- Region 12's window 0 (`main_v287`, an input): its array ends as the region left it. -/
theorem reg12_arr0 (c : Dev nD) :
    W58 m ρ c (Proc.devRef .tc (Pipeline.arrRef spec12 0)) = (dat12 (V29 m ρ) c).arrAt 0 cfg12.N :=
  (carry30 m ρ c main_v287 (by decide)).trans (W30_arr m ρ c 0)
/-- Region 12's window 1 (`main_v288_0`, an output): its array ends as the region left it. -/
theorem reg12_arr1 (c : Dev nD) :
    W58 m ρ c (Proc.devRef .tc (Pipeline.arrRef spec12 1)) = (dat12 (V29 m ρ) c).arrAt 1 cfg12.N :=
  (carry30 m ρ c main_v288_0 (by decide)).trans (W30_arr m ρ c 1)
/-- Region 12's window 2 (`main_v288_1`, an output): its array ends as the region left it. -/
theorem reg12_arr2 (c : Dev nD) :
    W58 m ρ c (Proc.devRef .tc (Pipeline.arrRef spec12 2)) = (dat12 (V29 m ρ) c).arrAt 2 cfg12.N :=
  (carry30 m ρ c main_v288_1 (by decide)).trans (W30_arr m ρ c 2)
/-- What region 12 found in its input window 0's array (`main_v287`) is what the end still holds there. -/
theorem reg12_in0 (c : Dev nD) :
    V29 m ρ c (Pipeline.arrRef spec12 0) = W58 m ρ c (Proc.devRef .tc (Pipeline.arrRef spec12 0)) :=
  (carry29 m ρ c main_v287 (by decide)).symm
/-- Region 13's window 0 (`main_v287`, an input): its array ends as the region left it. -/
theorem reg13_arr0 (c : Dev nD) :
    W58 m ρ c (Proc.devRef .tc (Pipeline.arrRef spec13 0)) = (dat13 (V31 m ρ) c).arrAt 0 cfg13.N :=
  (carry32 m ρ c main_v287 (by decide)).trans (W32_arr m ρ c 0)
/-- Region 13's window 1 (`main_v290`, an input): its array ends as the region left it. -/
theorem reg13_arr1 (c : Dev nD) :
    W58 m ρ c (Proc.devRef .tc (Pipeline.arrRef spec13 1)) = (dat13 (V31 m ρ) c).arrAt 1 cfg13.N :=
  (carry32 m ρ c main_v290 (by decide)).trans (W32_arr m ρ c 1)
/-- Region 13's window 2 (`main_v294`, an input): its array ends as the region left it. -/
theorem reg13_arr2 (c : Dev nD) :
    W58 m ρ c (Proc.devRef .tc (Pipeline.arrRef spec13 2)) = (dat13 (V31 m ρ) c).arrAt 2 cfg13.N :=
  (carry32 m ρ c main_v294 (by decide)).trans (W32_arr m ρ c 2)
/-- Region 13's window 3 (`main_arg8`, an input): its array ends as the region left it. -/
theorem reg13_arr3 (c : Dev nD) :
    W58 m ρ c (Proc.devRef .tc (Pipeline.arrRef spec13 3)) = (dat13 (V31 m ρ) c).arrAt 3 cfg13.N :=
  (carry32 m ρ c main_arg8 (by decide)).trans (W32_arr m ρ c 3)
/-- Region 13's window 4 (`main_v295`, an output): its array ends as the region left it. -/
theorem reg13_arr4 (c : Dev nD) :
    W58 m ρ c (Proc.devRef .tc (Pipeline.arrRef spec13 4)) = (dat13 (V31 m ρ) c).arrAt 4 cfg13.N :=
  (carry32 m ρ c main_v295 (by decide)).trans (W32_arr m ρ c 4)
/-- What region 13 found in its input window 0's array (`main_v287`) is what the end still holds there. -/
theorem reg13_in0 (c : Dev nD) :
    V31 m ρ c (Pipeline.arrRef spec13 0) = W58 m ρ c (Proc.devRef .tc (Pipeline.arrRef spec13 0)) :=
  (carry31 m ρ c main_v287 (by decide)).symm
/-- What region 13 found in its input window 1's array (`main_v290`) is what the end still holds there. -/
theorem reg13_in1 (c : Dev nD) :
    V31 m ρ c (Pipeline.arrRef spec13 1) = W58 m ρ c (Proc.devRef .tc (Pipeline.arrRef spec13 1)) :=
  (carry31 m ρ c main_v290 (by decide)).symm
/-- What region 13 found in its input window 2's array (`main_v294`) is what the end still holds there. -/
theorem reg13_in2 (c : Dev nD) :
    V31 m ρ c (Pipeline.arrRef spec13 2) = W58 m ρ c (Proc.devRef .tc (Pipeline.arrRef spec13 2)) :=
  (carry31 m ρ c main_v294 (by decide)).symm
/-- What region 13 found in its input window 3's array (`main_arg8`) is what the end still holds there. -/
theorem reg13_in3 (c : Dev nD) :
    V31 m ρ c (Pipeline.arrRef spec13 3) = W58 m ρ c (Proc.devRef .tc (Pipeline.arrRef spec13 3)) :=
  (carry31 m ρ c main_arg8 (by decide)).symm
/-- Region 14's window 0 (`main_v342`, an input): its array ends as the region left it. -/
theorem reg14_arr0 (c : Dev nD) :
    W58 m ρ c (Proc.devRef .tc (Pipeline.arrRef spec14 0)) = (dat14 (V35 m ρ) c).arrAt 0 cfg14.N :=
  (carry36 m ρ c main_v342 (by decide)).trans (W36_arr m ρ c 0)
/-- Region 14's window 1 (`main_v343`, an input): its array ends as the region left it. -/
theorem reg14_arr1 (c : Dev nD) :
    W58 m ρ c (Proc.devRef .tc (Pipeline.arrRef spec14 1)) = (dat14 (V35 m ρ) c).arrAt 1 cfg14.N :=
  (carry36 m ρ c main_v343 (by decide)).trans (W36_arr m ρ c 1)
/-- Region 14's window 2 (`main_v344`, an output): its array ends as the region left it. -/
theorem reg14_arr2 (c : Dev nD) :
    W58 m ρ c (Proc.devRef .tc (Pipeline.arrRef spec14 2)) = (dat14 (V35 m ρ) c).arrAt 2 cfg14.N :=
  (carry36 m ρ c main_v344 (by decide)).trans (W36_arr m ρ c 2)
/-- What region 14 found in its input window 0's array (`main_v342`) is what the end still holds there. -/
theorem reg14_in0 (c : Dev nD) :
    V35 m ρ c (Pipeline.arrRef spec14 0) = W58 m ρ c (Proc.devRef .tc (Pipeline.arrRef spec14 0)) :=
  (carry35 m ρ c main_v342 (by decide)).symm
/-- What region 14 found in its input window 1's array (`main_v343`) is what the end still holds there. -/
theorem reg14_in1 (c : Dev nD) :
    V35 m ρ c (Pipeline.arrRef spec14 1) = W58 m ρ c (Proc.devRef .tc (Pipeline.arrRef spec14 1)) :=
  (carry35 m ρ c main_v343 (by decide)).symm
/-- Region 15's window 0 (`main_v350`, an input): its array ends as the region left it. -/
theorem reg15_arr0 (c : Dev nD) :
    W58 m ρ c (Proc.devRef .tc (Pipeline.arrRef spec15 0)) = (dat15 (V37 m ρ) c).arrAt 0 cfg15.N :=
  (carry38 m ρ c main_v350 (by decide)).trans (W38_arr m ρ c 0)
/-- Region 15's window 1 (`main_v351_0`, an output): its array ends as the region left it. -/
theorem reg15_arr1 (c : Dev nD) :
    W58 m ρ c (Proc.devRef .tc (Pipeline.arrRef spec15 1)) = (dat15 (V37 m ρ) c).arrAt 1 cfg15.N :=
  (carry38 m ρ c main_v351_0 (by decide)).trans (W38_arr m ρ c 1)
/-- Region 15's window 2 (`main_v351_1`, an output): its array ends as the region left it. -/
theorem reg15_arr2 (c : Dev nD) :
    W58 m ρ c (Proc.devRef .tc (Pipeline.arrRef spec15 2)) = (dat15 (V37 m ρ) c).arrAt 2 cfg15.N :=
  (carry38 m ρ c main_v351_1 (by decide)).trans (W38_arr m ρ c 2)
/-- What region 15 found in its input window 0's array (`main_v350`) is what the end still holds there. -/
theorem reg15_in0 (c : Dev nD) :
    V37 m ρ c (Pipeline.arrRef spec15 0) = W58 m ρ c (Proc.devRef .tc (Pipeline.arrRef spec15 0)) :=
  (carry37 m ρ c main_v350 (by decide)).symm
/-- Region 16's window 0 (`main_v350`, an input): its array ends as the region left it. -/
theorem reg16_arr0 (c : Dev nD) :
    W58 m ρ c (Proc.devRef .tc (Pipeline.arrRef spec16 0)) = (dat16 (V39 m ρ) c).arrAt 0 cfg16.N :=
  (carry40 m ρ c main_v350 (by decide)).trans (W40_arr m ρ c 0)
/-- Region 16's window 1 (`main_v353`, an input): its array ends as the region left it. -/
theorem reg16_arr1 (c : Dev nD) :
    W58 m ρ c (Proc.devRef .tc (Pipeline.arrRef spec16 1)) = (dat16 (V39 m ρ) c).arrAt 1 cfg16.N :=
  (carry40 m ρ c main_v353 (by decide)).trans (W40_arr m ρ c 1)
/-- Region 16's window 2 (`main_v357`, an input): its array ends as the region left it. -/
theorem reg16_arr2 (c : Dev nD) :
    W58 m ρ c (Proc.devRef .tc (Pipeline.arrRef spec16 2)) = (dat16 (V39 m ρ) c).arrAt 2 cfg16.N :=
  (carry40 m ρ c main_v357 (by decide)).trans (W40_arr m ρ c 2)
/-- Region 16's window 3 (`main_arg10`, an input): its array ends as the region left it. -/
theorem reg16_arr3 (c : Dev nD) :
    W58 m ρ c (Proc.devRef .tc (Pipeline.arrRef spec16 3)) = (dat16 (V39 m ρ) c).arrAt 3 cfg16.N :=
  (carry40 m ρ c main_arg10 (by decide)).trans (W40_arr m ρ c 3)
/-- Region 16's window 4 (`main_v358`, an output): its array ends as the region left it. -/
theorem reg16_arr4 (c : Dev nD) :
    W58 m ρ c (Proc.devRef .tc (Pipeline.arrRef spec16 4)) = (dat16 (V39 m ρ) c).arrAt 4 cfg16.N :=
  (carry40 m ρ c main_v358 (by decide)).trans (W40_arr m ρ c 4)
/-- What region 16 found in its input window 0's array (`main_v350`) is what the end still holds there. -/
theorem reg16_in0 (c : Dev nD) :
    V39 m ρ c (Pipeline.arrRef spec16 0) = W58 m ρ c (Proc.devRef .tc (Pipeline.arrRef spec16 0)) :=
  (carry39 m ρ c main_v350 (by decide)).symm
/-- What region 16 found in its input window 1's array (`main_v353`) is what the end still holds there. -/
theorem reg16_in1 (c : Dev nD) :
    V39 m ρ c (Pipeline.arrRef spec16 1) = W58 m ρ c (Proc.devRef .tc (Pipeline.arrRef spec16 1)) :=
  (carry39 m ρ c main_v353 (by decide)).symm
/-- What region 16 found in its input window 2's array (`main_v357`) is what the end still holds there. -/
theorem reg16_in2 (c : Dev nD) :
    V39 m ρ c (Pipeline.arrRef spec16 2) = W58 m ρ c (Proc.devRef .tc (Pipeline.arrRef spec16 2)) :=
  (carry39 m ρ c main_v357 (by decide)).symm
/-- What region 16 found in its input window 3's array (`main_arg10`) is what the end still holds there. -/
theorem reg16_in3 (c : Dev nD) :
    V39 m ρ c (Pipeline.arrRef spec16 3) = W58 m ρ c (Proc.devRef .tc (Pipeline.arrRef spec16 3)) :=
  (carry39 m ρ c main_arg10 (by decide)).symm
/-- Region 17's window 0 (`main_v405`, an input): its array ends as the region left it. -/
theorem reg17_arr0 (c : Dev nD) :
    W58 m ρ c (Proc.devRef .tc (Pipeline.arrRef spec17 0)) = (dat17 (V43 m ρ) c).arrAt 0 cfg17.N :=
  (carry44 m ρ c main_v405 (by decide)).trans (W44_arr m ρ c 0)
/-- Region 17's window 1 (`main_v406`, an input): its array ends as the region left it. -/
theorem reg17_arr1 (c : Dev nD) :
    W58 m ρ c (Proc.devRef .tc (Pipeline.arrRef spec17 1)) = (dat17 (V43 m ρ) c).arrAt 1 cfg17.N :=
  (carry44 m ρ c main_v406 (by decide)).trans (W44_arr m ρ c 1)
/-- Region 17's window 2 (`main_v407`, an output): its array ends as the region left it. -/
theorem reg17_arr2 (c : Dev nD) :
    W58 m ρ c (Proc.devRef .tc (Pipeline.arrRef spec17 2)) = (dat17 (V43 m ρ) c).arrAt 2 cfg17.N :=
  (carry44 m ρ c main_v407 (by decide)).trans (W44_arr m ρ c 2)
/-- What region 17 found in its input window 0's array (`main_v405`) is what the end still holds there. -/
theorem reg17_in0 (c : Dev nD) :
    V43 m ρ c (Pipeline.arrRef spec17 0) = W58 m ρ c (Proc.devRef .tc (Pipeline.arrRef spec17 0)) :=
  (carry43 m ρ c main_v405 (by decide)).symm
/-- What region 17 found in its input window 1's array (`main_v406`) is what the end still holds there. -/
theorem reg17_in1 (c : Dev nD) :
    V43 m ρ c (Pipeline.arrRef spec17 1) = W58 m ρ c (Proc.devRef .tc (Pipeline.arrRef spec17 1)) :=
  (carry43 m ρ c main_v406 (by decide)).symm

end Cert.KernelIdeal.KCarry
-- ==== Proof.RefRun.lean ====
/- The reference program's run: @main is the straight line of its windows' operations, and from any launch
   memory with zero counters every weakly fair execution terminates with every TensorCore buffer at the fold of the
   windows' operations over its launch contents; the arguments, which no window writes, keep theirs. -/
import proofs.«407945_j8993661518245_1_alg».proof.Proof.RefWin
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- @main runs its windows in order, and each window is its list's straight line: the concatenation's line is the
    windows' lines run one after the other. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c]
  rfl

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- An operation of the whole line lies in one of the windows: it touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h]

/-- Likewise it allocates no buffer: every operation determines its results. -/
theorem ops_fresh : ∀ op ∈ (ops : List (HloOp τ sig (Elt F))), op.fresh = ∅ := fun op h => by
  simp only [ops, List.mem_append] at h
  rcases h with h | h | h | h | h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h, List.forall_iff_forall_mem.mp ops12_fresh op h, List.forall_iff_forall_mem.mp ops13_fresh op h]

/-- On the device, for any float values, from any memory with zero counters: every weakly fair execution of @main
    terminates, and every TensorCore buffer ends at the windows' folds over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R14 m c (Proc.devRef .tc b) :=
  (θ_run defs _ _).mono (fun _ h c b => (h c b).trans (congrFun (after_ops m c) _))
    (run_seq scopedRefs_eq scopedSems_eq defs main (fun _ => ops) main_eq (fun _ => ops_sub) m ρ (fun _ => ops_fresh))

/-! ## The arguments keep their launch contents

No window writes an argument's buffer, so at the end it holds what the launch gave it. -/

theorem R14_main_arg0 (m : (ℓ : Loc nD τ sig) → Buf (Elt F) ℓ) (c : Dev nD) :
    R14 m c (Proc.devRef .tc main_arg0) = m ((c.tc : Thread nD τ).loc main_arg0) :=
  (carry0 m c main_arg0 (by decide)).trans rfl

theorem R14_main_arg1 (m : (ℓ : Loc nD τ sig) → Buf (Elt F) ℓ) (c : Dev nD) :
    R14 m c (Proc.devRef .tc main_arg1) = m ((c.tc : Thread nD τ).loc main_arg1) :=
  (carry0 m c main_arg1 (by decide)).trans rfl

theorem R14_main_arg2 (m : (ℓ : Loc nD τ sig) → Buf (Elt F) ℓ) (c : Dev nD) :
    R14 m c (Proc.devRef .tc main_arg2) = m ((c.tc : Thread nD τ).loc main_arg2) :=
  (carry0 m c main_arg2 (by decide)).trans rfl

theorem R14_main_arg3 (m : (ℓ : Loc nD τ sig) → Buf (Elt F) ℓ) (c : Dev nD) :
    R14 m c (Proc.devRef .tc main_arg3) = m ((c.tc : Thread nD τ).loc main_arg3) :=
  (carry0 m c main_arg3 (by decide)).trans rfl

theorem R14_main_arg4 (m : (ℓ : Loc nD τ sig) → Buf (Elt F) ℓ) (c : Dev nD) :
    R14 m c (Proc.devRef .tc main_arg4) = m ((c.tc : Thread nD τ).loc main_arg4) :=
  (carry0 m c main_arg4 (by decide)).trans rfl

theorem R14_main_arg5 (m : (ℓ : Loc nD τ sig) → Buf (Elt F) ℓ) (c : Dev nD) :
    R14 m c (Proc.devRef .tc main_arg5) = m ((c.tc : Thread nD τ).loc main_arg5) :=
  (carry0 m c main_arg5 (by decide)).trans rfl

theorem R14_main_arg6 (m : (ℓ : Loc nD τ sig) → Buf (Elt F) ℓ) (c : Dev nD) :
    R14 m c (Proc.devRef .tc main_arg6) = m ((c.tc : Thread nD τ).loc main_arg6) :=
  (carry0 m c main_arg6 (by decide)).trans rfl

theorem R14_main_arg7 (m : (ℓ : Loc nD τ sig) → Buf (Elt F) ℓ) (c : Dev nD) :
    R14 m c (Proc.devRef .tc main_arg7) = m ((c.tc : Thread nD τ).loc main_arg7) :=
  (carry0 m c main_arg7 (by decide)).trans rfl

theorem R14_main_arg8 (m : (ℓ : Loc nD τ sig) → Buf (Elt F) ℓ) (c : Dev nD) :
    R14 m c (Proc.devRef .tc main_arg8) = m ((c.tc : Thread nD τ).loc main_arg8) :=
  (carry0 m c main_arg8 (by decide)).trans rfl

theorem R14_main_arg9 (m : (ℓ : Loc nD τ sig) → Buf (Elt F) ℓ) (c : Dev nD) :
    R14 m c (Proc.devRef .tc main_arg9) = m ((c.tc : Thread nD τ).loc main_arg9) :=
  (carry0 m c main_arg9 (by decide)).trans rfl

theorem R14_main_arg10 (m : (ℓ : Loc nD τ sig) → Buf (Elt F) ℓ) (c : Dev nD) :
    R14 m c (Proc.devRef .tc main_arg10) = m ((c.tc : Thread nD τ).loc main_arg10) :=
  (carry0 m c main_arg10 (by decide)).trans rfl

theorem R14_main_arg11 (m : (ℓ : Loc nD τ sig) → Buf (Elt F) ℓ) (c : Dev nD) :
    R14 m c (Proc.devRef .tc main_arg11) = m ((c.tc : Thread nD τ).loc main_arg11) :=
  (carry0 m c main_arg11 (by decide)).trans rfl

theorem R14_main_arg12 (m : (ℓ : Loc nD τ sig) → Buf (Elt F) ℓ) (c : Dev nD) :
    R14 m c (Proc.devRef .tc main_arg12) = m ((c.tc : Thread nD τ).loc main_arg12) :=
  (carry0 m c main_arg12 (by decide)).trans rfl

theorem R14_main_arg13 (m : (ℓ : Loc nD τ sig) → Buf (Elt F) ℓ) (c : Dev nD) :
    R14 m c (Proc.devRef .tc main_arg13) = m ((c.tc : Thread nD τ).loc main_arg13) :=
  (carry0 m c main_arg13 (by decide)).trans rfl

theorem R14_main_arg14 (m : (ℓ : Loc nD τ sig) → Buf (Elt F) ℓ) (c : Dev nD) :
    R14 m c (Proc.devRef .tc main_arg14) = m ((c.tc : Thread nD τ).loc main_arg14) :=
  (carry0 m c main_arg14 (by decide)).trans rfl

theorem R14_main_arg15 (m : (ℓ : Loc nD τ sig) → Buf (Elt F) ℓ) (c : Dev nD) :
    R14 m c (Proc.devRef .tc main_arg15) = m ((c.tc : Thread nD τ).loc main_arg15) :=
  (carry0 m c main_arg15 (by decide)).trans rfl

theorem R14_main_arg16 (m : (ℓ : Loc nD τ sig) → Buf (Elt F) ℓ) (c : Dev nD) :
    R14 m c (Proc.devRef .tc main_arg16) = m ((c.tc : Thread nD τ).loc main_arg16) :=
  (carry0 m c main_arg16 (by decide)).trans rfl

theorem R14_main_arg17 (m : (ℓ : Loc nD τ sig) → Buf (Elt F) ℓ) (c : Dev nD) :
    R14 m c (Proc.devRef .tc main_arg17) = m ((c.tc : Thread nD τ).loc main_arg17) :=
  (carry0 m c main_arg17 (by decide)).trans rfl

theorem R14_main_arg18 (m : (ℓ : Loc nD τ sig) → Buf (Elt F) ℓ) (c : Dev nD) :
    R14 m c (Proc.devRef .tc main_arg18) = m ((c.tc : Thread nD τ).loc main_arg18) :=
  (carry0 m c main_arg18 (by decide)).trans rfl

theorem R14_main_arg19 (m : (ℓ : Loc nD τ sig) → Buf (Elt F) ℓ) (c : Dev nD) :
    R14 m c (Proc.devRef .tc main_arg19) = m ((c.tc : Thread nD τ).loc main_arg19) :=
  (carry0 m c main_arg19 (by decide)).trans rfl

theorem R14_main_arg20 (m : (ℓ : Loc nD τ sig) → Buf (Elt F) ℓ) (c : Dev nD) :
    R14 m c (Proc.devRef .tc main_arg20) = m ((c.tc : Thread nD τ).loc main_arg20) :=
  (carry0 m c main_arg20 (by decide)).trans rfl

theorem R14_main_arg21 (m : (ℓ : Loc nD τ sig) → Buf (Elt F) ℓ) (c : Dev nD) :
    R14 m c (Proc.devRef .tc main_arg21) = m ((c.tc : Thread nD τ).loc main_arg21) :=
  (carry0 m c main_arg21 (by decide)).trans rfl

theorem R14_main_arg22 (m : (ℓ : Loc nD τ sig) → Buf (Elt F) ℓ) (c : Dev nD) :
    R14 m c (Proc.devRef .tc main_arg22) = m ((c.tc : Thread nD τ).loc main_arg22) :=
  (carry0 m c main_arg22 (by decide)).trans rfl

theorem R14_main_arg23 (m : (ℓ : Loc nD τ sig) → Buf (Elt F) ℓ) (c : Dev nD) :
    R14 m c (Proc.devRef .tc main_arg23) = m ((c.tc : Thread nD τ).loc main_arg23) :=
  (carry0 m c main_arg23 (by decide)).trans rfl

theorem R14_main_arg24 (m : (ℓ : Loc nD τ sig) → Buf (Elt F) ℓ) (c : Dev nD) :
    R14 m c (Proc.devRef .tc main_arg24) = m ((c.tc : Thread nD τ).loc main_arg24) :=
  (carry0 m c main_arg24 (by decide)).trans rfl

theorem R14_main_arg25 (m : (ℓ : Loc nD τ sig) → Buf (Elt F) ℓ) (c : Dev nD) :
    R14 m c (Proc.devRef .tc main_arg25) = m ((c.tc : Thread nD τ).loc main_arg25) :=
  (carry0 m c main_arg25 (by decide)).trans rfl

theorem R14_main_arg26 (m : (ℓ : Loc nD τ sig) → Buf (Elt F) ℓ) (c : Dev nD) :
    R14 m c (Proc.devRef .tc main_arg26) = m ((c.tc : Thread nD τ).loc main_arg26) :=
  (carry0 m c main_arg26 (by decide)).trans rfl

end Cert.ReferenceIdeal.RefRun

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.Iface.lean ====
/-
  The interfaces between the modules of this certificate. The kernel program and the reference each end with every
  buffer at a fold of their operations over the launch memory (`Kf`, `Rf`: a buffer's FINAL contents; every buffer is
  written once, so its final contents are what its writer left). A boundary predicate says that one intermediate array
  of the network — the hidden state after a layer, an attention table, a pooled feature — is the same function in the two
  programs, and (where a later variance needs it) that all its entries are real numbers.
-/
import proofs.«407945_j8993661518245_1_alg».proof.Proof.FrameKI
import proofs.«407945_j8993661518245_1_alg».proof.Proof.RefOps
import proofs.«407945_j8993661518245_1_alg».proof.Proof.LibFinite

noncomputable section

namespace Cert.Iface

open Idealize.ShloMosaic Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The kernel program's final contents of a buffer. -/
abbrev Kf (b : Ref Cert.KernelIdeal.sig .tc) := Cert.KernelIdeal.GenP.W58 (F := Ideal) m ρ c (Proc.devRef .tc b)
/-- The reference's final contents of a buffer. -/
abbrev Rf (b : Ref Cert.ReferenceIdeal.sig .tc) := Cert.ReferenceIdeal.RefRun.R14 (F := Ideal) m' c (Proc.devRef .tc b)
/-- Every entry is a real number. -/
def AllFin {S : Shape} (v : S.Idx → EReal) : Prop := ∀ i, Cert.LibFinite.IsFin (v i)

/-- x after its first normalize-and-project: the kernel's main_v7 and the reference's main_v21 hold the same array, all of whose entries are real. -/
def T0 : Prop := (Kf m ρ c Cert.KernelIdeal.main_v7 : Cert.KernelIdeal.S50000x128.Idx → EReal) = Rf m' c Cert.ReferenceIdeal.main_v21
    ∧ AllFin (Kf m ρ c Cert.KernelIdeal.main_v7 : Cert.KernelIdeal.S50000x128.Idx → EReal)

/-- the hidden state before the first graph layer: the kernel's main_v10 and the reference's main_v22 hold the same array, all of whose entries are real. -/
def H0 : Prop := (Kf m ρ c Cert.KernelIdeal.main_v10 : Cert.KernelIdeal.S50000x128.Idx → EReal) = Rf m' c Cert.ReferenceIdeal.main_v22
    ∧ AllFin (Kf m ρ c Cert.KernelIdeal.main_v10 : Cert.KernelIdeal.S50000x128.Idx → EReal)

/-- layer 1's normalized and projected state: the kernel's main_v20 and the reference's main_v48 hold the same array, all of whose entries are real. -/
def T1 : Prop := (Kf m ρ c Cert.KernelIdeal.main_v20 : Cert.KernelIdeal.S50000x128.Idx → EReal) = Rf m' c Cert.ReferenceIdeal.main_v48
    ∧ AllFin (Kf m ρ c Cert.KernelIdeal.main_v20 : Cert.KernelIdeal.S50000x128.Idx → EReal)

/-- layer 1's aggregate over the graph, before the bias: the kernel's main_v66 and the reference's main_v94 hold the same array, all of whose entries are real. -/
def Agg1 : Prop := (Kf m ρ c Cert.KernelIdeal.main_v66 : Cert.KernelIdeal.S50000x128.Idx → EReal) = Rf m' c Cert.ReferenceIdeal.main_v94
    ∧ AllFin (Kf m ρ c Cert.KernelIdeal.main_v66 : Cert.KernelIdeal.S50000x128.Idx → EReal)

/-- the hidden state after layer 1: the kernel's main_v70 and the reference's main_v98 hold the same array, all of whose entries are real. -/
def H1 : Prop := (Kf m ρ c Cert.KernelIdeal.main_v70 : Cert.KernelIdeal.S50000x128.Idx → EReal) = Rf m' c Cert.ReferenceIdeal.main_v98
    ∧ AllFin (Kf m ρ c Cert.KernelIdeal.main_v70 : Cert.KernelIdeal.S50000x128.Idx → EReal)

/-- layer 2's normalized and projected state: the kernel's main_v80 and the reference's main_v124 hold the same array, all of whose entries are real. -/
def T2 : Prop := (Kf m ρ c Cert.KernelIdeal.main_v80 : Cert.KernelIdeal.S50000x128.Idx → EReal) = Rf m' c Cert.ReferenceIdeal.main_v124
    ∧ AllFin (Kf m ρ c Cert.KernelIdeal.main_v80 : Cert.KernelIdeal.S50000x128.Idx → EReal)

/-- layer 2's aggregate: the kernel's main_v126 and the reference's main_v170 hold the same array, all of whose entries are real. -/
def Agg2 : Prop := (Kf m ρ c Cert.KernelIdeal.main_v126 : Cert.KernelIdeal.S50000x128.Idx → EReal) = Rf m' c Cert.ReferenceIdeal.main_v170
    ∧ AllFin (Kf m ρ c Cert.KernelIdeal.main_v126 : Cert.KernelIdeal.S50000x128.Idx → EReal)

/-- the hidden state after layer 2: the kernel's main_v130 and the reference's main_v174 hold the same array, all of whose entries are real. -/
def H2 : Prop := (Kf m ρ c Cert.KernelIdeal.main_v130 : Cert.KernelIdeal.S50000x128.Idx → EReal) = Rf m' c Cert.ReferenceIdeal.main_v174
    ∧ AllFin (Kf m ρ c Cert.KernelIdeal.main_v130 : Cert.KernelIdeal.S50000x128.Idx → EReal)

/-- layer 3's normalized and projected state: the kernel's main_v140 and the reference's main_v200 hold the same array, all of whose entries are real. -/
def T3 : Prop := (Kf m ρ c Cert.KernelIdeal.main_v140 : Cert.KernelIdeal.S50000x128.Idx → EReal) = Rf m' c Cert.ReferenceIdeal.main_v200
    ∧ AllFin (Kf m ρ c Cert.KernelIdeal.main_v140 : Cert.KernelIdeal.S50000x128.Idx → EReal)

/-- layer 3's aggregate: the kernel's main_v186 and the reference's main_v246 hold the same array, all of whose entries are real. -/
def Agg3 : Prop := (Kf m ρ c Cert.KernelIdeal.main_v186 : Cert.KernelIdeal.S50000x128.Idx → EReal) = Rf m' c Cert.ReferenceIdeal.main_v246
    ∧ AllFin (Kf m ρ c Cert.KernelIdeal.main_v186 : Cert.KernelIdeal.S50000x128.Idx → EReal)

/-- the hidden state after layer 3: the kernel's main_v190 and the reference's main_v250 hold the same array, all of whose entries are real. -/
def H3 : Prop := (Kf m ρ c Cert.KernelIdeal.main_v190 : Cert.KernelIdeal.S50000x128.Idx → EReal) = Rf m' c Cert.ReferenceIdeal.main_v250
    ∧ AllFin (Kf m ρ c Cert.KernelIdeal.main_v190 : Cert.KernelIdeal.S50000x128.Idx → EReal)

/-- the edge attention (a softmax over two logits per edge): the kernel's main_v223 and the reference's main_v280 hold the same array. -/
def EAtt : Prop := (Kf m ρ c Cert.KernelIdeal.main_v223 : Cert.KernelIdeal.S400000x2.Idx → EReal) = Rf m' c Cert.ReferenceIdeal.main_v280

/-- the node-attention logits before aggregation: the kernel's main_v224 and the reference's main_v281 hold the same array, all of whose entries are real. -/
def NaT : Prop := (Kf m ρ c Cert.KernelIdeal.main_v224 : Cert.KernelIdeal.S50000x2.Idx → EReal) = Rf m' c Cert.ReferenceIdeal.main_v281
    ∧ AllFin (Kf m ρ c Cert.KernelIdeal.main_v224 : Cert.KernelIdeal.S50000x2.Idx → EReal)

/-- the aggregated node-attention logits, before the bias: the kernel's main_v270 and the reference's main_v327 hold the same array, all of whose entries are real. -/
def AggNa : Prop := (Kf m ρ c Cert.KernelIdeal.main_v270 : Cert.KernelIdeal.S50000x2.Idx → EReal) = Rf m' c Cert.ReferenceIdeal.main_v327
    ∧ AllFin (Kf m ρ c Cert.KernelIdeal.main_v270 : Cert.KernelIdeal.S50000x2.Idx → EReal)

/-- the node attention: the kernel's main_v284 and the reference's main_v341 hold the same array, all of whose entries are real. -/
def NAtt : Prop := (Kf m ρ c Cert.KernelIdeal.main_v284 : Cert.KernelIdeal.S50000x2.Idx → EReal) = Rf m' c Cert.ReferenceIdeal.main_v341
    ∧ AllFin (Kf m ρ c Cert.KernelIdeal.main_v284 : Cert.KernelIdeal.S50000x2.Idx → EReal)

/-- the first branch's input: node attention column 0 times the hidden state: the kernel's main_v287 and the reference's main_v344 hold the same array, all of whose entries are real. -/
def XcIn : Prop := (Kf m ρ c Cert.KernelIdeal.main_v287 : Cert.KernelIdeal.S50000x128.Idx → EReal) = Rf m' c Cert.ReferenceIdeal.main_v344
    ∧ AllFin (Kf m ρ c Cert.KernelIdeal.main_v287 : Cert.KernelIdeal.S50000x128.Idx → EReal)

/-- the second branch's input: the kernel's main_v350 and the reference's main_v423 hold the same array, all of whose entries are real. -/
def XoIn : Prop := (Kf m ρ c Cert.KernelIdeal.main_v350 : Cert.KernelIdeal.S50000x128.Idx → EReal) = Rf m' c Cert.ReferenceIdeal.main_v423
    ∧ AllFin (Kf m ρ c Cert.KernelIdeal.main_v350 : Cert.KernelIdeal.S50000x128.Idx → EReal)

/-- the first branch's normalized and projected state: the kernel's main_v295 and the reference's main_v368 hold the same array. -/
def TXc : Prop := (Kf m ρ c Cert.KernelIdeal.main_v295 : Cert.KernelIdeal.S50000x128.Idx → EReal) = Rf m' c Cert.ReferenceIdeal.main_v368

/-- the second branch's normalized and projected state: the kernel's main_v358 and the reference's main_v447 hold the same array. -/
def TXo : Prop := (Kf m ρ c Cert.KernelIdeal.main_v358 : Cert.KernelIdeal.S50000x128.Idx → EReal) = Rf m' c Cert.ReferenceIdeal.main_v447

/-- the first branch's weighted aggregate: the kernel's main_v342 and the reference's main_v413 hold the same array. -/
def AggXc : Prop := (Kf m ρ c Cert.KernelIdeal.main_v342 : Cert.KernelIdeal.S50000x128.Idx → EReal) = Rf m' c Cert.ReferenceIdeal.main_v413

/-- the second branch's weighted aggregate: the kernel's main_v405 and the reference's main_v492 hold the same array. -/
def AggXo : Prop := (Kf m ρ c Cert.KernelIdeal.main_v405 : Cert.KernelIdeal.S50000x128.Idx → EReal) = Rf m' c Cert.ReferenceIdeal.main_v492

/-- the first branch's node features: the kernel's main_v344 and the reference's main_v417 hold the same array. -/
def XcNode : Prop := (Kf m ρ c Cert.KernelIdeal.main_v344 : Cert.KernelIdeal.S50000x128.Idx → EReal) = Rf m' c Cert.ReferenceIdeal.main_v417

/-- the second branch's node features: the kernel's main_v407 and the reference's main_v496 hold the same array. -/
def XoNode : Prop := (Kf m ρ c Cert.KernelIdeal.main_v407 : Cert.KernelIdeal.S50000x128.Idx → EReal) = Rf m' c Cert.ReferenceIdeal.main_v496

/-- the first branch pooled per graph: the kernel's main_v347 and the reference's main_v420 hold the same array. -/
def Xc : Prop := (Kf m ρ c Cert.KernelIdeal.main_v347 : Cert.KernelIdeal.S512x128.Idx → EReal) = Rf m' c Cert.ReferenceIdeal.main_v420

/-- the second branch pooled per graph: the kernel's main_v410 and the reference's main_v499 hold the same array. -/
def Xo : Prop := (Kf m ρ c Cert.KernelIdeal.main_v410 : Cert.KernelIdeal.S512x128.Idx → EReal) = Rf m' c Cert.ReferenceIdeal.main_v499

/-- the first result: the kernel's main_v462 and the reference's main_v551 hold the same array. -/
def Res0 : Prop := (Kf m ρ c Cert.KernelIdeal.main_v462 : Cert.KernelIdeal.S512x10.Idx → EReal) = Rf m' c Cert.ReferenceIdeal.main_v551

/-- the second result: the kernel's main_v514 and the reference's main_v603 hold the same array. -/
def Res1 : Prop := (Kf m ρ c Cert.KernelIdeal.main_v514 : Cert.KernelIdeal.S512x10.Idx → EReal) = Rf m' c Cert.ReferenceIdeal.main_v603

/-- the third result: the kernel's main_v578 and the reference's main_v657 hold the same array. -/
def Res2 : Prop := (Kf m ρ c Cert.KernelIdeal.main_v578 : Cert.KernelIdeal.S512x10.Idx → EReal) = Rf m' c Cert.ReferenceIdeal.main_v657

/-- Argument `k` of the two programs: equal launch contents (the claim's hypothesis), unchanged to the end in both. -/
def ArgEq (bk : Ref Cert.KernelIdeal.sig .tc) (br : Ref Cert.ReferenceIdeal.sig .tc) : Prop :=
  HEq (Kf m ρ c bk) (Rf m' c br)

end Cert.Iface

end
-- ==== Proof.StageArgsK.lean ====
/-
  The arguments at the two final states. No operation of either program writes an argument, so its final contents
  are its launch contents.
-/
import proofs.«407945_j8993661518245_1_alg».proof.Proof.Iface
import proofs.«407945_j8993661518245_1_alg».proof.Proof.KCarry
import proofs.«407945_j8993661518245_1_alg».proof.Proof.RefRun

noncomputable section

namespace Cert.StageArgs

open Idealize.ShloMosaic Idealize.SL.Sem Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem argK0 : Kf m ρ c Cert.KernelIdeal.main_arg0 = m ((c.tc : Thread Cert.KernelIdeal.nD Cert.KernelIdeal.τ).loc Cert.KernelIdeal.main_arg0) :=
  Cert.KernelIdeal.KCarry.arg0 m ρ c
theorem argK1 : Kf m ρ c Cert.KernelIdeal.main_arg1 = m ((c.tc : Thread Cert.KernelIdeal.nD Cert.KernelIdeal.τ).loc Cert.KernelIdeal.main_arg1) :=
  Cert.KernelIdeal.KCarry.arg1 m ρ c
theorem argK2 : Kf m ρ c Cert.KernelIdeal.main_arg2 = m ((c.tc : Thread Cert.KernelIdeal.nD Cert.KernelIdeal.τ).loc Cert.KernelIdeal.main_arg2) :=
  Cert.KernelIdeal.KCarry.arg2 m ρ c
theorem argK3 : Kf m ρ c Cert.KernelIdeal.main_arg3 = m ((c.tc : Thread Cert.KernelIdeal.nD Cert.KernelIdeal.τ).loc Cert.KernelIdeal.main_arg3) :=
  Cert.KernelIdeal.KCarry.arg3 m ρ c
theorem argK4 : Kf m ρ c Cert.KernelIdeal.main_arg4 = m ((c.tc : Thread Cert.KernelIdeal.nD Cert.KernelIdeal.τ).loc Cert.KernelIdeal.main_arg4) :=
  Cert.KernelIdeal.KCarry.arg4 m ρ c
theorem argK5 : Kf m ρ c Cert.KernelIdeal.main_arg5 = m ((c.tc : Thread Cert.KernelIdeal.nD Cert.KernelIdeal.τ).loc Cert.KernelIdeal.main_arg5) :=
  Cert.KernelIdeal.KCarry.arg5 m ρ c
theorem argK6 : Kf m ρ c Cert.KernelIdeal.main_arg6 = m ((c.tc : Thread Cert.KernelIdeal.nD Cert.KernelIdeal.τ).loc Cert.KernelIdeal.main_arg6) :=
  Cert.KernelIdeal.KCarry.arg6 m ρ c
theorem argK7 : Kf m ρ c Cert.KernelIdeal.main_arg7 = m ((c.tc : Thread Cert.KernelIdeal.nD Cert.KernelIdeal.τ).loc Cert.KernelIdeal.main_arg7) :=
  Cert.KernelIdeal.KCarry.arg7 m ρ c
theorem argK8 : Kf m ρ c Cert.KernelIdeal.main_arg8 = m ((c.tc : Thread Cert.KernelIdeal.nD Cert.KernelIdeal.τ).loc Cert.KernelIdeal.main_arg8) :=
  Cert.KernelIdeal.KCarry.arg8 m ρ c
theorem argK9 : Kf m ρ c Cert.KernelIdeal.main_arg9 = m ((c.tc : Thread Cert.KernelIdeal.nD Cert.KernelIdeal.τ).loc Cert.KernelIdeal.main_arg9) :=
  Cert.KernelIdeal.KCarry.arg9 m ρ c
theorem argK10 : Kf m ρ c Cert.KernelIdeal.main_arg10 = m ((c.tc : Thread Cert.KernelIdeal.nD Cert.KernelIdeal.τ).loc Cert.KernelIdeal.main_arg10) :=
  Cert.KernelIdeal.KCarry.arg10 m ρ c
theorem argK11 : Kf m ρ c Cert.KernelIdeal.main_arg11 = m ((c.tc : Thread Cert.KernelIdeal.nD Cert.KernelIdeal.τ).loc Cert.KernelIdeal.main_arg11) :=
  Cert.KernelIdeal.KCarry.arg11 m ρ c
theorem argK12 : Kf m ρ c Cert.KernelIdeal.main_arg12 = m ((c.tc : Thread Cert.KernelIdeal.nD Cert.KernelIdeal.τ).loc Cert.KernelIdeal.main_arg12) :=
  Cert.KernelIdeal.KCarry.arg12 m ρ c
theorem argK13 : Kf m ρ c Cert.KernelIdeal.main_arg13 = m ((c.tc : Thread Cert.KernelIdeal.nD Cert.KernelIdeal.τ).loc Cert.KernelIdeal.main_arg13) :=
  Cert.KernelIdeal.KCarry.arg13 m ρ c
theorem argK14 : Kf m ρ c Cert.KernelIdeal.main_arg14 = m ((c.tc : Thread Cert.KernelIdeal.nD Cert.KernelIdeal.τ).loc Cert.KernelIdeal.main_arg14) :=
  Cert.KernelIdeal.KCarry.arg14 m ρ c
theorem argK15 : Kf m ρ c Cert.KernelIdeal.main_arg15 = m ((c.tc : Thread Cert.KernelIdeal.nD Cert.KernelIdeal.τ).loc Cert.KernelIdeal.main_arg15) :=
  Cert.KernelIdeal.KCarry.arg15 m ρ c
theorem argK16 : Kf m ρ c Cert.KernelIdeal.main_arg16 = m ((c.tc : Thread Cert.KernelIdeal.nD Cert.KernelIdeal.τ).loc Cert.KernelIdeal.main_arg16) :=
  Cert.KernelIdeal.KCarry.arg16 m ρ c
theorem argK17 : Kf m ρ c Cert.KernelIdeal.main_arg17 = m ((c.tc : Thread Cert.KernelIdeal.nD Cert.KernelIdeal.τ).loc Cert.KernelIdeal.main_arg17) :=
  Cert.KernelIdeal.KCarry.arg17 m ρ c
theorem argK18 : Kf m ρ c Cert.KernelIdeal.main_arg18 = m ((c.tc : Thread Cert.KernelIdeal.nD Cert.KernelIdeal.τ).loc Cert.KernelIdeal.main_arg18) :=
  Cert.KernelIdeal.KCarry.arg18 m ρ c
theorem argK19 : Kf m ρ c Cert.KernelIdeal.main_arg19 = m ((c.tc : Thread Cert.KernelIdeal.nD Cert.KernelIdeal.τ).loc Cert.KernelIdeal.main_arg19) :=
  Cert.KernelIdeal.KCarry.arg19 m ρ c
theorem argK20 : Kf m ρ c Cert.KernelIdeal.main_arg20 = m ((c.tc : Thread Cert.KernelIdeal.nD Cert.KernelIdeal.τ).loc Cert.KernelIdeal.main_arg20) :=
  Cert.KernelIdeal.KCarry.arg20 m ρ c
theorem argK21 : Kf m ρ c Cert.KernelIdeal.main_arg21 = m ((c.tc : Thread Cert.KernelIdeal.nD Cert.KernelIdeal.τ).loc Cert.KernelIdeal.main_arg21) :=
  Cert.KernelIdeal.KCarry.arg21 m ρ c
theorem argK22 : Kf m ρ c Cert.KernelIdeal.main_arg22 = m ((c.tc : Thread Cert.KernelIdeal.nD Cert.KernelIdeal.τ).loc Cert.KernelIdeal.main_arg22) :=
  Cert.KernelIdeal.KCarry.arg22 m ρ c
theorem argK23 : Kf m ρ c Cert.KernelIdeal.main_arg23 = m ((c.tc : Thread Cert.KernelIdeal.nD Cert.KernelIdeal.τ).loc Cert.KernelIdeal.main_arg23) :=
  Cert.KernelIdeal.KCarry.arg23 m ρ c
theorem argK24 : Kf m ρ c Cert.KernelIdeal.main_arg24 = m ((c.tc : Thread Cert.KernelIdeal.nD Cert.KernelIdeal.τ).loc Cert.KernelIdeal.main_arg24) :=
  Cert.KernelIdeal.KCarry.arg24 m ρ c
theorem argK25 : Kf m ρ c Cert.KernelIdeal.main_arg25 = m ((c.tc : Thread Cert.KernelIdeal.nD Cert.KernelIdeal.τ).loc Cert.KernelIdeal.main_arg25) :=
  Cert.KernelIdeal.KCarry.arg25 m ρ c
theorem argK26 : Kf m ρ c Cert.KernelIdeal.main_arg26 = m ((c.tc : Thread Cert.KernelIdeal.nD Cert.KernelIdeal.τ).loc Cert.KernelIdeal.main_arg26) :=
  Cert.KernelIdeal.KCarry.arg26 m ρ c

theorem argR0 : Rf m' c Cert.ReferenceIdeal.main_arg0 = m' ((c.tc : Thread Cert.ReferenceIdeal.nD Cert.ReferenceIdeal.τ).loc Cert.ReferenceIdeal.main_arg0) :=
  Cert.ReferenceIdeal.RefRun.R14_main_arg0 m' c
theorem argR1 : Rf m' c Cert.ReferenceIdeal.main_arg1 = m' ((c.tc : Thread Cert.ReferenceIdeal.nD Cert.ReferenceIdeal.τ).loc Cert.ReferenceIdeal.main_arg1) :=
  Cert.ReferenceIdeal.RefRun.R14_main_arg1 m' c
theorem argR2 : Rf m' c Cert.ReferenceIdeal.main_arg2 = m' ((c.tc : Thread Cert.ReferenceIdeal.nD Cert.ReferenceIdeal.τ).loc Cert.ReferenceIdeal.main_arg2) :=
  Cert.ReferenceIdeal.RefRun.R14_main_arg2 m' c
theorem argR3 : Rf m' c Cert.ReferenceIdeal.main_arg3 = m' ((c.tc : Thread Cert.ReferenceIdeal.nD Cert.ReferenceIdeal.τ).loc Cert.ReferenceIdeal.main_arg3) :=
  Cert.ReferenceIdeal.RefRun.R14_main_arg3 m' c
theorem argR4 : Rf m' c Cert.ReferenceIdeal.main_arg4 = m' ((c.tc : Thread Cert.ReferenceIdeal.nD Cert.ReferenceIdeal.τ).loc Cert.ReferenceIdeal.main_arg4) :=
  Cert.ReferenceIdeal.RefRun.R14_main_arg4 m' c
theorem argR5 : Rf m' c Cert.ReferenceIdeal.main_arg5 = m' ((c.tc : Thread Cert.ReferenceIdeal.nD Cert.ReferenceIdeal.τ).loc Cert.ReferenceIdeal.main_arg5) :=
  Cert.ReferenceIdeal.RefRun.R14_main_arg5 m' c
theorem argR6 : Rf m' c Cert.ReferenceIdeal.main_arg6 = m' ((c.tc : Thread Cert.ReferenceIdeal.nD Cert.ReferenceIdeal.τ).loc Cert.ReferenceIdeal.main_arg6) :=
  Cert.ReferenceIdeal.RefRun.R14_main_arg6 m' c
theorem argR7 : Rf m' c Cert.ReferenceIdeal.main_arg7 = m' ((c.tc : Thread Cert.ReferenceIdeal.nD Cert.ReferenceIdeal.τ).loc Cert.ReferenceIdeal.main_arg7) :=
  Cert.ReferenceIdeal.RefRun.R14_main_arg7 m' c
theorem argR8 : Rf m' c Cert.ReferenceIdeal.main_arg8 = m' ((c.tc : Thread Cert.ReferenceIdeal.nD Cert.ReferenceIdeal.τ).loc Cert.ReferenceIdeal.main_arg8) :=
  Cert.ReferenceIdeal.RefRun.R14_main_arg8 m' c
theorem argR9 : Rf m' c Cert.ReferenceIdeal.main_arg9 = m' ((c.tc : Thread Cert.ReferenceIdeal.nD Cert.ReferenceIdeal.τ).loc Cert.ReferenceIdeal.main_arg9) :=
  Cert.ReferenceIdeal.RefRun.R14_main_arg9 m' c
theorem argR10 : Rf m' c Cert.ReferenceIdeal.main_arg10 = m' ((c.tc : Thread Cert.ReferenceIdeal.nD Cert.ReferenceIdeal.τ).loc Cert.ReferenceIdeal.main_arg10) :=
  Cert.ReferenceIdeal.RefRun.R14_main_arg10 m' c
theorem argR11 : Rf m' c Cert.ReferenceIdeal.main_arg11 = m' ((c.tc : Thread Cert.ReferenceIdeal.nD Cert.ReferenceIdeal.τ).loc Cert.ReferenceIdeal.main_arg11) :=
  Cert.ReferenceIdeal.RefRun.R14_main_arg11 m' c
theorem argR12 : Rf m' c Cert.ReferenceIdeal.main_arg12 = m' ((c.tc : Thread Cert.ReferenceIdeal.nD Cert.ReferenceIdeal.τ).loc Cert.ReferenceIdeal.main_arg12) :=
  Cert.ReferenceIdeal.RefRun.R14_main_arg12 m' c
theorem argR13 : Rf m' c Cert.ReferenceIdeal.main_arg13 = m' ((c.tc : Thread Cert.ReferenceIdeal.nD Cert.ReferenceIdeal.τ).loc Cert.ReferenceIdeal.main_arg13) :=
  Cert.ReferenceIdeal.RefRun.R14_main_arg13 m' c
theorem argR14 : Rf m' c Cert.ReferenceIdeal.main_arg14 = m' ((c.tc : Thread Cert.ReferenceIdeal.nD Cert.ReferenceIdeal.τ).loc Cert.ReferenceIdeal.main_arg14) :=
  Cert.ReferenceIdeal.RefRun.R14_main_arg14 m' c
theorem argR15 : Rf m' c Cert.ReferenceIdeal.main_arg15 = m' ((c.tc : Thread Cert.ReferenceIdeal.nD Cert.ReferenceIdeal.τ).loc Cert.ReferenceIdeal.main_arg15) :=
  Cert.ReferenceIdeal.RefRun.R14_main_arg15 m' c
theorem argR16 : Rf m' c Cert.ReferenceIdeal.main_arg16 = m' ((c.tc : Thread Cert.ReferenceIdeal.nD Cert.ReferenceIdeal.τ).loc Cert.ReferenceIdeal.main_arg16) :=
  Cert.ReferenceIdeal.RefRun.R14_main_arg16 m' c
theorem argR17 : Rf m' c Cert.ReferenceIdeal.main_arg17 = m' ((c.tc : Thread Cert.ReferenceIdeal.nD Cert.ReferenceIdeal.τ).loc Cert.ReferenceIdeal.main_arg17) :=
  Cert.ReferenceIdeal.RefRun.R14_main_arg17 m' c
theorem argR18 : Rf m' c Cert.ReferenceIdeal.main_arg18 = m' ((c.tc : Thread Cert.ReferenceIdeal.nD Cert.ReferenceIdeal.τ).loc Cert.ReferenceIdeal.main_arg18) :=
  Cert.ReferenceIdeal.RefRun.R14_main_arg18 m' c
theorem argR19 : Rf m' c Cert.ReferenceIdeal.main_arg19 = m' ((c.tc : Thread Cert.ReferenceIdeal.nD Cert.ReferenceIdeal.τ).loc Cert.ReferenceIdeal.main_arg19) :=
  Cert.ReferenceIdeal.RefRun.R14_main_arg19 m' c
theorem argR20 : Rf m' c Cert.ReferenceIdeal.main_arg20 = m' ((c.tc : Thread Cert.ReferenceIdeal.nD Cert.ReferenceIdeal.τ).loc Cert.ReferenceIdeal.main_arg20) :=
  Cert.ReferenceIdeal.RefRun.R14_main_arg20 m' c
theorem argR21 : Rf m' c Cert.ReferenceIdeal.main_arg21 = m' ((c.tc : Thread Cert.ReferenceIdeal.nD Cert.ReferenceIdeal.τ).loc Cert.ReferenceIdeal.main_arg21) :=
  Cert.ReferenceIdeal.RefRun.R14_main_arg21 m' c
theorem argR22 : Rf m' c Cert.ReferenceIdeal.main_arg22 = m' ((c.tc : Thread Cert.ReferenceIdeal.nD Cert.ReferenceIdeal.τ).loc Cert.ReferenceIdeal.main_arg22) :=
  Cert.ReferenceIdeal.RefRun.R14_main_arg22 m' c
theorem argR23 : Rf m' c Cert.ReferenceIdeal.main_arg23 = m' ((c.tc : Thread Cert.ReferenceIdeal.nD Cert.ReferenceIdeal.τ).loc Cert.ReferenceIdeal.main_arg23) :=
  Cert.ReferenceIdeal.RefRun.R14_main_arg23 m' c
theorem argR24 : Rf m' c Cert.ReferenceIdeal.main_arg24 = m' ((c.tc : Thread Cert.ReferenceIdeal.nD Cert.ReferenceIdeal.τ).loc Cert.ReferenceIdeal.main_arg24) :=
  Cert.ReferenceIdeal.RefRun.R14_main_arg24 m' c
theorem argR25 : Rf m' c Cert.ReferenceIdeal.main_arg25 = m' ((c.tc : Thread Cert.ReferenceIdeal.nD Cert.ReferenceIdeal.τ).loc Cert.ReferenceIdeal.main_arg25) :=
  Cert.ReferenceIdeal.RefRun.R14_main_arg25 m' c
theorem argR26 : Rf m' c Cert.ReferenceIdeal.main_arg26 = m' ((c.tc : Thread Cert.ReferenceIdeal.nD Cert.ReferenceIdeal.τ).loc Cert.ReferenceIdeal.main_arg26) :=
  Cert.ReferenceIdeal.RefRun.R14_main_arg26 m' c

end Cert.StageArgs

end
-- ==== Proof.StageArgsEq.lean ====
/-
  The two programs end with equal arguments: each argument's final contents are its launch contents in both programs,
  and the claim's agreement hypothesis says the two launch memories hold the same arguments. Each of the three equalities
  is first read at the argument's plain function type, then they are chained.
-/
import proofs.«407945_j8993661518245_1_alg».proof.Proof.Iface
import proofs.«407945_j8993661518245_1_alg».proof.Proof.KCarry
import proofs.«407945_j8993661518245_1_alg».proof.Proof.RefRun

noncomputable section

namespace Cert.StageArgs

open Idealize.ShloMosaic Idealize.SL.Sem Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The claim's agreement hypothesis at one device: the two launch memories hold the same 27 arguments, each equation
    read at the argument's plain function type. -/
abbrev Agree : Prop :=
    @Eq (Cert.KernelIdeal.S50000x128.Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
    ∧ @Eq (Cert.KernelIdeal.S128x128.Idx → EReal) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
    ∧ @Eq (Cert.KernelIdeal.S3x128x128.Idx → EReal) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
    ∧ @Eq (Cert.KernelIdeal.S3x128.Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
    ∧ @Eq (Cert.KernelIdeal.S256x2.Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
    ∧ @Eq (Cert.KernelIdeal.S2.Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
    ∧ @Eq (Cert.KernelIdeal.S128x2.Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
    ∧ @Eq (Cert.KernelIdeal.S2.Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
    ∧ @Eq (Cert.KernelIdeal.S128x128.Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
    ∧ @Eq (Cert.KernelIdeal.S128.Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
    ∧ @Eq (Cert.KernelIdeal.S128x128.Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
    ∧ @Eq (Cert.KernelIdeal.S128.Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
    ∧ @Eq (Cert.KernelIdeal.S128x128.Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
    ∧ @Eq (Cert.KernelIdeal.S128.Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
    ∧ @Eq (Cert.KernelIdeal.S128x10.Idx → EReal) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
    ∧ @Eq (Cert.KernelIdeal.S10.Idx → EReal) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
    ∧ @Eq (Cert.KernelIdeal.S128x128.Idx → EReal) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
    ∧ @Eq (Cert.KernelIdeal.S128.Idx → EReal) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
    ∧ @Eq (Cert.KernelIdeal.S128x10.Idx → EReal) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
    ∧ @Eq (Cert.KernelIdeal.S10.Idx → EReal) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
    ∧ @Eq (Cert.KernelIdeal.S256x128.Idx → EReal) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
    ∧ @Eq (Cert.KernelIdeal.S128.Idx → EReal) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
    ∧ @Eq (Cert.KernelIdeal.S128x10.Idx → EReal) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
    ∧ @Eq (Cert.KernelIdeal.S10.Idx → EReal) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))
    ∧ @Eq (Cert.KernelIdeal.S400000.Idx → BitVec 32) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24))
    ∧ @Eq (Cert.KernelIdeal.S400000.Idx → BitVec 32) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg25))
    ∧ @Eq (Cert.KernelIdeal.S50000.Idx → BitVec 32) (m' ((c.tc : Thread Cert.ReferenceIdeal.nD Cert.ReferenceIdeal.τ).loc Cert.ReferenceIdeal.main_arg26)) (m ((c.tc : Thread Cert.KernelIdeal.nD Cert.KernelIdeal.τ).loc Cert.KernelIdeal.main_arg26))

theorem arg_eq0 (hag : Agree m m' c) :
    (Kf m ρ c Cert.KernelIdeal.main_arg0 : Cert.KernelIdeal.S50000x128.Idx → EReal) = Rf m' c Cert.ReferenceIdeal.main_arg0 := by
  have hK : @Eq (Cert.KernelIdeal.S50000x128.Idx → EReal) (Kf m ρ c Cert.KernelIdeal.main_arg0) (m ((c.tc : Thread Cert.KernelIdeal.nD Cert.KernelIdeal.τ).loc Cert.KernelIdeal.main_arg0)) := Cert.KernelIdeal.KCarry.arg0 m ρ c
  have hA : @Eq (Cert.KernelIdeal.S50000x128.Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0)) := hag.1
  have hR : @Eq (Cert.KernelIdeal.S50000x128.Idx → EReal) (Rf m' c Cert.ReferenceIdeal.main_arg0) (m' ((c.tc : Thread Cert.ReferenceIdeal.nD Cert.ReferenceIdeal.τ).loc Cert.ReferenceIdeal.main_arg0)) := Cert.ReferenceIdeal.RefRun.R14_main_arg0 m' c
  exact hK.trans (hA.symm.trans hR.symm)
theorem arg_eq1 (hag : Agree m m' c) :
    (Kf m ρ c Cert.KernelIdeal.main_arg1 : Cert.KernelIdeal.S128x128.Idx → EReal) = Rf m' c Cert.ReferenceIdeal.main_arg1 := by
  have hK : @Eq (Cert.KernelIdeal.S128x128.Idx → EReal) (Kf m ρ c Cert.KernelIdeal.main_arg1) (m ((c.tc : Thread Cert.KernelIdeal.nD Cert.KernelIdeal.τ).loc Cert.KernelIdeal.main_arg1)) := Cert.KernelIdeal.KCarry.arg1 m ρ c
  have hA : @Eq (Cert.KernelIdeal.S128x128.Idx → EReal) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1)) := hag.2.1
  have hR : @Eq (Cert.KernelIdeal.S128x128.Idx → EReal) (Rf m' c Cert.ReferenceIdeal.main_arg1) (m' ((c.tc : Thread Cert.ReferenceIdeal.nD Cert.ReferenceIdeal.τ).loc Cert.ReferenceIdeal.main_arg1)) := Cert.ReferenceIdeal.RefRun.R14_main_arg1 m' c
  exact hK.trans (hA.symm.trans hR.symm)
theorem arg_eq2 (hag : Agree m m' c) :
    (Kf m ρ c Cert.KernelIdeal.main_arg2 : Cert.KernelIdeal.S3x128x128.Idx → EReal) = Rf m' c Cert.ReferenceIdeal.main_arg2 := by
  have hK : @Eq (Cert.KernelIdeal.S3x128x128.Idx → EReal) (Kf m ρ c Cert.KernelIdeal.main_arg2) (m ((c.tc : Thread Cert.KernelIdeal.nD Cert.KernelIdeal.τ).loc Cert.KernelIdeal.main_arg2)) := Cert.KernelIdeal.KCarry.arg2 m ρ c
  have hA : @Eq (Cert.KernelIdeal.S3x128x128.Idx → EReal) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2)) := hag.2.2.1
  have hR : @Eq (Cert.KernelIdeal.S3x128x128.Idx → EReal) (Rf m' c Cert.ReferenceIdeal.main_arg2) (m' ((c.tc : Thread Cert.ReferenceIdeal.nD Cert.ReferenceIdeal.τ).loc Cert.ReferenceIdeal.main_arg2)) := Cert.ReferenceIdeal.RefRun.R14_main_arg2 m' c
  exact hK.trans (hA.symm.trans hR.symm)
theorem arg_eq3 (hag : Agree m m' c) :
    (Kf m ρ c Cert.KernelIdeal.main_arg3 : Cert.KernelIdeal.S3x128.Idx → EReal) = Rf m' c Cert.ReferenceIdeal.main_arg3 := by
  have hK : @Eq (Cert.KernelIdeal.S3x128.Idx → EReal) (Kf m ρ c Cert.KernelIdeal.main_arg3) (m ((c.tc : Thread Cert.KernelIdeal.nD Cert.KernelIdeal.τ).loc Cert.KernelIdeal.main_arg3)) := Cert.KernelIdeal.KCarry.arg3 m ρ c
  have hA : @Eq (Cert.KernelIdeal.S3x128.Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3)) := hag.2.2.2.1
  have hR : @Eq (Cert.KernelIdeal.S3x128.Idx → EReal) (Rf m' c Cert.ReferenceIdeal.main_arg3) (m' ((c.tc : Thread Cert.ReferenceIdeal.nD Cert.ReferenceIdeal.τ).loc Cert.ReferenceIdeal.main_arg3)) := Cert.ReferenceIdeal.RefRun.R14_main_arg3 m' c
  exact hK.trans (hA.symm.trans hR.symm)
theorem arg_eq4 (hag : Agree m m' c) :
    (Kf m ρ c Cert.KernelIdeal.main_arg4 : Cert.KernelIdeal.S256x2.Idx → EReal) = Rf m' c Cert.ReferenceIdeal.main_arg4 := by
  have hK : @Eq (Cert.KernelIdeal.S256x2.Idx → EReal) (Kf m ρ c Cert.KernelIdeal.main_arg4) (m ((c.tc : Thread Cert.KernelIdeal.nD Cert.KernelIdeal.τ).loc Cert.KernelIdeal.main_arg4)) := Cert.KernelIdeal.KCarry.arg4 m ρ c
  have hA : @Eq (Cert.KernelIdeal.S256x2.Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4)) := hag.2.2.2.2.1
  have hR : @Eq (Cert.KernelIdeal.S256x2.Idx → EReal) (Rf m' c Cert.ReferenceIdeal.main_arg4) (m' ((c.tc : Thread Cert.ReferenceIdeal.nD Cert.ReferenceIdeal.τ).loc Cert.ReferenceIdeal.main_arg4)) := Cert.ReferenceIdeal.RefRun.R14_main_arg4 m' c
  exact hK.trans (hA.symm.trans hR.symm)
theorem arg_eq5 (hag : Agree m m' c) :
    (Kf m ρ c Cert.KernelIdeal.main_arg5 : Cert.KernelIdeal.S2.Idx → EReal) = Rf m' c Cert.ReferenceIdeal.main_arg5 := by
  have hK : @Eq (Cert.KernelIdeal.S2.Idx → EReal) (Kf m ρ c Cert.KernelIdeal.main_arg5) (m ((c.tc : Thread Cert.KernelIdeal.nD Cert.KernelIdeal.τ).loc Cert.KernelIdeal.main_arg5)) := Cert.KernelIdeal.KCarry.arg5 m ρ c
  have hA : @Eq (Cert.KernelIdeal.S2.Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5)) := hag.2.2.2.2.2.1
  have hR : @Eq (Cert.KernelIdeal.S2.Idx → EReal) (Rf m' c Cert.ReferenceIdeal.main_arg5) (m' ((c.tc : Thread Cert.ReferenceIdeal.nD Cert.ReferenceIdeal.τ).loc Cert.ReferenceIdeal.main_arg5)) := Cert.ReferenceIdeal.RefRun.R14_main_arg5 m' c
  exact hK.trans (hA.symm.trans hR.symm)
theorem arg_eq6 (hag : Agree m m' c) :
    (Kf m ρ c Cert.KernelIdeal.main_arg6 : Cert.KernelIdeal.S128x2.Idx → EReal) = Rf m' c Cert.ReferenceIdeal.main_arg6 := by
  have hK : @Eq (Cert.KernelIdeal.S128x2.Idx → EReal) (Kf m ρ c Cert.KernelIdeal.main_arg6) (m ((c.tc : Thread Cert.KernelIdeal.nD Cert.KernelIdeal.τ).loc Cert.KernelIdeal.main_arg6)) := Cert.KernelIdeal.KCarry.arg6 m ρ c
  have hA : @Eq (Cert.KernelIdeal.S128x2.Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6)) := hag.2.2.2.2.2.2.1
  have hR : @Eq (Cert.KernelIdeal.S128x2.Idx → EReal) (Rf m' c Cert.ReferenceIdeal.main_arg6) (m' ((c.tc : Thread Cert.ReferenceIdeal.nD Cert.ReferenceIdeal.τ).loc Cert.ReferenceIdeal.main_arg6)) := Cert.ReferenceIdeal.RefRun.R14_main_arg6 m' c
  exact hK.trans (hA.symm.trans hR.symm)
theorem arg_eq7 (hag : Agree m m' c) :
    (Kf m ρ c Cert.KernelIdeal.main_arg7 : Cert.KernelIdeal.S2.Idx → EReal) = Rf m' c Cert.ReferenceIdeal.main_arg7 := by
  have hK : @Eq (Cert.KernelIdeal.S2.Idx → EReal) (Kf m ρ c Cert.KernelIdeal.main_arg7) (m ((c.tc : Thread Cert.KernelIdeal.nD Cert.KernelIdeal.τ).loc Cert.KernelIdeal.main_arg7)) := Cert.KernelIdeal.KCarry.arg7 m ρ c
  have hA : @Eq (Cert.KernelIdeal.S2.Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7)) := hag.2.2.2.2.2.2.2.1
  have hR : @Eq (Cert.KernelIdeal.S2.Idx → EReal) (Rf m' c Cert.ReferenceIdeal.main_arg7) (m' ((c.tc : Thread Cert.ReferenceIdeal.nD Cert.ReferenceIdeal.τ).loc Cert.ReferenceIdeal.main_arg7)) := Cert.ReferenceIdeal.RefRun.R14_main_arg7 m' c
  exact hK.trans (hA.symm.trans hR.symm)
theorem arg_eq8 (hag : Agree m m' c) :
    (Kf m ρ c Cert.KernelIdeal.main_arg8 : Cert.KernelIdeal.S128x128.Idx → EReal) = Rf m' c Cert.ReferenceIdeal.main_arg8 := by
  have hK : @Eq (Cert.KernelIdeal.S128x128.Idx → EReal) (Kf m ρ c Cert.KernelIdeal.main_arg8) (m ((c.tc : Thread Cert.KernelIdeal.nD Cert.KernelIdeal.τ).loc Cert.KernelIdeal.main_arg8)) := Cert.KernelIdeal.KCarry.arg8 m ρ c
  have hA : @Eq (Cert.KernelIdeal.S128x128.Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8)) := hag.2.2.2.2.2.2.2.2.1
  have hR : @Eq (Cert.KernelIdeal.S128x128.Idx → EReal) (Rf m' c Cert.ReferenceIdeal.main_arg8) (m' ((c.tc : Thread Cert.ReferenceIdeal.nD Cert.ReferenceIdeal.τ).loc Cert.ReferenceIdeal.main_arg8)) := Cert.ReferenceIdeal.RefRun.R14_main_arg8 m' c
  exact hK.trans (hA.symm.trans hR.symm)
theorem arg_eq9 (hag : Agree m m' c) :
    (Kf m ρ c Cert.KernelIdeal.main_arg9 : Cert.KernelIdeal.S128.Idx → EReal) = Rf m' c Cert.ReferenceIdeal.main_arg9 := by
  have hK : @Eq (Cert.KernelIdeal.S128.Idx → EReal) (Kf m ρ c Cert.KernelIdeal.main_arg9) (m ((c.tc : Thread Cert.KernelIdeal.nD Cert.KernelIdeal.τ).loc Cert.KernelIdeal.main_arg9)) := Cert.KernelIdeal.KCarry.arg9 m ρ c
  have hA : @Eq (Cert.KernelIdeal.S128.Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9)) := hag.2.2.2.2.2.2.2.2.2.1
  have hR : @Eq (Cert.KernelIdeal.S128.Idx → EReal) (Rf m' c Cert.ReferenceIdeal.main_arg9) (m' ((c.tc : Thread Cert.ReferenceIdeal.nD Cert.ReferenceIdeal.τ).loc Cert.ReferenceIdeal.main_arg9)) := Cert.ReferenceIdeal.RefRun.R14_main_arg9 m' c
  exact hK.trans (hA.symm.trans hR.symm)
theorem arg_eq10 (hag : Agree m m' c) :
    (Kf m ρ c Cert.KernelIdeal.main_arg10 : Cert.KernelIdeal.S128x128.Idx → EReal) = Rf m' c Cert.ReferenceIdeal.main_arg10 := by
  have hK : @Eq (Cert.KernelIdeal.S128x128.Idx → EReal) (Kf m ρ c Cert.KernelIdeal.main_arg10) (m ((c.tc : Thread Cert.KernelIdeal.nD Cert.KernelIdeal.τ).loc Cert.KernelIdeal.main_arg10)) := Cert.KernelIdeal.KCarry.arg10 m ρ c
  have hA : @Eq (Cert.KernelIdeal.S128x128.Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10)) := hag.2.2.2.2.2.2.2.2.2.2.1
  have hR : @Eq (Cert.KernelIdeal.S128x128.Idx → EReal) (Rf m' c Cert.ReferenceIdeal.main_arg10) (m' ((c.tc : Thread Cert.ReferenceIdeal.nD Cert.ReferenceIdeal.τ).loc Cert.ReferenceIdeal.main_arg10)) := Cert.ReferenceIdeal.RefRun.R14_main_arg10 m' c
  exact hK.trans (hA.symm.trans hR.symm)
theorem arg_eq11 (hag : Agree m m' c) :
    (Kf m ρ c Cert.KernelIdeal.main_arg11 : Cert.KernelIdeal.S128.Idx → EReal) = Rf m' c Cert.ReferenceIdeal.main_arg11 := by
  have hK : @Eq (Cert.KernelIdeal.S128.Idx → EReal) (Kf m ρ c Cert.KernelIdeal.main_arg11) (m ((c.tc : Thread Cert.KernelIdeal.nD Cert.KernelIdeal.τ).loc Cert.KernelIdeal.main_arg11)) := Cert.KernelIdeal.KCarry.arg11 m ρ c
  have hA : @Eq (Cert.KernelIdeal.S128.Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11)) := hag.2.2.2.2.2.2.2.2.2.2.2.1
  have hR : @Eq (Cert.KernelIdeal.S128.Idx → EReal) (Rf m' c Cert.ReferenceIdeal.main_arg11) (m' ((c.tc : Thread Cert.ReferenceIdeal.nD Cert.ReferenceIdeal.τ).loc Cert.ReferenceIdeal.main_arg11)) := Cert.ReferenceIdeal.RefRun.R14_main_arg11 m' c
  exact hK.trans (hA.symm.trans hR.symm)
theorem arg_eq12 (hag : Agree m m' c) :
    (Kf m ρ c Cert.KernelIdeal.main_arg12 : Cert.KernelIdeal.S128x128.Idx → EReal) = Rf m' c Cert.ReferenceIdeal.main_arg12 := by
  have hK : @Eq (Cert.KernelIdeal.S128x128.Idx → EReal) (Kf m ρ c Cert.KernelIdeal.main_arg12) (m ((c.tc : Thread Cert.KernelIdeal.nD Cert.KernelIdeal.τ).loc Cert.KernelIdeal.main_arg12)) := Cert.KernelIdeal.KCarry.arg12 m ρ c
  have hA : @Eq (Cert.KernelIdeal.S128x128.Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12)) := hag.2.2.2.2.2.2.2.2.2.2.2.2.1
  have hR : @Eq (Cert.KernelIdeal.S128x128.Idx → EReal) (Rf m' c Cert.ReferenceIdeal.main_arg12) (m' ((c.tc : Thread Cert.ReferenceIdeal.nD Cert.ReferenceIdeal.τ).loc Cert.ReferenceIdeal.main_arg12)) := Cert.ReferenceIdeal.RefRun.R14_main_arg12 m' c
  exact hK.trans (hA.symm.trans hR.symm)
theorem arg_eq13 (hag : Agree m m' c) :
    (Kf m ρ c Cert.KernelIdeal.main_arg13 : Cert.KernelIdeal.S128.Idx → EReal) = Rf m' c Cert.ReferenceIdeal.main_arg13 := by
  have hK : @Eq (Cert.KernelIdeal.S128.Idx → EReal) (Kf m ρ c Cert.KernelIdeal.main_arg13) (m ((c.tc : Thread Cert.KernelIdeal.nD Cert.KernelIdeal.τ).loc Cert.KernelIdeal.main_arg13)) := Cert.KernelIdeal.KCarry.arg13 m ρ c
  have hA : @Eq (Cert.KernelIdeal.S128.Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13)) := hag.2.2.2.2.2.2.2.2.2.2.2.2.2.1
  have hR : @Eq (Cert.KernelIdeal.S128.Idx → EReal) (Rf m' c Cert.ReferenceIdeal.main_arg13) (m' ((c.tc : Thread Cert.ReferenceIdeal.nD Cert.ReferenceIdeal.τ).loc Cert.ReferenceIdeal.main_arg13)) := Cert.ReferenceIdeal.RefRun.R14_main_arg13 m' c
  exact hK.trans (hA.symm.trans hR.symm)
theorem arg_eq14 (hag : Agree m m' c) :
    (Kf m ρ c Cert.KernelIdeal.main_arg14 : Cert.KernelIdeal.S128x10.Idx → EReal) = Rf m' c Cert.ReferenceIdeal.main_arg14 := by
  have hK : @Eq (Cert.KernelIdeal.S128x10.Idx → EReal) (Kf m ρ c Cert.KernelIdeal.main_arg14) (m ((c.tc : Thread Cert.KernelIdeal.nD Cert.KernelIdeal.τ).loc Cert.KernelIdeal.main_arg14)) := Cert.KernelIdeal.KCarry.arg14 m ρ c
  have hA : @Eq (Cert.KernelIdeal.S128x10.Idx → EReal) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14)) := hag.2.2.2.2.2.2.2.2.2.2.2.2.2.2.1
  have hR : @Eq (Cert.KernelIdeal.S128x10.Idx → EReal) (Rf m' c Cert.ReferenceIdeal.main_arg14) (m' ((c.tc : Thread Cert.ReferenceIdeal.nD Cert.ReferenceIdeal.τ).loc Cert.ReferenceIdeal.main_arg14)) := Cert.ReferenceIdeal.RefRun.R14_main_arg14 m' c
  exact hK.trans (hA.symm.trans hR.symm)
theorem arg_eq15 (hag : Agree m m' c) :
    (Kf m ρ c Cert.KernelIdeal.main_arg15 : Cert.KernelIdeal.S10.Idx → EReal) = Rf m' c Cert.ReferenceIdeal.main_arg15 := by
  have hK : @Eq (Cert.KernelIdeal.S10.Idx → EReal) (Kf m ρ c Cert.KernelIdeal.main_arg15) (m ((c.tc : Thread Cert.KernelIdeal.nD Cert.KernelIdeal.τ).loc Cert.KernelIdeal.main_arg15)) := Cert.KernelIdeal.KCarry.arg15 m ρ c
  have hA : @Eq (Cert.KernelIdeal.S10.Idx → EReal) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15)) := hag.2.2.2.2.2.2.2.2.2.2.2.2.2.2.2.1
  have hR : @Eq (Cert.KernelIdeal.S10.Idx → EReal) (Rf m' c Cert.ReferenceIdeal.main_arg15) (m' ((c.tc : Thread Cert.ReferenceIdeal.nD Cert.ReferenceIdeal.τ).loc Cert.ReferenceIdeal.main_arg15)) := Cert.ReferenceIdeal.RefRun.R14_main_arg15 m' c
  exact hK.trans (hA.symm.trans hR.symm)
theorem arg_eq16 (hag : Agree m m' c) :
    (Kf m ρ c Cert.KernelIdeal.main_arg16 : Cert.KernelIdeal.S128x128.Idx → EReal) = Rf m' c Cert.ReferenceIdeal.main_arg16 := by
  have hK : @Eq (Cert.KernelIdeal.S128x128.Idx → EReal) (Kf m ρ c Cert.KernelIdeal.main_arg16) (m ((c.tc : Thread Cert.KernelIdeal.nD Cert.KernelIdeal.τ).loc Cert.KernelIdeal.main_arg16)) := Cert.KernelIdeal.KCarry.arg16 m ρ c
  have hA : @Eq (Cert.KernelIdeal.S128x128.Idx → EReal) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16)) := hag.2.2.2.2.2.2.2.2.2.2.2.2.2.2.2.2.1
  have hR : @Eq (Cert.KernelIdeal.S128x128.Idx → EReal) (Rf m' c Cert.ReferenceIdeal.main_arg16) (m' ((c.tc : Thread Cert.ReferenceIdeal.nD Cert.ReferenceIdeal.τ).loc Cert.ReferenceIdeal.main_arg16)) := Cert.ReferenceIdeal.RefRun.R14_main_arg16 m' c
  exact hK.trans (hA.symm.trans hR.symm)
theorem arg_eq17 (hag : Agree m m' c) :
    (Kf m ρ c Cert.KernelIdeal.main_arg17 : Cert.KernelIdeal.S128.Idx → EReal) = Rf m' c Cert.ReferenceIdeal.main_arg17 := by
  have hK : @Eq (Cert.KernelIdeal.S128.Idx → EReal) (Kf m ρ c Cert.KernelIdeal.main_arg17) (m ((c.tc : Thread Cert.KernelIdeal.nD Cert.KernelIdeal.τ).loc Cert.KernelIdeal.main_arg17)) := Cert.KernelIdeal.KCarry.arg17 m ρ c
  have hA : @Eq (Cert.KernelIdeal.S128.Idx → EReal) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17)) := hag.2.2.2.2.2.2.2.2.2.2.2.2.2.2.2.2.2.1
  have hR : @Eq (Cert.KernelIdeal.S128.Idx → EReal) (Rf m' c Cert.ReferenceIdeal.main_arg17) (m' ((c.tc : Thread Cert.ReferenceIdeal.nD Cert.ReferenceIdeal.τ).loc Cert.ReferenceIdeal.main_arg17)) := Cert.ReferenceIdeal.RefRun.R14_main_arg17 m' c
  exact hK.trans (hA.symm.trans hR.symm)
theorem arg_eq18 (hag : Agree m m' c) :
    (Kf m ρ c Cert.KernelIdeal.main_arg18 : Cert.KernelIdeal.S128x10.Idx → EReal) = Rf m' c Cert.ReferenceIdeal.main_arg18 := by
  have hK : @Eq (Cert.KernelIdeal.S128x10.Idx → EReal) (Kf m ρ c Cert.KernelIdeal.main_arg18) (m ((c.tc : Thread Cert.KernelIdeal.nD Cert.KernelIdeal.τ).loc Cert.KernelIdeal.main_arg18)) := Cert.KernelIdeal.KCarry.arg18 m ρ c
  have hA : @Eq (Cert.KernelIdeal.S128x10.Idx → EReal) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18)) := hag.2.2.2.2.2.2.2.2.2.2.2.2.2.2.2.2.2.2.1
  have hR : @Eq (Cert.KernelIdeal.S128x10.Idx → EReal) (Rf m' c Cert.ReferenceIdeal.main_arg18) (m' ((c.tc : Thread Cert.ReferenceIdeal.nD Cert.ReferenceIdeal.τ).loc Cert.ReferenceIdeal.main_arg18)) := Cert.ReferenceIdeal.RefRun.R14_main_arg18 m' c
  exact hK.trans (hA.symm.trans hR.symm)
theorem arg_eq19 (hag : Agree m m' c) :
    (Kf m ρ c Cert.KernelIdeal.main_arg19 : Cert.KernelIdeal.S10.Idx → EReal) = Rf m' c Cert.ReferenceIdeal.main_arg19 := by
  have hK : @Eq (Cert.KernelIdeal.S10.Idx → EReal) (Kf m ρ c Cert.KernelIdeal.main_arg19) (m ((c.tc : Thread Cert.KernelIdeal.nD Cert.KernelIdeal.τ).loc Cert.KernelIdeal.main_arg19)) := Cert.KernelIdeal.KCarry.arg19 m ρ c
  have hA : @Eq (Cert.KernelIdeal.S10.Idx → EReal) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19)) := hag.2.2.2.2.2.2.2.2.2.2.2.2.2.2.2.2.2.2.2.1
  have hR : @Eq (Cert.KernelIdeal.S10.Idx → EReal) (Rf m' c Cert.ReferenceIdeal.main_arg19) (m' ((c.tc : Thread Cert.ReferenceIdeal.nD Cert.ReferenceIdeal.τ).loc Cert.ReferenceIdeal.main_arg19)) := Cert.ReferenceIdeal.RefRun.R14_main_arg19 m' c
  exact hK.trans (hA.symm.trans hR.symm)
theorem arg_eq20 (hag : Agree m m' c) :
    (Kf m ρ c Cert.KernelIdeal.main_arg20 : Cert.KernelIdeal.S256x128.Idx → EReal) = Rf m' c Cert.ReferenceIdeal.main_arg20 := by
  have hK : @Eq (Cert.KernelIdeal.S256x128.Idx → EReal) (Kf m ρ c Cert.KernelIdeal.main_arg20) (m ((c.tc : Thread Cert.KernelIdeal.nD Cert.KernelIdeal.τ).loc Cert.KernelIdeal.main_arg20)) := Cert.KernelIdeal.KCarry.arg20 m ρ c
  have hA : @Eq (Cert.KernelIdeal.S256x128.Idx → EReal) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20)) := hag.2.2.2.2.2.2.2.2.2.2.2.2.2.2.2.2.2.2.2.2.1
  have hR : @Eq (Cert.KernelIdeal.S256x128.Idx → EReal) (Rf m' c Cert.ReferenceIdeal.main_arg20) (m' ((c.tc : Thread Cert.ReferenceIdeal.nD Cert.ReferenceIdeal.τ).loc Cert.ReferenceIdeal.main_arg20)) := Cert.ReferenceIdeal.RefRun.R14_main_arg20 m' c
  exact hK.trans (hA.symm.trans hR.symm)
theorem arg_eq21 (hag : Agree m m' c) :
    (Kf m ρ c Cert.KernelIdeal.main_arg21 : Cert.KernelIdeal.S128.Idx → EReal) = Rf m' c Cert.ReferenceIdeal.main_arg21 := by
  have hK : @Eq (Cert.KernelIdeal.S128.Idx → EReal) (Kf m ρ c Cert.KernelIdeal.main_arg21) (m ((c.tc : Thread Cert.KernelIdeal.nD Cert.KernelIdeal.τ).loc Cert.KernelIdeal.main_arg21)) := Cert.KernelIdeal.KCarry.arg21 m ρ c
  have hA : @Eq (Cert.KernelIdeal.S128.Idx → EReal) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21)) := hag.2.2.2.2.2.2.2.2.2.2.2.2.2.2.2.2.2.2.2.2.2.1
  have hR : @Eq (Cert.KernelIdeal.S128.Idx → EReal) (Rf m' c Cert.ReferenceIdeal.main_arg21) (m' ((c.tc : Thread Cert.ReferenceIdeal.nD Cert.ReferenceIdeal.τ).loc Cert.ReferenceIdeal.main_arg21)) := Cert.ReferenceIdeal.RefRun.R14_main_arg21 m' c
  exact hK.trans (hA.symm.trans hR.symm)
theorem arg_eq22 (hag : Agree m m' c) :
    (Kf m ρ c Cert.KernelIdeal.main_arg22 : Cert.KernelIdeal.S128x10.Idx → EReal) = Rf m' c Cert.ReferenceIdeal.main_arg22 := by
  have hK : @Eq (Cert.KernelIdeal.S128x10.Idx → EReal) (Kf m ρ c Cert.KernelIdeal.main_arg22) (m ((c.tc : Thread Cert.KernelIdeal.nD Cert.KernelIdeal.τ).loc Cert.KernelIdeal.main_arg22)) := Cert.KernelIdeal.KCarry.arg22 m ρ c
  have hA : @Eq (Cert.KernelIdeal.S128x10.Idx → EReal) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22)) := hag.2.2.2.2.2.2.2.2.2.2.2.2.2.2.2.2.2.2.2.2.2.2.1
  have hR : @Eq (Cert.KernelIdeal.S128x10.Idx → EReal) (Rf m' c Cert.ReferenceIdeal.main_arg22) (m' ((c.tc : Thread Cert.ReferenceIdeal.nD Cert.ReferenceIdeal.τ).loc Cert.ReferenceIdeal.main_arg22)) := Cert.ReferenceIdeal.RefRun.R14_main_arg22 m' c
  exact hK.trans (hA.symm.trans hR.symm)
theorem arg_eq23 (hag : Agree m m' c) :
    (Kf m ρ c Cert.KernelIdeal.main_arg23 : Cert.KernelIdeal.S10.Idx → EReal) = Rf m' c Cert.ReferenceIdeal.main_arg23 := by
  have hK : @Eq (Cert.KernelIdeal.S10.Idx → EReal) (Kf m ρ c Cert.KernelIdeal.main_arg23) (m ((c.tc : Thread Cert.KernelIdeal.nD Cert.KernelIdeal.τ).loc Cert.KernelIdeal.main_arg23)) := Cert.KernelIdeal.KCarry.arg23 m ρ c
  have hA : @Eq (Cert.KernelIdeal.S10.Idx → EReal) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23)) := hag.2.2.2.2.2.2.2.2.2.2.2.2.2.2.2.2.2.2.2.2.2.2.2.1
  have hR : @Eq (Cert.KernelIdeal.S10.Idx → EReal) (Rf m' c Cert.ReferenceIdeal.main_arg23) (m' ((c.tc : Thread Cert.ReferenceIdeal.nD Cert.ReferenceIdeal.τ).loc Cert.ReferenceIdeal.main_arg23)) := Cert.ReferenceIdeal.RefRun.R14_main_arg23 m' c
  exact hK.trans (hA.symm.trans hR.symm)
theorem arg_eq24 (hag : Agree m m' c) :
    (Kf m ρ c Cert.KernelIdeal.main_arg24 : Cert.KernelIdeal.S400000.Idx → BitVec 32) = Rf m' c Cert.ReferenceIdeal.main_arg24 := by
  have hK : @Eq (Cert.KernelIdeal.S400000.Idx → BitVec 32) (Kf m ρ c Cert.KernelIdeal.main_arg24) (m ((c.tc : Thread Cert.KernelIdeal.nD Cert.KernelIdeal.τ).loc Cert.KernelIdeal.main_arg24)) := Cert.KernelIdeal.KCarry.arg24 m ρ c
  have hA : @Eq (Cert.KernelIdeal.S400000.Idx → BitVec 32) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24)) := hag.2.2.2.2.2.2.2.2.2.2.2.2.2.2.2.2.2.2.2.2.2.2.2.2.1
  have hR : @Eq (Cert.KernelIdeal.S400000.Idx → BitVec 32) (Rf m' c Cert.ReferenceIdeal.main_arg24) (m' ((c.tc : Thread Cert.ReferenceIdeal.nD Cert.ReferenceIdeal.τ).loc Cert.ReferenceIdeal.main_arg24)) := Cert.ReferenceIdeal.RefRun.R14_main_arg24 m' c
  exact hK.trans (hA.symm.trans hR.symm)
theorem arg_eq25 (hag : Agree m m' c) :
    (Kf m ρ c Cert.KernelIdeal.main_arg25 : Cert.KernelIdeal.S400000.Idx → BitVec 32) = Rf m' c Cert.ReferenceIdeal.main_arg25 := by
  have hK : @Eq (Cert.KernelIdeal.S400000.Idx → BitVec 32) (Kf m ρ c Cert.KernelIdeal.main_arg25) (m ((c.tc : Thread Cert.KernelIdeal.nD Cert.KernelIdeal.τ).loc Cert.KernelIdeal.main_arg25)) := Cert.KernelIdeal.KCarry.arg25 m ρ c
  have hA : @Eq (Cert.KernelIdeal.S400000.Idx → BitVec 32) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg25)) := hag.2.2.2.2.2.2.2.2.2.2.2.2.2.2.2.2.2.2.2.2.2.2.2.2.2.1
  have hR : @Eq (Cert.KernelIdeal.S400000.Idx → BitVec 32) (Rf m' c Cert.ReferenceIdeal.main_arg25) (m' ((c.tc : Thread Cert.ReferenceIdeal.nD Cert.ReferenceIdeal.τ).loc Cert.ReferenceIdeal.main_arg25)) := Cert.ReferenceIdeal.RefRun.R14_main_arg25 m' c
  exact hK.trans (hA.symm.trans hR.symm)
theorem arg_eq26 (hag : Agree m m' c) :
    (Kf m ρ c Cert.KernelIdeal.main_arg26 : Cert.KernelIdeal.S50000.Idx → BitVec 32) = Rf m' c Cert.ReferenceIdeal.main_arg26 := by
  have hK : @Eq (Cert.KernelIdeal.S50000.Idx → BitVec 32) (Kf m ρ c Cert.KernelIdeal.main_arg26) (m ((c.tc : Thread Cert.KernelIdeal.nD Cert.KernelIdeal.τ).loc Cert.KernelIdeal.main_arg26)) := Cert.KernelIdeal.KCarry.arg26 m ρ c
  have hA : @Eq (Cert.KernelIdeal.S50000.Idx → BitVec 32) (m' ((c.tc : Thread Cert.ReferenceIdeal.nD Cert.ReferenceIdeal.τ).loc Cert.ReferenceIdeal.main_arg26)) (m ((c.tc : Thread Cert.KernelIdeal.nD Cert.KernelIdeal.τ).loc Cert.KernelIdeal.main_arg26)) := hag.2.2.2.2.2.2.2.2.2.2.2.2.2.2.2.2.2.2.2.2.2.2.2.2.2.2
  have hR : @Eq (Cert.KernelIdeal.S50000.Idx → BitVec 32) (Rf m' c Cert.ReferenceIdeal.main_arg26) (m' ((c.tc : Thread Cert.ReferenceIdeal.nD Cert.ReferenceIdeal.τ).loc Cert.ReferenceIdeal.main_arg26)) := Cert.ReferenceIdeal.RefRun.R14_main_arg26 m' c
  exact hK.trans (hA.symm.trans hR.symm)

end Cert.StageArgs

end
-- ==== Proof.ArgsFinite.lean ====
/-
  The precondition of the certificate, read back. The printed predicate is a conjunction, over the 24 float arguments,
  of "the absolute value of every entry is below +∞" (an all-reduction by `and` of the entrywise comparison). An extended
  real whose absolute value max x (-x) is below ⊤ is neither ⊤ nor ⊥, so where the predicate is all ones every entry of
  every float argument is a real number.
-/
import proofs.«407945_j8993661518245_1_alg».proof.Pre_finite_inputs
import Idealize.ShloMosaic.PureOps.Ideal
import Idealize.ShloMosaic.Lib.ReduceAll
import Idealize.ShloMosaic.Lib.ValueIdx

namespace Cert.StageArgs

open Idealize.ShloMosaic

/-- The rank-0 shape has one index. -/
instance : Subsingleton (⟨0, ![]⟩ : Shape).Idx := ⟨fun a b => funext fun d => d.elim0⟩

/-- The f32 pattern 0x7F800000 (sign 0, exponent all ones, significand 0) denotes +∞. -/
theorem top_lit : Ideal.ofBits .f32 0x7F800000#32 = (⊤ : EReal) := by
  simp [Ideal.ofBits, Ideal.ieee]

/-- |x| < +∞ leaves x finite: at x = ⊤ the maximum max x (-x) is ⊤, and at x = ⊥ it is -⊥ = ⊤. -/
theorem fin_of_abs_lt (x : EReal) (h : Ideal.cmp .olt (max x (-x)) (Ideal.ofBits .f32 0x7F800000#32) = 1#1) :
    x ≠ ⊤ ∧ x ≠ ⊥ := by
  rw [top_lit] at h
  constructor
  · rintro rfl
    simp [Ideal.cmp] at h
  · rintro rfl
    simp [Ideal.cmp] at h

/-- One conjunct of the predicate: the all-reduction of |x| < +∞ over an array being 1 makes every entry finite. -/
theorem fin_of_all {s : Shape} {axes : List (Fin s.rank)} {u : Shape} (x : FVec Ideal s .f32) (init : IVec u 1)
    (bc : (⟨0, ![]⟩ : Shape).BroadcastsInDim s (![] : Fin 0 → Fin s.rank)) (hr : s.ReducesTo axes ⟨0, ![]⟩) (hu : 0 < u.numel)
    (e : Host.reduce IntOp.andi (cmpf .olt (Host.absf x) (broadcastInDim s ![] bc (constant ⟨0, ![]⟩ .f32 0x7F800000#32))) init hr hu ValueIdx.ix0 = 1#1)
    (i : s.Idx) : x i ≠ ⊤ ∧ x i ≠ ⊥ :=
  fin_of_abs_lt (x i) (Host.reduce_andi_all _ init hr hu ValueIdx.ix0 e i)

/-- The precondition read back: the printed predicate is the conjunction, over the 24 float arguments, of
    "every entry's absolute value is below +∞"; where it holds every entry of every float argument is a real number. -/
theorem fin_of_pre [Cert.Pre_finite_inputs.Facts] (a0 : FVec Ideal Cert.Pre_finite_inputs.S50000x128 .f32) (a1 : FVec Ideal Cert.Pre_finite_inputs.S128x128 .f32) (a2 : FVec Ideal Cert.Pre_finite_inputs.S3x128x128 .f32) (a3 : FVec Ideal Cert.Pre_finite_inputs.S3x128 .f32) (a4 : FVec Ideal Cert.Pre_finite_inputs.S256x2 .f32) (a5 : FVec Ideal Cert.Pre_finite_inputs.S2 .f32) (a6 : FVec Ideal Cert.Pre_finite_inputs.S128x2 .f32) (a7 : FVec Ideal Cert.Pre_finite_inputs.S2 .f32) (a8 : FVec Ideal Cert.Pre_finite_inputs.S128x128 .f32) (a9 : FVec Ideal Cert.Pre_finite_inputs.S128 .f32) (a10 : FVec Ideal Cert.Pre_finite_inputs.S128x128 .f32) (a11 : FVec Ideal Cert.Pre_finite_inputs.S128 .f32) (a12 : FVec Ideal Cert.Pre_finite_inputs.S128x128 .f32) (a13 : FVec Ideal Cert.Pre_finite_inputs.S128 .f32) (a14 : FVec Ideal Cert.Pre_finite_inputs.S128x10 .f32) (a15 : FVec Ideal Cert.Pre_finite_inputs.S10 .f32) (a16 : FVec Ideal Cert.Pre_finite_inputs.S128x128 .f32) (a17 : FVec Ideal Cert.Pre_finite_inputs.S128 .f32) (a18 : FVec Ideal Cert.Pre_finite_inputs.S128x10 .f32) (a19 : FVec Ideal Cert.Pre_finite_inputs.S10 .f32) (a20 : FVec Ideal Cert.Pre_finite_inputs.S256x128 .f32) (a21 : FVec Ideal Cert.Pre_finite_inputs.S128 .f32) (a22 : FVec Ideal Cert.Pre_finite_inputs.S128x10 .f32) (a23 : FVec Ideal Cert.Pre_finite_inputs.S10 .f32) (a24 : IVec Cert.Pre_finite_inputs.S400000 32) (a25 : IVec Cert.Pre_finite_inputs.S400000 32) (a26 : IVec Cert.Pre_finite_inputs.S50000 32)
    (h : Cert.Pre_finite_inputs.fn (F := Ideal) a0 a1 a2 a3 a4 a5 a6 a7 a8 a9 a10 a11 a12 a13 a14 a15 a16 a17 a18 a19 a20 a21 a22 a23 a24 a25 a26 = fun _ => 1#1) :
    (∀ i, a0 i ≠ ⊤ ∧ a0 i ≠ ⊥)
      ∧ (∀ i, a1 i ≠ ⊤ ∧ a1 i ≠ ⊥)
      ∧ (∀ i, a2 i ≠ ⊤ ∧ a2 i ≠ ⊥)
      ∧ (∀ i, a3 i ≠ ⊤ ∧ a3 i ≠ ⊥)
      ∧ (∀ i, a4 i ≠ ⊤ ∧ a4 i ≠ ⊥)
      ∧ (∀ i, a5 i ≠ ⊤ ∧ a5 i ≠ ⊥)
      ∧ (∀ i, a6 i ≠ ⊤ ∧ a6 i ≠ ⊥)
      ∧ (∀ i, a7 i ≠ ⊤ ∧ a7 i ≠ ⊥)
      ∧ (∀ i, a8 i ≠ ⊤ ∧ a8 i ≠ ⊥)
      ∧ (∀ i, a9 i ≠ ⊤ ∧ a9 i ≠ ⊥)
      ∧ (∀ i, a10 i ≠ ⊤ ∧ a10 i ≠ ⊥)
      ∧ (∀ i, a11 i ≠ ⊤ ∧ a11 i ≠ ⊥)
      ∧ (∀ i, a12 i ≠ ⊤ ∧ a12 i ≠ ⊥)
      ∧ (∀ i, a13 i ≠ ⊤ ∧ a13 i ≠ ⊥)
      ∧ (∀ i, a14 i ≠ ⊤ ∧ a14 i ≠ ⊥)
      ∧ (∀ i, a15 i ≠ ⊤ ∧ a15 i ≠ ⊥)
      ∧ (∀ i, a16 i ≠ ⊤ ∧ a16 i ≠ ⊥)
      ∧ (∀ i, a17 i ≠ ⊤ ∧ a17 i ≠ ⊥)
      ∧ (∀ i, a18 i ≠ ⊤ ∧ a18 i ≠ ⊥)
      ∧ (∀ i, a19 i ≠ ⊤ ∧ a19 i ≠ ⊥)
      ∧ (∀ i, a20 i ≠ ⊤ ∧ a20 i ≠ ⊥)
      ∧ (∀ i, a21 i ≠ ⊤ ∧ a21 i ≠ ⊥)
      ∧ (∀ i, a22 i ≠ ⊤ ∧ a22 i ≠ ⊥)
      ∧ (∀ i, a23 i ≠ ⊤ ∧ a23 i ≠ ⊥) := by
  have h0 := congrFun h ValueIdx.ix0
  obtain ⟨h0, e23⟩ := IntOp.andi_eq_one.1 h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨fun i => fin_of_all _ _ _ _ _ h0 i,
    fun i => fin_of_all _ _ _ _ _ e1 i,
    fun i => fin_of_all _ _ _ _ _ e2 i,
    fun i => fin_of_all _ _ _ _ _ e3 i,
    fun i => fin_of_all _ _ _ _ _ e4 i,
    fun i => fin_of_all _ _ _ _ _ e5 i,
    fun i => fin_of_all _ _ _ _ _ e6 i,
    fun i => fin_of_all _ _ _ _ _ e7 i,
    fun i => fin_of_all _ _ _ _ _ e8 i,
    fun i => fin_of_all _ _ _ _ _ e9 i,
    fun i => fin_of_all _ _ _ _ _ e10 i,
    fun i => fin_of_all _ _ _ _ _ e11 i,
    fun i => fin_of_all _ _ _ _ _ e12 i,
    fun i => fin_of_all _ _ _ _ _ e13 i,
    fun i => fin_of_all _ _ _ _ _ e14 i,
    fun i => fin_of_all _ _ _ _ _ e15 i,
    fun i => fin_of_all _ _ _ _ _ e16 i,
    fun i => fin_of_all _ _ _ _ _ e17 i,
    fun i => fin_of_all _ _ _ _ _ e18 i,
    fun i => fin_of_all _ _ _ _ _ e19 i,
    fun i => fin_of_all _ _ _ _ _ e20 i,
    fun i => fin_of_all _ _ _ _ _ e21 i,
    fun i => fin_of_all _ _ _ _ _ e22 i,
    fun i => fin_of_all _ _ _ _ _ e23 i⟩

end Cert.StageArgs
-- ==== Proof.StageArgsFin.lean ====
/-
  The float arguments are finite: the precondition says every entry of every float argument's launch contents has
  absolute value below +∞, so it is a real number, and an argument ends with its launch contents.
-/
import proofs.«407945_j8993661518245_1_alg».proof.Defs
import proofs.«407945_j8993661518245_1_alg».proof.Proof.Gen.Pre_finite_inputs
import proofs.«407945_j8993661518245_1_alg».proof.Proof.Iface
import proofs.«407945_j8993661518245_1_alg».proof.Proof.KCarry
import proofs.«407945_j8993661518245_1_alg».proof.Proof.ArgsFinite

noncomputable section

namespace Cert.StageArgs

open Idealize.ShloMosaic Idealize.SL.Sem Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The precondition at one device, read back: every entry of every float argument's launch contents is a real number. -/
theorem launch_fin (hpre : Cert.Pre_KernelIdeal m) :
    AllFin (S := Cert.KernelIdeal.S50000x128) (m ((c.tc : Thread Cert.KernelIdeal.nD Cert.KernelIdeal.τ).loc Cert.KernelIdeal.main_arg0))
    ∧ AllFin (S := Cert.KernelIdeal.S128x128) (m ((c.tc : Thread Cert.KernelIdeal.nD Cert.KernelIdeal.τ).loc Cert.KernelIdeal.main_arg1))
    ∧ AllFin (S := Cert.KernelIdeal.S3x128x128) (m ((c.tc : Thread Cert.KernelIdeal.nD Cert.KernelIdeal.τ).loc Cert.KernelIdeal.main_arg2))
    ∧ AllFin (S := Cert.KernelIdeal.S3x128) (m ((c.tc : Thread Cert.KernelIdeal.nD Cert.KernelIdeal.τ).loc Cert.KernelIdeal.main_arg3))
    ∧ AllFin (S := Cert.KernelIdeal.S256x2) (m ((c.tc : Thread Cert.KernelIdeal.nD Cert.KernelIdeal.τ).loc Cert.KernelIdeal.main_arg4))
    ∧ AllFin (S := Cert.KernelIdeal.S2) (m ((c.tc : Thread Cert.KernelIdeal.nD Cert.KernelIdeal.τ).loc Cert.KernelIdeal.main_arg5))
    ∧ AllFin (S := Cert.KernelIdeal.S128x2) (m ((c.tc : Thread Cert.KernelIdeal.nD Cert.KernelIdeal.τ).loc Cert.KernelIdeal.main_arg6))
    ∧ AllFin (S := Cert.KernelIdeal.S2) (m ((c.tc : Thread Cert.KernelIdeal.nD Cert.KernelIdeal.τ).loc Cert.KernelIdeal.main_arg7))
    ∧ AllFin (S := Cert.KernelIdeal.S128x128) (m ((c.tc : Thread Cert.KernelIdeal.nD Cert.KernelIdeal.τ).loc Cert.KernelIdeal.main_arg8))
    ∧ AllFin (S := Cert.KernelIdeal.S128) (m ((c.tc : Thread Cert.KernelIdeal.nD Cert.KernelIdeal.τ).loc Cert.KernelIdeal.main_arg9))
    ∧ AllFin (S := Cert.KernelIdeal.S128x128) (m ((c.tc : Thread Cert.KernelIdeal.nD Cert.KernelIdeal.τ).loc Cert.KernelIdeal.main_arg10))
    ∧ AllFin (S := Cert.KernelIdeal.S128) (m ((c.tc : Thread Cert.KernelIdeal.nD Cert.KernelIdeal.τ).loc Cert.KernelIdeal.main_arg11))
    ∧ AllFin (S := Cert.KernelIdeal.S128x128) (m ((c.tc : Thread Cert.KernelIdeal.nD Cert.KernelIdeal.τ).loc Cert.KernelIdeal.main_arg12))
    ∧ AllFin (S := Cert.KernelIdeal.S128) (m ((c.tc : Thread Cert.KernelIdeal.nD Cert.KernelIdeal.τ).loc Cert.KernelIdeal.main_arg13))
    ∧ AllFin (S := Cert.KernelIdeal.S128x10) (m ((c.tc : Thread Cert.KernelIdeal.nD Cert.KernelIdeal.τ).loc Cert.KernelIdeal.main_arg14))
    ∧ AllFin (S := Cert.KernelIdeal.S10) (m ((c.tc : Thread Cert.KernelIdeal.nD Cert.KernelIdeal.τ).loc Cert.KernelIdeal.main_arg15))
    ∧ AllFin (S := Cert.KernelIdeal.S128x128) (m ((c.tc : Thread Cert.KernelIdeal.nD Cert.KernelIdeal.τ).loc Cert.KernelIdeal.main_arg16))
    ∧ AllFin (S := Cert.KernelIdeal.S128) (m ((c.tc : Thread Cert.KernelIdeal.nD Cert.KernelIdeal.τ).loc Cert.KernelIdeal.main_arg17))
    ∧ AllFin (S := Cert.KernelIdeal.S128x10) (m ((c.tc : Thread Cert.KernelIdeal.nD Cert.KernelIdeal.τ).loc Cert.KernelIdeal.main_arg18))
    ∧ AllFin (S := Cert.KernelIdeal.S10) (m ((c.tc : Thread Cert.KernelIdeal.nD Cert.KernelIdeal.τ).loc Cert.KernelIdeal.main_arg19))
    ∧ AllFin (S := Cert.KernelIdeal.S256x128) (m ((c.tc : Thread Cert.KernelIdeal.nD Cert.KernelIdeal.τ).loc Cert.KernelIdeal.main_arg20))
    ∧ AllFin (S := Cert.KernelIdeal.S128) (m ((c.tc : Thread Cert.KernelIdeal.nD Cert.KernelIdeal.τ).loc Cert.KernelIdeal.main_arg21))
    ∧ AllFin (S := Cert.KernelIdeal.S128x10) (m ((c.tc : Thread Cert.KernelIdeal.nD Cert.KernelIdeal.τ).loc Cert.KernelIdeal.main_arg22))
    ∧ AllFin (S := Cert.KernelIdeal.S10) (m ((c.tc : Thread Cert.KernelIdeal.nD Cert.KernelIdeal.τ).loc Cert.KernelIdeal.main_arg23)) :=
  fin_of_pre _ _ _ _ _ _ _ _ _ _ _ _ _ _ _ _ _ _ _ _ _ _ _ _ _ _ _ (hpre c)

theorem arg_fin0 (hpre : Cert.Pre_KernelIdeal m) :
    AllFin (Kf m ρ c Cert.KernelIdeal.main_arg0 : Cert.KernelIdeal.S50000x128.Idx → EReal) := by
  have e : (Kf m ρ c Cert.KernelIdeal.main_arg0 : Cert.KernelIdeal.S50000x128.Idx → EReal) = m ((c.tc : Thread Cert.KernelIdeal.nD Cert.KernelIdeal.τ).loc Cert.KernelIdeal.main_arg0) := Cert.KernelIdeal.KCarry.arg0 m ρ c
  rw [e]
  exact (launch_fin m c hpre).1
theorem arg_fin1 (hpre : Cert.Pre_KernelIdeal m) :
    AllFin (Kf m ρ c Cert.KernelIdeal.main_arg1 : Cert.KernelIdeal.S128x128.Idx → EReal) := by
  have e : (Kf m ρ c Cert.KernelIdeal.main_arg1 : Cert.KernelIdeal.S128x128.Idx → EReal) = m ((c.tc : Thread Cert.KernelIdeal.nD Cert.KernelIdeal.τ).loc Cert.KernelIdeal.main_arg1) := Cert.KernelIdeal.KCarry.arg1 m ρ c
  rw [e]
  exact (launch_fin m c hpre).2.1
theorem arg_fin2 (hpre : Cert.Pre_KernelIdeal m) :
    AllFin (Kf m ρ c Cert.KernelIdeal.main_arg2 : Cert.KernelIdeal.S3x128x128.Idx → EReal) := by
  have e : (Kf m ρ c Cert.KernelIdeal.main_arg2 : Cert.KernelIdeal.S3x128x128.Idx → EReal) = m ((c.tc : Thread Cert.KernelIdeal.nD Cert.KernelIdeal.τ).loc Cert.KernelIdeal.main_arg2) := Cert.KernelIdeal.KCarry.arg2 m ρ c
  rw [e]
  exact (launch_fin m c hpre).2.2.1
theorem arg_fin3 (hpre : Cert.Pre_KernelIdeal m) :
    AllFin (Kf m ρ c Cert.KernelIdeal.main_arg3 : Cert.KernelIdeal.S3x128.Idx → EReal) := by
  have e : (Kf m ρ c Cert.KernelIdeal.main_arg3 : Cert.KernelIdeal.S3x128.Idx → EReal) = m ((c.tc : Thread Cert.KernelIdeal.nD Cert.KernelIdeal.τ).loc Cert.KernelIdeal.main_arg3) := Cert.KernelIdeal.KCarry.arg3 m ρ c
  rw [e]
  exact (launch_fin m c hpre).2.2.2.1
theorem arg_fin4 (hpre : Cert.Pre_KernelIdeal m) :
    AllFin (Kf m ρ c Cert.KernelIdeal.main_arg4 : Cert.KernelIdeal.S256x2.Idx → EReal) := by
  have e : (Kf m ρ c Cert.KernelIdeal.main_arg4 : Cert.KernelIdeal.S256x2.Idx → EReal) = m ((c.tc : Thread Cert.KernelIdeal.nD Cert.KernelIdeal.τ).loc Cert.KernelIdeal.main_arg4) := Cert.KernelIdeal.KCarry.arg4 m ρ c
  rw [e]
  exact (launch_fin m c hpre).2.2.2.2.1
theorem arg_fin5 (hpre : Cert.Pre_KernelIdeal m) :
    AllFin (Kf m ρ c Cert.KernelIdeal.main_arg5 : Cert.KernelIdeal.S2.Idx → EReal) := by
  have e : (Kf m ρ c Cert.KernelIdeal.main_arg5 : Cert.KernelIdeal.S2.Idx → EReal) = m ((c.tc : Thread Cert.KernelIdeal.nD Cert.KernelIdeal.τ).loc Cert.KernelIdeal.main_arg5) := Cert.KernelIdeal.KCarry.arg5 m ρ c
  rw [e]
  exact (launch_fin m c hpre).2.2.2.2.2.1
theorem arg_fin6 (hpre : Cert.Pre_KernelIdeal m) :
    AllFin (Kf m ρ c Cert.KernelIdeal.main_arg6 : Cert.KernelIdeal.S128x2.Idx → EReal) := by
  have e : (Kf m ρ c Cert.KernelIdeal.main_arg6 : Cert.KernelIdeal.S128x2.Idx → EReal) = m ((c.tc : Thread Cert.KernelIdeal.nD Cert.KernelIdeal.τ).loc Cert.KernelIdeal.main_arg6) := Cert.KernelIdeal.KCarry.arg6 m ρ c
  rw [e]
  exact (launch_fin m c hpre).2.2.2.2.2.2.1
theorem arg_fin7 (hpre : Cert.Pre_KernelIdeal m) :
    AllFin (Kf m ρ c Cert.KernelIdeal.main_arg7 : Cert.KernelIdeal.S2.Idx → EReal) := by
  have e : (Kf m ρ c Cert.KernelIdeal.main_arg7 : Cert.KernelIdeal.S2.Idx → EReal) = m ((c.tc : Thread Cert.KernelIdeal.nD Cert.KernelIdeal.τ).loc Cert.KernelIdeal.main_arg7) := Cert.KernelIdeal.KCarry.arg7 m ρ c
  rw [e]
  exact (launch_fin m c hpre).2.2.2.2.2.2.2.1
theorem arg_fin8 (hpre : Cert.Pre_KernelIdeal m) :
    AllFin (Kf m ρ c Cert.KernelIdeal.main_arg8 : Cert.KernelIdeal.S128x128.Idx → EReal) := by
  have e : (Kf m ρ c Cert.KernelIdeal.main_arg8 : Cert.KernelIdeal.S128x128.Idx → EReal) = m ((c.tc : Thread Cert.KernelIdeal.nD Cert.KernelIdeal.τ).loc Cert.KernelIdeal.main_arg8) := Cert.KernelIdeal.KCarry.arg8 m ρ c
  rw [e]
  exact (launch_fin m c hpre).2.2.2.2.2.2.2.2.1
theorem arg_fin9 (hpre : Cert.Pre_KernelIdeal m) :
    AllFin (Kf m ρ c Cert.KernelIdeal.main_arg9 : Cert.KernelIdeal.S128.Idx → EReal) := by
  have e : (Kf m ρ c Cert.KernelIdeal.main_arg9 : Cert.KernelIdeal.S128.Idx → EReal) = m ((c.tc : Thread Cert.KernelIdeal.nD Cert.KernelIdeal.τ).loc Cert.KernelIdeal.main_arg9) := Cert.KernelIdeal.KCarry.arg9 m ρ c
  rw [e]
  exact (launch_fin m c hpre).2.2.2.2.2.2.2.2.2.1
theorem arg_fin10 (hpre : Cert.Pre_KernelIdeal m) :
    AllFin (Kf m ρ c Cert.KernelIdeal.main_arg10 : Cert.KernelIdeal.S128x128.Idx → EReal) := by
  have e : (Kf m ρ c Cert.KernelIdeal.main_arg10 : Cert.KernelIdeal.S128x128.Idx → EReal) = m ((c.tc : Thread Cert.KernelIdeal.nD Cert.KernelIdeal.τ).loc Cert.KernelIdeal.main_arg10) := Cert.KernelIdeal.KCarry.arg10 m ρ c
  rw [e]
  exact (launch_fin m c hpre).2.2.2.2.2.2.2.2.2.2.1
theorem arg_fin11 (hpre : Cert.Pre_KernelIdeal m) :
    AllFin (Kf m ρ c Cert.KernelIdeal.main_arg11 : Cert.KernelIdeal.S128.Idx → EReal) := by
  have e : (Kf m ρ c Cert.KernelIdeal.main_arg11 : Cert.KernelIdeal.S128.Idx → EReal) = m ((c.tc : Thread Cert.KernelIdeal.nD Cert.KernelIdeal.τ).loc Cert.KernelIdeal.main_arg11) := Cert.KernelIdeal.KCarry.arg11 m ρ c
  rw [e]
  exact (launch_fin m c hpre).2.2.2.2.2.2.2.2.2.2.2.1
theorem arg_fin12 (hpre : Cert.Pre_KernelIdeal m) :
    AllFin (Kf m ρ c Cert.KernelIdeal.main_arg12 : Cert.KernelIdeal.S128x128.Idx → EReal) := by
  have e : (Kf m ρ c Cert.KernelIdeal.main_arg12 : Cert.KernelIdeal.S128x128.Idx → EReal) = m ((c.tc : Thread Cert.KernelIdeal.nD Cert.KernelIdeal.τ).loc Cert.KernelIdeal.main_arg12) := Cert.KernelIdeal.KCarry.arg12 m ρ c
  rw [e]
  exact (launch_fin m c hpre).2.2.2.2.2.2.2.2.2.2.2.2.1
theorem arg_fin13 (hpre : Cert.Pre_KernelIdeal m) :
    AllFin (Kf m ρ c Cert.KernelIdeal.main_arg13 : Cert.KernelIdeal.S128.Idx → EReal) := by
  have e : (Kf m ρ c Cert.KernelIdeal.main_arg13 : Cert.KernelIdeal.S128.Idx → EReal) = m ((c.tc : Thread Cert.KernelIdeal.nD Cert.KernelIdeal.τ).loc Cert.KernelIdeal.main_arg13) := Cert.KernelIdeal.KCarry.arg13 m ρ c
  rw [e]
  exact (launch_fin m c hpre).2.2.2.2.2.2.2.2.2.2.2.2.2.1
theorem arg_fin14 (hpre : Cert.Pre_KernelIdeal m) :
    AllFin (Kf m ρ c Cert.KernelIdeal.main_arg14 : Cert.KernelIdeal.S128x10.Idx → EReal) := by
  have e : (Kf m ρ c Cert.KernelIdeal.main_arg14 : Cert.KernelIdeal.S128x10.Idx → EReal) = m ((c.tc : Thread Cert.KernelIdeal.nD Cert.KernelIdeal.τ).loc Cert.KernelIdeal.main_arg14) := Cert.KernelIdeal.KCarry.arg14 m ρ c
  rw [e]
  exact (launch_fin m c hpre).2.2.2.2.2.2.2.2.2.2.2.2.2.2.1
theorem arg_fin15 (hpre : Cert.Pre_KernelIdeal m) :
    AllFin (Kf m ρ c Cert.KernelIdeal.main_arg15 : Cert.KernelIdeal.S10.Idx → EReal) := by
  have e : (Kf m ρ c Cert.KernelIdeal.main_arg15 : Cert.KernelIdeal.S10.Idx → EReal) = m ((c.tc : Thread Cert.KernelIdeal.nD Cert.KernelIdeal.τ).loc Cert.KernelIdeal.main_arg15) := Cert.KernelIdeal.KCarry.arg15 m ρ c
  rw [e]
  exact (launch_fin m c hpre).2.2.2.2.2.2.2.2.2.2.2.2.2.2.2.1
theorem arg_fin16 (hpre : Cert.Pre_KernelIdeal m) :
    AllFin (Kf m ρ c Cert.KernelIdeal.main_arg16 : Cert.KernelIdeal.S128x128.Idx → EReal) := by
  have e : (Kf m ρ c Cert.KernelIdeal.main_arg16 : Cert.KernelIdeal.S128x128.Idx → EReal) = m ((c.tc : Thread Cert.KernelIdeal.nD Cert.KernelIdeal.τ).loc Cert.KernelIdeal.main_arg16) := Cert.KernelIdeal.KCarry.arg16 m ρ c
  rw [e]
  exact (launch_fin m c hpre).2.2.2.2.2.2.2.2.2.2.2.2.2.2.2.2.1
theorem arg_fin17 (hpre : Cert.Pre_KernelIdeal m) :
    AllFin (Kf m ρ c Cert.KernelIdeal.main_arg17 : Cert.KernelIdeal.S128.Idx → EReal) := by
  have e : (Kf m ρ c Cert.KernelIdeal.main_arg17 : Cert.KernelIdeal.S128.Idx → EReal) = m ((c.tc : Thread Cert.KernelIdeal.nD Cert.KernelIdeal.τ).loc Cert.KernelIdeal.main_arg17) := Cert.KernelIdeal.KCarry.arg17 m ρ c
  rw [e]
  exact (launch_fin m c hpre).2.2.2.2.2.2.2.2.2.2.2.2.2.2.2.2.2.1
theorem arg_fin18 (hpre : Cert.Pre_KernelIdeal m) :
    AllFin (Kf m ρ c Cert.KernelIdeal.main_arg18 : Cert.KernelIdeal.S128x10.Idx → EReal) := by
  have e : (Kf m ρ c Cert.KernelIdeal.main_arg18 : Cert.KernelIdeal.S128x10.Idx → EReal) = m ((c.tc : Thread Cert.KernelIdeal.nD Cert.KernelIdeal.τ).loc Cert.KernelIdeal.main_arg18) := Cert.KernelIdeal.KCarry.arg18 m ρ c
  rw [e]
  exact (launch_fin m c hpre).2.2.2.2.2.2.2.2.2.2.2.2.2.2.2.2.2.2.1
theorem arg_fin19 (hpre : Cert.Pre_KernelIdeal m) :
    AllFin (Kf m ρ c Cert.KernelIdeal.main_arg19 : Cert.KernelIdeal.S10.Idx → EReal) := by
  have e : (Kf m ρ c Cert.KernelIdeal.main_arg19 : Cert.KernelIdeal.S10.Idx → EReal) = m ((c.tc : Thread Cert.KernelIdeal.nD Cert.KernelIdeal.τ).loc Cert.KernelIdeal.main_arg19) := Cert.KernelIdeal.KCarry.arg19 m ρ c
  rw [e]
  exact (launch_fin m c hpre).2.2.2.2.2.2.2.2.2.2.2.2.2.2.2.2.2.2.2.1
theorem arg_fin20 (hpre : Cert.Pre_KernelIdeal m) :
    AllFin (Kf m ρ c Cert.KernelIdeal.main_arg20 : Cert.KernelIdeal.S256x128.Idx → EReal) := by
  have e : (Kf m ρ c Cert.KernelIdeal.main_arg20 : Cert.KernelIdeal.S256x128.Idx → EReal) = m ((c.tc : Thread Cert.KernelIdeal.nD Cert.KernelIdeal.τ).loc Cert.KernelIdeal.main_arg20) := Cert.KernelIdeal.KCarry.arg20 m ρ c
  rw [e]
  exact (launch_fin m c hpre).2.2.2.2.2.2.2.2.2.2.2.2.2.2.2.2.2.2.2.2.1
theorem arg_fin21 (hpre : Cert.Pre_KernelIdeal m) :
    AllFin (Kf m ρ c Cert.KernelIdeal.main_arg21 : Cert.KernelIdeal.S128.Idx → EReal) := by
  have e : (Kf m ρ c Cert.KernelIdeal.main_arg21 : Cert.KernelIdeal.S128.Idx → EReal) = m ((c.tc : Thread Cert.KernelIdeal.nD Cert.KernelIdeal.τ).loc Cert.KernelIdeal.main_arg21) := Cert.KernelIdeal.KCarry.arg21 m ρ c
  rw [e]
  exact (launch_fin m c hpre).2.2.2.2.2.2.2.2.2.2.2.2.2.2.2.2.2.2.2.2.2.1
theorem arg_fin22 (hpre : Cert.Pre_KernelIdeal m) :
    AllFin (Kf m ρ c Cert.KernelIdeal.main_arg22 : Cert.KernelIdeal.S128x10.Idx → EReal) := by
  have e : (Kf m ρ c Cert.KernelIdeal.main_arg22 : Cert.KernelIdeal.S128x10.Idx → EReal) = m ((c.tc : Thread Cert.KernelIdeal.nD Cert.KernelIdeal.τ).loc Cert.KernelIdeal.main_arg22) := Cert.KernelIdeal.KCarry.arg22 m ρ c
  rw [e]
  exact (launch_fin m c hpre).2.2.2.2.2.2.2.2.2.2.2.2.2.2.2.2.2.2.2.2.2.2.1
theorem arg_fin23 (hpre : Cert.Pre_KernelIdeal m) :
    AllFin (Kf m ρ c Cert.KernelIdeal.main_arg23 : Cert.KernelIdeal.S10.Idx → EReal) := by
  have e : (Kf m ρ c Cert.KernelIdeal.main_arg23 : Cert.KernelIdeal.S10.Idx → EReal) = m ((c.tc : Thread Cert.KernelIdeal.nD Cert.KernelIdeal.τ).loc Cert.KernelIdeal.main_arg23) := Cert.KernelIdeal.KCarry.arg23 m ρ c
  rw [e]
  exact (launch_fin m c hpre).2.2.2.2.2.2.2.2.2.2.2.2.2.2.2.2.2.2.2.2.2.2.2

end Cert.StageArgs

end
-- ==== Proof.StageArgs.lean ====
/-
  The bottom of the chain: what the claim's hypotheses give about the 27 arguments at the two final states — each
  argument ends with its launch contents (StageArgsK), the two programs end with equal arguments (StageArgsEq), and the
  float arguments' entries are real numbers (StageArgsFin).
-/
import proofs.«407945_j8993661518245_1_alg».proof.Proof.StageArgsK
import proofs.«407945_j8993661518245_1_alg».proof.Proof.StageArgsEq
import proofs.«407945_j8993661518245_1_alg».proof.Proof.StageArgsFin
-- ==== Proof.RegStats0.lean ====
/-
  REGION 0: the column statistics of a [50000,128] array.

  The region walks the ten row blocks (5000 rows each) of its input array x. At the first block it clears two [1,128]
  accumulators; at every block it adds to the first the block's column sums and to the second the column sums of the
  block's squares. The accumulators' buffers are written back once, after the last block. Over the extended reals
  addition is commutative and associative with no finiteness assumption and 0 + s = s, so the ten block sums regroup
  into one sum over the 50000 rows (row = 5000·t + q): after the region, for ANY contents V it is entered with,

      output 1 at (0, j) = ∑ r, x (r, j)        output 2 at (0, j) = ∑ r, x (r, j) * x (r, j)

  and the input array is as the region found it.

  The steps. (1) Sums over the rows taken block by block: a function of the rows continued by zero, summed over the
  naturals below 5000·(n+1) (the rows of the first n + 1 blocks). (2) The body's two payloads at an index (0, j): the value carried in plus the block's
  column sum (of the entries, of their squares); the cleared accumulator is 0 there. (3) What each control case of the
  body leaves in an accumulator's buffer is that payload of the block and of what the buffer held. (4) A row block
  read at (q, j) is the array at row 5000·t + q. (5) By induction on the grid point: after point n the accumulators
  hold the sums over the first 5000·(n+1) rows. (6) The one write-back, at the last point, carries the whole [1,128]
  array, so the arrays end holding the sums over all rows.
-/
import proofs.«407945_j8993661518245_1_alg».proof.Proof.FrameKI
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.RegStats0

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! ## (1) Sums over the rows, block by block -/

/-- A function of the 50000 rows, continued by zero past the last row. -/
def ext (f : Fin 50000 → EReal) (r : ℕ) : EReal := if h : r < 50000 then f ⟨r, h⟩ else 0

/-- Summed over all naturals below 50000 it is the sum over the rows. -/
theorem sum_ext_all (f : Fin 50000 → EReal) : ∑ r ∈ Finset.range 50000, ext f r = ∑ r : Fin 50000, f r := by
  rw [Finset.sum_range]
  exact Finset.sum_congr rfl fun r _ => dif_pos r.isLt

/-- One more block of 5000 rows starting at row a: the rows below a + 5000 are the rows below a and the rows a + q. -/
theorem sum_ext_block (f : Fin 50000 → EReal) (a : ℕ) (ha : a + 5000 ≤ 50000) :
    ∑ r ∈ Finset.range (a + 5000), ext f r
      = ∑ r ∈ Finset.range a, ext f r + ∑ q : Fin 5000, f ⟨a + q.val, by have := q.isLt; omega⟩ := by
  refine (Finset.sum_range_add _ _ _).trans ?_
  congr 1
  rw [Finset.sum_range]
  exact Finset.sum_congr rfl fun q _ => dif_pos _

/-- The sum of f over the rows of the first n + 1 blocks. -/
def firstBlocks (f : Fin 50000 → EReal) (n : ℕ) : EReal := ∑ r ∈ Finset.range (5000 * (n + 1)), ext f r

/-- The first block alone. -/
theorem firstBlocks_zero (f : Fin 50000 → EReal) :
    firstBlocks f 0 = ∑ q : Fin 5000, f ⟨5000 * 0 + q.val, by have := q.isLt; omega⟩ := by
  have z : ∑ r ∈ Finset.range (5000 * 0), ext f r = 0 := Finset.sum_range_zero _
  show ∑ r ∈ Finset.range (5000 * 0 + 5000), ext f r = _
  rw [sum_ext_block f (5000 * 0) (by omega), z, zero_add]

/-- One more block. -/
theorem firstBlocks_succ (f : Fin 50000 → EReal) (n : ℕ) (hn : n + 1 < 10) :
    firstBlocks f (n + 1) = firstBlocks f n + ∑ q : Fin 5000, f ⟨5000 * (n + 1) + q.val, by have := q.isLt; omega⟩ := by
  have e : 5000 * (n + 1 + 1) = 5000 * (n + 1) + 5000 := by omega
  unfold firstBlocks
  rw [e]
  exact sum_ext_block f (5000 * (n + 1)) (by omega)

/-- All ten blocks: every row. -/
theorem firstBlocks_last (f : Fin 50000 → EReal) : firstBlocks f 9 = ∑ r : Fin 50000, f r :=
  sum_ext_all f

/-! ## (2) The body's payloads at an index (0, j) -/

/-- A [128] vector viewed [1,128] reads (0, j) at j. -/
theorem addUnit_read (v : FVec Ideal S128 .f32) (h : S128.ShapeCasts S1x128) (j : Fin 128) :
    shapeCast S1x128 v h (ix2 0 j) = v (ix1 j) :=
  (shapeCast_addUnit_apply (n := 1) ![128] v h (ix2 0 j)).trans
    (congrArg v (funext fun a => match a with | ⟨0, _⟩ => rfl))

/-- The sum of a [5000,128] block along its rows, at column j: the index over j with row q inserted is (q, j). -/
theorem reduce_read (x : FVec Ideal S5000x128 .f32) (hr : S5000x128.Reduces [0] S128) (hφ : FKind.Formats .f32)
    (hacc : (0x00000000#32 : BitVec 32) = FKind.add.neutral .f32 hφ) (j : Fin 128) :
    multiReduction .add [0] S128 x 0x00000000#32 hr hφ hacc (ix1 j) = ∑ q : Fin 5000, x (ix2 q j) := by
  refine (Ideal.multiReduction_add_single x 0x00000000#32 hr hφ hacc (ix1 j)).trans ?_
  show ∑ k : Fin 5000, x (hr.lift (ix1 j) k) = _
  refine Finset.sum_congr rfl fun k _ => congrArg x ?_
  funext a; apply Fin.ext
  match a with
  | ⟨0, _⟩ => rfl
  | ⟨1, _⟩ => rfl

/-- The accumulating step at (0, j): what was carried in plus the block's column sum. -/
theorem acc_read (x : FVec Ideal S5000x128 .f32) (acc : FVec Ideal S1x128 .f32) (h1 : S1x128.ShapeCasts S1x128)
    (hr : S5000x128.Reduces [0] S128) (h2 : S128.ShapeCasts S1x128) (hφ : FKind.Formats .f32)
    (hacc : (0x00000000#32 : BitVec 32) = FKind.add.neutral .f32 hφ) (j : Fin 128) :
    addf (shapeCast S1x128 acc h1) (shapeCast S1x128 (multiReduction .add [0] S128 x 0x00000000#32 hr hφ hacc) h2) (ix2 0 j)
      = acc (ix2 0 j) + ∑ q : Fin 5000, x (ix2 q j) := by
  show shapeCast S1x128 acc h1 (ix2 0 j)
    + shapeCast S1x128 (multiReduction .add [0] S128 x 0x00000000#32 hr hφ hacc) h2 (ix2 0 j) = _
  rw [shapeCast_self, addUnit_read, reduce_read]

/-- The loaded block as the two sums read it. -/
abbrev inblk (x : Vec Ideal S5000x128 .f32) : FVec Ideal S5000x128 .f32 := x
theorem inblk_eq (x : Vec Ideal S5000x128 .f32) : inblk x = x := rfl

/-- The first sum's payload at (0, j). -/
theorem sum_pay_apply (x : Vec Ideal S5000x128 .f32) (acc : Vec Ideal S1x128 .f32) (j : Fin 128) :
    k0_pay3 x acc (ix2 0 j) = acc (ix2 0 j) + ∑ q : Fin 5000, x (ix2 q j) :=
  (acc_read (inblk x) acc _ _ _ _ _ j).trans (by rw [inblk_eq])

/-- The second sum's payload at (0, j): the block's squares summed. -/
theorem sq_pay_apply (x : Vec Ideal S5000x128 .f32) (acc : Vec Ideal S1x128 .f32) (j : Fin 128) :
    k0_pay4 x acc (ix2 0 j) = acc (ix2 0 j) + ∑ q : Fin 5000, x (ix2 q j) * x (ix2 q j) :=
  (acc_read (mulf (inblk x) (inblk x)) acc _ _ _ _ _ j).trans (by rw [inblk_eq]; rfl)

/-- The cleared accumulators are 0 everywhere. -/
theorem clear1_apply (j : Fin 128) : (k0_pay1 (F := Ideal)) (ix2 0 j) = 0 := Ideal.ofBits_zero_f32
theorem clear2_apply (j : Fin 128) : (k0_pay2 (F := Ideal)) (ix2 0 j) = 0 := Ideal.ofBits_zero_f32

/-! ## (3) What each control case leaves in the accumulators' buffers -/

section Pieces

variable {F : FTy → Type} [FloatOps F]

theorem zeroOff : (![0, 0] : Fin 2 → Nat) = fun _ => 0 :=
  funext fun a => match a with | ⟨0, _⟩ => rfl | ⟨1, _⟩ => rfl

/-- A later point: the first accumulator's one store, of the payload of the block and of what the buffer held. -/
theorem later_1 (c : Dev nD) (i : grid0.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S5000x128 .f32) (xo1 xo2 : Vec F S1x128 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- A later point: the second accumulator's. -/
theorem later_2 (c : Dev nD) (i : grid0.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S5000x128 .f32) (xo1 xo2 : Vec F S1x128 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- The first point: the accumulator is cleared, read back, and the payload of the block and of the cleared value stored. -/
theorem first_1 (c : Dev nD) (i : grid0.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S5000x128 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

/-- The first point: the second accumulator's. -/
theorem first_2 (c : Dev nD) (i : grid0.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S5000x128 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

end Pieces

/-! ## (4) The input array and its row blocks -/

variable (V : (c : Dev nD) → (b : Ref sig .tc) → Buf (Elt Ideal) ((c : Thread nD τ).loc b))

/-- The input array as the region finds it, -/
abbrev xin (c : Dev nD) : S50000x128.Idx → EReal := V c (Pipeline.arrRef spec0 0)
/-- its row block at a grid point, -/
abbrev xblk (c : Dev nD) (t : Fin cfg0.N) : Vec Ideal S5000x128 .f32 := iblk0 V c 0 t
/-- and row q of block t as a row of the array. -/
abbrev row (t : Fin cfg0.N) (q : Fin 5000) : Fin 50000 :=
  ⟨5000 * t.val + q.val, by have := t.isLt; have hN : cfg0.N = 10 := N_0; have := q.isLt; omega⟩

/-- The input window's block index: the point on the row axis, 0 on the column axis. -/
theorem in_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Block t at (q, j) is the array at (5000·t + q, j). -/
theorem xblk_apply (c : Dev nD) (t : Fin cfg0.N) (q : Fin 5000) (j : Fin 128) :
    xblk V c t (ix2 q j) = xin V c (ix2 (row t q) j) := by
  obtain ⟨e0, e1⟩ := in_index t
  show V c (Pipeline.arrRef spec0 0) (((cfg0.win 0).blk t).view.emb (ix2 q j)) = V c (Pipeline.arrRef spec0 0) (ix2 (row t q) j)
  refine congrArg _ ?_
  funext a; apply Fin.ext
  match a with
  | ⟨0, _⟩ => show win0_0.index t (0 : Fin 2) * 5000 + 1 * q.val = 5000 * t.val + q.val; omega
  | ⟨1, _⟩ => show win0_0.index t (1 : Fin 2) * 128 + 1 * j.val = j.val; omega

/-! ## (5) The accumulators after each point -/

/-- Column j of the array, and of its squares, as functions of the row. -/
abbrev colf (c : Dev nD) (j : Fin 128) : Fin 50000 → EReal := fun r => xin V c (ix2 r j)
abbrev sqf (c : Dev nD) (j : Fin 128) : Fin 50000 → EReal := fun r => xin V c (ix2 r j) * xin V c (ix2 r j)

/-- A block's column sum is the column's sum over the block's rows; likewise for the squares. -/
theorem blk_colsum (c : Dev nD) (t : Fin cfg0.N) (j : Fin 128) :
    ∑ q : Fin 5000, xblk V c t (ix2 q j) = ∑ q : Fin 5000, colf V c j (row t q) :=
  Finset.sum_congr rfl fun q _ => xblk_apply V c t q j
theorem blk_sqsum (c : Dev nD) (t : Fin cfg0.N) (j : Fin 128) :
    ∑ q : Fin 5000, xblk V c t (ix2 q j) * xblk V c t (ix2 q j) = ∑ q : Fin 5000, sqf V c j (row t q) :=
  Finset.sum_congr rfl fun q _ => by rw [xblk_apply V c t q j]

/-- After point n the accumulators hold, at (0, j), the sums over the rows of the first n + 1 blocks. -/
theorem outs_eq (c : Dev nD) : ∀ (n : ℕ) (h : n < cfg0.N) (j : Fin 128),
    ((outsAt0 V c n h).1 : S1x128.Idx → EReal) (ix2 0 j) = firstBlocks (colf V c j) n
    ∧ ((outsAt0 V c n h).2 : S1x128.Idx → EReal) (ix2 0 j) = firstBlocks (sqf V c j) n
  | 0, h, j => by
    have hc : cond0_0 (grid0.coords ⟨0, h⟩) := (hcond0_0 ⟨0, h⟩).mpr rfl
    rw [outsAt0_A V c ⟨0, h⟩ rfl]
    dsimp only
    constructor
    · refine (congrFun (first_1 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) hc (xblk V c ⟨0, h⟩)) (ix2 0 j)).trans ?_
      refine (sum_pay_apply (xblk V c ⟨0, h⟩) (k0_pay1 (F := Ideal)) j).trans ?_
      rw [clear1_apply, zero_add, firstBlocks_zero]
      exact blk_colsum V c ⟨0, h⟩ j
    · refine (congrFun (first_2 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) hc (xblk V c ⟨0, h⟩)) (ix2 0 j)).trans ?_
      refine (sq_pay_apply (xblk V c ⟨0, h⟩) (k0_pay2 (F := Ideal)) j).trans ?_
      rw [clear2_apply, zero_add, firstBlocks_zero]
      exact blk_sqsum V c ⟨0, h⟩ j
  | n + 1, h, j => by
    have hN : cfg0.N = 10 := N_0
    have hB : ¬(⟨n + 1, h⟩ : Fin cfg0.N).val % 10 = 0 := by dsimp only; omega
    have hc : ¬cond0_0 (grid0.coords ⟨n + 1, h⟩) := fun hh => hB ((hcond0_0 ⟨n + 1, h⟩).mp hh)
    have ih := outs_eq c n (Nat.lt_of_succ_lt h) j
    rw [outsAt0_B V c ⟨n + 1, h⟩ hB]
    dsimp only
    constructor
    · refine (congrFun (later_1 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) hc (xblk V c ⟨n + 1, h⟩)
        (outsAt0 V c n (Nat.lt_of_succ_lt h)).1 (outsAt0 V c n (Nat.lt_of_succ_lt h)).2) (ix2 0 j)).trans ?_
      refine (sum_pay_apply (xblk V c ⟨n + 1, h⟩) (outsAt0 V c n (Nat.lt_of_succ_lt h)).1 j).trans ?_
      rw [firstBlocks_succ (colf V c j) n (by omega)]
      exact congrArg₂ (· + ·) ih.1 (blk_colsum V c ⟨n + 1, h⟩ j)
    · refine (congrFun (later_2 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) hc (xblk V c ⟨n + 1, h⟩)
        (outsAt0 V c n (Nat.lt_of_succ_lt h)).1 (outsAt0 V c n (Nat.lt_of_succ_lt h)).2) (ix2 0 j)).trans ?_
      refine (sq_pay_apply (xblk V c ⟨n + 1, h⟩) (outsAt0 V c n (Nat.lt_of_succ_lt h)).2 j).trans ?_
      rw [firstBlocks_succ (sqf V c j) n (by omega)]
      exact congrArg₂ (· + ·) ih.2 (blk_sqsum V c ⟨n + 1, h⟩ j)

/-! ## (6) The arrays after the region -/

/-- The column sums, and the column sums of squares, as [1,128] arrays. -/
def colSums (c : Dev nD) : S1x128.Idx → EReal := fun i => ∑ r : Fin 50000, xin V c (ix2 r ⟨(i 1).val, idx2_lt1 i⟩)
def sqSums (c : Dev nD) : S1x128.Idx → EReal :=
  fun i => ∑ r : Fin 50000, xin V c (ix2 r ⟨(i 1).val, idx2_lt1 i⟩) * xin V c (ix2 r ⟨(i 1).val, idx2_lt1 i⟩)

theorem colSums_apply (c : Dev nD) (j : Fin 128) : colSums V c (ix2 0 j) = ∑ r : Fin 50000, xin V c (ix2 r j) := rfl
theorem sqSums_apply (c : Dev nD) (j : Fin 128) :
    sqSums V c (ix2 0 j) = ∑ r : Fin 50000, xin V c (ix2 r j) * xin V c (ix2 r j) := rfl

/-- The accumulators' block index is (0, 0) at every point. -/
theorem out_index : ∀ t : Fin cfg0.N, (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, (win0_1.index t (0 : Fin 2) = 0 ∧ win0_1.index t (1 : Fin 2) = 0)
    ∧ (win0_2.index t (0 : Fin 2) = 0 ∧ win0_2.index t (1 : Fin 2) = 0))

/-- An accumulator's buffer is moved whole, and a block of a [1,128] array read through the window reads the array
    at the embedded index. -/
theorem cut1_apply (t : Fin cfg0.N) (X : Vec Ideal S1x128 .f32) (y : ((cfg0.win 1).xblock (grid0.coords t)).Idx) :
    (cfg0.win 1).cut (grid0.coords t) X y = X y := rfl
theorem read1_apply (t : Fin cfg0.N) (G : S1x128.Idx → EReal) (y : ((cfg0.win 1).xblock (grid0.coords t)).Idx) :
    ((cfg0.win 1).blk t).view.read (Elt Ideal) G y = G (((cfg0.win 1).blk t).view.emb y) := rfl
theorem cut2_apply (t : Fin cfg0.N) (X : Vec Ideal S1x128 .f32) (y : ((cfg0.win 2).xblock (grid0.coords t)).Idx) :
    (cfg0.win 2).cut (grid0.coords t) X y = X y := rfl
theorem read2_apply (t : Fin cfg0.N) (G : S1x128.Idx → EReal) (y : ((cfg0.win 2).xblock (grid0.coords t)).Idx) :
    ((cfg0.win 2).blk t).view.read (Elt Ideal) G y = G (((cfg0.win 2).blk t).view.emb y) := rfl

/-- The block of output 1 at any point is the whole array: an index (0, j) of the block is (0, j) of the array. -/
theorem emb1_eq (t : Fin cfg0.N) (j : Fin 128) : ((cfg0.win 1).blk t).view.emb (ix2 0 j) = ix2 0 j := by
  obtain ⟨⟨e0, e1⟩, -⟩ := out_index t
  funext a; apply Fin.ext
  match a with
  | ⟨0, _⟩ => show win0_1.index t (0 : Fin 2) * 1 + 1 * 0 = 0; omega
  | ⟨1, _⟩ => show win0_1.index t (1 : Fin 2) * 128 + 1 * j.val = j.val; omega
theorem emb2_eq (t : Fin cfg0.N) (j : Fin 128) : ((cfg0.win 2).blk t).view.emb (ix2 0 j) = ix2 0 j := by
  obtain ⟨-, ⟨e0, e1⟩⟩ := out_index t
  funext a; apply Fin.ext
  match a with
  | ⟨0, _⟩ => show win0_2.index t (0 : Fin 2) * 1 + 1 * 0 = 0; omega
  | ⟨1, _⟩ => show win0_2.index t (1 : Fin 2) * 128 + 1 * j.val = j.val; omega

/-- So a buffer that agrees with a [1,128] array G at every (0, j) is, moved through the window, G's block. -/
theorem flush1_of_cols (t : Fin cfg0.N) (X : Vec Ideal S1x128 .f32) (G : S1x128.Idx → EReal)
    (h : ∀ j : Fin 128, X (ix2 0 j) = G (ix2 0 j)) :
    (cfg0.win 1).cut (grid0.coords t) X = ((cfg0.win 1).blk t).view.read (Elt Ideal) G := by
  funext y
  rw [cut1_apply, read1_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb1_eq t j).symm)
theorem flush2_of_cols (t : Fin cfg0.N) (X : Vec Ideal S1x128 .f32) (G : S1x128.Idx → EReal)
    (h : ∀ j : Fin 128, X (ix2 0 j) = G (ix2 0 j)) :
    (cfg0.win 2).cut (grid0.coords t) X = ((cfg0.win 2).blk t).view.read (Elt Ideal) G := by
  funext y
  rw [cut2_apply, read2_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb2_eq t j).symm)

/-- What the one write-back of output 1 carries is the column sums (its block is the whole array). -/
theorem flushed1_eq (c : Dev nD) (t : Fin cfg0.N) (hf : (cfg0.win 1).flush t = true) :
    (dat0 V c).flushed 1 t = ((cfg0.win 1).blk t).view.read (Elt Ideal) (colSums V c) := by
  have hN : cfg0.N = 10 := N_0
  have h9 : t.val = 9 := by have := (flush0_1 t).mp hf; have := t.isLt; omega
  show (cfg0.win 1).cut (grid0.coords t) ((dat0 V c).after 1 t) = _
  rw [after0_1]
  refine flush1_of_cols t (outsAt0 V c t.val t.isLt).1 (colSums V c) fun j => ?_
  refine ((outs_eq V c t.val t.isLt j).1).trans ?_
  rw [h9, firstBlocks_last, colSums_apply]

/-- What the one write-back of output 2 carries is the column sums of squares. -/
theorem flushed2_eq (c : Dev nD) (t : Fin cfg0.N) (hf : (cfg0.win 2).flush t = true) :
    (dat0 V c).flushed 2 t = ((cfg0.win 2).blk t).view.read (Elt Ideal) (sqSums V c) := by
  have hN : cfg0.N = 10 := N_0
  have h9 : t.val = 9 := by have := (flush0_2 t).mp hf; have := t.isLt; omega
  show (cfg0.win 2).cut (grid0.coords t) ((dat0 V c).after 2 t) = _
  rw [after0_2]
  refine flush2_of_cols t (outsAt0 V c t.val t.isLt).2 (sqSums V c) fun j => ?_
  refine ((outs_eq V c t.val t.isLt j).2).trans ?_
  rw [h9, firstBlocks_last, sqSums_apply]

/-- An index of a [1,128] array is in the accumulator's block at point t iff each coordinate is in the block's range. -/
theorem mem_blk1 (t : Fin cfg0.N) (i : S1x128.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v0_0).slice (win0_1.rect t)).set ↔ _
  rw [View.set_slice_whole, Rect.mem_set_unit]
  exact Iff.rfl
theorem mem_blk2 (t : Fin cfg0.N) (i : S1x128.Idx) :
    i ∈ ((cfg0.win 2).blk t).view.set ↔ ∀ a : Fin 2, win0_2.index t a * S1x128.size a ≤ (i a).val ∧ (i a).val < win0_2.index t a * S1x128.size a + S1x128.size a := by
  show i ∈ ((View.whole main_v0_1).slice (win0_2.rect t)).set ↔ _
  rw [View.set_slice_whole, Rect.mem_set_unit]
  exact Iff.rfl

/-- The last point's block covers the whole [1,128] array. -/
theorem cover1 (i : S1x128.Idx) : ∃ t : Fin cfg0.N, (cfg0.win 1).flush t = true ∧ i ∈ ((cfg0.win 1).blk t).view.set := by
  refine ⟨t0_9, (flush0_1 t0_9).mpr rfl, ?_⟩
  obtain ⟨⟨e0, e1⟩, -⟩ := out_index t0_9
  have h0 : (i 0).val < 1 := (i 0).isLt
  have h1 : (i 1).val < 128 := (i 1).isLt
  rw [mem_blk1]
  intro a
  match a with
  | ⟨0, _⟩ => show win0_1.index t0_9 (0 : Fin 2) * 1 ≤ (i 0).val ∧ (i 0).val < win0_1.index t0_9 (0 : Fin 2) * 1 + 1; omega
  | ⟨1, _⟩ => show win0_1.index t0_9 (1 : Fin 2) * 128 ≤ (i 1).val ∧ (i 1).val < win0_1.index t0_9 (1 : Fin 2) * 128 + 128; omega
theorem cover2 (i : S1x128.Idx) : ∃ t : Fin cfg0.N, (cfg0.win 2).flush t = true ∧ i ∈ ((cfg0.win 2).blk t).view.set := by
  refine ⟨t0_9, (flush0_2 t0_9).mpr rfl, ?_⟩
  obtain ⟨-, ⟨e0, e1⟩⟩ := out_index t0_9
  have h0 : (i 0).val < 1 := (i 0).isLt
  have h1 : (i 1).val < 128 := (i 1).isLt
  rw [mem_blk2]
  intro a
  match a with
  | ⟨0, _⟩ => show win0_2.index t0_9 (0 : Fin 2) * 1 ≤ (i 0).val ∧ (i 0).val < win0_2.index t0_9 (0 : Fin 2) * 1 + 1; omega
  | ⟨1, _⟩ => show win0_2.index t0_9 (1 : Fin 2) * 128 ≤ (i 1).val ∧ (i 1).val < win0_2.index t0_9 (1 : Fin 2) * 128 + 128; omega

/-- OUTPUT 1 after the region: at (0, j) the sum of column j of the input array over all 50000 rows (both sides read as
    extended reals; xin V c is the input array V c (Pipeline.arrRef spec0 0) at its literal type). -/
theorem colsum (c : Dev nD) (j : Fin 128) :
    @Eq EReal (((dat0 V c).arrAt 1 cfg0.N) (ix2 0 j)) (∑ r : Fin 50000, xin V c (ix2 r j)) :=
  (congrFun ((dat0 V c).arrAt_eq_of_cover 1 (colSums V c) (flushed1_eq V c) cover1) (ix2 0 j)).trans (colSums_apply V c j)

/-- OUTPUT 2 after the region: at (0, j) the sum of the squares of column j over all 50000 rows. -/
theorem colsumsq (c : Dev nD) (j : Fin 128) :
    @Eq EReal (((dat0 V c).arrAt 2 cfg0.N) (ix2 0 j)) (∑ r : Fin 50000, xin V c (ix2 r j) * xin V c (ix2 r j)) :=
  (congrFun ((dat0 V c).arrAt_eq_of_cover 2 (sqSums V c) (flushed2_eq V c) cover2) (ix2 0 j)).trans (sqSums_apply V c j)

/-- The input array is never written back: it is left as the region found it. -/
theorem kept (c : Dev nD) : (dat0 V c).arrAt 0 cfg0.N = V c (Pipeline.arrRef spec0 0) :=
  ((dat0 V c).arrAt_in 0 rfl cfg0.N).trans (A_eq0 V c 0)

end Cert.KernelIdeal.RegStats0

end
-- ==== Proof.RegMatmul1.lean ====
/- Region 1 of the idealized kernel, read as whole arrays: the batch-normalised rows times the weight matrix.

   The region tiles the 50000 rows of its operand x in 10 blocks of 5000 rows. At each block it forms, with the
   per-column statistics mean, var (one row of 128 entries each) and the 128 x 128 matrix w,
     xn[r, k] = (x[r, k] - mean[0, k]) * rsqrt (var[0, k] + eps) + bnb,
     o[r, j]  = sum over k of xn[r, k] * w[k, j],
   over the extended reals, where narrowing to the 16-bit format is the identity and the matrix unit's product into a
   zero accumulator is the plain sum over the contracted column. Written here: the product's operand indices at an
   output index and a contraction position (one lemma per operand axis), the product read at (r, j), the block's whole
   payload read at (r, j), each operand block read as rows of its array, what the write-back at a grid point holds,
   the cover of the 50000 rows by the blocks (row r lies in block r / 5000), and the output array after the region as a
   function of the four input arrays, which the region leaves as it found them. -/
import proofs.«407945_j8993661518245_1_alg».proof.Proof.FrameKI
import Idealize.ShloMosaic.Lib.Pipeline.Value
import Idealize.ShloMosaic.Lib.Pipeline.Cells
import Idealize.ShloMosaic.Lib.ValueIdx
import Idealize.ShloMosaic.Lib.ValueLayout
import Idealize.ShloMosaic.PureOps.Ideal.Laws

set_option maxRecDepth 16384

noncomputable section

namespace Cert.KernelIdeal.RegMatmul1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen Cert.KernelIdeal.GenP

/-! ## The matrix product at an output index -/

/-- The left operand's row at output index i is i's row. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction position. -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column at output index i is i's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, at row p and column q: the sum over the 128 contracted positions of the
    left operand's row p times the right operand's column q. -/
theorem matmul_zero_apply {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The block's payload at an index -/

/-- The value the body stores, at row p and column q of the block: the normalised row p of the block of x against
    column q of w. -/
theorem pay_apply (x0 : Vec Ideal S5000x128 .f32) (x1 : Vec Ideal S1x128 .f32) (x2 : Vec Ideal S1x128 .f32) (x3 : Vec Ideal S128x128 .f32)
    (p : Fin 5000) (q : Fin 128) :
    k1_pay1 x0 x1 x2 x3 (ix2 p q)
      = ∑ k : Fin 128, ((x0 (ix2 p k) - x1 (ix2 (0 : Fin 1) k)) * Ideal.rsqrt (x2 (ix2 (0 : Fin 1) k) + Ideal.ofBits .f32 0x3727C5AC#32)
          + Ideal.ofBits .f32 0x38D1B717#32) * x3 (ix2 k q) := by
  unfold k1_pay1
  simp only [shapeCast_self]
  refine (matmul_zero_apply _ _ p q).trans ?_
  refine Finset.sum_congr rfl fun k _ => ?_
  rw [truncf_apply, truncf_apply, addf_apply, mulf_apply, subf_apply, broadcastTo_1b_ab_apply, broadcastTo_1b_ab_apply]
  rfl

/-! ## The region's arrays -/

variable (V : (c : Dev nD) → (b : Ref sig .tc) → Buf (Elt Ideal) ((c : Thread nD τ).loc b))

/-- The four input arrays as the region finds them: x (50000 rows), the column means and variances (one row each), w. -/
abbrev xArr (c : Dev nD) : S50000x128.Idx → EReal := V c (Pipeline.arrRef spec1 0)
abbrev meanArr (c : Dev nD) : S1x128.Idx → EReal := V c (Pipeline.arrRef spec1 1)
abbrev varArr (c : Dev nD) : S1x128.Idx → EReal := V c (Pipeline.arrRef spec1 2)
abbrev wArr (c : Dev nD) : S128x128.Idx → EReal := V c (Pipeline.arrRef spec1 3)

/-- The output array as one function of the input arrays: entry (r, j) is the normalised row r of x against column j of w. -/
def G (x : S50000x128.Idx → EReal) (mean var : S1x128.Idx → EReal) (w : S128x128.Idx → EReal) : S50000x128.Idx → EReal := fun i =>
  ∑ k : Fin 128, ((x (ix2 (i 0) k) - mean (ix2 (0 : Fin 1) k)) * Ideal.rsqrt (var (ix2 (0 : Fin 1) k) + Ideal.ofBits .f32 0x3727C5AC#32)
      + Ideal.ofBits .f32 0x38D1B717#32) * w (ix2 k (i 1))

theorem off_zero : (![0, 0] : Fin 2 → Nat) = fun _ => 0 := funext fun a => by fin_cases a <;> rfl

/-- The index maps over the grid: the blocks of x and of the output are block t of the rows, all columns; the other
    three operands are their whole arrays at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of x's block at point t is row 5000 t + p of x. -/
theorem blk0_apply (c : Dev nD) (t : Fin cfg1.N) (p : Fin 5000) (k : Fin 128) (r : Fin 50000) (hr : r.val = t.val * 5000 + p.val) :
    (iblk1 V c 0 t : Vec Ideal S5000x128 .f32) (ix2 p k) = xArr V c (ix2 r k) := by
  obtain ⟨e00, e01, -⟩ := idx_facts t
  show xArr V c (((cfg1.win 0).blk t).view.emb (ix2 p k)) = xArr V c (ix2 r k)
  refine congrArg (xArr V c) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The block of the means at any point is the one row of means. -/
theorem blk1_apply (c : Dev nD) (t : Fin cfg1.N) (k : Fin 128) :
    (iblk1 V c 1 t : Vec Ideal S1x128 .f32) (ix2 (0 : Fin 1) k) = meanArr V c (ix2 (0 : Fin 1) k) := by
  obtain ⟨-, -, e10, e11, -⟩ := idx_facts t
  show meanArr V c (((cfg1.win 1).blk t).view.emb (ix2 (0 : Fin 1) k)) = meanArr V c (ix2 (0 : Fin 1) k)
  refine congrArg (meanArr V c) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The block of the variances at any point is the one row of variances. -/
theorem blk2_apply (c : Dev nD) (t : Fin cfg1.N) (k : Fin 128) :
    (iblk1 V c 2 t : Vec Ideal S1x128 .f32) (ix2 (0 : Fin 1) k) = varArr V c (ix2 (0 : Fin 1) k) := by
  obtain ⟨-, -, -, -, e20, e21, -⟩ := idx_facts t
  show varArr V c (((cfg1.win 2).blk t).view.emb (ix2 (0 : Fin 1) k)) = varArr V c (ix2 (0 : Fin 1) k)
  refine congrArg (varArr V c) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The block of w at any point is all of w. -/
theorem blk3_apply (c : Dev nD) (t : Fin cfg1.N) (k q : Fin 128) :
    (iblk1 V c 3 t : Vec Ideal S128x128 .f32) (ix2 k q) = wArr V c (ix2 k q) := by
  obtain ⟨-, -, -, -, -, -, e30, e31, -⟩ := idx_facts t
  show wArr V c (((cfg1.win 3).blk t).view.emb (ix2 k q)) = wArr V c (ix2 k q)
  refine congrArg (wArr V c) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- What point t writes back is block t of G of the input arrays: rows 5000 t .. 5000 t + 4999. -/
theorem flushed_eq (c : Dev nD) (t : Fin cfg1.N) :
    (dat1 V c).flushed 4 t = ((cfg1.win 4).blk t).view.read (Elt Ideal) (G (xArr V c) (meanArr V c) (varArr V c) (wArr V c)) := by
  show (cfg1.win 4).cut (grid1.coords t) ((dat1 V c).after 4 t) = _
  rw [after1_4]
  unfold out1_4
  rw [View.canon_unit_zero off_zero]
  simp only [View.ld_unit_zero (S := S5000x128) off_zero, View.ld_unit_zero (S := S1x128) off_zero, View.ld_unit_zero (S := S128x128) off_zero]
  obtain ⟨-, -, -, -, -, -, -, -, e40, e41⟩ := idx_facts t
  have ht : t.val < 10 := by have h := t.isLt; have hN : cfg1.N = 10 := N_1; omega
  funext y
  obtain ⟨p, q, rfl⟩ : ∃ (p : Fin 5000) (q : Fin 128), y = ix2 p q := ⟨y 0, y 1, eq_ix2 (n0 := 5000) (n1 := 128) y⟩
  have hp : p.val < 5000 := p.isLt
  have hr : t.val * 5000 + p.val < 50000 := by omega
  have e : ((cfg1.win 4).blk t).view.emb (ix2 p q) = ix2 (⟨t.val * 5000 + p.val, hr⟩ : Fin 50000) q := funext fun a => Fin.ext (by
    match a with
    | ⟨0, _⟩ => show win1_4.index t (0 : Fin 2) * 5000 + 1 * p.val = t.val * 5000 + p.val; omega
    | ⟨1, _⟩ => show win1_4.index t (1 : Fin 2) * 128 + 1 * q.val = q.val; omega)
  show k1_pay1 (iblk1 V c 0 t) (iblk1 V c 1 t) (iblk1 V c 2 t) (iblk1 V c 3 t) (ix2 p q)
    = G (xArr V c) (meanArr V c) (varArr V c) (wArr V c) (((cfg1.win 4).blk t).view.emb (ix2 p q))
  rw [e]
  refine (pay_apply (iblk1 V c 0 t) (iblk1 V c 1 t) (iblk1 V c 2 t) (iblk1 V c 3 t) p q).trans ?_
  unfold G
  refine Finset.sum_congr rfl fun k _ => ?_
  rw [blk0_apply V c t p k ⟨t.val * 5000 + p.val, hr⟩ rfl, blk1_apply V c t k, blk2_apply V c t k, blk3_apply V c t k q]

/-- An index of the output array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole (Pipeline.arrRef spec1 4)).slice (win1_4.rect t)).set ↔ _
  rw [View.set_slice_whole, Rect.mem_set_unit]
  exact Iff.rfl

/-- Every index of the output array is written back by some point: row r by point r / 5000. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by have hN : cfg1.N = 10 := N_1; omega⟩, rfl⟩
  obtain ⟨-, -, -, -, -, -, -, -, e40, e41⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region is G of the input arrays. -/
theorem out_eq (c : Dev nD) : (dat1 V c).arrAt 4 cfg1.N = G (xArr V c) (meanArr V c) (varArr V c) (wArr V c) :=
  (dat1 V c).arrAt_eq_of_cover 4 (G (xArr V c) (meanArr V c) (varArr V c) (wArr V c)) (fun t _ => flushed_eq V c t) cover

/-- The output array after the region, entry by entry. -/
theorem out_apply (c : Dev nD) (r : Fin 50000) (j : Fin 128) :
    ((dat1 V c).arrAt 4 cfg1.N : S50000x128.Idx → EReal) (ix2 r j)
      = ∑ k : Fin 128, ((xArr V c (ix2 r k) - meanArr V c (ix2 (0 : Fin 1) k)) * Ideal.rsqrt (varArr V c (ix2 (0 : Fin 1) k) + Ideal.ofBits .f32 0x3727C5AC#32)
          + Ideal.ofBits .f32 0x38D1B717#32) * wArr V c (ix2 k j) :=
  congrFun (out_eq V c) (ix2 r j)

/-- The region writes none of its four input arrays. -/
theorem kept0 (c : Dev nD) : (dat1 V c).arrAt 0 cfg1.N = V c (Pipeline.arrRef spec1 0) :=
  ((dat1 V c).arrAt_in 0 rfl cfg1.N).trans (A_eq1 V c 0)
theorem kept1 (c : Dev nD) : (dat1 V c).arrAt 1 cfg1.N = V c (Pipeline.arrRef spec1 1) :=
  ((dat1 V c).arrAt_in 1 rfl cfg1.N).trans (A_eq1 V c 1)
theorem kept2 (c : Dev nD) : (dat1 V c).arrAt 2 cfg1.N = V c (Pipeline.arrRef spec1 2) :=
  ((dat1 V c).arrAt_in 2 rfl cfg1.N).trans (A_eq1 V c 2)
theorem kept3 (c : Dev nD) : (dat1 V c).arrAt 3 cfg1.N = V c (Pipeline.arrRef spec1 3) :=
  ((dat1 V c).arrAt_in 3 rfl cfg1.N).trans (A_eq1 V c 3)

end Cert.KernelIdeal.RegMatmul1

end
-- ==== Proof.LibBnRead.lean ====
/- Reading the two programs' normalisation chains at an index.
   The reference normalises a [50000,128] array x column by column with host operations: the column mean is the column
   sum over 50000 (a reduction over the rows, divided by the broadcast literal), the variance is the mean of the squared
   deviations, and the normalised array (x − mean)·rsqrt(var + eps) + bias is contracted with a [128,128] weight. This
   module names that composition of operations as one function of x and the weight and reads it at row r, column j as
   the sum over k of the normalised entry (r,k) times the weight's entry (k,j), the mean and variance written as sums
   over the rows. The kernel's host stretch between its two regions forms mean = sum/50000 and
   var = sumsq/50000 − mean·mean from the [1,128] rows of column sums; that stretch is named and read likewise.
   A slice of a stacked weight followed by a reshape only re-indexes entries, so it keeps every entry finite. -/
import proofs.«407945_j8993661518245_1_alg».proof.ReferenceIdeal
import proofs.«407945_j8993661518245_1_alg».proof.KernelIdeal
import Idealize.ShloMosaic.Lib.Pipeline.Value
import Idealize.ShloMosaic.Lib.ValueIdx
import Idealize.ShloMosaic.Lib.IdealHost
import Idealize.ShloMosaic.PureOps.Ideal.Laws

noncomputable section

namespace Cert.LibBnRead

open Idealize.ShloMosaic Idealize.ShloMosaic.ValueIdx

/-! ## The reference's chain -/

namespace Ref

open Cert.ReferenceIdeal
variable [Facts₀]
open Facts₀

/-- A column's sum over the 50000 rows: the host reduction over axis 0 from the zero literal, at column k. -/
theorem colsum_apply (x : FVec Ideal S50000x128 .f32) (k : Fin 128) :
    Host.reduceAdd x (constant (F := Ideal) S_ .f32 0x00000000#32) reducesTo_S50000x128_S128_d0 h_S_ (ix1 k)
      = ∑ r : Fin 50000, x (ix2 r k) := by
  have hr : S50000x128.Reduces [0] S128 := by decide
  rw [hostReduceAdd_apply, Ideal.hostReduceAdd_single reducesTo_S50000x128_S128_d0 hr, constant_apply,
    Ideal.ofBits_zero_f32, zero_add]
  show ∑ r : Fin 50000, x (hr.lift (ix1 k) r) = _
  refine Finset.sum_congr rfl fun r _ => congrArg x ?_
  funext a; apply Fin.ext
  match a with
  | ⟨0, _⟩ => rfl
  | ⟨1, _⟩ => rfl

/-- A scalar literal broadcast to the 128 columns reads the literal's value. -/
theorem scalar128_apply (b : BitVec 32) (k : Fin 128) :
    broadcastInDim S128 ![] bcast_S_S128 (constant (F := Ideal) S_ .f32 b) (ix1 k) = Ideal.ofBits .f32 b := by
  rw [broadcastInDim_scalar_apply, constant_apply]

/-- A scalar literal broadcast to the whole array reads the literal's value. -/
theorem scalarFull_apply (b : BitVec 32) (r : Fin 50000) (k : Fin 128) :
    broadcastInDim S50000x128 ![] bcast_S_S50000x128 (constant (F := Ideal) S_ .f32 b) (ix2 r k) = Ideal.ofBits .f32 b := by
  rw [broadcastInDim_scalar_apply, constant_apply]

/-- A per-column vector broadcast first to one row and then down the 50000 rows reads, at (r, k), its entry k. -/
theorem bcastRows_apply {α : Type} (v : S128.Idx → α) (r : Fin 50000) (k : Fin 128) :
    broadcastInDim S50000x128 ![0, 1] bcast_S1x128_S50000x128_0_1 (broadcastInDim S1x128 ![1] bcast_S128_S1x128_1 v) (ix2 r k)
      = v (ix1 k) := by
  rw [broadcastInDim_apply ![0, 1] bcast_S1x128_S50000x128_0_1 _ (ix2 r k) (ix2 (0 : Fin 1) k)
      (fun a => by match a with | ⟨0, _⟩ => rfl | ⟨1, _⟩ => rfl),
    broadcastInDim_apply ![1] bcast_S128_S1x128_1 v (ix2 (0 : Fin 1) k) (ix1 k)
      (fun a => by match a with | ⟨0, _⟩ => rfl)]

/-- The left operand's row at output index i is i's row. -/
theorem lhs_dot_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl

/-- The left operand's column is the contraction position. -/
theorem lhs_dot_1 (i : S50000x128.Idx) (q : dot_S50000x128_S128x128_S50000x128_1_0_0_1_n_n.contr.Idx) :
    (dot_S50000x128_S128x128_S50000x128_1_0_0_1_n_n.lhsIdx i q 1).val = (q ⟨0, by rw [DotDims.rank_contr]; exact Nat.one_pos⟩).val :=
  dot_S50000x128_S128x128_S50000x128_1_0_0_1_n_n.lhsIdx_val_of_single rfl i q

/-- The right operand's row is the contraction position. -/
theorem rhs_dot_0 (i : S50000x128.Idx) (q : dot_S50000x128_S128x128_S50000x128_1_0_0_1_n_n.contr.Idx) :
    (dot_S50000x128_S128x128_S50000x128_1_0_0_1_n_n.rhsIdx i q 0).val = (q ⟨0, by rw [DotDims.rank_contr]; exact Nat.one_pos⟩).val :=
  dot_S50000x128_S128x128_S50000x128_1_0_0_1_n_n.rhsIdx_val_of_single rfl i q

/-- The right operand's column at output index i is i's column. -/
theorem rhs_dot_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The contraction of a [50000,128] array with a [128,128] weight, at row r and column j. -/
theorem dot_apply (a : FVec Ideal S50000x128 .f32) (w : FVec Ideal S128x128 .f32) (r : Fin 50000) (j : Fin 128) :
    Host.dotGeneral dot_S50000x128_S128x128_S50000x128_1_0_0_1_n_n none a w (ix2 r j)
      = ∑ k : Fin 128, a (ix2 r k) * w (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j) ((contrEquiv1 dot_S50000x128_S128x128_S50000x128_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S50000x128_S128x128_S50000x128_1_0_0_1_n_n.rhsIdx (ix2 r j) ((contrEquiv1 dot_S50000x128_S128x128_S50000x128_1_0_0_1_n_n 128 rfl rfl).symm k) = ix2 k j :=
    funext fun a => Fin.ext (by
      match a with
      | ⟨0, _⟩ => exact (rhs_dot_0 _ _).trans hk
      | ⟨1, _⟩ => exact rhs_dot_1 _ _)
  rw [el, er]

/-- The column means, as the reference's operations compose: the column sums divided by the broadcast 50000.0. -/
def mean (x : FVec Ideal S50000x128 .f32) : FVec Ideal S128 .f32 :=
  Host.divf (Host.reduceAdd x (constant (F := Ideal) S_ .f32 0x00000000#32) reducesTo_S50000x128_S128_d0 h_S_)
    (broadcastInDim S128 ![] bcast_S_S128 (constant (F := Ideal) S_ .f32 0x47435000#32))

/-- The deviations from the column means. -/
def centred (x : FVec Ideal S50000x128 .f32) : FVec Ideal S50000x128 .f32 :=
  subf x (broadcastInDim S50000x128 ![0, 1] bcast_S1x128_S50000x128_0_1 (broadcastInDim S1x128 ![1] bcast_S128_S1x128_1 (mean x)))

/-- The column sums of the squared deviations. -/
def sqsum (x : FVec Ideal S50000x128 .f32) : FVec Ideal S128 .f32 :=
  Host.reduceAdd (mulf (centred x) (centred x)) (constant (F := Ideal) S_ .f32 0x00000000#32) reducesTo_S50000x128_S128_d0 h_S_

/-- The column variances: the column means of the squared deviations. -/
def var (x : FVec Ideal S50000x128 .f32) : FVec Ideal S128 .f32 :=
  Host.divf (sqsum x) (broadcastInDim S128 ![] bcast_S_S128 (constant (F := Ideal) S_ .f32 0x47435000#32))

/-- The reciprocal standard deviations: rsqrt (variance + epsilon). -/
def rstd (x : FVec Ideal S50000x128 .f32) : FVec Ideal S128 .f32 :=
  Host.rsqrt (addf (var x) (broadcastInDim S128 ![] bcast_S_S128 (constant (F := Ideal) S_ .f32 0x3727C5AC#32)))

/-- The normalised array: deviations times the reciprocal standard deviation, plus the bias literal. -/
def normed (x : FVec Ideal S50000x128 .f32) : FVec Ideal S50000x128 .f32 :=
  addf (mulf (centred x)
      (broadcastInDim S50000x128 ![0, 1] bcast_S1x128_S50000x128_0_1 (broadcastInDim S1x128 ![1] bcast_S128_S1x128_1 (rstd x))))
    (broadcastInDim S50000x128 ![] bcast_S_S50000x128 (constant (F := Ideal) S_ .f32 0x38D1B717#32))

/-- The normalised array projected by the weight. -/
def proj (x : FVec Ideal S50000x128 .f32) (w : FVec Ideal S128x128 .f32) : FVec Ideal S50000x128 .f32 :=
  Host.dotGeneral dot_S50000x128_S128x128_S50000x128_1_0_0_1_n_n none (normed x) w

theorem mean_apply (x : FVec Ideal S50000x128 .f32) (k : Fin 128) :
    mean x (ix1 k) = Ideal.div (∑ r : Fin 50000, x (ix2 r k)) (Ideal.ofBits .f32 0x47435000#32) := by
  unfold mean
  rw [hostDivf_apply, colsum_apply, scalar128_apply]

theorem centred_apply (x : FVec Ideal S50000x128 .f32) (r : Fin 50000) (k : Fin 128) :
    centred x (ix2 r k) = x (ix2 r k) - Ideal.div (∑ r : Fin 50000, x (ix2 r k)) (Ideal.ofBits .f32 0x47435000#32) := by
  unfold centred
  rw [subf_apply, bcastRows_apply, mean_apply]

theorem var_apply (x : FVec Ideal S50000x128 .f32) (k : Fin 128) :
    var x (ix1 k) = Ideal.div (∑ r : Fin 50000,
        (x (ix2 r k) - Ideal.div (∑ r : Fin 50000, x (ix2 r k)) (Ideal.ofBits .f32 0x47435000#32))
          * (x (ix2 r k) - Ideal.div (∑ r : Fin 50000, x (ix2 r k)) (Ideal.ofBits .f32 0x47435000#32)))
      (Ideal.ofBits .f32 0x47435000#32) := by
  unfold var sqsum
  rw [hostDivf_apply, colsum_apply, scalar128_apply]
  simp only [mulf_apply, centred_apply]

theorem normed_apply (x : FVec Ideal S50000x128 .f32) (r : Fin 50000) (k : Fin 128) :
    normed x (ix2 r k)
      = (x (ix2 r k) - Ideal.div (∑ r : Fin 50000, x (ix2 r k)) (Ideal.ofBits .f32 0x47435000#32))
          * Ideal.rsqrt (Ideal.div (∑ r : Fin 50000,
              (x (ix2 r k) - Ideal.div (∑ r : Fin 50000, x (ix2 r k)) (Ideal.ofBits .f32 0x47435000#32))
                * (x (ix2 r k) - Ideal.div (∑ r : Fin 50000, x (ix2 r k)) (Ideal.ofBits .f32 0x47435000#32)))
              (Ideal.ofBits .f32 0x47435000#32) + Ideal.ofBits .f32 0x3727C5AC#32)
        + Ideal.ofBits .f32 0x38D1B717#32 := by
  unfold normed
  rw [addf_apply, mulf_apply, centred_apply, bcastRows_apply, scalarFull_apply]
  unfold rstd
  show _ * Ideal.rsqrt (addf (var x) _ (ix1 k)) + _ = _
  rw [addf_apply, var_apply, scalar128_apply]

/-- The reference's projected normalisation at row r, column j. -/
theorem proj_apply (x : FVec Ideal S50000x128 .f32) (w : FVec Ideal S128x128 .f32) (r : Fin 50000) (j : Fin 128) :
    proj x w (ix2 r j)
      = ∑ k : Fin 128,
          ((x (ix2 r k) - Ideal.div (∑ r : Fin 50000, x (ix2 r k)) (Ideal.ofBits .f32 0x47435000#32))
            * Ideal.rsqrt (Ideal.div (∑ r : Fin 50000,
                (x (ix2 r k) - Ideal.div (∑ r : Fin 50000, x (ix2 r k)) (Ideal.ofBits .f32 0x47435000#32))
                  * (x (ix2 r k) - Ideal.div (∑ r : Fin 50000, x (ix2 r k)) (Ideal.ofBits .f32 0x47435000#32)))
                (Ideal.ofBits .f32 0x47435000#32) + Ideal.ofBits .f32 0x3727C5AC#32)
            + Ideal.ofBits .f32 0x38D1B717#32) * w (ix2 k j) := by
  unfold proj
  rw [dot_apply]
  exact Finset.sum_congr rfl fun k _ => by rw [normed_apply]

end Ref

/-! ## The kernel's host stretch between the statistics region and the projection region -/

namespace Ker

open Cert.KernelIdeal
variable [Facts₀]
open Facts₀

/-- A row of column sums divided by the broadcast 50000.0. -/
def mean (s : FVec Ideal S1x128 .f32) : FVec Ideal S1x128 .f32 :=
  Host.divf s (broadcastInDim S1x128 ![] bcast_S_S1x128 (constant (F := Ideal) S_ .f32 0x47435000#32))

/-- The mean of squares minus the squared mean. -/
def var (s q : FVec Ideal S1x128 .f32) : FVec Ideal S1x128 .f32 :=
  subf (mean q) (mulf (mean s) (mean s))

theorem mean_apply (s : FVec Ideal S1x128 .f32) (k : Fin 128) :
    mean s (ix2 (0 : Fin 1) k) = Ideal.div (s (ix2 (0 : Fin 1) k)) (Ideal.ofBits .f32 0x47435000#32) := by
  unfold mean
  rw [hostDivf_apply, broadcastInDim_scalar_apply, constant_apply]

theorem var_apply (s q : FVec Ideal S1x128 .f32) (k : Fin 128) :
    var s q (ix2 (0 : Fin 1) k)
      = Ideal.div (q (ix2 (0 : Fin 1) k)) (Ideal.ofBits .f32 0x47435000#32)
        - Ideal.div (s (ix2 (0 : Fin 1) k)) (Ideal.ofBits .f32 0x47435000#32) * Ideal.div (s (ix2 (0 : Fin 1) k)) (Ideal.ofBits .f32 0x47435000#32) := by
  unfold var
  rw [subf_apply, mulf_apply, mean_apply, mean_apply]

end Ker

/-! ## A slice of a stack followed by a reshape re-indexes entries -/

/-- Every entry of a reshaped slice is an entry of the sliced array, so a property of all entries is kept. -/
theorem forall_shapeCast_slice {s t u : Shape} {α : Type} (P : α → Prop) (off : Fin s.rank → Nat) (w : s.Idx → α)
    (h : s.Slices off t) (h2 : t.ShapeCasts u) (hw : ∀ i, P (w i)) (i : u.Idx) :
    P (shapeCast u (extractStridedSlice t off w h) h2 i) :=
  hw _

end Cert.LibBnRead

end
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«407945_j8993661518245_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibBnVar.lean ====
/- The variance identity of batch normalisation. Over finitely many FINITE values `x r`, `r : Fin n`, with `n ≠ 0`,
   the mean of the squares minus the square of the mean equals the mean of the squared deviations from the mean:
       (∑ x²)/n − ((∑ x)/n)² = (∑ (x − (∑ x)/n)²)/n.
   At finite values every operation is the real one, so both sides are the coercion of one real number; expanding the
   square and using `∑ 1 = n` gives the identity in ℝ. (At an infinite `x r` the two sides are different junk values,
   which is why finiteness is assumed.) The common value is nonnegative and finite, and so is the mean finite. -/
import Idealize.ShloMosaic.PureOps.Ideal
import Mathlib.Algebra.BigOperators.Ring.Finset
import Mathlib.Algebra.Order.BigOperators.Ring.Finset
import Mathlib.Tactic.FieldSimp
import Mathlib.Tactic.Ring
import proofs.«407945_j8993661518245_1_alg».proof.Proof.LibFinite
import proofs.«407945_j8993661518245_1_alg».proof.Proof.LibConsts

namespace Cert.LibBnVar

open Idealize.ShloMosaic
open Cert.LibFinite
open scoped BigOperators

/-- The mean: the sum over the rows divided by the row count. -/
noncomputable abbrev mean {n : Nat} (x : Fin n → EReal) (D : EReal) : EReal := Ideal.div (∑ r, x r) D

/-- The kernel's variance: mean of squares minus squared mean. -/
noncomputable abbrev varK {n : Nat} (x : Fin n → EReal) (D : EReal) : EReal :=
  Ideal.div (∑ r, x r * x r) D - (Ideal.div (∑ r, x r) D) * (Ideal.div (∑ r, x r) D)

/-- The reference's variance: mean of the squared deviations from the mean. -/
noncomputable abbrev varR {n : Nat} (x : Fin n → EReal) (D : EReal) : EReal :=
  Ideal.div (∑ r, (x r - Ideal.div (∑ r, x r) D) * (x r - Ideal.div (∑ r, x r) D)) D

section Real

variable {n : Nat} (y : Fin n → ℝ)

/-- The identity in ℝ. -/
theorem real_var_eq (hn : (n : ℝ) ≠ 0) :
    (∑ r, y r * y r) / (n : ℝ) - ((∑ r, y r) / (n : ℝ)) * ((∑ r, y r) / (n : ℝ))
      = (∑ r, (y r - (∑ r, y r) / (n : ℝ)) * (y r - (∑ r, y r) / (n : ℝ))) / (n : ℝ) := by
  set m : ℝ := (∑ r, y r) / (n : ℝ) with hm
  have hS : (∑ r, y r) = m * (n : ℝ) := by rw [hm]; field_simp
  have hterm : ∀ r, (y r - m) * (y r - m) = y r * y r - 2 * m * y r + m * m := fun r => by ring
  have key : (∑ r, (y r - m) * (y r - m)) = (∑ r, y r * y r) - 2 * m * (∑ r, y r) + (n : ℝ) * (m * m) := by
    simp only [hterm, Finset.sum_add_distrib, Finset.sum_sub_distrib, ← Finset.mul_sum, Finset.sum_const,
      Finset.card_univ, Fintype.card_fin, nsmul_eq_mul]
    ring
  rw [key, hS]
  field_simp
  ring

/-- The real mean of squared deviations is nonnegative. -/
theorem real_varR_nonneg :
    0 ≤ (∑ r, (y r - (∑ r, y r) / (n : ℝ)) * (y r - (∑ r, y r) / (n : ℝ))) / (n : ℝ) :=
  div_nonneg (Finset.sum_nonneg fun r _ => mul_self_nonneg _) (Nat.cast_nonneg n)

end Real

section Coe

variable {n : Nat} (y : Fin n → ℝ)

/-- The mean of real values is the real mean. -/
theorem mean_coe (hn : (n : ℝ) ≠ 0) :
    Ideal.div (∑ r, ((y r : ℝ) : EReal)) ((n : ℝ) : EReal) = (((∑ r, y r) / (n : ℝ) : ℝ) : EReal) := by
  rw [← coe_sum, div_coe_coe _ hn]

/-- The kernel's variance of real values is a real number. -/
theorem varK_coe (hn : (n : ℝ) ≠ 0) :
    varK (fun r => ((y r : ℝ) : EReal)) ((n : ℝ) : EReal)
      = (((∑ r, y r * y r) / (n : ℝ) - ((∑ r, y r) / (n : ℝ)) * ((∑ r, y r) / (n : ℝ)) : ℝ) : EReal) := by
  show Ideal.div (∑ r, ((y r : ℝ) : EReal) * ((y r : ℝ) : EReal)) _ - Ideal.div (∑ r, ((y r : ℝ) : EReal)) _ * Ideal.div (∑ r, ((y r : ℝ) : EReal)) _ = _
  rw [mean_coe y hn]
  have h2 : (∑ r, ((y r : ℝ) : EReal) * ((y r : ℝ) : EReal)) = (((∑ r, y r * y r : ℝ)) : EReal) := by
    rw [coe_sum]; exact Finset.sum_congr rfl fun r _ => (EReal.coe_mul _ _).symm
  rw [h2, div_coe_coe _ hn, ← EReal.coe_mul, ← EReal.coe_sub]

/-- The reference's variance of real values is a real number. -/
theorem varR_coe (hn : (n : ℝ) ≠ 0) :
    varR (fun r => ((y r : ℝ) : EReal)) ((n : ℝ) : EReal)
      = (((∑ r, (y r - (∑ r, y r) / (n : ℝ)) * (y r - (∑ r, y r) / (n : ℝ))) / (n : ℝ) : ℝ) : EReal) := by
  show Ideal.div (∑ r, (((y r : ℝ) : EReal) - Ideal.div (∑ r, ((y r : ℝ) : EReal)) _) * (((y r : ℝ) : EReal) - Ideal.div (∑ r, ((y r : ℝ) : EReal)) _)) _ = _
  rw [mean_coe y hn]
  have h2 : (∑ r, (((y r : ℝ) : EReal) - (((∑ r, y r) / (n : ℝ) : ℝ) : EReal)) * (((y r : ℝ) : EReal) - (((∑ r, y r) / (n : ℝ) : ℝ) : EReal)))
      = (((∑ r, (y r - (∑ r, y r) / (n : ℝ)) * (y r - (∑ r, y r) / (n : ℝ)) : ℝ)) : EReal) := by
    rw [coe_sum]; exact Finset.sum_congr rfl fun r _ => by rw [← EReal.coe_sub, ← EReal.coe_mul]
  rw [h2, div_coe_coe _ hn]

end Coe

variable {n : Nat} {x : Fin n → EReal} {D : EReal}

/-- Finite values are the coercions of their real parts, as a function. -/
theorem eq_coe_toReal (hx : ∀ r, IsFin (x r)) : x = fun r => (((x r).toReal : ℝ) : EReal) :=
  funext fun r => (hx r).coe_toReal.symm

/-- THE variance identity: the kernel's form and the reference's are one value at finite inputs. -/
theorem var_eq (hn : (n : ℝ) ≠ 0) (hx : ∀ r, IsFin (x r)) (hD : D = ((n : ℝ) : EReal)) : varK x D = varR x D := by
  subst hD
  rw [eq_coe_toReal hx, varK_coe _ hn, varR_coe _ hn, real_var_eq _ hn]

/-- The reference's variance is nonnegative. -/
theorem varR_nonneg (hn : (n : ℝ) ≠ 0) (hx : ∀ r, IsFin (x r)) (hD : D = ((n : ℝ) : EReal)) : 0 ≤ varR x D := by
  subst hD
  rw [eq_coe_toReal hx, varR_coe _ hn]
  exact EReal.coe_nonneg.mpr (real_varR_nonneg _)

/-- The reference's variance is finite. -/
theorem varR_fin (hn : (n : ℝ) ≠ 0) (hx : ∀ r, IsFin (x r)) (hD : D = ((n : ℝ) : EReal)) : IsFin (varR x D) := by
  subst hD
  rw [eq_coe_toReal hx, varR_coe _ hn]
  exact isFin_coe _

/-- So is the kernel's, and it is nonnegative: it is the same value. -/
theorem varK_nonneg (hn : (n : ℝ) ≠ 0) (hx : ∀ r, IsFin (x r)) (hD : D = ((n : ℝ) : EReal)) : 0 ≤ varK x D := by
  rw [var_eq hn hx hD]; exact varR_nonneg hn hx hD

theorem varK_fin (hn : (n : ℝ) ≠ 0) (hx : ∀ r, IsFin (x r)) (hD : D = ((n : ℝ) : EReal)) : IsFin (varK x D) := by
  rw [var_eq hn hx hD]; exact varR_fin hn hx hD

/-- The mean is finite. -/
theorem mean_fin (hn : (n : ℝ) ≠ 0) (hx : ∀ r, IsFin (x r)) (hD : D = ((n : ℝ) : EReal)) :
    IsFin (Ideal.div (∑ r, x r) D) := by
  subst hD
  rw [eq_coe_toReal hx, mean_coe _ hn]
  exact isFin_coe _

/-! ### At fifty thousand rows, the divisor spelled as the program's literal `50000.0` -/

theorem n50000_ne : ((50000 : Nat) : ℝ) ≠ 0 := by norm_num

theorem D50000 : Ideal.ofBits .f32 0x47435000#32 = (((50000 : Nat) : ℝ) : EReal) := by
  rw [Cert.LibConsts.ofBits_50000]; norm_num

variable {z : Fin 50000 → EReal}

theorem var_eq_50000 (hz : ∀ r, IsFin (z r)) :
    Ideal.div (∑ r, z r * z r) (Ideal.ofBits .f32 0x47435000#32)
        - (Ideal.div (∑ r, z r) (Ideal.ofBits .f32 0x47435000#32)) * (Ideal.div (∑ r, z r) (Ideal.ofBits .f32 0x47435000#32))
      = Ideal.div (∑ r, (z r - Ideal.div (∑ r, z r) (Ideal.ofBits .f32 0x47435000#32))
          * (z r - Ideal.div (∑ r, z r) (Ideal.ofBits .f32 0x47435000#32))) (Ideal.ofBits .f32 0x47435000#32) :=
  var_eq n50000_ne hz D50000

theorem varR_nonneg_50000 (hz : ∀ r, IsFin (z r)) :
    0 ≤ Ideal.div (∑ r, (z r - Ideal.div (∑ r, z r) (Ideal.ofBits .f32 0x47435000#32))
          * (z r - Ideal.div (∑ r, z r) (Ideal.ofBits .f32 0x47435000#32))) (Ideal.ofBits .f32 0x47435000#32) :=
  varR_nonneg n50000_ne hz D50000

theorem varR_fin_50000 (hz : ∀ r, IsFin (z r)) :
    IsFin (Ideal.div (∑ r, (z r - Ideal.div (∑ r, z r) (Ideal.ofBits .f32 0x47435000#32))
          * (z r - Ideal.div (∑ r, z r) (Ideal.ofBits .f32 0x47435000#32))) (Ideal.ofBits .f32 0x47435000#32)) :=
  varR_fin n50000_ne hz D50000

theorem mean_fin_50000 (hz : ∀ r, IsFin (z r)) : IsFin (Ideal.div (∑ r, z r) (Ideal.ofBits .f32 0x47435000#32)) :=
  mean_fin n50000_ne hz D50000

end Cert.LibBnVar
-- ==== Proof.LibBnOut.lean ====
/- The output of batch normalisation at finite inputs. With `m` the mean of finitely many finite values and `V ≥ 0` their
   (finite) variance, `V + ε` is finite and positive for a finite positive `ε`, so its reciprocal square root is a
   positive real number, and the normalised value `(x − m) · rsqrt (V + ε) + β` is finite for a finite `β`. The two
   forms of the variance are one value (the variance identity), so the two programs' normalised values agree. A dot
   product of finite vectors is finite. -/
import Idealize.ShloMosaic.PureOps.Ideal
import proofs.«407945_j8993661518245_1_alg».proof.Proof.LibFinite
import proofs.«407945_j8993661518245_1_alg».proof.Proof.LibConsts
import proofs.«407945_j8993661518245_1_alg».proof.Proof.LibBnVar

namespace Cert.LibBnOut

open Idealize.ShloMosaic
open Cert.LibFinite Cert.LibBnVar
open scoped BigOperators

section General

variable {n : Nat} {x : Fin n → EReal} {D e b : EReal}

/-- The reference's variance plus a positive finite epsilon is finite and positive. -/
theorem varR_add_fin (hn : (n : ℝ) ≠ 0) (hx : ∀ r, IsFin (x r)) (hD : D = ((n : ℝ) : EReal)) (he : IsFin e) :
    IsFin (varR x D + e) := (varR_fin hn hx hD).add he

theorem varR_add_pos (hn : (n : ℝ) ≠ 0) (hx : ∀ r, IsFin (x r)) (hD : D = ((n : ℝ) : EReal)) (hepos : 0 < e) :
    0 < varR x D + e := add_pos_of_nonneg_of_pos (varR_nonneg hn hx hD) hepos

/-- Its reciprocal square root is positive and finite. -/
theorem rs_pos_gen (hn : (n : ℝ) ≠ 0) (hx : ∀ r, IsFin (x r)) (hD : D = ((n : ℝ) : EReal)) (he : IsFin e) (hepos : 0 < e) :
    0 < Ideal.rsqrt (varR x D + e) :=
  (varR_add_fin hn hx hD he).rsqrt_pos (varR_add_pos hn hx hD hepos)

theorem rs_fin_gen (hn : (n : ℝ) ≠ 0) (hx : ∀ r, IsFin (x r)) (hD : D = ((n : ℝ) : EReal)) (he : IsFin e) (hepos : 0 < e) :
    IsFin (Ideal.rsqrt (varR x D + e)) :=
  (varR_add_fin hn hx hD he).rsqrt (varR_add_pos hn hx hD hepos)

/-- The same of the kernel's variance: it is the same value. -/
theorem rsK_pos_gen (hn : (n : ℝ) ≠ 0) (hx : ∀ r, IsFin (x r)) (hD : D = ((n : ℝ) : EReal)) (he : IsFin e) (hepos : 0 < e) :
    0 < Ideal.rsqrt (varK x D + e) := by
  rw [var_eq hn hx hD]; exact rs_pos_gen hn hx hD he hepos

theorem rsK_fin_gen (hn : (n : ℝ) ≠ 0) (hx : ∀ r, IsFin (x r)) (hD : D = ((n : ℝ) : EReal)) (he : IsFin e) (hepos : 0 < e) :
    IsFin (Ideal.rsqrt (varK x D + e)) := by
  rw [var_eq hn hx hD]; exact rs_fin_gen hn hx hD he hepos

/-- The two programs' normalised values agree. -/
theorem bn_eq_gen (hn : (n : ℝ) ≠ 0) (hx : ∀ r, IsFin (x r)) (hD : D = ((n : ℝ) : EReal)) (r : Fin n) :
    (x r - Ideal.div (∑ r, x r) D) * Ideal.rsqrt (varK x D + e) + b
      = (x r - Ideal.div (∑ r, x r) D) * Ideal.rsqrt (varR x D + e) + b := by
  rw [var_eq hn hx hD]

/-- The normalised value is finite. -/
theorem bn_fin_gen (hn : (n : ℝ) ≠ 0) (hx : ∀ r, IsFin (x r)) (hD : D = ((n : ℝ) : EReal)) (he : IsFin e) (hepos : 0 < e)
    (hb : IsFin b) (r : Fin n) :
    IsFin ((x r - Ideal.div (∑ r, x r) D) * Ideal.rsqrt (varR x D + e) + b) :=
  ((((hx r).sub (mean_fin hn hx hD)).mul (rs_fin_gen hn hx hD he hepos))).add hb

theorem bnK_fin_gen (hn : (n : ℝ) ≠ 0) (hx : ∀ r, IsFin (x r)) (hD : D = ((n : ℝ) : EReal)) (he : IsFin e) (hepos : 0 < e)
    (hb : IsFin b) (r : Fin n) :
    IsFin ((x r - Ideal.div (∑ r, x r) D) * Ideal.rsqrt (varK x D + e) + b) := by
  rw [bn_eq_gen hn hx hD r]; exact bn_fin_gen hn hx hD he hepos hb r

end General

/-! ### At fifty thousand rows, with the programs' literals: the divisor `50000.0`, the epsilon `f32 1e-5`, the bias `f32 1e-4` -/

section N50000

variable {z : Fin 50000 → EReal}

local notation "D₀" => Ideal.ofBits FTy.f32 0x47435000#32
local notation "eps₀" => Ideal.ofBits FTy.f32 0x3727C5AC#32
local notation "bnb₀" => Ideal.ofBits FTy.f32 0x38D1B717#32

theorem rs_pos (hz : ∀ r, IsFin (z r)) : 0 < Ideal.rsqrt (varR z D₀ + eps₀) :=
  rs_pos_gen n50000_ne hz D50000 Cert.LibConsts.isFin_eps Cert.LibConsts.eps_pos

theorem rs_fin (hz : ∀ r, IsFin (z r)) : IsFin (Ideal.rsqrt (varR z D₀ + eps₀)) :=
  rs_fin_gen n50000_ne hz D50000 Cert.LibConsts.isFin_eps Cert.LibConsts.eps_pos

theorem rsK_pos (hz : ∀ r, IsFin (z r)) : 0 < Ideal.rsqrt (varK z D₀ + eps₀) :=
  rsK_pos_gen n50000_ne hz D50000 Cert.LibConsts.isFin_eps Cert.LibConsts.eps_pos

theorem rsK_fin (hz : ∀ r, IsFin (z r)) : IsFin (Ideal.rsqrt (varK z D₀ + eps₀)) :=
  rsK_fin_gen n50000_ne hz D50000 Cert.LibConsts.isFin_eps Cert.LibConsts.eps_pos

theorem bn_eq (hz : ∀ r, IsFin (z r)) (r : Fin 50000) :
    (z r - Ideal.div (∑ r, z r) D₀) * Ideal.rsqrt (varK z D₀ + eps₀) + bnb₀
      = (z r - Ideal.div (∑ r, z r) D₀) * Ideal.rsqrt (varR z D₀ + eps₀) + bnb₀ :=
  bn_eq_gen n50000_ne hz D50000 r

theorem bn_fin (hz : ∀ r, IsFin (z r)) (r : Fin 50000) :
    IsFin ((z r - Ideal.div (∑ r, z r) D₀) * Ideal.rsqrt (varR z D₀ + eps₀) + bnb₀) :=
  bn_fin_gen n50000_ne hz D50000 Cert.LibConsts.isFin_eps Cert.LibConsts.eps_pos Cert.LibConsts.isFin_bias r

theorem bnK_fin (hz : ∀ r, IsFin (z r)) (r : Fin 50000) :
    IsFin ((z r - Ideal.div (∑ r, z r) D₀) * Ideal.rsqrt (varK z D₀ + eps₀) + bnb₀) :=
  bnK_fin_gen n50000_ne hz D50000 Cert.LibConsts.isFin_eps Cert.LibConsts.eps_pos Cert.LibConsts.isFin_bias r

end N50000

/-- A dot product of finite vectors is finite. -/
theorem dot_fin_gen {k : Nat} (a b : Fin k → EReal) (ha : ∀ i, IsFin (a i)) (hb : ∀ i, IsFin (b i)) :
    IsFin (∑ i, a i * b i) :=
  isFin_sum_univ _ fun i => (ha i).mul (hb i)

theorem dot_fin (a b : Fin 128 → EReal) (ha : ∀ i, IsFin (a i)) (hb : ∀ i, IsFin (b i)) : IsFin (∑ k, a k * b k) :=
  dot_fin_gen a b ha hb

end Cert.LibBnOut
-- ==== Proof.LibBnmm.lean ====
/- The normalize-and-project unit of the two programs, compared.
   For a [50000,128] array x and a [128,128] weight w the kernel computes, at row r and column j,
       ∑ k ((x r k − mean k) · rsqrt (sumsq k / 50000 − mean k · mean k + eps) + bias) · w k j,      mean k = (∑ r, x r k) / 50000,
   and the reference the same with the variance written as the mean of the squared deviations. On a column of real
   numbers the two variances are one value, so the two results agree; the common variance is not negative, eps is
   positive, so the reciprocal square root is a positive real and every entry of the result is real when w's entries are. -/
import proofs.«407945_j8993661518245_1_alg».proof.Proof.LibBnRead
import proofs.«407945_j8993661518245_1_alg».proof.Proof.LibBnOut

noncomputable section

namespace Cert.LibBnmm

open Idealize.ShloMosaic Idealize.ShloMosaic.ValueIdx
open Cert.LibFinite Cert.LibBnVar Cert.LibBnOut
open Cert.ReferenceIdeal (S50000x128 S128x128)

variable [Cert.ReferenceIdeal.Facts₀]

/-- The kernel's form of entry (r, j): the variance as mean of squares minus squared mean. -/
def kform (x : S50000x128.Idx → EReal) (w : S128x128.Idx → EReal) (r : Fin 50000) (j : Fin 128) : EReal :=
  ∑ k : Fin 128,
    ((x (ix2 r k) - Ideal.div (∑ r : Fin 50000, x (ix2 r k)) (Ideal.ofBits .f32 0x47435000#32))
      * Ideal.rsqrt (Ideal.div (∑ r : Fin 50000, x (ix2 r k) * x (ix2 r k)) (Ideal.ofBits .f32 0x47435000#32)
          - Ideal.div (∑ r : Fin 50000, x (ix2 r k)) (Ideal.ofBits .f32 0x47435000#32)
            * Ideal.div (∑ r : Fin 50000, x (ix2 r k)) (Ideal.ofBits .f32 0x47435000#32)
          + Ideal.ofBits .f32 0x3727C5AC#32)
      + Ideal.ofBits .f32 0x38D1B717#32) * w (ix2 k j)

/-- On an array of real numbers the kernel's form is the reference's projected normalisation. -/
theorem kform_eq_proj (x : S50000x128.Idx → EReal) (w : S128x128.Idx → EReal) (hx : ∀ i, IsFin (x i))
    (r : Fin 50000) (j : Fin 128) : kform x w r j = Cert.LibBnRead.Ref.proj x w (ix2 r j) := by
  rw [Cert.LibBnRead.Ref.proj_apply]
  unfold kform
  refine Finset.sum_congr rfl fun k _ => ?_
  exact congrArg (· * w (ix2 k j)) (bn_eq (z := fun r => x (ix2 r k)) (fun r => hx _) r)

/-- The reference's projected normalisation of real arrays is real. -/
theorem proj_fin (x : S50000x128.Idx → EReal) (w : S128x128.Idx → EReal) (hx : ∀ i, IsFin (x i)) (hw : ∀ i, IsFin (w i))
    (r : Fin 50000) (j : Fin 128) : IsFin (Cert.LibBnRead.Ref.proj x w (ix2 r j)) := by
  rw [Cert.LibBnRead.Ref.proj_apply]
  exact dot_fin
    (fun k => (x (ix2 r k) - Ideal.div (∑ r : Fin 50000, x (ix2 r k)) (Ideal.ofBits .f32 0x47435000#32))
        * Ideal.rsqrt (Ideal.div (∑ r : Fin 50000,
            (x (ix2 r k) - Ideal.div (∑ r : Fin 50000, x (ix2 r k)) (Ideal.ofBits .f32 0x47435000#32))
              * (x (ix2 r k) - Ideal.div (∑ r : Fin 50000, x (ix2 r k)) (Ideal.ofBits .f32 0x47435000#32)))
            (Ideal.ofBits .f32 0x47435000#32) + Ideal.ofBits .f32 0x3727C5AC#32)
        + Ideal.ofBits .f32 0x38D1B717#32)
    (fun k => w (ix2 k j))
    (fun k => bn_fin (z := fun r => x (ix2 r k)) (fun r => hx _) r) (fun k => hw _)

/-- The two programs' results agree: the kernel's array K has the kernel's form over (xk, wk), the reference's array R is
    the reference's chain over (xr, wr), the inputs are equal and x is real. -/
theorem stage_eq {K R xk xr : S50000x128.Idx → EReal} {wk wr : S128x128.Idx → EReal}
    (hK : ∀ r j, K (ix2 r j) = kform xk wk r j) (hR : R = Cert.LibBnRead.Ref.proj xr wr)
    (hx : xk = xr) (hxf : ∀ i, IsFin (xk i)) (hw : wk = wr) : K = R := by
  subst hx hw hR
  funext i
  obtain ⟨r, j, rfl⟩ : ∃ (r : Fin 50000) (j : Fin 128), i = ix2 r j := ⟨i 0, i 1, eq_ix2 i⟩
  rw [hK, kform_eq_proj _ _ hxf]

/-- The kernel's result is real when x and w are. -/
theorem stage_fin {K xk : S50000x128.Idx → EReal} {wk : S128x128.Idx → EReal}
    (hK : ∀ r j, K (ix2 r j) = kform xk wk r j) (hxf : ∀ i, IsFin (xk i)) (hwf : ∀ i, IsFin (wk i)) (i : S50000x128.Idx) :
    IsFin (K i) := by
  obtain ⟨r, j, rfl⟩ : ∃ (r : Fin 50000) (j : Fin 128), i = ix2 r j := ⟨i 0, i 1, eq_ix2 i⟩
  rw [hK, kform_eq_proj _ _ hxf]
  exact proj_fin _ _ hxf hwf r j

end Cert.LibBnmm

end
-- ==== Proof.StageBnmm0.lean ====
/- The normalize-and-project unit number 0 of the network, in the two programs.
   Kernel: a region leaves the [1,128] rows of column sums of x and of x²; host operations form mean = sum / 50000 and
   var = sumsq / 50000 − mean · mean; a second region
   writes, at row r and column j, ∑ k ((x r k − mean k) · rsqrt (var k + eps) + bias) · w k j.
   Reference: host operations form the column means, the means of the squared deviations, the normalised array and its
   contraction with the weight. The two results agree when x is the same array of real numbers in both programs and the
   weights are equal (on a real column the two spellings of the variance are one value); the result is real when the weight is. -/
import proofs.«407945_j8993661518245_1_alg».proof.Proof.Iface
import proofs.«407945_j8993661518245_1_alg».proof.Proof.KCarry
import proofs.«407945_j8993661518245_1_alg».proof.Proof.RegStats0
import proofs.«407945_j8993661518245_1_alg».proof.Proof.RegMatmul1
import proofs.«407945_j8993661518245_1_alg».proof.Proof.LibBnRead
import proofs.«407945_j8993661518245_1_alg».proof.Proof.LibBnOut
import proofs.«407945_j8993661518245_1_alg».proof.Proof.LibBnmm

noncomputable section

namespace Cert.StageBnmm0

open Idealize.ShloMosaic Idealize.ShloMosaic.ValueIdx Idealize.ShloMosaic.TcCoe Idealize.SL.Sem Idealize.ShloMosaic.StableHlo
open Cert.Iface Cert.LibFinite

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel: the statistics region, the host stretch, the projection region -/

section Kernel

open Cert.KernelIdeal Cert.KernelIdeal.Gen Cert.KernelIdeal.GenP Cert.KernelIdeal.KCarry

/-- x, and the two rows the statistics region leaves, as the kernel program ends with them. -/
abbrev xK : S50000x128.Idx → EReal := Kf m ρ c main_arg0
abbrev s0K : S1x128.Idx → EReal := Kf m ρ c main_v0_0
abbrev s1K : S1x128.Idx → EReal := Kf m ρ c main_v0_1
/-- The projection region's output array, likewise. -/
abbrev outK : S50000x128.Idx → EReal := Kf m ρ c main_v7

/-- The statistics region's first output is the row of column sums of x. -/
theorem k_sum (k : Fin 128) :
    s0K m ρ c (ix2 (0 : Fin 1) k) = ∑ r : Fin 50000, xK m ρ c (ix2 r k) := by
  have e : s0K m ρ c = (dat0 (V0 m ρ) c).arrAt 1 cfg0.N := reg0_arr1 m ρ c
  have ex : (V0 m ρ c (Pipeline.arrRef spec0 0) : S50000x128.Idx → EReal) = xK m ρ c := reg0_in0 m ρ c
  rw [e]
  refine (Cert.KernelIdeal.RegStats0.colsum (V0 m ρ) c k).trans ?_
  exact Finset.sum_congr rfl fun r _ => congrFun ex (ix2 r k)

/-- Its second output is the row of column sums of squares. -/
theorem k_sumsq (k : Fin 128) :
    s1K m ρ c (ix2 (0 : Fin 1) k) = ∑ r : Fin 50000, xK m ρ c (ix2 r k) * xK m ρ c (ix2 r k) := by
  have e : s1K m ρ c = (dat0 (V0 m ρ) c).arrAt 2 cfg0.N := reg0_arr2 m ρ c
  have ex : (V0 m ρ c (Pipeline.arrRef spec0 0) : S50000x128.Idx → EReal) = xK m ρ c := reg0_in0 m ρ c
  rw [e]
  refine (Cert.KernelIdeal.RegStats0.colsumsq (V0 m ρ) c k).trans ?_
  exact Finset.sum_congr rfl fun r _ => congrArg₂ (· * ·) (congrFun ex (ix2 r k)) (congrFun ex (ix2 r k))

/-- The host stretch leaves the row of means: the sums divided by 50000. -/
theorem k_mean : (Kf m ρ c main_v2 : S1x128.Idx → EReal) = Cert.LibBnRead.Ker.mean (Kf m ρ c main_v0_0) := by
  have hread : (W2 m ρ c (Proc.devRef .tc main_v2) : S1x128.Idx → EReal) = Cert.LibBnRead.Ker.mean (W1 m ρ c (Proc.devRef .tc main_v0_0)) := by
    show StableHlo.after hostOps1 (W1 m ρ c) (Proc.devRef .tc main_v2) = _
    after_results
    rfl
  exact (carry2 m ρ c main_v2 (by decide)).trans (hread.trans (congrArg Cert.LibBnRead.Ker.mean (carry1 m ρ c main_v0_0 (by decide)).symm))

/-- And the row of variances: the mean of squares minus the squared mean. -/
theorem k_var : (Kf m ρ c main_v6 : S1x128.Idx → EReal) = Cert.LibBnRead.Ker.var (Kf m ρ c main_v0_0) (Kf m ρ c main_v0_1) := by
  have hread : (W2 m ρ c (Proc.devRef .tc main_v6) : S1x128.Idx → EReal)
      = Cert.LibBnRead.Ker.var (W1 m ρ c (Proc.devRef .tc main_v0_0)) (W1 m ρ c (Proc.devRef .tc main_v0_1)) := by
    show StableHlo.after hostOps1 (W1 m ρ c) (Proc.devRef .tc main_v6) = _
    after_results
    rfl
  exact (carry2 m ρ c main_v6 (by decide)).trans (hread.trans (congrArg₂ Cert.LibBnRead.Ker.var
    (carry1 m ρ c main_v0_0 (by decide)).symm (carry1 m ρ c main_v0_1 (by decide)).symm))

/-- The projection region's output, entry by entry, over x and the weight. -/
theorem k_out (r : Fin 50000) (j : Fin 128) :
    outK m ρ c (ix2 r j) = Cert.LibBnmm.kform (Kf m ρ c main_arg0) (Kf m ρ c main_arg1) r j := by
  have e : outK m ρ c = (dat1 (V2 m ρ) c).arrAt 4 cfg1.N := reg1_arr4 m ρ c
  have e0 : (V2 m ρ c (Pipeline.arrRef spec1 0) : S50000x128.Idx → EReal) = Kf m ρ c main_arg0 := reg1_in0 m ρ c
  have e1 : (V2 m ρ c (Pipeline.arrRef spec1 1) : S1x128.Idx → EReal) = Kf m ρ c main_v2 := reg1_in1 m ρ c
  have e2 : (V2 m ρ c (Pipeline.arrRef spec1 2) : S1x128.Idx → EReal) = Kf m ρ c main_v6 := reg1_in2 m ρ c
  have e3 : (V2 m ρ c (Pipeline.arrRef spec1 3) : S128x128.Idx → EReal) = Kf m ρ c main_arg1 := reg1_in3 m ρ c
  rw [e, Cert.KernelIdeal.RegMatmul1.out_apply (V2 m ρ) c r j]
  unfold Cert.LibBnmm.kform
  dsimp only [Cert.KernelIdeal.RegMatmul1.xArr, Cert.KernelIdeal.RegMatmul1.meanArr, Cert.KernelIdeal.RegMatmul1.varArr, Cert.KernelIdeal.RegMatmul1.wArr]
  refine Finset.sum_congr rfl fun k _ => ?_
  rw [e0, e1, e2, e3, k_mean m ρ c, k_var m ρ c, Cert.LibBnRead.Ker.mean_apply, Cert.LibBnRead.Ker.var_apply,
    show (Kf m ρ c main_v0_0 : S1x128.Idx → EReal) (ix2 (0 : Fin 1) k) = _ from k_sum m ρ c k,
    show (Kf m ρ c main_v0_1 : S1x128.Idx → EReal) (ix2 (0 : Fin 1) k) = _ from k_sumsq m ρ c k]

end Kernel

/-! ## The reference: the same unit as host operations -/

section Reference

open Cert.ReferenceIdeal Cert.ReferenceIdeal.RefRun

/-- The reference's result is its chain of operations over x and the weight. -/
theorem r_out : (Rf m' c main_v21 : S50000x128.Idx → EReal) = Cert.LibBnRead.Ref.proj (Rf m' c main_arg0) (Rf m' c main_arg1) := by
  have h0 : (Rf m' c main_v21 : S50000x128.Idx → EReal) = R1 m' c (Proc.devRef .tc main_v21) := carry1 m' c main_v21 (by decide)
  have hx : (Rf m' c main_arg0 : S50000x128.Idx → EReal) = R0 m' c (Proc.devRef .tc main_arg0) := carry0 m' c main_arg0 (by decide)
  have hw : (Rf m' c main_arg1 : S128x128.Idx → EReal) = R0 m' c (Proc.devRef .tc main_arg1) := carry0 m' c main_arg1 (by decide)
  rw [h0, hx, hw]
  show StableHlo.after ops0 (R0 m' c) (Proc.devRef .tc main_v21) = Cert.LibBnRead.Ref.proj (R0 m' c (Proc.devRef .tc main_arg0)) (R0 m' c (Proc.devRef .tc main_arg1))
  after_results_simp
  rfl

end Reference

/-! ## The two results agree -/

theorem t0 (hx : (Kf m ρ c Cert.KernelIdeal.main_arg0 : Cert.KernelIdeal.S50000x128.Idx → EReal) = Rf m' c Cert.ReferenceIdeal.main_arg0)
    (hxf : AllFin (Kf m ρ c Cert.KernelIdeal.main_arg0 : Cert.KernelIdeal.S50000x128.Idx → EReal))
    (hw : (Kf m ρ c Cert.KernelIdeal.main_arg1 : Cert.KernelIdeal.S128x128.Idx → EReal) = Rf m' c Cert.ReferenceIdeal.main_arg1)
    (hwf : AllFin (Kf m ρ c Cert.KernelIdeal.main_arg1 : Cert.KernelIdeal.S128x128.Idx → EReal)) : Cert.Iface.T0 m ρ m' c :=
  And.intro (Cert.LibBnmm.stage_eq (k_out m ρ c) (r_out m' c) hx hxf hw) (Cert.LibBnmm.stage_fin (k_out m ρ c) hxf hwf)

end Cert.StageBnmm0

end
-- ==== Proof.RegStats3.lean ====
/-
  REGION 3: the column statistics of a [50000,128] array.

  The region walks the ten row blocks (5000 rows each) of its input array x. At the first block it clears two [1,128]
  accumulators; at every block it adds to the first the block's column sums and to the second the column sums of the
  block's squares. The accumulators' buffers are written back once, after the last block. Over the extended reals
  addition is commutative and associative with no finiteness assumption and 0 + s = s, so the ten block sums regroup
  into one sum over the 50000 rows (row = 5000·t + q): after the region, for ANY contents V it is entered with,

      output 1 at (0, j) = ∑ r, x (r, j)        output 2 at (0, j) = ∑ r, x (r, j) * x (r, j)

  and the input array is as the region found it.

  The steps. (1) Sums over the rows taken block by block: a function of the rows continued by zero, summed over the
  naturals below 5000·(n+1) (the rows of the first n + 1 blocks). (2) The body's two payloads at an index (0, j): the value carried in plus the block's
  column sum (of the entries, of their squares); the cleared accumulator is 0 there. (3) What each control case of the
  body leaves in an accumulator's buffer is that payload of the block and of what the buffer held. (4) A row block
  read at (q, j) is the array at row 5000·t + q. (5) By induction on the grid point: after point n the accumulators
  hold the sums over the first 5000·(n+1) rows. (6) The one write-back, at the last point, carries the whole [1,128]
  array, so the arrays end holding the sums over all rows.
-/
import proofs.«407945_j8993661518245_1_alg».proof.Proof.FrameKI
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.RegStats3

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! ## (1) Sums over the rows, block by block -/

/-- A function of the 50000 rows, continued by zero past the last row. -/
def ext (f : Fin 50000 → EReal) (r : ℕ) : EReal := if h : r < 50000 then f ⟨r, h⟩ else 0

/-- Summed over all naturals below 50000 it is the sum over the rows. -/
theorem sum_ext_all (f : Fin 50000 → EReal) : ∑ r ∈ Finset.range 50000, ext f r = ∑ r : Fin 50000, f r := by
  rw [Finset.sum_range]
  exact Finset.sum_congr rfl fun r _ => dif_pos r.isLt

/-- One more block of 5000 rows starting at row a: the rows below a + 5000 are the rows below a and the rows a + q. -/
theorem sum_ext_block (f : Fin 50000 → EReal) (a : ℕ) (ha : a + 5000 ≤ 50000) :
    ∑ r ∈ Finset.range (a + 5000), ext f r
      = ∑ r ∈ Finset.range a, ext f r + ∑ q : Fin 5000, f ⟨a + q.val, by have := q.isLt; omega⟩ := by
  refine (Finset.sum_range_add _ _ _).trans ?_
  congr 1
  rw [Finset.sum_range]
  exact Finset.sum_congr rfl fun q _ => dif_pos _

/-- The sum of f over the rows of the first n + 1 blocks. -/
def firstBlocks (f : Fin 50000 → EReal) (n : ℕ) : EReal := ∑ r ∈ Finset.range (5000 * (n + 1)), ext f r

/-- The first block alone. -/
theorem firstBlocks_zero (f : Fin 50000 → EReal) :
    firstBlocks f 0 = ∑ q : Fin 5000, f ⟨5000 * 0 + q.val, by have := q.isLt; omega⟩ := by
  have z : ∑ r ∈ Finset.range (5000 * 0), ext f r = 0 := Finset.sum_range_zero _
  show ∑ r ∈ Finset.range (5000 * 0 + 5000), ext f r = _
  rw [sum_ext_block f (5000 * 0) (by omega), z, zero_add]

/-- One more block. -/
theorem firstBlocks_succ (f : Fin 50000 → EReal) (n : ℕ) (hn : n + 1 < 10) :
    firstBlocks f (n + 1) = firstBlocks f n + ∑ q : Fin 5000, f ⟨5000 * (n + 1) + q.val, by have := q.isLt; omega⟩ := by
  have e : 5000 * (n + 1 + 1) = 5000 * (n + 1) + 5000 := by omega
  unfold firstBlocks
  rw [e]
  exact sum_ext_block f (5000 * (n + 1)) (by omega)

/-- All ten blocks: every row. -/
theorem firstBlocks_last (f : Fin 50000 → EReal) : firstBlocks f 9 = ∑ r : Fin 50000, f r :=
  sum_ext_all f

/-! ## (2) The body's payloads at an index (0, j) -/

/-- A [128] vector viewed [1,128] reads (0, j) at j. -/
theorem addUnit_read (v : FVec Ideal S128 .f32) (h : S128.ShapeCasts S1x128) (j : Fin 128) :
    shapeCast S1x128 v h (ix2 0 j) = v (ix1 j) :=
  (shapeCast_addUnit_apply (n := 1) ![128] v h (ix2 0 j)).trans
    (congrArg v (funext fun a => match a with | ⟨0, _⟩ => rfl))

/-- The sum of a [5000,128] block along its rows, at column j: the index over j with row q inserted is (q, j). -/
theorem reduce_read (x : FVec Ideal S5000x128 .f32) (hr : S5000x128.Reduces [0] S128) (hφ : FKind.Formats .f32)
    (hacc : (0x00000000#32 : BitVec 32) = FKind.add.neutral .f32 hφ) (j : Fin 128) :
    multiReduction .add [0] S128 x 0x00000000#32 hr hφ hacc (ix1 j) = ∑ q : Fin 5000, x (ix2 q j) := by
  refine (Ideal.multiReduction_add_single x 0x00000000#32 hr hφ hacc (ix1 j)).trans ?_
  show ∑ k : Fin 5000, x (hr.lift (ix1 j) k) = _
  refine Finset.sum_congr rfl fun k _ => congrArg x ?_
  funext a; apply Fin.ext
  match a with
  | ⟨0, _⟩ => rfl
  | ⟨1, _⟩ => rfl

/-- The accumulating step at (0, j): what was carried in plus the block's column sum. -/
theorem acc_read (x : FVec Ideal S5000x128 .f32) (acc : FVec Ideal S1x128 .f32) (h1 : S1x128.ShapeCasts S1x128)
    (hr : S5000x128.Reduces [0] S128) (h2 : S128.ShapeCasts S1x128) (hφ : FKind.Formats .f32)
    (hacc : (0x00000000#32 : BitVec 32) = FKind.add.neutral .f32 hφ) (j : Fin 128) :
    addf (shapeCast S1x128 acc h1) (shapeCast S1x128 (multiReduction .add [0] S128 x 0x00000000#32 hr hφ hacc) h2) (ix2 0 j)
      = acc (ix2 0 j) + ∑ q : Fin 5000, x (ix2 q j) := by
  show shapeCast S1x128 acc h1 (ix2 0 j)
    + shapeCast S1x128 (multiReduction .add [0] S128 x 0x00000000#32 hr hφ hacc) h2 (ix2 0 j) = _
  rw [shapeCast_self, addUnit_read, reduce_read]

/-- The loaded block as the two sums read it. -/
abbrev inblk (x : Vec Ideal S5000x128 .f32) : FVec Ideal S5000x128 .f32 := k3_pay3 x
theorem inblk_eq (x : Vec Ideal S5000x128 .f32) : inblk x = x := shapeCast_self x _

/-- The first sum's payload at (0, j). -/
theorem sum_pay_apply (x : Vec Ideal S5000x128 .f32) (acc : Vec Ideal S1x128 .f32) (j : Fin 128) :
    k3_pay4 x acc (ix2 0 j) = acc (ix2 0 j) + ∑ q : Fin 5000, x (ix2 q j) :=
  (acc_read (inblk x) acc _ _ _ _ _ j).trans (by rw [inblk_eq])

/-- The second sum's payload at (0, j): the block's squares summed. -/
theorem sq_pay_apply (x : Vec Ideal S5000x128 .f32) (acc : Vec Ideal S1x128 .f32) (j : Fin 128) :
    k3_pay5 x acc (ix2 0 j) = acc (ix2 0 j) + ∑ q : Fin 5000, x (ix2 q j) * x (ix2 q j) :=
  (acc_read (mulf (inblk x) (inblk x)) acc _ _ _ _ _ j).trans (by rw [inblk_eq]; rfl)

/-- The cleared accumulators are 0 everywhere. -/
theorem clear1_apply (j : Fin 128) : (k3_pay1 (F := Ideal)) (ix2 0 j) = 0 := Ideal.ofBits_zero_f32
theorem clear2_apply (j : Fin 128) : (k3_pay2 (F := Ideal)) (ix2 0 j) = 0 := Ideal.ofBits_zero_f32

/-! ## (3) What each control case leaves in the accumulators' buffers -/

section Pieces

variable {F : FTy → Type} [FloatOps F]

theorem zeroOff : (![0, 0] : Fin 2 → Nat) = fun _ => 0 :=
  funext fun a => match a with | ⟨0, _⟩ => rfl | ⟨1, _⟩ => rfl

/-- A later point: the first accumulator's one store, of the payload of the block and of what the buffer held. -/
theorem later_1 (c : Dev nD) (i : grid3.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond3_0 i) (x : Vec F S5000x128 .f32) (xo1 xo2 : Vec F S1x128 .f32) :
    out3_B_1 c i a1 h1 a2 h2 a3 h3 hc x xo1 xo2 = k3_pay4 x xo1 := by
  unfold out3_B_1
  rw [View.read_writes_eq_canon _ _ _ (cover3_B_1 c i a1 h1 a2 h2 a3 h3 hc x xo1 xo2)]
  unfold kernelRun3_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- A later point: the second accumulator's. -/
theorem later_2 (c : Dev nD) (i : grid3.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond3_0 i) (x : Vec F S5000x128 .f32) (xo1 xo2 : Vec F S1x128 .f32) :
    out3_B_2 c i a1 h1 a2 h2 a3 h3 hc x xo1 xo2 = k3_pay5 x xo2 := by
  unfold out3_B_2
  rw [View.read_writes_eq_canon _ _ _ (cover3_B_2 c i a1 h1 a2 h2 a3 h3 hc x xo1 xo2)]
  unfold kernelRun3_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- The first point: the accumulator is cleared, read back, and the payload of the block and of the cleared value stored. -/
theorem first_1 (c : Dev nD) (i : grid3.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond3_0 i) (x : Vec F S5000x128 .f32) :
    out3_A_1 c i a1 h1 a2 h2 a3 h3 hc x = k3_pay4 x (k3_pay1 (F := F)) := by
  unfold out3_A_1
  rw [View.read_writes_eq_canon _ _ _ (cover3_A_1 c i a1 h1 a2 h2 a3 h3 hc x)]
  unfold kernelRun3_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

/-- The first point: the second accumulator's. -/
theorem first_2 (c : Dev nD) (i : grid3.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond3_0 i) (x : Vec F S5000x128 .f32) :
    out3_A_2 c i a1 h1 a2 h2 a3 h3 hc x = k3_pay5 x (k3_pay2 (F := F)) := by
  unfold out3_A_2
  rw [View.read_writes_eq_canon _ _ _ (cover3_A_2 c i a1 h1 a2 h2 a3 h3 hc x)]
  unfold kernelRun3_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

end Pieces

/-! ## (4) The input array and its row blocks -/

variable (V : (c : Dev nD) → (b : Ref sig .tc) → Buf (Elt Ideal) ((c : Thread nD τ).loc b))

/-- The input array as the region finds it, -/
abbrev xin (c : Dev nD) : S50000x128.Idx → EReal := V c (Pipeline.arrRef spec3 0)
/-- its row block at a grid point, -/
abbrev xblk (c : Dev nD) (t : Fin cfg3.N) : Vec Ideal S5000x128 .f32 := iblk3 V c 0 t
/-- and row q of block t as a row of the array. -/
abbrev row (t : Fin cfg3.N) (q : Fin 5000) : Fin 50000 :=
  ⟨5000 * t.val + q.val, by have := t.isLt; have hN : cfg3.N = 10 := N_3; have := q.isLt; omega⟩

/-- The input window's block index: the point on the row axis, 0 on the column axis. -/
theorem in_index : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)

/-- Block t at (q, j) is the array at (5000·t + q, j). -/
theorem xblk_apply (c : Dev nD) (t : Fin cfg3.N) (q : Fin 5000) (j : Fin 128) :
    xblk V c t (ix2 q j) = xin V c (ix2 (row t q) j) := by
  obtain ⟨e0, e1⟩ := in_index t
  show V c (Pipeline.arrRef spec3 0) (((cfg3.win 0).blk t).view.emb (ix2 q j)) = V c (Pipeline.arrRef spec3 0) (ix2 (row t q) j)
  refine congrArg _ ?_
  funext a; apply Fin.ext
  match a with
  | ⟨0, _⟩ => show win3_0.index t (0 : Fin 2) * 5000 + 1 * q.val = 5000 * t.val + q.val; omega
  | ⟨1, _⟩ => show win3_0.index t (1 : Fin 2) * 128 + 1 * j.val = j.val; omega

/-! ## (5) The accumulators after each point -/

/-- Column j of the array, and of its squares, as functions of the row. -/
abbrev colf (c : Dev nD) (j : Fin 128) : Fin 50000 → EReal := fun r => xin V c (ix2 r j)
abbrev sqf (c : Dev nD) (j : Fin 128) : Fin 50000 → EReal := fun r => xin V c (ix2 r j) * xin V c (ix2 r j)

/-- A block's column sum is the column's sum over the block's rows; likewise for the squares. -/
theorem blk_colsum (c : Dev nD) (t : Fin cfg3.N) (j : Fin 128) :
    ∑ q : Fin 5000, xblk V c t (ix2 q j) = ∑ q : Fin 5000, colf V c j (row t q) :=
  Finset.sum_congr rfl fun q _ => xblk_apply V c t q j
theorem blk_sqsum (c : Dev nD) (t : Fin cfg3.N) (j : Fin 128) :
    ∑ q : Fin 5000, xblk V c t (ix2 q j) * xblk V c t (ix2 q j) = ∑ q : Fin 5000, sqf V c j (row t q) :=
  Finset.sum_congr rfl fun q _ => by rw [xblk_apply V c t q j]

/-- After point n the accumulators hold, at (0, j), the sums over the rows of the first n + 1 blocks. -/
theorem outs_eq (c : Dev nD) : ∀ (n : ℕ) (h : n < cfg3.N) (j : Fin 128),
    ((outsAt3 V c n h).1 : S1x128.Idx → EReal) (ix2 0 j) = firstBlocks (colf V c j) n
    ∧ ((outsAt3 V c n h).2 : S1x128.Idx → EReal) (ix2 0 j) = firstBlocks (sqf V c j) n
  | 0, h, j => by
    have hc : cond3_0 (grid3.coords ⟨0, h⟩) := (hcond3_0 ⟨0, h⟩).mpr rfl
    rw [outsAt3_A V c ⟨0, h⟩ rfl]
    dsimp only
    constructor
    · refine (congrFun (first_1 (F := Ideal) c (grid3.coords ⟨0, h⟩) (ms3_0 ⟨0, h⟩) (hs3_0 ⟨0, h⟩) (ms3_1 ⟨0, h⟩) (hs3_1 ⟨0, h⟩)
        (ms3_2 ⟨0, h⟩) (hs3_2 ⟨0, h⟩) hc (xblk V c ⟨0, h⟩)) (ix2 0 j)).trans ?_
      refine (sum_pay_apply (xblk V c ⟨0, h⟩) (k3_pay1 (F := Ideal)) j).trans ?_
      rw [clear1_apply, zero_add, firstBlocks_zero]
      exact blk_colsum V c ⟨0, h⟩ j
    · refine (congrFun (first_2 (F := Ideal) c (grid3.coords ⟨0, h⟩) (ms3_0 ⟨0, h⟩) (hs3_0 ⟨0, h⟩) (ms3_1 ⟨0, h⟩) (hs3_1 ⟨0, h⟩)
        (ms3_2 ⟨0, h⟩) (hs3_2 ⟨0, h⟩) hc (xblk V c ⟨0, h⟩)) (ix2 0 j)).trans ?_
      refine (sq_pay_apply (xblk V c ⟨0, h⟩) (k3_pay2 (F := Ideal)) j).trans ?_
      rw [clear2_apply, zero_add, firstBlocks_zero]
      exact blk_sqsum V c ⟨0, h⟩ j
  | n + 1, h, j => by
    have hN : cfg3.N = 10 := N_3
    have hB : ¬(⟨n + 1, h⟩ : Fin cfg3.N).val % 10 = 0 := by dsimp only; omega
    have hc : ¬cond3_0 (grid3.coords ⟨n + 1, h⟩) := fun hh => hB ((hcond3_0 ⟨n + 1, h⟩).mp hh)
    have ih := outs_eq c n (Nat.lt_of_succ_lt h) j
    rw [outsAt3_B V c ⟨n + 1, h⟩ hB]
    dsimp only
    constructor
    · refine (congrFun (later_1 (F := Ideal) c (grid3.coords ⟨n + 1, h⟩) (ms3_0 ⟨n + 1, h⟩) (hs3_0 ⟨n + 1, h⟩) (ms3_1 ⟨n + 1, h⟩)
        (hs3_1 ⟨n + 1, h⟩) (ms3_2 ⟨n + 1, h⟩) (hs3_2 ⟨n + 1, h⟩) hc (xblk V c ⟨n + 1, h⟩)
        (outsAt3 V c n (Nat.lt_of_succ_lt h)).1 (outsAt3 V c n (Nat.lt_of_succ_lt h)).2) (ix2 0 j)).trans ?_
      refine (sum_pay_apply (xblk V c ⟨n + 1, h⟩) (outsAt3 V c n (Nat.lt_of_succ_lt h)).1 j).trans ?_
      rw [firstBlocks_succ (colf V c j) n (by omega)]
      exact congrArg₂ (· + ·) ih.1 (blk_colsum V c ⟨n + 1, h⟩ j)
    · refine (congrFun (later_2 (F := Ideal) c (grid3.coords ⟨n + 1, h⟩) (ms3_0 ⟨n + 1, h⟩) (hs3_0 ⟨n + 1, h⟩) (ms3_1 ⟨n + 1, h⟩)
        (hs3_1 ⟨n + 1, h⟩) (ms3_2 ⟨n + 1, h⟩) (hs3_2 ⟨n + 1, h⟩) hc (xblk V c ⟨n + 1, h⟩)
        (outsAt3 V c n (Nat.lt_of_succ_lt h)).1 (outsAt3 V c n (Nat.lt_of_succ_lt h)).2) (ix2 0 j)).trans ?_
      refine (sq_pay_apply (xblk V c ⟨n + 1, h⟩) (outsAt3 V c n (Nat.lt_of_succ_lt h)).2 j).trans ?_
      rw [firstBlocks_succ (sqf V c j) n (by omega)]
      exact congrArg₂ (· + ·) ih.2 (blk_sqsum V c ⟨n + 1, h⟩ j)

/-! ## (6) The arrays after the region -/

/-- The column sums, and the column sums of squares, as [1,128] arrays. -/
def colSums (c : Dev nD) : S1x128.Idx → EReal := fun i => ∑ r : Fin 50000, xin V c (ix2 r ⟨(i 1).val, idx2_lt1 i⟩)
def sqSums (c : Dev nD) : S1x128.Idx → EReal :=
  fun i => ∑ r : Fin 50000, xin V c (ix2 r ⟨(i 1).val, idx2_lt1 i⟩) * xin V c (ix2 r ⟨(i 1).val, idx2_lt1 i⟩)

theorem colSums_apply (c : Dev nD) (j : Fin 128) : colSums V c (ix2 0 j) = ∑ r : Fin 50000, xin V c (ix2 r j) := rfl
theorem sqSums_apply (c : Dev nD) (j : Fin 128) :
    sqSums V c (ix2 0 j) = ∑ r : Fin 50000, xin V c (ix2 r j) * xin V c (ix2 r j) := rfl

/-- The accumulators' block index is (0, 0) at every point. -/
theorem out_index : ∀ t : Fin cfg3.N, (win3_1.index t (0 : Fin 2) = 0 ∧ win3_1.index t (1 : Fin 2) = 0)
    ∧ (win3_2.index t (0 : Fin 2) = 0 ∧ win3_2.index t (1 : Fin 2) = 0) :=
  (by decide +kernel : ∀ t : Fin grid3.N, (win3_1.index t (0 : Fin 2) = 0 ∧ win3_1.index t (1 : Fin 2) = 0)
    ∧ (win3_2.index t (0 : Fin 2) = 0 ∧ win3_2.index t (1 : Fin 2) = 0))

/-- An accumulator's buffer is moved whole, and a block of a [1,128] array read through the window reads the array
    at the embedded index. -/
theorem cut1_apply (t : Fin cfg3.N) (X : Vec Ideal S1x128 .f32) (y : ((cfg3.win 1).xblock (grid3.coords t)).Idx) :
    (cfg3.win 1).cut (grid3.coords t) X y = X y := rfl
theorem read1_apply (t : Fin cfg3.N) (G : S1x128.Idx → EReal) (y : ((cfg3.win 1).xblock (grid3.coords t)).Idx) :
    ((cfg3.win 1).blk t).view.read (Elt Ideal) G y = G (((cfg3.win 1).blk t).view.emb y) := rfl
theorem cut2_apply (t : Fin cfg3.N) (X : Vec Ideal S1x128 .f32) (y : ((cfg3.win 2).xblock (grid3.coords t)).Idx) :
    (cfg3.win 2).cut (grid3.coords t) X y = X y := rfl
theorem read2_apply (t : Fin cfg3.N) (G : S1x128.Idx → EReal) (y : ((cfg3.win 2).xblock (grid3.coords t)).Idx) :
    ((cfg3.win 2).blk t).view.read (Elt Ideal) G y = G (((cfg3.win 2).blk t).view.emb y) := rfl

/-- The block of output 1 at any point is the whole array: an index (0, j) of the block is (0, j) of the array. -/
theorem emb1_eq (t : Fin cfg3.N) (j : Fin 128) : ((cfg3.win 1).blk t).view.emb (ix2 0 j) = ix2 0 j := by
  obtain ⟨⟨e0, e1⟩, -⟩ := out_index t
  funext a; apply Fin.ext
  match a with
  | ⟨0, _⟩ => show win3_1.index t (0 : Fin 2) * 1 + 1 * 0 = 0; omega
  | ⟨1, _⟩ => show win3_1.index t (1 : Fin 2) * 128 + 1 * j.val = j.val; omega
theorem emb2_eq (t : Fin cfg3.N) (j : Fin 128) : ((cfg3.win 2).blk t).view.emb (ix2 0 j) = ix2 0 j := by
  obtain ⟨-, ⟨e0, e1⟩⟩ := out_index t
  funext a; apply Fin.ext
  match a with
  | ⟨0, _⟩ => show win3_2.index t (0 : Fin 2) * 1 + 1 * 0 = 0; omega
  | ⟨1, _⟩ => show win3_2.index t (1 : Fin 2) * 128 + 1 * j.val = j.val; omega

/-- So a buffer that agrees with a [1,128] array G at every (0, j) is, moved through the window, G's block. -/
theorem flush1_of_cols (t : Fin cfg3.N) (X : Vec Ideal S1x128 .f32) (G : S1x128.Idx → EReal)
    (h : ∀ j : Fin 128, X (ix2 0 j) = G (ix2 0 j)) :
    (cfg3.win 1).cut (grid3.coords t) X = ((cfg3.win 1).blk t).view.read (Elt Ideal) G := by
  funext y
  rw [cut1_apply, read1_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb1_eq t j).symm)
theorem flush2_of_cols (t : Fin cfg3.N) (X : Vec Ideal S1x128 .f32) (G : S1x128.Idx → EReal)
    (h : ∀ j : Fin 128, X (ix2 0 j) = G (ix2 0 j)) :
    (cfg3.win 2).cut (grid3.coords t) X = ((cfg3.win 2).blk t).view.read (Elt Ideal) G := by
  funext y
  rw [cut2_apply, read2_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb2_eq t j).symm)

/-- What the one write-back of output 1 carries is the column sums (its block is the whole array). -/
theorem flushed1_eq (c : Dev nD) (t : Fin cfg3.N) (hf : (cfg3.win 1).flush t = true) :
    (dat3 V c).flushed 1 t = ((cfg3.win 1).blk t).view.read (Elt Ideal) (colSums V c) := by
  have hN : cfg3.N = 10 := N_3
  have h9 : t.val = 9 := by have := (flush3_1 t).mp hf; have := t.isLt; omega
  show (cfg3.win 1).cut (grid3.coords t) ((dat3 V c).after 1 t) = _
  rw [after3_1]
  refine flush1_of_cols t (outsAt3 V c t.val t.isLt).1 (colSums V c) fun j => ?_
  refine ((outs_eq V c t.val t.isLt j).1).trans ?_
  rw [h9, firstBlocks_last, colSums_apply]

/-- What the one write-back of output 2 carries is the column sums of squares. -/
theorem flushed2_eq (c : Dev nD) (t : Fin cfg3.N) (hf : (cfg3.win 2).flush t = true) :
    (dat3 V c).flushed 2 t = ((cfg3.win 2).blk t).view.read (Elt Ideal) (sqSums V c) := by
  have hN : cfg3.N = 10 := N_3
  have h9 : t.val = 9 := by have := (flush3_2 t).mp hf; have := t.isLt; omega
  show (cfg3.win 2).cut (grid3.coords t) ((dat3 V c).after 2 t) = _
  rw [after3_2]
  refine flush2_of_cols t (outsAt3 V c t.val t.isLt).2 (sqSums V c) fun j => ?_
  refine ((outs_eq V c t.val t.isLt j).2).trans ?_
  rw [h9, firstBlocks_last, sqSums_apply]

/-- An index of a [1,128] array is in the accumulator's block at point t iff each coordinate is in the block's range. -/
theorem mem_blk1 (t : Fin cfg3.N) (i : S1x128.Idx) :
    i ∈ ((cfg3.win 1).blk t).view.set ↔ ∀ a : Fin 2, win3_1.index t a * S1x128.size a ≤ (i a).val ∧ (i a).val < win3_1.index t a * S1x128.size a + S1x128.size a := by
  show i ∈ ((View.whole main_v11_0).slice (win3_1.rect t)).set ↔ _
  rw [View.set_slice_whole, Rect.mem_set_unit]
  exact Iff.rfl
theorem mem_blk2 (t : Fin cfg3.N) (i : S1x128.Idx) :
    i ∈ ((cfg3.win 2).blk t).view.set ↔ ∀ a : Fin 2, win3_2.index t a * S1x128.size a ≤ (i a).val ∧ (i a).val < win3_2.index t a * S1x128.size a + S1x128.size a := by
  show i ∈ ((View.whole main_v11_1).slice (win3_2.rect t)).set ↔ _
  rw [View.set_slice_whole, Rect.mem_set_unit]
  exact Iff.rfl

/-- The last point's block covers the whole [1,128] array. -/
theorem cover1 (i : S1x128.Idx) : ∃ t : Fin cfg3.N, (cfg3.win 1).flush t = true ∧ i ∈ ((cfg3.win 1).blk t).view.set := by
  refine ⟨t3_9, (flush3_1 t3_9).mpr rfl, ?_⟩
  obtain ⟨⟨e0, e1⟩, -⟩ := out_index t3_9
  have h0 : (i 0).val < 1 := (i 0).isLt
  have h1 : (i 1).val < 128 := (i 1).isLt
  rw [mem_blk1]
  intro a
  match a with
  | ⟨0, _⟩ => show win3_1.index t3_9 (0 : Fin 2) * 1 ≤ (i 0).val ∧ (i 0).val < win3_1.index t3_9 (0 : Fin 2) * 1 + 1; omega
  | ⟨1, _⟩ => show win3_1.index t3_9 (1 : Fin 2) * 128 ≤ (i 1).val ∧ (i 1).val < win3_1.index t3_9 (1 : Fin 2) * 128 + 128; omega
theorem cover2 (i : S1x128.Idx) : ∃ t : Fin cfg3.N, (cfg3.win 2).flush t = true ∧ i ∈ ((cfg3.win 2).blk t).view.set := by
  refine ⟨t3_9, (flush3_2 t3_9).mpr rfl, ?_⟩
  obtain ⟨-, ⟨e0, e1⟩⟩ := out_index t3_9
  have h0 : (i 0).val < 1 := (i 0).isLt
  have h1 : (i 1).val < 128 := (i 1).isLt
  rw [mem_blk2]
  intro a
  match a with
  | ⟨0, _⟩ => show win3_2.index t3_9 (0 : Fin 2) * 1 ≤ (i 0).val ∧ (i 0).val < win3_2.index t3_9 (0 : Fin 2) * 1 + 1; omega
  | ⟨1, _⟩ => show win3_2.index t3_9 (1 : Fin 2) * 128 ≤ (i 1).val ∧ (i 1).val < win3_2.index t3_9 (1 : Fin 2) * 128 + 128; omega

/-- OUTPUT 1 after the region: at (0, j) the sum of column j of the input array over all 50000 rows (both sides read as
    extended reals; xin V c is the input array V c (Pipeline.arrRef spec3 0) at its literal type). -/
theorem colsum (c : Dev nD) (j : Fin 128) :
    @Eq EReal (((dat3 V c).arrAt 1 cfg3.N) (ix2 0 j)) (∑ r : Fin 50000, xin V c (ix2 r j)) :=
  (congrFun ((dat3 V c).arrAt_eq_of_cover 1 (colSums V c) (flushed1_eq V c) cover1) (ix2 0 j)).trans (colSums_apply V c j)

/-- OUTPUT 2 after the region: at (0, j) the sum of the squares of column j over all 50000 rows. -/
theorem colsumsq (c : Dev nD) (j : Fin 128) :
    @Eq EReal (((dat3 V c).arrAt 2 cfg3.N) (ix2 0 j)) (∑ r : Fin 50000, xin V c (ix2 r j) * xin V c (ix2 r j)) :=
  (congrFun ((dat3 V c).arrAt_eq_of_cover 2 (sqSums V c) (flushed2_eq V c) cover2) (ix2 0 j)).trans (sqSums_apply V c j)

/-- The input array is never written back: it is left as the region found it. -/
theorem kept (c : Dev nD) : (dat3 V c).arrAt 0 cfg3.N = V c (Pipeline.arrRef spec3 0) :=
  ((dat3 V c).arrAt_in 0 rfl cfg3.N).trans (A_eq3 V c 0)

end Cert.KernelIdeal.RegStats3

end
-- ==== Proof.RegMatmul4.lean ====
/- Region 4 of the idealized kernel, read as whole arrays: the batch-normalised rows times the weight matrix.

   The region tiles the 50000 rows of its operand x in 10 blocks of 5000 rows. At each block it forms, with the
   per-column statistics mean, var (one row of 128 entries each) and the 128 x 128 matrix w,
     xn[r, k] = (x[r, k] - mean[0, k]) * rsqrt (var[0, k] + eps) + bnb,
     o[r, j]  = sum over k of xn[r, k] * w[k, j],
   over the extended reals, where narrowing to the 16-bit format is the identity and the matrix unit's product into a
   zero accumulator is the plain sum over the contracted column. Written here: the product's operand indices at an
   output index and a contraction position (one lemma per operand axis), the product read at (r, j), the block's whole
   payload read at (r, j), each operand block read as rows of its array, what the write-back at a grid point holds,
   the cover of the 50000 rows by the blocks (row r lies in block r / 5000), and the output array after the region as a
   function of the four input arrays, which the region leaves as it found them. -/
import proofs.«407945_j8993661518245_1_alg».proof.Proof.FrameKI
import Idealize.ShloMosaic.Lib.Pipeline.Value
import Idealize.ShloMosaic.Lib.Pipeline.Cells
import Idealize.ShloMosaic.Lib.ValueIdx
import Idealize.ShloMosaic.Lib.ValueLayout
import Idealize.ShloMosaic.PureOps.Ideal.Laws

set_option maxRecDepth 16384

noncomputable section

namespace Cert.KernelIdeal.RegMatmul4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen Cert.KernelIdeal.GenP

/-! ## The matrix product at an output index -/

/-- The left operand's row at output index i is i's row. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction position. -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column at output index i is i's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, at row p and column q: the sum over the 128 contracted positions of the
    left operand's row p times the right operand's column q. -/
theorem matmul_zero_apply {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The block's payload at an index -/

/-- The value the body stores, at row p and column q of the block: the normalised row p of the block of x against
    column q of w. -/
theorem pay_apply (x0 : Vec Ideal S5000x128 .f32) (x1 : Vec Ideal S1x128 .f32) (x2 : Vec Ideal S1x128 .f32) (x3 : Vec Ideal S128x128 .f32)
    (p : Fin 5000) (q : Fin 128) :
    k4_pay1 x0 x1 x2 x3 (ix2 p q)
      = ∑ k : Fin 128, ((x0 (ix2 p k) - x1 (ix2 (0 : Fin 1) k)) * Ideal.rsqrt (x2 (ix2 (0 : Fin 1) k) + Ideal.ofBits .f32 0x3727C5AC#32)
          + Ideal.ofBits .f32 0x38D1B717#32) * x3 (ix2 k q) := by
  unfold k4_pay1
  simp only [shapeCast_self]
  refine (matmul_zero_apply _ _ p q).trans ?_
  refine Finset.sum_congr rfl fun k _ => ?_
  rw [truncf_apply, truncf_apply, addf_apply, mulf_apply, subf_apply, broadcastTo_1b_ab_apply, broadcastTo_1b_ab_apply]
  rfl

/-! ## The region's arrays -/

variable (V : (c : Dev nD) → (b : Ref sig .tc) → Buf (Elt Ideal) ((c : Thread nD τ).loc b))

/-- The four input arrays as the region finds them: x (50000 rows), the column means and variances (one row each), w. -/
abbrev xArr (c : Dev nD) : S50000x128.Idx → EReal := V c (Pipeline.arrRef spec4 0)
abbrev meanArr (c : Dev nD) : S1x128.Idx → EReal := V c (Pipeline.arrRef spec4 1)
abbrev varArr (c : Dev nD) : S1x128.Idx → EReal := V c (Pipeline.arrRef spec4 2)
abbrev wArr (c : Dev nD) : S128x128.Idx → EReal := V c (Pipeline.arrRef spec4 3)

/-- The output array as one function of the input arrays: entry (r, j) is the normalised row r of x against column j of w. -/
def G (x : S50000x128.Idx → EReal) (mean var : S1x128.Idx → EReal) (w : S128x128.Idx → EReal) : S50000x128.Idx → EReal := fun i =>
  ∑ k : Fin 128, ((x (ix2 (i 0) k) - mean (ix2 (0 : Fin 1) k)) * Ideal.rsqrt (var (ix2 (0 : Fin 1) k) + Ideal.ofBits .f32 0x3727C5AC#32)
      + Ideal.ofBits .f32 0x38D1B717#32) * w (ix2 k (i 1))

theorem off_zero : (![0, 0] : Fin 2 → Nat) = fun _ => 0 := funext fun a => by fin_cases a <;> rfl

/-- The index maps over the grid: the blocks of x and of the output are block t of the rows, all columns; the other
    three operands are their whole arrays at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of x's block at point t is row 5000 t + p of x. -/
theorem blk0_apply (c : Dev nD) (t : Fin cfg4.N) (p : Fin 5000) (k : Fin 128) (r : Fin 50000) (hr : r.val = t.val * 5000 + p.val) :
    (iblk4 V c 0 t : Vec Ideal S5000x128 .f32) (ix2 p k) = xArr V c (ix2 r k) := by
  obtain ⟨e00, e01, -⟩ := idx_facts t
  show xArr V c (((cfg4.win 0).blk t).view.emb (ix2 p k)) = xArr V c (ix2 r k)
  refine congrArg (xArr V c) (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The block of the means at any point is the one row of means. -/
theorem blk1_apply (c : Dev nD) (t : Fin cfg4.N) (k : Fin 128) :
    (iblk4 V c 1 t : Vec Ideal S1x128 .f32) (ix2 (0 : Fin 1) k) = meanArr V c (ix2 (0 : Fin 1) k) := by
  obtain ⟨-, -, e10, e11, -⟩ := idx_facts t
  show meanArr V c (((cfg4.win 1).blk t).view.emb (ix2 (0 : Fin 1) k)) = meanArr V c (ix2 (0 : Fin 1) k)
  refine congrArg (meanArr V c) (funext fun a => Fin.ext ?_)
  match a with
  | ⟨0, _⟩ => show win4_1.index t (0 : Fin 2) * 1 + 1 * 0 = 0; omega
  | ⟨1, _⟩ => show win4_1.index t (1 : Fin 2) * 128 + 1 * k.val = k.val; omega

/-- The block of the variances at any point is the one row of variances. -/
theorem blk2_apply (c : Dev nD) (t : Fin cfg4.N) (k : Fin 128) :
    (iblk4 V c 2 t : Vec Ideal S1x128 .f32) (ix2 (0 : Fin 1) k) = varArr V c (ix2 (0 : Fin 1) k) := by
  obtain ⟨-, -, -, -, e20, e21, -⟩ := idx_facts t
  show varArr V c (((cfg4.win 2).blk t).view.emb (ix2 (0 : Fin 1) k)) = varArr V c (ix2 (0 : Fin 1) k)
  refine congrArg (varArr V c) (funext fun a => Fin.ext ?_)
  match a with
  | ⟨0, _⟩ => show win4_2.index t (0 : Fin 2) * 1 + 1 * 0 = 0; omega
  | ⟨1, _⟩ => show win4_2.index t (1 : Fin 2) * 128 + 1 * k.val = k.val; omega

/-- The block of w at any point is all of w. -/
theorem blk3_apply (c : Dev nD) (t : Fin cfg4.N) (k q : Fin 128) :
    (iblk4 V c 3 t : Vec Ideal S128x128 .f32) (ix2 k q) = wArr V c (ix2 k q) := by
  obtain ⟨-, -, -, -, -, -, e30, e31, -⟩ := idx_facts t
  show wArr V c (((cfg4.win 3).blk t).view.emb (ix2 k q)) = wArr V c (ix2 k q)
  refine congrArg (wArr V c) (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

/-- What point t writes back is block t of G of the input arrays: rows 5000 t .. 5000 t + 4999. -/
theorem flushed_eq (c : Dev nD) (t : Fin cfg4.N) :
    (dat4 V c).flushed 4 t = ((cfg4.win 4).blk t).view.read (Elt Ideal) (G (xArr V c) (meanArr V c) (varArr V c) (wArr V c)) := by
  show (cfg4.win 4).cut (grid4.coords t) ((dat4 V c).after 4 t) = _
  rw [after4_4]
  unfold out4_4
  rw [View.canon_unit_zero off_zero]
  simp only [View.ld_unit_zero (S := S5000x128) off_zero, View.ld_unit_zero (S := S1x128) off_zero, View.ld_unit_zero (S := S128x128) off_zero]
  obtain ⟨-, -, -, -, -, -, -, -, e40, e41⟩ := idx_facts t
  have ht : t.val < 10 := by have h := t.isLt; have hN : cfg4.N = 10 := N_4; omega
  funext y
  obtain ⟨p, q, rfl⟩ : ∃ (p : Fin 5000) (q : Fin 128), y = ix2 p q := ⟨y 0, y 1, eq_ix2 (n0 := 5000) (n1 := 128) y⟩
  have hp : p.val < 5000 := p.isLt
  have hr : t.val * 5000 + p.val < 50000 := by omega
  have e : ((cfg4.win 4).blk t).view.emb (ix2 p q) = ix2 (⟨t.val * 5000 + p.val, hr⟩ : Fin 50000) q := funext fun a => Fin.ext (by
    match a with
    | ⟨0, _⟩ => show win4_4.index t (0 : Fin 2) * 5000 + 1 * p.val = t.val * 5000 + p.val; omega
    | ⟨1, _⟩ => show win4_4.index t (1 : Fin 2) * 128 + 1 * q.val = q.val; omega)
  show k4_pay1 (iblk4 V c 0 t) (iblk4 V c 1 t) (iblk4 V c 2 t) (iblk4 V c 3 t) (ix2 p q)
    = G (xArr V c) (meanArr V c) (varArr V c) (wArr V c) (((cfg4.win 4).blk t).view.emb (ix2 p q))
  rw [e]
  refine (pay_apply (iblk4 V c 0 t) (iblk4 V c 1 t) (iblk4 V c 2 t) (iblk4 V c 3 t) p q).trans ?_
  unfold G
  refine Finset.sum_congr rfl fun k _ => ?_
  rw [blk0_apply V c t p k ⟨t.val * 5000 + p.val, hr⟩ rfl, blk1_apply V c t k, blk2_apply V c t k, blk3_apply V c t k q]

/-- An index of the output array is in point t's block iff each coordinate is in the block's range on its axis. -/
theorem mem_blk (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole (Pipeline.arrRef spec4 4)).slice (win4_4.rect t)).set ↔ _
  rw [View.set_slice_whole, Rect.mem_set_unit]
  exact Iff.rfl

/-- Every index of the output array is written back by some point: row r by point r / 5000. -/
theorem cover (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ : ∃ t : Fin cfg4.N, t.val = (i 0).val / 5000 := ⟨⟨(i 0).val / 5000, by have hN : cfg4.N = 10 := N_4; omega⟩, rfl⟩
  obtain ⟨-, -, -, -, -, -, -, -, e40, e41⟩ := idx_facts t
  refine ⟨t, flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- The output array after the region is G of the input arrays. -/
theorem out_eq (c : Dev nD) : (dat4 V c).arrAt 4 cfg4.N = G (xArr V c) (meanArr V c) (varArr V c) (wArr V c) :=
  (dat4 V c).arrAt_eq_of_cover 4 (G (xArr V c) (meanArr V c) (varArr V c) (wArr V c)) (fun t _ => flushed_eq V c t) cover

/-- The output array after the region, entry by entry. -/
theorem out_apply (c : Dev nD) (r : Fin 50000) (j : Fin 128) :
    ((dat4 V c).arrAt 4 cfg4.N : S50000x128.Idx → EReal) (ix2 r j)
      = ∑ k : Fin 128, ((xArr V c (ix2 r k) - meanArr V c (ix2 (0 : Fin 1) k)) * Ideal.rsqrt (varArr V c (ix2 (0 : Fin 1) k) + Ideal.ofBits .f32 0x3727C5AC#32)
          + Ideal.ofBits .f32 0x38D1B717#32) * wArr V c (ix2 k j) :=
  congrFun (out_eq V c) (ix2 r j)

/-- The region writes none of its four input arrays. -/
theorem kept0 (c : Dev nD) : (dat4 V c).arrAt 0 cfg4.N = V c (Pipeline.arrRef spec4 0) :=
  ((dat4 V c).arrAt_in 0 rfl cfg4.N).trans (A_eq4 V c 0)
theorem kept1 (c : Dev nD) : (dat4 V c).arrAt 1 cfg4.N = V c (Pipeline.arrRef spec4 1) :=
  ((dat4 V c).arrAt_in 1 rfl cfg4.N).trans (A_eq4 V c 1)
theorem kept2 (c : Dev nD) : (dat4 V c).arrAt 2 cfg4.N = V c (Pipeline.arrRef spec4 2) :=
  ((dat4 V c).arrAt_in 2 rfl cfg4.N).trans (A_eq4 V c 2)
theorem kept3 (c : Dev nD) : (dat4 V c).arrAt 3 cfg4.N = V c (Pipeline.arrRef spec4 3) :=
  ((dat4 V c).arrAt_in 3 rfl cfg4.N).trans (A_eq4 V c 3)

end Cert.KernelIdeal.RegMatmul4

end
-- ==== Proof.StageBnmm1.lean ====
/- The normalize-and-project unit number 1 of the network, in the two programs.
   Kernel: a region leaves the [1,128] rows of column sums of x and of x²; host operations form mean = sum / 50000 and
   var = sumsq / 50000 − mean · mean and take the layer's [128,128] weight out of the stacked weights (a slice and a reshape); a second region
   writes, at row r and column j, ∑ k ((x r k − mean k) · rsqrt (var k + eps) + bias) · w k j.
   Reference: host operations form the column means, the means of the squared deviations, the normalised array and its
   contraction with the weight. The two results agree when x is the same array of real numbers in both programs and the
   weights are equal (on a real column the two spellings of the variance are one value); the result is real when the weight is. -/
import proofs.«407945_j8993661518245_1_alg».proof.Proof.Iface
import proofs.«407945_j8993661518245_1_alg».proof.Proof.KCarry
import proofs.«407945_j8993661518245_1_alg».proof.Proof.RegStats3
import proofs.«407945_j8993661518245_1_alg».proof.Proof.RegMatmul4
import proofs.«407945_j8993661518245_1_alg».proof.Proof.LibBnRead
import proofs.«407945_j8993661518245_1_alg».proof.Proof.LibBnOut
import proofs.«407945_j8993661518245_1_alg».proof.Proof.LibBnmm

noncomputable section

namespace Cert.StageBnmm1

open Idealize.ShloMosaic Idealize.ShloMosaic.ValueIdx Idealize.ShloMosaic.TcCoe Idealize.SL.Sem Idealize.ShloMosaic.StableHlo
open Cert.Iface Cert.LibFinite

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel: the statistics region, the host stretch, the projection region -/

section Kernel

open Cert.KernelIdeal Cert.KernelIdeal.Gen Cert.KernelIdeal.GenP Cert.KernelIdeal.KCarry

/-- x, and the two rows the statistics region leaves, as the kernel program ends with them. -/
abbrev xK : S50000x128.Idx → EReal := Kf m ρ c main_v10
abbrev s0K : S1x128.Idx → EReal := Kf m ρ c main_v11_0
abbrev s1K : S1x128.Idx → EReal := Kf m ρ c main_v11_1
/-- The projection region's output array, likewise. -/
abbrev outK : S50000x128.Idx → EReal := Kf m ρ c main_v20

/-- The statistics region's first output is the row of column sums of x. -/
theorem k_sum (k : Fin 128) :
    s0K m ρ c (ix2 (0 : Fin 1) k) = ∑ r : Fin 50000, xK m ρ c (ix2 r k) := by
  have e : s0K m ρ c = (dat3 (V5 m ρ) c).arrAt 1 cfg3.N := reg3_arr1 m ρ c
  have ex : (V5 m ρ c (Pipeline.arrRef spec3 0) : S50000x128.Idx → EReal) = xK m ρ c := reg3_in0 m ρ c
  rw [e]
  refine (Cert.KernelIdeal.RegStats3.colsum (V5 m ρ) c k).trans ?_
  exact Finset.sum_congr rfl fun r _ => congrFun ex (ix2 r k)

/-- Its second output is the row of column sums of squares. -/
theorem k_sumsq (k : Fin 128) :
    s1K m ρ c (ix2 (0 : Fin 1) k) = ∑ r : Fin 50000, xK m ρ c (ix2 r k) * xK m ρ c (ix2 r k) := by
  have e : s1K m ρ c = (dat3 (V5 m ρ) c).arrAt 2 cfg3.N := reg3_arr2 m ρ c
  have ex : (V5 m ρ c (Pipeline.arrRef spec3 0) : S50000x128.Idx → EReal) = xK m ρ c := reg3_in0 m ρ c
  rw [e]
  refine (Cert.KernelIdeal.RegStats3.colsumsq (V5 m ρ) c k).trans ?_
  exact Finset.sum_congr rfl fun r _ => congrArg₂ (· * ·) (congrFun ex (ix2 r k)) (congrFun ex (ix2 r k))

/-- The host stretch leaves the row of means: the sums divided by 50000. -/
theorem k_mean : (Kf m ρ c main_v13 : S1x128.Idx → EReal) = Cert.LibBnRead.Ker.mean (Kf m ρ c main_v11_0) := by
  have hread : (W7 m ρ c (Proc.devRef .tc main_v13) : S1x128.Idx → EReal) = Cert.LibBnRead.Ker.mean (W6 m ρ c (Proc.devRef .tc main_v11_0)) := by
    show StableHlo.after hostOps4 (W6 m ρ c) (Proc.devRef .tc main_v13) = _
    after_results
    rfl
  exact (carry7 m ρ c main_v13 (by decide)).trans (hread.trans (congrArg Cert.LibBnRead.Ker.mean (carry6 m ρ c main_v11_0 (by decide)).symm))

/-- And the row of variances: the mean of squares minus the squared mean. -/
theorem k_var : (Kf m ρ c main_v17 : S1x128.Idx → EReal) = Cert.LibBnRead.Ker.var (Kf m ρ c main_v11_0) (Kf m ρ c main_v11_1) := by
  have hread : (W7 m ρ c (Proc.devRef .tc main_v17) : S1x128.Idx → EReal)
      = Cert.LibBnRead.Ker.var (W6 m ρ c (Proc.devRef .tc main_v11_0)) (W6 m ρ c (Proc.devRef .tc main_v11_1)) := by
    show StableHlo.after hostOps4 (W6 m ρ c) (Proc.devRef .tc main_v17) = _
    after_results
    rfl
  exact (carry7 m ρ c main_v17 (by decide)).trans (hread.trans (congrArg₂ Cert.LibBnRead.Ker.var
    (carry6 m ρ c main_v11_0 (by decide)).symm (carry6 m ρ c main_v11_1 (by decide)).symm))

/-- The layer's weight: slice 0 of the stacked weights, reshaped to [128,128]. -/
theorem k_w : (Kf m ρ c main_v19 : S128x128.Idx → EReal) = (shapeCast Cert.KernelIdeal.S128x128 (extractStridedSlice Cert.KernelIdeal.S1x128x128 ![0, 0, 0] (Kf m ρ c main_arg2 : Cert.KernelIdeal.S3x128x128.Idx → EReal) Cert.KernelIdeal.Facts₀.slices_S3x128x128_S1x128x128_0_0_0) Cert.KernelIdeal.Facts₀.shapeCasts_S1x128x128_S128x128) := by
  have hread : (W7 m ρ c (Proc.devRef .tc main_v19) : S128x128.Idx → EReal) = (shapeCast Cert.KernelIdeal.S128x128 (extractStridedSlice Cert.KernelIdeal.S1x128x128 ![0, 0, 0] (W6 m ρ c (Proc.devRef .tc main_arg2) : Cert.KernelIdeal.S3x128x128.Idx → EReal) Cert.KernelIdeal.Facts₀.slices_S3x128x128_S1x128x128_0_0_0) Cert.KernelIdeal.Facts₀.shapeCasts_S1x128x128_S128x128) := by
    show StableHlo.after hostOps4 (W6 m ρ c) (Proc.devRef .tc main_v19) = _
    after_results
    rfl
  have h0 : (Kf m ρ c main_v19 : S128x128.Idx → EReal) = W7 m ρ c (Proc.devRef .tc main_v19) := carry7 m ρ c main_v19 (by decide)
  have hc : (W6 m ρ c (Proc.devRef .tc main_arg2) : S3x128x128.Idx → EReal) = Kf m ρ c main_arg2 := (carry6 m ρ c main_arg2 (by decide)).symm
  rw [h0, hread, hc]

/-- The projection region's output, entry by entry, over x and the weight. -/
theorem k_out (r : Fin 50000) (j : Fin 128) :
    outK m ρ c (ix2 r j) = Cert.LibBnmm.kform (Kf m ρ c main_v10) (shapeCast Cert.KernelIdeal.S128x128 (extractStridedSlice Cert.KernelIdeal.S1x128x128 ![0, 0, 0] (Kf m ρ c main_arg2 : Cert.KernelIdeal.S3x128x128.Idx → EReal) Cert.KernelIdeal.Facts₀.slices_S3x128x128_S1x128x128_0_0_0) Cert.KernelIdeal.Facts₀.shapeCasts_S1x128x128_S128x128) r j := by
  have e : outK m ρ c = (dat4 (V7 m ρ) c).arrAt 4 cfg4.N := reg4_arr4 m ρ c
  have e0 : (V7 m ρ c (Pipeline.arrRef spec4 0) : S50000x128.Idx → EReal) = Kf m ρ c main_v10 := reg4_in0 m ρ c
  have e1 : (V7 m ρ c (Pipeline.arrRef spec4 1) : S1x128.Idx → EReal) = Kf m ρ c main_v13 := reg4_in1 m ρ c
  have e2 : (V7 m ρ c (Pipeline.arrRef spec4 2) : S1x128.Idx → EReal) = Kf m ρ c main_v17 := reg4_in2 m ρ c
  have e3 : (V7 m ρ c (Pipeline.arrRef spec4 3) : S128x128.Idx → EReal) = Kf m ρ c main_v19 := reg4_in3 m ρ c
  rw [e, Cert.KernelIdeal.RegMatmul4.out_apply (V7 m ρ) c r j]
  unfold Cert.LibBnmm.kform
  dsimp only [Cert.KernelIdeal.RegMatmul4.xArr, Cert.KernelIdeal.RegMatmul4.meanArr, Cert.KernelIdeal.RegMatmul4.varArr, Cert.KernelIdeal.RegMatmul4.wArr]
  refine Finset.sum_congr rfl fun k _ => ?_
  rw [e0, e1, e2, e3, k_mean m ρ c, k_var m ρ c, Cert.LibBnRead.Ker.mean_apply, Cert.LibBnRead.Ker.var_apply,
    show (Kf m ρ c main_v11_0 : S1x128.Idx → EReal) (ix2 (0 : Fin 1) k) = _ from k_sum m ρ c k,
    show (Kf m ρ c main_v11_1 : S1x128.Idx → EReal) (ix2 (0 : Fin 1) k) = _ from k_sumsq m ρ c k, k_w m ρ c]

end Kernel

/-! ## The reference: the same unit as host operations -/

section Reference

open Cert.ReferenceIdeal Cert.ReferenceIdeal.RefRun

/-- Window 0 leaves in %43 the normalised array. -/
theorem r_v43 : (Rf m' c main_v43 : S50000x128.Idx → EReal) = Cert.LibBnRead.Ref.normed (Rf m' c main_v22) := by
  have h0 : (Rf m' c main_v43 : S50000x128.Idx → EReal) = R1 m' c (Proc.devRef .tc main_v43) := carry1 m' c main_v43 (by decide)
  have hx : (Rf m' c main_v22 : S50000x128.Idx → EReal) = R1 m' c (Proc.devRef .tc main_v22) := carry1 m' c main_v22 (by decide)
  rw [h0, hx]
  show StableHlo.after ops0 (R0 m' c) (Proc.devRef .tc main_v43) = Cert.LibBnRead.Ref.normed (StableHlo.after ops0 (R0 m' c) (Proc.devRef .tc main_v22))
  after_results_simp
  rfl

/-- Window 0 leaves in %45 the layer's weight. -/
theorem r_v45 : (Rf m' c main_v45 : S128x128.Idx → EReal) = (shapeCast Cert.ReferenceIdeal.S128x128 (extractStridedSlice Cert.ReferenceIdeal.S1x128x128 ![0, 0, 0] (Rf m' c main_arg2 : Cert.ReferenceIdeal.S3x128x128.Idx → EReal) Cert.ReferenceIdeal.Facts₀.slices_S3x128x128_S1x128x128_0_0_0) Cert.ReferenceIdeal.Facts₀.shapeCasts_S1x128x128_S128x128) := by
  have h0 : (Rf m' c main_v45 : S128x128.Idx → EReal) = R1 m' c (Proc.devRef .tc main_v45) := carry1 m' c main_v45 (by decide)
  have hw : (Rf m' c main_arg2 : S3x128x128.Idx → EReal) = R0 m' c (Proc.devRef .tc main_arg2) := carry0 m' c main_arg2 (by decide)
  rw [h0, hw]
  show StableHlo.after ops0 (R0 m' c) (Proc.devRef .tc main_v45) = (shapeCast Cert.ReferenceIdeal.S128x128 (extractStridedSlice Cert.ReferenceIdeal.S1x128x128 ![0, 0, 0] (R0 m' c (Proc.devRef .tc main_arg2) : Cert.ReferenceIdeal.S3x128x128.Idx → EReal) Cert.ReferenceIdeal.Facts₀.slices_S3x128x128_S1x128x128_0_0_0) Cert.ReferenceIdeal.Facts₀.shapeCasts_S1x128x128_S128x128)
  after_results_simp
  rfl

/-- The reference's result is its chain of operations over x and the weight. -/
theorem r_out : (Rf m' c main_v48 : S50000x128.Idx → EReal) = Cert.LibBnRead.Ref.proj (Rf m' c main_v22) (shapeCast Cert.ReferenceIdeal.S128x128 (extractStridedSlice Cert.ReferenceIdeal.S1x128x128 ![0, 0, 0] (Rf m' c main_arg2 : Cert.ReferenceIdeal.S3x128x128.Idx → EReal) Cert.ReferenceIdeal.Facts₀.slices_S3x128x128_S1x128x128_0_0_0) Cert.ReferenceIdeal.Facts₀.shapeCasts_S1x128x128_S128x128) := by
  have h0 : (Rf m' c main_v48 : S50000x128.Idx → EReal) = R2 m' c (Proc.devRef .tc main_v48) := carry2 m' c main_v48 (by decide)
  have h_v43 : (R1 m' c (Proc.devRef .tc main_v43) : S50000x128.Idx → EReal) = Rf m' c main_v43 := (carry1 m' c main_v43 (by decide)).symm
  have h_v45 : (R1 m' c (Proc.devRef .tc main_v45) : S128x128.Idx → EReal) = Rf m' c main_v45 := (carry1 m' c main_v45 (by decide)).symm
  rw [h0]
  show StableHlo.after ops1 (R1 m' c) (Proc.devRef .tc main_v48) = _
  after_results_simp
  rw [h_v43, h_v45, r_v43 m' c, r_v45 m' c]
  rfl

end Reference

/-! ## The two results agree -/

theorem t1 (h : Cert.Iface.H0 m ρ m' c)
    (hw : (Kf m ρ c Cert.KernelIdeal.main_arg2 : Cert.KernelIdeal.S3x128x128.Idx → EReal) = Rf m' c Cert.ReferenceIdeal.main_arg2)
    (hwf : AllFin (Kf m ρ c Cert.KernelIdeal.main_arg2 : Cert.KernelIdeal.S3x128x128.Idx → EReal)) : Cert.Iface.T1 m ρ m' c := by
  obtain ⟨hx, hxf⟩ := h
  have hw' : (shapeCast Cert.KernelIdeal.S128x128 (extractStridedSlice Cert.KernelIdeal.S1x128x128 ![0, 0, 0] (Kf m ρ c Cert.KernelIdeal.main_arg2 : Cert.KernelIdeal.S3x128x128.Idx → EReal) Cert.KernelIdeal.Facts₀.slices_S3x128x128_S1x128x128_0_0_0) Cert.KernelIdeal.Facts₀.shapeCasts_S1x128x128_S128x128) = (shapeCast Cert.ReferenceIdeal.S128x128 (extractStridedSlice Cert.ReferenceIdeal.S1x128x128 ![0, 0, 0] (Rf m' c Cert.ReferenceIdeal.main_arg2 : Cert.ReferenceIdeal.S3x128x128.Idx → EReal) Cert.ReferenceIdeal.Facts₀.slices_S3x128x128_S1x128x128_0_0_0) Cert.ReferenceIdeal.Facts₀.shapeCasts_S1x128x128_S128x128) := by
    rw [hw]; try rfl
  exact And.intro (Cert.LibBnmm.stage_eq (k_out m ρ c) (r_out m' c) hx hxf hw')
    (Cert.LibBnmm.stage_fin (k_out m ρ c) hxf (Cert.LibBnRead.forall_shapeCast_slice IsFin _ _ _ _ hwf))

end Cert.StageBnmm1

end
-- ==== Proof.RegStats6.lean ====
/-
  REGION 6: the column statistics of a [50000,128] array.

  The region walks the ten row blocks (5000 rows each) of its input array x. At the first block it clears two [1,128]
  accumulators; at every block it adds to the first the block's column sums and to the second the column sums of the
  block's squares. The accumulators' buffers are written back once, after the last block. Over the extended reals
  addition is commutative and associative with no finiteness assumption and 0 + s = s, so the ten block sums regroup
  into one sum over the 50000 rows (row = 5000·t + q): after the region, for ANY contents V it is entered with,

      output 1 at (0, j) = ∑ r, x (r, j)        output 2 at (0, j) = ∑ r, x (r, j) * x (r, j)

  and the input array is as the region found it.

  The steps. (1) Sums over the rows taken block by block: a function of the rows continued by zero, summed over the
  naturals below 5000·(n+1) (the rows of the first n + 1 blocks). (2) The body's two payloads at an index (0, j): the value carried in plus the block's
  column sum (of the entries, of their squares); the cleared accumulator is 0 there. (3) What each control case of the
  body leaves in an accumulator's buffer is that payload of the block and of what the buffer held. (4) A row block
  read at (q, j) is the array at row 5000·t + q. (5) By induction on the grid point: after point n the accumulators
  hold the sums over the first 5000·(n+1) rows. (6) The one write-back, at the last point, carries the whole [1,128]
  array, so the arrays end holding the sums over all rows.
-/
import proofs.«407945_j8993661518245_1_alg».proof.Proof.FrameKI
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.RegStats6

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! ## (1) Sums over the rows, block by block -/

/-- A function of the 50000 rows, continued by zero past the last row. -/
def ext (f : Fin 50000 → EReal) (r : ℕ) : EReal := if h : r < 50000 then f ⟨r, h⟩ else 0

/-- Summed over all naturals below 50000 it is the sum over the rows. -/
theorem sum_ext_all (f : Fin 50000 → EReal) : ∑ r ∈ Finset.range 50000, ext f r = ∑ r : Fin 50000, f r := by
  rw [Finset.sum_range]
  exact Finset.sum_congr rfl fun r _ => dif_pos r.isLt

/-- One more block of 5000 rows starting at row a: the rows below a + 5000 are the rows below a and the rows a + q. -/
theorem sum_ext_block (f : Fin 50000 → EReal) (a : ℕ) (ha : a + 5000 ≤ 50000) :
    ∑ r ∈ Finset.range (a + 5000), ext f r
      = ∑ r ∈ Finset.range a, ext f r + ∑ q : Fin 5000, f ⟨a + q.val, by have := q.isLt; omega⟩ := by
  refine (Finset.sum_range_add _ _ _).trans ?_
  congr 1
  rw [Finset.sum_range]
  exact Finset.sum_congr rfl fun q _ => dif_pos _

/-- The sum of f over the rows of the first n + 1 blocks. -/
def firstBlocks (f : Fin 50000 → EReal) (n : ℕ) : EReal := ∑ r ∈ Finset.range (5000 * (n + 1)), ext f r

/-- The first block alone. -/
theorem firstBlocks_zero (f : Fin 50000 → EReal) :
    firstBlocks f 0 = ∑ q : Fin 5000, f ⟨5000 * 0 + q.val, by have := q.isLt; omega⟩ := by
  have z : ∑ r ∈ Finset.range (5000 * 0), ext f r = 0 := Finset.sum_range_zero _
  show ∑ r ∈ Finset.range (5000 * 0 + 5000), ext f r = _
  rw [sum_ext_block f (5000 * 0) (by omega), z, zero_add]

/-- One more block. -/
theorem firstBlocks_succ (f : Fin 50000 → EReal) (n : ℕ) (hn : n + 1 < 10) :
    firstBlocks f (n + 1) = firstBlocks f n + ∑ q : Fin 5000, f ⟨5000 * (n + 1) + q.val, by have := q.isLt; omega⟩ := by
  have e : 5000 * (n + 1 + 1) = 5000 * (n + 1) + 5000 := by omega
  unfold firstBlocks
  rw [e]
  exact sum_ext_block f (5000 * (n + 1)) (by omega)

/-- All ten blocks: every row. -/
theorem firstBlocks_last (f : Fin 50000 → EReal) : firstBlocks f 9 = ∑ r : Fin 50000, f r :=
  sum_ext_all f

/-! ## (2) The body's payloads at an index (0, j) -/

/-- A [128] vector viewed [1,128] reads (0, j) at j. -/
theorem addUnit_read (v : FVec Ideal S128 .f32) (h : S128.ShapeCasts S1x128) (j : Fin 128) :
    shapeCast S1x128 v h (ix2 0 j) = v (ix1 j) :=
  (shapeCast_addUnit_apply (n := 1) ![128] v h (ix2 0 j)).trans
    (congrArg v (funext fun a => match a with | ⟨0, _⟩ => rfl))

/-- The sum of a [5000,128] block along its rows, at column j: the index over j with row q inserted is (q, j). -/
theorem reduce_read (x : FVec Ideal S5000x128 .f32) (hr : S5000x128.Reduces [0] S128) (hφ : FKind.Formats .f32)
    (hacc : (0x00000000#32 : BitVec 32) = FKind.add.neutral .f32 hφ) (j : Fin 128) :
    multiReduction .add [0] S128 x 0x00000000#32 hr hφ hacc (ix1 j) = ∑ q : Fin 5000, x (ix2 q j) := by
  refine (Ideal.multiReduction_add_single x 0x00000000#32 hr hφ hacc (ix1 j)).trans ?_
  show ∑ k : Fin 5000, x (hr.lift (ix1 j) k) = _
  refine Finset.sum_congr rfl fun k _ => congrArg x ?_
  funext a; apply Fin.ext
  match a with
  | ⟨0, _⟩ => rfl
  | ⟨1, _⟩ => rfl

/-- The accumulating step at (0, j): what was carried in plus the block's column sum. -/
theorem acc_read (x : FVec Ideal S5000x128 .f32) (acc : FVec Ideal S1x128 .f32) (h1 : S1x128.ShapeCasts S1x128)
    (hr : S5000x128.Reduces [0] S128) (h2 : S128.ShapeCasts S1x128) (hφ : FKind.Formats .f32)
    (hacc : (0x00000000#32 : BitVec 32) = FKind.add.neutral .f32 hφ) (j : Fin 128) :
    addf (shapeCast S1x128 acc h1) (shapeCast S1x128 (multiReduction .add [0] S128 x 0x00000000#32 hr hφ hacc) h2) (ix2 0 j)
      = acc (ix2 0 j) + ∑ q : Fin 5000, x (ix2 q j) := by
  show shapeCast S1x128 acc h1 (ix2 0 j)
    + shapeCast S1x128 (multiReduction .add [0] S128 x 0x00000000#32 hr hφ hacc) h2 (ix2 0 j) = _
  rw [shapeCast_self, addUnit_read, reduce_read]

/-- The loaded block as the two sums read it. -/
abbrev inblk (x : Vec Ideal S5000x128 .f32) : FVec Ideal S5000x128 .f32 := k6_pay3 x
theorem inblk_eq (x : Vec Ideal S5000x128 .f32) : inblk x = x := shapeCast_self x _

/-- The first sum's payload at (0, j). -/
theorem sum_pay_apply (x : Vec Ideal S5000x128 .f32) (acc : Vec Ideal S1x128 .f32) (j : Fin 128) :
    k6_pay4 x acc (ix2 0 j) = acc (ix2 0 j) + ∑ q : Fin 5000, x (ix2 q j) :=
  (acc_read (inblk x) acc _ _ _ _ _ j).trans (by rw [inblk_eq])

/-- The second sum's payload at (0, j): the block's squares summed. -/
theorem sq_pay_apply (x : Vec Ideal S5000x128 .f32) (acc : Vec Ideal S1x128 .f32) (j : Fin 128) :
    k6_pay5 x acc (ix2 0 j) = acc (ix2 0 j) + ∑ q : Fin 5000, x (ix2 q j) * x (ix2 q j) :=
  (acc_read (mulf (inblk x) (inblk x)) acc _ _ _ _ _ j).trans (by rw [inblk_eq]; rfl)

/-- The cleared accumulators are 0 everywhere. -/
theorem clear1_apply (j : Fin 128) : (k6_pay1 (F := Ideal)) (ix2 0 j) = 0 := Ideal.ofBits_zero_f32
theorem clear2_apply (j : Fin 128) : (k6_pay2 (F := Ideal)) (ix2 0 j) = 0 := Ideal.ofBits_zero_f32

/-! ## (3) What each control case leaves in the accumulators' buffers -/

section Pieces

variable {F : FTy → Type} [FloatOps F]

theorem zeroOff : (![0, 0] : Fin 2 → Nat) = fun _ => 0 :=
  funext fun a => match a with | ⟨0, _⟩ => rfl | ⟨1, _⟩ => rfl

/-- A later point: the first accumulator's one store, of the payload of the block and of what the buffer held. -/
theorem later_1 (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond6_0 i) (x : Vec F S5000x128 .f32) (xo1 xo2 : Vec F S1x128 .f32) :
    out6_B_1 c i a1 h1 a2 h2 a3 h3 hc x xo1 xo2 = k6_pay4 x xo1 := by
  unfold out6_B_1
  rw [View.read_writes_eq_canon _ _ _ (cover6_B_1 c i a1 h1 a2 h2 a3 h3 hc x xo1 xo2)]
  unfold kernelRun6_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- A later point: the second accumulator's. -/
theorem later_2 (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond6_0 i) (x : Vec F S5000x128 .f32) (xo1 xo2 : Vec F S1x128 .f32) :
    out6_B_2 c i a1 h1 a2 h2 a3 h3 hc x xo1 xo2 = k6_pay5 x xo2 := by
  unfold out6_B_2
  rw [View.read_writes_eq_canon _ _ _ (cover6_B_2 c i a1 h1 a2 h2 a3 h3 hc x xo1 xo2)]
  unfold kernelRun6_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- The first point: the accumulator is cleared, read back, and the payload of the block and of the cleared value stored. -/
theorem first_1 (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond6_0 i) (x : Vec F S5000x128 .f32) :
    out6_A_1 c i a1 h1 a2 h2 a3 h3 hc x = k6_pay4 x (k6_pay1 (F := F)) := by
  unfold out6_A_1
  rw [View.read_writes_eq_canon _ _ _ (cover6_A_1 c i a1 h1 a2 h2 a3 h3 hc x)]
  unfold kernelRun6_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

/-- The first point: the second accumulator's. -/
theorem first_2 (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond6_0 i) (x : Vec F S5000x128 .f32) :
    out6_A_2 c i a1 h1 a2 h2 a3 h3 hc x = k6_pay5 x (k6_pay2 (F := F)) := by
  unfold out6_A_2
  rw [View.read_writes_eq_canon _ _ _ (cover6_A_2 c i a1 h1 a2 h2 a3 h3 hc x)]
  unfold kernelRun6_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

end Pieces

/-! ## (4) The input array and its row blocks -/

variable (V : (c : Dev nD) → (b : Ref sig .tc) → Buf (Elt Ideal) ((c : Thread nD τ).loc b))

/-- The input array as the region finds it, -/
abbrev xin (c : Dev nD) : S50000x128.Idx → EReal := V c (Pipeline.arrRef spec6 0)
/-- its row block at a grid point, -/
abbrev xblk (c : Dev nD) (t : Fin cfg6.N) : Vec Ideal S5000x128 .f32 := iblk6 V c 0 t
/-- and row q of block t as a row of the array. -/
abbrev row (t : Fin cfg6.N) (q : Fin 5000) : Fin 50000 :=
  ⟨5000 * t.val + q.val, by have := t.isLt; have hN : cfg6.N = 10 := N_6; have := q.isLt; omega⟩

/-- The input window's block index: the point on the row axis, 0 on the column axis. -/
theorem in_index : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)

/-- Block t at (q, j) is the array at (5000·t + q, j). -/
theorem xblk_apply (c : Dev nD) (t : Fin cfg6.N) (q : Fin 5000) (j : Fin 128) :
    xblk V c t (ix2 q j) = xin V c (ix2 (row t q) j) := by
  obtain ⟨e0, e1⟩ := in_index t
  show V c (Pipeline.arrRef spec6 0) (((cfg6.win 0).blk t).view.emb (ix2 q j)) = V c (Pipeline.arrRef spec6 0) (ix2 (row t q) j)
  refine congrArg _ ?_
  funext a; apply Fin.ext
  match a with
  | ⟨0, _⟩ => show win6_0.index t (0 : Fin 2) * 5000 + 1 * q.val = 5000 * t.val + q.val; omega
  | ⟨1, _⟩ => show win6_0.index t (1 : Fin 2) * 128 + 1 * j.val = j.val; omega

/-! ## (5) The accumulators after each point -/

/-- Column j of the array, and of its squares, as functions of the row. -/
abbrev colf (c : Dev nD) (j : Fin 128) : Fin 50000 → EReal := fun r => xin V c (ix2 r j)
abbrev sqf (c : Dev nD) (j : Fin 128) : Fin 50000 → EReal := fun r => xin V c (ix2 r j) * xin V c (ix2 r j)

/-- A block's column sum is the column's sum over the block's rows; likewise for the squares. -/
theorem blk_colsum (c : Dev nD) (t : Fin cfg6.N) (j : Fin 128) :
    ∑ q : Fin 5000, xblk V c t (ix2 q j) = ∑ q : Fin 5000, colf V c j (row t q) :=
  Finset.sum_congr rfl fun q _ => xblk_apply V c t q j
theorem blk_sqsum (c : Dev nD) (t : Fin cfg6.N) (j : Fin 128) :
    ∑ q : Fin 5000, xblk V c t (ix2 q j) * xblk V c t (ix2 q j) = ∑ q : Fin 5000, sqf V c j (row t q) :=
  Finset.sum_congr rfl fun q _ => by rw [xblk_apply V c t q j]

/-- After point n the accumulators hold, at (0, j), the sums over the rows of the first n + 1 blocks. -/
theorem outs_eq (c : Dev nD) : ∀ (n : ℕ) (h : n < cfg6.N) (j : Fin 128),
    ((outsAt6 V c n h).1 : S1x128.Idx → EReal) (ix2 0 j) = firstBlocks (colf V c j) n
    ∧ ((outsAt6 V c n h).2 : S1x128.Idx → EReal) (ix2 0 j) = firstBlocks (sqf V c j) n
  | 0, h, j => by
    have hc : cond6_0 (grid6.coords ⟨0, h⟩) := (hcond6_0 ⟨0, h⟩).mpr rfl
    rw [outsAt6_A V c ⟨0, h⟩ rfl]
    dsimp only
    constructor
    · refine (congrFun (first_1 (F := Ideal) c (grid6.coords ⟨0, h⟩) (ms6_0 ⟨0, h⟩) (hs6_0 ⟨0, h⟩) (ms6_1 ⟨0, h⟩) (hs6_1 ⟨0, h⟩)
        (ms6_2 ⟨0, h⟩) (hs6_2 ⟨0, h⟩) hc (xblk V c ⟨0, h⟩)) (ix2 0 j)).trans ?_
      refine (sum_pay_apply (xblk V c ⟨0, h⟩) (k6_pay1 (F := Ideal)) j).trans ?_
      rw [clear1_apply, zero_add, firstBlocks_zero]
      exact blk_colsum V c ⟨0, h⟩ j
    · refine (congrFun (first_2 (F := Ideal) c (grid6.coords ⟨0, h⟩) (ms6_0 ⟨0, h⟩) (hs6_0 ⟨0, h⟩) (ms6_1 ⟨0, h⟩) (hs6_1 ⟨0, h⟩)
        (ms6_2 ⟨0, h⟩) (hs6_2 ⟨0, h⟩) hc (xblk V c ⟨0, h⟩)) (ix2 0 j)).trans ?_
      refine (sq_pay_apply (xblk V c ⟨0, h⟩) (k6_pay2 (F := Ideal)) j).trans ?_
      rw [clear2_apply, zero_add, firstBlocks_zero]
      exact blk_sqsum V c ⟨0, h⟩ j
  | n + 1, h, j => by
    have hN : cfg6.N = 10 := N_6
    have hB : ¬(⟨n + 1, h⟩ : Fin cfg6.N).val % 10 = 0 := by dsimp only; omega
    have hc : ¬cond6_0 (grid6.coords ⟨n + 1, h⟩) := fun hh => hB ((hcond6_0 ⟨n + 1, h⟩).mp hh)
    have ih := outs_eq c n (Nat.lt_of_succ_lt h) j
    rw [outsAt6_B V c ⟨n + 1, h⟩ hB]
    dsimp only
    constructor
    · refine (congrFun (later_1 (F := Ideal) c (grid6.coords ⟨n + 1, h⟩) (ms6_0 ⟨n + 1, h⟩) (hs6_0 ⟨n + 1, h⟩) (ms6_1 ⟨n + 1, h⟩)
        (hs6_1 ⟨n + 1, h⟩) (ms6_2 ⟨n + 1, h⟩) (hs6_2 ⟨n + 1, h⟩) hc (xblk V c ⟨n + 1, h⟩)
        (outsAt6 V c n (Nat.lt_of_succ_lt h)).1 (outsAt6 V c n (Nat.lt_of_succ_lt h)).2) (ix2 0 j)).trans ?_
      refine (sum_pay_apply (xblk V c ⟨n + 1, h⟩) (outsAt6 V c n (Nat.lt_of_succ_lt h)).1 j).trans ?_
      rw [firstBlocks_succ (colf V c j) n (by omega)]
      exact congrArg₂ (· + ·) ih.1 (blk_colsum V c ⟨n + 1, h⟩ j)
    · refine (congrFun (later_2 (F := Ideal) c (grid6.coords ⟨n + 1, h⟩) (ms6_0 ⟨n + 1, h⟩) (hs6_0 ⟨n + 1, h⟩) (ms6_1 ⟨n + 1, h⟩)
        (hs6_1 ⟨n + 1, h⟩) (ms6_2 ⟨n + 1, h⟩) (hs6_2 ⟨n + 1, h⟩) hc (xblk V c ⟨n + 1, h⟩)
        (outsAt6 V c n (Nat.lt_of_succ_lt h)).1 (outsAt6 V c n (Nat.lt_of_succ_lt h)).2) (ix2 0 j)).trans ?_
      refine (sq_pay_apply (xblk V c ⟨n + 1, h⟩) (outsAt6 V c n (Nat.lt_of_succ_lt h)).2 j).trans ?_
      rw [firstBlocks_succ (sqf V c j) n (by omega)]
      exact congrArg₂ (· + ·) ih.2 (blk_sqsum V c ⟨n + 1, h⟩ j)

/-! ## (6) The arrays after the region -/

/-- The column sums, and the column sums of squares, as [1,128] arrays. -/
def colSums (c : Dev nD) : S1x128.Idx → EReal := fun i => ∑ r : Fin 50000, xin V c (ix2 r ⟨(i 1).val, idx2_lt1 i⟩)
def sqSums (c : Dev nD) : S1x128.Idx → EReal :=
  fun i => ∑ r : Fin 50000, xin V c (ix2 r ⟨(i 1).val, idx2_lt1 i⟩) * xin V c (ix2 r ⟨(i 1).val, idx2_lt1 i⟩)

theorem colSums_apply (c : Dev nD) (j : Fin 128) : colSums V c (ix2 0 j) = ∑ r : Fin 50000, xin V c (ix2 r j) := rfl
theorem sqSums_apply (c : Dev nD) (j : Fin 128) :
    sqSums V c (ix2 0 j) = ∑ r : Fin 50000, xin V c (ix2 r j) * xin V c (ix2 r j) := rfl

/-- The accumulators' block index is (0, 0) at every point. -/
theorem out_index : ∀ t : Fin cfg6.N, (win6_1.index t (0 : Fin 2) = 0 ∧ win6_1.index t (1 : Fin 2) = 0)
    ∧ (win6_2.index t (0 : Fin 2) = 0 ∧ win6_2.index t (1 : Fin 2) = 0) :=
  (by decide +kernel : ∀ t : Fin grid6.N, (win6_1.index t (0 : Fin 2) = 0 ∧ win6_1.index t (1 : Fin 2) = 0)
    ∧ (win6_2.index t (0 : Fin 2) = 0 ∧ win6_2.index t (1 : Fin 2) = 0))

/-- An accumulator's buffer is moved whole, and a block of a [1,128] array read through the window reads the array
    at the embedded index. -/
theorem cut1_apply (t : Fin cfg6.N) (X : Vec Ideal S1x128 .f32) (y : ((cfg6.win 1).xblock (grid6.coords t)).Idx) :
    (cfg6.win 1).cut (grid6.coords t) X y = X y := rfl
theorem read1_apply (t : Fin cfg6.N) (G : S1x128.Idx → EReal) (y : ((cfg6.win 1).xblock (grid6.coords t)).Idx) :
    ((cfg6.win 1).blk t).view.read (Elt Ideal) G y = G (((cfg6.win 1).blk t).view.emb y) := rfl
theorem cut2_apply (t : Fin cfg6.N) (X : Vec Ideal S1x128 .f32) (y : ((cfg6.win 2).xblock (grid6.coords t)).Idx) :
    (cfg6.win 2).cut (grid6.coords t) X y = X y := rfl
theorem read2_apply (t : Fin cfg6.N) (G : S1x128.Idx → EReal) (y : ((cfg6.win 2).xblock (grid6.coords t)).Idx) :
    ((cfg6.win 2).blk t).view.read (Elt Ideal) G y = G (((cfg6.win 2).blk t).view.emb y) := rfl

/-- The block of output 1 at any point is the whole array: an index (0, j) of the block is (0, j) of the array. -/
theorem emb1_eq (t : Fin cfg6.N) (j : Fin 128) : ((cfg6.win 1).blk t).view.emb (ix2 0 j) = ix2 0 j := by
  obtain ⟨⟨e0, e1⟩, -⟩ := out_index t
  funext a; apply Fin.ext
  match a with
  | ⟨0, _⟩ => show win6_1.index t (0 : Fin 2) * 1 + 1 * 0 = 0; omega
  | ⟨1, _⟩ => show win6_1.index t (1 : Fin 2) * 128 + 1 * j.val = j.val; omega
theorem emb2_eq (t : Fin cfg6.N) (j : Fin 128) : ((cfg6.win 2).blk t).view.emb (ix2 0 j) = ix2 0 j := by
  obtain ⟨-, ⟨e0, e1⟩⟩ := out_index t
  funext a; apply Fin.ext
  match a with
  | ⟨0, _⟩ => show win6_2.index t (0 : Fin 2) * 1 + 1 * 0 = 0; omega
  | ⟨1, _⟩ => show win6_2.index t (1 : Fin 2) * 128 + 1 * j.val = j.val; omega

/-- So a buffer that agrees with a [1,128] array G at every (0, j) is, moved through the window, G's block. -/
theorem flush1_of_cols (t : Fin cfg6.N) (X : Vec Ideal S1x128 .f32) (G : S1x128.Idx → EReal)
    (h : ∀ j : Fin 128, X (ix2 0 j) = G (ix2 0 j)) :
    (cfg6.win 1).cut (grid6.coords t) X = ((cfg6.win 1).blk t).view.read (Elt Ideal) G := by
  funext y
  rw [cut1_apply, read1_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb1_eq t j).symm)
theorem flush2_of_cols (t : Fin cfg6.N) (X : Vec Ideal S1x128 .f32) (G : S1x128.Idx → EReal)
    (h : ∀ j : Fin 128, X (ix2 0 j) = G (ix2 0 j)) :
    (cfg6.win 2).cut (grid6.coords t) X = ((cfg6.win 2).blk t).view.read (Elt Ideal) G := by
  funext y
  rw [cut2_apply, read2_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb2_eq t j).symm)

/-- What the one write-back of output 1 carries is the column sums (its block is the whole array). -/
theorem flushed1_eq (c : Dev nD) (t : Fin cfg6.N) (hf : (cfg6.win 1).flush t = true) :
    (dat6 V c).flushed 1 t = ((cfg6.win 1).blk t).view.read (Elt Ideal) (colSums V c) := by
  have hN : cfg6.N = 10 := N_6
  have h9 : t.val = 9 := by have := (flush6_1 t).mp hf; have := t.isLt; omega
  show (cfg6.win 1).cut (grid6.coords t) ((dat6 V c).after 1 t) = _
  rw [after6_1]
  refine flush1_of_cols t (outsAt6 V c t.val t.isLt).1 (colSums V c) fun j => ?_
  refine ((outs_eq V c t.val t.isLt j).1).trans ?_
  rw [h9, firstBlocks_last, colSums_apply]

/-- What the one write-back of output 2 carries is the column sums of squares. -/
theorem flushed2_eq (c : Dev nD) (t : Fin cfg6.N) (hf : (cfg6.win 2).flush t = true) :
    (dat6 V c).flushed 2 t = ((cfg6.win 2).blk t).view.read (Elt Ideal) (sqSums V c) := by
  have hN : cfg6.N = 10 := N_6
  have h9 : t.val = 9 := by have := (flush6_2 t).mp hf; have := t.isLt; omega
  show (cfg6.win 2).cut (grid6.coords t) ((dat6 V c).after 2 t) = _
  rw [after6_2]
  refine flush2_of_cols t (outsAt6 V c t.val t.isLt).2 (sqSums V c) fun j => ?_
  refine ((outs_eq V c t.val t.isLt j).2).trans ?_
  rw [h9, firstBlocks_last, sqSums_apply]

/-- An index of a [1,128] array is in the accumulator's block at point t iff each coordinate is in the block's range. -/
theorem mem_blk1 (t : Fin cfg6.N) (i : S1x128.Idx) :
    i ∈ ((cfg6.win 1).blk t).view.set ↔ ∀ a : Fin 2, win6_1.index t a * S1x128.size a ≤ (i a).val ∧ (i a).val < win6_1.index t a * S1x128.size a + S1x128.size a := by
  show i ∈ ((View.whole main_v71_0).slice (win6_1.rect t)).set ↔ _
  rw [View.set_slice_whole, Rect.mem_set_unit]
  exact Iff.rfl
theorem mem_blk2 (t : Fin cfg6.N) (i : S1x128.Idx) :
    i ∈ ((cfg6.win 2).blk t).view.set ↔ ∀ a : Fin 2, win6_2.index t a * S1x128.size a ≤ (i a).val ∧ (i a).val < win6_2.index t a * S1x128.size a + S1x128.size a := by
  show i ∈ ((View.whole main_v71_1).slice (win6_2.rect t)).set ↔ _
  rw [View.set_slice_whole, Rect.mem_set_unit]
  exact Iff.rfl

/-- The last point's block covers the whole [1,128] array. -/
theorem cover1 (i : S1x128.Idx) : ∃ t : Fin cfg6.N, (cfg6.win 1).flush t = true ∧ i ∈ ((cfg6.win 1).blk t).view.set := by
  refine ⟨t6_9, (flush6_1 t6_9).mpr rfl, ?_⟩
  obtain ⟨⟨e0, e1⟩, -⟩ := out_index t6_9
  have h0 : (i 0).val < 1 := (i 0).isLt
  have h1 : (i 1).val < 128 := (i 1).isLt
  rw [mem_blk1]
  intro a
  match a with
  | ⟨0, _⟩ => show win6_1.index t6_9 (0 : Fin 2) * 1 ≤ (i 0).val ∧ (i 0).val < win6_1.index t6_9 (0 : Fin 2) * 1 + 1; omega
  | ⟨1, _⟩ => show win6_1.index t6_9 (1 : Fin 2) * 128 ≤ (i 1).val ∧ (i 1).val < win6_1.index t6_9 (1 : Fin 2) * 128 + 128; omega
theorem cover2 (i : S1x128.Idx) : ∃ t : Fin cfg6.N, (cfg6.win 2).flush t = true ∧ i ∈ ((cfg6.win 2).blk t).view.set := by
  refine ⟨t6_9, (flush6_2 t6_9).mpr rfl, ?_⟩
  obtain ⟨-, ⟨e0, e1⟩⟩ := out_index t6_9
  have h0 : (i 0).val < 1 := (i 0).isLt
  have h1 : (i 1).val < 128 := (i 1).isLt
  rw [mem_blk2]
  intro a
  match a with
  | ⟨0, _⟩ => show win6_2.index t6_9 (0 : Fin 2) * 1 ≤ (i 0).val ∧ (i 0).val < win6_2.index t6_9 (0 : Fin 2) * 1 + 1; omega
  | ⟨1, _⟩ => show win6_2.index t6_9 (1 : Fin 2) * 128 ≤ (i 1).val ∧ (i 1).val < win6_2.index t6_9 (1 : Fin 2) * 128 + 128; omega

/-- OUTPUT 1 after the region: at (0, j) the sum of column j of the input array over all 50000 rows (both sides read as
    extended reals; xin V c is the input array V c (Pipeline.arrRef spec6 0) at its literal type). -/
theorem colsum (c : Dev nD) (j : Fin 128) :
    @Eq EReal (((dat6 V c).arrAt 1 cfg6.N) (ix2 0 j)) (∑ r : Fin 50000, xin V c (ix2 r j)) :=
  (congrFun ((dat6 V c).arrAt_eq_of_cover 1 (colSums V c) (flushed1_eq V c) cover1) (ix2 0 j)).trans (colSums_apply V c j)

/-- OUTPUT 2 after the region: at (0, j) the sum of the squares of column j over all 50000 rows. -/
theorem colsumsq (c : Dev nD) (j : Fin 128) :
    @Eq EReal (((dat6 V c).arrAt 2 cfg6.N) (ix2 0 j)) (∑ r : Fin 50000, xin V c (ix2 r j) * xin V c (ix2 r j)) :=
  (congrFun ((dat6 V c).arrAt_eq_of_cover 2 (sqSums V c) (flushed2_eq V c) cover2) (ix2 0 j)).trans (sqSums_apply V c j)

/-- The input array is never written back: it is left as the region found it. -/
theorem kept (c : Dev nD) : (dat6 V c).arrAt 0 cfg6.N = V c (Pipeline.arrRef spec6 0) :=
  ((dat6 V c).arrAt_in 0 rfl cfg6.N).trans (A_eq6 V c 0)

end Cert.KernelIdeal.RegStats6

end
-- ==== Proof.RegMatmul7.lean ====
/- Region 7 of the idealized kernel, read as whole arrays: the batch-normalised rows times the weight matrix.

   The region tiles the 50000 rows of its operand x in 10 blocks of 5000 rows. At each block it forms, with the
   per-column statistics mean, var (one row of 128 entries each) and the 128 x 128 matrix w,
     xn[r, k] = (x[r, k] - mean[0, k]) * rsqrt (var[0, k] + eps) + bnb,
     o[r, j]  = sum over k of xn[r, k] * w[k, j],
   over the extended reals, where narrowing to the 16-bit format is the identity and the matrix unit's product into a
   zero accumulator is the plain sum over the contracted column. Written here: the product's operand indices at an
   output index and a contraction position (one lemma per operand axis), the product read at (r, j), the block's whole
   payload read at (r, j), each operand block read as rows of its array, what the write-back at a grid point holds,
   the cover of the 50000 rows by the blocks (row r lies in block r / 5000), and the output array after the region as a
   function of the four input arrays, which the region leaves as it found them. -/
import proofs.«407945_j8993661518245_1_alg».proof.Proof.FrameKI
import Idealize.ShloMosaic.Lib.Pipeline.Value
import Idealize.ShloMosaic.Lib.Pipeline.Cells
import Idealize.ShloMosaic.Lib.ValueIdx
import Idealize.ShloMosaic.Lib.ValueLayout
import Idealize.ShloMosaic.PureOps.Ideal.Laws

set_option maxRecDepth 16384

noncomputable section

namespace Cert.KernelIdeal.RegMatmul7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen Cert.KernelIdeal.GenP

/-! ## The matrix product at an output index -/

/-- The left operand's row at output index i is i's row. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction position. -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column at output index i is i's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, at row p and column q: the sum over the 128 contracted positions of the
    left operand's row p times the right operand's column q. -/
theorem matmul_zero_apply {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The block's payload at an index -/

/-- The value the body stores, at row p and column q of the block: the normalised row p of the block of x against
    column q of w. -/
theorem pay_apply (x0 : Vec Ideal S5000x128 .f32) (x1 : Vec Ideal S1x128 .f32) (x2 : Vec Ideal S1x128 .f32) (x3 : Vec Ideal S128x128 .f32)
    (p : Fin 5000) (q : Fin 128) :
    k7_pay1 x0 x1 x2 x3 (ix2 p q)
      = ∑ k : Fin 128, ((x0 (ix2 p k) - x1 (ix2 (0 : Fin 1) k)) * Ideal.rsqrt (x2 (ix2 (0 : Fin 1) k) + Ideal.ofBits .f32 0x3727C5AC#32)
          + Ideal.ofBits .f32 0x38D1B717#32) * x3 (ix2 k q) := by
  unfold k7_pay1
  simp only [shapeCast_self]
  refine (matmul_zero_apply _ _ p q).trans ?_
  refine Finset.sum_congr rfl fun k _ => ?_
  rw [truncf_apply, truncf_apply, addf_apply, mulf_apply, subf_apply, broadcastTo_1b_ab_apply, broadcastTo_1b_ab_apply]
  rfl

/-! ## The region's arrays -/

variable (V : (c : Dev nD) → (b : Ref sig .tc) → Buf (Elt Ideal) ((c : Thread nD τ).loc b))

/-- The four input arrays as the region finds them: x (50000 rows), the column means and variances (one row each), w. -/
abbrev xArr (c : Dev nD) : S50000x128.Idx → EReal := V c (Pipeline.arrRef spec7 0)
abbrev meanArr (c : Dev nD) : S1x128.Idx → EReal := V c (Pipeline.arrRef spec7 1)
abbrev varArr (c : Dev nD) : S1x128.Idx → EReal := V c (Pipeline.arrRef spec7 2)
abbrev wArr (c : Dev nD) : S128x128.Idx → EReal := V c (Pipeline.arrRef spec7 3)

/-- The output array as one function of the input arrays: entry (r, j) is the normalised row r of x against column j of w. -/
def G (x : S50000x128.Idx → EReal) (mean var : S1x128.Idx → EReal) (w : S128x128.Idx → EReal) : S50000x128.Idx → EReal := fun i =>
  ∑ k : Fin 128, ((x (ix2 (i 0) k) - mean (ix2 (0 : Fin 1) k)) * Ideal.rsqrt (var (ix2 (0 : Fin 1) k) + Ideal.ofBits .f32 0x3727C5AC#32)
      + Ideal.ofBits .f32 0x38D1B717#32) * w (ix2 k (i 1))

theorem off_zero : (![0, 0] : Fin 2 → Nat) = fun _ => 0 := funext fun a => by fin_cases a <;> rfl

/-- The index maps over the grid: the blocks of x and of the output are block t of the rows, all columns; the other
    three operands are their whole arrays at every point. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Row p of x's block at point t is row 5000 t + p of x. -/
theorem blk0_apply (c : Dev nD) (t : Fin cfg7.N) (p : Fin 5000) (k : Fin 128) (r : Fin 50000) (hr : r.val = t.val * 5000 + p.val) :
    (iblk7 V c 0 t : Vec Ideal S5000x128 .f32) (ix2 p k) = xArr V c (ix2 r k) := by
  obtain ⟨e00, e01, -⟩ := idx_facts t
  show xArr V c (((cfg7.win 0).blk t).view.emb (ix2 p k)) = xArr V c (ix2 r k)
  refine congrArg (xArr V c) (funext fun a => Fin.ext ?_)
  match a with
  | ⟨0, _⟩ => show win7_0.index t (0 : Fin 2) * 5000 + 1 * p.val = r.val; omega
  | ⟨1, _⟩ => show win7_0.index t (1 : Fin 2) * 128 + 1 * k.val = k.val; omega

/-- The block of the means at any point is the one row of means. -/
theorem blk1_apply (c : Dev nD) (t : Fin cfg7.N) (k : Fin 128) :
    (iblk7 V c 1 t : Vec Ideal S1x128 .f32) (ix2 (0 : Fin 1) k) = meanArr V c (ix2 (0 : Fin 1) k) := by
  obtain ⟨-, -, e10, e11, -⟩ := idx_facts t
  show meanArr V c (((cfg7.win 1).blk t).view.emb (ix2 (0 : Fin 1) k)) = meanArr V c (ix2 (0 : Fin 1) k)
  refine congrArg (meanArr V c) (funext fun a => Fin.ext ?_)
  match a with
  | ⟨0, _⟩ => show win7_1.index t (0 : Fin 2) * 1 + 1 * 0 = 0; omega
  | ⟨1, _⟩ => show win7_1.index t (1 : Fin 2) * 128 + 1 * k.val = k.val; omega

/-- The block of the variances at any point is the one row of variances. -/
theorem blk2_apply (c : Dev nD) (t : Fin cfg7.N) (k : Fin 128) :
    (iblk7 V c 2 t : Vec Ideal S1x128 .f32) (ix2 (0 : Fin 1) k) = varArr V c (ix2 (0 : Fin 1) k) := by
  obtain ⟨-, -, -, -, e20, e21, -⟩ := idx_facts t
  show varArr V c (((cfg7.win 2).blk t).view.emb (ix2 (0 : Fin 1) k)) = varArr V c (ix2 (0 : Fin 1) k)
  refine congrArg (varArr V c) (funext fun a => Fin.ext ?_)
  match a with
  | ⟨0, _⟩ => show win7_2.index t (0 : Fin 2) * 1 + 1 * 0 = 0; omega
  | ⟨1, _⟩ => show win7_2.index t (1 : Fin 2) * 128 + 1 * k.val = k.val; omega

/-- The block of w at any point is all of w. -/
theorem blk3_apply (c : Dev nD) (t : Fin cfg7.N) (k q : Fin 128) :
    (iblk7 V c 3 t : Vec Ideal S128x128 .f32) (ix2 k q) = wArr V c (ix2 k q) := by
  obtain ⟨-, -, -, -, -, -, e30, e31, -⟩ := idx_facts t
  show wArr V c (((cfg7.win 3).blk t).view.emb (ix2 k q)) = wArr V c (ix2 k q)
  refine congrArg (wArr V c) (funext fun a => Fin.ext ?_)
  match a with
  | ⟨0, _⟩ => show win7_3.index t (0 : Fin 2) * 128 + 1 * k.val = k.val; omega
  | ⟨1, _⟩ => show win7_3.index t (1 : Fin 2) * 128 + 1 * q.val = q.val; omega

/-- What point t writes back is block t of G of the input arrays: rows 5000 t .. 5000 t + 4999. -/
theorem flushed_eq (c : Dev nD) (t : Fin cfg7.N) :
    (dat7 V c).flushed 4 t = ((cfg7.win 4).blk t).view.read (Elt Ideal) (G (xArr V c) (meanArr V c) (varArr V c) (wArr V c)) := by
  show (cfg7.win 4).cut (grid7.coords t) ((dat7 V c).after 4 t) = _
  rw [after7_4]
  unfold out7_4
  rw [View.canon_unit_zero off_zero]
  simp only [View.ld_unit_zero (S := S5000x128) off_zero, View.ld_unit_zero (S := S1x128) off_zero, View.ld_unit_zero (S := S128x128) off_zero]
  obtain ⟨-, -, -, -, -, -, -, -, e40, e41⟩ := idx_facts t
  have ht : t.val < 10 := by have h := t.isLt; have hN : cfg7.N = 10 := N_7; omega
  funext y
  obtain ⟨p, q, rfl⟩ : ∃ (p : Fin 5000) (q : Fin 128), y = ix2 p q := ⟨y 0, y 1, eq_ix2 (n0 := 5000) (n1 := 128) y⟩
  have hp : p.val < 5000 := p.isLt
  have hr : t.val * 5000 + p.val < 50000 := by omega
  have e : ((cfg7.win 4).blk t).view.emb (ix2 p q) = ix2 (⟨t.val * 5000 + p.val, hr⟩ : Fin 50000) q := funext fun a => Fin.ext (by
    match a with
    | ⟨0, _⟩ => show win7_4.index t (0 : Fin 2) * 5000 + 1 * p.val = t.val * 5000 + p.val; omega
    | ⟨1, _⟩ => show win7_4.index t (1 : Fin 2) * 128 + 1 * q.val = q.val; omega)
  show k7_pay1 (iblk7 V c 0 t) (iblk7 V c 1 t) (iblk7 V c 2 t) (iblk7 V c 3 t) (ix2 p q)
    = G (xArr V c) (meanArr V c) (varArr V c) (wArr V c) (((cfg7.win 4).blk t).view.emb (ix2 p q))
  rw [e]
  refine (pay_apply (iblk7 V c 0 t) (iblk7 V c 1 t) (iblk7 V c 2 t) (iblk7 V c 3 t) p q).trans ?_
  unfold G
  refine Finset.sum_congr rfl fun k _ => ?_
  rw [blk0_apply V c t p k ⟨t.val * 5000 + p.val, hr⟩ rfl, blk1_apply V c t k, blk2_apply V c t k, blk3_apply V c t k q]

/-- An index of the output array is in point t's block iff each coordinate is in the block's range on its axis. -/
theorem mem_blk (t : Fin cfg7.N) (i : S50000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole (Pipeline.arrRef spec7 4)).slice (win7_4.rect t)).set ↔ _
  rw [View.set_slice_whole, Rect.mem_set_unit]
  exact Iff.rfl

/-- Every index of the output array is written back by some point: row r by point r / 5000. -/
theorem cover (i : S50000x128.Idx) : ∃ t : Fin cfg7.N, (cfg7.win 4).flush t = true ∧ i ∈ ((cfg7.win 4).blk t).view.set := by
  have hi0 : (i 0).val < 50000 := (i 0).isLt
  have hi1 : (i 1).val < 128 := (i 1).isLt
  obtain ⟨t, ht⟩ : ∃ t : Fin cfg7.N, t.val = (i 0).val / 5000 := ⟨⟨(i 0).val / 5000, by have hN : cfg7.N = 10 := N_7; omega⟩, rfl⟩
  obtain ⟨-, -, -, -, -, -, -, -, e40, e41⟩ := idx_facts t
  refine ⟨t, flush7_4 t, ?_⟩
  rw [mem_blk]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

/-- The output array after the region is G of the input arrays. -/
theorem out_eq (c : Dev nD) : (dat7 V c).arrAt 4 cfg7.N = G (xArr V c) (meanArr V c) (varArr V c) (wArr V c) :=
  (dat7 V c).arrAt_eq_of_cover 4 (G (xArr V c) (meanArr V c) (varArr V c) (wArr V c)) (fun t _ => flushed_eq V c t) cover

/-- The output array after the region, entry by entry. -/
theorem out_apply (c : Dev nD) (r : Fin 50000) (j : Fin 128) :
    ((dat7 V c).arrAt 4 cfg7.N : S50000x128.Idx → EReal) (ix2 r j)
      = ∑ k : Fin 128, ((xArr V c (ix2 r k) - meanArr V c (ix2 (0 : Fin 1) k)) * Ideal.rsqrt (varArr V c (ix2 (0 : Fin 1) k) + Ideal.ofBits .f32 0x3727C5AC#32)
          + Ideal.ofBits .f32 0x38D1B717#32) * wArr V c (ix2 k j) :=
  congrFun (out_eq V c) (ix2 r j)

/-- The region writes none of its four input arrays. -/
theorem kept0 (c : Dev nD) : (dat7 V c).arrAt 0 cfg7.N = V c (Pipeline.arrRef spec7 0) :=
  ((dat7 V c).arrAt_in 0 rfl cfg7.N).trans (A_eq7 V c 0)
theorem kept1 (c : Dev nD) : (dat7 V c).arrAt 1 cfg7.N = V c (Pipeline.arrRef spec7 1) :=
  ((dat7 V c).arrAt_in 1 rfl cfg7.N).trans (A_eq7 V c 1)
theorem kept2 (c : Dev nD) : (dat7 V c).arrAt 2 cfg7.N = V c (Pipeline.arrRef spec7 2) :=
  ((dat7 V c).arrAt_in 2 rfl cfg7.N).trans (A_eq7 V c 2)
theorem kept3 (c : Dev nD) : (dat7 V c).arrAt 3 cfg7.N = V c (Pipeline.arrRef spec7 3) :=
  ((dat7 V c).arrAt_in 3 rfl cfg7.N).trans (A_eq7 V c 3)

end Cert.KernelIdeal.RegMatmul7

end
-- ==== Proof.StageBnmm2.lean ====
/- The normalize-and-project unit number 2 of the network, in the two programs.
   Kernel: a region leaves the [1,128] rows of column sums of x and of x²; host operations form mean = sum / 50000 and
   var = sumsq / 50000 − mean · mean and take the layer's [128,128] weight out of the stacked weights (a slice and a reshape); a second region
   writes, at row r and column j, ∑ k ((x r k − mean k) · rsqrt (var k + eps) + bias) · w k j.
   Reference: host operations form the column means, the means of the squared deviations, the normalised array and its
   contraction with the weight. The two results agree when x is the same array of real numbers in both programs and the
   weights are equal (on a real column the two spellings of the variance are one value); the result is real when the weight is. -/
import proofs.«407945_j8993661518245_1_alg».proof.Proof.Iface
import proofs.«407945_j8993661518245_1_alg».proof.Proof.KCarry
import proofs.«407945_j8993661518245_1_alg».proof.Proof.RegStats6
import proofs.«407945_j8993661518245_1_alg».proof.Proof.RegMatmul7
import proofs.«407945_j8993661518245_1_alg».proof.Proof.LibBnRead
import proofs.«407945_j8993661518245_1_alg».proof.Proof.LibBnOut
import proofs.«407945_j8993661518245_1_alg».proof.Proof.LibBnmm

noncomputable section

namespace Cert.StageBnmm2

open Idealize.ShloMosaic Idealize.ShloMosaic.ValueIdx Idealize.ShloMosaic.TcCoe Idealize.SL.Sem Idealize.ShloMosaic.StableHlo
open Cert.Iface Cert.LibFinite

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel: the statistics region, the host stretch, the projection region -/

section Kernel

open Cert.KernelIdeal Cert.KernelIdeal.Gen Cert.KernelIdeal.GenP Cert.KernelIdeal.KCarry

/-- x, and the two rows the statistics region leaves, as the kernel program ends with them. -/
abbrev xK : S50000x128.Idx → EReal := Kf m ρ c main_v70
abbrev s0K : S1x128.Idx → EReal := Kf m ρ c main_v71_0
abbrev s1K : S1x128.Idx → EReal := Kf m ρ c main_v71_1
/-- The projection region's output array, likewise. -/
abbrev outK : S50000x128.Idx → EReal := Kf m ρ c main_v80

/-- The statistics region's first output is the row of column sums of x. -/
theorem k_sum (k : Fin 128) :
    s0K m ρ c (ix2 (0 : Fin 1) k) = ∑ r : Fin 50000, xK m ρ c (ix2 r k) := by
  have e : s0K m ρ c = (dat6 (V12 m ρ) c).arrAt 1 cfg6.N := reg6_arr1 m ρ c
  have ex : (V12 m ρ c (Pipeline.arrRef spec6 0) : S50000x128.Idx → EReal) = xK m ρ c := reg6_in0 m ρ c
  rw [e]
  refine (Cert.KernelIdeal.RegStats6.colsum (V12 m ρ) c k).trans ?_
  exact Finset.sum_congr rfl fun r _ => congrFun ex (ix2 r k)

/-- Its second output is the row of column sums of squares. -/
theorem k_sumsq (k : Fin 128) :
    s1K m ρ c (ix2 (0 : Fin 1) k) = ∑ r : Fin 50000, xK m ρ c (ix2 r k) * xK m ρ c (ix2 r k) := by
  have e : s1K m ρ c = (dat6 (V12 m ρ) c).arrAt 2 cfg6.N := reg6_arr2 m ρ c
  have ex : (V12 m ρ c (Pipeline.arrRef spec6 0) : S50000x128.Idx → EReal) = xK m ρ c := reg6_in0 m ρ c
  rw [e]
  refine (Cert.KernelIdeal.RegStats6.colsumsq (V12 m ρ) c k).trans ?_
  exact Finset.sum_congr rfl fun r _ => congrArg₂ (· * ·) (congrFun ex (ix2 r k)) (congrFun ex (ix2 r k))

/-- The host stretch leaves the row of means: the sums divided by 50000. -/
theorem k_mean : (Kf m ρ c main_v73 : S1x128.Idx → EReal) = Cert.LibBnRead.Ker.mean (Kf m ρ c main_v71_0) := by
  have hread : (W14 m ρ c (Proc.devRef .tc main_v73) : S1x128.Idx → EReal) = Cert.LibBnRead.Ker.mean (W13 m ρ c (Proc.devRef .tc main_v71_0)) := by
    show StableHlo.after hostOps7 (W13 m ρ c) (Proc.devRef .tc main_v73) = _
    after_results
    rfl
  exact (carry14 m ρ c main_v73 (by decide)).trans (hread.trans (congrArg Cert.LibBnRead.Ker.mean (carry13 m ρ c main_v71_0 (by decide)).symm))

/-- And the row of variances: the mean of squares minus the squared mean. -/
theorem k_var : (Kf m ρ c main_v77 : S1x128.Idx → EReal) = Cert.LibBnRead.Ker.var (Kf m ρ c main_v71_0) (Kf m ρ c main_v71_1) := by
  have hread : (W14 m ρ c (Proc.devRef .tc main_v77) : S1x128.Idx → EReal)
      = Cert.LibBnRead.Ker.var (W13 m ρ c (Proc.devRef .tc main_v71_0)) (W13 m ρ c (Proc.devRef .tc main_v71_1)) := by
    show StableHlo.after hostOps7 (W13 m ρ c) (Proc.devRef .tc main_v77) = _
    after_results
    rfl
  exact (carry14 m ρ c main_v77 (by decide)).trans (hread.trans (congrArg₂ Cert.LibBnRead.Ker.var
    (carry13 m ρ c main_v71_0 (by decide)).symm (carry13 m ρ c main_v71_1 (by decide)).symm))

/-- The layer's weight: slice 1 of the stacked weights, reshaped to [128,128]. -/
theorem k_w : (Kf m ρ c main_v79 : S128x128.Idx → EReal) = (shapeCast Cert.KernelIdeal.S128x128 (extractStridedSlice Cert.KernelIdeal.S1x128x128 ![1, 0, 0] (Kf m ρ c main_arg2 : Cert.KernelIdeal.S3x128x128.Idx → EReal) Cert.KernelIdeal.Facts₀.slices_S3x128x128_S1x128x128_1_0_0) Cert.KernelIdeal.Facts₀.shapeCasts_S1x128x128_S128x128) := by
  have hread : (W14 m ρ c (Proc.devRef .tc main_v79) : S128x128.Idx → EReal) = (shapeCast Cert.KernelIdeal.S128x128 (extractStridedSlice Cert.KernelIdeal.S1x128x128 ![1, 0, 0] (W13 m ρ c (Proc.devRef .tc main_arg2) : Cert.KernelIdeal.S3x128x128.Idx → EReal) Cert.KernelIdeal.Facts₀.slices_S3x128x128_S1x128x128_1_0_0) Cert.KernelIdeal.Facts₀.shapeCasts_S1x128x128_S128x128) := by
    show StableHlo.after hostOps7 (W13 m ρ c) (Proc.devRef .tc main_v79) = _
    after_results
    rfl
  have h0 : (Kf m ρ c main_v79 : S128x128.Idx → EReal) = W14 m ρ c (Proc.devRef .tc main_v79) := carry14 m ρ c main_v79 (by decide)
  have hc : (W13 m ρ c (Proc.devRef .tc main_arg2) : S3x128x128.Idx → EReal) = Kf m ρ c main_arg2 := (carry13 m ρ c main_arg2 (by decide)).symm
  rw [h0, hread, hc]

/-- The projection region's output, entry by entry, over x and the weight. -/
theorem k_out (r : Fin 50000) (j : Fin 128) :
    outK m ρ c (ix2 r j) = Cert.LibBnmm.kform (Kf m ρ c main_v70) (shapeCast Cert.KernelIdeal.S128x128 (extractStridedSlice Cert.KernelIdeal.S1x128x128 ![1, 0, 0] (Kf m ρ c main_arg2 : Cert.KernelIdeal.S3x128x128.Idx → EReal) Cert.KernelIdeal.Facts₀.slices_S3x128x128_S1x128x128_1_0_0) Cert.KernelIdeal.Facts₀.shapeCasts_S1x128x128_S128x128) r j := by
  have e : outK m ρ c = (dat7 (V14 m ρ) c).arrAt 4 cfg7.N := reg7_arr4 m ρ c
  have e0 : (V14 m ρ c (Pipeline.arrRef spec7 0) : S50000x128.Idx → EReal) = Kf m ρ c main_v70 := reg7_in0 m ρ c
  have e1 : (V14 m ρ c (Pipeline.arrRef spec7 1) : S1x128.Idx → EReal) = Kf m ρ c main_v73 := reg7_in1 m ρ c
  have e2 : (V14 m ρ c (Pipeline.arrRef spec7 2) : S1x128.Idx → EReal) = Kf m ρ c main_v77 := reg7_in2 m ρ c
  have e3 : (V14 m ρ c (Pipeline.arrRef spec7 3) : S128x128.Idx → EReal) = Kf m ρ c main_v79 := reg7_in3 m ρ c
  rw [e, Cert.KernelIdeal.RegMatmul7.out_apply (V14 m ρ) c r j]
  unfold Cert.LibBnmm.kform
  dsimp only [Cert.KernelIdeal.RegMatmul7.xArr, Cert.KernelIdeal.RegMatmul7.meanArr, Cert.KernelIdeal.RegMatmul7.varArr, Cert.KernelIdeal.RegMatmul7.wArr]
  refine Finset.sum_congr rfl fun k _ => ?_
  rw [e0, e1, e2, e3, k_mean m ρ c, k_var m ρ c, Cert.LibBnRead.Ker.mean_apply, Cert.LibBnRead.Ker.var_apply,
    show (Kf m ρ c main_v71_0 : S1x128.Idx → EReal) (ix2 (0 : Fin 1) k) = _ from k_sum m ρ c k,
    show (Kf m ρ c main_v71_1 : S1x128.Idx → EReal) (ix2 (0 : Fin 1) k) = _ from k_sumsq m ρ c k, k_w m ρ c]

end Kernel

/-! ## The reference: the same unit as host operations -/

section Reference

open Cert.ReferenceIdeal Cert.ReferenceIdeal.RefRun

/-- The reference's result is its chain of operations over x and the weight. -/
theorem r_out : (Rf m' c main_v124 : S50000x128.Idx → EReal) = Cert.LibBnRead.Ref.proj (Rf m' c main_v98) (shapeCast Cert.ReferenceIdeal.S128x128 (extractStridedSlice Cert.ReferenceIdeal.S1x128x128 ![1, 0, 0] (Rf m' c main_arg2 : Cert.ReferenceIdeal.S3x128x128.Idx → EReal) Cert.ReferenceIdeal.Facts₀.slices_S3x128x128_S1x128x128_1_0_0) Cert.ReferenceIdeal.Facts₀.shapeCasts_S1x128x128_S128x128) := by
  have h0 : (Rf m' c main_v124 : S50000x128.Idx → EReal) = R3 m' c (Proc.devRef .tc main_v124) := carry3 m' c main_v124 (by decide)
  have hx : (Rf m' c main_v98 : S50000x128.Idx → EReal) = R3 m' c (Proc.devRef .tc main_v98) := carry3 m' c main_v98 (by decide)
  have hw : (Rf m' c main_arg2 : S3x128x128.Idx → EReal) = R2 m' c (Proc.devRef .tc main_arg2) := carry2 m' c main_arg2 (by decide)
  rw [h0, hx, hw]
  show StableHlo.after ops2 (R2 m' c) (Proc.devRef .tc main_v124) = Cert.LibBnRead.Ref.proj (StableHlo.after ops2 (R2 m' c) (Proc.devRef .tc main_v98)) (shapeCast Cert.ReferenceIdeal.S128x128 (extractStridedSlice Cert.ReferenceIdeal.S1x128x128 ![1, 0, 0] (R2 m' c (Proc.devRef .tc main_arg2) : Cert.ReferenceIdeal.S3x128x128.Idx → EReal) Cert.ReferenceIdeal.Facts₀.slices_S3x128x128_S1x128x128_1_0_0) Cert.ReferenceIdeal.Facts₀.shapeCasts_S1x128x128_S128x128)
  after_results_simp
  rfl

end Reference

/-! ## The two results agree -/

theorem t2 (h : Cert.Iface.H1 m ρ m' c)
    (hw : (Kf m ρ c Cert.KernelIdeal.main_arg2 : Cert.KernelIdeal.S3x128x128.Idx → EReal) = Rf m' c Cert.ReferenceIdeal.main_arg2)
    (hwf : AllFin (Kf m ρ c Cert.KernelIdeal.main_arg2 : Cert.KernelIdeal.S3x128x128.Idx → EReal)) : Cert.Iface.T2 m ρ m' c := by
  obtain ⟨hx, hxf⟩ := h
  have hw' : (shapeCast Cert.KernelIdeal.S128x128 (extractStridedSlice Cert.KernelIdeal.S1x128x128 ![1, 0, 0] (Kf m ρ c Cert.KernelIdeal.main_arg2 : Cert.KernelIdeal.S3x128x128.Idx → EReal) Cert.KernelIdeal.Facts₀.slices_S3x128x128_S1x128x128_1_0_0) Cert.KernelIdeal.Facts₀.shapeCasts_S1x128x128_S128x128) = (shapeCast Cert.ReferenceIdeal.S128x128 (extractStridedSlice Cert.ReferenceIdeal.S1x128x128 ![1, 0, 0] (Rf m' c Cert.ReferenceIdeal.main_arg2 : Cert.ReferenceIdeal.S3x128x128.Idx → EReal) Cert.ReferenceIdeal.Facts₀.slices_S3x128x128_S1x128x128_1_0_0) Cert.ReferenceIdeal.Facts₀.shapeCasts_S1x128x128_S128x128) := by
    rw [hw]; try rfl
  exact And.intro (Cert.LibBnmm.stage_eq (k_out m ρ c) (r_out m' c) hx hxf hw')
    (Cert.LibBnmm.stage_fin (k_out m ρ c) hxf (Cert.LibBnRead.forall_shapeCast_slice IsFin _ _ _ _ hwf))

end Cert.StageBnmm2

end
-- ==== Proof.RegStats9.lean ====
/-
  REGION 9: the column statistics of a [50000,128] array.

  The region walks the ten row blocks (5000 rows each) of its input array x. At the first block it clears two [1,128]
  accumulators; at every block it adds to the first the block's column sums and to the second the column sums of the
  block's squares. The accumulators' buffers are written back once, after the last block. Over the extended reals
  addition is commutative and associative with no finiteness assumption and 0 + s = s, so the ten block sums regroup
  into one sum over the 50000 rows (row = 5000·t + q): after the region, for ANY contents V it is entered with,

      output 1 at (0, j) = ∑ r, x (r, j)        output 2 at (0, j) = ∑ r, x (r, j) * x (r, j)

  and the input array is as the region found it.

  The steps. (1) Sums over the rows taken block by block: a function of the rows continued by zero, summed over the
  naturals below 5000·(n+1) (the rows of the first n + 1 blocks). (2) The body's two payloads at an index (0, j): the value carried in plus the block's
  column sum (of the entries, of their squares); the cleared accumulator is 0 there. (3) What each control case of the
  body leaves in an accumulator's buffer is that payload of the block and of what the buffer held. (4) A row block
  read at (q, j) is the array at row 5000·t + q. (5) By induction on the grid point: after point n the accumulators
  hold the sums over the first 5000·(n+1) rows. (6) The one write-back, at the last point, carries the whole [1,128]
  array, so the arrays end holding the sums over all rows.
-/
import proofs.«407945_j8993661518245_1_alg».proof.Proof.FrameKI
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.RegStats9

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! ## (1) Sums over the rows, block by block -/

/-- A function of the 50000 rows, continued by zero past the last row. -/
def ext (f : Fin 50000 → EReal) (r : ℕ) : EReal := if h : r < 50000 then f ⟨r, h⟩ else 0

/-- Summed over all naturals below 50000 it is the sum over the rows. -/
theorem sum_ext_all (f : Fin 50000 → EReal) : ∑ r ∈ Finset.range 50000, ext f r = ∑ r : Fin 50000, f r := by
  rw [Finset.sum_range]
  exact Finset.sum_congr rfl fun r _ => dif_pos r.isLt

/-- One more block of 5000 rows starting at row a: the rows below a + 5000 are the rows below a and the rows a + q. -/
theorem sum_ext_block (f : Fin 50000 → EReal) (a : ℕ) (ha : a + 5000 ≤ 50000) :
    ∑ r ∈ Finset.range (a + 5000), ext f r
      = ∑ r ∈ Finset.range a, ext f r + ∑ q : Fin 5000, f ⟨a + q.val, by have := q.isLt; omega⟩ := by
  refine (Finset.sum_range_add _ _ _).trans ?_
  congr 1
  rw [Finset.sum_range]
  exact Finset.sum_congr rfl fun q _ => dif_pos _

/-- The sum of f over the rows of the first n + 1 blocks. -/
def firstBlocks (f : Fin 50000 → EReal) (n : ℕ) : EReal := ∑ r ∈ Finset.range (5000 * (n + 1)), ext f r

/-- The first block alone. -/
theorem firstBlocks_zero (f : Fin 50000 → EReal) :
    firstBlocks f 0 = ∑ q : Fin 5000, f ⟨5000 * 0 + q.val, by have := q.isLt; omega⟩ := by
  have z : ∑ r ∈ Finset.range (5000 * 0), ext f r = 0 := Finset.sum_range_zero _
  show ∑ r ∈ Finset.range (5000 * 0 + 5000), ext f r = _
  rw [sum_ext_block f (5000 * 0) (by omega), z, zero_add]

/-- One more block. -/
theorem firstBlocks_succ (f : Fin 50000 → EReal) (n : ℕ) (hn : n + 1 < 10) :
    firstBlocks f (n + 1) = firstBlocks f n + ∑ q : Fin 5000, f ⟨5000 * (n + 1) + q.val, by have := q.isLt; omega⟩ := by
  have e : 5000 * (n + 1 + 1) = 5000 * (n + 1) + 5000 := by omega
  unfold firstBlocks
  rw [e]
  exact sum_ext_block f (5000 * (n + 1)) (by omega)

/-- All ten blocks: every row. -/
theorem firstBlocks_last (f : Fin 50000 → EReal) : firstBlocks f 9 = ∑ r : Fin 50000, f r :=
  sum_ext_all f

/-! ## (2) The body's payloads at an index (0, j) -/

/-- A [128] vector viewed [1,128] reads (0, j) at j. -/
theorem addUnit_read (v : FVec Ideal S128 .f32) (h : S128.ShapeCasts S1x128) (j : Fin 128) :
    shapeCast S1x128 v h (ix2 0 j) = v (ix1 j) :=
  (shapeCast_addUnit_apply (n := 1) ![128] v h (ix2 0 j)).trans
    (congrArg v (funext fun a => match a with | ⟨0, _⟩ => rfl))

/-- The sum of a [5000,128] block along its rows, at column j: the index over j with row q inserted is (q, j). -/
theorem reduce_read (x : FVec Ideal S5000x128 .f32) (hr : S5000x128.Reduces [0] S128) (hφ : FKind.Formats .f32)
    (hacc : (0x00000000#32 : BitVec 32) = FKind.add.neutral .f32 hφ) (j : Fin 128) :
    multiReduction .add [0] S128 x 0x00000000#32 hr hφ hacc (ix1 j) = ∑ q : Fin 5000, x (ix2 q j) := by
  refine (Ideal.multiReduction_add_single x 0x00000000#32 hr hφ hacc (ix1 j)).trans ?_
  show ∑ k : Fin 5000, x (hr.lift (ix1 j) k) = _
  refine Finset.sum_congr rfl fun k _ => congrArg x ?_
  funext a; apply Fin.ext
  match a with
  | ⟨0, _⟩ => rfl
  | ⟨1, _⟩ => rfl

/-- The accumulating step at (0, j): what was carried in plus the block's column sum. -/
theorem acc_read (x : FVec Ideal S5000x128 .f32) (acc : FVec Ideal S1x128 .f32) (h1 : S1x128.ShapeCasts S1x128)
    (hr : S5000x128.Reduces [0] S128) (h2 : S128.ShapeCasts S1x128) (hφ : FKind.Formats .f32)
    (hacc : (0x00000000#32 : BitVec 32) = FKind.add.neutral .f32 hφ) (j : Fin 128) :
    addf (shapeCast S1x128 acc h1) (shapeCast S1x128 (multiReduction .add [0] S128 x 0x00000000#32 hr hφ hacc) h2) (ix2 0 j)
      = acc (ix2 0 j) + ∑ q : Fin 5000, x (ix2 q j) := by
  show shapeCast S1x128 acc h1 (ix2 0 j)
    + shapeCast S1x128 (multiReduction .add [0] S128 x 0x00000000#32 hr hφ hacc) h2 (ix2 0 j) = _
  rw [shapeCast_self, addUnit_read, reduce_read]

/-- The loaded block as the two sums read it. -/
abbrev inblk (x : Vec Ideal S5000x128 .f32) : FVec Ideal S5000x128 .f32 := k9_pay3 x
theorem inblk_eq (x : Vec Ideal S5000x128 .f32) : inblk x = x := shapeCast_self x _

/-- The first sum's payload at (0, j). -/
theorem sum_pay_apply (x : Vec Ideal S5000x128 .f32) (acc : Vec Ideal S1x128 .f32) (j : Fin 128) :
    k9_pay4 x acc (ix2 0 j) = acc (ix2 0 j) + ∑ q : Fin 5000, x (ix2 q j) :=
  (acc_read (inblk x) acc _ _ _ _ _ j).trans (by rw [inblk_eq])

/-- The second sum's payload at (0, j): the block's squares summed. -/
theorem sq_pay_apply (x : Vec Ideal S5000x128 .f32) (acc : Vec Ideal S1x128 .f32) (j : Fin 128) :
    k9_pay5 x acc (ix2 0 j) = acc (ix2 0 j) + ∑ q : Fin 5000, x (ix2 q j) * x (ix2 q j) :=
  (acc_read (mulf (inblk x) (inblk x)) acc _ _ _ _ _ j).trans (by rw [inblk_eq]; rfl)

/-- The cleared accumulators are 0 everywhere. -/
theorem clear1_apply (j : Fin 128) : (k9_pay1 (F := Ideal)) (ix2 0 j) = 0 := Ideal.ofBits_zero_f32
theorem clear2_apply (j : Fin 128) : (k9_pay2 (F := Ideal)) (ix2 0 j) = 0 := Ideal.ofBits_zero_f32

/-! ## (3) What each control case leaves in the accumulators' buffers -/

section Pieces

variable {F : FTy → Type} [FloatOps F]

theorem zeroOff : (![0, 0] : Fin 2 → Nat) = fun _ => 0 :=
  funext fun a => match a with | ⟨0, _⟩ => rfl | ⟨1, _⟩ => rfl

/-- A later point: the first accumulator's one store, of the payload of the block and of what the buffer held. -/
theorem later_1 (c : Dev nD) (i : grid9.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond9_0 i) (x : Vec F S5000x128 .f32) (xo1 xo2 : Vec F S1x128 .f32) :
    out9_B_1 c i a1 h1 a2 h2 a3 h3 hc x xo1 xo2 = k9_pay4 x xo1 := by
  unfold out9_B_1
  rw [View.read_writes_eq_canon _ _ _ (cover9_B_1 c i a1 h1 a2 h2 a3 h3 hc x xo1 xo2)]
  unfold kernelRun9_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- A later point: the second accumulator's. -/
theorem later_2 (c : Dev nD) (i : grid9.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond9_0 i) (x : Vec F S5000x128 .f32) (xo1 xo2 : Vec F S1x128 .f32) :
    out9_B_2 c i a1 h1 a2 h2 a3 h3 hc x xo1 xo2 = k9_pay5 x xo2 := by
  unfold out9_B_2
  rw [View.read_writes_eq_canon _ _ _ (cover9_B_2 c i a1 h1 a2 h2 a3 h3 hc x xo1 xo2)]
  unfold kernelRun9_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- The first point: the accumulator is cleared, read back, and the payload of the block and of the cleared value stored. -/
theorem first_1 (c : Dev nD) (i : grid9.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond9_0 i) (x : Vec F S5000x128 .f32) :
    out9_A_1 c i a1 h1 a2 h2 a3 h3 hc x = k9_pay4 x (k9_pay1 (F := F)) := by
  unfold out9_A_1
  rw [View.read_writes_eq_canon _ _ _ (cover9_A_1 c i a1 h1 a2 h2 a3 h3 hc x)]
  unfold kernelRun9_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

/-- The first point: the second accumulator's. -/
theorem first_2 (c : Dev nD) (i : grid9.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond9_0 i) (x : Vec F S5000x128 .f32) :
    out9_A_2 c i a1 h1 a2 h2 a3 h3 hc x = k9_pay5 x (k9_pay2 (F := F)) := by
  unfold out9_A_2
  rw [View.read_writes_eq_canon _ _ _ (cover9_A_2 c i a1 h1 a2 h2 a3 h3 hc x)]
  unfold kernelRun9_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

end Pieces

/-! ## (4) The input array and its row blocks -/

variable (V : (c : Dev nD) → (b : Ref sig .tc) → Buf (Elt Ideal) ((c : Thread nD τ).loc b))

/-- The input array as the region finds it, -/
abbrev xin (c : Dev nD) : S50000x128.Idx → EReal := V c (Pipeline.arrRef spec9 0)
/-- its row block at a grid point, -/
abbrev xblk (c : Dev nD) (t : Fin cfg9.N) : Vec Ideal S5000x128 .f32 := iblk9 V c 0 t
/-- and row q of block t as a row of the array. -/
abbrev row (t : Fin cfg9.N) (q : Fin 5000) : Fin 50000 :=
  ⟨5000 * t.val + q.val, by have := t.isLt; have hN : cfg9.N = 10 := N_9; have := q.isLt; omega⟩

/-- The input window's block index: the point on the row axis, 0 on the column axis. -/
theorem in_index : ∀ t : Fin cfg9.N, win9_0.index t (0 : Fin 2) = t.val ∧ win9_0.index t (1 : Fin 2) = 0 :=
  (by decide +kernel : ∀ t : Fin grid9.N, win9_0.index t (0 : Fin 2) = t.val ∧ win9_0.index t (1 : Fin 2) = 0)

/-- Block t at (q, j) is the array at (5000·t + q, j). -/
theorem xblk_apply (c : Dev nD) (t : Fin cfg9.N) (q : Fin 5000) (j : Fin 128) :
    xblk V c t (ix2 q j) = xin V c (ix2 (row t q) j) := by
  obtain ⟨e0, e1⟩ := in_index t
  show V c (Pipeline.arrRef spec9 0) (((cfg9.win 0).blk t).view.emb (ix2 q j)) = V c (Pipeline.arrRef spec9 0) (ix2 (row t q) j)
  refine congrArg _ ?_
  funext a; apply Fin.ext
  match a with
  | ⟨0, _⟩ => show win9_0.index t (0 : Fin 2) * 5000 + 1 * q.val = 5000 * t.val + q.val; omega
  | ⟨1, _⟩ => show win9_0.index t (1 : Fin 2) * 128 + 1 * j.val = j.val; omega

/-! ## (5) The accumulators after each point -/

/-- Column j of the array, and of its squares, as functions of the row. -/
abbrev colf (c : Dev nD) (j : Fin 128) : Fin 50000 → EReal := fun r => xin V c (ix2 r j)
abbrev sqf (c : Dev nD) (j : Fin 128) : Fin 50000 → EReal := fun r => xin V c (ix2 r j) * xin V c (ix2 r j)

/-- A block's column sum is the column's sum over the block's rows; likewise for the squares. -/
theorem blk_colsum (c : Dev nD) (t : Fin cfg9.N) (j : Fin 128) :
    ∑ q : Fin 5000, xblk V c t (ix2 q j) = ∑ q : Fin 5000, colf V c j (row t q) :=
  Finset.sum_congr rfl fun q _ => xblk_apply V c t q j
theorem blk_sqsum (c : Dev nD) (t : Fin cfg9.N) (j : Fin 128) :
    ∑ q : Fin 5000, xblk V c t (ix2 q j) * xblk V c t (ix2 q j) = ∑ q : Fin 5000, sqf V c j (row t q) :=
  Finset.sum_congr rfl fun q _ => by rw [xblk_apply V c t q j]

/-- After point n the accumulators hold, at (0, j), the sums over the rows of the first n + 1 blocks. -/
theorem outs_eq (c : Dev nD) : ∀ (n : ℕ) (h : n < cfg9.N) (j : Fin 128),
    ((outsAt9 V c n h).1 : S1x128.Idx → EReal) (ix2 0 j) = firstBlocks (colf V c j) n
    ∧ ((outsAt9 V c n h).2 : S1x128.Idx → EReal) (ix2 0 j) = firstBlocks (sqf V c j) n
  | 0, h, j => by
    have hc : cond9_0 (grid9.coords ⟨0, h⟩) := (hcond9_0 ⟨0, h⟩).mpr rfl
    rw [outsAt9_A V c ⟨0, h⟩ rfl]
    dsimp only
    constructor
    · refine (congrFun (first_1 (F := Ideal) c (grid9.coords ⟨0, h⟩) (ms9_0 ⟨0, h⟩) (hs9_0 ⟨0, h⟩) (ms9_1 ⟨0, h⟩) (hs9_1 ⟨0, h⟩)
        (ms9_2 ⟨0, h⟩) (hs9_2 ⟨0, h⟩) hc (xblk V c ⟨0, h⟩)) (ix2 0 j)).trans ?_
      refine (sum_pay_apply (xblk V c ⟨0, h⟩) (k9_pay1 (F := Ideal)) j).trans ?_
      rw [clear1_apply, zero_add, firstBlocks_zero]
      exact blk_colsum V c ⟨0, h⟩ j
    · refine (congrFun (first_2 (F := Ideal) c (grid9.coords ⟨0, h⟩) (ms9_0 ⟨0, h⟩) (hs9_0 ⟨0, h⟩) (ms9_1 ⟨0, h⟩) (hs9_1 ⟨0, h⟩)
        (ms9_2 ⟨0, h⟩) (hs9_2 ⟨0, h⟩) hc (xblk V c ⟨0, h⟩)) (ix2 0 j)).trans ?_
      refine (sq_pay_apply (xblk V c ⟨0, h⟩) (k9_pay2 (F := Ideal)) j).trans ?_
      rw [clear2_apply, zero_add, firstBlocks_zero]
      exact blk_sqsum V c ⟨0, h⟩ j
  | n + 1, h, j => by
    have hN : cfg9.N = 10 := N_9
    have hB : ¬(⟨n + 1, h⟩ : Fin cfg9.N).val % 10 = 0 := by dsimp only; omega
    have hc : ¬cond9_0 (grid9.coords ⟨n + 1, h⟩) := fun hh => hB ((hcond9_0 ⟨n + 1, h⟩).mp hh)
    have ih := outs_eq c n (Nat.lt_of_succ_lt h) j
    rw [outsAt9_B V c ⟨n + 1, h⟩ hB]
    dsimp only
    constructor
    · refine (congrFun (later_1 (F := Ideal) c (grid9.coords ⟨n + 1, h⟩) (ms9_0 ⟨n + 1, h⟩) (hs9_0 ⟨n + 1, h⟩) (ms9_1 ⟨n + 1, h⟩)
        (hs9_1 ⟨n + 1, h⟩) (ms9_2 ⟨n + 1, h⟩) (hs9_2 ⟨n + 1, h⟩) hc (xblk V c ⟨n + 1, h⟩)
        (outsAt9 V c n (Nat.lt_of_succ_lt h)).1 (outsAt9 V c n (Nat.lt_of_succ_lt h)).2) (ix2 0 j)).trans ?_
      refine (sum_pay_apply (xblk V c ⟨n + 1, h⟩) (outsAt9 V c n (Nat.lt_of_succ_lt h)).1 j).trans ?_
      rw [firstBlocks_succ (colf V c j) n (by omega)]
      exact congrArg₂ (· + ·) ih.1 (blk_colsum V c ⟨n + 1, h⟩ j)
    · refine (congrFun (later_2 (F := Ideal) c (grid9.coords ⟨n + 1, h⟩) (ms9_0 ⟨n + 1, h⟩) (hs9_0 ⟨n + 1, h⟩) (ms9_1 ⟨n + 1, h⟩)
        (hs9_1 ⟨n + 1, h⟩) (ms9_2 ⟨n + 1, h⟩) (hs9_2 ⟨n + 1, h⟩) hc (xblk V c ⟨n + 1, h⟩)
        (outsAt9 V c n (Nat.lt_of_succ_lt h)).1 (outsAt9 V c n (Nat.lt_of_succ_lt h)).2) (ix2 0 j)).trans ?_
      refine (sq_pay_apply (xblk V c ⟨n + 1, h⟩) (outsAt9 V c n (Nat.lt_of_succ_lt h)).2 j).trans ?_
      rw [firstBlocks_succ (sqf V c j) n (by omega)]
      exact congrArg₂ (· + ·) ih.2 (blk_sqsum V c ⟨n + 1, h⟩ j)

/-! ## (6) The arrays after the region -/

/-- The column sums, and the column sums of squares, as [1,128] arrays. -/
def colSums (c : Dev nD) : S1x128.Idx → EReal := fun i => ∑ r : Fin 50000, xin V c (ix2 r ⟨(i 1).val, idx2_lt1 i⟩)
def sqSums (c : Dev nD) : S1x128.Idx → EReal :=
  fun i => ∑ r : Fin 50000, xin V c (ix2 r ⟨(i 1).val, idx2_lt1 i⟩) * xin V c (ix2 r ⟨(i 1).val, idx2_lt1 i⟩)

theorem colSums_apply (c : Dev nD) (j : Fin 128) : colSums V c (ix2 0 j) = ∑ r : Fin 50000, xin V c (ix2 r j) := rfl
theorem sqSums_apply (c : Dev nD) (j : Fin 128) :
    sqSums V c (ix2 0 j) = ∑ r : Fin 50000, xin V c (ix2 r j) * xin V c (ix2 r j) := rfl

/-- The accumulators' block index is (0, 0) at every point. -/
theorem out_index : ∀ t : Fin cfg9.N, (win9_1.index t (0 : Fin 2) = 0 ∧ win9_1.index t (1 : Fin 2) = 0)
    ∧ (win9_2.index t (0 : Fin 2) = 0 ∧ win9_2.index t (1 : Fin 2) = 0) :=
  (by decide +kernel : ∀ t : Fin grid9.N, (win9_1.index t (0 : Fin 2) = 0 ∧ win9_1.index t (1 : Fin 2) = 0)
    ∧ (win9_2.index t (0 : Fin 2) = 0 ∧ win9_2.index t (1 : Fin 2) = 0))

/-- An accumulator's buffer is moved whole, and a block of a [1,128] array read through the window reads the array
    at the embedded index. -/
theorem cut1_apply (t : Fin cfg9.N) (X : Vec Ideal S1x128 .f32) (y : ((cfg9.win 1).xblock (grid9.coords t)).Idx) :
    (cfg9.win 1).cut (grid9.coords t) X y = X y := rfl
theorem read1_apply (t : Fin cfg9.N) (G : S1x128.Idx → EReal) (y : ((cfg9.win 1).xblock (grid9.coords t)).Idx) :
    ((cfg9.win 1).blk t).view.read (Elt Ideal) G y = G (((cfg9.win 1).blk t).view.emb y) := rfl
theorem cut2_apply (t : Fin cfg9.N) (X : Vec Ideal S1x128 .f32) (y : ((cfg9.win 2).xblock (grid9.coords t)).Idx) :
    (cfg9.win 2).cut (grid9.coords t) X y = X y := rfl
theorem read2_apply (t : Fin cfg9.N) (G : S1x128.Idx → EReal) (y : ((cfg9.win 2).xblock (grid9.coords t)).Idx) :
    ((cfg9.win 2).blk t).view.read (Elt Ideal) G y = G (((cfg9.win 2).blk t).view.emb y) := rfl

/-- The block of output 1 at any point is the whole array: an index (0, j) of the block is (0, j) of the array. -/
theorem emb1_eq (t : Fin cfg9.N) (j : Fin 128) : ((cfg9.win 1).blk t).view.emb (ix2 0 j) = ix2 0 j := by
  obtain ⟨⟨e0, e1⟩, -⟩ := out_index t
  funext a; apply Fin.ext
  match a with
  | ⟨0, _⟩ => show win9_1.index t (0 : Fin 2) * 1 + 1 * 0 = 0; omega
  | ⟨1, _⟩ => show win9_1.index t (1 : Fin 2) * 128 + 1 * j.val = j.val; omega
theorem emb2_eq (t : Fin cfg9.N) (j : Fin 128) : ((cfg9.win 2).blk t).view.emb (ix2 0 j) = ix2 0 j := by
  obtain ⟨-, ⟨e0, e1⟩⟩ := out_index t
  funext a; apply Fin.ext
  match a with
  | ⟨0, _⟩ => show win9_2.index t (0 : Fin 2) * 1 + 1 * 0 = 0; omega
  | ⟨1, _⟩ => show win9_2.index t (1 : Fin 2) * 128 + 1 * j.val = j.val; omega

/-- So a buffer that agrees with a [1,128] array G at every (0, j) is, moved through the window, G's block. -/
theorem flush1_of_cols (t : Fin cfg9.N) (X : Vec Ideal S1x128 .f32) (G : S1x128.Idx → EReal)
    (h : ∀ j : Fin 128, X (ix2 0 j) = G (ix2 0 j)) :
    (cfg9.win 1).cut (grid9.coords t) X = ((cfg9.win 1).blk t).view.read (Elt Ideal) G := by
  funext y
  rw [cut1_apply, read1_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb1_eq t j).symm)
theorem flush2_of_cols (t : Fin cfg9.N) (X : Vec Ideal S1x128 .f32) (G : S1x128.Idx → EReal)
    (h : ∀ j : Fin 128, X (ix2 0 j) = G (ix2 0 j)) :
    (cfg9.win 2).cut (grid9.coords t) X = ((cfg9.win 2).blk t).view.read (Elt Ideal) G := by
  funext y
  rw [cut2_apply, read2_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb2_eq t j).symm)

/-- What the one write-back of output 1 carries is the column sums (its block is the whole array). -/
theorem flushed1_eq (c : Dev nD) (t : Fin cfg9.N) (hf : (cfg9.win 1).flush t = true) :
    (dat9 V c).flushed 1 t = ((cfg9.win 1).blk t).view.read (Elt Ideal) (colSums V c) := by
  have hN : cfg9.N = 10 := N_9
  have h9 : t.val = 9 := by have := (flush9_1 t).mp hf; have := t.isLt; omega
  show (cfg9.win 1).cut (grid9.coords t) ((dat9 V c).after 1 t) = _
  rw [after9_1]
  refine flush1_of_cols t (outsAt9 V c t.val t.isLt).1 (colSums V c) fun j => ?_
  refine ((outs_eq V c t.val t.isLt j).1).trans ?_
  rw [h9, firstBlocks_last, colSums_apply]

/-- What the one write-back of output 2 carries is the column sums of squares. -/
theorem flushed2_eq (c : Dev nD) (t : Fin cfg9.N) (hf : (cfg9.win 2).flush t = true) :
    (dat9 V c).flushed 2 t = ((cfg9.win 2).blk t).view.read (Elt Ideal) (sqSums V c) := by
  have hN : cfg9.N = 10 := N_9
  have h9 : t.val = 9 := by have := (flush9_2 t).mp hf; have := t.isLt; omega
  show (cfg9.win 2).cut (grid9.coords t) ((dat9 V c).after 2 t) = _
  rw [after9_2]
  refine flush2_of_cols t (outsAt9 V c t.val t.isLt).2 (sqSums V c) fun j => ?_
  refine ((outs_eq V c t.val t.isLt j).2).trans ?_
  rw [h9, firstBlocks_last, sqSums_apply]

/-- An index of a [1,128] array is in the accumulator's block at point t iff each coordinate is in the block's range. -/
theorem mem_blk1 (t : Fin cfg9.N) (i : S1x128.Idx) :
    i ∈ ((cfg9.win 1).blk t).view.set ↔ ∀ a : Fin 2, win9_1.index t a * S1x128.size a ≤ (i a).val ∧ (i a).val < win9_1.index t a * S1x128.size a + S1x128.size a := by
  show i ∈ ((View.whole main_v131_0).slice (win9_1.rect t)).set ↔ _
  rw [View.set_slice_whole, Rect.mem_set_unit]
  exact Iff.rfl
theorem mem_blk2 (t : Fin cfg9.N) (i : S1x128.Idx) :
    i ∈ ((cfg9.win 2).blk t).view.set ↔ ∀ a : Fin 2, win9_2.index t a * S1x128.size a ≤ (i a).val ∧ (i a).val < win9_2.index t a * S1x128.size a + S1x128.size a := by
  show i ∈ ((View.whole main_v131_1).slice (win9_2.rect t)).set ↔ _
  rw [View.set_slice_whole, Rect.mem_set_unit]
  exact Iff.rfl

/-- The last point's block covers the whole [1,128] array. -/
theorem cover1 (i : S1x128.Idx) : ∃ t : Fin cfg9.N, (cfg9.win 1).flush t = true ∧ i ∈ ((cfg9.win 1).blk t).view.set := by
  refine ⟨t9_9, (flush9_1 t9_9).mpr rfl, ?_⟩
  obtain ⟨⟨e0, e1⟩, -⟩ := out_index t9_9
  have h0 : (i 0).val < 1 := (i 0).isLt
  have h1 : (i 1).val < 128 := (i 1).isLt
  rw [mem_blk1]
  intro a
  match a with
  | ⟨0, _⟩ => show win9_1.index t9_9 (0 : Fin 2) * 1 ≤ (i 0).val ∧ (i 0).val < win9_1.index t9_9 (0 : Fin 2) * 1 + 1; omega
  | ⟨1, _⟩ => show win9_1.index t9_9 (1 : Fin 2) * 128 ≤ (i 1).val ∧ (i 1).val < win9_1.index t9_9 (1 : Fin 2) * 128 + 128; omega
theorem cover2 (i : S1x128.Idx) : ∃ t : Fin cfg9.N, (cfg9.win 2).flush t = true ∧ i ∈ ((cfg9.win 2).blk t).view.set := by
  refine ⟨t9_9, (flush9_2 t9_9).mpr rfl, ?_⟩
  obtain ⟨-, ⟨e0, e1⟩⟩ := out_index t9_9
  have h0 : (i 0).val < 1 := (i 0).isLt
  have h1 : (i 1).val < 128 := (i 1).isLt
  rw [mem_blk2]
  intro a
  match a with
  | ⟨0, _⟩ => show win9_2.index t9_9 (0 : Fin 2) * 1 ≤ (i 0).val ∧ (i 0).val < win9_2.index t9_9 (0 : Fin 2) * 1 + 1; omega
  | ⟨1, _⟩ => show win9_2.index t9_9 (1 : Fin 2) * 128 ≤ (i 1).val ∧ (i 1).val < win9_2.index t9_9 (1 : Fin 2) * 128 + 128; omega

/-- OUTPUT 1 after the region: at (0, j) the sum of column j of the input array over all 50000 rows (both sides read as
    extended reals; xin V c is the input array V c (Pipeline.arrRef spec9 0) at its literal type). -/
theorem colsum (c : Dev nD) (j : Fin 128) :
    @Eq EReal (((dat9 V c).arrAt 1 cfg9.N) (ix2 0 j)) (∑ r : Fin 50000, xin V c (ix2 r j)) :=
  (congrFun ((dat9 V c).arrAt_eq_of_cover 1 (colSums V c) (flushed1_eq V c) cover1) (ix2 0 j)).trans (colSums_apply V c j)

/-- OUTPUT 2 after the region: at (0, j) the sum of the squares of column j over all 50000 rows. -/
theorem colsumsq (c : Dev nD) (j : Fin 128) :
    @Eq EReal (((dat9 V c).arrAt 2 cfg9.N) (ix2 0 j)) (∑ r : Fin 50000, xin V c (ix2 r j) * xin V c (ix2 r j)) :=
  (congrFun ((dat9 V c).arrAt_eq_of_cover 2 (sqSums V c) (flushed2_eq V c) cover2) (ix2 0 j)).trans (sqSums_apply V c j)

/-- The input array is never written back: it is left as the region found it. -/
theorem kept (c : Dev nD) : (dat9 V c).arrAt 0 cfg9.N = V c (Pipeline.arrRef spec9 0) :=
  ((dat9 V c).arrAt_in 0 rfl cfg9.N).trans (A_eq9 V c 0)

end Cert.KernelIdeal.RegStats9

end
-- ==== Proof.RegMatmul10.lean ====
/- Region 10 of the idealized kernel, read as whole arrays: the batch-normalised rows times the weight matrix.

   The region tiles the 50000 rows of its operand x in 10 blocks of 5000 rows. At each block it forms, with the
   per-column statistics mean, var (one row of 128 entries each) and the 128 x 128 matrix w,
     xn[r, k] = (x[r, k] - mean[0, k]) * rsqrt (var[0, k] + eps) + bnb,
     o[r, j]  = sum over k of xn[r, k] * w[k, j],
   over the extended reals, where narrowing to the 16-bit format is the identity and the matrix unit's product into a
   zero accumulator is the plain sum over the contracted column. Written here: the product's operand indices at an
   output index and a contraction position (one lemma per operand axis), the product read at (r, j), the block's whole
   payload read at (r, j), each operand block read as rows of its array, what the write-back at a grid point holds,
   the cover of the 50000 rows by the blocks (row r lies in block r / 5000), and the output array after the region as a
   function of the four input arrays, which the region leaves as it found them. -/
import proofs.«407945_j8993661518245_1_alg».proof.Proof.FrameKI
import Idealize.ShloMosaic.Lib.Pipeline.Value
import Idealize.ShloMosaic.Lib.Pipeline.Cells
import Idealize.ShloMosaic.Lib.ValueIdx
import Idealize.ShloMosaic.Lib.ValueLayout
import Idealize.ShloMosaic.PureOps.Ideal.Laws

set_option maxRecDepth 16384

noncomputable section

namespace Cert.KernelIdeal.RegMatmul10

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen Cert.KernelIdeal.GenP

/-! ## The matrix product at an output index -/

/-- The left operand's row at output index i is i's row. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction position. -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column at output index i is i's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, at row p and column q: the sum over the 128 contracted positions of the
    left operand's row p times the right operand's column q. -/
theorem matmul_zero_apply {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The block's payload at an index -/

/-- The value the body stores, at row p and column q of the block: the normalised row p of the block of x against
    column q of w. -/
theorem pay_apply (x0 : Vec Ideal S5000x128 .f32) (x1 : Vec Ideal S1x128 .f32) (x2 : Vec Ideal S1x128 .f32) (x3 : Vec Ideal S128x128 .f32)
    (p : Fin 5000) (q : Fin 128) :
    k10_pay1 x0 x1 x2 x3 (ix2 p q)
      = ∑ k : Fin 128, ((x0 (ix2 p k) - x1 (ix2 (0 : Fin 1) k)) * Ideal.rsqrt (x2 (ix2 (0 : Fin 1) k) + Ideal.ofBits .f32 0x3727C5AC#32)
          + Ideal.ofBits .f32 0x38D1B717#32) * x3 (ix2 k q) := by
  unfold k10_pay1
  simp only [shapeCast_self]
  refine (matmul_zero_apply _ _ p q).trans ?_
  refine Finset.sum_congr rfl fun k _ => ?_
  rw [truncf_apply, truncf_apply, addf_apply, mulf_apply, subf_apply, broadcastTo_1b_ab_apply, broadcastTo_1b_ab_apply]
  rfl

/-! ## The region's arrays -/

variable (V : (c : Dev nD) → (b : Ref sig .tc) → Buf (Elt Ideal) ((c : Thread nD τ).loc b))

/-- The four input arrays as the region finds them: x (50000 rows), the column means and variances (one row each), w. -/
abbrev xArr (c : Dev nD) : S50000x128.Idx → EReal := V c (Pipeline.arrRef spec10 0)
abbrev meanArr (c : Dev nD) : S1x128.Idx → EReal := V c (Pipeline.arrRef spec10 1)
abbrev varArr (c : Dev nD) : S1x128.Idx → EReal := V c (Pipeline.arrRef spec10 2)
abbrev wArr (c : Dev nD) : S128x128.Idx → EReal := V c (Pipeline.arrRef spec10 3)

/-- The output array as one function of the input arrays: entry (r, j) is the normalised row r of x against column j of w. -/
def G (x : S50000x128.Idx → EReal) (mean var : S1x128.Idx → EReal) (w : S128x128.Idx → EReal) : S50000x128.Idx → EReal := fun i =>
  ∑ k : Fin 128, ((x (ix2 (i 0) k) - mean (ix2 (0 : Fin 1) k)) * Ideal.rsqrt (var (ix2 (0 : Fin 1) k) + Ideal.ofBits .f32 0x3727C5AC#32)
      + Ideal.ofBits .f32 0x38D1B717#32) * w (ix2 k (i 1))

theorem off_zero : (![0, 0] : Fin 2 → Nat) = fun _ => 0 := funext fun a => by fin_cases a <;> rfl

/-- The index maps over the grid: the blocks of x and of the output are block t of the rows, all columns; the other
    three operands are their whole arrays at every point. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- Row p of x's block at point t is row 5000 t + p of x. -/
theorem blk0_apply (c : Dev nD) (t : Fin cfg10.N) (p : Fin 5000) (k : Fin 128) (r : Fin 50000) (hr : r.val = t.val * 5000 + p.val) :
    (iblk10 V c 0 t : Vec Ideal S5000x128 .f32) (ix2 p k) = xArr V c (ix2 r k) := by
  obtain ⟨e00, e01, -⟩ := idx_facts t
  show xArr V c (((cfg10.win 0).blk t).view.emb (ix2 p k)) = xArr V c (ix2 r k)
  refine congrArg (xArr V c) (funext fun a => Fin.ext ?_)
  match a with
  | ⟨0, _⟩ => show win10_0.index t (0 : Fin 2) * 5000 + 1 * p.val = r.val; omega
  | ⟨1, _⟩ => show win10_0.index t (1 : Fin 2) * 128 + 1 * k.val = k.val; omega

/-- The block of the means at any point is the one row of means. -/
theorem blk1_apply (c : Dev nD) (t : Fin cfg10.N) (k : Fin 128) :
    (iblk10 V c 1 t : Vec Ideal S1x128 .f32) (ix2 (0 : Fin 1) k) = meanArr V c (ix2 (0 : Fin 1) k) := by
  obtain ⟨-, -, e10, e11, -⟩ := idx_facts t
  show meanArr V c (((cfg10.win 1).blk t).view.emb (ix2 (0 : Fin 1) k)) = meanArr V c (ix2 (0 : Fin 1) k)
  refine congrArg (meanArr V c) (funext fun a => Fin.ext ?_)
  match a with
  | ⟨0, _⟩ => show win10_1.index t (0 : Fin 2) * 1 + 1 * 0 = 0; omega
  | ⟨1, _⟩ => show win10_1.index t (1 : Fin 2) * 128 + 1 * k.val = k.val; omega

/-- The block of the variances at any point is the one row of variances. -/
theorem blk2_apply (c : Dev nD) (t : Fin cfg10.N) (k : Fin 128) :
    (iblk10 V c 2 t : Vec Ideal S1x128 .f32) (ix2 (0 : Fin 1) k) = varArr V c (ix2 (0 : Fin 1) k) := by
  obtain ⟨-, -, -, -, e20, e21, -⟩ := idx_facts t
  show varArr V c (((cfg10.win 2).blk t).view.emb (ix2 (0 : Fin 1) k)) = varArr V c (ix2 (0 : Fin 1) k)
  refine congrArg (varArr V c) (funext fun a => Fin.ext ?_)
  match a with
  | ⟨0, _⟩ => show win10_2.index t (0 : Fin 2) * 1 + 1 * 0 = 0; omega
  | ⟨1, _⟩ => show win10_2.index t (1 : Fin 2) * 128 + 1 * k.val = k.val; omega

/-- The block of w at any point is all of w. -/
theorem blk3_apply (c : Dev nD) (t : Fin cfg10.N) (k q : Fin 128) :
    (iblk10 V c 3 t : Vec Ideal S128x128 .f32) (ix2 k q) = wArr V c (ix2 k q) := by
  obtain ⟨-, -, -, -, -, -, e30, e31, -⟩ := idx_facts t
  show wArr V c (((cfg10.win 3).blk t).view.emb (ix2 k q)) = wArr V c (ix2 k q)
  refine congrArg (wArr V c) (funext fun a => Fin.ext ?_)
  match a with
  | ⟨0, _⟩ => show win10_3.index t (0 : Fin 2) * 128 + 1 * k.val = k.val; omega
  | ⟨1, _⟩ => show win10_3.index t (1 : Fin 2) * 128 + 1 * q.val = q.val; omega

/-- What point t writes back is block t of G of the input arrays: rows 5000 t .. 5000 t + 4999. -/
theorem flushed_eq (c : Dev nD) (t : Fin cfg10.N) :
    (dat10 V c).flushed 4 t = ((cfg10.win 4).blk t).view.read (Elt Ideal) (G (xArr V c) (meanArr V c) (varArr V c) (wArr V c)) := by
  show (cfg10.win 4).cut (grid10.coords t) ((dat10 V c).after 4 t) = _
  rw [after10_4]
  unfold out10_4
  rw [View.canon_unit_zero off_zero]
  simp only [View.ld_unit_zero (S := S5000x128) off_zero, View.ld_unit_zero (S := S1x128) off_zero, View.ld_unit_zero (S := S128x128) off_zero]
  obtain ⟨-, -, -, -, -, -, -, -, e40, e41⟩ := idx_facts t
  have ht : t.val < 10 := by have h := t.isLt; have hN : cfg10.N = 10 := N_10; omega
  funext y
  obtain ⟨p, q, rfl⟩ : ∃ (p : Fin 5000) (q : Fin 128), y = ix2 p q := ⟨y 0, y 1, eq_ix2 (n0 := 5000) (n1 := 128) y⟩
  have hp : p.val < 5000 := p.isLt
  have hr : t.val * 5000 + p.val < 50000 := by omega
  have e : ((cfg10.win 4).blk t).view.emb (ix2 p q) = ix2 (⟨t.val * 5000 + p.val, hr⟩ : Fin 50000) q := funext fun a => Fin.ext (by
    match a with
    | ⟨0, _⟩ => show win10_4.index t (0 : Fin 2) * 5000 + 1 * p.val = t.val * 5000 + p.val; omega
    | ⟨1, _⟩ => show win10_4.index t (1 : Fin 2) * 128 + 1 * q.val = q.val; omega)
  show k10_pay1 (iblk10 V c 0 t) (iblk10 V c 1 t) (iblk10 V c 2 t) (iblk10 V c 3 t) (ix2 p q)
    = G (xArr V c) (meanArr V c) (varArr V c) (wArr V c) (((cfg10.win 4).blk t).view.emb (ix2 p q))
  rw [e]
  refine (pay_apply (iblk10 V c 0 t) (iblk10 V c 1 t) (iblk10 V c 2 t) (iblk10 V c 3 t) p q).trans ?_
  unfold G
  refine Finset.sum_congr rfl fun k _ => ?_
  rw [blk0_apply V c t p k ⟨t.val * 5000 + p.val, hr⟩ rfl, blk1_apply V c t k, blk2_apply V c t k, blk3_apply V c t k q]

/-- An index of the output array is in point t's block iff each coordinate is in the block's range on its axis. -/
theorem mem_blk (t : Fin cfg10.N) (i : S50000x128.Idx) :
    i ∈ ((cfg10.win 4).blk t).view.set ↔ ∀ a : Fin 2, win10_4.index t a * S5000x128.size a ≤ (i a).val ∧ (i a).val < win10_4.index t a * S5000x128.size a + S5000x128.size a := by
  show i ∈ ((View.whole (Pipeline.arrRef spec10 4)).slice (win10_4.rect t)).set ↔ _
  rw [View.set_slice_whole, Rect.mem_set_unit]
  exact Iff.rfl

/-- Every index of the output array is written back by some point: row r by point r / 5000. -/
theorem cover (i : S50000x128.Idx) : ∃ t : Fin cfg10.N, (cfg10.win 4).flush t = true ∧ i ∈ ((cfg10.win 4).blk t).view.set := by
  have hi0 : (i 0).val < 50000 := (i 0).isLt
  have hi1 : (i 1).val < 128 := (i 1).isLt
  obtain ⟨t, ht⟩ : ∃ t : Fin cfg10.N, t.val = (i 0).val / 5000 := ⟨⟨(i 0).val / 5000, by have hN : cfg10.N = 10 := N_10; omega⟩, rfl⟩
  obtain ⟨-, -, -, -, -, -, -, -, e40, e41⟩ := idx_facts t
  refine ⟨t, flush10_4 t, ?_⟩
  rw [mem_blk]
  intro a
  match a with
  | ⟨0, _⟩ => show win10_4.index t (0 : Fin 2) * 5000 ≤ (i 0).val ∧ (i 0).val < win10_4.index t (0 : Fin 2) * 5000 + 5000; omega
  | ⟨1, _⟩ => show win10_4.index t (1 : Fin 2) * 128 ≤ (i 1).val ∧ (i 1).val < win10_4.index t (1 : Fin 2) * 128 + 128; omega

/-- The output array after the region is G of the input arrays. -/
theorem out_eq (c : Dev nD) : (dat10 V c).arrAt 4 cfg10.N = G (xArr V c) (meanArr V c) (varArr V c) (wArr V c) :=
  (dat10 V c).arrAt_eq_of_cover 4 (G (xArr V c) (meanArr V c) (varArr V c) (wArr V c)) (fun t _ => flushed_eq V c t) cover

/-- The output array after the region, entry by entry. -/
theorem out_apply (c : Dev nD) (r : Fin 50000) (j : Fin 128) :
    ((dat10 V c).arrAt 4 cfg10.N : S50000x128.Idx → EReal) (ix2 r j)
      = ∑ k : Fin 128, ((xArr V c (ix2 r k) - meanArr V c (ix2 (0 : Fin 1) k)) * Ideal.rsqrt (varArr V c (ix2 (0 : Fin 1) k) + Ideal.ofBits .f32 0x3727C5AC#32)
          + Ideal.ofBits .f32 0x38D1B717#32) * wArr V c (ix2 k j) :=
  congrFun (out_eq V c) (ix2 r j)

/-- The region writes none of its four input arrays. -/
theorem kept0 (c : Dev nD) : (dat10 V c).arrAt 0 cfg10.N = V c (Pipeline.arrRef spec10 0) :=
  ((dat10 V c).arrAt_in 0 rfl cfg10.N).trans (A_eq10 V c 0)
theorem kept1 (c : Dev nD) : (dat10 V c).arrAt 1 cfg10.N = V c (Pipeline.arrRef spec10 1) :=
  ((dat10 V c).arrAt_in 1 rfl cfg10.N).trans (A_eq10 V c 1)
theorem kept2 (c : Dev nD) : (dat10 V c).arrAt 2 cfg10.N = V c (Pipeline.arrRef spec10 2) :=
  ((dat10 V c).arrAt_in 2 rfl cfg10.N).trans (A_eq10 V c 2)
theorem kept3 (c : Dev nD) : (dat10 V c).arrAt 3 cfg10.N = V c (Pipeline.arrRef spec10 3) :=
  ((dat10 V c).arrAt_in 3 rfl cfg10.N).trans (A_eq10 V c 3)

end Cert.KernelIdeal.RegMatmul10

end
-- ==== Proof.StageBnmm3.lean ====
/- The normalize-and-project unit number 3 of the network, in the two programs.
   Kernel: a region leaves the [1,128] rows of column sums of x and of x²; host operations form mean = sum / 50000 and
   var = sumsq / 50000 − mean · mean and take the layer's [128,128] weight out of the stacked weights (a slice and a reshape); a second region
   writes, at row r and column j, ∑ k ((x r k − mean k) · rsqrt (var k + eps) + bias) · w k j.
   Reference: host operations form the column means, the means of the squared deviations, the normalised array and its
   contraction with the weight. The two results agree when x is the same array of real numbers in both programs and the
   weights are equal (on a real column the two spellings of the variance are one value); the result is real when the weight is. -/
import proofs.«407945_j8993661518245_1_alg».proof.Proof.Iface
import proofs.«407945_j8993661518245_1_alg».proof.Proof.KCarry
import proofs.«407945_j8993661518245_1_alg».proof.Proof.RegStats9
import proofs.«407945_j8993661518245_1_alg».proof.Proof.RegMatmul10
import proofs.«407945_j8993661518245_1_alg».proof.Proof.LibBnRead
import proofs.«407945_j8993661518245_1_alg».proof.Proof.LibBnOut
import proofs.«407945_j8993661518245_1_alg».proof.Proof.LibBnmm

noncomputable section

namespace Cert.StageBnmm3

open Idealize.ShloMosaic Idealize.ShloMosaic.ValueIdx Idealize.ShloMosaic.TcCoe Idealize.SL.Sem Idealize.ShloMosaic.StableHlo
open Cert.Iface Cert.LibFinite

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel: the statistics region, the host stretch, the projection region -/

section Kernel

open Cert.KernelIdeal Cert.KernelIdeal.Gen Cert.KernelIdeal.GenP Cert.KernelIdeal.KCarry

/-- x, and the two rows the statistics region leaves, as the kernel program ends with them. -/
abbrev xK : S50000x128.Idx → EReal := Kf m ρ c main_v130
abbrev s0K : S1x128.Idx → EReal := Kf m ρ c main_v131_0
abbrev s1K : S1x128.Idx → EReal := Kf m ρ c main_v131_1
/-- The projection region's output array, likewise. -/
abbrev outK : S50000x128.Idx → EReal := Kf m ρ c main_v140

/-- The statistics region's first output is the row of column sums of x. -/
theorem k_sum (k : Fin 128) :
    s0K m ρ c (ix2 (0 : Fin 1) k) = ∑ r : Fin 50000, xK m ρ c (ix2 r k) := by
  have e : s0K m ρ c = (dat9 (V19 m ρ) c).arrAt 1 cfg9.N := reg9_arr1 m ρ c
  have ex : (V19 m ρ c (Pipeline.arrRef spec9 0) : S50000x128.Idx → EReal) = xK m ρ c := reg9_in0 m ρ c
  rw [e]
  refine (Cert.KernelIdeal.RegStats9.colsum (V19 m ρ) c k).trans ?_
  exact Finset.sum_congr rfl fun r _ => congrFun ex (ix2 r k)

/-- Its second output is the row of column sums of squares. -/
theorem k_sumsq (k : Fin 128) :
    s1K m ρ c (ix2 (0 : Fin 1) k) = ∑ r : Fin 50000, xK m ρ c (ix2 r k) * xK m ρ c (ix2 r k) := by
  have e : s1K m ρ c = (dat9 (V19 m ρ) c).arrAt 2 cfg9.N := reg9_arr2 m ρ c
  have ex : (V19 m ρ c (Pipeline.arrRef spec9 0) : S50000x128.Idx → EReal) = xK m ρ c := reg9_in0 m ρ c
  rw [e]
  refine (Cert.KernelIdeal.RegStats9.colsumsq (V19 m ρ) c k).trans ?_
  exact Finset.sum_congr rfl fun r _ => congrArg₂ (· * ·) (congrFun ex (ix2 r k)) (congrFun ex (ix2 r k))

/-- The host stretch leaves the row of means: the sums divided by 50000. -/
theorem k_mean : (Kf m ρ c main_v133 : S1x128.Idx → EReal) = Cert.LibBnRead.Ker.mean (Kf m ρ c main_v131_0) := by
  have hread : (W21 m ρ c (Proc.devRef .tc main_v133) : S1x128.Idx → EReal) = Cert.LibBnRead.Ker.mean (W20 m ρ c (Proc.devRef .tc main_v131_0)) := by
    show StableHlo.after hostOps10 (W20 m ρ c) (Proc.devRef .tc main_v133) = _
    after_results
    rfl
  exact (carry21 m ρ c main_v133 (by decide)).trans (hread.trans (congrArg Cert.LibBnRead.Ker.mean (carry20 m ρ c main_v131_0 (by decide)).symm))

/-- And the row of variances: the mean of squares minus the squared mean. -/
theorem k_var : (Kf m ρ c main_v137 : S1x128.Idx → EReal) = Cert.LibBnRead.Ker.var (Kf m ρ c main_v131_0) (Kf m ρ c main_v131_1) := by
  have hread : (W21 m ρ c (Proc.devRef .tc main_v137) : S1x128.Idx → EReal)
      = Cert.LibBnRead.Ker.var (W20 m ρ c (Proc.devRef .tc main_v131_0)) (W20 m ρ c (Proc.devRef .tc main_v131_1)) := by
    show StableHlo.after hostOps10 (W20 m ρ c) (Proc.devRef .tc main_v137) = _
    after_results
    rfl
  exact (carry21 m ρ c main_v137 (by decide)).trans (hread.trans (congrArg₂ Cert.LibBnRead.Ker.var
    (carry20 m ρ c main_v131_0 (by decide)).symm (carry20 m ρ c main_v131_1 (by decide)).symm))

/-- The layer's weight: slice 2 of the stacked weights, reshaped to [128,128]. -/
theorem k_w : (Kf m ρ c main_v139 : S128x128.Idx → EReal) = (shapeCast Cert.KernelIdeal.S128x128 (extractStridedSlice Cert.KernelIdeal.S1x128x128 ![2, 0, 0] (Kf m ρ c main_arg2 : Cert.KernelIdeal.S3x128x128.Idx → EReal) Cert.KernelIdeal.Facts₀.slices_S3x128x128_S1x128x128_2_0_0) Cert.KernelIdeal.Facts₀.shapeCasts_S1x128x128_S128x128) := by
  have hread : (W21 m ρ c (Proc.devRef .tc main_v139) : S128x128.Idx → EReal) = (shapeCast Cert.KernelIdeal.S128x128 (extractStridedSlice Cert.KernelIdeal.S1x128x128 ![2, 0, 0] (W20 m ρ c (Proc.devRef .tc main_arg2) : Cert.KernelIdeal.S3x128x128.Idx → EReal) Cert.KernelIdeal.Facts₀.slices_S3x128x128_S1x128x128_2_0_0) Cert.KernelIdeal.Facts₀.shapeCasts_S1x128x128_S128x128) := by
    show StableHlo.after hostOps10 (W20 m ρ c) (Proc.devRef .tc main_v139) = _
    after_results
    rfl
  have h0 : (Kf m ρ c main_v139 : S128x128.Idx → EReal) = W21 m ρ c (Proc.devRef .tc main_v139) := carry21 m ρ c main_v139 (by decide)
  have hc : (W20 m ρ c (Proc.devRef .tc main_arg2) : S3x128x128.Idx → EReal) = Kf m ρ c main_arg2 := (carry20 m ρ c main_arg2 (by decide)).symm
  rw [h0, hread, hc]

/-- The projection region's output, entry by entry, over x and the weight. -/
theorem k_out (r : Fin 50000) (j : Fin 128) :
    outK m ρ c (ix2 r j) = Cert.LibBnmm.kform (Kf m ρ c main_v130) (shapeCast Cert.KernelIdeal.S128x128 (extractStridedSlice Cert.KernelIdeal.S1x128x128 ![2, 0, 0] (Kf m ρ c main_arg2 : Cert.KernelIdeal.S3x128x128.Idx → EReal) Cert.KernelIdeal.Facts₀.slices_S3x128x128_S1x128x128_2_0_0) Cert.KernelIdeal.Facts₀.shapeCasts_S1x128x128_S128x128) r j := by
  have e : outK m ρ c = (dat10 (V21 m ρ) c).arrAt 4 cfg10.N := reg10_arr4 m ρ c
  have e0 : (V21 m ρ c (Pipeline.arrRef spec10 0) : S50000x128.Idx → EReal) = Kf m ρ c main_v130 := reg10_in0 m ρ c
  have e1 : (V21 m ρ c (Pipeline.arrRef spec10 1) : S1x128.Idx → EReal) = Kf m ρ c main_v133 := reg10_in1 m ρ c
  have e2 : (V21 m ρ c (Pipeline.arrRef spec10 2) : S1x128.Idx → EReal) = Kf m ρ c main_v137 := reg10_in2 m ρ c
  have e3 : (V21 m ρ c (Pipeline.arrRef spec10 3) : S128x128.Idx → EReal) = Kf m ρ c main_v139 := reg10_in3 m ρ c
  rw [e, Cert.KernelIdeal.RegMatmul10.out_apply (V21 m ρ) c r j]
  unfold Cert.LibBnmm.kform
  dsimp only [Cert.KernelIdeal.RegMatmul10.xArr, Cert.KernelIdeal.RegMatmul10.meanArr, Cert.KernelIdeal.RegMatmul10.varArr, Cert.KernelIdeal.RegMatmul10.wArr]
  refine Finset.sum_congr rfl fun k _ => ?_
  rw [e0, e1, e2, e3, k_mean m ρ c, k_var m ρ c, Cert.LibBnRead.Ker.mean_apply, Cert.LibBnRead.Ker.var_apply,
    show (Kf m ρ c main_v131_0 : S1x128.Idx → EReal) (ix2 (0 : Fin 1) k) = _ from k_sum m ρ c k,
    show (Kf m ρ c main_v131_1 : S1x128.Idx → EReal) (ix2 (0 : Fin 1) k) = _ from k_sumsq m ρ c k, k_w m ρ c]

end Kernel

/-! ## The reference: the same unit as host operations -/

section Reference

open Cert.ReferenceIdeal Cert.ReferenceIdeal.RefRun

/-- Window 3 leaves in %187 the deviations from the column means. -/
theorem r_v187 : (Rf m' c main_v187 : S50000x128.Idx → EReal) = Cert.LibBnRead.Ref.centred (Rf m' c main_v174) := by
  have h0 : (Rf m' c main_v187 : S50000x128.Idx → EReal) = R4 m' c (Proc.devRef .tc main_v187) := carry4 m' c main_v187 (by decide)
  have hx : (Rf m' c main_v174 : S50000x128.Idx → EReal) = R4 m' c (Proc.devRef .tc main_v174) := carry4 m' c main_v174 (by decide)
  rw [h0, hx]
  show StableHlo.after ops3 (R3 m' c) (Proc.devRef .tc main_v187) = Cert.LibBnRead.Ref.centred (StableHlo.after ops3 (R3 m' c) (Proc.devRef .tc main_v174))
  after_results_simp
  rfl

/-- Window 3 leaves in %190 the reciprocal standard deviations. -/
theorem r_v190 : (Rf m' c main_v190 : S128.Idx → EReal) = Cert.LibBnRead.Ref.rstd (Rf m' c main_v174) := by
  have h0 : (Rf m' c main_v190 : S128.Idx → EReal) = R4 m' c (Proc.devRef .tc main_v190) := carry4 m' c main_v190 (by decide)
  have hx : (Rf m' c main_v174 : S50000x128.Idx → EReal) = R4 m' c (Proc.devRef .tc main_v174) := carry4 m' c main_v174 (by decide)
  rw [h0, hx]
  show StableHlo.after ops3 (R3 m' c) (Proc.devRef .tc main_v190) = Cert.LibBnRead.Ref.rstd (StableHlo.after ops3 (R3 m' c) (Proc.devRef .tc main_v174))
  after_results_simp
  rfl

/-- The reference's result is its chain of operations over x and the weight. -/
theorem r_out : (Rf m' c main_v200 : S50000x128.Idx → EReal) = Cert.LibBnRead.Ref.proj (Rf m' c main_v174) (shapeCast Cert.ReferenceIdeal.S128x128 (extractStridedSlice Cert.ReferenceIdeal.S1x128x128 ![2, 0, 0] (Rf m' c main_arg2 : Cert.ReferenceIdeal.S3x128x128.Idx → EReal) Cert.ReferenceIdeal.Facts₀.slices_S3x128x128_S1x128x128_2_0_0) Cert.ReferenceIdeal.Facts₀.shapeCasts_S1x128x128_S128x128) := by
  have h0 : (Rf m' c main_v200 : S50000x128.Idx → EReal) = R5 m' c (Proc.devRef .tc main_v200) := carry5 m' c main_v200 (by decide)
  have h_v187 : (R4 m' c (Proc.devRef .tc main_v187) : S50000x128.Idx → EReal) = Rf m' c main_v187 := (carry4 m' c main_v187 (by decide)).symm
  have h_v190 : (R4 m' c (Proc.devRef .tc main_v190) : S128.Idx → EReal) = Rf m' c main_v190 := (carry4 m' c main_v190 (by decide)).symm
  have h_a : (R4 m' c (Proc.devRef .tc main_arg2) : S3x128x128.Idx → EReal) = Rf m' c main_arg2 := (carry4 m' c main_arg2 (by decide)).symm
  rw [h0]
  show StableHlo.after ops4 (R4 m' c) (Proc.devRef .tc main_v200) = _
  after_results_simp
  rw [h_v187, h_v190, h_a, r_v187 m' c, r_v190 m' c]
  rfl

end Reference

/-! ## The two results agree -/

theorem t3 (h : Cert.Iface.H2 m ρ m' c)
    (hw : (Kf m ρ c Cert.KernelIdeal.main_arg2 : Cert.KernelIdeal.S3x128x128.Idx → EReal) = Rf m' c Cert.ReferenceIdeal.main_arg2)
    (hwf : AllFin (Kf m ρ c Cert.KernelIdeal.main_arg2 : Cert.KernelIdeal.S3x128x128.Idx → EReal)) : Cert.Iface.T3 m ρ m' c := by
  obtain ⟨hx, hxf⟩ := h
  have hw' : (shapeCast Cert.KernelIdeal.S128x128 (extractStridedSlice Cert.KernelIdeal.S1x128x128 ![2, 0, 0] (Kf m ρ c Cert.KernelIdeal.main_arg2 : Cert.KernelIdeal.S3x128x128.Idx → EReal) Cert.KernelIdeal.Facts₀.slices_S3x128x128_S1x128x128_2_0_0) Cert.KernelIdeal.Facts₀.shapeCasts_S1x128x128_S128x128) = (shapeCast Cert.ReferenceIdeal.S128x128 (extractStridedSlice Cert.ReferenceIdeal.S1x128x128 ![2, 0, 0] (Rf m' c Cert.ReferenceIdeal.main_arg2 : Cert.ReferenceIdeal.S3x128x128.Idx → EReal) Cert.ReferenceIdeal.Facts₀.slices_S3x128x128_S1x128x128_2_0_0) Cert.ReferenceIdeal.Facts₀.shapeCasts_S1x128x128_S128x128) := by
    rw [hw]; try rfl
  exact And.intro (Cert.LibBnmm.stage_eq (k_out m ρ c) (r_out m' c) hx hxf hw')
    (Cert.LibBnmm.stage_fin (k_out m ρ c) hxf (Cert.LibBnRead.forall_shapeCast_slice IsFin _ _ _ _ hwf))

end Cert.StageBnmm3

end
-- ==== Proof.RegStats12.lean ====
/-
  REGION 12: the column statistics of a [50000,128] array.

  The region walks the ten row blocks (5000 rows each) of its input array x. At the first block it clears two [1,128]
  accumulators; at every block it adds to the first the block's column sums and to the second the column sums of the
  block's squares. The accumulators' buffers are written back once, after the last block. Over the extended reals
  addition is commutative and associative with no finiteness assumption and 0 + s = s, so the ten block sums regroup
  into one sum over the 50000 rows (row = 5000·t + q): after the region, for ANY contents V it is entered with,

      output 1 at (0, j) = ∑ r, x (r, j)        output 2 at (0, j) = ∑ r, x (r, j) * x (r, j)

  and the input array is as the region found it.

  The steps. (1) Sums over the rows taken block by block: a function of the rows continued by zero, summed over the
  naturals below 5000·(n+1) (the rows of the first n + 1 blocks). (2) The body's two payloads at an index (0, j): the value carried in plus the block's
  column sum (of the entries, of their squares); the cleared accumulator is 0 there. (3) What each control case of the
  body leaves in an accumulator's buffer is that payload of the block and of what the buffer held. (4) A row block
  read at (q, j) is the array at row 5000·t + q. (5) By induction on the grid point: after point n the accumulators
  hold the sums over the first 5000·(n+1) rows. (6) The one write-back, at the last point, carries the whole [1,128]
  array, so the arrays end holding the sums over all rows.
-/
import proofs.«407945_j8993661518245_1_alg».proof.Proof.FrameKI
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.RegStats12

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! ## (1) Sums over the rows, block by block -/

/-- A function of the 50000 rows, continued by zero past the last row. -/
def ext (f : Fin 50000 → EReal) (r : ℕ) : EReal := if h : r < 50000 then f ⟨r, h⟩ else 0

/-- Summed over all naturals below 50000 it is the sum over the rows. -/
theorem sum_ext_all (f : Fin 50000 → EReal) : ∑ r ∈ Finset.range 50000, ext f r = ∑ r : Fin 50000, f r := by
  rw [Finset.sum_range]
  exact Finset.sum_congr rfl fun r _ => dif_pos r.isLt

/-- One more block of 5000 rows starting at row a: the rows below a + 5000 are the rows below a and the rows a + q. -/
theorem sum_ext_block (f : Fin 50000 → EReal) (a : ℕ) (ha : a + 5000 ≤ 50000) :
    ∑ r ∈ Finset.range (a + 5000), ext f r
      = ∑ r ∈ Finset.range a, ext f r + ∑ q : Fin 5000, f ⟨a + q.val, by have := q.isLt; omega⟩ := by
  refine (Finset.sum_range_add _ _ _).trans ?_
  congr 1
  rw [Finset.sum_range]
  exact Finset.sum_congr rfl fun q _ => dif_pos _

/-- The sum of f over the rows of the first n + 1 blocks. -/
def firstBlocks (f : Fin 50000 → EReal) (n : ℕ) : EReal := ∑ r ∈ Finset.range (5000 * (n + 1)), ext f r

/-- The first block alone. -/
theorem firstBlocks_zero (f : Fin 50000 → EReal) :
    firstBlocks f 0 = ∑ q : Fin 5000, f ⟨5000 * 0 + q.val, by have := q.isLt; omega⟩ := by
  have z : ∑ r ∈ Finset.range (5000 * 0), ext f r = 0 := Finset.sum_range_zero _
  show ∑ r ∈ Finset.range (5000 * 0 + 5000), ext f r = _
  rw [sum_ext_block f (5000 * 0) (by omega), z, zero_add]

/-- One more block. -/
theorem firstBlocks_succ (f : Fin 50000 → EReal) (n : ℕ) (hn : n + 1 < 10) :
    firstBlocks f (n + 1) = firstBlocks f n + ∑ q : Fin 5000, f ⟨5000 * (n + 1) + q.val, by have := q.isLt; omega⟩ := by
  have e : 5000 * (n + 1 + 1) = 5000 * (n + 1) + 5000 := by omega
  unfold firstBlocks
  rw [e]
  exact sum_ext_block f (5000 * (n + 1)) (by omega)

/-- All ten blocks: every row. -/
theorem firstBlocks_last (f : Fin 50000 → EReal) : firstBlocks f 9 = ∑ r : Fin 50000, f r :=
  sum_ext_all f

/-! ## (2) The body's payloads at an index (0, j) -/

/-- A [128] vector viewed [1,128] reads (0, j) at j. -/
theorem addUnit_read (v : FVec Ideal S128 .f32) (h : S128.ShapeCasts S1x128) (j : Fin 128) :
    shapeCast S1x128 v h (ix2 0 j) = v (ix1 j) :=
  (shapeCast_addUnit_apply (n := 1) ![128] v h (ix2 0 j)).trans
    (congrArg v (funext fun a => match a with | ⟨0, _⟩ => rfl))

/-- The sum of a [5000,128] block along its rows, at column j: the index over j with row q inserted is (q, j). -/
theorem reduce_read (x : FVec Ideal S5000x128 .f32) (hr : S5000x128.Reduces [0] S128) (hφ : FKind.Formats .f32)
    (hacc : (0x00000000#32 : BitVec 32) = FKind.add.neutral .f32 hφ) (j : Fin 128) :
    multiReduction .add [0] S128 x 0x00000000#32 hr hφ hacc (ix1 j) = ∑ q : Fin 5000, x (ix2 q j) := by
  refine (Ideal.multiReduction_add_single x 0x00000000#32 hr hφ hacc (ix1 j)).trans ?_
  show ∑ k : Fin 5000, x (hr.lift (ix1 j) k) = _
  refine Finset.sum_congr rfl fun k _ => congrArg x ?_
  funext a; apply Fin.ext
  match a with
  | ⟨0, _⟩ => rfl
  | ⟨1, _⟩ => rfl

/-- The accumulating step at (0, j): what was carried in plus the block's column sum. -/
theorem acc_read (x : FVec Ideal S5000x128 .f32) (acc : FVec Ideal S1x128 .f32) (h1 : S1x128.ShapeCasts S1x128)
    (hr : S5000x128.Reduces [0] S128) (h2 : S128.ShapeCasts S1x128) (hφ : FKind.Formats .f32)
    (hacc : (0x00000000#32 : BitVec 32) = FKind.add.neutral .f32 hφ) (j : Fin 128) :
    addf (shapeCast S1x128 acc h1) (shapeCast S1x128 (multiReduction .add [0] S128 x 0x00000000#32 hr hφ hacc) h2) (ix2 0 j)
      = acc (ix2 0 j) + ∑ q : Fin 5000, x (ix2 q j) := by
  show shapeCast S1x128 acc h1 (ix2 0 j)
    + shapeCast S1x128 (multiReduction .add [0] S128 x 0x00000000#32 hr hφ hacc) h2 (ix2 0 j) = _
  rw [shapeCast_self, addUnit_read, reduce_read]

/-- The loaded block as the two sums read it. -/
abbrev inblk (x : Vec Ideal S5000x128 .f32) : FVec Ideal S5000x128 .f32 := k12_pay3 x
theorem inblk_eq (x : Vec Ideal S5000x128 .f32) : inblk x = x := shapeCast_self x _

/-- The first sum's payload at (0, j). -/
theorem sum_pay_apply (x : Vec Ideal S5000x128 .f32) (acc : Vec Ideal S1x128 .f32) (j : Fin 128) :
    k12_pay4 x acc (ix2 0 j) = acc (ix2 0 j) + ∑ q : Fin 5000, x (ix2 q j) :=
  (acc_read (inblk x) acc _ _ _ _ _ j).trans (by rw [inblk_eq])

/-- The second sum's payload at (0, j): the block's squares summed. -/
theorem sq_pay_apply (x : Vec Ideal S5000x128 .f32) (acc : Vec Ideal S1x128 .f32) (j : Fin 128) :
    k12_pay5 x acc (ix2 0 j) = acc (ix2 0 j) + ∑ q : Fin 5000, x (ix2 q j) * x (ix2 q j) :=
  (acc_read (mulf (inblk x) (inblk x)) acc _ _ _ _ _ j).trans (by rw [inblk_eq]; rfl)

/-- The cleared accumulators are 0 everywhere. -/
theorem clear1_apply (j : Fin 128) : (k12_pay1 (F := Ideal)) (ix2 0 j) = 0 := Ideal.ofBits_zero_f32
theorem clear2_apply (j : Fin 128) : (k12_pay2 (F := Ideal)) (ix2 0 j) = 0 := Ideal.ofBits_zero_f32

/-! ## (3) What each control case leaves in the accumulators' buffers -/

section Pieces

variable {F : FTy → Type} [FloatOps F]

theorem zeroOff : (![0, 0] : Fin 2 → Nat) = fun _ => 0 :=
  funext fun a => match a with | ⟨0, _⟩ => rfl | ⟨1, _⟩ => rfl

/-- A later point: the first accumulator's one store, of the payload of the block and of what the buffer held. -/
theorem later_1 (c : Dev nD) (i : grid12.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond12_0 i) (x : Vec F S5000x128 .f32) (xo1 xo2 : Vec F S1x128 .f32) :
    out12_B_1 c i a1 h1 a2 h2 a3 h3 hc x xo1 xo2 = k12_pay4 x xo1 := by
  unfold out12_B_1
  rw [View.read_writes_eq_canon _ _ _ (cover12_B_1 c i a1 h1 a2 h2 a3 h3 hc x xo1 xo2)]
  unfold kernelRun12_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- A later point: the second accumulator's. -/
theorem later_2 (c : Dev nD) (i : grid12.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond12_0 i) (x : Vec F S5000x128 .f32) (xo1 xo2 : Vec F S1x128 .f32) :
    out12_B_2 c i a1 h1 a2 h2 a3 h3 hc x xo1 xo2 = k12_pay5 x xo2 := by
  unfold out12_B_2
  rw [View.read_writes_eq_canon _ _ _ (cover12_B_2 c i a1 h1 a2 h2 a3 h3 hc x xo1 xo2)]
  unfold kernelRun12_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- The first point: the accumulator is cleared, read back, and the payload of the block and of the cleared value stored. -/
theorem first_1 (c : Dev nD) (i : grid12.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond12_0 i) (x : Vec F S5000x128 .f32) :
    out12_A_1 c i a1 h1 a2 h2 a3 h3 hc x = k12_pay4 x (k12_pay1 (F := F)) := by
  unfold out12_A_1
  rw [View.read_writes_eq_canon _ _ _ (cover12_A_1 c i a1 h1 a2 h2 a3 h3 hc x)]
  unfold kernelRun12_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

/-- The first point: the second accumulator's. -/
theorem first_2 (c : Dev nD) (i : grid12.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond12_0 i) (x : Vec F S5000x128 .f32) :
    out12_A_2 c i a1 h1 a2 h2 a3 h3 hc x = k12_pay5 x (k12_pay2 (F := F)) := by
  unfold out12_A_2
  rw [View.read_writes_eq_canon _ _ _ (cover12_A_2 c i a1 h1 a2 h2 a3 h3 hc x)]
  unfold kernelRun12_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

end Pieces

/-! ## (4) The input array and its row blocks -/

variable (V : (c : Dev nD) → (b : Ref sig .tc) → Buf (Elt Ideal) ((c : Thread nD τ).loc b))

/-- The input array as the region finds it, -/
abbrev xin (c : Dev nD) : S50000x128.Idx → EReal := V c (Pipeline.arrRef spec12 0)
/-- its row block at a grid point, -/
abbrev xblk (c : Dev nD) (t : Fin cfg12.N) : Vec Ideal S5000x128 .f32 := iblk12 V c 0 t
/-- and row q of block t as a row of the array. -/
abbrev row (t : Fin cfg12.N) (q : Fin 5000) : Fin 50000 :=
  ⟨5000 * t.val + q.val, by have := t.isLt; have hN : cfg12.N = 10 := N_12; have := q.isLt; omega⟩

/-- The input window's block index: the point on the row axis, 0 on the column axis. -/
theorem in_index : ∀ t : Fin cfg12.N, win12_0.index t (0 : Fin 2) = t.val ∧ win12_0.index t (1 : Fin 2) = 0 :=
  (by decide +kernel : ∀ t : Fin grid12.N, win12_0.index t (0 : Fin 2) = t.val ∧ win12_0.index t (1 : Fin 2) = 0)

/-- Block t at (q, j) is the array at (5000·t + q, j). -/
theorem xblk_apply (c : Dev nD) (t : Fin cfg12.N) (q : Fin 5000) (j : Fin 128) :
    xblk V c t (ix2 q j) = xin V c (ix2 (row t q) j) := by
  obtain ⟨e0, e1⟩ := in_index t
  show V c (Pipeline.arrRef spec12 0) (((cfg12.win 0).blk t).view.emb (ix2 q j)) = V c (Pipeline.arrRef spec12 0) (ix2 (row t q) j)
  refine congrArg _ ?_
  funext a; apply Fin.ext
  match a with
  | ⟨0, _⟩ => show win12_0.index t (0 : Fin 2) * 5000 + 1 * q.val = 5000 * t.val + q.val; omega
  | ⟨1, _⟩ => show win12_0.index t (1 : Fin 2) * 128 + 1 * j.val = j.val; omega

/-! ## (5) The accumulators after each point -/

/-- Column j of the array, and of its squares, as functions of the row. -/
abbrev colf (c : Dev nD) (j : Fin 128) : Fin 50000 → EReal := fun r => xin V c (ix2 r j)
abbrev sqf (c : Dev nD) (j : Fin 128) : Fin 50000 → EReal := fun r => xin V c (ix2 r j) * xin V c (ix2 r j)

/-- A block's column sum is the column's sum over the block's rows; likewise for the squares. -/
theorem blk_colsum (c : Dev nD) (t : Fin cfg12.N) (j : Fin 128) :
    ∑ q : Fin 5000, xblk V c t (ix2 q j) = ∑ q : Fin 5000, colf V c j (row t q) :=
  Finset.sum_congr rfl fun q _ => xblk_apply V c t q j
theorem blk_sqsum (c : Dev nD) (t : Fin cfg12.N) (j : Fin 128) :
    ∑ q : Fin 5000, xblk V c t (ix2 q j) * xblk V c t (ix2 q j) = ∑ q : Fin 5000, sqf V c j (row t q) :=
  Finset.sum_congr rfl fun q _ => by rw [xblk_apply V c t q j]

/-- After point n the accumulators hold, at (0, j), the sums over the rows of the first n + 1 blocks. -/
theorem outs_eq (c : Dev nD) : ∀ (n : ℕ) (h : n < cfg12.N) (j : Fin 128),
    ((outsAt12 V c n h).1 : S1x128.Idx → EReal) (ix2 0 j) = firstBlocks (colf V c j) n
    ∧ ((outsAt12 V c n h).2 : S1x128.Idx → EReal) (ix2 0 j) = firstBlocks (sqf V c j) n
  | 0, h, j => by
    have hc : cond12_0 (grid12.coords ⟨0, h⟩) := (hcond12_0 ⟨0, h⟩).mpr rfl
    rw [outsAt12_A V c ⟨0, h⟩ rfl]
    dsimp only
    constructor
    · refine (congrFun (first_1 (F := Ideal) c (grid12.coords ⟨0, h⟩) (ms12_0 ⟨0, h⟩) (hs12_0 ⟨0, h⟩) (ms12_1 ⟨0, h⟩) (hs12_1 ⟨0, h⟩)
        (ms12_2 ⟨0, h⟩) (hs12_2 ⟨0, h⟩) hc (xblk V c ⟨0, h⟩)) (ix2 0 j)).trans ?_
      refine (sum_pay_apply (xblk V c ⟨0, h⟩) (k12_pay1 (F := Ideal)) j).trans ?_
      rw [clear1_apply, zero_add, firstBlocks_zero]
      exact blk_colsum V c ⟨0, h⟩ j
    · refine (congrFun (first_2 (F := Ideal) c (grid12.coords ⟨0, h⟩) (ms12_0 ⟨0, h⟩) (hs12_0 ⟨0, h⟩) (ms12_1 ⟨0, h⟩) (hs12_1 ⟨0, h⟩)
        (ms12_2 ⟨0, h⟩) (hs12_2 ⟨0, h⟩) hc (xblk V c ⟨0, h⟩)) (ix2 0 j)).trans ?_
      refine (sq_pay_apply (xblk V c ⟨0, h⟩) (k12_pay2 (F := Ideal)) j).trans ?_
      rw [clear2_apply, zero_add, firstBlocks_zero]
      exact blk_sqsum V c ⟨0, h⟩ j
  | n + 1, h, j => by
    have hN : cfg12.N = 10 := N_12
    have hB : ¬(⟨n + 1, h⟩ : Fin cfg12.N).val % 10 = 0 := by dsimp only; omega
    have hc : ¬cond12_0 (grid12.coords ⟨n + 1, h⟩) := fun hh => hB ((hcond12_0 ⟨n + 1, h⟩).mp hh)
    have ih := outs_eq c n (Nat.lt_of_succ_lt h) j
    rw [outsAt12_B V c ⟨n + 1, h⟩ hB]
    dsimp only
    constructor
    · refine (congrFun (later_1 (F := Ideal) c (grid12.coords ⟨n + 1, h⟩) (ms12_0 ⟨n + 1, h⟩) (hs12_0 ⟨n + 1, h⟩) (ms12_1 ⟨n + 1, h⟩)
        (hs12_1 ⟨n + 1, h⟩) (ms12_2 ⟨n + 1, h⟩) (hs12_2 ⟨n + 1, h⟩) hc (xblk V c ⟨n + 1, h⟩)
        (outsAt12 V c n (Nat.lt_of_succ_lt h)).1 (outsAt12 V c n (Nat.lt_of_succ_lt h)).2) (ix2 0 j)).trans ?_
      refine (sum_pay_apply (xblk V c ⟨n + 1, h⟩) (outsAt12 V c n (Nat.lt_of_succ_lt h)).1 j).trans ?_
      rw [firstBlocks_succ (colf V c j) n (by omega)]
      exact congrArg₂ (· + ·) ih.1 (blk_colsum V c ⟨n + 1, h⟩ j)
    · refine (congrFun (later_2 (F := Ideal) c (grid12.coords ⟨n + 1, h⟩) (ms12_0 ⟨n + 1, h⟩) (hs12_0 ⟨n + 1, h⟩) (ms12_1 ⟨n + 1, h⟩)
        (hs12_1 ⟨n + 1, h⟩) (ms12_2 ⟨n + 1, h⟩) (hs12_2 ⟨n + 1, h⟩) hc (xblk V c ⟨n + 1, h⟩)
        (outsAt12 V c n (Nat.lt_of_succ_lt h)).1 (outsAt12 V c n (Nat.lt_of_succ_lt h)).2) (ix2 0 j)).trans ?_
      refine (sq_pay_apply (xblk V c ⟨n + 1, h⟩) (outsAt12 V c n (Nat.lt_of_succ_lt h)).2 j).trans ?_
      rw [firstBlocks_succ (sqf V c j) n (by omega)]
      exact congrArg₂ (· + ·) ih.2 (blk_sqsum V c ⟨n + 1, h⟩ j)

/-! ## (6) The arrays after the region -/

/-- The column sums, and the column sums of squares, as [1,128] arrays. -/
def colSums (c : Dev nD) : S1x128.Idx → EReal := fun i => ∑ r : Fin 50000, xin V c (ix2 r ⟨(i 1).val, idx2_lt1 i⟩)
def sqSums (c : Dev nD) : S1x128.Idx → EReal :=
  fun i => ∑ r : Fin 50000, xin V c (ix2 r ⟨(i 1).val, idx2_lt1 i⟩) * xin V c (ix2 r ⟨(i 1).val, idx2_lt1 i⟩)

theorem colSums_apply (c : Dev nD) (j : Fin 128) : colSums V c (ix2 0 j) = ∑ r : Fin 50000, xin V c (ix2 r j) := rfl
theorem sqSums_apply (c : Dev nD) (j : Fin 128) :
    sqSums V c (ix2 0 j) = ∑ r : Fin 50000, xin V c (ix2 r j) * xin V c (ix2 r j) := rfl

/-- The accumulators' block index is (0, 0) at every point. -/
theorem out_index : ∀ t : Fin cfg12.N, (win12_1.index t (0 : Fin 2) = 0 ∧ win12_1.index t (1 : Fin 2) = 0)
    ∧ (win12_2.index t (0 : Fin 2) = 0 ∧ win12_2.index t (1 : Fin 2) = 0) :=
  (by decide +kernel : ∀ t : Fin grid12.N, (win12_1.index t (0 : Fin 2) = 0 ∧ win12_1.index t (1 : Fin 2) = 0)
    ∧ (win12_2.index t (0 : Fin 2) = 0 ∧ win12_2.index t (1 : Fin 2) = 0))

/-- An accumulator's buffer is moved whole, and a block of a [1,128] array read through the window reads the array
    at the embedded index. -/
theorem cut1_apply (t : Fin cfg12.N) (X : Vec Ideal S1x128 .f32) (y : ((cfg12.win 1).xblock (grid12.coords t)).Idx) :
    (cfg12.win 1).cut (grid12.coords t) X y = X y := rfl
theorem read1_apply (t : Fin cfg12.N) (G : S1x128.Idx → EReal) (y : ((cfg12.win 1).xblock (grid12.coords t)).Idx) :
    ((cfg12.win 1).blk t).view.read (Elt Ideal) G y = G (((cfg12.win 1).blk t).view.emb y) := rfl
theorem cut2_apply (t : Fin cfg12.N) (X : Vec Ideal S1x128 .f32) (y : ((cfg12.win 2).xblock (grid12.coords t)).Idx) :
    (cfg12.win 2).cut (grid12.coords t) X y = X y := rfl
theorem read2_apply (t : Fin cfg12.N) (G : S1x128.Idx → EReal) (y : ((cfg12.win 2).xblock (grid12.coords t)).Idx) :
    ((cfg12.win 2).blk t).view.read (Elt Ideal) G y = G (((cfg12.win 2).blk t).view.emb y) := rfl

/-- The block of output 1 at any point is the whole array: an index (0, j) of the block is (0, j) of the array. -/
theorem emb1_eq (t : Fin cfg12.N) (j : Fin 128) : ((cfg12.win 1).blk t).view.emb (ix2 0 j) = ix2 0 j := by
  obtain ⟨⟨e0, e1⟩, -⟩ := out_index t
  funext a; apply Fin.ext
  match a with
  | ⟨0, _⟩ => show win12_1.index t (0 : Fin 2) * 1 + 1 * 0 = 0; omega
  | ⟨1, _⟩ => show win12_1.index t (1 : Fin 2) * 128 + 1 * j.val = j.val; omega
theorem emb2_eq (t : Fin cfg12.N) (j : Fin 128) : ((cfg12.win 2).blk t).view.emb (ix2 0 j) = ix2 0 j := by
  obtain ⟨-, ⟨e0, e1⟩⟩ := out_index t
  funext a; apply Fin.ext
  match a with
  | ⟨0, _⟩ => show win12_2.index t (0 : Fin 2) * 1 + 1 * 0 = 0; omega
  | ⟨1, _⟩ => show win12_2.index t (1 : Fin 2) * 128 + 1 * j.val = j.val; omega

/-- So a buffer that agrees with a [1,128] array G at every (0, j) is, moved through the window, G's block. -/
theorem flush1_of_cols (t : Fin cfg12.N) (X : Vec Ideal S1x128 .f32) (G : S1x128.Idx → EReal)
    (h : ∀ j : Fin 128, X (ix2 0 j) = G (ix2 0 j)) :
    (cfg12.win 1).cut (grid12.coords t) X = ((cfg12.win 1).blk t).view.read (Elt Ideal) G := by
  funext y
  rw [cut1_apply, read1_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb1_eq t j).symm)
theorem flush2_of_cols (t : Fin cfg12.N) (X : Vec Ideal S1x128 .f32) (G : S1x128.Idx → EReal)
    (h : ∀ j : Fin 128, X (ix2 0 j) = G (ix2 0 j)) :
    (cfg12.win 2).cut (grid12.coords t) X = ((cfg12.win 2).blk t).view.read (Elt Ideal) G := by
  funext y
  rw [cut2_apply, read2_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb2_eq t j).symm)

/-- What the one write-back of output 1 carries is the column sums (its block is the whole array). -/
theorem flushed1_eq (c : Dev nD) (t : Fin cfg12.N) (hf : (cfg12.win 1).flush t = true) :
    (dat12 V c).flushed 1 t = ((cfg12.win 1).blk t).view.read (Elt Ideal) (colSums V c) := by
  have hN : cfg12.N = 10 := N_12
  have h9 : t.val = 9 := by have := (flush12_1 t).mp hf; have := t.isLt; omega
  show (cfg12.win 1).cut (grid12.coords t) ((dat12 V c).after 1 t) = _
  rw [after12_1]
  refine flush1_of_cols t (outsAt12 V c t.val t.isLt).1 (colSums V c) fun j => ?_
  refine ((outs_eq V c t.val t.isLt j).1).trans ?_
  rw [h9, firstBlocks_last, colSums_apply]

/-- What the one write-back of output 2 carries is the column sums of squares. -/
theorem flushed2_eq (c : Dev nD) (t : Fin cfg12.N) (hf : (cfg12.win 2).flush t = true) :
    (dat12 V c).flushed 2 t = ((cfg12.win 2).blk t).view.read (Elt Ideal) (sqSums V c) := by
  have hN : cfg12.N = 10 := N_12
  have h9 : t.val = 9 := by have := (flush12_2 t).mp hf; have := t.isLt; omega
  show (cfg12.win 2).cut (grid12.coords t) ((dat12 V c).after 2 t) = _
  rw [after12_2]
  refine flush2_of_cols t (outsAt12 V c t.val t.isLt).2 (sqSums V c) fun j => ?_
  refine ((outs_eq V c t.val t.isLt j).2).trans ?_
  rw [h9, firstBlocks_last, sqSums_apply]

/-- An index of a [1,128] array is in the accumulator's block at point t iff each coordinate is in the block's range. -/
theorem mem_blk1 (t : Fin cfg12.N) (i : S1x128.Idx) :
    i ∈ ((cfg12.win 1).blk t).view.set ↔ ∀ a : Fin 2, win12_1.index t a * S1x128.size a ≤ (i a).val ∧ (i a).val < win12_1.index t a * S1x128.size a + S1x128.size a := by
  show i ∈ ((View.whole main_v288_0).slice (win12_1.rect t)).set ↔ _
  rw [View.set_slice_whole, Rect.mem_set_unit]
  exact Iff.rfl
theorem mem_blk2 (t : Fin cfg12.N) (i : S1x128.Idx) :
    i ∈ ((cfg12.win 2).blk t).view.set ↔ ∀ a : Fin 2, win12_2.index t a * S1x128.size a ≤ (i a).val ∧ (i a).val < win12_2.index t a * S1x128.size a + S1x128.size a := by
  show i ∈ ((View.whole main_v288_1).slice (win12_2.rect t)).set ↔ _
  rw [View.set_slice_whole, Rect.mem_set_unit]
  exact Iff.rfl

/-- The last point's block covers the whole [1,128] array. -/
theorem cover1 (i : S1x128.Idx) : ∃ t : Fin cfg12.N, (cfg12.win 1).flush t = true ∧ i ∈ ((cfg12.win 1).blk t).view.set := by
  refine ⟨t12_9, (flush12_1 t12_9).mpr rfl, ?_⟩
  obtain ⟨⟨e0, e1⟩, -⟩ := out_index t12_9
  have h0 : (i 0).val < 1 := (i 0).isLt
  have h1 : (i 1).val < 128 := (i 1).isLt
  rw [mem_blk1]
  intro a
  match a with
  | ⟨0, _⟩ => show win12_1.index t12_9 (0 : Fin 2) * 1 ≤ (i 0).val ∧ (i 0).val < win12_1.index t12_9 (0 : Fin 2) * 1 + 1; omega
  | ⟨1, _⟩ => show win12_1.index t12_9 (1 : Fin 2) * 128 ≤ (i 1).val ∧ (i 1).val < win12_1.index t12_9 (1 : Fin 2) * 128 + 128; omega
theorem cover2 (i : S1x128.Idx) : ∃ t : Fin cfg12.N, (cfg12.win 2).flush t = true ∧ i ∈ ((cfg12.win 2).blk t).view.set := by
  refine ⟨t12_9, (flush12_2 t12_9).mpr rfl, ?_⟩
  obtain ⟨-, ⟨e0, e1⟩⟩ := out_index t12_9
  have h0 : (i 0).val < 1 := (i 0).isLt
  have h1 : (i 1).val < 128 := (i 1).isLt
  rw [mem_blk2]
  intro a
  match a with
  | ⟨0, _⟩ => show win12_2.index t12_9 (0 : Fin 2) * 1 ≤ (i 0).val ∧ (i 0).val < win12_2.index t12_9 (0 : Fin 2) * 1 + 1; omega
  | ⟨1, _⟩ => show win12_2.index t12_9 (1 : Fin 2) * 128 ≤ (i 1).val ∧ (i 1).val < win12_2.index t12_9 (1 : Fin 2) * 128 + 128; omega

/-- OUTPUT 1 after the region: at (0, j) the sum of column j of the input array over all 50000 rows (both sides read as
    extended reals; xin V c is the input array V c (Pipeline.arrRef spec12 0) at its literal type). -/
theorem colsum (c : Dev nD) (j : Fin 128) :
    @Eq EReal (((dat12 V c).arrAt 1 cfg12.N) (ix2 0 j)) (∑ r : Fin 50000, xin V c (ix2 r j)) :=
  (congrFun ((dat12 V c).arrAt_eq_of_cover 1 (colSums V c) (flushed1_eq V c) cover1) (ix2 0 j)).trans (colSums_apply V c j)

/-- OUTPUT 2 after the region: at (0, j) the sum of the squares of column j over all 50000 rows. -/
theorem colsumsq (c : Dev nD) (j : Fin 128) :
    @Eq EReal (((dat12 V c).arrAt 2 cfg12.N) (ix2 0 j)) (∑ r : Fin 50000, xin V c (ix2 r j) * xin V c (ix2 r j)) :=
  (congrFun ((dat12 V c).arrAt_eq_of_cover 2 (sqSums V c) (flushed2_eq V c) cover2) (ix2 0 j)).trans (sqSums_apply V c j)

/-- The input array is never written back: it is left as the region found it. -/
theorem kept (c : Dev nD) : (dat12 V c).arrAt 0 cfg12.N = V c (Pipeline.arrRef spec12 0) :=
  ((dat12 V c).arrAt_in 0 rfl cfg12.N).trans (A_eq12 V c 0)

end Cert.KernelIdeal.RegStats12

end
-- ==== Proof.RegMatmul13.lean ====
/- Region 13 of the idealized kernel, read as whole arrays: the batch-normalised rows times the weight matrix.

   The region tiles the 50000 rows of its operand x in 10 blocks of 5000 rows. At each block it forms, with the
   per-column statistics mean, var (one row of 128 entries each) and the 128 x 128 matrix w,
     xn[r, k] = (x[r, k] - mean[0, k]) * rsqrt (var[0, k] + eps) + bnb,
     o[r, j]  = sum over k of xn[r, k] * w[k, j],
   over the extended reals, where narrowing to the 16-bit format is the identity and the matrix unit's product into a
   zero accumulator is the plain sum over the contracted column. Written here: the product's operand indices at an
   output index and a contraction position (one lemma per operand axis), the product read at (r, j), the block's whole
   payload read at (r, j), each operand block read as rows of its array, what the write-back at a grid point holds,
   the cover of the 50000 rows by the blocks (row r lies in block r / 5000), and the output array after the region as a
   function of the four input arrays, which the region leaves as it found them. -/
import proofs.«407945_j8993661518245_1_alg».proof.Proof.FrameKI
import Idealize.ShloMosaic.Lib.Pipeline.Value
import Idealize.ShloMosaic.Lib.Pipeline.Cells
import Idealize.ShloMosaic.Lib.ValueIdx
import Idealize.ShloMosaic.Lib.ValueLayout
import Idealize.ShloMosaic.PureOps.Ideal.Laws

set_option maxRecDepth 16384

noncomputable section

namespace Cert.KernelIdeal.RegMatmul13

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen Cert.KernelIdeal.GenP

/-! ## The matrix product at an output index -/

/-- The left operand's row at output index i is i's row. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction position. -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column at output index i is i's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, at row p and column q: the sum over the 128 contracted positions of the
    left operand's row p times the right operand's column q. -/
theorem matmul_zero_apply {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The block's payload at an index -/

/-- The value the body stores, at row p and column q of the block: the normalised row p of the block of x against
    column q of w. -/
theorem pay_apply (x0 : Vec Ideal S5000x128 .f32) (x1 : Vec Ideal S1x128 .f32) (x2 : Vec Ideal S1x128 .f32) (x3 : Vec Ideal S128x128 .f32)
    (p : Fin 5000) (q : Fin 128) :
    k13_pay1 x0 x1 x2 x3 (ix2 p q)
      = ∑ k : Fin 128, ((x0 (ix2 p k) - x1 (ix2 (0 : Fin 1) k)) * Ideal.rsqrt (x2 (ix2 (0 : Fin 1) k) + Ideal.ofBits .f32 0x3727C5AC#32)
          + Ideal.ofBits .f32 0x38D1B717#32) * x3 (ix2 k q) := by
  unfold k13_pay1
  simp only [shapeCast_self]
  refine (matmul_zero_apply _ _ p q).trans ?_
  refine Finset.sum_congr rfl fun k _ => ?_
  rw [truncf_apply, truncf_apply, addf_apply, mulf_apply, subf_apply, broadcastTo_1b_ab_apply, broadcastTo_1b_ab_apply]
  rfl

/-! ## The region's arrays -/

variable (V : (c : Dev nD) → (b : Ref sig .tc) → Buf (Elt Ideal) ((c : Thread nD τ).loc b))

/-- The four input arrays as the region finds them: x (50000 rows), the column means and variances (one row each), w. -/
abbrev xArr (c : Dev nD) : S50000x128.Idx → EReal := V c (Pipeline.arrRef spec13 0)
abbrev meanArr (c : Dev nD) : S1x128.Idx → EReal := V c (Pipeline.arrRef spec13 1)
abbrev varArr (c : Dev nD) : S1x128.Idx → EReal := V c (Pipeline.arrRef spec13 2)
abbrev wArr (c : Dev nD) : S128x128.Idx → EReal := V c (Pipeline.arrRef spec13 3)

/-- The output array as one function of the input arrays: entry (r, j) is the normalised row r of x against column j of w. -/
def G (x : S50000x128.Idx → EReal) (mean var : S1x128.Idx → EReal) (w : S128x128.Idx → EReal) : S50000x128.Idx → EReal := fun i =>
  ∑ k : Fin 128, ((x (ix2 (i 0) k) - mean (ix2 (0 : Fin 1) k)) * Ideal.rsqrt (var (ix2 (0 : Fin 1) k) + Ideal.ofBits .f32 0x3727C5AC#32)
      + Ideal.ofBits .f32 0x38D1B717#32) * w (ix2 k (i 1))

theorem off_zero : (![0, 0] : Fin 2 → Nat) = fun _ => 0 := funext fun a => by fin_cases a <;> rfl

/-- The index maps over the grid: the blocks of x and of the output are block t of the rows, all columns; the other
    three operands are their whole arrays at every point. -/
theorem idx_facts : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 :=
  (by decide +kernel : ∀ t : Fin grid13.N, _)

/-- Row p of x's block at point t is row 5000 t + p of x. -/
theorem blk0_apply (c : Dev nD) (t : Fin cfg13.N) (p : Fin 5000) (k : Fin 128) (r : Fin 50000) (hr : r.val = t.val * 5000 + p.val) :
    (iblk13 V c 0 t : Vec Ideal S5000x128 .f32) (ix2 p k) = xArr V c (ix2 r k) := by
  obtain ⟨e00, e01, -⟩ := idx_facts t
  show xArr V c (((cfg13.win 0).blk t).view.emb (ix2 p k)) = xArr V c (ix2 r k)
  refine congrArg (xArr V c) (funext fun a => Fin.ext ?_)
  match a with
  | ⟨0, _⟩ => show win13_0.index t (0 : Fin 2) * 5000 + 1 * p.val = r.val; omega
  | ⟨1, _⟩ => show win13_0.index t (1 : Fin 2) * 128 + 1 * k.val = k.val; omega

/-- The block of the means at any point is the one row of means. -/
theorem blk1_apply (c : Dev nD) (t : Fin cfg13.N) (k : Fin 128) :
    (iblk13 V c 1 t : Vec Ideal S1x128 .f32) (ix2 (0 : Fin 1) k) = meanArr V c (ix2 (0 : Fin 1) k) := by
  obtain ⟨-, -, e10, e11, -⟩ := idx_facts t
  show meanArr V c (((cfg13.win 1).blk t).view.emb (ix2 (0 : Fin 1) k)) = meanArr V c (ix2 (0 : Fin 1) k)
  refine congrArg (meanArr V c) (funext fun a => Fin.ext ?_)
  match a with
  | ⟨0, _⟩ => show win13_1.index t (0 : Fin 2) * 1 + 1 * 0 = 0; omega
  | ⟨1, _⟩ => show win13_1.index t (1 : Fin 2) * 128 + 1 * k.val = k.val; omega

/-- The block of the variances at any point is the one row of variances. -/
theorem blk2_apply (c : Dev nD) (t : Fin cfg13.N) (k : Fin 128) :
    (iblk13 V c 2 t : Vec Ideal S1x128 .f32) (ix2 (0 : Fin 1) k) = varArr V c (ix2 (0 : Fin 1) k) := by
  obtain ⟨-, -, -, -, e20, e21, -⟩ := idx_facts t
  show varArr V c (((cfg13.win 2).blk t).view.emb (ix2 (0 : Fin 1) k)) = varArr V c (ix2 (0 : Fin 1) k)
  refine congrArg (varArr V c) (funext fun a => Fin.ext ?_)
  match a with
  | ⟨0, _⟩ => show win13_2.index t (0 : Fin 2) * 1 + 1 * 0 = 0; omega
  | ⟨1, _⟩ => show win13_2.index t (1 : Fin 2) * 128 + 1 * k.val = k.val; omega

/-- The block of w at any point is all of w. -/
theorem blk3_apply (c : Dev nD) (t : Fin cfg13.N) (k q : Fin 128) :
    (iblk13 V c 3 t : Vec Ideal S128x128 .f32) (ix2 k q) = wArr V c (ix2 k q) := by
  obtain ⟨-, -, -, -, -, -, e30, e31, -⟩ := idx_facts t
  show wArr V c (((cfg13.win 3).blk t).view.emb (ix2 k q)) = wArr V c (ix2 k q)
  refine congrArg (wArr V c) (funext fun a => Fin.ext ?_)
  match a with
  | ⟨0, _⟩ => show win13_3.index t (0 : Fin 2) * 128 + 1 * k.val = k.val; omega
  | ⟨1, _⟩ => show win13_3.index t (1 : Fin 2) * 128 + 1 * q.val = q.val; omega

/-- What point t writes back is block t of G of the input arrays: rows 5000 t .. 5000 t + 4999. -/
theorem flushed_eq (c : Dev nD) (t : Fin cfg13.N) :
    (dat13 V c).flushed 4 t = ((cfg13.win 4).blk t).view.read (Elt Ideal) (G (xArr V c) (meanArr V c) (varArr V c) (wArr V c)) := by
  show (cfg13.win 4).cut (grid13.coords t) ((dat13 V c).after 4 t) = _
  rw [after13_4]
  unfold out13_4
  rw [View.canon_unit_zero off_zero]
  simp only [View.ld_unit_zero (S := S5000x128) off_zero, View.ld_unit_zero (S := S1x128) off_zero, View.ld_unit_zero (S := S128x128) off_zero]
  obtain ⟨-, -, -, -, -, -, -, -, e40, e41⟩ := idx_facts t
  have ht : t.val < 10 := by have h := t.isLt; have hN : cfg13.N = 10 := N_13; omega
  funext y
  obtain ⟨p, q, rfl⟩ : ∃ (p : Fin 5000) (q : Fin 128), y = ix2 p q := ⟨y 0, y 1, eq_ix2 (n0 := 5000) (n1 := 128) y⟩
  have hp : p.val < 5000 := p.isLt
  have hr : t.val * 5000 + p.val < 50000 := by omega
  have e : ((cfg13.win 4).blk t).view.emb (ix2 p q) = ix2 (⟨t.val * 5000 + p.val, hr⟩ : Fin 50000) q := funext fun a => Fin.ext (by
    match a with
    | ⟨0, _⟩ => show win13_4.index t (0 : Fin 2) * 5000 + 1 * p.val = t.val * 5000 + p.val; omega
    | ⟨1, _⟩ => show win13_4.index t (1 : Fin 2) * 128 + 1 * q.val = q.val; omega)
  show k13_pay1 (iblk13 V c 0 t) (iblk13 V c 1 t) (iblk13 V c 2 t) (iblk13 V c 3 t) (ix2 p q)
    = G (xArr V c) (meanArr V c) (varArr V c) (wArr V c) (((cfg13.win 4).blk t).view.emb (ix2 p q))
  rw [e]
  refine (pay_apply (iblk13 V c 0 t) (iblk13 V c 1 t) (iblk13 V c 2 t) (iblk13 V c 3 t) p q).trans ?_
  unfold G
  refine Finset.sum_congr rfl fun k _ => ?_
  rw [blk0_apply V c t p k ⟨t.val * 5000 + p.val, hr⟩ rfl, blk1_apply V c t k, blk2_apply V c t k, blk3_apply V c t k q]

/-- An index of the output array is in point t's block iff each coordinate is in the block's range on its axis. -/
theorem mem_blk (t : Fin cfg13.N) (i : S50000x128.Idx) :
    i ∈ ((cfg13.win 4).blk t).view.set ↔ ∀ a : Fin 2, win13_4.index t a * S5000x128.size a ≤ (i a).val ∧ (i a).val < win13_4.index t a * S5000x128.size a + S5000x128.size a := by
  show i ∈ ((View.whole (Pipeline.arrRef spec13 4)).slice (win13_4.rect t)).set ↔ _
  rw [View.set_slice_whole, Rect.mem_set_unit]
  exact Iff.rfl

/-- Every index of the output array is written back by some point: row r by point r / 5000. -/
theorem cover (i : S50000x128.Idx) : ∃ t : Fin cfg13.N, (cfg13.win 4).flush t = true ∧ i ∈ ((cfg13.win 4).blk t).view.set := by
  have hi0 : (i 0).val < 50000 := (i 0).isLt
  have hi1 : (i 1).val < 128 := (i 1).isLt
  obtain ⟨t, ht⟩ : ∃ t : Fin cfg13.N, t.val = (i 0).val / 5000 := ⟨⟨(i 0).val / 5000, by have hN : cfg13.N = 10 := N_13; omega⟩, rfl⟩
  obtain ⟨-, -, -, -, -, -, -, -, e40, e41⟩ := idx_facts t
  refine ⟨t, flush13_4 t, ?_⟩
  rw [mem_blk]
  intro a
  match a with
  | ⟨0, _⟩ => show win13_4.index t (0 : Fin 2) * 5000 ≤ (i 0).val ∧ (i 0).val < win13_4.index t (0 : Fin 2) * 5000 + 5000; omega
  | ⟨1, _⟩ => show win13_4.index t (1 : Fin 2) * 128 ≤ (i 1).val ∧ (i 1).val < win13_4.index t (1 : Fin 2) * 128 + 128; omega

/-- The output array after the region is G of the input arrays. -/
theorem out_eq (c : Dev nD) : (dat13 V c).arrAt 4 cfg13.N = G (xArr V c) (meanArr V c) (varArr V c) (wArr V c) :=
  (dat13 V c).arrAt_eq_of_cover 4 (G (xArr V c) (meanArr V c) (varArr V c) (wArr V c)) (fun t _ => flushed_eq V c t) cover

/-- The output array after the region, entry by entry. -/
theorem out_apply (c : Dev nD) (r : Fin 50000) (j : Fin 128) :
    ((dat13 V c).arrAt 4 cfg13.N : S50000x128.Idx → EReal) (ix2 r j)
      = ∑ k : Fin 128, ((xArr V c (ix2 r k) - meanArr V c (ix2 (0 : Fin 1) k)) * Ideal.rsqrt (varArr V c (ix2 (0 : Fin 1) k) + Ideal.ofBits .f32 0x3727C5AC#32)
          + Ideal.ofBits .f32 0x38D1B717#32) * wArr V c (ix2 k j) :=
  congrFun (out_eq V c) (ix2 r j)

/-- The region writes none of its four input arrays. -/
theorem kept0 (c : Dev nD) : (dat13 V c).arrAt 0 cfg13.N = V c (Pipeline.arrRef spec13 0) :=
  ((dat13 V c).arrAt_in 0 rfl cfg13.N).trans (A_eq13 V c 0)
theorem kept1 (c : Dev nD) : (dat13 V c).arrAt 1 cfg13.N = V c (Pipeline.arrRef spec13 1) :=
  ((dat13 V c).arrAt_in 1 rfl cfg13.N).trans (A_eq13 V c 1)
theorem kept2 (c : Dev nD) : (dat13 V c).arrAt 2 cfg13.N = V c (Pipeline.arrRef spec13 2) :=
  ((dat13 V c).arrAt_in 2 rfl cfg13.N).trans (A_eq13 V c 2)
theorem kept3 (c : Dev nD) : (dat13 V c).arrAt 3 cfg13.N = V c (Pipeline.arrRef spec13 3) :=
  ((dat13 V c).arrAt_in 3 rfl cfg13.N).trans (A_eq13 V c 3)

end Cert.KernelIdeal.RegMatmul13

end
-- ==== Proof.StageBnmm4.lean ====
/- The normalize-and-project unit number 4 of the network, in the two programs.
   Kernel: a region leaves the [1,128] rows of column sums of x and of x²; host operations form mean = sum / 50000 and
   var = sumsq / 50000 − mean · mean; a second region
   writes, at row r and column j, ∑ k ((x r k − mean k) · rsqrt (var k + eps) + bias) · w k j.
   Reference: host operations form the column means, the means of the squared deviations, the normalised array and its
   contraction with the weight. The two results agree when x is the same array of real numbers in both programs and the
   weights are equal (on a real column the two spellings of the variance are one value). -/
import proofs.«407945_j8993661518245_1_alg».proof.Proof.Iface
import proofs.«407945_j8993661518245_1_alg».proof.Proof.KCarry
import proofs.«407945_j8993661518245_1_alg».proof.Proof.RegStats12
import proofs.«407945_j8993661518245_1_alg».proof.Proof.RegMatmul13
import proofs.«407945_j8993661518245_1_alg».proof.Proof.LibBnRead
import proofs.«407945_j8993661518245_1_alg».proof.Proof.LibBnOut
import proofs.«407945_j8993661518245_1_alg».proof.Proof.LibBnmm

noncomputable section

namespace Cert.StageBnmm4

open Idealize.ShloMosaic Idealize.ShloMosaic.ValueIdx Idealize.ShloMosaic.TcCoe Idealize.SL.Sem Idealize.ShloMosaic.StableHlo
open Cert.Iface Cert.LibFinite

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel: the statistics region, the host stretch, the projection region -/

section Kernel

open Cert.KernelIdeal Cert.KernelIdeal.Gen Cert.KernelIdeal.GenP Cert.KernelIdeal.KCarry

/-- x, and the two rows the statistics region leaves, as the kernel program ends with them. -/
abbrev xK : S50000x128.Idx → EReal := Kf m ρ c main_v287
abbrev s0K : S1x128.Idx → EReal := Kf m ρ c main_v288_0
abbrev s1K : S1x128.Idx → EReal := Kf m ρ c main_v288_1
/-- The projection region's output array, likewise. -/
abbrev outK : S50000x128.Idx → EReal := Kf m ρ c main_v295

/-- The statistics region's first output is the row of column sums of x. -/
theorem k_sum (k : Fin 128) :
    s0K m ρ c (ix2 (0 : Fin 1) k) = ∑ r : Fin 50000, xK m ρ c (ix2 r k) := by
  have e : s0K m ρ c = (dat12 (V29 m ρ) c).arrAt 1 cfg12.N := reg12_arr1 m ρ c
  have ex : (V29 m ρ c (Pipeline.arrRef spec12 0) : S50000x128.Idx → EReal) = xK m ρ c := reg12_in0 m ρ c
  rw [e]
  refine (Cert.KernelIdeal.RegStats12.colsum (V29 m ρ) c k).trans ?_
  exact Finset.sum_congr rfl fun r _ => congrFun ex (ix2 r k)

/-- Its second output is the row of column sums of squares. -/
theorem k_sumsq (k : Fin 128) :
    s1K m ρ c (ix2 (0 : Fin 1) k) = ∑ r : Fin 50000, xK m ρ c (ix2 r k) * xK m ρ c (ix2 r k) := by
  have e : s1K m ρ c = (dat12 (V29 m ρ) c).arrAt 2 cfg12.N := reg12_arr2 m ρ c
  have ex : (V29 m ρ c (Pipeline.arrRef spec12 0) : S50000x128.Idx → EReal) = xK m ρ c := reg12_in0 m ρ c
  rw [e]
  refine (Cert.KernelIdeal.RegStats12.colsumsq (V29 m ρ) c k).trans ?_
  exact Finset.sum_congr rfl fun r _ => congrArg₂ (· * ·) (congrFun ex (ix2 r k)) (congrFun ex (ix2 r k))

/-- The host stretch leaves the row of means: the sums divided by 50000. -/
theorem k_mean : (Kf m ρ c main_v290 : S1x128.Idx → EReal) = Cert.LibBnRead.Ker.mean (Kf m ρ c main_v288_0) := by
  have hread : (W31 m ρ c (Proc.devRef .tc main_v290) : S1x128.Idx → EReal) = Cert.LibBnRead.Ker.mean (W30 m ρ c (Proc.devRef .tc main_v288_0)) := by
    show StableHlo.after hostOps13 (W30 m ρ c) (Proc.devRef .tc main_v290) = _
    after_results
    rfl
  exact (carry31 m ρ c main_v290 (by decide)).trans (hread.trans (congrArg Cert.LibBnRead.Ker.mean (carry30 m ρ c main_v288_0 (by decide)).symm))

/-- And the row of variances: the mean of squares minus the squared mean. -/
theorem k_var : (Kf m ρ c main_v294 : S1x128.Idx → EReal) = Cert.LibBnRead.Ker.var (Kf m ρ c main_v288_0) (Kf m ρ c main_v288_1) := by
  have hread : (W31 m ρ c (Proc.devRef .tc main_v294) : S1x128.Idx → EReal)
      = Cert.LibBnRead.Ker.var (W30 m ρ c (Proc.devRef .tc main_v288_0)) (W30 m ρ c (Proc.devRef .tc main_v288_1)) := by
    show StableHlo.after hostOps13 (W30 m ρ c) (Proc.devRef .tc main_v294) = _
    after_results
    rfl
  exact (carry31 m ρ c main_v294 (by decide)).trans (hread.trans (congrArg₂ Cert.LibBnRead.Ker.var
    (carry30 m ρ c main_v288_0 (by decide)).symm (carry30 m ρ c main_v288_1 (by decide)).symm))

/-- The projection region's output, entry by entry, over x and the weight. -/
theorem k_out (r : Fin 50000) (j : Fin 128) :
    outK m ρ c (ix2 r j) = Cert.LibBnmm.kform (Kf m ρ c main_v287) (Kf m ρ c main_arg8) r j := by
  have e : outK m ρ c = (dat13 (V31 m ρ) c).arrAt 4 cfg13.N := reg13_arr4 m ρ c
  have e0 : (V31 m ρ c (Pipeline.arrRef spec13 0) : S50000x128.Idx → EReal) = Kf m ρ c main_v287 := reg13_in0 m ρ c
  have e1 : (V31 m ρ c (Pipeline.arrRef spec13 1) : S1x128.Idx → EReal) = Kf m ρ c main_v290 := reg13_in1 m ρ c
  have e2 : (V31 m ρ c (Pipeline.arrRef spec13 2) : S1x128.Idx → EReal) = Kf m ρ c main_v294 := reg13_in2 m ρ c
  have e3 : (V31 m ρ c (Pipeline.arrRef spec13 3) : S128x128.Idx → EReal) = Kf m ρ c main_arg8 := reg13_in3 m ρ c
  rw [e, Cert.KernelIdeal.RegMatmul13.out_apply (V31 m ρ) c r j]
  unfold Cert.LibBnmm.kform
  dsimp only [Cert.KernelIdeal.RegMatmul13.xArr, Cert.KernelIdeal.RegMatmul13.meanArr, Cert.KernelIdeal.RegMatmul13.varArr, Cert.KernelIdeal.RegMatmul13.wArr]
  refine Finset.sum_congr rfl fun k _ => ?_
  rw [e0, e1, e2, e3, k_mean m ρ c, k_var m ρ c, Cert.LibBnRead.Ker.mean_apply, Cert.LibBnRead.Ker.var_apply,
    show (Kf m ρ c main_v288_0 : S1x128.Idx → EReal) (ix2 (0 : Fin 1) k) = _ from k_sum m ρ c k,
    show (Kf m ρ c main_v288_1 : S1x128.Idx → EReal) (ix2 (0 : Fin 1) k) = _ from k_sumsq m ρ c k]

end Kernel

/-! ## The reference: the same unit as host operations -/

section Reference

open Cert.ReferenceIdeal Cert.ReferenceIdeal.RefRun

/-- The reference's result is its chain of operations over x and the weight. -/
theorem r_out : (Rf m' c main_v368 : S50000x128.Idx → EReal) = Cert.LibBnRead.Ref.proj (Rf m' c main_v344) (Rf m' c main_arg8) := by
  have h0 : (Rf m' c main_v368 : S50000x128.Idx → EReal) = R8 m' c (Proc.devRef .tc main_v368) := carry8 m' c main_v368 (by decide)
  have hx : (Rf m' c main_v344 : S50000x128.Idx → EReal) = R8 m' c (Proc.devRef .tc main_v344) := carry8 m' c main_v344 (by decide)
  have hw : (Rf m' c main_arg8 : S128x128.Idx → EReal) = R7 m' c (Proc.devRef .tc main_arg8) := carry7 m' c main_arg8 (by decide)
  rw [h0, hx, hw]
  show StableHlo.after ops7 (R7 m' c) (Proc.devRef .tc main_v368) = Cert.LibBnRead.Ref.proj (StableHlo.after ops7 (R7 m' c) (Proc.devRef .tc main_v344)) (R7 m' c (Proc.devRef .tc main_arg8))
  after_results_simp
  rfl

end Reference

/-! ## The two results agree -/

theorem txc (h : Cert.Iface.XcIn m ρ m' c)
    (hw : (Kf m ρ c Cert.KernelIdeal.main_arg8 : Cert.KernelIdeal.S128x128.Idx → EReal) = Rf m' c Cert.ReferenceIdeal.main_arg8) : Cert.Iface.TXc m ρ m' c := by
  obtain ⟨hx, hxf⟩ := h
  exact Cert.LibBnmm.stage_eq (k_out m ρ c) (r_out m' c) hx hxf hw

end Cert.StageBnmm4

end
-- ==== Proof.RegStats15.lean ====
/-
  REGION 15: the column statistics of a [50000,128] array.

  The region walks the ten row blocks (5000 rows each) of its input array x. At the first block it clears two [1,128]
  accumulators; at every block it adds to the first the block's column sums and to the second the column sums of the
  block's squares. The accumulators' buffers are written back once, after the last block. Over the extended reals
  addition is commutative and associative with no finiteness assumption and 0 + s = s, so the ten block sums regroup
  into one sum over the 50000 rows (row = 5000·t + q): after the region, for ANY contents V it is entered with,

      output 1 at (0, j) = ∑ r, x (r, j)        output 2 at (0, j) = ∑ r, x (r, j) * x (r, j)

  and the input array is as the region found it.

  The steps. (1) Sums over the rows taken block by block: a function of the rows continued by zero, summed over the
  naturals below 5000·(n+1) (the rows of the first n + 1 blocks). (2) The body's two payloads at an index (0, j): the value carried in plus the block's
  column sum (of the entries, of their squares); the cleared accumulator is 0 there. (3) What each control case of the
  body leaves in an accumulator's buffer is that payload of the block and of what the buffer held. (4) A row block
  read at (q, j) is the array at row 5000·t + q. (5) By induction on the grid point: after point n the accumulators
  hold the sums over the first 5000·(n+1) rows. (6) The one write-back, at the last point, carries the whole [1,128]
  array, so the arrays end holding the sums over all rows.
-/
import proofs.«407945_j8993661518245_1_alg».proof.Proof.FrameKI
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.RegStats15

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! ## (1) Sums over the rows, block by block -/

/-- A function of the 50000 rows, continued by zero past the last row. -/
def ext (f : Fin 50000 → EReal) (r : ℕ) : EReal := if h : r < 50000 then f ⟨r, h⟩ else 0

/-- Summed over all naturals below 50000 it is the sum over the rows. -/
theorem sum_ext_all (f : Fin 50000 → EReal) : ∑ r ∈ Finset.range 50000, ext f r = ∑ r : Fin 50000, f r := by
  rw [Finset.sum_range]
  exact Finset.sum_congr rfl fun r _ => dif_pos r.isLt

/-- One more block of 5000 rows starting at row a: the rows below a + 5000 are the rows below a and the rows a + q. -/
theorem sum_ext_block (f : Fin 50000 → EReal) (a : ℕ) (ha : a + 5000 ≤ 50000) :
    ∑ r ∈ Finset.range (a + 5000), ext f r
      = ∑ r ∈ Finset.range a, ext f r + ∑ q : Fin 5000, f ⟨a + q.val, by have := q.isLt; omega⟩ := by
  refine (Finset.sum_range_add _ _ _).trans ?_
  congr 1
  rw [Finset.sum_range]
  exact Finset.sum_congr rfl fun q _ => dif_pos _

/-- The sum of f over the rows of the first n + 1 blocks. -/
def firstBlocks (f : Fin 50000 → EReal) (n : ℕ) : EReal := ∑ r ∈ Finset.range (5000 * (n + 1)), ext f r

/-- The first block alone. -/
theorem firstBlocks_zero (f : Fin 50000 → EReal) :
    firstBlocks f 0 = ∑ q : Fin 5000, f ⟨5000 * 0 + q.val, by have := q.isLt; omega⟩ := by
  have z : ∑ r ∈ Finset.range (5000 * 0), ext f r = 0 := Finset.sum_range_zero _
  show ∑ r ∈ Finset.range (5000 * 0 + 5000), ext f r = _
  rw [sum_ext_block f (5000 * 0) (by omega), z, zero_add]

/-- One more block. -/
theorem firstBlocks_succ (f : Fin 50000 → EReal) (n : ℕ) (hn : n + 1 < 10) :
    firstBlocks f (n + 1) = firstBlocks f n + ∑ q : Fin 5000, f ⟨5000 * (n + 1) + q.val, by have := q.isLt; omega⟩ := by
  have e : 5000 * (n + 1 + 1) = 5000 * (n + 1) + 5000 := by omega
  unfold firstBlocks
  rw [e]
  exact sum_ext_block f (5000 * (n + 1)) (by omega)

/-- All ten blocks: every row. -/
theorem firstBlocks_last (f : Fin 50000 → EReal) : firstBlocks f 9 = ∑ r : Fin 50000, f r :=
  sum_ext_all f

/-! ## (2) The body's payloads at an index (0, j) -/

/-- A [128] vector viewed [1,128] reads (0, j) at j. -/
theorem addUnit_read (v : FVec Ideal S128 .f32) (h : S128.ShapeCasts S1x128) (j : Fin 128) :
    shapeCast S1x128 v h (ix2 0 j) = v (ix1 j) :=
  (shapeCast_addUnit_apply (n := 1) ![128] v h (ix2 0 j)).trans
    (congrArg v (funext fun a => match a with | ⟨0, _⟩ => rfl))

/-- The sum of a [5000,128] block along its rows, at column j: the index over j with row q inserted is (q, j). -/
theorem reduce_read (x : FVec Ideal S5000x128 .f32) (hr : S5000x128.Reduces [0] S128) (hφ : FKind.Formats .f32)
    (hacc : (0x00000000#32 : BitVec 32) = FKind.add.neutral .f32 hφ) (j : Fin 128) :
    multiReduction .add [0] S128 x 0x00000000#32 hr hφ hacc (ix1 j) = ∑ q : Fin 5000, x (ix2 q j) := by
  refine (Ideal.multiReduction_add_single x 0x00000000#32 hr hφ hacc (ix1 j)).trans ?_
  show ∑ k : Fin 5000, x (hr.lift (ix1 j) k) = _
  refine Finset.sum_congr rfl fun k _ => congrArg x ?_
  funext a; apply Fin.ext
  match a with
  | ⟨0, _⟩ => rfl
  | ⟨1, _⟩ => rfl

/-- The accumulating step at (0, j): what was carried in plus the block's column sum. -/
theorem acc_read (x : FVec Ideal S5000x128 .f32) (acc : FVec Ideal S1x128 .f32) (h1 : S1x128.ShapeCasts S1x128)
    (hr : S5000x128.Reduces [0] S128) (h2 : S128.ShapeCasts S1x128) (hφ : FKind.Formats .f32)
    (hacc : (0x00000000#32 : BitVec 32) = FKind.add.neutral .f32 hφ) (j : Fin 128) :
    addf (shapeCast S1x128 acc h1) (shapeCast S1x128 (multiReduction .add [0] S128 x 0x00000000#32 hr hφ hacc) h2) (ix2 0 j)
      = acc (ix2 0 j) + ∑ q : Fin 5000, x (ix2 q j) := by
  show shapeCast S1x128 acc h1 (ix2 0 j)
    + shapeCast S1x128 (multiReduction .add [0] S128 x 0x00000000#32 hr hφ hacc) h2 (ix2 0 j) = _
  rw [shapeCast_self, addUnit_read, reduce_read]

/-- The loaded block as the two sums read it. -/
abbrev inblk (x : Vec Ideal S5000x128 .f32) : FVec Ideal S5000x128 .f32 := k15_pay3 x
theorem inblk_eq (x : Vec Ideal S5000x128 .f32) : inblk x = x := shapeCast_self x _

/-- The first sum's payload at (0, j). -/
theorem sum_pay_apply (x : Vec Ideal S5000x128 .f32) (acc : Vec Ideal S1x128 .f32) (j : Fin 128) :
    k15_pay4 x acc (ix2 0 j) = acc (ix2 0 j) + ∑ q : Fin 5000, x (ix2 q j) :=
  (acc_read (inblk x) acc _ _ _ _ _ j).trans (by rw [inblk_eq])

/-- The second sum's payload at (0, j): the block's squares summed. -/
theorem sq_pay_apply (x : Vec Ideal S5000x128 .f32) (acc : Vec Ideal S1x128 .f32) (j : Fin 128) :
    k15_pay5 x acc (ix2 0 j) = acc (ix2 0 j) + ∑ q : Fin 5000, x (ix2 q j) * x (ix2 q j) :=
  (acc_read (mulf (inblk x) (inblk x)) acc _ _ _ _ _ j).trans (by rw [inblk_eq]; rfl)

/-- The cleared accumulators are 0 everywhere. -/
theorem clear1_apply (j : Fin 128) : (k15_pay1 (F := Ideal)) (ix2 0 j) = 0 := Ideal.ofBits_zero_f32
theorem clear2_apply (j : Fin 128) : (k15_pay2 (F := Ideal)) (ix2 0 j) = 0 := Ideal.ofBits_zero_f32

/-! ## (3) What each control case leaves in the accumulators' buffers -/

section Pieces

variable {F : FTy → Type} [FloatOps F]

theorem zeroOff : (![0, 0] : Fin 2 → Nat) = fun _ => 0 :=
  funext fun a => match a with | ⟨0, _⟩ => rfl | ⟨1, _⟩ => rfl

/-- A later point: the first accumulator's one store, of the payload of the block and of what the buffer held. -/
theorem later_1 (c : Dev nD) (i : grid15.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond15_0 i) (x : Vec F S5000x128 .f32) (xo1 xo2 : Vec F S1x128 .f32) :
    out15_B_1 c i a1 h1 a2 h2 a3 h3 hc x xo1 xo2 = k15_pay4 x xo1 := by
  unfold out15_B_1
  rw [View.read_writes_eq_canon _ _ _ (cover15_B_1 c i a1 h1 a2 h2 a3 h3 hc x xo1 xo2)]
  unfold kernelRun15_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- A later point: the second accumulator's. -/
theorem later_2 (c : Dev nD) (i : grid15.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond15_0 i) (x : Vec F S5000x128 .f32) (xo1 xo2 : Vec F S1x128 .f32) :
    out15_B_2 c i a1 h1 a2 h2 a3 h3 hc x xo1 xo2 = k15_pay5 x xo2 := by
  unfold out15_B_2
  rw [View.read_writes_eq_canon _ _ _ (cover15_B_2 c i a1 h1 a2 h2 a3 h3 hc x xo1 xo2)]
  unfold kernelRun15_B
  dsimp only
  sl_unfold_words
  rw [View.canon_unit_zero zeroOff]
  simp only [View.readAt_eq_ld, h1.read_unread, h2.read_unread, h3.read_unread,
    View.ld_unit_zero (S := S5000x128) zeroOff, View.ld_unit_zero (S := S1x128) zeroOff]

/-- The first point: the accumulator is cleared, read back, and the payload of the block and of the cleared value stored. -/
theorem first_1 (c : Dev nD) (i : grid15.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond15_0 i) (x : Vec F S5000x128 .f32) :
    out15_A_1 c i a1 h1 a2 h2 a3 h3 hc x = k15_pay4 x (k15_pay1 (F := F)) := by
  unfold out15_A_1
  rw [View.read_writes_eq_canon _ _ _ (cover15_A_1 c i a1 h1 a2 h2 a3 h3 hc x)]
  unfold kernelRun15_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

/-- The first point: the second accumulator's. -/
theorem first_2 (c : Dev nD) (i : grid15.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond15_0 i) (x : Vec F S5000x128 .f32) :
    out15_A_2 c i a1 h1 a2 h2 a3 h3 hc x = k15_pay5 x (k15_pay2 (F := F)) := by
  unfold out15_A_2
  rw [View.read_writes_eq_canon _ _ _ (cover15_A_2 c i a1 h1 a2 h2 a3 h3 hc x)]
  unfold kernelRun15_A
  dsimp only
  sl_unfold_words
  rw [View.canon_cons_unit_zero (S := S1x128) zeroOff]
  simp only [View.readAt_eq_ld, h1.read_unread, View.readCov_unit_zero (S := S1x128) _ zeroOff,
    View.ld_unit_zero (S := S5000x128) zeroOff, View.ld_unit_zero (S := S1x128) zeroOff]

end Pieces

/-! ## (4) The input array and its row blocks -/

variable (V : (c : Dev nD) → (b : Ref sig .tc) → Buf (Elt Ideal) ((c : Thread nD τ).loc b))

/-- The input array as the region finds it, -/
abbrev xin (c : Dev nD) : S50000x128.Idx → EReal := V c (Pipeline.arrRef spec15 0)
/-- its row block at a grid point, -/
abbrev xblk (c : Dev nD) (t : Fin cfg15.N) : Vec Ideal S5000x128 .f32 := iblk15 V c 0 t
/-- and row q of block t as a row of the array. -/
abbrev row (t : Fin cfg15.N) (q : Fin 5000) : Fin 50000 :=
  ⟨5000 * t.val + q.val, by have := t.isLt; have hN : cfg15.N = 10 := N_15; have := q.isLt; omega⟩

/-- The input window's block index: the point on the row axis, 0 on the column axis. -/
theorem in_index : ∀ t : Fin cfg15.N, win15_0.index t (0 : Fin 2) = t.val ∧ win15_0.index t (1 : Fin 2) = 0 :=
  (by decide +kernel : ∀ t : Fin grid15.N, win15_0.index t (0 : Fin 2) = t.val ∧ win15_0.index t (1 : Fin 2) = 0)

/-- Block t at (q, j) is the array at (5000·t + q, j). -/
theorem xblk_apply (c : Dev nD) (t : Fin cfg15.N) (q : Fin 5000) (j : Fin 128) :
    xblk V c t (ix2 q j) = xin V c (ix2 (row t q) j) := by
  obtain ⟨e0, e1⟩ := in_index t
  show V c (Pipeline.arrRef spec15 0) (((cfg15.win 0).blk t).view.emb (ix2 q j)) = V c (Pipeline.arrRef spec15 0) (ix2 (row t q) j)
  refine congrArg _ ?_
  funext a; apply Fin.ext
  match a with
  | ⟨0, _⟩ => show win15_0.index t (0 : Fin 2) * 5000 + 1 * q.val = 5000 * t.val + q.val; omega
  | ⟨1, _⟩ => show win15_0.index t (1 : Fin 2) * 128 + 1 * j.val = j.val; omega

/-! ## (5) The accumulators after each point -/

/-- Column j of the array, and of its squares, as functions of the row. -/
abbrev colf (c : Dev nD) (j : Fin 128) : Fin 50000 → EReal := fun r => xin V c (ix2 r j)
abbrev sqf (c : Dev nD) (j : Fin 128) : Fin 50000 → EReal := fun r => xin V c (ix2 r j) * xin V c (ix2 r j)

/-- A block's column sum is the column's sum over the block's rows; likewise for the squares. -/
theorem blk_colsum (c : Dev nD) (t : Fin cfg15.N) (j : Fin 128) :
    ∑ q : Fin 5000, xblk V c t (ix2 q j) = ∑ q : Fin 5000, colf V c j (row t q) :=
  Finset.sum_congr rfl fun q _ => xblk_apply V c t q j
theorem blk_sqsum (c : Dev nD) (t : Fin cfg15.N) (j : Fin 128) :
    ∑ q : Fin 5000, xblk V c t (ix2 q j) * xblk V c t (ix2 q j) = ∑ q : Fin 5000, sqf V c j (row t q) :=
  Finset.sum_congr rfl fun q _ => by rw [xblk_apply V c t q j]

/-- After point n the accumulators hold, at (0, j), the sums over the rows of the first n + 1 blocks. -/
theorem outs_eq (c : Dev nD) : ∀ (n : ℕ) (h : n < cfg15.N) (j : Fin 128),
    ((outsAt15 V c n h).1 : S1x128.Idx → EReal) (ix2 0 j) = firstBlocks (colf V c j) n
    ∧ ((outsAt15 V c n h).2 : S1x128.Idx → EReal) (ix2 0 j) = firstBlocks (sqf V c j) n
  | 0, h, j => by
    have hc : cond15_0 (grid15.coords ⟨0, h⟩) := (hcond15_0 ⟨0, h⟩).mpr rfl
    rw [outsAt15_A V c ⟨0, h⟩ rfl]
    dsimp only
    constructor
    · refine (congrFun (first_1 (F := Ideal) c (grid15.coords ⟨0, h⟩) (ms15_0 ⟨0, h⟩) (hs15_0 ⟨0, h⟩) (ms15_1 ⟨0, h⟩) (hs15_1 ⟨0, h⟩)
        (ms15_2 ⟨0, h⟩) (hs15_2 ⟨0, h⟩) hc (xblk V c ⟨0, h⟩)) (ix2 0 j)).trans ?_
      refine (sum_pay_apply (xblk V c ⟨0, h⟩) (k15_pay1 (F := Ideal)) j).trans ?_
      rw [clear1_apply, zero_add, firstBlocks_zero]
      exact blk_colsum V c ⟨0, h⟩ j
    · refine (congrFun (first_2 (F := Ideal) c (grid15.coords ⟨0, h⟩) (ms15_0 ⟨0, h⟩) (hs15_0 ⟨0, h⟩) (ms15_1 ⟨0, h⟩) (hs15_1 ⟨0, h⟩)
        (ms15_2 ⟨0, h⟩) (hs15_2 ⟨0, h⟩) hc (xblk V c ⟨0, h⟩)) (ix2 0 j)).trans ?_
      refine (sq_pay_apply (xblk V c ⟨0, h⟩) (k15_pay2 (F := Ideal)) j).trans ?_
      rw [clear2_apply, zero_add, firstBlocks_zero]
      exact blk_sqsum V c ⟨0, h⟩ j
  | n + 1, h, j => by
    have hN : cfg15.N = 10 := N_15
    have hB : ¬(⟨n + 1, h⟩ : Fin cfg15.N).val % 10 = 0 := by dsimp only; omega
    have hc : ¬cond15_0 (grid15.coords ⟨n + 1, h⟩) := fun hh => hB ((hcond15_0 ⟨n + 1, h⟩).mp hh)
    have ih := outs_eq c n (Nat.lt_of_succ_lt h) j
    rw [outsAt15_B V c ⟨n + 1, h⟩ hB]
    dsimp only
    constructor
    · refine (congrFun (later_1 (F := Ideal) c (grid15.coords ⟨n + 1, h⟩) (ms15_0 ⟨n + 1, h⟩) (hs15_0 ⟨n + 1, h⟩) (ms15_1 ⟨n + 1, h⟩)
        (hs15_1 ⟨n + 1, h⟩) (ms15_2 ⟨n + 1, h⟩) (hs15_2 ⟨n + 1, h⟩) hc (xblk V c ⟨n + 1, h⟩)
        (outsAt15 V c n (Nat.lt_of_succ_lt h)).1 (outsAt15 V c n (Nat.lt_of_succ_lt h)).2) (ix2 0 j)).trans ?_
      refine (sum_pay_apply (xblk V c ⟨n + 1, h⟩) (outsAt15 V c n (Nat.lt_of_succ_lt h)).1 j).trans ?_
      rw [firstBlocks_succ (colf V c j) n (by omega)]
      exact congrArg₂ (· + ·) ih.1 (blk_colsum V c ⟨n + 1, h⟩ j)
    · refine (congrFun (later_2 (F := Ideal) c (grid15.coords ⟨n + 1, h⟩) (ms15_0 ⟨n + 1, h⟩) (hs15_0 ⟨n + 1, h⟩) (ms15_1 ⟨n + 1, h⟩)
        (hs15_1 ⟨n + 1, h⟩) (ms15_2 ⟨n + 1, h⟩) (hs15_2 ⟨n + 1, h⟩) hc (xblk V c ⟨n + 1, h⟩)
        (outsAt15 V c n (Nat.lt_of_succ_lt h)).1 (outsAt15 V c n (Nat.lt_of_succ_lt h)).2) (ix2 0 j)).trans ?_
      refine (sq_pay_apply (xblk V c ⟨n + 1, h⟩) (outsAt15 V c n (Nat.lt_of_succ_lt h)).2 j).trans ?_
      rw [firstBlocks_succ (sqf V c j) n (by omega)]
      exact congrArg₂ (· + ·) ih.2 (blk_sqsum V c ⟨n + 1, h⟩ j)

/-! ## (6) The arrays after the region -/

/-- The column sums, and the column sums of squares, as [1,128] arrays. -/
def colSums (c : Dev nD) : S1x128.Idx → EReal := fun i => ∑ r : Fin 50000, xin V c (ix2 r ⟨(i 1).val, idx2_lt1 i⟩)
def sqSums (c : Dev nD) : S1x128.Idx → EReal :=
  fun i => ∑ r : Fin 50000, xin V c (ix2 r ⟨(i 1).val, idx2_lt1 i⟩) * xin V c (ix2 r ⟨(i 1).val, idx2_lt1 i⟩)

theorem colSums_apply (c : Dev nD) (j : Fin 128) : colSums V c (ix2 0 j) = ∑ r : Fin 50000, xin V c (ix2 r j) := rfl
theorem sqSums_apply (c : Dev nD) (j : Fin 128) :
    sqSums V c (ix2 0 j) = ∑ r : Fin 50000, xin V c (ix2 r j) * xin V c (ix2 r j) := rfl

/-- The accumulators' block index is (0, 0) at every point. -/
theorem out_index : ∀ t : Fin cfg15.N, (win15_1.index t (0 : Fin 2) = 0 ∧ win15_1.index t (1 : Fin 2) = 0)
    ∧ (win15_2.index t (0 : Fin 2) = 0 ∧ win15_2.index t (1 : Fin 2) = 0) :=
  (by decide +kernel : ∀ t : Fin grid15.N, (win15_1.index t (0 : Fin 2) = 0 ∧ win15_1.index t (1 : Fin 2) = 0)
    ∧ (win15_2.index t (0 : Fin 2) = 0 ∧ win15_2.index t (1 : Fin 2) = 0))

/-- An accumulator's buffer is moved whole, and a block of a [1,128] array read through the window reads the array
    at the embedded index. -/
theorem cut1_apply (t : Fin cfg15.N) (X : Vec Ideal S1x128 .f32) (y : ((cfg15.win 1).xblock (grid15.coords t)).Idx) :
    (cfg15.win 1).cut (grid15.coords t) X y = X y := rfl
theorem read1_apply (t : Fin cfg15.N) (G : S1x128.Idx → EReal) (y : ((cfg15.win 1).xblock (grid15.coords t)).Idx) :
    ((cfg15.win 1).blk t).view.read (Elt Ideal) G y = G (((cfg15.win 1).blk t).view.emb y) := rfl
theorem cut2_apply (t : Fin cfg15.N) (X : Vec Ideal S1x128 .f32) (y : ((cfg15.win 2).xblock (grid15.coords t)).Idx) :
    (cfg15.win 2).cut (grid15.coords t) X y = X y := rfl
theorem read2_apply (t : Fin cfg15.N) (G : S1x128.Idx → EReal) (y : ((cfg15.win 2).xblock (grid15.coords t)).Idx) :
    ((cfg15.win 2).blk t).view.read (Elt Ideal) G y = G (((cfg15.win 2).blk t).view.emb y) := rfl

/-- The block of output 1 at any point is the whole array: an index (0, j) of the block is (0, j) of the array. -/
theorem emb1_eq (t : Fin cfg15.N) (j : Fin 128) : ((cfg15.win 1).blk t).view.emb (ix2 0 j) = ix2 0 j := by
  obtain ⟨⟨e0, e1⟩, -⟩ := out_index t
  funext a; apply Fin.ext
  match a with
  | ⟨0, _⟩ => show win15_1.index t (0 : Fin 2) * 1 + 1 * 0 = 0; omega
  | ⟨1, _⟩ => show win15_1.index t (1 : Fin 2) * 128 + 1 * j.val = j.val; omega
theorem emb2_eq (t : Fin cfg15.N) (j : Fin 128) : ((cfg15.win 2).blk t).view.emb (ix2 0 j) = ix2 0 j := by
  obtain ⟨-, ⟨e0, e1⟩⟩ := out_index t
  funext a; apply Fin.ext
  match a with
  | ⟨0, _⟩ => show win15_2.index t (0 : Fin 2) * 1 + 1 * 0 = 0; omega
  | ⟨1, _⟩ => show win15_2.index t (1 : Fin 2) * 128 + 1 * j.val = j.val; omega

/-- So a buffer that agrees with a [1,128] array G at every (0, j) is, moved through the window, G's block. -/
theorem flush1_of_cols (t : Fin cfg15.N) (X : Vec Ideal S1x128 .f32) (G : S1x128.Idx → EReal)
    (h : ∀ j : Fin 128, X (ix2 0 j) = G (ix2 0 j)) :
    (cfg15.win 1).cut (grid15.coords t) X = ((cfg15.win 1).blk t).view.read (Elt Ideal) G := by
  funext y
  rw [cut1_apply, read1_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb1_eq t j).symm)
theorem flush2_of_cols (t : Fin cfg15.N) (X : Vec Ideal S1x128 .f32) (G : S1x128.Idx → EReal)
    (h : ∀ j : Fin 128, X (ix2 0 j) = G (ix2 0 j)) :
    (cfg15.win 2).cut (grid15.coords t) X = ((cfg15.win 2).blk t).view.read (Elt Ideal) G := by
  funext y
  rw [cut2_apply, read2_apply]
  obtain ⟨p, j, rfl⟩ : ∃ (p : Fin 1) (j : Fin 128), y = ix2 p j := ⟨y 0, y 1, eq_ix2 y⟩
  obtain rfl : p = 0 := Subsingleton.elim _ _
  exact (h j).trans (congrArg G (emb2_eq t j).symm)

/-- What the one write-back of output 1 carries is the column sums (its block is the whole array). -/
theorem flushed1_eq (c : Dev nD) (t : Fin cfg15.N) (hf : (cfg15.win 1).flush t = true) :
    (dat15 V c).flushed 1 t = ((cfg15.win 1).blk t).view.read (Elt Ideal) (colSums V c) := by
  have hN : cfg15.N = 10 := N_15
  have h9 : t.val = 9 := by have := (flush15_1 t).mp hf; have := t.isLt; omega
  show (cfg15.win 1).cut (grid15.coords t) ((dat15 V c).after 1 t) = _
  rw [after15_1]
  refine flush1_of_cols t (outsAt15 V c t.val t.isLt).1 (colSums V c) fun j => ?_
  refine ((outs_eq V c t.val t.isLt j).1).trans ?_
  rw [h9, firstBlocks_last, colSums_apply]

/-- What the one write-back of output 2 carries is the column sums of squares. -/
theorem flushed2_eq (c : Dev nD) (t : Fin cfg15.N) (hf : (cfg15.win 2).flush t = true) :
    (dat15 V c).flushed 2 t = ((cfg15.win 2).blk t).view.read (Elt Ideal) (sqSums V c) := by
  have hN : cfg15.N = 10 := N_15
  have h9 : t.val = 9 := by have := (flush15_2 t).mp hf; have := t.isLt; omega
  show (cfg15.win 2).cut (grid15.coords t) ((dat15 V c).after 2 t) = _
  rw [after15_2]
  refine flush2_of_cols t (outsAt15 V c t.val t.isLt).2 (sqSums V c) fun j => ?_
  refine ((outs_eq V c t.val t.isLt j).2).trans ?_
  rw [h9, firstBlocks_last, sqSums_apply]

/-- An index of a [1,128] array is in the accumulator's block at point t iff each coordinate is in the block's range. -/
theorem mem_blk1 (t : Fin cfg15.N) (i : S1x128.Idx) :
    i ∈ ((cfg15.win 1).blk t).view.set ↔ ∀ a : Fin 2, win15_1.index t a * S1x128.size a ≤ (i a).val ∧ (i a).val < win15_1.index t a * S1x128.size a + S1x128.size a := by
  show i ∈ ((View.whole main_v351_0).slice (win15_1.rect t)).set ↔ _
  rw [View.set_slice_whole, Rect.mem_set_unit]
  exact Iff.rfl
theorem mem_blk2 (t : Fin cfg15.N) (i : S1x128.Idx) :
    i ∈ ((cfg15.win 2).blk t).view.set ↔ ∀ a : Fin 2, win15_2.index t a * S1x128.size a ≤ (i a).val ∧ (i a).val < win15_2.index t a * S1x128.size a + S1x128.size a := by
  show i ∈ ((View.whole main_v351_1).slice (win15_2.rect t)).set ↔ _
  rw [View.set_slice_whole, Rect.mem_set_unit]
  exact Iff.rfl

/-- The last point's block covers the whole [1,128] array. -/
theorem cover1 (i : S1x128.Idx) : ∃ t : Fin cfg15.N, (cfg15.win 1).flush t = true ∧ i ∈ ((cfg15.win 1).blk t).view.set := by
  refine ⟨t15_9, (flush15_1 t15_9).mpr rfl, ?_⟩
  obtain ⟨⟨e0, e1⟩, -⟩ := out_index t15_9
  have h0 : (i 0).val < 1 := (i 0).isLt
  have h1 : (i 1).val < 128 := (i 1).isLt
  rw [mem_blk1]
  intro a
  match a with
  | ⟨0, _⟩ => show win15_1.index t15_9 (0 : Fin 2) * 1 ≤ (i 0).val ∧ (i 0).val < win15_1.index t15_9 (0 : Fin 2) * 1 + 1; omega
  | ⟨1, _⟩ => show win15_1.index t15_9 (1 : Fin 2) * 128 ≤ (i 1).val ∧ (i 1).val < win15_1.index t15_9 (1 : Fin 2) * 128 + 128; omega
theorem cover2 (i : S1x128.Idx) : ∃ t : Fin cfg15.N, (cfg15.win 2).flush t = true ∧ i ∈ ((cfg15.win 2).blk t).view.set := by
  refine ⟨t15_9, (flush15_2 t15_9).mpr rfl, ?_⟩
  obtain ⟨-, ⟨e0, e1⟩⟩ := out_index t15_9
  have h0 : (i 0).val < 1 := (i 0).isLt
  have h1 : (i 1).val < 128 := (i 1).isLt
  rw [mem_blk2]
  intro a
  match a with
  | ⟨0, _⟩ => show win15_2.index t15_9 (0 : Fin 2) * 1 ≤ (i 0).val ∧ (i 0).val < win15_2.index t15_9 (0 : Fin 2) * 1 + 1; omega
  | ⟨1, _⟩ => show win15_2.index t15_9 (1 : Fin 2) * 128 ≤ (i 1).val ∧ (i 1).val < win15_2.index t15_9 (1 : Fin 2) * 128 + 128; omega

/-- OUTPUT 1 after the region: at (0, j) the sum of column j of the input array over all 50000 rows (both sides read as
    extended reals; xin V c is the input array V c (Pipeline.arrRef spec15 0) at its literal type). -/
theorem colsum (c : Dev nD) (j : Fin 128) :
    @Eq EReal (((dat15 V c).arrAt 1 cfg15.N) (ix2 0 j)) (∑ r : Fin 50000, xin V c (ix2 r j)) :=
  (congrFun ((dat15 V c).arrAt_eq_of_cover 1 (colSums V c) (flushed1_eq V c) cover1) (ix2 0 j)).trans (colSums_apply V c j)

/-- OUTPUT 2 after the region: at (0, j) the sum of the squares of column j over all 50000 rows. -/
theorem colsumsq (c : Dev nD) (j : Fin 128) :
    @Eq EReal (((dat15 V c).arrAt 2 cfg15.N) (ix2 0 j)) (∑ r : Fin 50000, xin V c (ix2 r j) * xin V c (ix2 r j)) :=
  (congrFun ((dat15 V c).arrAt_eq_of_cover 2 (sqSums V c) (flushed2_eq V c) cover2) (ix2 0 j)).trans (sqSums_apply V c j)

/-- The input array is never written back: it is left as the region found it. -/
theorem kept (c : Dev nD) : (dat15 V c).arrAt 0 cfg15.N = V c (Pipeline.arrRef spec15 0) :=
  ((dat15 V c).arrAt_in 0 rfl cfg15.N).trans (A_eq15 V c 0)

end Cert.KernelIdeal.RegStats15

end
-- ==== Proof.RegMatmul16.lean ====
/- Region 16 of the idealized kernel, read as whole arrays: the batch-normalised rows times the weight matrix.

   The region tiles the 50000 rows of its operand x in 10 blocks of 5000 rows. At each block it forms, with the
   per-column statistics mean, var (one row of 128 entries each) and the 128 x 128 matrix w,
     xn[r, k] = (x[r, k] - mean[0, k]) * rsqrt (var[0, k] + eps) + bnb,
     o[r, j]  = sum over k of xn[r, k] * w[k, j],
   over the extended reals, where narrowing to the 16-bit format is the identity and the matrix unit's product into a
   zero accumulator is the plain sum over the contracted column. Written here: the product's operand indices at an
   output index and a contraction position (one lemma per operand axis), the product read at (r, j), the block's whole
   payload read at (r, j), each operand block read as rows of its array, what the write-back at a grid point holds,
   the cover of the 50000 rows by the blocks (row r lies in block r / 5000), and the output array after the region as a
   function of the four input arrays, which the region leaves as it found them. -/
import proofs.«407945_j8993661518245_1_alg».proof.Proof.FrameKI
import Idealize.ShloMosaic.Lib.Pipeline.Value
import Idealize.ShloMosaic.Lib.Pipeline.Cells
import Idealize.ShloMosaic.Lib.ValueIdx
import Idealize.ShloMosaic.Lib.ValueLayout
import Idealize.ShloMosaic.PureOps.Ideal.Laws

set_option maxRecDepth 16384

noncomputable section

namespace Cert.KernelIdeal.RegMatmul16

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen Cert.KernelIdeal.GenP

/-! ## The matrix product at an output index -/

/-- The left operand's row at output index i is i's row. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction position. -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column at output index i is i's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, at row p and column q: the sum over the 128 contracted positions of the
    left operand's row p times the right operand's column q. -/
theorem matmul_zero_apply {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The block's payload at an index -/

/-- The value the body stores, at row p and column q of the block: the normalised row p of the block of x against
    column q of w. -/
theorem pay_apply (x0 : Vec Ideal S5000x128 .f32) (x1 : Vec Ideal S1x128 .f32) (x2 : Vec Ideal S1x128 .f32) (x3 : Vec Ideal S128x128 .f32)
    (p : Fin 5000) (q : Fin 128) :
    k16_pay1 x0 x1 x2 x3 (ix2 p q)
      = ∑ k : Fin 128, ((x0 (ix2 p k) - x1 (ix2 (0 : Fin 1) k)) * Ideal.rsqrt (x2 (ix2 (0 : Fin 1) k) + Ideal.ofBits .f32 0x3727C5AC#32)
          + Ideal.ofBits .f32 0x38D1B717#32) * x3 (ix2 k q) := by
  unfold k16_pay1
  simp only [shapeCast_self]
  refine (matmul_zero_apply _ _ p q).trans ?_
  refine Finset.sum_congr rfl fun k _ => ?_
  rw [truncf_apply, truncf_apply, addf_apply, mulf_apply, subf_apply, broadcastTo_1b_ab_apply, broadcastTo_1b_ab_apply]
  rfl

/-! ## The region's arrays -/

variable (V : (c : Dev nD) → (b : Ref sig .tc) → Buf (Elt Ideal) ((c : Thread nD τ).loc b))

/-- The four input arrays as the region finds them: x (50000 rows), the column means and variances (one row each), w. -/
abbrev xArr (c : Dev nD) : S50000x128.Idx → EReal := V c (Pipeline.arrRef spec16 0)
abbrev meanArr (c : Dev nD) : S1x128.Idx → EReal := V c (Pipeline.arrRef spec16 1)
abbrev varArr (c : Dev nD) : S1x128.Idx → EReal := V c (Pipeline.arrRef spec16 2)
abbrev wArr (c : Dev nD) : S128x128.Idx → EReal := V c (Pipeline.arrRef spec16 3)

/-- The output array as one function of the input arrays: entry (r, j) is the normalised row r of x against column j of w. -/
def G (x : S50000x128.Idx → EReal) (mean var : S1x128.Idx → EReal) (w : S128x128.Idx → EReal) : S50000x128.Idx → EReal := fun i =>
  ∑ k : Fin 128, ((x (ix2 (i 0) k) - mean (ix2 (0 : Fin 1) k)) * Ideal.rsqrt (var (ix2 (0 : Fin 1) k) + Ideal.ofBits .f32 0x3727C5AC#32)
      + Ideal.ofBits .f32 0x38D1B717#32) * w (ix2 k (i 1))

theorem off_zero : (![0, 0] : Fin 2 → Nat) = fun _ => 0 := funext fun a => by fin_cases a <;> rfl

/-- The index maps over the grid: the blocks of x and of the output are block t of the rows, all columns; the other
    three operands are their whole arrays at every point. -/
theorem idx_facts : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = t.val ∧ win16_4.index t (1 : Fin 2) = 0 :=
  (by decide +kernel : ∀ t : Fin grid16.N, _)

/-- Row p of x's block at point t is row 5000 t + p of x. -/
theorem blk0_apply (c : Dev nD) (t : Fin cfg16.N) (p : Fin 5000) (k : Fin 128) (r : Fin 50000) (hr : r.val = t.val * 5000 + p.val) :
    (iblk16 V c 0 t : Vec Ideal S5000x128 .f32) (ix2 p k) = xArr V c (ix2 r k) := by
  obtain ⟨e00, e01, -⟩ := idx_facts t
  show xArr V c (((cfg16.win 0).blk t).view.emb (ix2 p k)) = xArr V c (ix2 r k)
  refine congrArg (xArr V c) (funext fun a => Fin.ext ?_)
  match a with
  | ⟨0, _⟩ => show win16_0.index t (0 : Fin 2) * 5000 + 1 * p.val = r.val; omega
  | ⟨1, _⟩ => show win16_0.index t (1 : Fin 2) * 128 + 1 * k.val = k.val; omega

/-- The block of the means at any point is the one row of means. -/
theorem blk1_apply (c : Dev nD) (t : Fin cfg16.N) (k : Fin 128) :
    (iblk16 V c 1 t : Vec Ideal S1x128 .f32) (ix2 (0 : Fin 1) k) = meanArr V c (ix2 (0 : Fin 1) k) := by
  obtain ⟨-, -, e10, e11, -⟩ := idx_facts t
  show meanArr V c (((cfg16.win 1).blk t).view.emb (ix2 (0 : Fin 1) k)) = meanArr V c (ix2 (0 : Fin 1) k)
  refine congrArg (meanArr V c) (funext fun a => Fin.ext ?_)
  match a with
  | ⟨0, _⟩ => show win16_1.index t (0 : Fin 2) * 1 + 1 * 0 = 0; omega
  | ⟨1, _⟩ => show win16_1.index t (1 : Fin 2) * 128 + 1 * k.val = k.val; omega

/-- The block of the variances at any point is the one row of variances. -/
theorem blk2_apply (c : Dev nD) (t : Fin cfg16.N) (k : Fin 128) :
    (iblk16 V c 2 t : Vec Ideal S1x128 .f32) (ix2 (0 : Fin 1) k) = varArr V c (ix2 (0 : Fin 1) k) := by
  obtain ⟨-, -, -, -, e20, e21, -⟩ := idx_facts t
  show varArr V c (((cfg16.win 2).blk t).view.emb (ix2 (0 : Fin 1) k)) = varArr V c (ix2 (0 : Fin 1) k)
  refine congrArg (varArr V c) (funext fun a => Fin.ext ?_)
  match a with
  | ⟨0, _⟩ => show win16_2.index t (0 : Fin 2) * 1 + 1 * 0 = 0; omega
  | ⟨1, _⟩ => show win16_2.index t (1 : Fin 2) * 128 + 1 * k.val = k.val; omega

/-- The block of w at any point is all of w. -/
theorem blk3_apply (c : Dev nD) (t : Fin cfg16.N) (k q : Fin 128) :
    (iblk16 V c 3 t : Vec Ideal S128x128 .f32) (ix2 k q) = wArr V c (ix2 k q) := by
  obtain ⟨-, -, -, -, -, -, e30, e31, -⟩ := idx_facts t
  show wArr V c (((cfg16.win 3).blk t).view.emb (ix2 k q)) = wArr V c (ix2 k q)
  refine congrArg (wArr V c) (funext fun a => Fin.ext ?_)
  match a with
  | ⟨0, _⟩ => show win16_3.index t (0 : Fin 2) * 128 + 1 * k.val = k.val; omega
  | ⟨1, _⟩ => show win16_3.index t (1 : Fin 2) * 128 + 1 * q.val = q.val; omega

/-- What point t writes back is block t of G of the input arrays: rows 5000 t .. 5000 t + 4999. -/
theorem flushed_eq (c : Dev nD) (t : Fin cfg16.N) :
    (dat16 V c).flushed 4 t = ((cfg16.win 4).blk t).view.read (Elt Ideal) (G (xArr V c) (meanArr V c) (varArr V c) (wArr V c)) := by
  show (cfg16.win 4).cut (grid16.coords t) ((dat16 V c).after 4 t) = _
  rw [after16_4]
  unfold out16_4
  rw [View.canon_unit_zero off_zero]
  simp only [View.ld_unit_zero (S := S5000x128) off_zero, View.ld_unit_zero (S := S1x128) off_zero, View.ld_unit_zero (S := S128x128) off_zero]
  obtain ⟨-, -, -, -, -, -, -, -, e40, e41⟩ := idx_facts t
  have ht : t.val < 10 := by have h := t.isLt; have hN : cfg16.N = 10 := N_16; omega
  funext y
  obtain ⟨p, q, rfl⟩ : ∃ (p : Fin 5000) (q : Fin 128), y = ix2 p q := ⟨y 0, y 1, eq_ix2 (n0 := 5000) (n1 := 128) y⟩
  have hp : p.val < 5000 := p.isLt
  have hr : t.val * 5000 + p.val < 50000 := by omega
  have e : ((cfg16.win 4).blk t).view.emb (ix2 p q) = ix2 (⟨t.val * 5000 + p.val, hr⟩ : Fin 50000) q := funext fun a => Fin.ext (by
    match a with
    | ⟨0, _⟩ => show win16_4.index t (0 : Fin 2) * 5000 + 1 * p.val = t.val * 5000 + p.val; omega
    | ⟨1, _⟩ => show win16_4.index t (1 : Fin 2) * 128 + 1 * q.val = q.val; omega)
  show k16_pay1 (iblk16 V c 0 t) (iblk16 V c 1 t) (iblk16 V c 2 t) (iblk16 V c 3 t) (ix2 p q)
    = G (xArr V c) (meanArr V c) (varArr V c) (wArr V c) (((cfg16.win 4).blk t).view.emb (ix2 p q))
  rw [e]
  refine (pay_apply (iblk16 V c 0 t) (iblk16 V c 1 t) (iblk16 V c 2 t) (iblk16 V c 3 t) p q).trans ?_
  unfold G
  refine Finset.sum_congr rfl fun k _ => ?_
  rw [blk0_apply V c t p k ⟨t.val * 5000 + p.val, hr⟩ rfl, blk1_apply V c t k, blk2_apply V c t k, blk3_apply V c t k q]

/-- An index of the output array is in point t's block iff each coordinate is in the block's range on its axis. -/
theorem mem_blk (t : Fin cfg16.N) (i : S50000x128.Idx) :
    i ∈ ((cfg16.win 4).blk t).view.set ↔ ∀ a : Fin 2, win16_4.index t a * S5000x128.size a ≤ (i a).val ∧ (i a).val < win16_4.index t a * S5000x128.size a + S5000x128.size a := by
  show i ∈ ((View.whole (Pipeline.arrRef spec16 4)).slice (win16_4.rect t)).set ↔ _
  rw [View.set_slice_whole, Rect.mem_set_unit]
  exact Iff.rfl

/-- Every index of the output array is written back by some point: row r by point r / 5000. -/
theorem cover (i : S50000x128.Idx) : ∃ t : Fin cfg16.N, (cfg16.win 4).flush t = true ∧ i ∈ ((cfg16.win 4).blk t).view.set := by
  have hi0 : (i 0).val < 50000 := (i 0).isLt
  have hi1 : (i 1).val < 128 := (i 1).isLt
  obtain ⟨t, ht⟩ : ∃ t : Fin cfg16.N, t.val = (i 0).val / 5000 := ⟨⟨(i 0).val / 5000, by have hN : cfg16.N = 10 := N_16; omega⟩, rfl⟩
  obtain ⟨-, -, -, -, -, -, -, -, e40, e41⟩ := idx_facts t
  refine ⟨t, flush16_4 t, ?_⟩
  rw [mem_blk]
  intro a
  match a with
  | ⟨0, _⟩ => show win16_4.index t (0 : Fin 2) * 5000 ≤ (i 0).val ∧ (i 0).val < win16_4.index t (0 : Fin 2) * 5000 + 5000; omega
  | ⟨1, _⟩ => show win16_4.index t (1 : Fin 2) * 128 ≤ (i 1).val ∧ (i 1).val < win16_4.index t (1 : Fin 2) * 128 + 128; omega

/-- The output array after the region is G of the input arrays. -/
theorem out_eq (c : Dev nD) : (dat16 V c).arrAt 4 cfg16.N = G (xArr V c) (meanArr V c) (varArr V c) (wArr V c) :=
  (dat16 V c).arrAt_eq_of_cover 4 (G (xArr V c) (meanArr V c) (varArr V c) (wArr V c)) (fun t _ => flushed_eq V c t) cover

/-- The output array after the region, entry by entry. -/
theorem out_apply (c : Dev nD) (r : Fin 50000) (j : Fin 128) :
    ((dat16 V c).arrAt 4 cfg16.N : S50000x128.Idx → EReal) (ix2 r j)
      = ∑ k : Fin 128, ((xArr V c (ix2 r k) - meanArr V c (ix2 (0 : Fin 1) k)) * Ideal.rsqrt (varArr V c (ix2 (0 : Fin 1) k) + Ideal.ofBits .f32 0x3727C5AC#32)
          + Ideal.ofBits .f32 0x38D1B717#32) * wArr V c (ix2 k j) :=
  congrFun (out_eq V c) (ix2 r j)

/-- The region writes none of its four input arrays. -/
theorem kept0 (c : Dev nD) : (dat16 V c).arrAt 0 cfg16.N = V c (Pipeline.arrRef spec16 0) :=
  ((dat16 V c).arrAt_in 0 rfl cfg16.N).trans (A_eq16 V c 0)
theorem kept1 (c : Dev nD) : (dat16 V c).arrAt 1 cfg16.N = V c (Pipeline.arrRef spec16 1) :=
  ((dat16 V c).arrAt_in 1 rfl cfg16.N).trans (A_eq16 V c 1)
theorem kept2 (c : Dev nD) : (dat16 V c).arrAt 2 cfg16.N = V c (Pipeline.arrRef spec16 2) :=
  ((dat16 V c).arrAt_in 2 rfl cfg16.N).trans (A_eq16 V c 2)
theorem kept3 (c : Dev nD) : (dat16 V c).arrAt 3 cfg16.N = V c (Pipeline.arrRef spec16 3) :=
  ((dat16 V c).arrAt_in 3 rfl cfg16.N).trans (A_eq16 V c 3)

end Cert.KernelIdeal.RegMatmul16

end
-- ==== Proof.StageBnmm5.lean ====
/- The normalize-and-project unit number 5 of the network, in the two programs.
   Kernel: a region leaves the [1,128] rows of column sums of x and of x²; host operations form mean = sum / 50000 and
   var = sumsq / 50000 − mean · mean; a second region
   writes, at row r and column j, ∑ k ((x r k − mean k) · rsqrt (var k + eps) + bias) · w k j.
   Reference: host operations form the column means, the means of the squared deviations, the normalised array and its
   contraction with the weight. The two results agree when x is the same array of real numbers in both programs and the
   weights are equal (on a real column the two spellings of the variance are one value). -/
import proofs.«407945_j8993661518245_1_alg».proof.Proof.Iface
import proofs.«407945_j8993661518245_1_alg».proof.Proof.KCarry
import proofs.«407945_j8993661518245_1_alg».proof.Proof.RegStats15
import proofs.«407945_j8993661518245_1_alg».proof.Proof.RegMatmul16
import proofs.«407945_j8993661518245_1_alg».proof.Proof.LibBnRead
import proofs.«407945_j8993661518245_1_alg».proof.Proof.LibBnOut
import proofs.«407945_j8993661518245_1_alg».proof.Proof.LibBnmm

noncomputable section

namespace Cert.StageBnmm5

open Idealize.ShloMosaic Idealize.ShloMosaic.ValueIdx Idealize.ShloMosaic.TcCoe Idealize.SL.Sem Idealize.ShloMosaic.StableHlo
open Cert.Iface Cert.LibFinite

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel: the statistics region, the host stretch, the projection region -/

section Kernel

open Cert.KernelIdeal Cert.KernelIdeal.Gen Cert.KernelIdeal.GenP Cert.KernelIdeal.KCarry

/-- x, and the two rows the statistics region leaves, as the kernel program ends with them. -/
abbrev xK : S50000x128.Idx → EReal := Kf m ρ c main_v350
abbrev s0K : S1x128.Idx → EReal := Kf m ρ c main_v351_0
abbrev s1K : S1x128.Idx → EReal := Kf m ρ c main_v351_1
/-- The projection region's output array, likewise. -/
abbrev outK : S50000x128.Idx → EReal := Kf m ρ c main_v358

/-- The statistics region's first output is the row of column sums of x. -/
theorem k_sum (k : Fin 128) :
    s0K m ρ c (ix2 (0 : Fin 1) k) = ∑ r : Fin 50000, xK m ρ c (ix2 r k) := by
  have e : s0K m ρ c = (dat15 (V37 m ρ) c).arrAt 1 cfg15.N := reg15_arr1 m ρ c
  have ex : (V37 m ρ c (Pipeline.arrRef spec15 0) : S50000x128.Idx → EReal) = xK m ρ c := reg15_in0 m ρ c
  rw [e]
  refine (Cert.KernelIdeal.RegStats15.colsum (V37 m ρ) c k).trans ?_
  exact Finset.sum_congr rfl fun r _ => congrFun ex (ix2 r k)

/-- Its second output is the row of column sums of squares. -/
theorem k_sumsq (k : Fin 128) :
    s1K m ρ c (ix2 (0 : Fin 1) k) = ∑ r : Fin 50000, xK m ρ c (ix2 r k) * xK m ρ c (ix2 r k) := by
  have e : s1K m ρ c = (dat15 (V37 m ρ) c).arrAt 2 cfg15.N := reg15_arr2 m ρ c
  have ex : (V37 m ρ c (Pipeline.arrRef spec15 0) : S50000x128.Idx → EReal) = xK m ρ c := reg15_in0 m ρ c
  rw [e]
  refine (Cert.KernelIdeal.RegStats15.colsumsq (V37 m ρ) c k).trans ?_
  exact Finset.sum_congr rfl fun r _ => congrArg₂ (· * ·) (congrFun ex (ix2 r k)) (congrFun ex (ix2 r k))

/-- The host stretch leaves the row of means: the sums divided by 50000. -/
theorem k_mean : (Kf m ρ c main_v353 : S1x128.Idx → EReal) = Cert.LibBnRead.Ker.mean (Kf m ρ c main_v351_0) := by
  have hread : (W39 m ρ c (Proc.devRef .tc main_v353) : S1x128.Idx → EReal) = Cert.LibBnRead.Ker.mean (W38 m ρ c (Proc.devRef .tc main_v351_0)) := by
    show StableHlo.after hostOps16 (W38 m ρ c) (Proc.devRef .tc main_v353) = _
    after_results
    rfl
  exact (carry39 m ρ c main_v353 (by decide)).trans (hread.trans (congrArg Cert.LibBnRead.Ker.mean (carry38 m ρ c main_v351_0 (by decide)).symm))

/-- And the row of variances: the mean of squares minus the squared mean. -/
theorem k_var : (Kf m ρ c main_v357 : S1x128.Idx → EReal) = Cert.LibBnRead.Ker.var (Kf m ρ c main_v351_0) (Kf m ρ c main_v351_1) := by
  have hread : (W39 m ρ c (Proc.devRef .tc main_v357) : S1x128.Idx → EReal)
      = Cert.LibBnRead.Ker.var (W38 m ρ c (Proc.devRef .tc main_v351_0)) (W38 m ρ c (Proc.devRef .tc main_v351_1)) := by
    show StableHlo.after hostOps16 (W38 m ρ c) (Proc.devRef .tc main_v357) = _
    after_results
    rfl
  exact (carry39 m ρ c main_v357 (by decide)).trans (hread.trans (congrArg₂ Cert.LibBnRead.Ker.var
    (carry38 m ρ c main_v351_0 (by decide)).symm (carry38 m ρ c main_v351_1 (by decide)).symm))

/-- The projection region's output, entry by entry, over x and the weight. -/
theorem k_out (r : Fin 50000) (j : Fin 128) :
    outK m ρ c (ix2 r j) = Cert.LibBnmm.kform (Kf m ρ c main_v350) (Kf m ρ c main_arg10) r j := by
  have e : outK m ρ c = (dat16 (V39 m ρ) c).arrAt 4 cfg16.N := reg16_arr4 m ρ c
  have e0 : (V39 m ρ c (Pipeline.arrRef spec16 0) : S50000x128.Idx → EReal) = Kf m ρ c main_v350 := reg16_in0 m ρ c
  have e1 : (V39 m ρ c (Pipeline.arrRef spec16 1) : S1x128.Idx → EReal) = Kf m ρ c main_v353 := reg16_in1 m ρ c
  have e2 : (V39 m ρ c (Pipeline.arrRef spec16 2) : S1x128.Idx → EReal) = Kf m ρ c main_v357 := reg16_in2 m ρ c
  have e3 : (V39 m ρ c (Pipeline.arrRef spec16 3) : S128x128.Idx → EReal) = Kf m ρ c main_arg10 := reg16_in3 m ρ c
  rw [e, Cert.KernelIdeal.RegMatmul16.out_apply (V39 m ρ) c r j]
  unfold Cert.LibBnmm.kform
  dsimp only [Cert.KernelIdeal.RegMatmul16.xArr, Cert.KernelIdeal.RegMatmul16.meanArr, Cert.KernelIdeal.RegMatmul16.varArr, Cert.KernelIdeal.RegMatmul16.wArr]
  refine Finset.sum_congr rfl fun k _ => ?_
  rw [e0, e1, e2, e3, k_mean m ρ c, k_var m ρ c, Cert.LibBnRead.Ker.mean_apply, Cert.LibBnRead.Ker.var_apply,
    show (Kf m ρ c main_v351_0 : S1x128.Idx → EReal) (ix2 (0 : Fin 1) k) = _ from k_sum m ρ c k,
    show (Kf m ρ c main_v351_1 : S1x128.Idx → EReal) (ix2 (0 : Fin 1) k) = _ from k_sumsq m ρ c k]

end Kernel

/-! ## The reference: the same unit as host operations -/

section Reference

open Cert.ReferenceIdeal Cert.ReferenceIdeal.RefRun

/-- Window 8 leaves in %426 the column means. -/
theorem r_v426 : (Rf m' c main_v426 : S128.Idx → EReal) = Cert.LibBnRead.Ref.mean (Rf m' c main_v423) := by
  have h0 : (Rf m' c main_v426 : S128.Idx → EReal) = R9 m' c (Proc.devRef .tc main_v426) := carry9 m' c main_v426 (by decide)
  have hx : (Rf m' c main_v423 : S50000x128.Idx → EReal) = R9 m' c (Proc.devRef .tc main_v423) := carry9 m' c main_v423 (by decide)
  rw [h0, hx]
  show StableHlo.after ops8 (R8 m' c) (Proc.devRef .tc main_v426) = Cert.LibBnRead.Ref.mean (StableHlo.after ops8 (R8 m' c) (Proc.devRef .tc main_v423))
  after_results_simp
  rfl

/-- Window 8 leaves in %431 the column sums of the squared deviations. -/
theorem r_v431 : (Rf m' c main_v431 : S128.Idx → EReal) = Cert.LibBnRead.Ref.sqsum (Rf m' c main_v423) := by
  have h0 : (Rf m' c main_v431 : S128.Idx → EReal) = R9 m' c (Proc.devRef .tc main_v431) := carry9 m' c main_v431 (by decide)
  have hx : (Rf m' c main_v423 : S50000x128.Idx → EReal) = R9 m' c (Proc.devRef .tc main_v423) := carry9 m' c main_v423 (by decide)
  rw [h0, hx]
  show StableHlo.after ops8 (R8 m' c) (Proc.devRef .tc main_v431) = Cert.LibBnRead.Ref.sqsum (StableHlo.after ops8 (R8 m' c) (Proc.devRef .tc main_v423))
  after_results_simp
  rfl

/-- The reference's result is its chain of operations over x and the weight. -/
theorem r_out : (Rf m' c main_v447 : S50000x128.Idx → EReal) = Cert.LibBnRead.Ref.proj (Rf m' c main_v423) (Rf m' c main_arg10) := by
  have h0 : (Rf m' c main_v447 : S50000x128.Idx → EReal) = R10 m' c (Proc.devRef .tc main_v447) := carry10 m' c main_v447 (by decide)
  have h_v426 : (R9 m' c (Proc.devRef .tc main_v426) : S128.Idx → EReal) = Rf m' c main_v426 := (carry9 m' c main_v426 (by decide)).symm
  have h_v431 : (R9 m' c (Proc.devRef .tc main_v431) : S128.Idx → EReal) = Rf m' c main_v431 := (carry9 m' c main_v431 (by decide)).symm
  have h_x : (R9 m' c (Proc.devRef .tc main_v423) : S50000x128.Idx → EReal) = Rf m' c main_v423 := (carry9 m' c main_v423 (by decide)).symm
  have h_w : (R9 m' c (Proc.devRef .tc main_arg10) : S128x128.Idx → EReal) = Rf m' c main_arg10 := (carry9 m' c main_arg10 (by decide)).symm
  rw [h0]
  show StableHlo.after ops9 (R9 m' c) (Proc.devRef .tc main_v447) = _
  after_results_simp
  rw [h_v426, h_v431, h_x, h_w, r_v426 m' c, r_v431 m' c]
  rfl

end Reference

/-! ## The two results agree -/

theorem txo (h : Cert.Iface.XoIn m ρ m' c)
    (hw : (Kf m ρ c Cert.KernelIdeal.main_arg10 : Cert.KernelIdeal.S128x128.Idx → EReal) = Rf m' c Cert.ReferenceIdeal.main_arg10) : Cert.Iface.TXo m ρ m' c := by
  obtain ⟨hx, hxf⟩ := h
  exact Cert.LibBnmm.stage_eq (k_out m ρ c) (r_out m' c) hx hxf hw

end Cert.StageBnmm5

end
-- ==== Proof.LibAgg.lean ====
/- The graph aggregation both programs spell, as ONE function of its inputs. With self-loops added to the edge list
   (row = src ++ [0..N), col = dst ++ [0..N), weights = ew ++ ones) the degree of node n is the sum of the weights of the
   entries whose row is n; dis = rsqrt(where(deg > 0, deg, 1)) * [deg > 0]; an entry's coefficient is
   dis[row] * weight * dis[col]; and the result's row n is the sum over the entries whose col is n of the coefficient
   times t's row at the entry's row. Negative indices are wrapped by N before a gather, a gather clamps, a scatter drops
   what lands outside: the function is total in the integer inputs, whatever they are.

   The function is stated over arbitrary shapes, broadcast facts and dimension numbers (`Spec`), so that the two
   programs' aggregations, at width 128 and at width 2, with unit weights or with given ones, are all instances of
   it; and its one property used downstream, that a result computed from real weights and a real t has only real
   entries, is proved once, from closure facts that need no index arithmetic: a broadcast, a concatenation and a gather
   only READ their operand, the accumulating scatter into real entries adds finitely many real updates, and the
   reciprocal square root is taken of a positive real. -/
import Idealize.ShloMosaic.PureOps.Ideal
import Idealize.ShloMosaic.PureOps.Ideal.Laws
import Idealize.ShloMosaic.Lib.ValueIdx
import Idealize.ShloMosaic.Lib.StableHlo.Run
import Idealize.ShloMosaic.Lib.Pipeline.Frame
import proofs.«407945_j8993661518245_1_alg».proof.Proof.LibFinite
import proofs.«407945_j8993661518245_1_alg».proof.Proof.LibConsts

noncomputable section

namespace Cert.LibAgg

open Idealize.ShloMosaic
open Cert.LibFinite
open scoped BigOperators

/-! ## Reading a fold of host operations stage by stage -/

/-- Rewrites what a one-pass reading leaves unread: an operation's result at its own buffer, or at another one,
    under the operand list of a concatenation. -/
macro "results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide))))

section Fold

open Idealize.ShloMosaic.StableHlo Idealize.SL.Sem

variable {τ : Topo} {sig : RefSig} {Val : EltTy → Type}

/-- The fold through a list of operations is the fold through its tail from position `k`, started from the fold
    through its first `k` operations. -/
theorem after_split (k : ℕ) (l : List (HloOp τ sig Val)) (V : Valuation τ sig Val) :
    after l V = after (l.drop k) (after (l.take k) V) := by
  rw [← after_append, List.take_append_drop]

/-- The fold cut into a head of `s` operations, three consecutive stages of `a`, `b` and `c` operations, and the rest. -/
theorem after_cut (s a b c : ℕ) (l : List (HloOp τ sig Val)) (V : Valuation τ sig Val) :
    after l V = after ((((l.drop s).drop a).drop b).drop c) (after ((((l.drop s).drop a).drop b).take c)
      (after (((l.drop s).drop a).take b) (after ((l.drop s).take a) (after (l.take s) V)))) := by
  rw [← after_split c, ← after_split b, ← after_split a, ← after_split s]

end Fold

/-! ## Closure of "every entry is real" under the host operations of the chain -/

/-- A broadcast only reads its operand. -/
theorem fin_bcast {s t : Shape} (dims : Fin s.rank → Fin t.rank) (h : s.BroadcastsInDim t dims) (x : s.Idx → EReal)
    (hx : ∀ i, IsFin (x i)) (j : t.Idx) : IsFin (broadcastInDim t dims h x j) := hx _

/-- A gather only reads its operand, wherever the (clamped) index words point. -/
theorem fin_gather {s si t : Shape} {w : Nat} (d : GatherDims s si t) (x : s.Idx → EReal) (idx : IVec si w)
    (hx : ∀ i, IsFin (x i)) (j : t.Idx) : IsFin (Host.gather d x idx j) := hx _

/-- A concatenation reads one of its operands. -/
theorem fin_concat {t : Shape} (a : Fin t.rank) (xs : List ((s : Shape) × (s.Idx → EReal)))
    (h : Shape.Concatenates (xs.map (·.1)) t a) (hx : ∀ p ∈ xs, ∀ i, IsFin (p.2 i)) (j : t.Idx) :
    IsFin (concatenate t a xs h j) := by
  unfold concatenate
  exact hx _ (List.getElem_mem _) _

/-- The same for two operands laid end to end. -/
theorem fin_concat2 {t sa sb : Shape} (ax : Fin t.rank) (a : sa.Idx → EReal) (b : sb.Idx → EReal)
    (h : Shape.Concatenates [sa, sb] t ax) (ha : ∀ i, IsFin (a i)) (hb : ∀ i, IsFin (b i)) (j : t.Idx) :
    IsFin (concatenate t ax [⟨sa, a⟩, ⟨sb, b⟩] h j) :=
  fin_concat ax [⟨sa, a⟩, ⟨sb, b⟩] h (fun p hp => by
    rcases List.mem_cons.mp hp with rfl | hp
    · exact ha
    · rcases List.mem_cons.mp hp with rfl | hp
      · exact hb
      · exact absurd hp List.not_mem_nil) j

/-- The accumulating scatter adds to each operand entry the finitely many updates that land on it. -/
theorem fin_scatterAdd {s si u : Shape} {w : Nat} (d : ScatterDims s si u) (x : FVec Ideal s .f32) (idx : IVec si w)
    (upd : FVec Ideal u .f32) (hx : ∀ i, IsFin (x i)) (hu : ∀ j, IsFin (upd j)) (i : s.Idx) :
    IsFin (Host.scatterAdd d x idx upd i) := by
  show IsFin (x i + ∑ j ∈ Finset.univ.filter (fun j => d.resultIdx? j idx = some i), upd j)
  exact (hx i).add (isFin_sum _ _ fun j _ => hu j)

/-- A constant array of a real literal. -/
theorem fin_const {s : Shape} (b : BitVec 32) (hb : IsFin (Ideal.ofBits .f32 b)) (i : s.Idx) :
    IsFin (constant (F := Ideal) s .f32 b i) := hb

theorem fin_mulf {s : Shape} (a b : FVec Ideal s .f32) (ha : ∀ i, IsFin (a i)) (hb : ∀ i, IsFin (b i)) (i : s.Idx) :
    IsFin (mulf a b i) := (ha i).mul (hb i)

/-- The 0/1 value of a truth bit is real. -/
theorem fin_uitofp {s : Shape} (x : IVec s 1) (i : s.Idx) : IsFin ((uitofp .f32 x : FVec Ideal s .f32) i) :=
  isFin_coe _

/-- The strict comparison's bit is set exactly when the strict inequality holds. -/
theorem cmp_ogt_eq_one {x y : EReal} : Ideal.cmp .ogt x y = (1 : BitVec 1) ↔ y < x := by
  unfold Ideal.cmp
  by_cases h : y < x <;> simp [h]

/-! ## The aggregation -/

/-- The shapes' broadcast and concatenation facts and the gathers' and scatters' dimension numbers: `s0` the scalar
    shape, `sN` [N], `sE` [E], `sM` [E+N], `sM1` [E+N, 1], `sNW` [N, W], `sMW` [E+N, W]. -/
structure Spec (s0 sN sE sM sM1 sNW sMW : Shape) where
  d0N : Fin s0.rank → Fin sN.rank
  h0N : s0.BroadcastsInDim sN d0N
  d0M : Fin s0.rank → Fin sM.rank
  h0M : s0.BroadcastsInDim sM d0M
  d0NW : Fin s0.rank → Fin sNW.rank
  h0NW : s0.BroadcastsInDim sNW d0NW
  dM1 : Fin sM.rank → Fin sM1.rank
  hM1 : sM.BroadcastsInDim sM1 dM1
  dMW : Fin sM1.rank → Fin sMW.rank
  hMW : sM1.BroadcastsInDim sMW dMW
  axI : Fin sN.rank
  axC : Fin sM.rank
  hC : Shape.Concatenates [sE, sN] sM axC
  nWrap : BitVec 32
  scat1 : ScatterDims sN sM1 sM
  gath1 : GatherDims sN sM1 sM
  gathW : GatherDims sNW sM1 sMW
  scatW : ScatterDims sNW sM1 sMW

variable {s0 sN sE sM sM1 sNW sMW : Shape} (S : Spec s0 sN sE sM sM1 sNW sMW)

/-- An edge list with one self-loop per node appended. -/
def withSelf (e : IVec sE 32) : IVec sM 32 :=
  concatenate sM S.axC [⟨sE, e⟩, ⟨sN, iotaInDim sN 32 S.axI⟩] S.hC

/-- The edge weights with a unit weight per self-loop appended. -/
def eew (ew : FVec Ideal sE .f32) : FVec Ideal sM .f32 :=
  concatenate sM S.axC [⟨sE, ew⟩, ⟨sN, broadcastInDim sN S.d0N S.h0N (constant s0 .f32 0x3F800000#32)⟩] S.hC

/-- A node's degree: the sum of the weights of the entries whose row it is. -/
def deg (row : IVec sM 32) (w : FVec Ideal sM .f32) : FVec Ideal sN .f32 :=
  Host.scatterAdd S.scat1 (broadcastInDim sN S.d0N S.h0N (constant s0 .f32 0x00000000#32))
    (broadcastInDim sM1 S.dM1 S.hM1 row) w

/-- The degree where it is positive, one elsewhere. -/
def safeDeg (dg : FVec Ideal sN .f32) : FVec Ideal sN .f32 :=
  select (cmpf .ogt dg (broadcastInDim sN S.d0N S.h0N (constant s0 .f32 0x00000000#32))) dg
    (broadcastInDim sN S.d0N S.h0N (id (constant s0 .f32 0x3F800000#32)))

/-- The reciprocal square root of the guarded degree `sd`, times the 0/1 value of "the degree `dg` is positive". -/
def disOf (sd dg : FVec Ideal sN .f32) : FVec Ideal sN .f32 :=
  mulf (Host.rsqrt sd)
    (uitofp .f32 (cmpf .ogt dg (broadcastInDim sN S.d0N S.h0N (constant s0 .f32 0x00000000#32))))

/-- The reciprocal square root of the degree where it is positive, zero elsewhere. -/
def dis (dg : FVec Ideal sN .f32) : FVec Ideal sN .f32 := disOf S (safeDeg S dg) dg

/-- A negative index counted from the end. -/
def wrap (x : IVec sM 32) : IVec sM 32 :=
  select (cmpi .slt x (broadcastInDim sM S.d0M S.h0M (constantI s0 32 0#32)))
    (addi x (broadcastInDim sM S.d0M S.h0M (constantI s0 32 S.nWrap))) x

/-- An entry's coefficient: dis at its row, times its weight, times dis at its column. -/
def norm (row col : IVec sM 32) (w : FVec Ideal sM .f32) (ds : FVec Ideal sN .f32) : FVec Ideal sM .f32 :=
  mulf (mulf (Host.gather S.gath1 ds (broadcastInDim sM1 S.dM1 S.hM1 (wrap S row))) w)
    (Host.gather S.gath1 ds (broadcastInDim sM1 S.dM1 S.hM1 (wrap S col)))

/-- The aggregate: each entry's coefficient times t's row at the entry's row, summed at the entry's column. -/
def out (row col : IVec sM 32) (nm : FVec Ideal sM .f32) (t : FVec Ideal sNW .f32) : FVec Ideal sNW .f32 :=
  Host.scatterAdd S.scatW (broadcastInDim sNW S.d0NW S.h0NW (constant s0 .f32 0x00000000#32))
    (broadcastInDim sM1 S.dM1 S.hM1 col)
    (mulf (broadcastInDim sMW S.dMW S.hMW (broadcastInDim sM1 S.dM1 S.hM1 nm))
      (Host.gather S.gathW t (broadcastInDim sM1 S.dM1 S.hM1 (wrap S row))))

/-- The whole aggregation of `t` over the edges `src → dst` with weights `ew`. -/
def agg (src dst : IVec sE 32) (ew : FVec Ideal sE .f32) (t : FVec Ideal sNW .f32) : FVec Ideal sNW .f32 :=
  out S (withSelf S src) (withSelf S dst)
    (norm S (withSelf S src) (withSelf S dst) (eew S ew) (dis S (deg S (withSelf S src) (eew S ew)))) t

/-! ## Its entries are real when the weights' and t's are -/

theorem fin_eew (ew : FVec Ideal sE .f32) (hw : ∀ i, IsFin (ew i)) (j : sM.Idx) : IsFin (eew S ew j) := by
  unfold eew
  exact fin_concat2 _ _ _ _ hw (fin_bcast S.d0N S.h0N _ (fin_const _ Cert.LibConsts.isFin_one_lit)) j

theorem fin_deg (row : IVec sM 32) (w : FVec Ideal sM .f32) (hw : ∀ i, IsFin (w i)) (n : sN.Idx) :
    IsFin (deg S row w n) :=
  fin_scatterAdd _ _ _ _ (fin_bcast _ _ _ (fin_const _ Cert.LibConsts.isFin_zero_lit)) hw n

/-- The guarded degree is a positive real. -/
theorem safeDeg_fin_pos (dg : FVec Ideal sN .f32) (hd : ∀ i, IsFin (dg i)) (n : sN.Idx) :
    IsFin (safeDeg S dg n) ∧ 0 < safeDeg S dg n := by
  have hz : broadcastInDim sN S.d0N S.h0N (constant (F := Ideal) s0 .f32 0x00000000#32) n = 0 :=
    Cert.LibConsts.ofBits_zero
  have ho : broadcastInDim sN S.d0N S.h0N (id (constant (F := Ideal) s0 .f32 0x3F800000#32)) n = 1 :=
    Cert.LibConsts.ofBits_one
  show IsFin (Scalar.select (Ideal.cmp .ogt (dg n) _) (dg n) _) ∧ 0 < Scalar.select (Ideal.cmp .ogt (dg n) _) (dg n) _
  rw [hz, ho]
  by_cases h : Ideal.cmp .ogt (dg n) 0 = (1 : BitVec 1)
  · have hv : Scalar.select (Ideal.cmp .ogt (dg n) 0) (dg n) (1 : EReal) = dg n := if_pos h
    rw [hv]; exact ⟨hd n, cmp_ogt_eq_one.mp h⟩
  · have hv : Scalar.select (Ideal.cmp .ogt (dg n) 0) (dg n) (1 : EReal) = 1 := if_neg h
    rw [hv]; exact ⟨isFin_one, zero_lt_one⟩

theorem fin_dis (dg : FVec Ideal sN .f32) (hd : ∀ i, IsFin (dg i)) (n : sN.Idx) : IsFin (dis S dg n) := by
  unfold dis disOf
  refine fin_mulf _ _ (fun i => ?_) (fin_uitofp _) n
  obtain ⟨hf, hp⟩ := safeDeg_fin_pos S dg hd i
  show IsFin (Ideal.rsqrt (safeDeg S dg i))
  exact hf.rsqrt hp

theorem fin_norm (row col : IVec sM 32) (w : FVec Ideal sM .f32) (ds : FVec Ideal sN .f32)
    (hw : ∀ i, IsFin (w i)) (hds : ∀ i, IsFin (ds i)) (j : sM.Idx) : IsFin (norm S row col w ds j) := by
  unfold norm
  exact fin_mulf _ _ (fin_mulf _ _ (fin_gather _ _ _ hds) hw) (fin_gather _ _ _ hds) j

theorem fin_out (row col : IVec sM 32) (nm : FVec Ideal sM .f32) (t : FVec Ideal sNW .f32)
    (hn : ∀ i, IsFin (nm i)) (ht : ∀ i, IsFin (t i)) (i : sNW.Idx) : IsFin (out S row col nm t i) := by
  unfold out
  exact fin_scatterAdd _ _ _ _ (fin_bcast _ _ _ (fin_const _ Cert.LibConsts.isFin_zero_lit))
    (fin_mulf _ _ (fin_bcast _ _ _ (fin_bcast _ _ _ hn)) (fin_gather _ _ _ ht)) i

/-- Real weights and a real `t` aggregate to real entries, whatever the edge lists hold. -/
theorem fin_agg (src dst : IVec sE 32) (ew : FVec Ideal sE .f32) (t : FVec Ideal sNW .f32)
    (hw : ∀ i, IsFin (ew i)) (ht : ∀ i, IsFin (t i)) (i : sNW.Idx) : IsFin (agg S src dst ew t i) := by
  unfold agg
  exact fin_out S _ _ _ _
    (fin_norm S _ _ _ _ (fin_eew S ew hw) (fin_dis S _ (fin_deg S _ _ (fin_eew S ew hw)))) ht i

/-- Unit weights, as both programs broadcast them, are real. -/
theorem fin_ones {s0 sE : Shape} (d : Fin s0.rank → Fin sE.rank) (h : s0.BroadcastsInDim sE d) (i : sE.Idx) :
    IsFin (broadcastInDim sE d h (constant (F := Ideal) s0 .f32 0x3F800000#32) i) :=
  fin_bcast _ _ _ (fin_const _ Cert.LibConsts.isFin_one_lit) i

end Cert.LibAgg

end
-- ==== Proof.StageAgg1.lean ====
/- The graph aggregation of layer 1's normalized and projected state, with unit edge weights: both programs spell the same chain of host
   operations (self-loops appended to the edge lists, the degrees by an accumulating scatter, the guarded reciprocal
   square root, the coefficients by two gathers, the weighted rows scattered at the edges' targets). Each program's
   stretch of operations is cut into the chain's three stages and what follows; each stage is read at the few buffers
   that cross into the next one, in terms of the stage functions of the aggregation; composed, the kernel's result and
   the reference's are the SAME function `agg` of the edge lists and `t`, so equal inputs give equal results, and a real `t`
   gives a real result. The integer edge lists are arbitrary: nothing here reads them. -/
import proofs.«407945_j8993661518245_1_alg».proof.Proof.Iface
import proofs.«407945_j8993661518245_1_alg».proof.Proof.KCarry
import proofs.«407945_j8993661518245_1_alg».proof.Proof.LibAgg

set_option maxRecDepth 16384
set_option maxHeartbeats 1600000

noncomputable section

namespace Cert.StageAgg1

open Idealize.ShloMosaic Idealize.ShloMosaic.StableHlo Idealize.SL.Sem
open Cert.LibFinite Cert.LibAgg

section Kernel

open Cert.KernelIdeal Cert.KernelIdeal.Gen Cert.KernelIdeal.GenP

/-- The kernel program's aggregation: its shapes' facts and its gathers' and scatters' dimension numbers. -/
abbrev specK : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the kernel's first host stretch. -/
abbrev kCut : ℕ := 0

/-- Unit edge weights. -/
abbrev onesK : FVec Ideal S400000 .f32 :=
  broadcastInDim S400000 ![] bcast_S_S400000 (constant (F := Ideal) S_ .f32 0x3F800000#32)

variable (V : Valuation τ sig (Elt Ideal))

/-- The first stage: the self-looped edge lists, the weights, the degree, its sign bit, and the unit word the guard
    uses; the inputs pass through it. -/
theorem kA_reads :
    (after (List.drop kCut (hostOps5 (F := Ideal))) V (Proc.devRef .tc main_v23) = withSelf specK (V (Proc.devRef .tc main_arg24)))
    ∧ (after (List.drop kCut (hostOps5 (F := Ideal))) V (Proc.devRef .tc main_v24) = withSelf specK (V (Proc.devRef .tc main_arg25)))
    ∧ (after (List.drop kCut (hostOps5 (F := Ideal))) V (Proc.devRef .tc main_v26) = eew specK onesK)
    ∧ (after (List.drop kCut (hostOps5 (F := Ideal))) V (Proc.devRef .tc main_v29) = deg specK (withSelf specK (V (Proc.devRef .tc main_arg24))) (eew specK onesK))
    ∧ (after (List.drop kCut (hostOps5 (F := Ideal))) V (Proc.devRef .tc main_v31) = cmpf .ogt (deg specK (withSelf specK (V (Proc.devRef .tc main_arg24))) (eew specK onesK)) (broadcastInDim S50000 ![] bcast_S_S50000 (constant (F := Ideal) S_ .f32 0x00000000#32)))
    ∧ (after (List.drop kCut (hostOps5 (F := Ideal))) V (Proc.devRef .tc main_cst_8) = constant (F := Ideal) S_ .f32 0x3F800000#32)
    ∧ (after (List.drop kCut (hostOps5 (F := Ideal))) V (Proc.devRef .tc main_arg24) = V (Proc.devRef .tc main_arg24))
    ∧ (after (List.drop kCut (hostOps5 (F := Ideal))) V (Proc.devRef .tc main_arg25) = V (Proc.devRef .tc main_arg25)) := by
  simp only [kCut, hostOps5, hostOps5_2, List.drop_succ_cons, List.drop_zero, List.take_succ_cons, List.take_zero, List.cons_append, List.nil_append, List.drop_nil, List.take_nil]
  refine ⟨?_, ?_, ?_, ?_, ?_, ?_, ?_, ?_⟩
  · after_results; rfl
  · after_results; rfl
  · after_results; rfl
  · after_results; rfl
  · after_results; rfl
  · after_results
  · after_results
  · after_results

/-- The guard: the degree where its sign bit is set, the unit word elsewhere; every other buffer passes through. -/
theorem kB_reads :
    (after (hostOps5_1 (F := Ideal)) V (Proc.devRef .tc main_v32)
      = select (V (Proc.devRef .tc main_v31)) (V (Proc.devRef .tc main_v29)) (broadcastInDim S50000 ![] bcast_S_S50000 (id (V (Proc.devRef .tc main_cst_8)))))
    ∧ ∀ b : Ref sig .tc, b ≠ main_call0_v0 ∧ b ≠ main_call0_v1 ∧ b ≠ main_v32 → after (hostOps5_1 (F := Ideal)) V (Proc.devRef .tc b) = V (Proc.devRef .tc b) := by
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem kC_reads :
    (after (List.take 42 (hostOps5_2 (F := Ideal))) V (Proc.devRef .tc main_v66)
      = out specK (V (Proc.devRef .tc main_v23)) (V (Proc.devRef .tc main_v24))
          (norm specK (V (Proc.devRef .tc main_v23)) (V (Proc.devRef .tc main_v24)) (V (Proc.devRef .tc main_v26)) (disOf specK (V (Proc.devRef .tc main_v32)) (V (Proc.devRef .tc main_v29))))
          (V (Proc.devRef .tc main_v20)))
    ∧ (after (List.take 42 (hostOps5_2 (F := Ideal))) V (Proc.devRef .tc main_v20) = V (Proc.devRef .tc main_v20))
    ∧ (after (List.take 42 (hostOps5_2 (F := Ideal))) V (Proc.devRef .tc main_arg24) = V (Proc.devRef .tc main_arg24))
    ∧ (after (List.take 42 (hostOps5_2 (F := Ideal))) V (Proc.devRef .tc main_arg25) = V (Proc.devRef .tc main_arg25)) := by
  simp only [kCut, hostOps5, hostOps5_2, List.drop_succ_cons, List.drop_zero, List.take_succ_cons, List.take_zero, List.cons_append, List.nil_append, List.drop_nil, List.take_nil]
  refine ⟨?_, ?_, ?_, ?_⟩
  · after_results_simp; rfl
  · after_results_simp
  · after_results_simp
  · after_results_simp

set_option maxHeartbeats 1000000 in
/-- What follows the chain in its stretch writes none of these buffers. -/
theorem kD_reads :
    (after (List.drop 42 (hostOps5_2 (F := Ideal))) V (Proc.devRef .tc main_v66) = V (Proc.devRef .tc main_v66))
    ∧ (after (List.drop 42 (hostOps5_2 (F := Ideal))) V (Proc.devRef .tc main_v20) = V (Proc.devRef .tc main_v20))
    ∧ (after (List.drop 42 (hostOps5_2 (F := Ideal))) V (Proc.devRef .tc main_arg24) = V (Proc.devRef .tc main_arg24))
    ∧ (after (List.drop 42 (hostOps5_2 (F := Ideal))) V (Proc.devRef .tc main_arg25) = V (Proc.devRef .tc main_arg25)) := by
  simp only [kCut, hostOps5, hostOps5_2, List.drop_succ_cons, List.drop_zero, List.take_succ_cons, List.take_zero, List.cons_append, List.nil_append, List.drop_nil, List.take_nil]
  refine ⟨?_, ?_, ?_, ?_⟩
  · after_results_simp
  · after_results_simp
  · after_results_simp
  · after_results_simp

/-- The four stages in a row compute the aggregation, of the `t` the first stage leaves. -/
theorem kE_out : after (List.drop 42 (hostOps5_2 (F := Ideal))) (after (List.take 42 (hostOps5_2 (F := Ideal))) (after (hostOps5_1 (F := Ideal)) (after (List.drop kCut (hostOps5 (F := Ideal))) V))) (Proc.devRef .tc main_v66)
    = agg specK (V (Proc.devRef .tc main_arg24)) (V (Proc.devRef .tc main_arg25)) onesK (after (List.drop kCut (hostOps5 (F := Ideal))) V (Proc.devRef .tc main_v20)) := by
  rw [(kD_reads _).1, (kC_reads _).1, (kB_reads _).1, (kB_reads _).2 main_v23 (by decide), (kB_reads _).2 main_v24 (by decide), (kB_reads _).2 main_v26 (by decide),
    (kB_reads _).2 main_v29 (by decide), (kB_reads _).2 main_v20 (by decide), (kA_reads _).1, (kA_reads _).2.1, (kA_reads _).2.2.1, (kA_reads _).2.2.2.1, (kA_reads _).2.2.2.2.1, (kA_reads _).2.2.2.2.2.1]
  rfl

theorem kE_t : after (List.drop 42 (hostOps5_2 (F := Ideal))) (after (List.take 42 (hostOps5_2 (F := Ideal))) (after (hostOps5_1 (F := Ideal)) (after (List.drop kCut (hostOps5 (F := Ideal))) V))) (Proc.devRef .tc main_v20) = after (List.drop kCut (hostOps5 (F := Ideal))) V (Proc.devRef .tc main_v20) := by
  rw [(kD_reads _).2.1, (kC_reads _).2.1, (kB_reads _).2 main_v20 (by decide)]

theorem kE_a24 : after (List.drop 42 (hostOps5_2 (F := Ideal))) (after (List.take 42 (hostOps5_2 (F := Ideal))) (after (hostOps5_1 (F := Ideal)) (after (List.drop kCut (hostOps5 (F := Ideal))) V))) (Proc.devRef .tc main_arg24) = V (Proc.devRef .tc main_arg24) := by
  rw [(kD_reads _).2.2.1, (kC_reads _).2.2.1, (kB_reads _).2 main_arg24 (by decide), (kA_reads _).2.2.2.2.2.2.1]

theorem kE_a25 : after (List.drop 42 (hostOps5_2 (F := Ideal))) (after (List.take 42 (hostOps5_2 (F := Ideal))) (after (hostOps5_1 (F := Ideal)) (after (List.drop kCut (hostOps5 (F := Ideal))) V))) (Proc.devRef .tc main_arg25) = V (Proc.devRef .tc main_arg25) := by
  rw [(kD_reads _).2.2.2, (kC_reads _).2.2.2, (kB_reads _).2 main_arg25 (by decide), (kA_reads _).2.2.2.2.2.2.2]

variable (m : (ℓ : Loc nD τ sig) → Buf (Elt Ideal) ℓ) (ρ : Dev nD → PrngReg) (c : Dev nD)

/-- The state after the three host stretches, as the four stages folded over the state the chain starts from. -/
theorem k_state : W11 (F := Ideal) m ρ c = after (List.drop 42 (hostOps5_2 (F := Ideal))) (after (List.take 42 (hostOps5_2 (F := Ideal))) (after (hostOps5_1 (F := Ideal)) (after (List.drop kCut (hostOps5 (F := Ideal))) (after (List.take kCut (hostOps5 (F := Ideal))) (W8 (F := Ideal) m ρ c))))) := by
  show after (hostOps5_2 (F := Ideal)) (after (hostOps5_1 (F := Ideal)) (after (hostOps5 (F := Ideal)) (W8 (F := Ideal) m ρ c))) = _
  rw [after_split kCut (hostOps5 (F := Ideal)) (W8 (F := Ideal) m ρ c), after_split 42 (hostOps5_2 (F := Ideal))]

/-- The kernel's aggregate is `agg` of its final edge lists and `t`. -/
theorem kf_read : W58 (F := Ideal) m ρ c (Proc.devRef .tc main_v66)
    = agg specK (W58 (F := Ideal) m ρ c (Proc.devRef .tc main_arg24)) (W58 (F := Ideal) m ρ c (Proc.devRef .tc main_arg25))
        onesK (W58 (F := Ideal) m ρ c (Proc.devRef .tc main_v20)) := by
  rw [Cert.KernelIdeal.KCarry.carry11 (F := Ideal) m ρ c main_v66 (by decide),
    Cert.KernelIdeal.KCarry.carry11 (F := Ideal) m ρ c main_v20 (by decide),
    Cert.KernelIdeal.KCarry.carry11 (F := Ideal) m ρ c main_arg24 (by decide),
    Cert.KernelIdeal.KCarry.carry11 (F := Ideal) m ρ c main_arg25 (by decide),
    k_state, kE_out, kE_t, kE_a24, kE_a25]

end Kernel

section Reference

open Cert.ReferenceIdeal Cert.ReferenceIdeal.Gen Cert.ReferenceIdeal.RefRun

/-- The reference's aggregation: its shapes' facts and its gathers' and scatters' dimension numbers. -/
abbrev specR : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the reference's two windows taken together. -/
abbrev rCut : ℕ := 63

/-- Unit edge weights. -/
abbrev onesR : FVec Ideal S400000 .f32 :=
  broadcastInDim S400000 ![] bcast_S_S400000 (constant (F := Ideal) S_ .f32 0x3F800000#32)

variable (V : Valuation τ sig (Elt Ideal))

/-- The first stage: the self-looped edge lists, the weights, the degree, its sign bit, and the unit word the guard
    uses; the inputs pass through it. -/
theorem rA_reads :
    (after (List.take 16 (List.drop rCut (ops0 (F := Ideal) ++ ops1 (F := Ideal)))) V (Proc.devRef .tc main_v51) = withSelf specR (V (Proc.devRef .tc main_arg24)))
    ∧ (after (List.take 16 (List.drop rCut (ops0 (F := Ideal) ++ ops1 (F := Ideal)))) V (Proc.devRef .tc main_v52) = withSelf specR (V (Proc.devRef .tc main_arg25)))
    ∧ (after (List.take 16 (List.drop rCut (ops0 (F := Ideal) ++ ops1 (F := Ideal)))) V (Proc.devRef .tc main_v54) = eew specR onesR)
    ∧ (after (List.take 16 (List.drop rCut (ops0 (F := Ideal) ++ ops1 (F := Ideal)))) V (Proc.devRef .tc main_v57) = deg specR (withSelf specR (V (Proc.devRef .tc main_arg24))) (eew specR onesR))
    ∧ (after (List.take 16 (List.drop rCut (ops0 (F := Ideal) ++ ops1 (F := Ideal)))) V (Proc.devRef .tc main_v59) = cmpf .ogt (deg specR (withSelf specR (V (Proc.devRef .tc main_arg24))) (eew specR onesR)) (broadcastInDim S50000 ![] bcast_S_S50000 (constant (F := Ideal) S_ .f32 0x00000000#32)))
    ∧ (after (List.take 16 (List.drop rCut (ops0 (F := Ideal) ++ ops1 (F := Ideal)))) V (Proc.devRef .tc main_cst_15) = constant (F := Ideal) S_ .f32 0x3F800000#32)
    ∧ (after (List.take 16 (List.drop rCut (ops0 (F := Ideal) ++ ops1 (F := Ideal)))) V (Proc.devRef .tc main_arg24) = V (Proc.devRef .tc main_arg24))
    ∧ (after (List.take 16 (List.drop rCut (ops0 (F := Ideal) ++ ops1 (F := Ideal)))) V (Proc.devRef .tc main_arg25) = V (Proc.devRef .tc main_arg25)) := by
  simp only [rCut, ops0, ops1, List.drop_succ_cons, List.drop_zero, List.take_succ_cons, List.take_zero, List.cons_append, List.nil_append, List.drop_nil, List.take_nil]
  refine ⟨?_, ?_, ?_, ?_, ?_, ?_, ?_, ?_⟩
  · after_results; rfl
  · after_results; rfl
  · after_results; rfl
  · after_results; rfl
  · after_results; rfl
  · after_results
  · after_results
  · after_results

/-- The guard: the degree where its sign bit is set, the unit word elsewhere; every other buffer passes through. -/
theorem rB_reads :
    (after (List.take 3 (List.drop 16 (List.drop rCut (ops0 (F := Ideal) ++ ops1 (F := Ideal))))) V (Proc.devRef .tc main_v60)
      = select (V (Proc.devRef .tc main_v59)) (V (Proc.devRef .tc main_v57)) (broadcastInDim S50000 ![] bcast_S_S50000 (id (V (Proc.devRef .tc main_cst_15)))))
    ∧ ∀ b : Ref sig .tc, b ≠ main_call1_v0 ∧ b ≠ main_call1_v1 ∧ b ≠ main_v60 → after (List.take 3 (List.drop 16 (List.drop rCut (ops0 (F := Ideal) ++ ops1 (F := Ideal))))) V (Proc.devRef .tc b) = V (Proc.devRef .tc b) := by
  simp only [rCut, ops0, ops1, List.drop_succ_cons, List.drop_zero, List.take_succ_cons, List.take_zero, List.cons_append, List.nil_append, List.drop_nil, List.take_nil]
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem rC_reads :
    (after (List.take 42 (List.drop 3 (List.drop 16 (List.drop rCut (ops0 (F := Ideal) ++ ops1 (F := Ideal)))))) V (Proc.devRef .tc main_v94)
      = out specR (V (Proc.devRef .tc main_v51)) (V (Proc.devRef .tc main_v52))
          (norm specR (V (Proc.devRef .tc main_v51)) (V (Proc.devRef .tc main_v52)) (V (Proc.devRef .tc main_v54)) (disOf specR (V (Proc.devRef .tc main_v60)) (V (Proc.devRef .tc main_v57))))
          (V (Proc.devRef .tc main_v48)))
    ∧ (after (List.take 42 (List.drop 3 (List.drop 16 (List.drop rCut (ops0 (F := Ideal) ++ ops1 (F := Ideal)))))) V (Proc.devRef .tc main_v48) = V (Proc.devRef .tc main_v48))
    ∧ (after (List.take 42 (List.drop 3 (List.drop 16 (List.drop rCut (ops0 (F := Ideal) ++ ops1 (F := Ideal)))))) V (Proc.devRef .tc main_arg24) = V (Proc.devRef .tc main_arg24))
    ∧ (after (List.take 42 (List.drop 3 (List.drop 16 (List.drop rCut (ops0 (F := Ideal) ++ ops1 (F := Ideal)))))) V (Proc.devRef .tc main_arg25) = V (Proc.devRef .tc main_arg25)) := by
  simp only [rCut, ops0, ops1, List.drop_succ_cons, List.drop_zero, List.take_succ_cons, List.take_zero, List.cons_append, List.nil_append, List.drop_nil, List.take_nil]
  refine ⟨?_, ?_, ?_, ?_⟩
  · after_results_simp; rfl
  · after_results_simp
  · after_results_simp
  · after_results_simp

set_option maxHeartbeats 1000000 in
/-- What follows the chain in its stretch writes none of these buffers. -/
theorem rD_reads :
    (after (List.drop 42 (List.drop 3 (List.drop 16 (List.drop rCut (ops0 (F := Ideal) ++ ops1 (F := Ideal)))))) V (Proc.devRef .tc main_v94) = V (Proc.devRef .tc main_v94))
    ∧ (after (List.drop 42 (List.drop 3 (List.drop 16 (List.drop rCut (ops0 (F := Ideal) ++ ops1 (F := Ideal)))))) V (Proc.devRef .tc main_v48) = V (Proc.devRef .tc main_v48))
    ∧ (after (List.drop 42 (List.drop 3 (List.drop 16 (List.drop rCut (ops0 (F := Ideal) ++ ops1 (F := Ideal)))))) V (Proc.devRef .tc main_arg24) = V (Proc.devRef .tc main_arg24))
    ∧ (after (List.drop 42 (List.drop 3 (List.drop 16 (List.drop rCut (ops0 (F := Ideal) ++ ops1 (F := Ideal)))))) V (Proc.devRef .tc main_arg25) = V (Proc.devRef .tc main_arg25)) := by
  simp only [rCut, ops0, ops1, List.drop_succ_cons, List.drop_zero, List.take_succ_cons, List.take_zero, List.cons_append, List.nil_append, List.drop_nil, List.take_nil]
  refine ⟨?_, ?_, ?_, ?_⟩
  · after_results_simp
  · after_results_simp
  · after_results_simp
  · after_results_simp

/-- The four stages in a row compute the aggregation, of the `t` the first stage leaves. -/
theorem rE_out : after (List.drop 42 (List.drop 3 (List.drop 16 (List.drop rCut (ops0 (F := Ideal) ++ ops1 (F := Ideal)))))) (after (List.take 42 (List.drop 3 (List.drop 16 (List.drop rCut (ops0 (F := Ideal) ++ ops1 (F := Ideal)))))) (after (List.take 3 (List.drop 16 (List.drop rCut (ops0 (F := Ideal) ++ ops1 (F := Ideal))))) (after (List.take 16 (List.drop rCut (ops0 (F := Ideal) ++ ops1 (F := Ideal)))) V))) (Proc.devRef .tc main_v94)
    = agg specR (V (Proc.devRef .tc main_arg24)) (V (Proc.devRef .tc main_arg25)) onesR (after (List.take 16 (List.drop rCut (ops0 (F := Ideal) ++ ops1 (F := Ideal)))) V (Proc.devRef .tc main_v48)) := by
  rw [(rD_reads _).1, (rC_reads _).1, (rB_reads _).1, (rB_reads _).2 main_v51 (by decide), (rB_reads _).2 main_v52 (by decide), (rB_reads _).2 main_v54 (by decide),
    (rB_reads _).2 main_v57 (by decide), (rB_reads _).2 main_v48 (by decide), (rA_reads _).1, (rA_reads _).2.1, (rA_reads _).2.2.1, (rA_reads _).2.2.2.1, (rA_reads _).2.2.2.2.1, (rA_reads _).2.2.2.2.2.1]
  rfl

theorem rE_t : after (List.drop 42 (List.drop 3 (List.drop 16 (List.drop rCut (ops0 (F := Ideal) ++ ops1 (F := Ideal)))))) (after (List.take 42 (List.drop 3 (List.drop 16 (List.drop rCut (ops0 (F := Ideal) ++ ops1 (F := Ideal)))))) (after (List.take 3 (List.drop 16 (List.drop rCut (ops0 (F := Ideal) ++ ops1 (F := Ideal))))) (after (List.take 16 (List.drop rCut (ops0 (F := Ideal) ++ ops1 (F := Ideal)))) V))) (Proc.devRef .tc main_v48) = after (List.take 16 (List.drop rCut (ops0 (F := Ideal) ++ ops1 (F := Ideal)))) V (Proc.devRef .tc main_v48) := by
  rw [(rD_reads _).2.1, (rC_reads _).2.1, (rB_reads _).2 main_v48 (by decide)]

theorem rE_a24 : after (List.drop 42 (List.drop 3 (List.drop 16 (List.drop rCut (ops0 (F := Ideal) ++ ops1 (F := Ideal)))))) (after (List.take 42 (List.drop 3 (List.drop 16 (List.drop rCut (ops0 (F := Ideal) ++ ops1 (F := Ideal)))))) (after (List.take 3 (List.drop 16 (List.drop rCut (ops0 (F := Ideal) ++ ops1 (F := Ideal))))) (after (List.take 16 (List.drop rCut (ops0 (F := Ideal) ++ ops1 (F := Ideal)))) V))) (Proc.devRef .tc main_arg24) = V (Proc.devRef .tc main_arg24) := by
  rw [(rD_reads _).2.2.1, (rC_reads _).2.2.1, (rB_reads _).2 main_arg24 (by decide), (rA_reads _).2.2.2.2.2.2.1]

theorem rE_a25 : after (List.drop 42 (List.drop 3 (List.drop 16 (List.drop rCut (ops0 (F := Ideal) ++ ops1 (F := Ideal)))))) (after (List.take 42 (List.drop 3 (List.drop 16 (List.drop rCut (ops0 (F := Ideal) ++ ops1 (F := Ideal)))))) (after (List.take 3 (List.drop 16 (List.drop rCut (ops0 (F := Ideal) ++ ops1 (F := Ideal))))) (after (List.take 16 (List.drop rCut (ops0 (F := Ideal) ++ ops1 (F := Ideal)))) V))) (Proc.devRef .tc main_arg25) = V (Proc.devRef .tc main_arg25) := by
  rw [(rD_reads _).2.2.2, (rC_reads _).2.2.2, (rB_reads _).2 main_arg25 (by decide), (rA_reads _).2.2.2.2.2.2.2]

variable (m' : (ℓ : Loc nD τ sig) → Buf (Elt Ideal) ℓ) (c : Dev nD)

/-- The state after the two windows, as the four stages folded over the state the chain starts from. -/
theorem r_state : R2 (F := Ideal) m' c = after (List.drop 42 (List.drop 3 (List.drop 16 (List.drop rCut (ops0 (F := Ideal) ++ ops1 (F := Ideal)))))) (after (List.take 42 (List.drop 3 (List.drop 16 (List.drop rCut (ops0 (F := Ideal) ++ ops1 (F := Ideal)))))) (after (List.take 3 (List.drop 16 (List.drop rCut (ops0 (F := Ideal) ++ ops1 (F := Ideal))))) (after (List.take 16 (List.drop rCut (ops0 (F := Ideal) ++ ops1 (F := Ideal)))) (after (List.take rCut (ops0 (F := Ideal) ++ ops1 (F := Ideal))) (R0 (F := Ideal) m' c))))) := by
  show after (ops1 (F := Ideal)) (after (ops0 (F := Ideal)) (R0 (F := Ideal) m' c)) = _
  rw [← after_append (ops0 (F := Ideal)) (ops1 (F := Ideal)) (R0 (F := Ideal) m' c),
    after_cut rCut 16 3 42 (ops0 (F := Ideal) ++ ops1 (F := Ideal)) (R0 (F := Ideal) m' c)]

/-- The reference's aggregate is `agg` of its final edge lists and `t`. -/
theorem rf_read : R14 (F := Ideal) m' c (Proc.devRef .tc main_v94)
    = agg specR (R14 (F := Ideal) m' c (Proc.devRef .tc main_arg24)) (R14 (F := Ideal) m' c (Proc.devRef .tc main_arg25))
        onesR (R14 (F := Ideal) m' c (Proc.devRef .tc main_v48)) := by
  rw [carry2 (F := Ideal) m' c main_v94 (by decide), carry2 (F := Ideal) m' c main_v48 (by decide),
    carry2 (F := Ideal) m' c main_arg24 (by decide), carry2 (F := Ideal) m' c main_arg25 (by decide),
    r_state, rE_out, rE_t, rE_a24, rE_a25]

end Reference

section Claim

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs' aggregations are one function: the same stage functions at the same shapes and dimension
    numbers. -/
theorem agg_same (src dst : IVec Cert.ReferenceIdeal.S400000 32)
    (t : FVec Ideal Cert.ReferenceIdeal.S50000x128 .f32) :
    agg specK src dst onesK t = agg specR src dst onesR t := rfl

theorem agg1 (h : Cert.Iface.T1 m ρ m' c)
    (hs : HEq (Cert.Iface.Kf m ρ c Cert.KernelIdeal.main_arg24) (Cert.Iface.Rf m' c Cert.ReferenceIdeal.main_arg24))
    (hd : HEq (Cert.Iface.Kf m ρ c Cert.KernelIdeal.main_arg25) (Cert.Iface.Rf m' c Cert.ReferenceIdeal.main_arg25)) :
    Cert.Iface.Agg1 m ρ m' c := by
  have hk := kf_read m ρ c
  have hr := rf_read m' c
  have es : Cert.KernelIdeal.GenP.W58 (F := Ideal) m ρ c (Proc.devRef .tc Cert.KernelIdeal.main_arg24) = Cert.ReferenceIdeal.RefRun.R14 (F := Ideal) m' c (Proc.devRef .tc Cert.ReferenceIdeal.main_arg24) := eq_of_heq hs
  have ed : Cert.KernelIdeal.GenP.W58 (F := Ideal) m ρ c (Proc.devRef .tc Cert.KernelIdeal.main_arg25) = Cert.ReferenceIdeal.RefRun.R14 (F := Ideal) m' c (Proc.devRef .tc Cert.ReferenceIdeal.main_arg25) := eq_of_heq hd
  have et : (Cert.KernelIdeal.GenP.W58 (F := Ideal) m ρ c (Proc.devRef .tc Cert.KernelIdeal.main_v20) : Cert.KernelIdeal.S50000x128.Idx → EReal)
      = Cert.ReferenceIdeal.RefRun.R14 (F := Ideal) m' c (Proc.devRef .tc Cert.ReferenceIdeal.main_v48) := And.left h
  have hval : (Cert.KernelIdeal.GenP.W58 (F := Ideal) m ρ c (Proc.devRef .tc Cert.KernelIdeal.main_v66) : Cert.KernelIdeal.S50000x128.Idx → EReal)
      = Cert.ReferenceIdeal.RefRun.R14 (F := Ideal) m' c (Proc.devRef .tc Cert.ReferenceIdeal.main_v94) := by
    rw [hk, hr, es, ed, et]
    exact agg_same _ _ _
  have hfin : ∀ i, IsFin ((Cert.KernelIdeal.GenP.W58 (F := Ideal) m ρ c (Proc.devRef .tc Cert.KernelIdeal.main_v20) : Cert.KernelIdeal.S50000x128.Idx → EReal) i) := And.right h
  have hf : ∀ i, IsFin ((Cert.KernelIdeal.GenP.W58 (F := Ideal) m ρ c (Proc.devRef .tc Cert.KernelIdeal.main_v66) : Cert.KernelIdeal.S50000x128.Idx → EReal) i) := by
    rw [hk]
    exact fin_agg specK _ _ _ _ (fin_ones _ _) hfin
  exact And.intro hval hf

end Claim

end Cert.StageAgg1

end
-- ==== Proof.StageAgg2.lean ====
/- The graph aggregation of layer 2's normalized and projected state, with unit edge weights: both programs spell the same chain of host
   operations (self-loops appended to the edge lists, the degrees by an accumulating scatter, the guarded reciprocal
   square root, the coefficients by two gathers, the weighted rows scattered at the edges' targets). Each program's
   stretch of operations is cut into the chain's three stages and what follows; each stage is read at the few buffers
   that cross into the next one, in terms of the stage functions of the aggregation; composed, the kernel's result and
   the reference's are the SAME function `agg` of the edge lists and `t`, so equal inputs give equal results, and a real `t`
   gives a real result. The integer edge lists are arbitrary: nothing here reads them. -/
import proofs.«407945_j8993661518245_1_alg».proof.Proof.Iface
import proofs.«407945_j8993661518245_1_alg».proof.Proof.KCarry
import proofs.«407945_j8993661518245_1_alg».proof.Proof.LibAgg

set_option maxRecDepth 16384
set_option maxHeartbeats 1600000

noncomputable section

namespace Cert.StageAgg2

open Idealize.ShloMosaic Idealize.ShloMosaic.StableHlo Idealize.SL.Sem
open Cert.LibFinite Cert.LibAgg

section Kernel

open Cert.KernelIdeal Cert.KernelIdeal.Gen Cert.KernelIdeal.GenP

/-- The kernel program's aggregation: its shapes' facts and its gathers' and scatters' dimension numbers. -/
abbrev specK : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the kernel's first host stretch. -/
abbrev kCut : ℕ := 0

/-- Unit edge weights. -/
abbrev onesK : FVec Ideal S400000 .f32 :=
  broadcastInDim S400000 ![] bcast_S_S400000 (constant (F := Ideal) S_ .f32 0x3F800000#32)

variable (V : Valuation τ sig (Elt Ideal))

/-- The first stage: the self-looped edge lists, the weights, the degree, its sign bit, and the unit word the guard
    uses; the inputs pass through it. -/
theorem kA_reads :
    (after (List.drop kCut (hostOps8 (F := Ideal))) V (Proc.devRef .tc main_v83) = withSelf specK (V (Proc.devRef .tc main_arg24)))
    ∧ (after (List.drop kCut (hostOps8 (F := Ideal))) V (Proc.devRef .tc main_v84) = withSelf specK (V (Proc.devRef .tc main_arg25)))
    ∧ (after (List.drop kCut (hostOps8 (F := Ideal))) V (Proc.devRef .tc main_v86) = eew specK onesK)
    ∧ (after (List.drop kCut (hostOps8 (F := Ideal))) V (Proc.devRef .tc main_v89) = deg specK (withSelf specK (V (Proc.devRef .tc main_arg24))) (eew specK onesK))
    ∧ (after (List.drop kCut (hostOps8 (F := Ideal))) V (Proc.devRef .tc main_v91) = cmpf .ogt (deg specK (withSelf specK (V (Proc.devRef .tc main_arg24))) (eew specK onesK)) (broadcastInDim S50000 ![] bcast_S_S50000 (constant (F := Ideal) S_ .f32 0x00000000#32)))
    ∧ (after (List.drop kCut (hostOps8 (F := Ideal))) V (Proc.devRef .tc main_cst_22) = constant (F := Ideal) S_ .f32 0x3F800000#32)
    ∧ (after (List.drop kCut (hostOps8 (F := Ideal))) V (Proc.devRef .tc main_arg24) = V (Proc.devRef .tc main_arg24))
    ∧ (after (List.drop kCut (hostOps8 (F := Ideal))) V (Proc.devRef .tc main_arg25) = V (Proc.devRef .tc main_arg25)) := by
  simp only [kCut, hostOps8, hostOps8_2, List.drop_succ_cons, List.drop_zero, List.take_succ_cons, List.take_zero, List.cons_append, List.nil_append, List.drop_nil, List.take_nil]
  refine ⟨?_, ?_, ?_, ?_, ?_, ?_, ?_, ?_⟩
  · after_results; rfl
  · after_results; rfl
  · after_results; rfl
  · after_results; rfl
  · after_results; rfl
  · after_results
  · after_results
  · after_results

/-- The guard: the degree where its sign bit is set, the unit word elsewhere; every other buffer passes through. -/
theorem kB_reads :
    (after (hostOps8_1 (F := Ideal)) V (Proc.devRef .tc main_v92)
      = select (V (Proc.devRef .tc main_v91)) (V (Proc.devRef .tc main_v89)) (broadcastInDim S50000 ![] bcast_S_S50000 (id (V (Proc.devRef .tc main_cst_22)))))
    ∧ ∀ b : Ref sig .tc, b ≠ main_call1_v0 ∧ b ≠ main_call1_v1 ∧ b ≠ main_v92 → after (hostOps8_1 (F := Ideal)) V (Proc.devRef .tc b) = V (Proc.devRef .tc b) := by
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem kC_reads :
    (after (List.take 42 (hostOps8_2 (F := Ideal))) V (Proc.devRef .tc main_v126)
      = out specK (V (Proc.devRef .tc main_v83)) (V (Proc.devRef .tc main_v84))
          (norm specK (V (Proc.devRef .tc main_v83)) (V (Proc.devRef .tc main_v84)) (V (Proc.devRef .tc main_v86)) (disOf specK (V (Proc.devRef .tc main_v92)) (V (Proc.devRef .tc main_v89))))
          (V (Proc.devRef .tc main_v80)))
    ∧ (after (List.take 42 (hostOps8_2 (F := Ideal))) V (Proc.devRef .tc main_v80) = V (Proc.devRef .tc main_v80))
    ∧ (after (List.take 42 (hostOps8_2 (F := Ideal))) V (Proc.devRef .tc main_arg24) = V (Proc.devRef .tc main_arg24))
    ∧ (after (List.take 42 (hostOps8_2 (F := Ideal))) V (Proc.devRef .tc main_arg25) = V (Proc.devRef .tc main_arg25)) := by
  simp only [kCut, hostOps8, hostOps8_2, List.drop_succ_cons, List.drop_zero, List.take_succ_cons, List.take_zero, List.cons_append, List.nil_append, List.drop_nil, List.take_nil]
  refine ⟨?_, ?_, ?_, ?_⟩
  · after_results_simp; rfl
  · after_results_simp
  · after_results_simp
  · after_results_simp

set_option maxHeartbeats 1000000 in
/-- What follows the chain in its stretch writes none of these buffers. -/
theorem kD_reads :
    (after (List.drop 42 (hostOps8_2 (F := Ideal))) V (Proc.devRef .tc main_v126) = V (Proc.devRef .tc main_v126))
    ∧ (after (List.drop 42 (hostOps8_2 (F := Ideal))) V (Proc.devRef .tc main_v80) = V (Proc.devRef .tc main_v80))
    ∧ (after (List.drop 42 (hostOps8_2 (F := Ideal))) V (Proc.devRef .tc main_arg24) = V (Proc.devRef .tc main_arg24))
    ∧ (after (List.drop 42 (hostOps8_2 (F := Ideal))) V (Proc.devRef .tc main_arg25) = V (Proc.devRef .tc main_arg25)) := by
  simp only [kCut, hostOps8, hostOps8_2, List.drop_succ_cons, List.drop_zero, List.take_succ_cons, List.take_zero, List.cons_append, List.nil_append, List.drop_nil, List.take_nil]
  refine ⟨?_, ?_, ?_, ?_⟩
  · after_results_simp
  · after_results_simp
  · after_results_simp
  · after_results_simp

/-- The four stages in a row compute the aggregation, of the `t` the first stage leaves. -/
theorem kE_out : after (List.drop 42 (hostOps8_2 (F := Ideal))) (after (List.take 42 (hostOps8_2 (F := Ideal))) (after (hostOps8_1 (F := Ideal)) (after (List.drop kCut (hostOps8 (F := Ideal))) V))) (Proc.devRef .tc main_v126)
    = agg specK (V (Proc.devRef .tc main_arg24)) (V (Proc.devRef .tc main_arg25)) onesK (after (List.drop kCut (hostOps8 (F := Ideal))) V (Proc.devRef .tc main_v80)) := by
  rw [(kD_reads _).1, (kC_reads _).1, (kB_reads _).1, (kB_reads _).2 main_v83 (by decide), (kB_reads _).2 main_v84 (by decide), (kB_reads _).2 main_v86 (by decide),
    (kB_reads _).2 main_v89 (by decide), (kB_reads _).2 main_v80 (by decide), (kA_reads _).1, (kA_reads _).2.1, (kA_reads _).2.2.1, (kA_reads _).2.2.2.1, (kA_reads _).2.2.2.2.1, (kA_reads _).2.2.2.2.2.1]
  rfl

theorem kE_t : after (List.drop 42 (hostOps8_2 (F := Ideal))) (after (List.take 42 (hostOps8_2 (F := Ideal))) (after (hostOps8_1 (F := Ideal)) (after (List.drop kCut (hostOps8 (F := Ideal))) V))) (Proc.devRef .tc main_v80) = after (List.drop kCut (hostOps8 (F := Ideal))) V (Proc.devRef .tc main_v80) := by
  rw [(kD_reads _).2.1, (kC_reads _).2.1, (kB_reads _).2 main_v80 (by decide)]

theorem kE_a24 : after (List.drop 42 (hostOps8_2 (F := Ideal))) (after (List.take 42 (hostOps8_2 (F := Ideal))) (after (hostOps8_1 (F := Ideal)) (after (List.drop kCut (hostOps8 (F := Ideal))) V))) (Proc.devRef .tc main_arg24) = V (Proc.devRef .tc main_arg24) := by
  rw [(kD_reads _).2.2.1, (kC_reads _).2.2.1, (kB_reads _).2 main_arg24 (by decide), (kA_reads _).2.2.2.2.2.2.1]

theorem kE_a25 : after (List.drop 42 (hostOps8_2 (F := Ideal))) (after (List.take 42 (hostOps8_2 (F := Ideal))) (after (hostOps8_1 (F := Ideal)) (after (List.drop kCut (hostOps8 (F := Ideal))) V))) (Proc.devRef .tc main_arg25) = V (Proc.devRef .tc main_arg25) := by
  rw [(kD_reads _).2.2.2, (kC_reads _).2.2.2, (kB_reads _).2 main_arg25 (by decide), (kA_reads _).2.2.2.2.2.2.2]

variable (m : (ℓ : Loc nD τ sig) → Buf (Elt Ideal) ℓ) (ρ : Dev nD → PrngReg) (c : Dev nD)

/-- The state after the three host stretches, as the four stages folded over the state the chain starts from. -/
theorem k_state : W18 (F := Ideal) m ρ c = after (List.drop 42 (hostOps8_2 (F := Ideal))) (after (List.take 42 (hostOps8_2 (F := Ideal))) (after (hostOps8_1 (F := Ideal)) (after (List.drop kCut (hostOps8 (F := Ideal))) (after (List.take kCut (hostOps8 (F := Ideal))) (W15 (F := Ideal) m ρ c))))) := by
  show after (hostOps8_2 (F := Ideal)) (after (hostOps8_1 (F := Ideal)) (after (hostOps8 (F := Ideal)) (W15 (F := Ideal) m ρ c))) = _
  rw [after_split kCut (hostOps8 (F := Ideal)) (W15 (F := Ideal) m ρ c), after_split 42 (hostOps8_2 (F := Ideal))]

/-- The kernel's aggregate is `agg` of its final edge lists and `t`. -/
theorem kf_read : W58 (F := Ideal) m ρ c (Proc.devRef .tc main_v126)
    = agg specK (W58 (F := Ideal) m ρ c (Proc.devRef .tc main_arg24)) (W58 (F := Ideal) m ρ c (Proc.devRef .tc main_arg25))
        onesK (W58 (F := Ideal) m ρ c (Proc.devRef .tc main_v80)) := by
  rw [Cert.KernelIdeal.KCarry.carry18 (F := Ideal) m ρ c main_v126 (by decide),
    Cert.KernelIdeal.KCarry.carry18 (F := Ideal) m ρ c main_v80 (by decide),
    Cert.KernelIdeal.KCarry.carry18 (F := Ideal) m ρ c main_arg24 (by decide),
    Cert.KernelIdeal.KCarry.carry18 (F := Ideal) m ρ c main_arg25 (by decide),
    k_state, kE_out, kE_t, kE_a24, kE_a25]

end Kernel

section Reference

open Cert.ReferenceIdeal Cert.ReferenceIdeal.Gen Cert.ReferenceIdeal.RefRun

/-- The reference's aggregation: its shapes' facts and its gathers' and scatters' dimension numbers. -/
abbrev specR : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the reference's two windows taken together. -/
abbrev rCut : ℕ := 38

/-- Unit edge weights. -/
abbrev onesR : FVec Ideal S400000 .f32 :=
  broadcastInDim S400000 ![] bcast_S_S400000 (constant (F := Ideal) S_ .f32 0x3F800000#32)

variable (V : Valuation τ sig (Elt Ideal))

/-- The first stage: the self-looped edge lists, the weights, the degree, its sign bit, and the unit word the guard
    uses; the inputs pass through it. -/
theorem rA_reads :
    (after (List.take 16 (List.drop rCut (ops2 (F := Ideal) ++ ops3 (F := Ideal)))) V (Proc.devRef .tc main_v127) = withSelf specR (V (Proc.devRef .tc main_arg24)))
    ∧ (after (List.take 16 (List.drop rCut (ops2 (F := Ideal) ++ ops3 (F := Ideal)))) V (Proc.devRef .tc main_v128) = withSelf specR (V (Proc.devRef .tc main_arg25)))
    ∧ (after (List.take 16 (List.drop rCut (ops2 (F := Ideal) ++ ops3 (F := Ideal)))) V (Proc.devRef .tc main_v130) = eew specR onesR)
    ∧ (after (List.take 16 (List.drop rCut (ops2 (F := Ideal) ++ ops3 (F := Ideal)))) V (Proc.devRef .tc main_v133) = deg specR (withSelf specR (V (Proc.devRef .tc main_arg24))) (eew specR onesR))
    ∧ (after (List.take 16 (List.drop rCut (ops2 (F := Ideal) ++ ops3 (F := Ideal)))) V (Proc.devRef .tc main_v135) = cmpf .ogt (deg specR (withSelf specR (V (Proc.devRef .tc main_arg24))) (eew specR onesR)) (broadcastInDim S50000 ![] bcast_S_S50000 (constant (F := Ideal) S_ .f32 0x00000000#32)))
    ∧ (after (List.take 16 (List.drop rCut (ops2 (F := Ideal) ++ ops3 (F := Ideal)))) V (Proc.devRef .tc main_cst_33) = constant (F := Ideal) S_ .f32 0x3F800000#32)
    ∧ (after (List.take 16 (List.drop rCut (ops2 (F := Ideal) ++ ops3 (F := Ideal)))) V (Proc.devRef .tc main_arg24) = V (Proc.devRef .tc main_arg24))
    ∧ (after (List.take 16 (List.drop rCut (ops2 (F := Ideal) ++ ops3 (F := Ideal)))) V (Proc.devRef .tc main_arg25) = V (Proc.devRef .tc main_arg25)) := by
  simp only [rCut, ops2, ops3, List.drop_succ_cons, List.drop_zero, List.take_succ_cons, List.take_zero, List.cons_append, List.nil_append, List.drop_nil, List.take_nil]
  refine ⟨?_, ?_, ?_, ?_, ?_, ?_, ?_, ?_⟩
  · after_results; rfl
  · after_results; rfl
  · after_results; rfl
  · after_results; rfl
  · after_results; rfl
  · after_results
  · after_results
  · after_results

/-- The guard: the degree where its sign bit is set, the unit word elsewhere; every other buffer passes through. -/
theorem rB_reads :
    (after (List.take 3 (List.drop 16 (List.drop rCut (ops2 (F := Ideal) ++ ops3 (F := Ideal))))) V (Proc.devRef .tc main_v136)
      = select (V (Proc.devRef .tc main_v135)) (V (Proc.devRef .tc main_v133)) (broadcastInDim S50000 ![] bcast_S_S50000 (id (V (Proc.devRef .tc main_cst_33)))))
    ∧ ∀ b : Ref sig .tc, b ≠ main_call3_v0 ∧ b ≠ main_call3_v1 ∧ b ≠ main_v136 → after (List.take 3 (List.drop 16 (List.drop rCut (ops2 (F := Ideal) ++ ops3 (F := Ideal))))) V (Proc.devRef .tc b) = V (Proc.devRef .tc b) := by
  simp only [rCut, ops2, ops3, List.drop_succ_cons, List.drop_zero, List.take_succ_cons, List.take_zero, List.cons_append, List.nil_append, List.drop_nil, List.take_nil]
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem rC_reads :
    (after (List.take 42 (List.drop 3 (List.drop 16 (List.drop rCut (ops2 (F := Ideal) ++ ops3 (F := Ideal)))))) V (Proc.devRef .tc main_v170)
      = out specR (V (Proc.devRef .tc main_v127)) (V (Proc.devRef .tc main_v128))
          (norm specR (V (Proc.devRef .tc main_v127)) (V (Proc.devRef .tc main_v128)) (V (Proc.devRef .tc main_v130)) (disOf specR (V (Proc.devRef .tc main_v136)) (V (Proc.devRef .tc main_v133))))
          (V (Proc.devRef .tc main_v124)))
    ∧ (after (List.take 42 (List.drop 3 (List.drop 16 (List.drop rCut (ops2 (F := Ideal) ++ ops3 (F := Ideal)))))) V (Proc.devRef .tc main_v124) = V (Proc.devRef .tc main_v124))
    ∧ (after (List.take 42 (List.drop 3 (List.drop 16 (List.drop rCut (ops2 (F := Ideal) ++ ops3 (F := Ideal)))))) V (Proc.devRef .tc main_arg24) = V (Proc.devRef .tc main_arg24))
    ∧ (after (List.take 42 (List.drop 3 (List.drop 16 (List.drop rCut (ops2 (F := Ideal) ++ ops3 (F := Ideal)))))) V (Proc.devRef .tc main_arg25) = V (Proc.devRef .tc main_arg25)) := by
  simp only [rCut, ops2, ops3, List.drop_succ_cons, List.drop_zero, List.take_succ_cons, List.take_zero, List.cons_append, List.nil_append, List.drop_nil, List.take_nil]
  refine ⟨?_, ?_, ?_, ?_⟩
  · after_results_simp; rfl
  · after_results_simp
  · after_results_simp
  · after_results_simp

set_option maxHeartbeats 1000000 in
/-- What follows the chain in its stretch writes none of these buffers. -/
theorem rD_reads :
    (after (List.drop 42 (List.drop 3 (List.drop 16 (List.drop rCut (ops2 (F := Ideal) ++ ops3 (F := Ideal)))))) V (Proc.devRef .tc main_v170) = V (Proc.devRef .tc main_v170))
    ∧ (after (List.drop 42 (List.drop 3 (List.drop 16 (List.drop rCut (ops2 (F := Ideal) ++ ops3 (F := Ideal)))))) V (Proc.devRef .tc main_v124) = V (Proc.devRef .tc main_v124))
    ∧ (after (List.drop 42 (List.drop 3 (List.drop 16 (List.drop rCut (ops2 (F := Ideal) ++ ops3 (F := Ideal)))))) V (Proc.devRef .tc main_arg24) = V (Proc.devRef .tc main_arg24))
    ∧ (after (List.drop 42 (List.drop 3 (List.drop 16 (List.drop rCut (ops2 (F := Ideal) ++ ops3 (F := Ideal)))))) V (Proc.devRef .tc main_arg25) = V (Proc.devRef .tc main_arg25)) := by
  simp only [rCut, ops2, ops3, List.drop_succ_cons, List.drop_zero, List.take_succ_cons, List.take_zero, List.cons_append, List.nil_append, List.drop_nil, List.take_nil]
  refine ⟨?_, ?_, ?_, ?_⟩
  · after_results_simp
  · after_results_simp
  · after_results_simp
  · after_results_simp

/-- The four stages in a row compute the aggregation, of the `t` the first stage leaves. -/
theorem rE_out : after (List.drop 42 (List.drop 3 (List.drop 16 (List.drop rCut (ops2 (F := Ideal) ++ ops3 (F := Ideal)))))) (after (List.take 42 (List.drop 3 (List.drop 16 (List.drop rCut (ops2 (F := Ideal) ++ ops3 (F := Ideal)))))) (after (List.take 3 (List.drop 16 (List.drop rCut (ops2 (F := Ideal) ++ ops3 (F := Ideal))))) (after (List.take 16 (List.drop rCut (ops2 (F := Ideal) ++ ops3 (F := Ideal)))) V))) (Proc.devRef .tc main_v170)
    = agg specR (V (Proc.devRef .tc main_arg24)) (V (Proc.devRef .tc main_arg25)) onesR (after (List.take 16 (List.drop rCut (ops2 (F := Ideal) ++ ops3 (F := Ideal)))) V (Proc.devRef .tc main_v124)) := by
  rw [(rD_reads _).1, (rC_reads _).1, (rB_reads _).1, (rB_reads _).2 main_v127 (by decide), (rB_reads _).2 main_v128 (by decide), (rB_reads _).2 main_v130 (by decide),
    (rB_reads _).2 main_v133 (by decide), (rB_reads _).2 main_v124 (by decide), (rA_reads _).1, (rA_reads _).2.1, (rA_reads _).2.2.1, (rA_reads _).2.2.2.1, (rA_reads _).2.2.2.2.1, (rA_reads _).2.2.2.2.2.1]
  rfl

theorem rE_t : after (List.drop 42 (List.drop 3 (List.drop 16 (List.drop rCut (ops2 (F := Ideal) ++ ops3 (F := Ideal)))))) (after (List.take 42 (List.drop 3 (List.drop 16 (List.drop rCut (ops2 (F := Ideal) ++ ops3 (F := Ideal)))))) (after (List.take 3 (List.drop 16 (List.drop rCut (ops2 (F := Ideal) ++ ops3 (F := Ideal))))) (after (List.take 16 (List.drop rCut (ops2 (F := Ideal) ++ ops3 (F := Ideal)))) V))) (Proc.devRef .tc main_v124) = after (List.take 16 (List.drop rCut (ops2 (F := Ideal) ++ ops3 (F := Ideal)))) V (Proc.devRef .tc main_v124) := by
  rw [(rD_reads _).2.1, (rC_reads _).2.1, (rB_reads _).2 main_v124 (by decide)]

theorem rE_a24 : after (List.drop 42 (List.drop 3 (List.drop 16 (List.drop rCut (ops2 (F := Ideal) ++ ops3 (F := Ideal)))))) (after (List.take 42 (List.drop 3 (List.drop 16 (List.drop rCut (ops2 (F := Ideal) ++ ops3 (F := Ideal)))))) (after (List.take 3 (List.drop 16 (List.drop rCut (ops2 (F := Ideal) ++ ops3 (F := Ideal))))) (after (List.take 16 (List.drop rCut (ops2 (F := Ideal) ++ ops3 (F := Ideal)))) V))) (Proc.devRef .tc main_arg24) = V (Proc.devRef .tc main_arg24) := by
  rw [(rD_reads _).2.2.1, (rC_reads _).2.2.1, (rB_reads _).2 main_arg24 (by decide), (rA_reads _).2.2.2.2.2.2.1]

theorem rE_a25 : after (List.drop 42 (List.drop 3 (List.drop 16 (List.drop rCut (ops2 (F := Ideal) ++ ops3 (F := Ideal)))))) (after (List.take 42 (List.drop 3 (List.drop 16 (List.drop rCut (ops2 (F := Ideal) ++ ops3 (F := Ideal)))))) (after (List.take 3 (List.drop 16 (List.drop rCut (ops2 (F := Ideal) ++ ops3 (F := Ideal))))) (after (List.take 16 (List.drop rCut (ops2 (F := Ideal) ++ ops3 (F := Ideal)))) V))) (Proc.devRef .tc main_arg25) = V (Proc.devRef .tc main_arg25) := by
  rw [(rD_reads _).2.2.2, (rC_reads _).2.2.2, (rB_reads _).2 main_arg25 (by decide), (rA_reads _).2.2.2.2.2.2.2]

variable (m' : (ℓ : Loc nD τ sig) → Buf (Elt Ideal) ℓ) (c : Dev nD)

/-- The state after the two windows, as the four stages folded over the state the chain starts from. -/
theorem r_state : R4 (F := Ideal) m' c = after (List.drop 42 (List.drop 3 (List.drop 16 (List.drop rCut (ops2 (F := Ideal) ++ ops3 (F := Ideal)))))) (after (List.take 42 (List.drop 3 (List.drop 16 (List.drop rCut (ops2 (F := Ideal) ++ ops3 (F := Ideal)))))) (after (List.take 3 (List.drop 16 (List.drop rCut (ops2 (F := Ideal) ++ ops3 (F := Ideal))))) (after (List.take 16 (List.drop rCut (ops2 (F := Ideal) ++ ops3 (F := Ideal)))) (after (List.take rCut (ops2 (F := Ideal) ++ ops3 (F := Ideal))) (R2 (F := Ideal) m' c))))) := by
  show after (ops3 (F := Ideal)) (after (ops2 (F := Ideal)) (R2 (F := Ideal) m' c)) = _
  rw [← after_append (ops2 (F := Ideal)) (ops3 (F := Ideal)) (R2 (F := Ideal) m' c),
    after_cut rCut 16 3 42 (ops2 (F := Ideal) ++ ops3 (F := Ideal)) (R2 (F := Ideal) m' c)]

/-- The reference's aggregate is `agg` of its final edge lists and `t`. -/
theorem rf_read : R14 (F := Ideal) m' c (Proc.devRef .tc main_v170)
    = agg specR (R14 (F := Ideal) m' c (Proc.devRef .tc main_arg24)) (R14 (F := Ideal) m' c (Proc.devRef .tc main_arg25))
        onesR (R14 (F := Ideal) m' c (Proc.devRef .tc main_v124)) := by
  rw [carry4 (F := Ideal) m' c main_v170 (by decide), carry4 (F := Ideal) m' c main_v124 (by decide),
    carry4 (F := Ideal) m' c main_arg24 (by decide), carry4 (F := Ideal) m' c main_arg25 (by decide),
    r_state, rE_out, rE_t, rE_a24, rE_a25]

end Reference

section Claim

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs' aggregations are one function: the same stage functions at the same shapes and dimension
    numbers. -/
theorem agg_same (src dst : IVec Cert.ReferenceIdeal.S400000 32)
    (t : FVec Ideal Cert.ReferenceIdeal.S50000x128 .f32) :
    agg specK src dst onesK t = agg specR src dst onesR t := rfl

theorem agg2 (h : Cert.Iface.T2 m ρ m' c)
    (hs : HEq (Cert.Iface.Kf m ρ c Cert.KernelIdeal.main_arg24) (Cert.Iface.Rf m' c Cert.ReferenceIdeal.main_arg24))
    (hd : HEq (Cert.Iface.Kf m ρ c Cert.KernelIdeal.main_arg25) (Cert.Iface.Rf m' c Cert.ReferenceIdeal.main_arg25)) :
    Cert.Iface.Agg2 m ρ m' c := by
  have hk := kf_read m ρ c
  have hr := rf_read m' c
  have es : Cert.KernelIdeal.GenP.W58 (F := Ideal) m ρ c (Proc.devRef .tc Cert.KernelIdeal.main_arg24) = Cert.ReferenceIdeal.RefRun.R14 (F := Ideal) m' c (Proc.devRef .tc Cert.ReferenceIdeal.main_arg24) := eq_of_heq hs
  have ed : Cert.KernelIdeal.GenP.W58 (F := Ideal) m ρ c (Proc.devRef .tc Cert.KernelIdeal.main_arg25) = Cert.ReferenceIdeal.RefRun.R14 (F := Ideal) m' c (Proc.devRef .tc Cert.ReferenceIdeal.main_arg25) := eq_of_heq hd
  have et : (Cert.KernelIdeal.GenP.W58 (F := Ideal) m ρ c (Proc.devRef .tc Cert.KernelIdeal.main_v80) : Cert.KernelIdeal.S50000x128.Idx → EReal)
      = Cert.ReferenceIdeal.RefRun.R14 (F := Ideal) m' c (Proc.devRef .tc Cert.ReferenceIdeal.main_v124) := And.left h
  have hval : (Cert.KernelIdeal.GenP.W58 (F := Ideal) m ρ c (Proc.devRef .tc Cert.KernelIdeal.main_v126) : Cert.KernelIdeal.S50000x128.Idx → EReal)
      = Cert.ReferenceIdeal.RefRun.R14 (F := Ideal) m' c (Proc.devRef .tc Cert.ReferenceIdeal.main_v170) := by
    rw [hk, hr, es, ed, et]
    exact agg_same _ _ _
  have hfin : ∀ i, IsFin ((Cert.KernelIdeal.GenP.W58 (F := Ideal) m ρ c (Proc.devRef .tc Cert.KernelIdeal.main_v80) : Cert.KernelIdeal.S50000x128.Idx → EReal) i) := And.right h
  have hf : ∀ i, IsFin ((Cert.KernelIdeal.GenP.W58 (F := Ideal) m ρ c (Proc.devRef .tc Cert.KernelIdeal.main_v126) : Cert.KernelIdeal.S50000x128.Idx → EReal) i) := by
    rw [hk]
    exact fin_agg specK _ _ _ _ (fin_ones _ _) hfin
  exact And.intro hval hf

end Claim

end Cert.StageAgg2

end
-- ==== Proof.StageAgg3.lean ====
/- The graph aggregation of layer 3's normalized and projected state, with unit edge weights: both programs spell the same chain of host
   operations (self-loops appended to the edge lists, the degrees by an accumulating scatter, the guarded reciprocal
   square root, the coefficients by two gathers, the weighted rows scattered at the edges' targets). Each program's
   stretch of operations is cut into the chain's three stages and what follows; each stage is read at the few buffers
   that cross into the next one, in terms of the stage functions of the aggregation; composed, the kernel's result and
   the reference's are the SAME function `agg` of the edge lists and `t`, so equal inputs give equal results, and a real `t`
   gives a real result. The integer edge lists are arbitrary: nothing here reads them. -/
import proofs.«407945_j8993661518245_1_alg».proof.Proof.Iface
import proofs.«407945_j8993661518245_1_alg».proof.Proof.KCarry
import proofs.«407945_j8993661518245_1_alg».proof.Proof.LibAgg

set_option maxRecDepth 16384
set_option maxHeartbeats 1600000

noncomputable section

namespace Cert.StageAgg3

open Idealize.ShloMosaic Idealize.ShloMosaic.StableHlo Idealize.SL.Sem
open Cert.LibFinite Cert.LibAgg

section Kernel

open Cert.KernelIdeal Cert.KernelIdeal.Gen Cert.KernelIdeal.GenP

/-- The kernel program's aggregation: its shapes' facts and its gathers' and scatters' dimension numbers. -/
abbrev specK : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the kernel's first host stretch. -/
abbrev kCut : ℕ := 0

/-- Unit edge weights. -/
abbrev onesK : FVec Ideal S400000 .f32 :=
  broadcastInDim S400000 ![] bcast_S_S400000 (constant (F := Ideal) S_ .f32 0x3F800000#32)

variable (V : Valuation τ sig (Elt Ideal))

/-- The first stage: the self-looped edge lists, the weights, the degree, its sign bit, and the unit word the guard
    uses; the inputs pass through it. -/
theorem kA_reads :
    (after (List.drop kCut (hostOps11 (F := Ideal))) V (Proc.devRef .tc main_v143) = withSelf specK (V (Proc.devRef .tc main_arg24)))
    ∧ (after (List.drop kCut (hostOps11 (F := Ideal))) V (Proc.devRef .tc main_v144) = withSelf specK (V (Proc.devRef .tc main_arg25)))
    ∧ (after (List.drop kCut (hostOps11 (F := Ideal))) V (Proc.devRef .tc main_v146) = eew specK onesK)
    ∧ (after (List.drop kCut (hostOps11 (F := Ideal))) V (Proc.devRef .tc main_v149) = deg specK (withSelf specK (V (Proc.devRef .tc main_arg24))) (eew specK onesK))
    ∧ (after (List.drop kCut (hostOps11 (F := Ideal))) V (Proc.devRef .tc main_v151) = cmpf .ogt (deg specK (withSelf specK (V (Proc.devRef .tc main_arg24))) (eew specK onesK)) (broadcastInDim S50000 ![] bcast_S_S50000 (constant (F := Ideal) S_ .f32 0x00000000#32)))
    ∧ (after (List.drop kCut (hostOps11 (F := Ideal))) V (Proc.devRef .tc main_cst_37) = constant (F := Ideal) S_ .f32 0x3F800000#32)
    ∧ (after (List.drop kCut (hostOps11 (F := Ideal))) V (Proc.devRef .tc main_arg24) = V (Proc.devRef .tc main_arg24))
    ∧ (after (List.drop kCut (hostOps11 (F := Ideal))) V (Proc.devRef .tc main_arg25) = V (Proc.devRef .tc main_arg25)) := by
  simp only [kCut, hostOps11, hostOps11_2, List.drop_succ_cons, List.drop_zero, List.take_succ_cons, List.take_zero, List.cons_append, List.nil_append, List.drop_nil, List.take_nil]
  refine ⟨?_, ?_, ?_, ?_, ?_, ?_, ?_, ?_⟩
  · after_results; rfl
  · after_results; rfl
  · after_results; rfl
  · after_results; rfl
  · after_results; rfl
  · after_results
  · after_results
  · after_results

/-- The guard: the degree where its sign bit is set, the unit word elsewhere; every other buffer passes through. -/
theorem kB_reads :
    (after (hostOps11_1 (F := Ideal)) V (Proc.devRef .tc main_v152)
      = select (V (Proc.devRef .tc main_v151)) (V (Proc.devRef .tc main_v149)) (broadcastInDim S50000 ![] bcast_S_S50000 (id (V (Proc.devRef .tc main_cst_37)))))
    ∧ ∀ b : Ref sig .tc, b ≠ main_call2_v0 ∧ b ≠ main_call2_v1 ∧ b ≠ main_v152 → after (hostOps11_1 (F := Ideal)) V (Proc.devRef .tc b) = V (Proc.devRef .tc b) := by
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem kC_reads :
    (after (List.take 42 (hostOps11_2 (F := Ideal))) V (Proc.devRef .tc main_v186)
      = out specK (V (Proc.devRef .tc main_v143)) (V (Proc.devRef .tc main_v144))
          (norm specK (V (Proc.devRef .tc main_v143)) (V (Proc.devRef .tc main_v144)) (V (Proc.devRef .tc main_v146)) (disOf specK (V (Proc.devRef .tc main_v152)) (V (Proc.devRef .tc main_v149))))
          (V (Proc.devRef .tc main_v140)))
    ∧ (after (List.take 42 (hostOps11_2 (F := Ideal))) V (Proc.devRef .tc main_v140) = V (Proc.devRef .tc main_v140))
    ∧ (after (List.take 42 (hostOps11_2 (F := Ideal))) V (Proc.devRef .tc main_arg24) = V (Proc.devRef .tc main_arg24))
    ∧ (after (List.take 42 (hostOps11_2 (F := Ideal))) V (Proc.devRef .tc main_arg25) = V (Proc.devRef .tc main_arg25)) := by
  simp only [kCut, hostOps11, hostOps11_2, List.drop_succ_cons, List.drop_zero, List.take_succ_cons, List.take_zero, List.cons_append, List.nil_append, List.drop_nil, List.take_nil]
  refine ⟨?_, ?_, ?_, ?_⟩
  · after_results_simp; rfl
  · after_results_simp
  · after_results_simp
  · after_results_simp

set_option maxHeartbeats 1000000 in
/-- What follows the chain in its stretch writes none of these buffers. -/
theorem kD_reads :
    (after (List.drop 42 (hostOps11_2 (F := Ideal))) V (Proc.devRef .tc main_v186) = V (Proc.devRef .tc main_v186))
    ∧ (after (List.drop 42 (hostOps11_2 (F := Ideal))) V (Proc.devRef .tc main_v140) = V (Proc.devRef .tc main_v140))
    ∧ (after (List.drop 42 (hostOps11_2 (F := Ideal))) V (Proc.devRef .tc main_arg24) = V (Proc.devRef .tc main_arg24))
    ∧ (after (List.drop 42 (hostOps11_2 (F := Ideal))) V (Proc.devRef .tc main_arg25) = V (Proc.devRef .tc main_arg25)) := by
  simp only [kCut, hostOps11, hostOps11_2, List.drop_succ_cons, List.drop_zero, List.take_succ_cons, List.take_zero, List.cons_append, List.nil_append, List.drop_nil, List.take_nil]
  refine ⟨?_, ?_, ?_, ?_⟩
  · after_results_simp
  · after_results_simp
  · after_results_simp
  · after_results_simp

/-- The four stages in a row compute the aggregation, of the `t` the first stage leaves. -/
theorem kE_out : after (List.drop 42 (hostOps11_2 (F := Ideal))) (after (List.take 42 (hostOps11_2 (F := Ideal))) (after (hostOps11_1 (F := Ideal)) (after (List.drop kCut (hostOps11 (F := Ideal))) V))) (Proc.devRef .tc main_v186)
    = agg specK (V (Proc.devRef .tc main_arg24)) (V (Proc.devRef .tc main_arg25)) onesK (after (List.drop kCut (hostOps11 (F := Ideal))) V (Proc.devRef .tc main_v140)) := by
  rw [(kD_reads _).1, (kC_reads _).1, (kB_reads _).1, (kB_reads _).2 main_v143 (by decide), (kB_reads _).2 main_v144 (by decide), (kB_reads _).2 main_v146 (by decide),
    (kB_reads _).2 main_v149 (by decide), (kB_reads _).2 main_v140 (by decide), (kA_reads _).1, (kA_reads _).2.1, (kA_reads _).2.2.1, (kA_reads _).2.2.2.1, (kA_reads _).2.2.2.2.1, (kA_reads _).2.2.2.2.2.1]
  rfl

theorem kE_t : after (List.drop 42 (hostOps11_2 (F := Ideal))) (after (List.take 42 (hostOps11_2 (F := Ideal))) (after (hostOps11_1 (F := Ideal)) (after (List.drop kCut (hostOps11 (F := Ideal))) V))) (Proc.devRef .tc main_v140) = after (List.drop kCut (hostOps11 (F := Ideal))) V (Proc.devRef .tc main_v140) := by
  rw [(kD_reads _).2.1, (kC_reads _).2.1, (kB_reads _).2 main_v140 (by decide)]

theorem kE_a24 : after (List.drop 42 (hostOps11_2 (F := Ideal))) (after (List.take 42 (hostOps11_2 (F := Ideal))) (after (hostOps11_1 (F := Ideal)) (after (List.drop kCut (hostOps11 (F := Ideal))) V))) (Proc.devRef .tc main_arg24) = V (Proc.devRef .tc main_arg24) := by
  rw [(kD_reads _).2.2.1, (kC_reads _).2.2.1, (kB_reads _).2 main_arg24 (by decide), (kA_reads _).2.2.2.2.2.2.1]

theorem kE_a25 : after (List.drop 42 (hostOps11_2 (F := Ideal))) (after (List.take 42 (hostOps11_2 (F := Ideal))) (after (hostOps11_1 (F := Ideal)) (after (List.drop kCut (hostOps11 (F := Ideal))) V))) (Proc.devRef .tc main_arg25) = V (Proc.devRef .tc main_arg25) := by
  rw [(kD_reads _).2.2.2, (kC_reads _).2.2.2, (kB_reads _).2 main_arg25 (by decide), (kA_reads _).2.2.2.2.2.2.2]

variable (m : (ℓ : Loc nD τ sig) → Buf (Elt Ideal) ℓ) (ρ : Dev nD → PrngReg) (c : Dev nD)

/-- The state after the three host stretches, as the four stages folded over the state the chain starts from. -/
theorem k_state : W25 (F := Ideal) m ρ c = after (List.drop 42 (hostOps11_2 (F := Ideal))) (after (List.take 42 (hostOps11_2 (F := Ideal))) (after (hostOps11_1 (F := Ideal)) (after (List.drop kCut (hostOps11 (F := Ideal))) (after (List.take kCut (hostOps11 (F := Ideal))) (W22 (F := Ideal) m ρ c))))) := by
  show after (hostOps11_2 (F := Ideal)) (after (hostOps11_1 (F := Ideal)) (after (hostOps11 (F := Ideal)) (W22 (F := Ideal) m ρ c))) = _
  rw [after_split kCut (hostOps11 (F := Ideal)) (W22 (F := Ideal) m ρ c), after_split 42 (hostOps11_2 (F := Ideal))]

/-- The kernel's aggregate is `agg` of its final edge lists and `t`. -/
theorem kf_read : W58 (F := Ideal) m ρ c (Proc.devRef .tc main_v186)
    = agg specK (W58 (F := Ideal) m ρ c (Proc.devRef .tc main_arg24)) (W58 (F := Ideal) m ρ c (Proc.devRef .tc main_arg25))
        onesK (W58 (F := Ideal) m ρ c (Proc.devRef .tc main_v140)) := by
  rw [Cert.KernelIdeal.KCarry.carry25 (F := Ideal) m ρ c main_v186 (by decide),
    Cert.KernelIdeal.KCarry.carry25 (F := Ideal) m ρ c main_v140 (by decide),
    Cert.KernelIdeal.KCarry.carry25 (F := Ideal) m ρ c main_arg24 (by decide),
    Cert.KernelIdeal.KCarry.carry25 (F := Ideal) m ρ c main_arg25 (by decide),
    k_state, kE_out, kE_t, kE_a24, kE_a25]

end Kernel

section Reference

open Cert.ReferenceIdeal Cert.ReferenceIdeal.Gen Cert.ReferenceIdeal.RefRun

/-- The reference's aggregation: its shapes' facts and its gathers' and scatters' dimension numbers. -/
abbrev specR : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the reference's two windows taken together. -/
abbrev rCut : ℕ := 11

/-- Unit edge weights. -/
abbrev onesR : FVec Ideal S400000 .f32 :=
  broadcastInDim S400000 ![] bcast_S_S400000 (constant (F := Ideal) S_ .f32 0x3F800000#32)

variable (V : Valuation τ sig (Elt Ideal))

/-- The first stage: the self-looped edge lists, the weights, the degree, its sign bit, and the unit word the guard
    uses; the inputs pass through it. -/
theorem rA_reads :
    (after (List.take 16 (List.drop rCut (ops4 (F := Ideal) ++ ops5 (F := Ideal)))) V (Proc.devRef .tc main_v203) = withSelf specR (V (Proc.devRef .tc main_arg24)))
    ∧ (after (List.take 16 (List.drop rCut (ops4 (F := Ideal) ++ ops5 (F := Ideal)))) V (Proc.devRef .tc main_v204) = withSelf specR (V (Proc.devRef .tc main_arg25)))
    ∧ (after (List.take 16 (List.drop rCut (ops4 (F := Ideal) ++ ops5 (F := Ideal)))) V (Proc.devRef .tc main_v206) = eew specR onesR)
    ∧ (after (List.take 16 (List.drop rCut (ops4 (F := Ideal) ++ ops5 (F := Ideal)))) V (Proc.devRef .tc main_v209) = deg specR (withSelf specR (V (Proc.devRef .tc main_arg24))) (eew specR onesR))
    ∧ (after (List.take 16 (List.drop rCut (ops4 (F := Ideal) ++ ops5 (F := Ideal)))) V (Proc.devRef .tc main_v211) = cmpf .ogt (deg specR (withSelf specR (V (Proc.devRef .tc main_arg24))) (eew specR onesR)) (broadcastInDim S50000 ![] bcast_S_S50000 (constant (F := Ideal) S_ .f32 0x00000000#32)))
    ∧ (after (List.take 16 (List.drop rCut (ops4 (F := Ideal) ++ ops5 (F := Ideal)))) V (Proc.devRef .tc main_cst_52) = constant (F := Ideal) S_ .f32 0x3F800000#32)
    ∧ (after (List.take 16 (List.drop rCut (ops4 (F := Ideal) ++ ops5 (F := Ideal)))) V (Proc.devRef .tc main_arg24) = V (Proc.devRef .tc main_arg24))
    ∧ (after (List.take 16 (List.drop rCut (ops4 (F := Ideal) ++ ops5 (F := Ideal)))) V (Proc.devRef .tc main_arg25) = V (Proc.devRef .tc main_arg25)) := by
  simp only [rCut, ops4, ops5, List.drop_succ_cons, List.drop_zero, List.take_succ_cons, List.take_zero, List.cons_append, List.nil_append, List.drop_nil, List.take_nil]
  refine ⟨?_, ?_, ?_, ?_, ?_, ?_, ?_, ?_⟩
  · after_results; rfl
  · after_results; rfl
  · after_results; rfl
  · after_results; rfl
  · after_results; rfl
  · after_results
  · after_results
  · after_results

/-- The guard: the degree where its sign bit is set, the unit word elsewhere; every other buffer passes through. -/
theorem rB_reads :
    (after (List.take 3 (List.drop 16 (List.drop rCut (ops4 (F := Ideal) ++ ops5 (F := Ideal))))) V (Proc.devRef .tc main_v212)
      = select (V (Proc.devRef .tc main_v211)) (V (Proc.devRef .tc main_v209)) (broadcastInDim S50000 ![] bcast_S_S50000 (id (V (Proc.devRef .tc main_cst_52)))))
    ∧ ∀ b : Ref sig .tc, b ≠ main_call5_v0 ∧ b ≠ main_call5_v1 ∧ b ≠ main_v212 → after (List.take 3 (List.drop 16 (List.drop rCut (ops4 (F := Ideal) ++ ops5 (F := Ideal))))) V (Proc.devRef .tc b) = V (Proc.devRef .tc b) := by
  simp only [rCut, ops4, ops5, List.drop_succ_cons, List.drop_zero, List.take_succ_cons, List.take_zero, List.cons_append, List.nil_append, List.drop_nil, List.take_nil]
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem rC_reads :
    (after (List.take 42 (List.drop 3 (List.drop 16 (List.drop rCut (ops4 (F := Ideal) ++ ops5 (F := Ideal)))))) V (Proc.devRef .tc main_v246)
      = out specR (V (Proc.devRef .tc main_v203)) (V (Proc.devRef .tc main_v204))
          (norm specR (V (Proc.devRef .tc main_v203)) (V (Proc.devRef .tc main_v204)) (V (Proc.devRef .tc main_v206)) (disOf specR (V (Proc.devRef .tc main_v212)) (V (Proc.devRef .tc main_v209))))
          (V (Proc.devRef .tc main_v200)))
    ∧ (after (List.take 42 (List.drop 3 (List.drop 16 (List.drop rCut (ops4 (F := Ideal) ++ ops5 (F := Ideal)))))) V (Proc.devRef .tc main_v200) = V (Proc.devRef .tc main_v200))
    ∧ (after (List.take 42 (List.drop 3 (List.drop 16 (List.drop rCut (ops4 (F := Ideal) ++ ops5 (F := Ideal)))))) V (Proc.devRef .tc main_arg24) = V (Proc.devRef .tc main_arg24))
    ∧ (after (List.take 42 (List.drop 3 (List.drop 16 (List.drop rCut (ops4 (F := Ideal) ++ ops5 (F := Ideal)))))) V (Proc.devRef .tc main_arg25) = V (Proc.devRef .tc main_arg25)) := by
  simp only [rCut, ops4, ops5, List.drop_succ_cons, List.drop_zero, List.take_succ_cons, List.take_zero, List.cons_append, List.nil_append, List.drop_nil, List.take_nil]
  refine ⟨?_, ?_, ?_, ?_⟩
  · after_results_simp; rfl
  · after_results_simp
  · after_results_simp
  · after_results_simp

set_option maxHeartbeats 1000000 in
/-- What follows the chain in its stretch writes none of these buffers. -/
theorem rD_reads :
    (after (List.drop 42 (List.drop 3 (List.drop 16 (List.drop rCut (ops4 (F := Ideal) ++ ops5 (F := Ideal)))))) V (Proc.devRef .tc main_v246) = V (Proc.devRef .tc main_v246))
    ∧ (after (List.drop 42 (List.drop 3 (List.drop 16 (List.drop rCut (ops4 (F := Ideal) ++ ops5 (F := Ideal)))))) V (Proc.devRef .tc main_v200) = V (Proc.devRef .tc main_v200))
    ∧ (after (List.drop 42 (List.drop 3 (List.drop 16 (List.drop rCut (ops4 (F := Ideal) ++ ops5 (F := Ideal)))))) V (Proc.devRef .tc main_arg24) = V (Proc.devRef .tc main_arg24))
    ∧ (after (List.drop 42 (List.drop 3 (List.drop 16 (List.drop rCut (ops4 (F := Ideal) ++ ops5 (F := Ideal)))))) V (Proc.devRef .tc main_arg25) = V (Proc.devRef .tc main_arg25)) := by
  simp only [rCut, ops4, ops5, List.drop_succ_cons, List.drop_zero, List.take_succ_cons, List.take_zero, List.cons_append, List.nil_append, List.drop_nil, List.take_nil]
  refine ⟨?_, ?_, ?_, ?_⟩
  · after_results_simp
  · after_results_simp
  · after_results_simp
  · after_results_simp

/-- The four stages in a row compute the aggregation, of the `t` the first stage leaves. -/
theorem rE_out : after (List.drop 42 (List.drop 3 (List.drop 16 (List.drop rCut (ops4 (F := Ideal) ++ ops5 (F := Ideal)))))) (after (List.take 42 (List.drop 3 (List.drop 16 (List.drop rCut (ops4 (F := Ideal) ++ ops5 (F := Ideal)))))) (after (List.take 3 (List.drop 16 (List.drop rCut (ops4 (F := Ideal) ++ ops5 (F := Ideal))))) (after (List.take 16 (List.drop rCut (ops4 (F := Ideal) ++ ops5 (F := Ideal)))) V))) (Proc.devRef .tc main_v246)
    = agg specR (V (Proc.devRef .tc main_arg24)) (V (Proc.devRef .tc main_arg25)) onesR (after (List.take 16 (List.drop rCut (ops4 (F := Ideal) ++ ops5 (F := Ideal)))) V (Proc.devRef .tc main_v200)) := by
  rw [(rD_reads _).1, (rC_reads _).1, (rB_reads _).1, (rB_reads _).2 main_v203 (by decide), (rB_reads _).2 main_v204 (by decide), (rB_reads _).2 main_v206 (by decide),
    (rB_reads _).2 main_v209 (by decide), (rB_reads _).2 main_v200 (by decide), (rA_reads _).1, (rA_reads _).2.1, (rA_reads _).2.2.1, (rA_reads _).2.2.2.1, (rA_reads _).2.2.2.2.1, (rA_reads _).2.2.2.2.2.1]
  rfl

theorem rE_t : after (List.drop 42 (List.drop 3 (List.drop 16 (List.drop rCut (ops4 (F := Ideal) ++ ops5 (F := Ideal)))))) (after (List.take 42 (List.drop 3 (List.drop 16 (List.drop rCut (ops4 (F := Ideal) ++ ops5 (F := Ideal)))))) (after (List.take 3 (List.drop 16 (List.drop rCut (ops4 (F := Ideal) ++ ops5 (F := Ideal))))) (after (List.take 16 (List.drop rCut (ops4 (F := Ideal) ++ ops5 (F := Ideal)))) V))) (Proc.devRef .tc main_v200) = after (List.take 16 (List.drop rCut (ops4 (F := Ideal) ++ ops5 (F := Ideal)))) V (Proc.devRef .tc main_v200) := by
  rw [(rD_reads _).2.1, (rC_reads _).2.1, (rB_reads _).2 main_v200 (by decide)]

theorem rE_a24 : after (List.drop 42 (List.drop 3 (List.drop 16 (List.drop rCut (ops4 (F := Ideal) ++ ops5 (F := Ideal)))))) (after (List.take 42 (List.drop 3 (List.drop 16 (List.drop rCut (ops4 (F := Ideal) ++ ops5 (F := Ideal)))))) (after (List.take 3 (List.drop 16 (List.drop rCut (ops4 (F := Ideal) ++ ops5 (F := Ideal))))) (after (List.take 16 (List.drop rCut (ops4 (F := Ideal) ++ ops5 (F := Ideal)))) V))) (Proc.devRef .tc main_arg24) = V (Proc.devRef .tc main_arg24) := by
  rw [(rD_reads _).2.2.1, (rC_reads _).2.2.1, (rB_reads _).2 main_arg24 (by decide), (rA_reads _).2.2.2.2.2.2.1]

theorem rE_a25 : after (List.drop 42 (List.drop 3 (List.drop 16 (List.drop rCut (ops4 (F := Ideal) ++ ops5 (F := Ideal)))))) (after (List.take 42 (List.drop 3 (List.drop 16 (List.drop rCut (ops4 (F := Ideal) ++ ops5 (F := Ideal)))))) (after (List.take 3 (List.drop 16 (List.drop rCut (ops4 (F := Ideal) ++ ops5 (F := Ideal))))) (after (List.take 16 (List.drop rCut (ops4 (F := Ideal) ++ ops5 (F := Ideal)))) V))) (Proc.devRef .tc main_arg25) = V (Proc.devRef .tc main_arg25) := by
  rw [(rD_reads _).2.2.2, (rC_reads _).2.2.2, (rB_reads _).2 main_arg25 (by decide), (rA_reads _).2.2.2.2.2.2.2]

variable (m' : (ℓ : Loc nD τ sig) → Buf (Elt Ideal) ℓ) (c : Dev nD)

/-- The state after the two windows, as the four stages folded over the state the chain starts from. -/
theorem r_state : R6 (F := Ideal) m' c = after (List.drop 42 (List.drop 3 (List.drop 16 (List.drop rCut (ops4 (F := Ideal) ++ ops5 (F := Ideal)))))) (after (List.take 42 (List.drop 3 (List.drop 16 (List.drop rCut (ops4 (F := Ideal) ++ ops5 (F := Ideal)))))) (after (List.take 3 (List.drop 16 (List.drop rCut (ops4 (F := Ideal) ++ ops5 (F := Ideal))))) (after (List.take 16 (List.drop rCut (ops4 (F := Ideal) ++ ops5 (F := Ideal)))) (after (List.take rCut (ops4 (F := Ideal) ++ ops5 (F := Ideal))) (R4 (F := Ideal) m' c))))) := by
  show after (ops5 (F := Ideal)) (after (ops4 (F := Ideal)) (R4 (F := Ideal) m' c)) = _
  rw [← after_append (ops4 (F := Ideal)) (ops5 (F := Ideal)) (R4 (F := Ideal) m' c),
    after_cut rCut 16 3 42 (ops4 (F := Ideal) ++ ops5 (F := Ideal)) (R4 (F := Ideal) m' c)]

/-- The reference's aggregate is `agg` of its final edge lists and `t`. -/
theorem rf_read : R14 (F := Ideal) m' c (Proc.devRef .tc main_v246)
    = agg specR (R14 (F := Ideal) m' c (Proc.devRef .tc main_arg24)) (R14 (F := Ideal) m' c (Proc.devRef .tc main_arg25))
        onesR (R14 (F := Ideal) m' c (Proc.devRef .tc main_v200)) := by
  rw [carry6 (F := Ideal) m' c main_v246 (by decide), carry6 (F := Ideal) m' c main_v200 (by decide),
    carry6 (F := Ideal) m' c main_arg24 (by decide), carry6 (F := Ideal) m' c main_arg25 (by decide),
    r_state, rE_out, rE_t, rE_a24, rE_a25]

end Reference

section Claim

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs' aggregations are one function: the same stage functions at the same shapes and dimension
    numbers. -/
theorem agg_same (src dst : IVec Cert.ReferenceIdeal.S400000 32)
    (t : FVec Ideal Cert.ReferenceIdeal.S50000x128 .f32) :
    agg specK src dst onesK t = agg specR src dst onesR t := rfl

theorem agg3 (h : Cert.Iface.T3 m ρ m' c)
    (hs : HEq (Cert.Iface.Kf m ρ c Cert.KernelIdeal.main_arg24) (Cert.Iface.Rf m' c Cert.ReferenceIdeal.main_arg24))
    (hd : HEq (Cert.Iface.Kf m ρ c Cert.KernelIdeal.main_arg25) (Cert.Iface.Rf m' c Cert.ReferenceIdeal.main_arg25)) :
    Cert.Iface.Agg3 m ρ m' c := by
  have hk := kf_read m ρ c
  have hr := rf_read m' c
  have es : Cert.KernelIdeal.GenP.W58 (F := Ideal) m ρ c (Proc.devRef .tc Cert.KernelIdeal.main_arg24) = Cert.ReferenceIdeal.RefRun.R14 (F := Ideal) m' c (Proc.devRef .tc Cert.ReferenceIdeal.main_arg24) := eq_of_heq hs
  have ed : Cert.KernelIdeal.GenP.W58 (F := Ideal) m ρ c (Proc.devRef .tc Cert.KernelIdeal.main_arg25) = Cert.ReferenceIdeal.RefRun.R14 (F := Ideal) m' c (Proc.devRef .tc Cert.ReferenceIdeal.main_arg25) := eq_of_heq hd
  have et : (Cert.KernelIdeal.GenP.W58 (F := Ideal) m ρ c (Proc.devRef .tc Cert.KernelIdeal.main_v140) : Cert.KernelIdeal.S50000x128.Idx → EReal)
      = Cert.ReferenceIdeal.RefRun.R14 (F := Ideal) m' c (Proc.devRef .tc Cert.ReferenceIdeal.main_v200) := And.left h
  have hval : (Cert.KernelIdeal.GenP.W58 (F := Ideal) m ρ c (Proc.devRef .tc Cert.KernelIdeal.main_v186) : Cert.KernelIdeal.S50000x128.Idx → EReal)
      = Cert.ReferenceIdeal.RefRun.R14 (F := Ideal) m' c (Proc.devRef .tc Cert.ReferenceIdeal.main_v246) := by
    rw [hk, hr, es, ed, et]
    exact agg_same _ _ _
  have hfin : ∀ i, IsFin ((Cert.KernelIdeal.GenP.W58 (F := Ideal) m ρ c (Proc.devRef .tc Cert.KernelIdeal.main_v140) : Cert.KernelIdeal.S50000x128.Idx → EReal) i) := And.right h
  have hf : ∀ i, IsFin ((Cert.KernelIdeal.GenP.W58 (F := Ideal) m ρ c (Proc.devRef .tc Cert.KernelIdeal.main_v186) : Cert.KernelIdeal.S50000x128.Idx → EReal) i) := by
    rw [hk]
    exact fin_agg specK _ _ _ _ (fin_ones _ _) hfin
  exact And.intro hval hf

end Claim

end Cert.StageAgg3

end
-- ==== Proof.StageAggNa.lean ====
/- The graph aggregation of the node-attention logits' normalized and projected state, with unit edge weights: both programs spell the same chain of host
   operations (self-loops appended to the edge lists, the degrees by an accumulating scatter, the guarded reciprocal
   square root, the coefficients by two gathers, the weighted rows scattered at the edges' targets). Each program's
   stretch of operations is cut into the chain's three stages and what follows; each stage is read at the few buffers
   that cross into the next one, in terms of the stage functions of the aggregation; composed, the kernel's result and
   the reference's are the SAME function `agg` of the edge lists and `t`, so equal inputs give equal results, and a real `t`
   gives a real result. The integer edge lists are arbitrary: nothing here reads them. -/
import proofs.«407945_j8993661518245_1_alg».proof.Proof.Iface
import proofs.«407945_j8993661518245_1_alg».proof.Proof.KCarry
import proofs.«407945_j8993661518245_1_alg».proof.Proof.LibAgg

set_option maxRecDepth 16384
set_option maxHeartbeats 1600000

noncomputable section

namespace Cert.StageAggNa

open Idealize.ShloMosaic Idealize.ShloMosaic.StableHlo Idealize.SL.Sem
open Cert.LibFinite Cert.LibAgg

section Kernel

open Cert.KernelIdeal Cert.KernelIdeal.Gen Cert.KernelIdeal.GenP

/-- The kernel program's aggregation: its shapes' facts and its gathers' and scatters' dimension numbers. -/
abbrev specK : Spec S_ S50000 S400000 S450000 S450000x1 S50000x2 S450000x2 where
  d0N := ![]
  h0N := bcast_S_S50000
  d0M := ![]
  h0M := bcast_S_S450000
  d0NW := ![]
  h0NW := bcast_S_S50000x2
  dM1 := ![0]
  hM1 := bcast_S450000_S450000x1_0
  dMW := ![0, 1]
  hMW := bcast_S450000x1_S450000x2_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x2_S450000x1_S450000x2_1_0_n_n_0_1_12
  scatW := scatter_S50000x2_S450000x1_S450000x2_1_0_0_1

/-- Where the chain begins in the kernel's first host stretch. -/
abbrev kCut : ℕ := 41

/-- Unit edge weights. -/
abbrev onesK : FVec Ideal S400000 .f32 :=
  broadcastInDim S400000 ![] bcast_S_S400000 (constant (F := Ideal) S_ .f32 0x3F800000#32)

variable (V : Valuation τ sig (Elt Ideal))

/-- The first stage: the self-looped edge lists, the weights, the degree, its sign bit, and the unit word the guard
    uses; the inputs pass through it. -/
theorem kA_reads :
    (after (List.drop kCut (hostOps12 (F := Ideal))) V (Proc.devRef .tc main_v227) = withSelf specK (V (Proc.devRef .tc main_arg24)))
    ∧ (after (List.drop kCut (hostOps12 (F := Ideal))) V (Proc.devRef .tc main_v228) = withSelf specK (V (Proc.devRef .tc main_arg25)))
    ∧ (after (List.drop kCut (hostOps12 (F := Ideal))) V (Proc.devRef .tc main_v230) = eew specK onesK)
    ∧ (after (List.drop kCut (hostOps12 (F := Ideal))) V (Proc.devRef .tc main_v233) = deg specK (withSelf specK (V (Proc.devRef .tc main_arg24))) (eew specK onesK))
    ∧ (after (List.drop kCut (hostOps12 (F := Ideal))) V (Proc.devRef .tc main_v235) = cmpf .ogt (deg specK (withSelf specK (V (Proc.devRef .tc main_arg24))) (eew specK onesK)) (broadcastInDim S50000 ![] bcast_S_S50000 (constant (F := Ideal) S_ .f32 0x00000000#32)))
    ∧ (after (List.drop kCut (hostOps12 (F := Ideal))) V (Proc.devRef .tc main_cst_57) = constant (F := Ideal) S_ .f32 0x3F800000#32)
    ∧ (after (List.drop kCut (hostOps12 (F := Ideal))) V (Proc.devRef .tc main_arg24) = V (Proc.devRef .tc main_arg24))
    ∧ (after (List.drop kCut (hostOps12 (F := Ideal))) V (Proc.devRef .tc main_arg25) = V (Proc.devRef .tc main_arg25)) := by
  simp only [kCut, hostOps12, hostOps12_2, List.drop_succ_cons, List.drop_zero, List.take_succ_cons, List.take_zero, List.cons_append, List.nil_append, List.drop_nil, List.take_nil]
  refine ⟨?_, ?_, ?_, ?_, ?_, ?_, ?_, ?_⟩
  · after_results; rfl
  · after_results; rfl
  · after_results; rfl
  · after_results; rfl
  · after_results; rfl
  · after_results
  · after_results
  · after_results

/-- The guard: the degree where its sign bit is set, the unit word elsewhere; every other buffer passes through. -/
theorem kB_reads :
    (after (hostOps12_1 (F := Ideal)) V (Proc.devRef .tc main_v236)
      = select (V (Proc.devRef .tc main_v235)) (V (Proc.devRef .tc main_v233)) (broadcastInDim S50000 ![] bcast_S_S50000 (id (V (Proc.devRef .tc main_cst_57)))))
    ∧ ∀ b : Ref sig .tc, b ≠ main_call3_v0 ∧ b ≠ main_call3_v1 ∧ b ≠ main_v236 → after (hostOps12_1 (F := Ideal)) V (Proc.devRef .tc b) = V (Proc.devRef .tc b) := by
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem kC_reads :
    (after (List.take 42 (hostOps12_2 (F := Ideal))) V (Proc.devRef .tc main_v270)
      = out specK (V (Proc.devRef .tc main_v227)) (V (Proc.devRef .tc main_v228))
          (norm specK (V (Proc.devRef .tc main_v227)) (V (Proc.devRef .tc main_v228)) (V (Proc.devRef .tc main_v230)) (disOf specK (V (Proc.devRef .tc main_v236)) (V (Proc.devRef .tc main_v233))))
          (V (Proc.devRef .tc main_v224)))
    ∧ (after (List.take 42 (hostOps12_2 (F := Ideal))) V (Proc.devRef .tc main_v224) = V (Proc.devRef .tc main_v224))
    ∧ (after (List.take 42 (hostOps12_2 (F := Ideal))) V (Proc.devRef .tc main_arg24) = V (Proc.devRef .tc main_arg24))
    ∧ (after (List.take 42 (hostOps12_2 (F := Ideal))) V (Proc.devRef .tc main_arg25) = V (Proc.devRef .tc main_arg25)) := by
  simp only [kCut, hostOps12, hostOps12_2, List.drop_succ_cons, List.drop_zero, List.take_succ_cons, List.take_zero, List.cons_append, List.nil_append, List.drop_nil, List.take_nil]
  refine ⟨?_, ?_, ?_, ?_⟩
  · after_results_simp; rfl
  · after_results_simp
  · after_results_simp
  · after_results_simp

set_option maxHeartbeats 1000000 in
/-- What follows the chain in its stretch writes none of these buffers. -/
theorem kD_reads :
    (after (List.drop 42 (hostOps12_2 (F := Ideal))) V (Proc.devRef .tc main_v270) = V (Proc.devRef .tc main_v270))
    ∧ (after (List.drop 42 (hostOps12_2 (F := Ideal))) V (Proc.devRef .tc main_v224) = V (Proc.devRef .tc main_v224))
    ∧ (after (List.drop 42 (hostOps12_2 (F := Ideal))) V (Proc.devRef .tc main_arg24) = V (Proc.devRef .tc main_arg24))
    ∧ (after (List.drop 42 (hostOps12_2 (F := Ideal))) V (Proc.devRef .tc main_arg25) = V (Proc.devRef .tc main_arg25)) := by
  simp only [kCut, hostOps12, hostOps12_2, List.drop_succ_cons, List.drop_zero, List.take_succ_cons, List.take_zero, List.cons_append, List.nil_append, List.drop_nil, List.take_nil]
  refine ⟨?_, ?_, ?_, ?_⟩
  · after_results_simp
  · after_results_simp
  · after_results_simp
  · after_results_simp

/-- The four stages in a row compute the aggregation, of the `t` the first stage leaves. -/
theorem kE_out : after (List.drop 42 (hostOps12_2 (F := Ideal))) (after (List.take 42 (hostOps12_2 (F := Ideal))) (after (hostOps12_1 (F := Ideal)) (after (List.drop kCut (hostOps12 (F := Ideal))) V))) (Proc.devRef .tc main_v270)
    = agg specK (V (Proc.devRef .tc main_arg24)) (V (Proc.devRef .tc main_arg25)) onesK (after (List.drop kCut (hostOps12 (F := Ideal))) V (Proc.devRef .tc main_v224)) := by
  rw [(kD_reads _).1, (kC_reads _).1, (kB_reads _).1, (kB_reads _).2 main_v227 (by decide), (kB_reads _).2 main_v228 (by decide), (kB_reads _).2 main_v230 (by decide),
    (kB_reads _).2 main_v233 (by decide), (kB_reads _).2 main_v224 (by decide), (kA_reads _).1, (kA_reads _).2.1, (kA_reads _).2.2.1, (kA_reads _).2.2.2.1, (kA_reads _).2.2.2.2.1, (kA_reads _).2.2.2.2.2.1]
  rfl

theorem kE_t : after (List.drop 42 (hostOps12_2 (F := Ideal))) (after (List.take 42 (hostOps12_2 (F := Ideal))) (after (hostOps12_1 (F := Ideal)) (after (List.drop kCut (hostOps12 (F := Ideal))) V))) (Proc.devRef .tc main_v224) = after (List.drop kCut (hostOps12 (F := Ideal))) V (Proc.devRef .tc main_v224) := by
  rw [(kD_reads _).2.1, (kC_reads _).2.1, (kB_reads _).2 main_v224 (by decide)]

theorem kE_a24 : after (List.drop 42 (hostOps12_2 (F := Ideal))) (after (List.take 42 (hostOps12_2 (F := Ideal))) (after (hostOps12_1 (F := Ideal)) (after (List.drop kCut (hostOps12 (F := Ideal))) V))) (Proc.devRef .tc main_arg24) = V (Proc.devRef .tc main_arg24) := by
  rw [(kD_reads _).2.2.1, (kC_reads _).2.2.1, (kB_reads _).2 main_arg24 (by decide), (kA_reads _).2.2.2.2.2.2.1]

theorem kE_a25 : after (List.drop 42 (hostOps12_2 (F := Ideal))) (after (List.take 42 (hostOps12_2 (F := Ideal))) (after (hostOps12_1 (F := Ideal)) (after (List.drop kCut (hostOps12 (F := Ideal))) V))) (Proc.devRef .tc main_arg25) = V (Proc.devRef .tc main_arg25) := by
  rw [(kD_reads _).2.2.2, (kC_reads _).2.2.2, (kB_reads _).2 main_arg25 (by decide), (kA_reads _).2.2.2.2.2.2.2]

variable (m : (ℓ : Loc nD τ sig) → Buf (Elt Ideal) ℓ) (ρ : Dev nD → PrngReg) (c : Dev nD)

/-- The state after the three host stretches, as the four stages folded over the state the chain starts from. -/
theorem k_state : W29 (F := Ideal) m ρ c = after (List.drop 42 (hostOps12_2 (F := Ideal))) (after (List.take 42 (hostOps12_2 (F := Ideal))) (after (hostOps12_1 (F := Ideal)) (after (List.drop kCut (hostOps12 (F := Ideal))) (after (List.take kCut (hostOps12 (F := Ideal))) (W26 (F := Ideal) m ρ c))))) := by
  show after (hostOps12_2 (F := Ideal)) (after (hostOps12_1 (F := Ideal)) (after (hostOps12 (F := Ideal)) (W26 (F := Ideal) m ρ c))) = _
  rw [after_split kCut (hostOps12 (F := Ideal)) (W26 (F := Ideal) m ρ c), after_split 42 (hostOps12_2 (F := Ideal))]

/-- The kernel's aggregate is `agg` of its final edge lists and `t`. -/
theorem kf_read : W58 (F := Ideal) m ρ c (Proc.devRef .tc main_v270)
    = agg specK (W58 (F := Ideal) m ρ c (Proc.devRef .tc main_arg24)) (W58 (F := Ideal) m ρ c (Proc.devRef .tc main_arg25))
        onesK (W58 (F := Ideal) m ρ c (Proc.devRef .tc main_v224)) := by
  rw [Cert.KernelIdeal.KCarry.carry29 (F := Ideal) m ρ c main_v270 (by decide),
    Cert.KernelIdeal.KCarry.carry29 (F := Ideal) m ρ c main_v224 (by decide),
    Cert.KernelIdeal.KCarry.carry29 (F := Ideal) m ρ c main_arg24 (by decide),
    Cert.KernelIdeal.KCarry.carry29 (F := Ideal) m ρ c main_arg25 (by decide),
    k_state, kE_out, kE_t, kE_a24, kE_a25]

end Kernel

section Reference

open Cert.ReferenceIdeal Cert.ReferenceIdeal.Gen Cert.ReferenceIdeal.RefRun

/-- The reference's aggregation: its shapes' facts and its gathers' and scatters' dimension numbers. -/
abbrev specR : Spec S_ S50000 S400000 S450000 S450000x1 S50000x2 S450000x2 where
  d0N := ![]
  h0N := bcast_S_S50000
  d0M := ![]
  h0M := bcast_S_S450000
  d0NW := ![]
  h0NW := bcast_S_S50000x2
  dM1 := ![0]
  hM1 := bcast_S450000_S450000x1_0
  dMW := ![0, 1]
  hMW := bcast_S450000x1_S450000x2_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x2_S450000x1_S450000x2_1_0_n_n_0_1_12
  scatW := scatter_S50000x2_S450000x1_S450000x2_1_0_0_1

/-- Where the chain begins in the reference's two windows taken together. -/
abbrev rCut : ℕ := 54

/-- Unit edge weights. -/
abbrev onesR : FVec Ideal S400000 .f32 :=
  broadcastInDim S400000 ![] bcast_S_S400000 (constant (F := Ideal) S_ .f32 0x3F800000#32)

variable (V : Valuation τ sig (Elt Ideal))

/-- The first stage: the self-looped edge lists, the weights, the degree, its sign bit, and the unit word the guard
    uses; the inputs pass through it. -/
theorem rA_reads :
    (after (List.take 16 (List.drop rCut (ops5 (F := Ideal) ++ ops6 (F := Ideal)))) V (Proc.devRef .tc main_v284) = withSelf specR (V (Proc.devRef .tc main_arg24)))
    ∧ (after (List.take 16 (List.drop rCut (ops5 (F := Ideal) ++ ops6 (F := Ideal)))) V (Proc.devRef .tc main_v285) = withSelf specR (V (Proc.devRef .tc main_arg25)))
    ∧ (after (List.take 16 (List.drop rCut (ops5 (F := Ideal) ++ ops6 (F := Ideal)))) V (Proc.devRef .tc main_v287) = eew specR onesR)
    ∧ (after (List.take 16 (List.drop rCut (ops5 (F := Ideal) ++ ops6 (F := Ideal)))) V (Proc.devRef .tc main_v290) = deg specR (withSelf specR (V (Proc.devRef .tc main_arg24))) (eew specR onesR))
    ∧ (after (List.take 16 (List.drop rCut (ops5 (F := Ideal) ++ ops6 (F := Ideal)))) V (Proc.devRef .tc main_v292) = cmpf .ogt (deg specR (withSelf specR (V (Proc.devRef .tc main_arg24))) (eew specR onesR)) (broadcastInDim S50000 ![] bcast_S_S50000 (constant (F := Ideal) S_ .f32 0x00000000#32)))
    ∧ (after (List.take 16 (List.drop rCut (ops5 (F := Ideal) ++ ops6 (F := Ideal)))) V (Proc.devRef .tc main_cst_72) = constant (F := Ideal) S_ .f32 0x3F800000#32)
    ∧ (after (List.take 16 (List.drop rCut (ops5 (F := Ideal) ++ ops6 (F := Ideal)))) V (Proc.devRef .tc main_arg24) = V (Proc.devRef .tc main_arg24))
    ∧ (after (List.take 16 (List.drop rCut (ops5 (F := Ideal) ++ ops6 (F := Ideal)))) V (Proc.devRef .tc main_arg25) = V (Proc.devRef .tc main_arg25)) := by
  simp only [rCut, ops5, ops6, List.drop_succ_cons, List.drop_zero, List.take_succ_cons, List.take_zero, List.cons_append, List.nil_append, List.drop_nil, List.take_nil]
  refine ⟨?_, ?_, ?_, ?_, ?_, ?_, ?_, ?_⟩
  · after_results; rfl
  · after_results; rfl
  · after_results; rfl
  · after_results; rfl
  · after_results; rfl
  · after_results
  · after_results
  · after_results

/-- The guard: the degree where its sign bit is set, the unit word elsewhere; every other buffer passes through. -/
theorem rB_reads :
    (after (List.take 3 (List.drop 16 (List.drop rCut (ops5 (F := Ideal) ++ ops6 (F := Ideal))))) V (Proc.devRef .tc main_v293)
      = select (V (Proc.devRef .tc main_v292)) (V (Proc.devRef .tc main_v290)) (broadcastInDim S50000 ![] bcast_S_S50000 (id (V (Proc.devRef .tc main_cst_72)))))
    ∧ ∀ b : Ref sig .tc, b ≠ main_call7_v0 ∧ b ≠ main_call7_v1 ∧ b ≠ main_v293 → after (List.take 3 (List.drop 16 (List.drop rCut (ops5 (F := Ideal) ++ ops6 (F := Ideal))))) V (Proc.devRef .tc b) = V (Proc.devRef .tc b) := by
  simp only [rCut, ops5, ops6, List.drop_succ_cons, List.drop_zero, List.take_succ_cons, List.take_zero, List.cons_append, List.nil_append, List.drop_nil, List.take_nil]
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem rC_reads :
    (after (List.take 42 (List.drop 3 (List.drop 16 (List.drop rCut (ops5 (F := Ideal) ++ ops6 (F := Ideal)))))) V (Proc.devRef .tc main_v327)
      = out specR (V (Proc.devRef .tc main_v284)) (V (Proc.devRef .tc main_v285))
          (norm specR (V (Proc.devRef .tc main_v284)) (V (Proc.devRef .tc main_v285)) (V (Proc.devRef .tc main_v287)) (disOf specR (V (Proc.devRef .tc main_v293)) (V (Proc.devRef .tc main_v290))))
          (V (Proc.devRef .tc main_v281)))
    ∧ (after (List.take 42 (List.drop 3 (List.drop 16 (List.drop rCut (ops5 (F := Ideal) ++ ops6 (F := Ideal)))))) V (Proc.devRef .tc main_v281) = V (Proc.devRef .tc main_v281))
    ∧ (after (List.take 42 (List.drop 3 (List.drop 16 (List.drop rCut (ops5 (F := Ideal) ++ ops6 (F := Ideal)))))) V (Proc.devRef .tc main_arg24) = V (Proc.devRef .tc main_arg24))
    ∧ (after (List.take 42 (List.drop 3 (List.drop 16 (List.drop rCut (ops5 (F := Ideal) ++ ops6 (F := Ideal)))))) V (Proc.devRef .tc main_arg25) = V (Proc.devRef .tc main_arg25)) := by
  simp only [rCut, ops5, ops6, List.drop_succ_cons, List.drop_zero, List.take_succ_cons, List.take_zero, List.cons_append, List.nil_append, List.drop_nil, List.take_nil]
  refine ⟨?_, ?_, ?_, ?_⟩
  · after_results_simp; rfl
  · after_results_simp
  · after_results_simp
  · after_results_simp

set_option maxHeartbeats 1000000 in
/-- What follows the chain in its stretch writes none of these buffers. -/
theorem rD_reads :
    (after (List.drop 42 (List.drop 3 (List.drop 16 (List.drop rCut (ops5 (F := Ideal) ++ ops6 (F := Ideal)))))) V (Proc.devRef .tc main_v327) = V (Proc.devRef .tc main_v327))
    ∧ (after (List.drop 42 (List.drop 3 (List.drop 16 (List.drop rCut (ops5 (F := Ideal) ++ ops6 (F := Ideal)))))) V (Proc.devRef .tc main_v281) = V (Proc.devRef .tc main_v281))
    ∧ (after (List.drop 42 (List.drop 3 (List.drop 16 (List.drop rCut (ops5 (F := Ideal) ++ ops6 (F := Ideal)))))) V (Proc.devRef .tc main_arg24) = V (Proc.devRef .tc main_arg24))
    ∧ (after (List.drop 42 (List.drop 3 (List.drop 16 (List.drop rCut (ops5 (F := Ideal) ++ ops6 (F := Ideal)))))) V (Proc.devRef .tc main_arg25) = V (Proc.devRef .tc main_arg25)) := by
  simp only [rCut, ops5, ops6, List.drop_succ_cons, List.drop_zero, List.take_succ_cons, List.take_zero, List.cons_append, List.nil_append, List.drop_nil, List.take_nil]
  refine ⟨?_, ?_, ?_, ?_⟩
  · after_results_simp
  · after_results_simp
  · after_results_simp
  · after_results_simp

/-- The four stages in a row compute the aggregation, of the `t` the first stage leaves. -/
theorem rE_out : after (List.drop 42 (List.drop 3 (List.drop 16 (List.drop rCut (ops5 (F := Ideal) ++ ops6 (F := Ideal)))))) (after (List.take 42 (List.drop 3 (List.drop 16 (List.drop rCut (ops5 (F := Ideal) ++ ops6 (F := Ideal)))))) (after (List.take 3 (List.drop 16 (List.drop rCut (ops5 (F := Ideal) ++ ops6 (F := Ideal))))) (after (List.take 16 (List.drop rCut (ops5 (F := Ideal) ++ ops6 (F := Ideal)))) V))) (Proc.devRef .tc main_v327)
    = agg specR (V (Proc.devRef .tc main_arg24)) (V (Proc.devRef .tc main_arg25)) onesR (after (List.take 16 (List.drop rCut (ops5 (F := Ideal) ++ ops6 (F := Ideal)))) V (Proc.devRef .tc main_v281)) := by
  rw [(rD_reads _).1, (rC_reads _).1, (rB_reads _).1, (rB_reads _).2 main_v284 (by decide), (rB_reads _).2 main_v285 (by decide), (rB_reads _).2 main_v287 (by decide),
    (rB_reads _).2 main_v290 (by decide), (rB_reads _).2 main_v281 (by decide), (rA_reads _).1, (rA_reads _).2.1, (rA_reads _).2.2.1, (rA_reads _).2.2.2.1, (rA_reads _).2.2.2.2.1, (rA_reads _).2.2.2.2.2.1]
  rfl

theorem rE_t : after (List.drop 42 (List.drop 3 (List.drop 16 (List.drop rCut (ops5 (F := Ideal) ++ ops6 (F := Ideal)))))) (after (List.take 42 (List.drop 3 (List.drop 16 (List.drop rCut (ops5 (F := Ideal) ++ ops6 (F := Ideal)))))) (after (List.take 3 (List.drop 16 (List.drop rCut (ops5 (F := Ideal) ++ ops6 (F := Ideal))))) (after (List.take 16 (List.drop rCut (ops5 (F := Ideal) ++ ops6 (F := Ideal)))) V))) (Proc.devRef .tc main_v281) = after (List.take 16 (List.drop rCut (ops5 (F := Ideal) ++ ops6 (F := Ideal)))) V (Proc.devRef .tc main_v281) := by
  rw [(rD_reads _).2.1, (rC_reads _).2.1, (rB_reads _).2 main_v281 (by decide)]

theorem rE_a24 : after (List.drop 42 (List.drop 3 (List.drop 16 (List.drop rCut (ops5 (F := Ideal) ++ ops6 (F := Ideal)))))) (after (List.take 42 (List.drop 3 (List.drop 16 (List.drop rCut (ops5 (F := Ideal) ++ ops6 (F := Ideal)))))) (after (List.take 3 (List.drop 16 (List.drop rCut (ops5 (F := Ideal) ++ ops6 (F := Ideal))))) (after (List.take 16 (List.drop rCut (ops5 (F := Ideal) ++ ops6 (F := Ideal)))) V))) (Proc.devRef .tc main_arg24) = V (Proc.devRef .tc main_arg24) := by
  rw [(rD_reads _).2.2.1, (rC_reads _).2.2.1, (rB_reads _).2 main_arg24 (by decide), (rA_reads _).2.2.2.2.2.2.1]

theorem rE_a25 : after (List.drop 42 (List.drop 3 (List.drop 16 (List.drop rCut (ops5 (F := Ideal) ++ ops6 (F := Ideal)))))) (after (List.take 42 (List.drop 3 (List.drop 16 (List.drop rCut (ops5 (F := Ideal) ++ ops6 (F := Ideal)))))) (after (List.take 3 (List.drop 16 (List.drop rCut (ops5 (F := Ideal) ++ ops6 (F := Ideal))))) (after (List.take 16 (List.drop rCut (ops5 (F := Ideal) ++ ops6 (F := Ideal)))) V))) (Proc.devRef .tc main_arg25) = V (Proc.devRef .tc main_arg25) := by
  rw [(rD_reads _).2.2.2, (rC_reads _).2.2.2, (rB_reads _).2 main_arg25 (by decide), (rA_reads _).2.2.2.2.2.2.2]

variable (m' : (ℓ : Loc nD τ sig) → Buf (Elt Ideal) ℓ) (c : Dev nD)

/-- The state after the two windows, as the four stages folded over the state the chain starts from. -/
theorem r_state : R7 (F := Ideal) m' c = after (List.drop 42 (List.drop 3 (List.drop 16 (List.drop rCut (ops5 (F := Ideal) ++ ops6 (F := Ideal)))))) (after (List.take 42 (List.drop 3 (List.drop 16 (List.drop rCut (ops5 (F := Ideal) ++ ops6 (F := Ideal)))))) (after (List.take 3 (List.drop 16 (List.drop rCut (ops5 (F := Ideal) ++ ops6 (F := Ideal))))) (after (List.take 16 (List.drop rCut (ops5 (F := Ideal) ++ ops6 (F := Ideal)))) (after (List.take rCut (ops5 (F := Ideal) ++ ops6 (F := Ideal))) (R5 (F := Ideal) m' c))))) := by
  show after (ops6 (F := Ideal)) (after (ops5 (F := Ideal)) (R5 (F := Ideal) m' c)) = _
  rw [← after_append (ops5 (F := Ideal)) (ops6 (F := Ideal)) (R5 (F := Ideal) m' c),
    after_cut rCut 16 3 42 (ops5 (F := Ideal) ++ ops6 (F := Ideal)) (R5 (F := Ideal) m' c)]

/-- The reference's aggregate is `agg` of its final edge lists and `t`. -/
theorem rf_read : R14 (F := Ideal) m' c (Proc.devRef .tc main_v327)
    = agg specR (R14 (F := Ideal) m' c (Proc.devRef .tc main_arg24)) (R14 (F := Ideal) m' c (Proc.devRef .tc main_arg25))
        onesR (R14 (F := Ideal) m' c (Proc.devRef .tc main_v281)) := by
  rw [carry7 (F := Ideal) m' c main_v327 (by decide), carry7 (F := Ideal) m' c main_v281 (by decide),
    carry7 (F := Ideal) m' c main_arg24 (by decide), carry7 (F := Ideal) m' c main_arg25 (by decide),
    r_state, rE_out, rE_t, rE_a24, rE_a25]

end Reference

section Claim

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs' aggregations are one function: the same stage functions at the same shapes and dimension
    numbers. -/
theorem agg_same (src dst : IVec Cert.ReferenceIdeal.S400000 32)
    (t : FVec Ideal Cert.ReferenceIdeal.S50000x2 .f32) :
    agg specK src dst onesK t = agg specR src dst onesR t := rfl

theorem aggna (h : Cert.Iface.NaT m ρ m' c)
    (hs : HEq (Cert.Iface.Kf m ρ c Cert.KernelIdeal.main_arg24) (Cert.Iface.Rf m' c Cert.ReferenceIdeal.main_arg24))
    (hd : HEq (Cert.Iface.Kf m ρ c Cert.KernelIdeal.main_arg25) (Cert.Iface.Rf m' c Cert.ReferenceIdeal.main_arg25)) :
    Cert.Iface.AggNa m ρ m' c := by
  have hk := kf_read m ρ c
  have hr := rf_read m' c
  have es : Cert.KernelIdeal.GenP.W58 (F := Ideal) m ρ c (Proc.devRef .tc Cert.KernelIdeal.main_arg24) = Cert.ReferenceIdeal.RefRun.R14 (F := Ideal) m' c (Proc.devRef .tc Cert.ReferenceIdeal.main_arg24) := eq_of_heq hs
  have ed : Cert.KernelIdeal.GenP.W58 (F := Ideal) m ρ c (Proc.devRef .tc Cert.KernelIdeal.main_arg25) = Cert.ReferenceIdeal.RefRun.R14 (F := Ideal) m' c (Proc.devRef .tc Cert.ReferenceIdeal.main_arg25) := eq_of_heq hd
  have et : (Cert.KernelIdeal.GenP.W58 (F := Ideal) m ρ c (Proc.devRef .tc Cert.KernelIdeal.main_v224) : Cert.KernelIdeal.S50000x2.Idx → EReal)
      = Cert.ReferenceIdeal.RefRun.R14 (F := Ideal) m' c (Proc.devRef .tc Cert.ReferenceIdeal.main_v281) := And.left h
  have hval : (Cert.KernelIdeal.GenP.W58 (F := Ideal) m ρ c (Proc.devRef .tc Cert.KernelIdeal.main_v270) : Cert.KernelIdeal.S50000x2.Idx → EReal)
      = Cert.ReferenceIdeal.RefRun.R14 (F := Ideal) m' c (Proc.devRef .tc Cert.ReferenceIdeal.main_v327) := by
    rw [hk, hr, es, ed, et]
    exact agg_same _ _ _
  have hfin : ∀ i, IsFin ((Cert.KernelIdeal.GenP.W58 (F := Ideal) m ρ c (Proc.devRef .tc Cert.KernelIdeal.main_v224) : Cert.KernelIdeal.S50000x2.Idx → EReal) i) := And.right h
  have hf : ∀ i, IsFin ((Cert.KernelIdeal.GenP.W58 (F := Ideal) m ρ c (Proc.devRef .tc Cert.KernelIdeal.main_v270) : Cert.KernelIdeal.S50000x2.Idx → EReal) i) := by
    rw [hk]
    exact fin_agg specK _ _ _ _ (fin_ones _ _) hfin
  exact And.intro hval hf

end Claim

end Cert.StageAggNa

end
-- ==== Proof.StageAggXc.lean ====
/- The graph aggregation of the first branch's normalized and projected state, with column 0 of the edge attention as edge weights: both programs spell the same chain of host
   operations (self-loops appended to the edge lists, the degrees by an accumulating scatter, the guarded reciprocal
   square root, the coefficients by two gathers, the weighted rows scattered at the edges' targets). Each program's
   stretch of operations is cut into the chain's three stages and what follows; each stage is read at the few buffers
   that cross into the next one, in terms of the stage functions of the aggregation; composed, the kernel's result and
   the reference's are the SAME function `agg` of the edge lists, the edge attention and `t`, so equal inputs give equal results. The integer edge lists are arbitrary: nothing here reads them. -/
import proofs.«407945_j8993661518245_1_alg».proof.Proof.Iface
import proofs.«407945_j8993661518245_1_alg».proof.Proof.KCarry
import proofs.«407945_j8993661518245_1_alg».proof.Proof.LibAgg

set_option maxRecDepth 16384
set_option maxHeartbeats 1600000

noncomputable section

namespace Cert.StageAggXc

open Idealize.ShloMosaic Idealize.ShloMosaic.StableHlo Idealize.SL.Sem
open Cert.LibFinite Cert.LibAgg

section Kernel

open Cert.KernelIdeal Cert.KernelIdeal.Gen Cert.KernelIdeal.GenP

/-- The kernel program's aggregation: its shapes' facts and its gathers' and scatters' dimension numbers. -/
abbrev specK : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the kernel's first host stretch. -/
abbrev kCut : ℕ := 0

/-- The edge weights: column 0 of the edge-attention table, as a vector. -/
abbrev ewOfK (a : FVec Ideal S400000x2 .f32) : FVec Ideal S400000 .f32 :=
  shapeCast S400000 (extractStridedSlice S400000x1 ![0, 0] a slices_S400000x2_S400000x1_0_0) shapeCasts_S400000x1_S400000

variable (V : Valuation τ sig (Elt Ideal))

/-- The first stage: the self-looped edge lists, the weights, the degree, its sign bit, and the unit word the guard
    uses; the inputs pass through it. -/
theorem kA_reads :
    (after (List.drop kCut (hostOps14 (F := Ideal))) V (Proc.devRef .tc main_v299) = withSelf specK (V (Proc.devRef .tc main_arg24)))
    ∧ (after (List.drop kCut (hostOps14 (F := Ideal))) V (Proc.devRef .tc main_v300) = withSelf specK (V (Proc.devRef .tc main_arg25)))
    ∧ (after (List.drop kCut (hostOps14 (F := Ideal))) V (Proc.devRef .tc main_v302) = eew specK (ewOfK (V (Proc.devRef .tc main_v223))))
    ∧ (after (List.drop kCut (hostOps14 (F := Ideal))) V (Proc.devRef .tc main_v305) = deg specK (withSelf specK (V (Proc.devRef .tc main_arg24))) (eew specK (ewOfK (V (Proc.devRef .tc main_v223)))))
    ∧ (after (List.drop kCut (hostOps14 (F := Ideal))) V (Proc.devRef .tc main_v307) = cmpf .ogt (deg specK (withSelf specK (V (Proc.devRef .tc main_arg24))) (eew specK (ewOfK (V (Proc.devRef .tc main_v223))))) (broadcastInDim S50000 ![] bcast_S_S50000 (constant (F := Ideal) S_ .f32 0x00000000#32)))
    ∧ (after (List.drop kCut (hostOps14 (F := Ideal))) V (Proc.devRef .tc main_cst_74) = constant (F := Ideal) S_ .f32 0x3F800000#32)
    ∧ (after (List.drop kCut (hostOps14 (F := Ideal))) V (Proc.devRef .tc main_arg24) = V (Proc.devRef .tc main_arg24))
    ∧ (after (List.drop kCut (hostOps14 (F := Ideal))) V (Proc.devRef .tc main_arg25) = V (Proc.devRef .tc main_arg25))
    ∧ (after (List.drop kCut (hostOps14 (F := Ideal))) V (Proc.devRef .tc main_v223) = V (Proc.devRef .tc main_v223)) := by
  simp only [kCut, hostOps14, hostOps14_2, List.drop_succ_cons, List.drop_zero, List.take_succ_cons, List.take_zero, List.cons_append, List.nil_append, List.drop_nil, List.take_nil]
  refine ⟨?_, ?_, ?_, ?_, ?_, ?_, ?_, ?_, ?_⟩
  · after_results; rfl
  · after_results; rfl
  · after_results; rfl
  · after_results; rfl
  · after_results; rfl
  · after_results
  · after_results
  · after_results
  · after_results

/-- The guard: the degree where its sign bit is set, the unit word elsewhere; every other buffer passes through. -/
theorem kB_reads :
    (after (hostOps14_1 (F := Ideal)) V (Proc.devRef .tc main_v308)
      = select (V (Proc.devRef .tc main_v307)) (V (Proc.devRef .tc main_v305)) (broadcastInDim S50000 ![] bcast_S_S50000 (id (V (Proc.devRef .tc main_cst_74)))))
    ∧ ∀ b : Ref sig .tc, b ≠ main_call4_v0 ∧ b ≠ main_call4_v1 ∧ b ≠ main_v308 → after (hostOps14_1 (F := Ideal)) V (Proc.devRef .tc b) = V (Proc.devRef .tc b) := by
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem kC_reads :
    (after (List.take 42 (hostOps14_2 (F := Ideal))) V (Proc.devRef .tc main_v342)
      = out specK (V (Proc.devRef .tc main_v299)) (V (Proc.devRef .tc main_v300))
          (norm specK (V (Proc.devRef .tc main_v299)) (V (Proc.devRef .tc main_v300)) (V (Proc.devRef .tc main_v302)) (disOf specK (V (Proc.devRef .tc main_v308)) (V (Proc.devRef .tc main_v305))))
          (V (Proc.devRef .tc main_v295)))
    ∧ (after (List.take 42 (hostOps14_2 (F := Ideal))) V (Proc.devRef .tc main_v295) = V (Proc.devRef .tc main_v295))
    ∧ (after (List.take 42 (hostOps14_2 (F := Ideal))) V (Proc.devRef .tc main_arg24) = V (Proc.devRef .tc main_arg24))
    ∧ (after (List.take 42 (hostOps14_2 (F := Ideal))) V (Proc.devRef .tc main_arg25) = V (Proc.devRef .tc main_arg25))
    ∧ (after (List.take 42 (hostOps14_2 (F := Ideal))) V (Proc.devRef .tc main_v223) = V (Proc.devRef .tc main_v223)) := by
  simp only [kCut, hostOps14, hostOps14_2, List.drop_succ_cons, List.drop_zero, List.take_succ_cons, List.take_zero, List.cons_append, List.nil_append, List.drop_nil, List.take_nil]
  refine ⟨?_, ?_, ?_, ?_, ?_⟩
  · after_results_simp; rfl
  · after_results_simp
  · after_results_simp
  · after_results_simp
  · after_results_simp

set_option maxHeartbeats 1000000 in
/-- What follows the chain in its stretch writes none of these buffers. -/
theorem kD_reads :
    (after (List.drop 42 (hostOps14_2 (F := Ideal))) V (Proc.devRef .tc main_v342) = V (Proc.devRef .tc main_v342))
    ∧ (after (List.drop 42 (hostOps14_2 (F := Ideal))) V (Proc.devRef .tc main_v295) = V (Proc.devRef .tc main_v295))
    ∧ (after (List.drop 42 (hostOps14_2 (F := Ideal))) V (Proc.devRef .tc main_arg24) = V (Proc.devRef .tc main_arg24))
    ∧ (after (List.drop 42 (hostOps14_2 (F := Ideal))) V (Proc.devRef .tc main_arg25) = V (Proc.devRef .tc main_arg25))
    ∧ (after (List.drop 42 (hostOps14_2 (F := Ideal))) V (Proc.devRef .tc main_v223) = V (Proc.devRef .tc main_v223)) := by
  simp only [kCut, hostOps14, hostOps14_2, List.drop_succ_cons, List.drop_zero, List.take_succ_cons, List.take_zero, List.cons_append, List.nil_append, List.drop_nil, List.take_nil]
  refine ⟨?_, ?_, ?_, ?_, ?_⟩
  · after_results_simp
  · after_results_simp
  · after_results_simp
  · after_results_simp
  · after_results_simp

/-- The four stages in a row compute the aggregation, of the `t` the first stage leaves. -/
theorem kE_out : after (List.drop 42 (hostOps14_2 (F := Ideal))) (after (List.take 42 (hostOps14_2 (F := Ideal))) (after (hostOps14_1 (F := Ideal)) (after (List.drop kCut (hostOps14 (F := Ideal))) V))) (Proc.devRef .tc main_v342)
    = agg specK (V (Proc.devRef .tc main_arg24)) (V (Proc.devRef .tc main_arg25)) (ewOfK (V (Proc.devRef .tc main_v223))) (after (List.drop kCut (hostOps14 (F := Ideal))) V (Proc.devRef .tc main_v295)) := by
  rw [(kD_reads _).1, (kC_reads _).1, (kB_reads _).1, (kB_reads _).2 main_v299 (by decide), (kB_reads _).2 main_v300 (by decide), (kB_reads _).2 main_v302 (by decide),
    (kB_reads _).2 main_v305 (by decide), (kB_reads _).2 main_v295 (by decide), (kA_reads _).1, (kA_reads _).2.1, (kA_reads _).2.2.1, (kA_reads _).2.2.2.1, (kA_reads _).2.2.2.2.1, (kA_reads _).2.2.2.2.2.1]
  rfl

theorem kE_t : after (List.drop 42 (hostOps14_2 (F := Ideal))) (after (List.take 42 (hostOps14_2 (F := Ideal))) (after (hostOps14_1 (F := Ideal)) (after (List.drop kCut (hostOps14 (F := Ideal))) V))) (Proc.devRef .tc main_v295) = after (List.drop kCut (hostOps14 (F := Ideal))) V (Proc.devRef .tc main_v295) := by
  rw [(kD_reads _).2.1, (kC_reads _).2.1, (kB_reads _).2 main_v295 (by decide)]

theorem kE_a24 : after (List.drop 42 (hostOps14_2 (F := Ideal))) (after (List.take 42 (hostOps14_2 (F := Ideal))) (after (hostOps14_1 (F := Ideal)) (after (List.drop kCut (hostOps14 (F := Ideal))) V))) (Proc.devRef .tc main_arg24) = V (Proc.devRef .tc main_arg24) := by
  rw [(kD_reads _).2.2.1, (kC_reads _).2.2.1, (kB_reads _).2 main_arg24 (by decide), (kA_reads _).2.2.2.2.2.2.1]

theorem kE_a25 : after (List.drop 42 (hostOps14_2 (F := Ideal))) (after (List.take 42 (hostOps14_2 (F := Ideal))) (after (hostOps14_1 (F := Ideal)) (after (List.drop kCut (hostOps14 (F := Ideal))) V))) (Proc.devRef .tc main_arg25) = V (Proc.devRef .tc main_arg25) := by
  rw [(kD_reads _).2.2.2.1, (kC_reads _).2.2.2.1, (kB_reads _).2 main_arg25 (by decide), (kA_reads _).2.2.2.2.2.2.2.1]

theorem kE_att : after (List.drop 42 (hostOps14_2 (F := Ideal))) (after (List.take 42 (hostOps14_2 (F := Ideal))) (after (hostOps14_1 (F := Ideal)) (after (List.drop kCut (hostOps14 (F := Ideal))) V))) (Proc.devRef .tc main_v223) = V (Proc.devRef .tc main_v223) := by
  rw [(kD_reads _).2.2.2.2, (kC_reads _).2.2.2.2, (kB_reads _).2 main_v223 (by decide), (kA_reads _).2.2.2.2.2.2.2.2]

variable (m : (ℓ : Loc nD τ sig) → Buf (Elt Ideal) ℓ) (ρ : Dev nD → PrngReg) (c : Dev nD)

/-- The state after the three host stretches, as the four stages folded over the state the chain starts from. -/
theorem k_state : W35 (F := Ideal) m ρ c = after (List.drop 42 (hostOps14_2 (F := Ideal))) (after (List.take 42 (hostOps14_2 (F := Ideal))) (after (hostOps14_1 (F := Ideal)) (after (List.drop kCut (hostOps14 (F := Ideal))) (after (List.take kCut (hostOps14 (F := Ideal))) (W32 (F := Ideal) m ρ c))))) := by
  show after (hostOps14_2 (F := Ideal)) (after (hostOps14_1 (F := Ideal)) (after (hostOps14 (F := Ideal)) (W32 (F := Ideal) m ρ c))) = _
  rw [after_split kCut (hostOps14 (F := Ideal)) (W32 (F := Ideal) m ρ c), after_split 42 (hostOps14_2 (F := Ideal))]

/-- The kernel's aggregate is `agg` of its final edge lists, edge attention and `t`. -/
theorem kf_read : W58 (F := Ideal) m ρ c (Proc.devRef .tc main_v342)
    = agg specK (W58 (F := Ideal) m ρ c (Proc.devRef .tc main_arg24)) (W58 (F := Ideal) m ρ c (Proc.devRef .tc main_arg25))
        (ewOfK (W58 (F := Ideal) m ρ c (Proc.devRef .tc main_v223))) (W58 (F := Ideal) m ρ c (Proc.devRef .tc main_v295)) := by
  rw [Cert.KernelIdeal.KCarry.carry35 (F := Ideal) m ρ c main_v342 (by decide),
    Cert.KernelIdeal.KCarry.carry35 (F := Ideal) m ρ c main_v295 (by decide),
    Cert.KernelIdeal.KCarry.carry35 (F := Ideal) m ρ c main_arg24 (by decide),
    Cert.KernelIdeal.KCarry.carry35 (F := Ideal) m ρ c main_arg25 (by decide),
    Cert.KernelIdeal.KCarry.carry35 (F := Ideal) m ρ c main_v223 (by decide),
    k_state, kE_out, kE_t, kE_a24, kE_a25, kE_att]

end Kernel

section Reference

open Cert.ReferenceIdeal Cert.ReferenceIdeal.Gen Cert.ReferenceIdeal.RefRun

/-- The reference's aggregation: its shapes' facts and its gathers' and scatters' dimension numbers. -/
abbrev specR : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the reference's two windows taken together. -/
abbrev rCut : ℕ := 38

/-- The edge weights: column 0 of the edge-attention table, as a vector. -/
abbrev ewOfR (a : FVec Ideal S400000x2 .f32) : FVec Ideal S400000 .f32 :=
  shapeCast S400000 (extractStridedSlice S400000x1 ![0, 0] a slices_S400000x2_S400000x1_0_0) shapeCasts_S400000x1_S400000

variable (V : Valuation τ sig (Elt Ideal))

/-- The first stage: the self-looped edge lists, the weights, the degree, its sign bit, and the unit word the guard
    uses; the inputs pass through it. -/
theorem rA_reads :
    (after (List.take 17 (List.drop rCut (ops7 (F := Ideal) ++ ops8 (F := Ideal)))) V (Proc.devRef .tc main_v370) = withSelf specR (V (Proc.devRef .tc main_arg24)))
    ∧ (after (List.take 17 (List.drop rCut (ops7 (F := Ideal) ++ ops8 (F := Ideal)))) V (Proc.devRef .tc main_v371) = withSelf specR (V (Proc.devRef .tc main_arg25)))
    ∧ (after (List.take 17 (List.drop rCut (ops7 (F := Ideal) ++ ops8 (F := Ideal)))) V (Proc.devRef .tc main_v373) = eew specR (ewOfR (V (Proc.devRef .tc main_v280))))
    ∧ (after (List.take 17 (List.drop rCut (ops7 (F := Ideal) ++ ops8 (F := Ideal)))) V (Proc.devRef .tc main_v376) = deg specR (withSelf specR (V (Proc.devRef .tc main_arg24))) (eew specR (ewOfR (V (Proc.devRef .tc main_v280)))))
    ∧ (after (List.take 17 (List.drop rCut (ops7 (F := Ideal) ++ ops8 (F := Ideal)))) V (Proc.devRef .tc main_v378) = cmpf .ogt (deg specR (withSelf specR (V (Proc.devRef .tc main_arg24))) (eew specR (ewOfR (V (Proc.devRef .tc main_v280))))) (broadcastInDim S50000 ![] bcast_S_S50000 (constant (F := Ideal) S_ .f32 0x00000000#32)))
    ∧ (after (List.take 17 (List.drop rCut (ops7 (F := Ideal) ++ ops8 (F := Ideal)))) V (Proc.devRef .tc main_cst_93) = constant (F := Ideal) S_ .f32 0x3F800000#32)
    ∧ (after (List.take 17 (List.drop rCut (ops7 (F := Ideal) ++ ops8 (F := Ideal)))) V (Proc.devRef .tc main_arg24) = V (Proc.devRef .tc main_arg24))
    ∧ (after (List.take 17 (List.drop rCut (ops7 (F := Ideal) ++ ops8 (F := Ideal)))) V (Proc.devRef .tc main_arg25) = V (Proc.devRef .tc main_arg25))
    ∧ (after (List.take 17 (List.drop rCut (ops7 (F := Ideal) ++ ops8 (F := Ideal)))) V (Proc.devRef .tc main_v280) = V (Proc.devRef .tc main_v280)) := by
  simp only [rCut, ops7, ops8, List.drop_succ_cons, List.drop_zero, List.take_succ_cons, List.take_zero, List.cons_append, List.nil_append, List.drop_nil, List.take_nil]
  refine ⟨?_, ?_, ?_, ?_, ?_, ?_, ?_, ?_, ?_⟩
  · after_results; rfl
  · after_results; rfl
  · after_results; rfl
  · after_results; rfl
  · after_results; rfl
  · after_results
  · after_results
  · after_results
  · after_results

/-- The guard: the degree where its sign bit is set, the unit word elsewhere; every other buffer passes through. -/
theorem rB_reads :
    (after (List.take 3 (List.drop 17 (List.drop rCut (ops7 (F := Ideal) ++ ops8 (F := Ideal))))) V (Proc.devRef .tc main_v379)
      = select (V (Proc.devRef .tc main_v378)) (V (Proc.devRef .tc main_v376)) (broadcastInDim S50000 ![] bcast_S_S50000 (id (V (Proc.devRef .tc main_cst_93)))))
    ∧ ∀ b : Ref sig .tc, b ≠ main_call8_v0 ∧ b ≠ main_call8_v1 ∧ b ≠ main_v379 → after (List.take 3 (List.drop 17 (List.drop rCut (ops7 (F := Ideal) ++ ops8 (F := Ideal))))) V (Proc.devRef .tc b) = V (Proc.devRef .tc b) := by
  simp only [rCut, ops7, ops8, List.drop_succ_cons, List.drop_zero, List.take_succ_cons, List.take_zero, List.cons_append, List.nil_append, List.drop_nil, List.take_nil]
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem rC_reads :
    (after (List.take 42 (List.drop 3 (List.drop 17 (List.drop rCut (ops7 (F := Ideal) ++ ops8 (F := Ideal)))))) V (Proc.devRef .tc main_v413)
      = out specR (V (Proc.devRef .tc main_v370)) (V (Proc.devRef .tc main_v371))
          (norm specR (V (Proc.devRef .tc main_v370)) (V (Proc.devRef .tc main_v371)) (V (Proc.devRef .tc main_v373)) (disOf specR (V (Proc.devRef .tc main_v379)) (V (Proc.devRef .tc main_v376))))
          (V (Proc.devRef .tc main_v368)))
    ∧ (after (List.take 42 (List.drop 3 (List.drop 17 (List.drop rCut (ops7 (F := Ideal) ++ ops8 (F := Ideal)))))) V (Proc.devRef .tc main_v368) = V (Proc.devRef .tc main_v368))
    ∧ (after (List.take 42 (List.drop 3 (List.drop 17 (List.drop rCut (ops7 (F := Ideal) ++ ops8 (F := Ideal)))))) V (Proc.devRef .tc main_arg24) = V (Proc.devRef .tc main_arg24))
    ∧ (after (List.take 42 (List.drop 3 (List.drop 17 (List.drop rCut (ops7 (F := Ideal) ++ ops8 (F := Ideal)))))) V (Proc.devRef .tc main_arg25) = V (Proc.devRef .tc main_arg25))
    ∧ (after (List.take 42 (List.drop 3 (List.drop 17 (List.drop rCut (ops7 (F := Ideal) ++ ops8 (F := Ideal)))))) V (Proc.devRef .tc main_v280) = V (Proc.devRef .tc main_v280)) := by
  simp only [rCut, ops7, ops8, List.drop_succ_cons, List.drop_zero, List.take_succ_cons, List.take_zero, List.cons_append, List.nil_append, List.drop_nil, List.take_nil]
  refine ⟨?_, ?_, ?_, ?_, ?_⟩
  · after_results_simp; rfl
  · after_results_simp
  · after_results_simp
  · after_results_simp
  · after_results_simp

set_option maxHeartbeats 1000000 in
/-- What follows the chain in its stretch writes none of these buffers. -/
theorem rD_reads :
    (after (List.drop 42 (List.drop 3 (List.drop 17 (List.drop rCut (ops7 (F := Ideal) ++ ops8 (F := Ideal)))))) V (Proc.devRef .tc main_v413) = V (Proc.devRef .tc main_v413))
    ∧ (after (List.drop 42 (List.drop 3 (List.drop 17 (List.drop rCut (ops7 (F := Ideal) ++ ops8 (F := Ideal)))))) V (Proc.devRef .tc main_v368) = V (Proc.devRef .tc main_v368))
    ∧ (after (List.drop 42 (List.drop 3 (List.drop 17 (List.drop rCut (ops7 (F := Ideal) ++ ops8 (F := Ideal)))))) V (Proc.devRef .tc main_arg24) = V (Proc.devRef .tc main_arg24))
    ∧ (after (List.drop 42 (List.drop 3 (List.drop 17 (List.drop rCut (ops7 (F := Ideal) ++ ops8 (F := Ideal)))))) V (Proc.devRef .tc main_arg25) = V (Proc.devRef .tc main_arg25))
    ∧ (after (List.drop 42 (List.drop 3 (List.drop 17 (List.drop rCut (ops7 (F := Ideal) ++ ops8 (F := Ideal)))))) V (Proc.devRef .tc main_v280) = V (Proc.devRef .tc main_v280)) := by
  simp only [rCut, ops7, ops8, List.drop_succ_cons, List.drop_zero, List.take_succ_cons, List.take_zero, List.cons_append, List.nil_append, List.drop_nil, List.take_nil]
  refine ⟨?_, ?_, ?_, ?_, ?_⟩
  · after_results_simp
  · after_results_simp
  · after_results_simp
  · after_results_simp
  · after_results_simp

/-- The four stages in a row compute the aggregation, of the `t` the first stage leaves. -/
theorem rE_out : after (List.drop 42 (List.drop 3 (List.drop 17 (List.drop rCut (ops7 (F := Ideal) ++ ops8 (F := Ideal)))))) (after (List.take 42 (List.drop 3 (List.drop 17 (List.drop rCut (ops7 (F := Ideal) ++ ops8 (F := Ideal)))))) (after (List.take 3 (List.drop 17 (List.drop rCut (ops7 (F := Ideal) ++ ops8 (F := Ideal))))) (after (List.take 17 (List.drop rCut (ops7 (F := Ideal) ++ ops8 (F := Ideal)))) V))) (Proc.devRef .tc main_v413)
    = agg specR (V (Proc.devRef .tc main_arg24)) (V (Proc.devRef .tc main_arg25)) (ewOfR (V (Proc.devRef .tc main_v280))) (after (List.take 17 (List.drop rCut (ops7 (F := Ideal) ++ ops8 (F := Ideal)))) V (Proc.devRef .tc main_v368)) := by
  rw [(rD_reads _).1, (rC_reads _).1, (rB_reads _).1, (rB_reads _).2 main_v370 (by decide), (rB_reads _).2 main_v371 (by decide), (rB_reads _).2 main_v373 (by decide),
    (rB_reads _).2 main_v376 (by decide), (rB_reads _).2 main_v368 (by decide), (rA_reads _).1, (rA_reads _).2.1, (rA_reads _).2.2.1, (rA_reads _).2.2.2.1, (rA_reads _).2.2.2.2.1, (rA_reads _).2.2.2.2.2.1]
  rfl

theorem rE_t : after (List.drop 42 (List.drop 3 (List.drop 17 (List.drop rCut (ops7 (F := Ideal) ++ ops8 (F := Ideal)))))) (after (List.take 42 (List.drop 3 (List.drop 17 (List.drop rCut (ops7 (F := Ideal) ++ ops8 (F := Ideal)))))) (after (List.take 3 (List.drop 17 (List.drop rCut (ops7 (F := Ideal) ++ ops8 (F := Ideal))))) (after (List.take 17 (List.drop rCut (ops7 (F := Ideal) ++ ops8 (F := Ideal)))) V))) (Proc.devRef .tc main_v368) = after (List.take 17 (List.drop rCut (ops7 (F := Ideal) ++ ops8 (F := Ideal)))) V (Proc.devRef .tc main_v368) := by
  rw [(rD_reads _).2.1, (rC_reads _).2.1, (rB_reads _).2 main_v368 (by decide)]

theorem rE_a24 : after (List.drop 42 (List.drop 3 (List.drop 17 (List.drop rCut (ops7 (F := Ideal) ++ ops8 (F := Ideal)))))) (after (List.take 42 (List.drop 3 (List.drop 17 (List.drop rCut (ops7 (F := Ideal) ++ ops8 (F := Ideal)))))) (after (List.take 3 (List.drop 17 (List.drop rCut (ops7 (F := Ideal) ++ ops8 (F := Ideal))))) (after (List.take 17 (List.drop rCut (ops7 (F := Ideal) ++ ops8 (F := Ideal)))) V))) (Proc.devRef .tc main_arg24) = V (Proc.devRef .tc main_arg24) := by
  rw [(rD_reads _).2.2.1, (rC_reads _).2.2.1, (rB_reads _).2 main_arg24 (by decide), (rA_reads _).2.2.2.2.2.2.1]

theorem rE_a25 : after (List.drop 42 (List.drop 3 (List.drop 17 (List.drop rCut (ops7 (F := Ideal) ++ ops8 (F := Ideal)))))) (after (List.take 42 (List.drop 3 (List.drop 17 (List.drop rCut (ops7 (F := Ideal) ++ ops8 (F := Ideal)))))) (after (List.take 3 (List.drop 17 (List.drop rCut (ops7 (F := Ideal) ++ ops8 (F := Ideal))))) (after (List.take 17 (List.drop rCut (ops7 (F := Ideal) ++ ops8 (F := Ideal)))) V))) (Proc.devRef .tc main_arg25) = V (Proc.devRef .tc main_arg25) := by
  rw [(rD_reads _).2.2.2.1, (rC_reads _).2.2.2.1, (rB_reads _).2 main_arg25 (by decide), (rA_reads _).2.2.2.2.2.2.2.1]

theorem rE_att : after (List.drop 42 (List.drop 3 (List.drop 17 (List.drop rCut (ops7 (F := Ideal) ++ ops8 (F := Ideal)))))) (after (List.take 42 (List.drop 3 (List.drop 17 (List.drop rCut (ops7 (F := Ideal) ++ ops8 (F := Ideal)))))) (after (List.take 3 (List.drop 17 (List.drop rCut (ops7 (F := Ideal) ++ ops8 (F := Ideal))))) (after (List.take 17 (List.drop rCut (ops7 (F := Ideal) ++ ops8 (F := Ideal)))) V))) (Proc.devRef .tc main_v280) = V (Proc.devRef .tc main_v280) := by
  rw [(rD_reads _).2.2.2.2, (rC_reads _).2.2.2.2, (rB_reads _).2 main_v280 (by decide), (rA_reads _).2.2.2.2.2.2.2.2]

variable (m' : (ℓ : Loc nD τ sig) → Buf (Elt Ideal) ℓ) (c : Dev nD)

/-- The state after the two windows, as the four stages folded over the state the chain starts from. -/
theorem r_state : R9 (F := Ideal) m' c = after (List.drop 42 (List.drop 3 (List.drop 17 (List.drop rCut (ops7 (F := Ideal) ++ ops8 (F := Ideal)))))) (after (List.take 42 (List.drop 3 (List.drop 17 (List.drop rCut (ops7 (F := Ideal) ++ ops8 (F := Ideal)))))) (after (List.take 3 (List.drop 17 (List.drop rCut (ops7 (F := Ideal) ++ ops8 (F := Ideal))))) (after (List.take 17 (List.drop rCut (ops7 (F := Ideal) ++ ops8 (F := Ideal)))) (after (List.take rCut (ops7 (F := Ideal) ++ ops8 (F := Ideal))) (R7 (F := Ideal) m' c))))) := by
  show after (ops8 (F := Ideal)) (after (ops7 (F := Ideal)) (R7 (F := Ideal) m' c)) = _
  rw [← after_append (ops7 (F := Ideal)) (ops8 (F := Ideal)) (R7 (F := Ideal) m' c),
    after_cut rCut 17 3 42 (ops7 (F := Ideal) ++ ops8 (F := Ideal)) (R7 (F := Ideal) m' c)]

/-- The reference's aggregate is `agg` of its final edge lists, edge attention and `t`. -/
theorem rf_read : R14 (F := Ideal) m' c (Proc.devRef .tc main_v413)
    = agg specR (R14 (F := Ideal) m' c (Proc.devRef .tc main_arg24)) (R14 (F := Ideal) m' c (Proc.devRef .tc main_arg25))
        (ewOfR (R14 (F := Ideal) m' c (Proc.devRef .tc main_v280))) (R14 (F := Ideal) m' c (Proc.devRef .tc main_v368)) := by
  rw [carry9 (F := Ideal) m' c main_v413 (by decide), carry9 (F := Ideal) m' c main_v368 (by decide),
    carry9 (F := Ideal) m' c main_arg24 (by decide), carry9 (F := Ideal) m' c main_arg25 (by decide),
    carry9 (F := Ideal) m' c main_v280 (by decide),
    r_state, rE_out, rE_t, rE_a24, rE_a25, rE_att]

end Reference

section Claim

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs' aggregations are one function: the same stage functions at the same shapes and dimension
    numbers. -/
theorem agg_same (src dst : IVec Cert.ReferenceIdeal.S400000 32) (a : FVec Ideal Cert.ReferenceIdeal.S400000x2 .f32)
    (t : FVec Ideal Cert.ReferenceIdeal.S50000x128 .f32) :
    agg specK src dst (ewOfK a) t = agg specR src dst (ewOfR a) t := rfl

theorem aggxc (h : Cert.Iface.TXc m ρ m' c) (he : Cert.Iface.EAtt m ρ m' c)
    (hs : HEq (Cert.Iface.Kf m ρ c Cert.KernelIdeal.main_arg24) (Cert.Iface.Rf m' c Cert.ReferenceIdeal.main_arg24))
    (hd : HEq (Cert.Iface.Kf m ρ c Cert.KernelIdeal.main_arg25) (Cert.Iface.Rf m' c Cert.ReferenceIdeal.main_arg25)) :
    Cert.Iface.AggXc m ρ m' c := by
  have hk := kf_read m ρ c
  have hr := rf_read m' c
  have es : Cert.KernelIdeal.GenP.W58 (F := Ideal) m ρ c (Proc.devRef .tc Cert.KernelIdeal.main_arg24) = Cert.ReferenceIdeal.RefRun.R14 (F := Ideal) m' c (Proc.devRef .tc Cert.ReferenceIdeal.main_arg24) := eq_of_heq hs
  have ed : Cert.KernelIdeal.GenP.W58 (F := Ideal) m ρ c (Proc.devRef .tc Cert.KernelIdeal.main_arg25) = Cert.ReferenceIdeal.RefRun.R14 (F := Ideal) m' c (Proc.devRef .tc Cert.ReferenceIdeal.main_arg25) := eq_of_heq hd
  have et : (Cert.KernelIdeal.GenP.W58 (F := Ideal) m ρ c (Proc.devRef .tc Cert.KernelIdeal.main_v295) : Cert.KernelIdeal.S50000x128.Idx → EReal)
      = Cert.ReferenceIdeal.RefRun.R14 (F := Ideal) m' c (Proc.devRef .tc Cert.ReferenceIdeal.main_v368) := h
  have ea : (Cert.KernelIdeal.GenP.W58 (F := Ideal) m ρ c (Proc.devRef .tc Cert.KernelIdeal.main_v223) : Cert.KernelIdeal.S400000x2.Idx → EReal)
      = Cert.ReferenceIdeal.RefRun.R14 (F := Ideal) m' c (Proc.devRef .tc Cert.ReferenceIdeal.main_v280) := he
  have hval : (Cert.KernelIdeal.GenP.W58 (F := Ideal) m ρ c (Proc.devRef .tc Cert.KernelIdeal.main_v342) : Cert.KernelIdeal.S50000x128.Idx → EReal)
      = Cert.ReferenceIdeal.RefRun.R14 (F := Ideal) m' c (Proc.devRef .tc Cert.ReferenceIdeal.main_v413) := by
    rw [hk, hr, es, ed, et, ea]
    exact agg_same _ _ _ _
  exact hval

end Claim

end Cert.StageAggXc

end
-- ==== Proof.StageAggXo.lean ====
/- The graph aggregation of the second branch's normalized and projected state, with column 1 of the edge attention as edge weights: both programs spell the same chain of host
   operations (self-loops appended to the edge lists, the degrees by an accumulating scatter, the guarded reciprocal
   square root, the coefficients by two gathers, the weighted rows scattered at the edges' targets). Each program's
   stretch of operations is cut into the chain's three stages and what follows; each stage is read at the few buffers
   that cross into the next one, in terms of the stage functions of the aggregation; composed, the kernel's result and
   the reference's are the SAME function `agg` of the edge lists, the edge attention and `t`, so equal inputs give equal results. The integer edge lists are arbitrary: nothing here reads them. -/
import proofs.«407945_j8993661518245_1_alg».proof.Proof.Iface
import proofs.«407945_j8993661518245_1_alg».proof.Proof.KCarry
import proofs.«407945_j8993661518245_1_alg».proof.Proof.LibAgg

set_option maxRecDepth 16384
set_option maxHeartbeats 1600000

noncomputable section

namespace Cert.StageAggXo

open Idealize.ShloMosaic Idealize.ShloMosaic.StableHlo Idealize.SL.Sem
open Cert.LibFinite Cert.LibAgg

section Kernel

open Cert.KernelIdeal Cert.KernelIdeal.Gen Cert.KernelIdeal.GenP

/-- The kernel program's aggregation: its shapes' facts and its gathers' and scatters' dimension numbers. -/
abbrev specK : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the kernel's first host stretch. -/
abbrev kCut : ℕ := 0

/-- The edge weights: column 1 of the edge-attention table, as a vector. -/
abbrev ewOfK (a : FVec Ideal S400000x2 .f32) : FVec Ideal S400000 .f32 :=
  shapeCast S400000 (extractStridedSlice S400000x1 ![0, 1] a slices_S400000x2_S400000x1_0_1) shapeCasts_S400000x1_S400000

variable (V : Valuation τ sig (Elt Ideal))

/-- The first stage: the self-looped edge lists, the weights, the degree, its sign bit, and the unit word the guard
    uses; the inputs pass through it. -/
theorem kA_reads :
    (after (List.drop kCut (hostOps17 (F := Ideal))) V (Proc.devRef .tc main_v362) = withSelf specK (V (Proc.devRef .tc main_arg24)))
    ∧ (after (List.drop kCut (hostOps17 (F := Ideal))) V (Proc.devRef .tc main_v363) = withSelf specK (V (Proc.devRef .tc main_arg25)))
    ∧ (after (List.drop kCut (hostOps17 (F := Ideal))) V (Proc.devRef .tc main_v365) = eew specK (ewOfK (V (Proc.devRef .tc main_v223))))
    ∧ (after (List.drop kCut (hostOps17 (F := Ideal))) V (Proc.devRef .tc main_v368) = deg specK (withSelf specK (V (Proc.devRef .tc main_arg24))) (eew specK (ewOfK (V (Proc.devRef .tc main_v223)))))
    ∧ (after (List.drop kCut (hostOps17 (F := Ideal))) V (Proc.devRef .tc main_v370) = cmpf .ogt (deg specK (withSelf specK (V (Proc.devRef .tc main_arg24))) (eew specK (ewOfK (V (Proc.devRef .tc main_v223))))) (broadcastInDim S50000 ![] bcast_S_S50000 (constant (F := Ideal) S_ .f32 0x00000000#32)))
    ∧ (after (List.drop kCut (hostOps17 (F := Ideal))) V (Proc.devRef .tc main_cst_89) = constant (F := Ideal) S_ .f32 0x3F800000#32)
    ∧ (after (List.drop kCut (hostOps17 (F := Ideal))) V (Proc.devRef .tc main_arg24) = V (Proc.devRef .tc main_arg24))
    ∧ (after (List.drop kCut (hostOps17 (F := Ideal))) V (Proc.devRef .tc main_arg25) = V (Proc.devRef .tc main_arg25))
    ∧ (after (List.drop kCut (hostOps17 (F := Ideal))) V (Proc.devRef .tc main_v223) = V (Proc.devRef .tc main_v223)) := by
  simp only [kCut, hostOps17, hostOps17_2, List.drop_succ_cons, List.drop_zero, List.take_succ_cons, List.take_zero, List.cons_append, List.nil_append, List.drop_nil, List.take_nil]
  refine ⟨?_, ?_, ?_, ?_, ?_, ?_, ?_, ?_, ?_⟩
  · after_results; rfl
  · after_results; rfl
  · after_results; rfl
  · after_results; rfl
  · after_results; rfl
  · after_results
  · after_results
  · after_results
  · after_results

/-- The guard: the degree where its sign bit is set, the unit word elsewhere; every other buffer passes through. -/
theorem kB_reads :
    (after (hostOps17_1 (F := Ideal)) V (Proc.devRef .tc main_v371)
      = select (V (Proc.devRef .tc main_v370)) (V (Proc.devRef .tc main_v368)) (broadcastInDim S50000 ![] bcast_S_S50000 (id (V (Proc.devRef .tc main_cst_89)))))
    ∧ ∀ b : Ref sig .tc, b ≠ main_call5_v0 ∧ b ≠ main_call5_v1 ∧ b ≠ main_v371 → after (hostOps17_1 (F := Ideal)) V (Proc.devRef .tc b) = V (Proc.devRef .tc b) := by
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem kC_reads :
    (after (List.take 42 (hostOps17_2 (F := Ideal))) V (Proc.devRef .tc main_v405)
      = out specK (V (Proc.devRef .tc main_v362)) (V (Proc.devRef .tc main_v363))
          (norm specK (V (Proc.devRef .tc main_v362)) (V (Proc.devRef .tc main_v363)) (V (Proc.devRef .tc main_v365)) (disOf specK (V (Proc.devRef .tc main_v371)) (V (Proc.devRef .tc main_v368))))
          (V (Proc.devRef .tc main_v358)))
    ∧ (after (List.take 42 (hostOps17_2 (F := Ideal))) V (Proc.devRef .tc main_v358) = V (Proc.devRef .tc main_v358))
    ∧ (after (List.take 42 (hostOps17_2 (F := Ideal))) V (Proc.devRef .tc main_arg24) = V (Proc.devRef .tc main_arg24))
    ∧ (after (List.take 42 (hostOps17_2 (F := Ideal))) V (Proc.devRef .tc main_arg25) = V (Proc.devRef .tc main_arg25))
    ∧ (after (List.take 42 (hostOps17_2 (F := Ideal))) V (Proc.devRef .tc main_v223) = V (Proc.devRef .tc main_v223)) := by
  simp only [kCut, hostOps17, hostOps17_2, List.drop_succ_cons, List.drop_zero, List.take_succ_cons, List.take_zero, List.cons_append, List.nil_append, List.drop_nil, List.take_nil]
  refine ⟨?_, ?_, ?_, ?_, ?_⟩
  · after_results_simp; rfl
  · after_results_simp
  · after_results_simp
  · after_results_simp
  · after_results_simp

set_option maxHeartbeats 1000000 in
/-- What follows the chain in its stretch writes none of these buffers. -/
theorem kD_reads :
    (after (List.drop 42 (hostOps17_2 (F := Ideal))) V (Proc.devRef .tc main_v405) = V (Proc.devRef .tc main_v405))
    ∧ (after (List.drop 42 (hostOps17_2 (F := Ideal))) V (Proc.devRef .tc main_v358) = V (Proc.devRef .tc main_v358))
    ∧ (after (List.drop 42 (hostOps17_2 (F := Ideal))) V (Proc.devRef .tc main_arg24) = V (Proc.devRef .tc main_arg24))
    ∧ (after (List.drop 42 (hostOps17_2 (F := Ideal))) V (Proc.devRef .tc main_arg25) = V (Proc.devRef .tc main_arg25))
    ∧ (after (List.drop 42 (hostOps17_2 (F := Ideal))) V (Proc.devRef .tc main_v223) = V (Proc.devRef .tc main_v223)) := by
  simp only [kCut, hostOps17, hostOps17_2, List.drop_succ_cons, List.drop_zero, List.take_succ_cons, List.take_zero, List.cons_append, List.nil_append, List.drop_nil, List.take_nil]
  refine ⟨?_, ?_, ?_, ?_, ?_⟩
  · after_results_simp
  · after_results_simp
  · after_results_simp
  · after_results_simp
  · after_results_simp

/-- The four stages in a row compute the aggregation, of the `t` the first stage leaves. -/
theorem kE_out : after (List.drop 42 (hostOps17_2 (F := Ideal))) (after (List.take 42 (hostOps17_2 (F := Ideal))) (after (hostOps17_1 (F := Ideal)) (after (List.drop kCut (hostOps17 (F := Ideal))) V))) (Proc.devRef .tc main_v405)
    = agg specK (V (Proc.devRef .tc main_arg24)) (V (Proc.devRef .tc main_arg25)) (ewOfK (V (Proc.devRef .tc main_v223))) (after (List.drop kCut (hostOps17 (F := Ideal))) V (Proc.devRef .tc main_v358)) := by
  rw [(kD_reads _).1, (kC_reads _).1, (kB_reads _).1, (kB_reads _).2 main_v362 (by decide), (kB_reads _).2 main_v363 (by decide), (kB_reads _).2 main_v365 (by decide),
    (kB_reads _).2 main_v368 (by decide), (kB_reads _).2 main_v358 (by decide), (kA_reads _).1, (kA_reads _).2.1, (kA_reads _).2.2.1, (kA_reads _).2.2.2.1, (kA_reads _).2.2.2.2.1, (kA_reads _).2.2.2.2.2.1]
  rfl

theorem kE_t : after (List.drop 42 (hostOps17_2 (F := Ideal))) (after (List.take 42 (hostOps17_2 (F := Ideal))) (after (hostOps17_1 (F := Ideal)) (after (List.drop kCut (hostOps17 (F := Ideal))) V))) (Proc.devRef .tc main_v358) = after (List.drop kCut (hostOps17 (F := Ideal))) V (Proc.devRef .tc main_v358) := by
  rw [(kD_reads _).2.1, (kC_reads _).2.1, (kB_reads _).2 main_v358 (by decide)]

theorem kE_a24 : after (List.drop 42 (hostOps17_2 (F := Ideal))) (after (List.take 42 (hostOps17_2 (F := Ideal))) (after (hostOps17_1 (F := Ideal)) (after (List.drop kCut (hostOps17 (F := Ideal))) V))) (Proc.devRef .tc main_arg24) = V (Proc.devRef .tc main_arg24) := by
  rw [(kD_reads _).2.2.1, (kC_reads _).2.2.1, (kB_reads _).2 main_arg24 (by decide), (kA_reads _).2.2.2.2.2.2.1]

theorem kE_a25 : after (List.drop 42 (hostOps17_2 (F := Ideal))) (after (List.take 42 (hostOps17_2 (F := Ideal))) (after (hostOps17_1 (F := Ideal)) (after (List.drop kCut (hostOps17 (F := Ideal))) V))) (Proc.devRef .tc main_arg25) = V (Proc.devRef .tc main_arg25) := by
  rw [(kD_reads _).2.2.2.1, (kC_reads _).2.2.2.1, (kB_reads _).2 main_arg25 (by decide), (kA_reads _).2.2.2.2.2.2.2.1]

theorem kE_att : after (List.drop 42 (hostOps17_2 (F := Ideal))) (after (List.take 42 (hostOps17_2 (F := Ideal))) (after (hostOps17_1 (F := Ideal)) (after (List.drop kCut (hostOps17 (F := Ideal))) V))) (Proc.devRef .tc main_v223) = V (Proc.devRef .tc main_v223) := by
  rw [(kD_reads _).2.2.2.2, (kC_reads _).2.2.2.2, (kB_reads _).2 main_v223 (by decide), (kA_reads _).2.2.2.2.2.2.2.2]

variable (m : (ℓ : Loc nD τ sig) → Buf (Elt Ideal) ℓ) (ρ : Dev nD → PrngReg) (c : Dev nD)

/-- The state after the three host stretches, as the four stages folded over the state the chain starts from. -/
theorem k_state : W43 (F := Ideal) m ρ c = after (List.drop 42 (hostOps17_2 (F := Ideal))) (after (List.take 42 (hostOps17_2 (F := Ideal))) (after (hostOps17_1 (F := Ideal)) (after (List.drop kCut (hostOps17 (F := Ideal))) (after (List.take kCut (hostOps17 (F := Ideal))) (W40 (F := Ideal) m ρ c))))) := by
  show after (hostOps17_2 (F := Ideal)) (after (hostOps17_1 (F := Ideal)) (after (hostOps17 (F := Ideal)) (W40 (F := Ideal) m ρ c))) = _
  rw [after_split kCut (hostOps17 (F := Ideal)) (W40 (F := Ideal) m ρ c), after_split 42 (hostOps17_2 (F := Ideal))]

/-- The kernel's aggregate is `agg` of its final edge lists, edge attention and `t`. -/
theorem kf_read : W58 (F := Ideal) m ρ c (Proc.devRef .tc main_v405)
    = agg specK (W58 (F := Ideal) m ρ c (Proc.devRef .tc main_arg24)) (W58 (F := Ideal) m ρ c (Proc.devRef .tc main_arg25))
        (ewOfK (W58 (F := Ideal) m ρ c (Proc.devRef .tc main_v223))) (W58 (F := Ideal) m ρ c (Proc.devRef .tc main_v358)) := by
  rw [Cert.KernelIdeal.KCarry.carry43 (F := Ideal) m ρ c main_v405 (by decide),
    Cert.KernelIdeal.KCarry.carry43 (F := Ideal) m ρ c main_v358 (by decide),
    Cert.KernelIdeal.KCarry.carry43 (F := Ideal) m ρ c main_arg24 (by decide),
    Cert.KernelIdeal.KCarry.carry43 (F := Ideal) m ρ c main_arg25 (by decide),
    Cert.KernelIdeal.KCarry.carry43 (F := Ideal) m ρ c main_v223 (by decide),
    k_state, kE_out, kE_t, kE_a24, kE_a25, kE_att]

end Kernel

section Reference

open Cert.ReferenceIdeal Cert.ReferenceIdeal.Gen Cert.ReferenceIdeal.RefRun

/-- The reference's aggregation: its shapes' facts and its gathers' and scatters' dimension numbers. -/
abbrev specR : Spec S_ S50000 S400000 S450000 S450000x1 S50000x128 S450000x128 where
  d0N := ![]
  h0N := bcast_S_S50000
  d0M := ![]
  h0M := bcast_S_S450000
  d0NW := ![]
  h0NW := bcast_S_S50000x128
  dM1 := ![0]
  hM1 := bcast_S450000_S450000x1_0
  dMW := ![0, 1]
  hMW := bcast_S450000x1_S450000x128_0_1
  axI := 0
  axC := 0
  hC := concatenates_S400000_S50000_S450000_d0
  nWrap := 50000#32
  scat1 := scatter_S50000_S450000x1_S450000_n_0_0_1
  gath1 := gather_S50000_S450000x1_S450000_n_0_n_n_0_1_1
  gathW := gather_S50000x128_S450000x1_S450000x128_1_0_n_n_0_1_1128
  scatW := scatter_S50000x128_S450000x1_S450000x128_1_0_0_1

/-- Where the chain begins in the reference's two windows taken together. -/
abbrev rCut : ℕ := 16

/-- The edge weights: column 1 of the edge-attention table, as a vector. -/
abbrev ewOfR (a : FVec Ideal S400000x2 .f32) : FVec Ideal S400000 .f32 :=
  shapeCast S400000 (extractStridedSlice S400000x1 ![0, 1] a slices_S400000x2_S400000x1_0_1) shapeCasts_S400000x1_S400000

variable (V : Valuation τ sig (Elt Ideal))

/-- The first stage: the self-looped edge lists, the weights, the degree, its sign bit, and the unit word the guard
    uses; the inputs pass through it. -/
theorem rA_reads :
    (after (List.take 17 (List.drop rCut (ops9 (F := Ideal) ++ ops10 (F := Ideal)))) V (Proc.devRef .tc main_v449) = withSelf specR (V (Proc.devRef .tc main_arg24)))
    ∧ (after (List.take 17 (List.drop rCut (ops9 (F := Ideal) ++ ops10 (F := Ideal)))) V (Proc.devRef .tc main_v450) = withSelf specR (V (Proc.devRef .tc main_arg25)))
    ∧ (after (List.take 17 (List.drop rCut (ops9 (F := Ideal) ++ ops10 (F := Ideal)))) V (Proc.devRef .tc main_v452) = eew specR (ewOfR (V (Proc.devRef .tc main_v280))))
    ∧ (after (List.take 17 (List.drop rCut (ops9 (F := Ideal) ++ ops10 (F := Ideal)))) V (Proc.devRef .tc main_v455) = deg specR (withSelf specR (V (Proc.devRef .tc main_arg24))) (eew specR (ewOfR (V (Proc.devRef .tc main_v280)))))
    ∧ (after (List.take 17 (List.drop rCut (ops9 (F := Ideal) ++ ops10 (F := Ideal)))) V (Proc.devRef .tc main_v457) = cmpf .ogt (deg specR (withSelf specR (V (Proc.devRef .tc main_arg24))) (eew specR (ewOfR (V (Proc.devRef .tc main_v280))))) (broadcastInDim S50000 ![] bcast_S_S50000 (constant (F := Ideal) S_ .f32 0x00000000#32)))
    ∧ (after (List.take 17 (List.drop rCut (ops9 (F := Ideal) ++ ops10 (F := Ideal)))) V (Proc.devRef .tc main_cst_112) = constant (F := Ideal) S_ .f32 0x3F800000#32)
    ∧ (after (List.take 17 (List.drop rCut (ops9 (F := Ideal) ++ ops10 (F := Ideal)))) V (Proc.devRef .tc main_arg24) = V (Proc.devRef .tc main_arg24))
    ∧ (after (List.take 17 (List.drop rCut (ops9 (F := Ideal) ++ ops10 (F := Ideal)))) V (Proc.devRef .tc main_arg25) = V (Proc.devRef .tc main_arg25))
    ∧ (after (List.take 17 (List.drop rCut (ops9 (F := Ideal) ++ ops10 (F := Ideal)))) V (Proc.devRef .tc main_v280) = V (Proc.devRef .tc main_v280)) := by
  simp only [rCut, ops9, ops10, List.drop_succ_cons, List.drop_zero, List.take_succ_cons, List.take_zero, List.cons_append, List.nil_append, List.drop_nil, List.take_nil]
  refine ⟨?_, ?_, ?_, ?_, ?_, ?_, ?_, ?_, ?_⟩
  · after_results; rfl
  · after_results; rfl
  · after_results; rfl
  · after_results; rfl
  · after_results; rfl
  · after_results
  · after_results
  · after_results
  · after_results

/-- The guard: the degree where its sign bit is set, the unit word elsewhere; every other buffer passes through. -/
theorem rB_reads :
    (after (List.take 3 (List.drop 17 (List.drop rCut (ops9 (F := Ideal) ++ ops10 (F := Ideal))))) V (Proc.devRef .tc main_v458)
      = select (V (Proc.devRef .tc main_v457)) (V (Proc.devRef .tc main_v455)) (broadcastInDim S50000 ![] bcast_S_S50000 (id (V (Proc.devRef .tc main_cst_112)))))
    ∧ ∀ b : Ref sig .tc, b ≠ main_call10_v0 ∧ b ≠ main_call10_v1 ∧ b ≠ main_v458 → after (List.take 3 (List.drop 17 (List.drop rCut (ops9 (F := Ideal) ++ ops10 (F := Ideal))))) V (Proc.devRef .tc b) = V (Proc.devRef .tc b) := by
  simp only [rCut, ops9, ops10, List.drop_succ_cons, List.drop_zero, List.take_succ_cons, List.take_zero, List.cons_append, List.nil_append, List.drop_nil, List.take_nil]
  refine ⟨?_, fun b hb => ?_⟩
  · after_results_simp; rfl
  · simp only [after_cons, after_nil]
    rw [ternary_result_ne _ _ _ _ _ _ _ _ _ _ hb.2.2, unary_result_ne _ _ _ _ _ _ hb.2.1, unary_result_ne _ _ _ _ _ _ hb.1]

set_option maxHeartbeats 1000000 in
/-- The last stage: the coefficients and the weighted scatter; the inputs pass through it. -/
theorem rC_reads :
    (after (List.take 42 (List.drop 3 (List.drop 17 (List.drop rCut (ops9 (F := Ideal) ++ ops10 (F := Ideal)))))) V (Proc.devRef .tc main_v492)
      = out specR (V (Proc.devRef .tc main_v449)) (V (Proc.devRef .tc main_v450))
          (norm specR (V (Proc.devRef .tc main_v449)) (V (Proc.devRef .tc main_v450)) (V (Proc.devRef .tc main_v452)) (disOf specR (V (Proc.devRef .tc main_v458)) (V (Proc.devRef .tc main_v455))))
          (V (Proc.devRef .tc main_v447)))
    ∧ (after (List.take 42 (List.drop 3 (List.drop 17 (List.drop rCut (ops9 (F := Ideal) ++ ops10 (F := Ideal)))))) V (Proc.devRef .tc main_v447) = V (Proc.devRef .tc main_v447))
    ∧ (after (List.take 42 (List.drop 3 (List.drop 17 (List.drop rCut (ops9 (F := Ideal) ++ ops10 (F := Ideal)))))) V (Proc.devRef .tc main_arg24) = V (Proc.devRef .tc main_arg24))
    ∧ (after (List.take 42 (List.drop 3 (List.drop 17 (List.drop rCut (ops9 (F := Ideal) ++ ops10 (F := Ideal)))))) V (Proc.devRef .tc main_arg25) = V (Proc.devRef .tc main_arg25))
    ∧ (after (List.take 42 (List.drop 3 (List.drop 17 (List.drop rCut (ops9 (F := Ideal) ++ ops10 (F := Ideal)))))) V (Proc.devRef .tc main_v280) = V (Proc.devRef .tc main_v280)) := by
  simp only [rCut, ops9, ops10, List.drop_succ_cons, List.drop_zero, List.take_succ_cons, List.take_zero, List.cons_append, List.nil_append, List.drop_nil, List.take_nil]
  refine ⟨?_, ?_, ?_, ?_, ?_⟩
  · after_results_simp; rfl
  · after_results_simp
  · after_results_simp
  · after_results_simp
  · after_results_simp

set_option maxHeartbeats 1000000 in
/-- What follows the chain in its stretch writes none of these buffers. -/
theorem rD_reads :
    (after (List.drop 42 (List.drop 3 (List.drop 17 (List.drop rCut (ops9 (F := Ideal) ++ ops10 (F := Ideal)))))) V (Proc.devRef .tc main_v492) = V (Proc.devRef .tc main_v492))
    ∧ (after (List.drop 42 (List.drop 3 (List.drop 17 (List.drop rCut (ops9 (F := Ideal) ++ ops10 (F := Ideal)))))) V (Proc.devRef .tc main_v447) = V (Proc.devRef .tc main_v447))
    ∧ (after (List.drop 42 (List.drop 3 (List.drop 17 (List.drop rCut (ops9 (F := Ideal) ++ ops10 (F := Ideal)))))) V (Proc.devRef .tc main_arg24) = V (Proc.devRef .tc main_arg24))
    ∧ (after (List.drop 42 (List.drop 3 (List.drop 17 (List.drop rCut (ops9 (F := Ideal) ++ ops10 (F := Ideal)))))) V (Proc.devRef .tc main_arg25) = V (Proc.devRef .tc main_arg25))
    ∧ (after (List.drop 42 (List.drop 3 (List.drop 17 (List.drop rCut (ops9 (F := Ideal) ++ ops10 (F := Ideal)))))) V (Proc.devRef .tc main_v280) = V (Proc.devRef .tc main_v280)) := by
  simp only [rCut, ops9, ops10, List.drop_succ_cons, List.drop_zero, List.take_succ_cons, List.take_zero, List.cons_append, List.nil_append, List.drop_nil, List.take_nil]
  refine ⟨?_, ?_, ?_, ?_, ?_⟩
  · after_results_simp
  · after_results_simp
  · after_results_simp
  · after_results_simp
  · after_results_simp

/-- The four stages in a row compute the aggregation, of the `t` the first stage leaves. -/
theorem rE_out : after (List.drop 42 (List.drop 3 (List.drop 17 (List.drop rCut (ops9 (F := Ideal) ++ ops10 (F := Ideal)))))) (after (List.take 42 (List.drop 3 (List.drop 17 (List.drop rCut (ops9 (F := Ideal) ++ ops10 (F := Ideal)))))) (after (List.take 3 (List.drop 17 (List.drop rCut (ops9 (F := Ideal) ++ ops10 (F := Ideal))))) (after (List.take 17 (List.drop rCut (ops9 (F := Ideal) ++ ops10 (F := Ideal)))) V))) (Proc.devRef .tc main_v492)
    = agg specR (V (Proc.devRef .tc main_arg24)) (V (Proc.devRef .tc main_arg25)) (ewOfR (V (Proc.devRef .tc main_v280))) (after (List.take 17 (List.drop rCut (ops9 (F := Ideal) ++ ops10 (F := Ideal)))) V (Proc.devRef .tc main_v447)) := by
  rw [(rD_reads _).1, (rC_reads _).1, (rB_reads _).1, (rB_reads _).2 main_v449 (by decide), (rB_reads _).2 main_v450 (by decide), (rB_reads _).2 main_v452 (by decide),
    (rB_reads _).2 main_v455 (by decide), (rB_reads _).2 main_v447 (by decide), (rA_reads _).1, (rA_reads _).2.1, (rA_reads _).2.2.1, (rA_reads _).2.2.2.1, (rA_reads _).2.2.2.2.1, (rA_reads _).2.2.2.2.2.1]
  rfl

theorem rE_t : after (List.drop 42 (List.drop 3 (List.drop 17 (List.drop rCut (ops9 (F := Ideal) ++ ops10 (F := Ideal)))))) (after (List.take 42 (List.drop 3 (List.drop 17 (List.drop rCut (ops9 (F := Ideal) ++ ops10 (F := Ideal)))))) (after (List.take 3 (List.drop 17 (List.drop rCut (ops9 (F := Ideal) ++ ops10 (F := Ideal))))) (after (List.take 17 (List.drop rCut (ops9 (F := Ideal) ++ ops10 (F := Ideal)))) V))) (Proc.devRef .tc main_v447) = after (List.take 17 (List.drop rCut (ops9 (F := Ideal) ++ ops10 (F := Ideal)))) V (Proc.devRef .tc main_v447) := by
  rw [(rD_reads _).2.1, (rC_reads _).2.1, (rB_reads _).2 main_v447 (by decide)]

theorem rE_a24 : after (List.drop 42 (List.drop 3 (List.drop 17 (List.drop rCut (ops9 (F := Ideal) ++ ops10 (F := Ideal)))))) (after (List.take 42 (List.drop 3 (List.drop 17 (List.drop rCut (ops9 (F := Ideal) ++ ops10 (F := Ideal)))))) (after (List.take 3 (List.drop 17 (List.drop rCut (ops9 (F := Ideal) ++ ops10 (F := Ideal))))) (after (List.take 17 (List.drop rCut (ops9 (F := Ideal) ++ ops10 (F := Ideal)))) V))) (Proc.devRef .tc main_arg24) = V (Proc.devRef .tc main_arg24) := by
  rw [(rD_reads _).2.2.1, (rC_reads _).2.2.1, (rB_reads _).2 main_arg24 (by decide), (rA_reads _).2.2.2.2.2.2.1]

theorem rE_a25 : after (List.drop 42 (List.drop 3 (List.drop 17 (List.drop rCut (ops9 (F := Ideal) ++ ops10 (F := Ideal)))))) (after (List.take 42 (List.drop 3 (List.drop 17 (List.drop rCut (ops9 (F := Ideal) ++ ops10 (F := Ideal)))))) (after (List.take 3 (List.drop 17 (List.drop rCut (ops9 (F := Ideal) ++ ops10 (F := Ideal))))) (after (List.take 17 (List.drop rCut (ops9 (F := Ideal) ++ ops10 (F := Ideal)))) V))) (Proc.devRef .tc main_arg25) = V (Proc.devRef .tc main_arg25) := by
  rw [(rD_reads _).2.2.2.1, (rC_reads _).2.2.2.1, (rB_reads _).2 main_arg25 (by decide), (rA_reads _).2.2.2.2.2.2.2.1]

theorem rE_att : after (List.drop 42 (List.drop 3 (List.drop 17 (List.drop rCut (ops9 (F := Ideal) ++ ops10 (F := Ideal)))))) (after (List.take 42 (List.drop 3 (List.drop 17 (List.drop rCut (ops9 (F := Ideal) ++ ops10 (F := Ideal)))))) (after (List.take 3 (List.drop 17 (List.drop rCut (ops9 (F := Ideal) ++ ops10 (F := Ideal))))) (after (List.take 17 (List.drop rCut (ops9 (F := Ideal) ++ ops10 (F := Ideal)))) V))) (Proc.devRef .tc main_v280) = V (Proc.devRef .tc main_v280) := by
  rw [(rD_reads _).2.2.2.2, (rC_reads _).2.2.2.2, (rB_reads _).2 main_v280 (by decide), (rA_reads _).2.2.2.2.2.2.2.2]

variable (m' : (ℓ : Loc nD τ sig) → Buf (Elt Ideal) ℓ) (c : Dev nD)

/-- The state after the two windows, as the four stages folded over the state the chain starts from. -/
theorem r_state : R11 (F := Ideal) m' c = after (List.drop 42 (List.drop 3 (List.drop 17 (List.drop rCut (ops9 (F := Ideal) ++ ops10 (F := Ideal)))))) (after (List.take 42 (List.drop 3 (List.drop 17 (List.drop rCut (ops9 (F := Ideal) ++ ops10 (F := Ideal)))))) (after (List.take 3 (List.drop 17 (List.drop rCut (ops9 (F := Ideal) ++ ops10 (F := Ideal))))) (after (List.take 17 (List.drop rCut (ops9 (F := Ideal) ++ ops10 (F := Ideal)))) (after (List.take rCut (ops9 (F := Ideal) ++ ops10 (F := Ideal))) (R9 (F := Ideal) m' c))))) := by
  show after (ops10 (F := Ideal)) (after (ops9 (F := Ideal)) (R9 (F := Ideal) m' c)) = _
  rw [← after_append (ops9 (F := Ideal)) (ops10 (F := Ideal)) (R9 (F := Ideal) m' c),
    after_cut rCut 17 3 42 (ops9 (F := Ideal) ++ ops10 (F := Ideal)) (R9 (F := Ideal) m' c)]

/-- The reference's aggregate is `agg` of its final edge lists, edge attention and `t`. -/
theorem rf_read : R14 (F := Ideal) m' c (Proc.devRef .tc main_v492)
    = agg specR (R14 (F := Ideal) m' c (Proc.devRef .tc main_arg24)) (R14 (F := Ideal) m' c (Proc.devRef .tc main_arg25))
        (ewOfR (R14 (F := Ideal) m' c (Proc.devRef .tc main_v280))) (R14 (F := Ideal) m' c (Proc.devRef .tc main_v447)) := by
  rw [carry11 (F := Ideal) m' c main_v492 (by decide), carry11 (F := Ideal) m' c main_v447 (by decide),
    carry11 (F := Ideal) m' c main_arg24 (by decide), carry11 (F := Ideal) m' c main_arg25 (by decide),
    carry11 (F := Ideal) m' c main_v280 (by decide),
    r_state, rE_out, rE_t, rE_a24, rE_a25, rE_att]

end Reference

section Claim

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs' aggregations are one function: the same stage functions at the same shapes and dimension
    numbers. -/
theorem agg_same (src dst : IVec Cert.ReferenceIdeal.S400000 32) (a : FVec Ideal Cert.ReferenceIdeal.S400000x2 .f32)
    (t : FVec Ideal Cert.ReferenceIdeal.S50000x128 .f32) :
    agg specK src dst (ewOfK a) t = agg specR src dst (ewOfR a) t := rfl

theorem aggxo (h : Cert.Iface.TXo m ρ m' c) (he : Cert.Iface.EAtt m ρ m' c)
    (hs : HEq (Cert.Iface.Kf m ρ c Cert.KernelIdeal.main_arg24) (Cert.Iface.Rf m' c Cert.ReferenceIdeal.main_arg24))
    (hd : HEq (Cert.Iface.Kf m ρ c Cert.KernelIdeal.main_arg25) (Cert.Iface.Rf m' c Cert.ReferenceIdeal.main_arg25)) :
    Cert.Iface.AggXo m ρ m' c := by
  have hk := kf_read m ρ c
  have hr := rf_read m' c
  have es : Cert.KernelIdeal.GenP.W58 (F := Ideal) m ρ c (Proc.devRef .tc Cert.KernelIdeal.main_arg24) = Cert.ReferenceIdeal.RefRun.R14 (F := Ideal) m' c (Proc.devRef .tc Cert.ReferenceIdeal.main_arg24) := eq_of_heq hs
  have ed : Cert.KernelIdeal.GenP.W58 (F := Ideal) m ρ c (Proc.devRef .tc Cert.KernelIdeal.main_arg25) = Cert.ReferenceIdeal.RefRun.R14 (F := Ideal) m' c (Proc.devRef .tc Cert.ReferenceIdeal.main_arg25) := eq_of_heq hd
  have et : (Cert.KernelIdeal.GenP.W58 (F := Ideal) m ρ c (Proc.devRef .tc Cert.KernelIdeal.main_v358) : Cert.KernelIdeal.S50000x128.Idx → EReal)
      = Cert.ReferenceIdeal.RefRun.R14 (F := Ideal) m' c (Proc.devRef .tc Cert.ReferenceIdeal.main_v447) := h
  have ea : (Cert.KernelIdeal.GenP.W58 (F := Ideal) m ρ c (Proc.devRef .tc Cert.KernelIdeal.main_v223) : Cert.KernelIdeal.S400000x2.Idx → EReal)
      = Cert.ReferenceIdeal.RefRun.R14 (F := Ideal) m' c (Proc.devRef .tc Cert.ReferenceIdeal.main_v280) := he
  have hval : (Cert.KernelIdeal.GenP.W58 (F := Ideal) m ρ c (Proc.devRef .tc Cert.KernelIdeal.main_v405) : Cert.KernelIdeal.S50000x128.Idx → EReal)
      = Cert.ReferenceIdeal.RefRun.R14 (F := Ideal) m' c (Proc.devRef .tc Cert.ReferenceIdeal.main_v492) := by
    rw [hk, hr, es, ed, et, ea]
    exact agg_same _ _ _ _
  exact hval

end Claim

end Cert.StageAggXo

end
-- ==== Proof.LibAct.lean ====
/- The two activation functions of the bias kernels, as functions of one extended real: what the kernels' vector
   operations compute at each element when every float operation is exact. No program is imported here. -/
import Idealize.ShloMosaic.PureOps.Ideal

namespace Cert.LibAct

open Idealize.ShloMosaic

/-- The rectifier on the extended reals: the larger of the value and zero. At `⊥` it is `0`, at `⊤` it is `⊤`. -/
noncomputable def reluE (v : EReal) : EReal := max v 0

/-- The exponential linear unit (slope one) on the extended reals: the value itself where it is above zero, and
    `e ^ v - 1` elsewhere. At `⊥` the exponential is `0`, so the value is `-1`; at `⊤` it is `⊤`. -/
noncomputable def eluK (v : EReal) : EReal := if 0 < v then v else Ideal.exp v - 1

theorem reluE_def (v : EReal) : reluE v = max v 0 := rfl

theorem eluK_def (v : EReal) : eluK v = if 0 < v then v else Ideal.exp v - 1 := rfl

/-- The rectifier at the two infinities. -/
theorem reluE_bot : reluE ⊥ = 0 := max_eq_right bot_le
theorem reluE_top : reluE ⊤ = ⊤ := max_eq_left le_top

/-- The unit at the two infinities: `e ^ ⊥` is `0`, and `⊤` is above zero. -/
theorem eluK_bot : eluK ⊥ = -1 := by
  rw [eluK_def, if_neg (not_lt.mpr bot_le)]
  show (0 : EReal) - 1 = -1
  rw [zero_sub]
theorem eluK_top : eluK ⊤ = ⊤ := if_pos (by exact EReal.zero_lt_top)

/-- The same function through the library's `e ^ v - 1`. -/
theorem eluK_eq_expm1 (v : EReal) : eluK v = if 0 < v then v else Ideal.expm1 v := rfl

/-- Above zero the unit is the identity. -/
theorem eluK_of_pos {v : EReal} (h : 0 < v) : eluK v = v := if_pos h

/-- At or below zero it is the exponential less one. -/
theorem eluK_of_not_pos {v : EReal} (h : ¬ 0 < v) : eluK v = Ideal.exp v - 1 := if_neg h

end Cert.LibAct
-- ==== Proof.RegBias2.lean ====
/- Region 2 of the kernel program (the bias-add followed by the rectifier), read as a whole-array value: after the
   region its output array holds, at row `r` and lane `j`, the rectifier of `x r j + b 0 j`, where `x` (50000 by 128)
   and `b` (1 by 128) are the region's two input arrays as it finds them; the two input arrays are left as found.
   The region walks the rows in ten blocks of 5000; each point adds the one bias row to its block of `x`, applies the
   rectifier and writes the block back, and the ten blocks tile the array. -/
import proofs.«407945_j8993661518245_1_alg».proof.Proof.FrameKI
import proofs.«407945_j8993661518245_1_alg».proof.Proof.LibAct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegBias2

open Idealize.ShloMosaic Idealize.ShloMosaic.TcCoe Idealize.ShloMosaic.ValueIdx
open Idealize.ShloMosaic.Pipeline (Dat Cfg Window)
open Cert.KernelIdeal.Gen Cert.KernelIdeal.GenP Cert.LibAct

/-! ## The body's payload at one element -/

/-- The bias row, broadcast over the rows and added to the block, at row `p` and lane `q`: the block's element plus
    the bias row's element of the same lane (the two shape casts are to the same shape, and the broadcast of a
    one-row array reads its one row). -/
theorem biased_apply (x0 : Vec Ideal S5000x128 .f32) (x1 : Vec Ideal S1x128 .f32) (p : Fin 5000) (q : Fin 128) :
    addf (F := Ideal) (φ := .f32) (shapeCast S5000x128 x0 shapeCasts_S5000x128_S5000x128)
      (broadcastTo S5000x128 (shapeCast S1x128 x1 shapeCasts_S1x128_S1x128) broadcasts_S1x128_S5000x128) (ix2 p q)
      = x0 (ix2 p q) + x1 (ix2 (0 : Fin 1) q) := by
  rw [shapeCast_self, shapeCast_self, addf_apply]
  exact congrArg (x0 (ix2 p q) + ·) (broadcastTo_1b_ab_apply x1 broadcasts_S1x128_S5000x128 p q)

/-- What the body stores, at row `p` and lane `q` of the block: the rectifier of that sum (the maximum with the zero
    word, which denotes `0`). -/
theorem stored_apply (x0 : Vec Ideal S5000x128 .f32) (x1 : Vec Ideal S1x128 .f32) (p : Fin 5000) (q : Fin 128) :
    k2_pay1 x0 x1 (ix2 p q) = reluE (x0 (ix2 p q) + x1 (ix2 (0 : Fin 1) q)) := by
  unfold k2_pay1
  show max (addf (F := Ideal) (φ := .f32) (shapeCast S5000x128 x0 shapeCasts_S5000x128_S5000x128)
      (broadcastTo S5000x128 (shapeCast S1x128 x1 shapeCasts_S1x128_S1x128) broadcasts_S1x128_S5000x128) (ix2 p q))
      (Ideal.ofBits .f32 0x00000000#32) = _
  rw [biased_apply, Ideal.ofBits_zero_f32, reluE_def]

/-! ## The whole-array value -/

/-- The output array as one function of the two input arrays: at each index the rectifier of the `x` entry plus the
    bias entry of the same lane. -/
def G (x : Vec Ideal S50000x128 .f32) (b : Vec Ideal S1x128 .f32) : Vec Ideal S50000x128 .f32 :=
  fun i => reluE (x i + b (ix2 (0 : Fin 1) (i 1 : Fin 128)))

theorem G_apply (x : Vec Ideal S50000x128 .f32) (b : Vec Ideal S1x128 .f32) (r : Fin 50000) (j : Fin 128) :
    G x b (ix2 r j) = reluE (x (ix2 r j) + b (ix2 (0 : Fin 1) j)) := rfl

/-! ## From the blocks to the array -/

theorem offsets_zero : (![0, 0] : Fin 2 → Nat) = fun _ => 0 := funext fun a => by fin_cases a <;> rfl

/-- The block index maps over the ten points: the two 50000-row windows are at block `(t, 0)`, the bias row's at
    `(0, 0)`. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p`, lane `q` of the input block at point `t` is the array element that row `p`, lane `q` of the output block
    at `t` is: both blocks sit at rows `5000 t` onward. -/
theorem x_block_at (t : Fin cfg2.N) (p : Fin 5000) (q : Fin 128) :
    ((cfg2.win 0).blk t).view.emb (ix2 p q) = ((cfg2.win 2).blk t).view.emb (ix2 p q) := by
  obtain ⟨e0, e1, e2, e3, e4, e5⟩ := block_indices t
  funext a; apply Fin.ext
  match a with
  | ⟨0, _⟩ => show win2_0.index t (0 : Fin 2) * 5000 + 1 * p.val = win2_2.index t (0 : Fin 2) * 5000 + 1 * p.val; omega
  | ⟨1, _⟩ => show win2_0.index t (1 : Fin 2) * 128 + 1 * q.val = win2_2.index t (1 : Fin 2) * 128 + 1 * q.val; omega

/-- Lane `q` of the bias block (always the whole one-row array) is row 0 and the lane of the output block's element. -/
theorem bias_block_at (t : Fin cfg2.N) (p : Fin 5000) (q : Fin 128) :
    ((cfg2.win 1).blk t).view.emb (ix2 (0 : Fin 1) q) = ix2 (0 : Fin 1) ((((cfg2.win 2).blk t).view.emb (ix2 p q)) 1 : Fin 128) := by
  obtain ⟨e0, e1, e2, e3, e4, e5⟩ := block_indices t
  funext a; apply Fin.ext
  match a with
  | ⟨0, _⟩ => show win2_1.index t (0 : Fin 2) * 1 + 1 * 0 = 0; omega
  | ⟨1, _⟩ => show win2_1.index t (1 : Fin 2) * 128 + 1 * q.val = win2_2.index t (1 : Fin 2) * 128 + 1 * q.val; omega

/-- An index of the output array is in point `t`'s block iff each coordinate is in the block's range on its axis. -/
theorem mem_out_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v10).slice (win2_2.rect t)).set ↔ _
  rw [View.set_slice_whole, Rect.mem_set_unit]
  exact Iff.rfl

/-- Every index of the output array is in the block of the point its row divided by 5000 names, and every point
    writes its block back. -/
theorem out_blocks_cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5⟩ := block_indices t
  have ht : t.val = (i 0).val / 5000 := rfl
  refine ⟨t, flush2_2 t, ?_⟩
  rw [mem_out_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

section Value

variable (V : (c : Dev nD) → (b : Ref sig .tc) → Buf (Elt Ideal) ((c : Thread nD τ).loc b))

/-- The two input arrays as the region finds them, at their literal types: `x`, 50000 by 128, and the bias row `b`,
    1 by 128. -/
abbrev xarr (c : Dev nD) : Vec Ideal S50000x128 .f32 := V c (Pipeline.arrRef spec2 0)
abbrev barr (c : Dev nD) : Vec Ideal S1x128 .f32 := V c (Pipeline.arrRef spec2 1)

/-- What point `t` writes back is block `t` of `G` of the two input arrays as the region finds them. -/
theorem written_back_eq (c : Dev nD) (t : Fin cfg2.N) :
    (dat2 V c).flushed 2 t
      = ((cfg2.win 2).blk t).view.read (Elt Ideal) (G (xarr V c) (barr V c)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (stored_apply (iblk2 V c 0 t) (iblk2 V c 1 t) p q).trans ?_
  show reluE (xarr V c (((cfg2.win 0).blk t).view.emb (ix2 p q))
        + barr V c (((cfg2.win 1).blk t).view.emb (ix2 (0 : Fin 1) q)))
      = reluE (xarr V c (((cfg2.win 2).blk t).view.emb (ix2 p q))
        + barr V c (ix2 (0 : Fin 1) ((((cfg2.win 2).blk t).view.emb (ix2 p q)) 1 : Fin 128)))
  exact congrArg reluE (congrArg₂ (fun a b : EReal => a + b) (congrArg (xarr V c) (x_block_at t p q)) (congrArg (barr V c) (bias_block_at t p q)))

/-- THE OUTPUT ARRAY after the region: `G` of the two input arrays. -/
theorem out_eq (c : Dev nD) :
    (dat2 V c).arrAt 2 cfg2.N = G (xarr V c) (barr V c) :=
  (dat2 V c).arrAt_eq_of_cover 2 _ (fun t _ => written_back_eq V c t) out_blocks_cover

/-- The output array at row `r`, lane `j`. -/
theorem out_apply (c : Dev nD) (r : Fin 50000) (j : Fin 128) :
    ((dat2 V c).arrAt 2 cfg2.N) (ix2 r j)
      = reluE (xarr V c (ix2 r j) + barr V c (ix2 (0 : Fin 1) j)) :=
  congrFun (out_eq V c) (ix2 r j)

/-- The two input arrays are never written: after the region they are as it found them. -/
theorem kept0 (c : Dev nD) : (dat2 V c).arrAt 0 cfg2.N = V c (Pipeline.arrRef spec2 0) :=
  ((dat2 V c).arrAt_in 0 rfl cfg2.N).trans (A_eq2 V c 0)
theorem kept1 (c : Dev nD) : (dat2 V c).arrAt 1 cfg2.N = V c (Pipeline.arrRef spec2 1) :=
  ((dat2 V c).arrAt_in 1 rfl cfg2.N).trans (A_eq2 V c 1)

end Value

end Cert.KernelIdeal.RegBias2

end
-- ==== Proof.LibElu.lean ====
/- The exponential linear unit, spelled two ways. One program computes, at each element `v`,
       v            where 0 < v,    and    e^v − 1                       elsewhere;
   the other
       v            where 0 < v,    and    1 · expm1 (0 where 0 < v, else v)   elsewhere,
   with `expm1 x = e^x − 1`. Where `0 < v` both answer `v`. Elsewhere the inner choice answers `v`, so the second is
   `1 · (e^v − 1)`, and `1` is the unit of the product on the extended reals at every value, the infinities included
   (`v = ⊥`: both `0 − 1 = −1`; `v = ⊤` is the first case). So the two are one function on all of `[−∞, +∞]`. -/
import Idealize.ShloMosaic.PureOps.Ideal
import proofs.«407945_j8993661518245_1_alg».proof.Proof.LibFinite
import proofs.«407945_j8993661518245_1_alg».proof.Proof.LibConsts

namespace Cert.LibElu

open Idealize.ShloMosaic
open Cert.LibFinite

/-- The unit as the first program writes it. -/
noncomputable def eluK (v : EReal) : EReal := if 0 < v then v else Ideal.exp v - 1

/-- The unit as the second program writes it. -/
noncomputable def eluR (v : EReal) : EReal := if 0 < v then v else 1 * (Ideal.exp (if 0 < v then 0 else v) - 1)

/-- The two are equal at every extended real. -/
theorem eluK_eq_eluR_apply (v : EReal) : eluK v = eluR v := by
  unfold eluK eluR
  by_cases h : 0 < v
  · rw [if_pos h, if_pos h]
  · rw [if_neg h, if_neg h, if_neg h, one_mul]

/-- … so they are one function. -/
theorem eluK_eq_eluR : eluK = eluR := funext eluK_eq_eluR_apply

/-- A comparison `v > z` as a one-bit value, selected on: the choice by the order. -/
theorem select_cmp_ogt {α : Type} (v z : EReal) (a b : α) :
    Scalar.select (Ideal.cmp .ogt v z) a b = if z < v then a else b := by
  unfold Scalar.select Ideal.cmp
  by_cases h : z < v <;> simp [h]

/-- The first program's term, in the float operations at the extended reals with its two literals as bit patterns
    (`0.0` and `1.0`), is `eluK`. -/
theorem kernel_term_eq (v : Ideal .f32) :
    Scalar.select (FloatOps.cmpf .ogt v (Scalar.ofBits .f32 0x00000000#32)) v
        (FloatOps.subf (FloatOps.exp v) (Scalar.ofBits .f32 0x3F800000#32))
      = eluK v := by
  show Scalar.select (Ideal.cmp .ogt v (Ideal.ofBits .f32 0x00000000#32)) v
      (Ideal.exp v - Ideal.ofBits .f32 0x3F800000#32) = eluK v
  rw [Cert.LibConsts.ofBits_zero, Cert.LibConsts.ofBits_one, select_cmp_ogt]
  rfl

/-- The second program's term likewise (`expm1` is the host's one-operand operation; the literal `1.0` multiplies from
    the left; the inner and outer comparisons are the same comparison against `0.0`), is `eluR`. -/
theorem reference_term_eq (v : Ideal .f32) :
    Scalar.select (FloatOps.cmpf .ogt v (FloatOps.ofBits .f32 0x00000000#32)) v
        (FloatOps.mulf (FloatOps.ofBits .f32 0x3F800000#32)
          (FloatOps.hostUnary .expm1
            (Scalar.select (FloatOps.cmpf .ogt v (FloatOps.ofBits .f32 0x00000000#32)) (FloatOps.ofBits .f32 0x00000000#32) v)))
      = eluR v := by
  show Scalar.select (Ideal.cmp .ogt v (Ideal.ofBits .f32 0x00000000#32)) v
      (Ideal.ofBits .f32 0x3F800000#32 *
        (Ideal.exp (Scalar.select (Ideal.cmp .ogt v (Ideal.ofBits .f32 0x00000000#32)) (Ideal.ofBits .f32 0x00000000#32) v) - 1))
      = eluR v
  rw [Cert.LibConsts.ofBits_zero, Cert.LibConsts.ofBits_one, select_cmp_ogt, select_cmp_ogt]
  rfl

/-- The two programs' terms are equal at every element value. -/
theorem term_eq (v : Ideal .f32) :
    Scalar.select (FloatOps.cmpf .ogt v (Scalar.ofBits .f32 0x00000000#32)) v
        (FloatOps.subf (FloatOps.exp v) (Scalar.ofBits .f32 0x3F800000#32))
      = Scalar.select (FloatOps.cmpf .ogt v (FloatOps.ofBits .f32 0x00000000#32)) v
        (FloatOps.mulf (FloatOps.ofBits .f32 0x3F800000#32)
          (FloatOps.hostUnary .expm1
            (Scalar.select (FloatOps.cmpf .ogt v (FloatOps.ofBits .f32 0x00000000#32)) (FloatOps.ofBits .f32 0x00000000#32) v))) := by
  rw [kernel_term_eq, reference_term_eq, eluK_eq_eluR_apply]

/-- The first program's term over a whole vector, as its payload writes it, is `eluK` at each element. -/
theorem kernel_vec_eq {s : Shape} (x : FVec Ideal s .f32) :
    select (cmpf .ogt x (broadcast s (Scalar.ofBits .f32 0x00000000#32))) x
        (subf (exp x) (broadcast s (Scalar.ofBits .f32 0x3F800000#32)))
      = fun i => eluK (x i) :=
  funext fun i => kernel_term_eq (x i)

/-- The unit of a finite value is finite (below zero it is `e^v − 1`, a real number). -/
theorem isFin_eluK {v : EReal} (hv : IsFin v) : IsFin (eluK v) := by
  unfold eluK
  exact IsFin.ite hv (hv.exp.sub isFin_one)

theorem isFin_eluR {v : EReal} (hv : IsFin v) : IsFin (eluR v) := by
  rw [← eluK_eq_eluR_apply]; exact isFin_eluK hv

end Cert.LibElu
-- ==== Proof.StageActLib.lean ====
/- The bias-and-activation step of one layer, read at one entry. One program adds a one-row bias array to every row of
   a 50000 by 128 array and applies the activation; the other broadcasts the 128 bias values down the rows, adds, and
   applies the activation as a maximum with a zero array (the rectifier) or as a choice between the value and
   `1 · (e^v − 1)` (the exponential linear unit). Here are the index computations both readings share: a 128-vector
   broadcast to one row and then down the rows reads its lane; row `k` of a 3 by 128 array cut out and reshaped reads
   that row; the maximum with the zero array is the rectifier; and the finiteness of the results; and that a fold
   through a list of operations can be cut at any position. No program is imported. -/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.Lib.Pipeline.Frame
import proofs.«407945_j8993661518245_1_alg».proof.Proof.LibAct
import proofs.«407945_j8993661518245_1_alg».proof.Proof.LibFinite
import proofs.«407945_j8993661518245_1_alg».proof.Proof.LibElu

noncomputable section

namespace Cert.StageActLib

open Idealize.ShloMosaic Idealize.ShloMosaic.ValueIdx
open Cert.LibAct Cert.LibFinite

variable {α : Type}

/-- An array of extended reals read at an index. (A buffer's contents are such an array once its reference is a
    literal; reading through `rd` gives the entry the type `EReal` in so many words.) -/
abbrev rd {S : Shape} (v : S.Idx → EReal) (i : S.Idx) : EReal := v i

/-! ## Layout -/

/-- A 128-vector laid out as one row reads, at `(u, j)`, its entry `j`. -/
theorem bcast_vec_row_apply (v : (⟨1, ![128]⟩ : Shape).Idx → α)
    (h : (⟨1, ![128]⟩ : Shape).BroadcastsInDim ⟨2, ![1, 128]⟩ ![1]) (u : Fin 1) (j : Fin 128) :
    broadcastInDim ⟨2, ![1, 128]⟩ ![1] h v (ix2 u j) = v (ix1 j) :=
  broadcastInDim_apply _ h v _ _ fun a => by
    match a with
    | ⟨0, _⟩ => rfl

/-- A one-row array broadcast down 50000 rows reads, at `(r, j)`, the row's entry `j`. -/
theorem bcast_row_rows_apply (w : (⟨2, ![1, 128]⟩ : Shape).Idx → α)
    (h : (⟨2, ![1, 128]⟩ : Shape).BroadcastsInDim ⟨2, ![50000, 128]⟩ ![0, 1]) (r : Fin 50000) (j : Fin 128) :
    broadcastInDim ⟨2, ![50000, 128]⟩ ![0, 1] h w (ix2 r j) = w (ix2 (0 : Fin 1) j) :=
  broadcastInDim_apply _ h w _ _ fun a => by
    match a with
    | ⟨0, _⟩ => rfl
    | ⟨1, _⟩ => rfl

/-- The two broadcasts composed: a 128-vector broadcast over the rows of a 50000 by 128 array reads its lane. -/
theorem bcast_vec_rows_apply (v : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![50000, 128]⟩ ![0, 1]) (r : Fin 50000) (j : Fin 128) :
    broadcastInDim ⟨2, ![50000, 128]⟩ ![0, 1] h2 (broadcastInDim ⟨2, ![1, 128]⟩ ![1] h1 v) (ix2 r j) = v (ix1 j) := by
  rw [bcast_row_rows_apply, bcast_vec_row_apply]

/-- Row `k` of a 3 by 128 array (the cut's row offset `o` is `k`), cut out as a one-row array and reshaped to a
    128-vector, reads at `j` the array's entry `(k, j)`. -/
theorem row_vec_apply (A : (⟨2, ![3, 128]⟩ : Shape).Idx → α) (o : ℕ)
    (hs : (⟨2, ![3, 128]⟩ : Shape).Slices ![o, 0] ⟨2, ![1, 128]⟩)
    (hc : (⟨2, ![1, 128]⟩ : Shape).ShapeCasts ⟨1, ![128]⟩) (k : Fin 3) (hk : k.val = o) (j : Fin 128) :
    shapeCast ⟨1, ![128]⟩ (extractStridedSlice ⟨2, ![1, 128]⟩ ![o, 0] A hs) hc (ix1 j) = A (ix2 k j) := by
  rw [shapeCast_1a_a_apply]
  exact slice2_axis0_apply o A hs (0 : Fin 1) j k (by rw [hk]; rfl)

/-- The same row reshaped once more to a one-row array reads at `(u, j)` the array's entry `(k, j)`. -/
theorem row_row_apply (A : (⟨2, ![3, 128]⟩ : Shape).Idx → α) (o : ℕ)
    (hs : (⟨2, ![3, 128]⟩ : Shape).Slices ![o, 0] ⟨2, ![1, 128]⟩)
    (hc : (⟨2, ![1, 128]⟩ : Shape).ShapeCasts ⟨1, ![128]⟩)
    (hc' : (⟨1, ![128]⟩ : Shape).ShapeCasts ⟨2, ![1, 128]⟩) (k : Fin 3) (hk : k.val = o) (u : Fin 1) (j : Fin 128) :
    shapeCast ⟨2, ![1, 128]⟩ (shapeCast ⟨1, ![128]⟩ (extractStridedSlice ⟨2, ![1, 128]⟩ ![o, 0] A hs) hc) hc' (ix2 u j)
      = A (ix2 k j) := by
  rw [shapeCast_a_1a_apply, row_vec_apply A o hs hc k hk]

/-- A 128-vector reshaped to a one-row array reads at `(u, j)` its entry `j`. -/
theorem vec_row_apply (v : (⟨1, ![128]⟩ : Shape).Idx → α)
    (hc : (⟨1, ![128]⟩ : Shape).ShapeCasts ⟨2, ![1, 128]⟩) (u : Fin 1) (j : Fin 128) :
    shapeCast ⟨2, ![1, 128]⟩ v hc (ix2 u j) = v (ix1 j) :=
  shapeCast_a_1a_apply v hc u j

/-! ## A fold cut at a position -/

section Fold

open Idealize.ShloMosaic.StableHlo Idealize.SL.Sem

variable {τ : Topo} {sig : RefSig} {Val : EltTy → Type}

/-- The fold through a list of operations is the fold through its tail from position `k`, started from the fold
    through its first `k` operations. -/
theorem after_split (k : ℕ) (l : List (HloOp τ sig Val)) (V : Valuation τ sig Val) :
    after l V = after (l.drop k) (after (l.take k) V) := by
  rw [← after_append, List.take_append_drop]

end Fold

/-! ## The zero bias -/

/-- The zero word broadcast to a 128-vector and reshaped to one row reads `0` everywhere. -/
theorem zero_row_apply (h0 : (⟨0, ![]⟩ : Shape).BroadcastsInDim ⟨1, ![128]⟩ ![])
    (hc : (⟨1, ![128]⟩ : Shape).ShapeCasts ⟨2, ![1, 128]⟩) (u : Fin 1) (j : Fin 128) :
    shapeCast ⟨2, ![1, 128]⟩
        (broadcastInDim ⟨1, ![128]⟩ ![] h0 (constant (F := Ideal) ⟨0, ![]⟩ .f32 0x00000000#32)) hc (ix2 u j) = (0 : EReal) := by
  rw [shapeCast_a_1a_apply, broadcastInDim_scalar_apply, constant_apply, Ideal.ofBits_zero_f32]

/-! ## The rectifier -/

/-- The maximum with the zero word broadcast to the whole shape is the rectifier at each entry. -/
theorem max_zero_apply {T : Shape} (X : FVec Ideal T .f32) (h0 : (⟨0, ![]⟩ : Shape).BroadcastsInDim T ![]) (i : T.Idx) :
    maximumf X (broadcastInDim T ![] h0 (constant (F := Ideal) ⟨0, ![]⟩ .f32 0x00000000#32)) i = reluE (X i) := by
  rw [maximumf_apply, broadcastInDim_scalar_apply, constant_apply, Ideal.ofBits_zero_f32, reluE_def]

/-- Adding zero changes no extended real, so the rectifier of `x + 0` is the rectifier of `x`. -/
theorem reluE_add_zero (x : EReal) : reluE (x + 0) = reluE x := by rw [add_zero]

/-- The rectifier of a real number is a real number. -/
theorem isFin_reluE {x : EReal} (hx : IsFin x) : IsFin (reluE x) := hx.max isFin_zero

/-- The bias broadcast down the rows and added, then the maximum with the zero array: at `(r, j)` the rectifier of
    the entry plus the bias value of lane `j`. -/
theorem relu_bias_apply (X : FVec Ideal ⟨2, ![50000, 128]⟩ .f32) (v : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![50000, 128]⟩ ![0, 1])
    (h0 : (⟨0, ![]⟩ : Shape).BroadcastsInDim ⟨2, ![50000, 128]⟩ ![]) (r : Fin 50000) (j : Fin 128) :
    maximumf (addf X (broadcastInDim ⟨2, ![50000, 128]⟩ ![0, 1] h2 (broadcastInDim ⟨2, ![1, 128]⟩ ![1] h1 v)))
        (broadcastInDim ⟨2, ![50000, 128]⟩ ![] h0 (constant (F := Ideal) ⟨0, ![]⟩ .f32 0x00000000#32)) (ix2 r j)
      = reluE (X (ix2 r j) + v (ix1 j)) := by
  rw [max_zero_apply, addf_apply, bcast_vec_rows_apply]

/-! ## The exponential linear unit -/

/-- The unit of the two activation modules is one function. -/
theorem eluK_eq (v : EReal) : Cert.LibElu.eluK v = eluK v := rfl

/-- The second program's unit over a whole array — the comparison with a zero array, the inner choice between a zero
    array and the value, `e^· − 1`, the product with a ones array, the outer choice — is `eluK` at each entry. -/
theorem elu_ref_apply {T : Shape} (X : FVec Ideal T .f32)
    (h0 h0' h0'' h1 : (⟨0, ![]⟩ : Shape).BroadcastsInDim T ![]) (i : T.Idx) :
    select (cmpf .ogt X (broadcastInDim T ![] h0 (constant (F := Ideal) ⟨0, ![]⟩ .f32 0x00000000#32))) X
        (mulf (broadcastInDim T ![] h1 (constant (F := Ideal) ⟨0, ![]⟩ .f32 0x3F800000#32))
          (Host.expm1
            (select (cmpf .ogt X (broadcastInDim T ![] h0' (constant (F := Ideal) ⟨0, ![]⟩ .f32 0x00000000#32)))
              (broadcastInDim T ![] h0'' (constant (F := Ideal) ⟨0, ![]⟩ .f32 0x00000000#32)) X))) i
      = eluK (X i) := by
  rw [← eluK_eq, Cert.LibElu.eluK_eq_eluR_apply, ← Cert.LibElu.reference_term_eq]
  rfl

/-- The bias broadcast down the rows and added, then the second program's unit: at `(r, j)` the unit of the entry plus
    the bias value of lane `j`. -/
theorem bias_add_apply (X : FVec Ideal ⟨2, ![50000, 128]⟩ .f32) (v : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![50000, 128]⟩ ![0, 1]) (r : Fin 50000) (j : Fin 128) :
    addf X (broadcastInDim ⟨2, ![50000, 128]⟩ ![0, 1] h2 (broadcastInDim ⟨2, ![1, 128]⟩ ![1] h1 v)) (ix2 r j)
      = X (ix2 r j) + v (ix1 j) := by
  rw [addf_apply, bcast_vec_rows_apply]

/-- The unit of a real number is a real number. -/
theorem isFin_eluK {x : EReal} (hx : IsFin x) : IsFin (eluK x) := Cert.LibElu.isFin_eluK hx

end Cert.StageActLib

end
-- ==== Proof.StageActRd0.lean ====
/- The program texts behind the first hidden state: the rectifier of the first projection, read at one entry. In the kernel program the bias row that the
   region finds is made by the host operations just before it; in the reference the bias is broadcast down the rows,
   added, and the activation applied by a short run of host operations. Each is read off the fold of its operation
   list: the list is cut where the run starts, everything before the cut stays one unnamed state, and the run's few
   operations are composed over it. -/
import proofs.«407945_j8993661518245_1_alg».proof.Proof.Gen.KernelIdeal.Launch
import proofs.«407945_j8993661518245_1_alg».proof.Proof.RefOps
import proofs.«407945_j8993661518245_1_alg».proof.Proof.StageActLib

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.StageActLib

/-! ## The kernel program: the bias row the region finds -/

section Kernel

open Cert.KernelIdeal Cert.KernelIdeal.Gen

/-- The bias row of region 2 is the zero word broadcast to 128 lanes and reshaped to one row: `0` in every lane. -/
theorem kbias0 (V : Valuation τ sig (Elt Ideal)) (j : Fin 128) :
    rd (S := S1x128) (after hostOps2 V (Proc.devRef .tc main_v9)) (ix2 (0 : Fin 1) j) = 0 := by
  after_results
  exact zero_row_apply _ _ 0 j

end Kernel

/-! ## The reference: the activation's run of operations -/

section Reference

open Cert.ReferenceIdeal Cert.ReferenceIdeal.RefRun

set_option maxHeartbeats 1000000 in
/-- From operation 28 of window 0 on: the maximum of the projection with a zero array, at any state `W` before. -/
theorem rout0_key (W : Valuation τ sig (Elt Ideal)) (i : S50000x128.Idx) :
    rd (S := S50000x128) (after (List.drop 28 ops0) W (Proc.devRef .tc main_v22)) i
      = reluE (rd (S := S50000x128) (after (List.drop 28 ops0) W (Proc.devRef .tc main_v21)) i) := by
  simp only [List.drop_succ_cons, List.drop_zero]
  after_results_simp
  exact max_zero_apply (T := S50000x128) (W (Proc.devRef .tc main_v21)) (by decide) i

/-- The same over the whole window. -/
theorem rout0 (V : Valuation τ sig (Elt Ideal)) (i : S50000x128.Idx) :
    rd (S := S50000x128) (after ops0 V (Proc.devRef .tc main_v22)) i = reluE (rd (S := S50000x128) (after ops0 V (Proc.devRef .tc main_v21)) i) := by
  rw [after_split 28 ops0 V]
  exact rout0_key _ i

variable (m' : (ℓ : Loc nD τ sig) → Buf (Elt Ideal) ℓ) (c : Dev nD)

/-- THE REFERENCE'S STAGE: the hidden state is the rectifier of the projection, entry by entry (both buffers are
    written in window 0 and by no later window). -/
theorem ref_h0 (i : S50000x128.Idx) :
    rd (S := S50000x128) (R14 (F := Ideal) m' c (Proc.devRef .tc main_v22)) i = reluE (rd (S := S50000x128) (R14 (F := Ideal) m' c (Proc.devRef .tc main_v21)) i) := by
  have e1 : R14 (F := Ideal) m' c (Proc.devRef .tc main_v22) = after ops0 (R0 m' c) (Proc.devRef .tc main_v22) :=
    carry1 m' c main_v22 (by decide)
  have e2 : after ops0 (R0 m' c) (Proc.devRef .tc main_v21) = R14 (F := Ideal) m' c (Proc.devRef .tc main_v21) :=
    (carry1 m' c main_v21 (by decide)).symm
  rw [e1, rout0, e2]

end Reference

end Cert.StageAct

end
-- ==== Proof.StageAct0.lean ====
/- The first hidden state: the rectifier of the first projection. The kernel program's array after region 2 and the reference's array
   after its rectifier are the same function, all of whose entries are real numbers, whenever the arrays they
   are computed from are. The region's output at `(r, j)` is the rectifier of its first input at `(r, j)` plus its bias
   row at lane `j`; the first input and the bias row are buffers of the final state, and the bias row reads back to
   the zero word; the reference's run of operations computes the same expression. -/
import proofs.«407945_j8993661518245_1_alg».proof.Proof.Iface
import proofs.«407945_j8993661518245_1_alg».proof.Proof.KCarry
import proofs.«407945_j8993661518245_1_alg».proof.Proof.RegBias2
import proofs.«407945_j8993661518245_1_alg».proof.Proof.StageActRd0

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.LibFinite Cert.StageActLib

/-! ## The kernel program's stage -/

section Kernel

open Cert.KernelIdeal Cert.KernelIdeal.Gen Cert.KernelIdeal.GenP

variable (m : (ℓ : Loc nD τ sig) → Buf (Elt Ideal) ℓ) (ρ : Dev nD → PrngReg) (c : Dev nD)

/-- THE KERNEL PROGRAM'S STAGE: region 2's output at an entry is the rectifier of its input there (its bias row is the
    zero row, and adding `0` changes no extended real). -/
theorem kernel_h0 (r : Fin 50000) (j : Fin 128) :
    rd (S := S50000x128) (W58 (F := Ideal) m ρ c (Proc.devRef .tc main_v10)) (ix2 r j)
      = reluE (rd (S := S50000x128) (W58 (F := Ideal) m ρ c (Proc.devRef .tc main_v7)) (ix2 r j)) := by
  have e1 : (W58 (F := Ideal) m ρ c (Proc.devRef .tc main_v10) : S50000x128.Idx → EReal) = (dat2 (V4 m ρ) c).arrAt 2 cfg2.N :=
    Cert.KernelIdeal.KCarry.reg2_arr2 m ρ c
  have e2 : (V4 (F := Ideal) m ρ c main_v7 : S50000x128.Idx → EReal) = W58 (F := Ideal) m ρ c (Proc.devRef .tc main_v7) :=
    Cert.KernelIdeal.KCarry.reg2_in0 m ρ c
  have e3 : rd (S := S1x128) (V4 (F := Ideal) m ρ c main_v9) (ix2 (0 : Fin 1) j) = 0 := kbias0 (W3 m ρ c) j
  refine (congrFun e1 (ix2 r j)).trans ((Cert.KernelIdeal.RegBias2.out_apply (V4 m ρ) c r j).trans ?_)
  show reluE (rd (S := S50000x128) (V4 (F := Ideal) m ρ c main_v7) (ix2 r j)
      + rd (S := S1x128) (V4 (F := Ideal) m ρ c main_v9) (ix2 (0 : Fin 1) j)) = _
  rw [e2, e3, add_zero]

end Kernel

/-! ## The two programs' stages agree -/

open Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- If the first projection is the same real-valued array in the two programs, so is the first hidden state: each
    program takes the rectifier entry by entry, and the rectifier of a real number is real. -/
theorem h0 (h : Cert.Iface.T0 m ρ m' c) : Cert.Iface.H0 m ρ m' c := by
  unfold Cert.Iface.T0 at h
  obtain ⟨hx, hxf⟩ := h
  have hx' : (Cert.KernelIdeal.GenP.W58 (F := Ideal) m ρ c (Proc.devRef .tc Cert.KernelIdeal.main_v7) : Cert.KernelIdeal.S50000x128.Idx → EReal)
      = Cert.ReferenceIdeal.RefRun.R14 (F := Ideal) m' c (Proc.devRef .tc Cert.ReferenceIdeal.main_v21) := hx
  unfold Cert.Iface.H0
  refine ⟨funext fun i => ?_, ?_⟩
  · obtain ⟨r, j, rfl⟩ : ∃ (r : Fin 50000) (j : Fin 128), i = ix2 r j := ⟨i 0, i 1, eq_ix2 i⟩
    refine (kernel_h0 m ρ c r j).trans ?_
    rw [hx']
    exact (ref_h0 m' c (ix2 r j)).symm
  · intro i
    obtain ⟨r, j, rfl⟩ : ∃ (r : Fin 50000) (j : Fin 128), i = ix2 r j := ⟨i 0, i 1, eq_ix2 i⟩
    exact Eq.mpr (congrArg IsFin (kernel_h0 m ρ c r j)) (isFin_reluE (hxf (ix2 r j)))

end Cert.StageAct

end
-- ==== Proof.RegBias5.lean ====
/- Region 5 of the kernel program (the bias-add followed by the rectifier), read as a whole-array value: after the
   region its output array holds, at row `r` and lane `j`, the rectifier of `x r j + b 0 j`, where `x` (50000 by 128)
   and `b` (1 by 128) are the region's two input arrays as it finds them; the two input arrays are left as found.
   The region walks the rows in ten blocks of 5000; each point adds the one bias row to its block of `x`, applies the
   rectifier and writes the block back, and the ten blocks tile the array. -/
import proofs.«407945_j8993661518245_1_alg».proof.Proof.FrameKI
import proofs.«407945_j8993661518245_1_alg».proof.Proof.LibAct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegBias5

open Idealize.ShloMosaic Idealize.ShloMosaic.TcCoe Idealize.ShloMosaic.ValueIdx
open Idealize.ShloMosaic.Pipeline (Dat Cfg Window)
open Cert.KernelIdeal.Gen Cert.KernelIdeal.GenP Cert.LibAct

/-! ## The body's payload at one element -/

/-- The bias row, broadcast over the rows and added to the block, at row `p` and lane `q`: the block's element plus
    the bias row's element of the same lane (the two shape casts are to the same shape, and the broadcast of a
    one-row array reads its one row). -/
theorem biased_apply (x0 : Vec Ideal S5000x128 .f32) (x1 : Vec Ideal S1x128 .f32) (p : Fin 5000) (q : Fin 128) :
    addf (F := Ideal) (φ := .f32) (shapeCast S5000x128 x0 shapeCasts_S5000x128_S5000x128)
      (broadcastTo S5000x128 (shapeCast S1x128 x1 shapeCasts_S1x128_S1x128) broadcasts_S1x128_S5000x128) (ix2 p q)
      = x0 (ix2 p q) + x1 (ix2 (0 : Fin 1) q) := by
  rw [shapeCast_self, shapeCast_self, addf_apply]
  exact congrArg (x0 (ix2 p q) + ·) (broadcastTo_1b_ab_apply x1 broadcasts_S1x128_S5000x128 p q)

/-- What the body stores, at row `p` and lane `q` of the block: the rectifier of that sum (the maximum with the zero
    word, which denotes `0`). -/
theorem stored_apply (x0 : Vec Ideal S5000x128 .f32) (x1 : Vec Ideal S1x128 .f32) (p : Fin 5000) (q : Fin 128) :
    k5_pay1 x0 x1 (ix2 p q) = reluE (x0 (ix2 p q) + x1 (ix2 (0 : Fin 1) q)) := by
  unfold k5_pay1
  show max (addf (F := Ideal) (φ := .f32) (shapeCast S5000x128 x0 shapeCasts_S5000x128_S5000x128)
      (broadcastTo S5000x128 (shapeCast S1x128 x1 shapeCasts_S1x128_S1x128) broadcasts_S1x128_S5000x128) (ix2 p q))
      (Ideal.ofBits .f32 0x00000000#32) = _
  rw [biased_apply, Ideal.ofBits_zero_f32, reluE_def]

/-! ## The whole-array value -/

/-- The output array as one function of the two input arrays: at each index the rectifier of the `x` entry plus the
    bias entry of the same lane. -/
def G (x : Vec Ideal S50000x128 .f32) (b : Vec Ideal S1x128 .f32) : Vec Ideal S50000x128 .f32 :=
  fun i => reluE (x i + b (ix2 (0 : Fin 1) (i 1 : Fin 128)))

theorem G_apply (x : Vec Ideal S50000x128 .f32) (b : Vec Ideal S1x128 .f32) (r : Fin 50000) (j : Fin 128) :
    G x b (ix2 r j) = reluE (x (ix2 r j) + b (ix2 (0 : Fin 1) j)) := rfl

/-! ## From the blocks to the array -/

theorem offsets_zero : (![0, 0] : Fin 2 → Nat) = fun _ => 0 := funext fun a => by fin_cases a <;> rfl

/-- The block index maps over the ten points: the two 50000-row windows are at block `(t, 0)`, the bias row's at
    `(0, 0)`. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `p`, lane `q` of the input block at point `t` is the array element that row `p`, lane `q` of the output block
    at `t` is: both blocks sit at rows `5000 t` onward. -/
theorem x_block_at (t : Fin cfg5.N) (p : Fin 5000) (q : Fin 128) :
    ((cfg5.win 0).blk t).view.emb (ix2 p q) = ((cfg5.win 2).blk t).view.emb (ix2 p q) := by
  obtain ⟨e0, e1, e2, e3, e4, e5⟩ := block_indices t
  funext a; apply Fin.ext
  match a with
  | ⟨0, _⟩ => show win5_0.index t (0 : Fin 2) * 5000 + 1 * p.val = win5_2.index t (0 : Fin 2) * 5000 + 1 * p.val; omega
  | ⟨1, _⟩ => show win5_0.index t (1 : Fin 2) * 128 + 1 * q.val = win5_2.index t (1 : Fin 2) * 128 + 1 * q.val; omega

/-- Lane `q` of the bias block (always the whole one-row array) is row 0 and the lane of the output block's element. -/
theorem bias_block_at (t : Fin cfg5.N) (p : Fin 5000) (q : Fin 128) :
    ((cfg5.win 1).blk t).view.emb (ix2 (0 : Fin 1) q) = ix2 (0 : Fin 1) ((((cfg5.win 2).blk t).view.emb (ix2 p q)) 1 : Fin 128) := by
  obtain ⟨e0, e1, e2, e3, e4, e5⟩ := block_indices t
  funext a; apply Fin.ext
  match a with
  | ⟨0, _⟩ => show win5_1.index t (0 : Fin 2) * 1 + 1 * 0 = 0; omega
  | ⟨1, _⟩ => show win5_1.index t (1 : Fin 2) * 128 + 1 * q.val = win5_2.index t (1 : Fin 2) * 128 + 1 * q.val; omega

/-- An index of the output array is in point `t`'s block iff each coordinate is in the block's range on its axis. -/
theorem mem_out_block (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v70).slice (win5_2.rect t)).set ↔ _
  rw [View.set_slice_whole, Rect.mem_set_unit]
  exact Iff.rfl

/-- Every index of the output array is in the block of the point its row divided by 5000 names, and every point
    writes its block back. -/
theorem out_blocks_cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e0, e1, e2, e3, e4, e5⟩ := block_indices t
  have ht : t.val = (i 0).val / 5000 := rfl
  refine ⟨t, flush5_2 t, ?_⟩
  rw [mem_out_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

section Value

variable (V : (c : Dev nD) → (b : Ref sig .tc) → Buf (Elt Ideal) ((c : Thread nD τ).loc b))

/-- The two input arrays as the region finds them, at their literal types: `x`, 50000 by 128, and the bias row `b`,
    1 by 128. -/
abbrev xarr (c : Dev nD) : Vec Ideal S50000x128 .f32 := V c (Pipeline.arrRef spec5 0)
abbrev barr (c : Dev nD) : Vec Ideal S1x128 .f32 := V c (Pipeline.arrRef spec5 1)

/-- What point `t` writes back is block `t` of `G` of the two input arrays as the region finds them. -/
theorem written_back_eq (c : Dev nD) (t : Fin cfg5.N) :
    (dat5 V c).flushed 2 t
      = ((cfg5.win 2).blk t).view.read (Elt Ideal) (G (xarr V c) (barr V c)) := by
  show (cfg5.win 2).cut (grid5.coords t) ((dat5 V c).after 2 t) = _
  rw [after5_2]
  unfold out5_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (stored_apply (iblk5 V c 0 t) (iblk5 V c 1 t) p q).trans ?_
  show reluE (xarr V c (((cfg5.win 0).blk t).view.emb (ix2 p q))
        + barr V c (((cfg5.win 1).blk t).view.emb (ix2 (0 : Fin 1) q)))
      = reluE (xarr V c (((cfg5.win 2).blk t).view.emb (ix2 p q))
        + barr V c (ix2 (0 : Fin 1) ((((cfg5.win 2).blk t).view.emb (ix2 p q)) 1 : Fin 128)))
  exact congrArg reluE (congrArg₂ (fun a b : EReal => a + b) (congrArg (xarr V c) (x_block_at t p q)) (congrArg (barr V c) (bias_block_at t p q)))

/-- THE OUTPUT ARRAY after the region: `G` of the two input arrays. -/
theorem out_eq (c : Dev nD) :
    (dat5 V c).arrAt 2 cfg5.N = G (xarr V c) (barr V c) :=
  (dat5 V c).arrAt_eq_of_cover 2 _ (fun t _ => written_back_eq V c t) out_blocks_cover

/-- The output array at row `r`, lane `j`. -/
theorem out_apply (c : Dev nD) (r : Fin 50000) (j : Fin 128) :
    ((dat5 V c).arrAt 2 cfg5.N) (ix2 r j)
      = reluE (xarr V c (ix2 r j) + barr V c (ix2 (0 : Fin 1) j)) :=
  congrFun (out_eq V c) (ix2 r j)

/-- The two input arrays are never written: after the region they are as it found them. -/
theorem kept0 (c : Dev nD) : (dat5 V c).arrAt 0 cfg5.N = V c (Pipeline.arrRef spec5 0) :=
  ((dat5 V c).arrAt_in 0 rfl cfg5.N).trans (A_eq5 V c 0)
theorem kept1 (c : Dev nD) : (dat5 V c).arrAt 1 cfg5.N = V c (Pipeline.arrRef spec5 1) :=
  ((dat5 V c).arrAt_in 1 rfl cfg5.N).trans (A_eq5 V c 1)

end Value

end Cert.KernelIdeal.RegBias5

end
-- ==== Proof.StageActRd1.lean ====
/- The program texts behind graph layer 1's bias and rectifier, read at one entry. In the kernel program the bias row that the
   region finds is made by the host operations just before it; in the reference the bias is broadcast down the rows,
   added, and the activation applied by a short run of host operations. Each is read off the fold of its operation
   list: the list is cut where the run starts, everything before the cut stays one unnamed state, and the run's few
   operations are composed over it. -/
import proofs.«407945_j8993661518245_1_alg».proof.Proof.Gen.KernelIdeal.Launch
import proofs.«407945_j8993661518245_1_alg».proof.Proof.RefOps
import proofs.«407945_j8993661518245_1_alg».proof.Proof.StageActLib

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.StageActLib

/-! ## The kernel program: the bias row the region finds -/

section Kernel

open Cert.KernelIdeal Cert.KernelIdeal.Gen

set_option maxHeartbeats 1000000 in
/-- The bias row of region 5 is row 0 of the 3 by 128 bias argument, cut out, flattened and reshaped to one row:
    lane `j` holds the argument's entry `(0, j)`. The argument is not written by these operations. -/
theorem kbias1 (V : Valuation τ sig (Elt Ideal)) (j : Fin 128) :
    rd (S := S1x128) (after hostOps5_2 V (Proc.devRef .tc main_v69)) (ix2 (0 : Fin 1) j)
      = rd (S := S3x128) (V (Proc.devRef .tc main_arg3)) (ix2 (0 : Fin 3) j) := by
  after_results
  exact row_row_apply _ 0 _ _ _ (0 : Fin 3) rfl 0 j

end Kernel

/-! ## The reference: the activation's run of operations -/

section Reference

open Cert.ReferenceIdeal Cert.ReferenceIdeal.RefRun

set_option maxHeartbeats 1000000 in
/-- From operation 0 of window 2 on: the bias vector broadcast down the rows and added to the aggregate, then the
    maximum with a zero array, at any state `W` before. -/
theorem rout1_key (W : Valuation τ sig (Elt Ideal)) (r : Fin 50000) (j : Fin 128) :
    rd (S := S50000x128) (after (List.drop 0 ops2) W (Proc.devRef .tc main_v98)) (ix2 r j)
      = reluE (rd (S := S50000x128) (after (List.drop 0 ops2) W (Proc.devRef .tc main_v94)) (ix2 r j)
          + rd (S := S128) (after (List.drop 0 ops2) W (Proc.devRef .tc main_v47)) (ix1 j)) := by
  simp only [List.drop_succ_cons, List.drop_zero]
  after_results_simp
  exact relu_bias_apply (W (Proc.devRef .tc main_v94)) (W (Proc.devRef .tc main_v47)) (by decide) (by decide) (by decide) r j

/-- The same over the whole window. -/
theorem rout1 (V : Valuation τ sig (Elt Ideal)) (r : Fin 50000) (j : Fin 128) :
    rd (S := S50000x128) (after ops2 V (Proc.devRef .tc main_v98)) (ix2 r j)
      = reluE (rd (S := S50000x128) (after ops2 V (Proc.devRef .tc main_v94)) (ix2 r j) + rd (S := S128) (after ops2 V (Proc.devRef .tc main_v47)) (ix1 j)) := by
  rw [after_split 0 ops2 V]
  exact rout1_key _ r j

set_option maxHeartbeats 1000000 in
/-- From operation 60 of window 0 on: row 0 of the bias argument cut out and flattened. -/
theorem rvec1_key (W : Valuation τ sig (Elt Ideal)) (j : Fin 128) :
    rd (S := S128) (after (List.drop 60 ops0) W (Proc.devRef .tc main_v47)) (ix1 j)
      = rd (S := S3x128) (after (List.drop 60 ops0) W (Proc.devRef .tc main_arg3)) (ix2 (0 : Fin 3) j) := by
  simp only [List.drop_succ_cons, List.drop_zero]
  after_results_simp
  exact row_vec_apply _ 0 _ _ (0 : Fin 3) rfl j

/-- The same over the whole window. -/
theorem rvec1 (V : Valuation τ sig (Elt Ideal)) (j : Fin 128) :
    rd (S := S128) (after ops0 V (Proc.devRef .tc main_v47)) (ix1 j) = rd (S := S3x128) (after ops0 V (Proc.devRef .tc main_arg3)) (ix2 (0 : Fin 3) j) := by
  rw [after_split 60 ops0 V]
  exact rvec1_key _ j

variable (m' : (ℓ : Loc nD τ sig) → Buf (Elt Ideal) ℓ) (c : Dev nD)

/-- THE REFERENCE'S STAGE: the hidden state at `(r, j)` is the rectifier of the aggregate there plus entry `(0, j)`
    of the bias argument (the aggregate is written in an earlier or the same window, the bias vector in window 0, the
    argument never; none is written after the window that reads it). -/
theorem ref_h1 (r : Fin 50000) (j : Fin 128) :
    rd (S := S50000x128) (R14 (F := Ideal) m' c (Proc.devRef .tc main_v98)) (ix2 r j)
      = reluE (rd (S := S50000x128) (R14 (F := Ideal) m' c (Proc.devRef .tc main_v94)) (ix2 r j) + rd (S := S3x128) (R14 (F := Ideal) m' c (Proc.devRef .tc main_arg3)) (ix2 (0 : Fin 3) j)) := by
  have e1 : R14 (F := Ideal) m' c (Proc.devRef .tc main_v98) = after ops2 (R2 m' c) (Proc.devRef .tc main_v98) :=
    carry3 m' c main_v98 (by decide)
  have e2 : after ops2 (R2 m' c) (Proc.devRef .tc main_v94) = R14 (F := Ideal) m' c (Proc.devRef .tc main_v94) :=
    (carry3 m' c main_v94 (by decide)).symm
  have e3 : after ops2 (R2 m' c) (Proc.devRef .tc main_v47) = after ops0 (R0 m' c) (Proc.devRef .tc main_v47) :=
    (carry3 m' c main_v47 (by decide)).symm.trans (carry1 m' c main_v47 (by decide))
  have e4 : after ops0 (R0 m' c) (Proc.devRef .tc main_arg3) = R14 (F := Ideal) m' c (Proc.devRef .tc main_arg3) :=
    (carry1 m' c main_arg3 (by decide)).symm
  rw [e1, rout1, e2, e3, rvec1, e4]

end Reference

end Cert.StageAct

end
-- ==== Proof.StageAct1.lean ====
/- Graph layer 1's bias and rectifier. The kernel program's array after region 5 and the reference's array
   after its rectifier are the same function, all of whose entries are real numbers, whenever the arrays they
   are computed from are. The region's output at `(r, j)` is the rectifier of its first input at `(r, j)` plus its bias
   row at lane `j`; the first input and the bias row are buffers of the final state, and the bias row reads back to
   the bias argument; the reference's run of operations computes the same expression. -/
import proofs.«407945_j8993661518245_1_alg».proof.Proof.Iface
import proofs.«407945_j8993661518245_1_alg».proof.Proof.KCarry
import proofs.«407945_j8993661518245_1_alg».proof.Proof.RegBias5
import proofs.«407945_j8993661518245_1_alg».proof.Proof.StageActRd1

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.LibFinite Cert.StageActLib

/-! ## The kernel program's stage -/

section Kernel

open Cert.KernelIdeal Cert.KernelIdeal.Gen Cert.KernelIdeal.GenP

variable (m : (ℓ : Loc nD τ sig) → Buf (Elt Ideal) ℓ) (ρ : Dev nD → PrngReg) (c : Dev nD)

/-- THE KERNEL PROGRAM'S STAGE: region 5's output at `(r, j)` is the rectifier of its input there plus
    entry `(0, j)` of the bias argument (the bias row is made from the argument just before the region, and the
    argument is never written). -/
theorem kernel_h1 (r : Fin 50000) (j : Fin 128) :
    rd (S := S50000x128) (W58 (F := Ideal) m ρ c (Proc.devRef .tc main_v70)) (ix2 r j)
      = reluE (rd (S := S50000x128) (W58 (F := Ideal) m ρ c (Proc.devRef .tc main_v66)) (ix2 r j) + rd (S := S3x128) (W58 (F := Ideal) m ρ c (Proc.devRef .tc main_arg3)) (ix2 (0 : Fin 3) j)) := by
  have e1 : (W58 (F := Ideal) m ρ c (Proc.devRef .tc main_v70) : S50000x128.Idx → EReal) = (dat5 (V11 m ρ) c).arrAt 2 cfg5.N :=
    Cert.KernelIdeal.KCarry.reg5_arr2 m ρ c
  have e2 : (V11 (F := Ideal) m ρ c main_v66 : S50000x128.Idx → EReal) = W58 (F := Ideal) m ρ c (Proc.devRef .tc main_v66) :=
    Cert.KernelIdeal.KCarry.reg5_in0 m ρ c
  have e3 : rd (S := S1x128) (V11 (F := Ideal) m ρ c main_v69) (ix2 (0 : Fin 1) j)
      = rd (S := S3x128) (W10 (F := Ideal) m ρ c (Proc.devRef .tc main_arg3)) (ix2 (0 : Fin 3) j) := kbias1 (W10 m ρ c) j
  have e4 : W10 (F := Ideal) m ρ c (Proc.devRef .tc main_arg3) = W58 (F := Ideal) m ρ c (Proc.devRef .tc main_arg3) :=
    (Cert.KernelIdeal.KCarry.carry10 m ρ c main_arg3 (by decide)).symm
  refine (congrFun e1 (ix2 r j)).trans ((Cert.KernelIdeal.RegBias5.out_apply (V11 m ρ) c r j).trans ?_)
  show reluE (rd (S := S50000x128) (V11 (F := Ideal) m ρ c main_v66) (ix2 r j)
      + rd (S := S1x128) (V11 (F := Ideal) m ρ c main_v69) (ix2 (0 : Fin 1) j)) = _
  rw [e2, e3, e4]

end Kernel

/-! ## The two programs' stages agree -/

open Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- If the layer's aggregate is the same real-valued array in the two programs and the bias argument is the same
    real-valued array, the layer's hidden state is the same real-valued array: each program adds bias entry
    `(0, j)` to the aggregate's entry `(r, j)` and takes the rectifier; sums and maxima of reals are real. -/
theorem h1 (h : Cert.Iface.Agg1 m ρ m' c)
    (hb : (Kf m ρ c Cert.KernelIdeal.main_arg3 : Cert.KernelIdeal.S3x128.Idx → EReal) = Rf m' c Cert.ReferenceIdeal.main_arg3)
    (hbf : AllFin (Kf m ρ c Cert.KernelIdeal.main_arg3 : Cert.KernelIdeal.S3x128.Idx → EReal)) :
    Cert.Iface.H1 m ρ m' c := by
  unfold Cert.Iface.Agg1 at h
  obtain ⟨hx, hxf⟩ := h
  have hx' : (Cert.KernelIdeal.GenP.W58 (F := Ideal) m ρ c (Proc.devRef .tc Cert.KernelIdeal.main_v66) : Cert.KernelIdeal.S50000x128.Idx → EReal)
      = Cert.ReferenceIdeal.RefRun.R14 (F := Ideal) m' c (Proc.devRef .tc Cert.ReferenceIdeal.main_v94) := hx
  have hb' : (Cert.KernelIdeal.GenP.W58 (F := Ideal) m ρ c (Proc.devRef .tc Cert.KernelIdeal.main_arg3) : Cert.KernelIdeal.S3x128.Idx → EReal)
      = Cert.ReferenceIdeal.RefRun.R14 (F := Ideal) m' c (Proc.devRef .tc Cert.ReferenceIdeal.main_arg3) := hb
  unfold Cert.Iface.H1
  refine ⟨funext fun i => ?_, ?_⟩
  · obtain ⟨r, j, rfl⟩ : ∃ (r : Fin 50000) (j : Fin 128), i = ix2 r j := ⟨i 0, i 1, eq_ix2 i⟩
    refine (kernel_h1 m ρ c r j).trans ?_
    rw [hx', hb']
    exact (ref_h1 m' c r j).symm
  · intro i
    obtain ⟨r, j, rfl⟩ : ∃ (r : Fin 50000) (j : Fin 128), i = ix2 r j := ⟨i 0, i 1, eq_ix2 i⟩
    exact Eq.mpr (congrArg IsFin (kernel_h1 m ρ c r j))
      (isFin_reluE ((hxf (ix2 r j)).add (hbf (ix2 (0 : Fin 3) j))))

end Cert.StageAct

end
-- ==== Proof.RegBias8.lean ====
/- Region 8 of the kernel program (the bias-add followed by the rectifier), read as a whole-array value: after the
   region its output array holds, at row `r` and lane `j`, the rectifier of `x r j + b 0 j`, where `x` (50000 by 128)
   and `b` (1 by 128) are the region's two input arrays as it finds them; the two input arrays are left as found.
   The region walks the rows in ten blocks of 5000; each point adds the one bias row to its block of `x`, applies the
   rectifier and writes the block back, and the ten blocks tile the array. -/
import proofs.«407945_j8993661518245_1_alg».proof.Proof.FrameKI
import proofs.«407945_j8993661518245_1_alg».proof.Proof.LibAct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegBias8

open Idealize.ShloMosaic Idealize.ShloMosaic.TcCoe Idealize.ShloMosaic.ValueIdx
open Idealize.ShloMosaic.Pipeline (Dat Cfg Window)
open Cert.KernelIdeal.Gen Cert.KernelIdeal.GenP Cert.LibAct

/-! ## The body's payload at one element -/

/-- The bias row, broadcast over the rows and added to the block, at row `p` and lane `q`: the block's element plus
    the bias row's element of the same lane (the two shape casts are to the same shape, and the broadcast of a
    one-row array reads its one row). -/
theorem biased_apply (x0 : Vec Ideal S5000x128 .f32) (x1 : Vec Ideal S1x128 .f32) (p : Fin 5000) (q : Fin 128) :
    addf (F := Ideal) (φ := .f32) (shapeCast S5000x128 x0 shapeCasts_S5000x128_S5000x128)
      (broadcastTo S5000x128 (shapeCast S1x128 x1 shapeCasts_S1x128_S1x128) broadcasts_S1x128_S5000x128) (ix2 p q)
      = x0 (ix2 p q) + x1 (ix2 (0 : Fin 1) q) := by
  rw [shapeCast_self, shapeCast_self, addf_apply]
  exact congrArg (x0 (ix2 p q) + ·) (broadcastTo_1b_ab_apply x1 broadcasts_S1x128_S5000x128 p q)

/-- What the body stores, at row `p` and lane `q` of the block: the rectifier of that sum (the maximum with the zero
    word, which denotes `0`). -/
theorem stored_apply (x0 : Vec Ideal S5000x128 .f32) (x1 : Vec Ideal S1x128 .f32) (p : Fin 5000) (q : Fin 128) :
    k8_pay1 x0 x1 (ix2 p q) = reluE (x0 (ix2 p q) + x1 (ix2 (0 : Fin 1) q)) := by
  unfold k8_pay1
  show max (addf (F := Ideal) (φ := .f32) (shapeCast S5000x128 x0 shapeCasts_S5000x128_S5000x128)
      (broadcastTo S5000x128 (shapeCast S1x128 x1 shapeCasts_S1x128_S1x128) broadcasts_S1x128_S5000x128) (ix2 p q))
      (Ideal.ofBits .f32 0x00000000#32) = _
  rw [biased_apply, Ideal.ofBits_zero_f32, reluE_def]

/-! ## The whole-array value -/

/-- The output array as one function of the two input arrays: at each index the rectifier of the `x` entry plus the
    bias entry of the same lane. -/
def G (x : Vec Ideal S50000x128 .f32) (b : Vec Ideal S1x128 .f32) : Vec Ideal S50000x128 .f32 :=
  fun i => reluE (x i + b (ix2 (0 : Fin 1) (i 1 : Fin 128)))

theorem G_apply (x : Vec Ideal S50000x128 .f32) (b : Vec Ideal S1x128 .f32) (r : Fin 50000) (j : Fin 128) :
    G x b (ix2 r j) = reluE (x (ix2 r j) + b (ix2 (0 : Fin 1) j)) := rfl

/-! ## From the blocks to the array -/

theorem offsets_zero : (![0, 0] : Fin 2 → Nat) = fun _ => 0 := funext fun a => by fin_cases a <;> rfl

/-- The block index maps over the ten points: the two 50000-row windows are at block `(t, 0)`, the bias row's at
    `(0, 0)`. -/
theorem block_indices : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Row `p`, lane `q` of the input block at point `t` is the array element that row `p`, lane `q` of the output block
    at `t` is: both blocks sit at rows `5000 t` onward. -/
theorem x_block_at (t : Fin cfg8.N) (p : Fin 5000) (q : Fin 128) :
    ((cfg8.win 0).blk t).view.emb (ix2 p q) = ((cfg8.win 2).blk t).view.emb (ix2 p q) := by
  obtain ⟨e0, e1, e2, e3, e4, e5⟩ := block_indices t
  funext a; apply Fin.ext
  match a with
  | ⟨0, _⟩ => show win8_0.index t (0 : Fin 2) * 5000 + 1 * p.val = win8_2.index t (0 : Fin 2) * 5000 + 1 * p.val; omega
  | ⟨1, _⟩ => show win8_0.index t (1 : Fin 2) * 128 + 1 * q.val = win8_2.index t (1 : Fin 2) * 128 + 1 * q.val; omega

/-- Lane `q` of the bias block (always the whole one-row array) is row 0 and the lane of the output block's element. -/
theorem bias_block_at (t : Fin cfg8.N) (p : Fin 5000) (q : Fin 128) :
    ((cfg8.win 1).blk t).view.emb (ix2 (0 : Fin 1) q) = ix2 (0 : Fin 1) ((((cfg8.win 2).blk t).view.emb (ix2 p q)) 1 : Fin 128) := by
  obtain ⟨e0, e1, e2, e3, e4, e5⟩ := block_indices t
  funext a; apply Fin.ext
  match a with
  | ⟨0, _⟩ => show win8_1.index t (0 : Fin 2) * 1 + 1 * 0 = 0; omega
  | ⟨1, _⟩ => show win8_1.index t (1 : Fin 2) * 128 + 1 * q.val = win8_2.index t (1 : Fin 2) * 128 + 1 * q.val; omega

/-- An index of the output array is in point `t`'s block iff each coordinate is in the block's range on its axis. -/
theorem mem_out_block (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v130).slice (win8_2.rect t)).set ↔ _
  rw [View.set_slice_whole, Rect.mem_set_unit]
  exact Iff.rfl

/-- Every index of the output array is in the block of the point its row divided by 5000 names, and every point
    writes its block back. -/
theorem out_blocks_cover (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  have hN : cfg8.N = 10 := N_8
  let t : Fin cfg8.N := ⟨(i 0).val / 5000, by rw [hN]; omega⟩
  obtain ⟨e0, e1, e2, e3, e4, e5⟩ := block_indices t
  have ht : t.val = (i 0).val / 5000 := rfl
  refine ⟨t, flush8_2 t, ?_⟩
  rw [mem_out_block]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

section Value

variable (V : (c : Dev nD) → (b : Ref sig .tc) → Buf (Elt Ideal) ((c : Thread nD τ).loc b))

/-- The two input arrays as the region finds them, at their literal types: `x`, 50000 by 128, and the bias row `b`,
    1 by 128. -/
abbrev xarr (c : Dev nD) : Vec Ideal S50000x128 .f32 := V c (Pipeline.arrRef spec8 0)
abbrev barr (c : Dev nD) : Vec Ideal S1x128 .f32 := V c (Pipeline.arrRef spec8 1)

/-- What point `t` writes back is block `t` of `G` of the two input arrays as the region finds them. -/
theorem written_back_eq (c : Dev nD) (t : Fin cfg8.N) :
    (dat8 V c).flushed 2 t
      = ((cfg8.win 2).blk t).view.read (Elt Ideal) (G (xarr V c) (barr V c)) := by
  show (cfg8.win 2).cut (grid8.coords t) ((dat8 V c).after 2 t) = _
  rw [after8_2]
  unfold out8_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (stored_apply (iblk8 V c 0 t) (iblk8 V c 1 t) p q).trans ?_
  show reluE (xarr V c (((cfg8.win 0).blk t).view.emb (ix2 p q))
        + barr V c (((cfg8.win 1).blk t).view.emb (ix2 (0 : Fin 1) q)))
      = reluE (xarr V c (((cfg8.win 2).blk t).view.emb (ix2 p q))
        + barr V c (ix2 (0 : Fin 1) ((((cfg8.win 2).blk t).view.emb (ix2 p q)) 1 : Fin 128)))
  exact congrArg reluE (congrArg₂ (fun a b : EReal => a + b) (congrArg (xarr V c) (x_block_at t p q)) (congrArg (barr V c) (bias_block_at t p q)))

/-- THE OUTPUT ARRAY after the region: `G` of the two input arrays. -/
theorem out_eq (c : Dev nD) :
    (dat8 V c).arrAt 2 cfg8.N = G (xarr V c) (barr V c) :=
  (dat8 V c).arrAt_eq_of_cover 2 _ (fun t _ => written_back_eq V c t) out_blocks_cover

/-- The output array at row `r`, lane `j`. -/
theorem out_apply (c : Dev nD) (r : Fin 50000) (j : Fin 128) :
    ((dat8 V c).arrAt 2 cfg8.N) (ix2 r j)
      = reluE (xarr V c (ix2 r j) + barr V c (ix2 (0 : Fin 1) j)) :=
  congrFun (out_eq V c) (ix2 r j)

/-- The two input arrays are never written: after the region they are as it found them. -/
theorem kept0 (c : Dev nD) : (dat8 V c).arrAt 0 cfg8.N = V c (Pipeline.arrRef spec8 0) :=
  ((dat8 V c).arrAt_in 0 rfl cfg8.N).trans (A_eq8 V c 0)
theorem kept1 (c : Dev nD) : (dat8 V c).arrAt 1 cfg8.N = V c (Pipeline.arrRef spec8 1) :=
  ((dat8 V c).arrAt_in 1 rfl cfg8.N).trans (A_eq8 V c 1)

end Value

end Cert.KernelIdeal.RegBias8

end
-- ==== Proof.StageActRd2.lean ====
/- The program texts behind graph layer 2's bias and rectifier, read at one entry. In the kernel program the bias row that the
   region finds is made by the host operations just before it; in the reference the bias is broadcast down the rows,
   added, and the activation applied by a short run of host operations. Each is read off the fold of its operation
   list: the list is cut where the run starts, everything before the cut stays one unnamed state, and the run's few
   operations are composed over it. -/
import proofs.«407945_j8993661518245_1_alg».proof.Proof.Gen.KernelIdeal.Launch
import proofs.«407945_j8993661518245_1_alg».proof.Proof.RefOps
import proofs.«407945_j8993661518245_1_alg».proof.Proof.StageActLib

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.StageActLib

/-! ## The kernel program: the bias row the region finds -/

section Kernel

open Cert.KernelIdeal Cert.KernelIdeal.Gen

set_option maxHeartbeats 1000000 in
/-- The bias row of region 8 is row 1 of the 3 by 128 bias argument, cut out, flattened and reshaped to one row:
    lane `j` holds the argument's entry `(1, j)`. The argument is not written by these operations. -/
theorem kbias2 (V : Valuation τ sig (Elt Ideal)) (j : Fin 128) :
    rd (S := S1x128) (after hostOps8_2 V (Proc.devRef .tc main_v129)) (ix2 (0 : Fin 1) j)
      = rd (S := S3x128) (V (Proc.devRef .tc main_arg3)) (ix2 (1 : Fin 3) j) := by
  after_results
  exact row_row_apply _ 1 _ _ _ (1 : Fin 3) rfl 0 j

end Kernel

/-! ## The reference: the activation's run of operations -/

section Reference

open Cert.ReferenceIdeal Cert.ReferenceIdeal.RefRun

set_option maxHeartbeats 1000000 in
/-- From operation 35 of window 3 on: the bias vector broadcast down the rows and added to the aggregate, then the
    maximum with a zero array, at any state `W` before. -/
theorem rout2_key (W : Valuation τ sig (Elt Ideal)) (r : Fin 50000) (j : Fin 128) :
    rd (S := S50000x128) (after (List.drop 35 ops3) W (Proc.devRef .tc main_v174)) (ix2 r j)
      = reluE (rd (S := S50000x128) (after (List.drop 35 ops3) W (Proc.devRef .tc main_v170)) (ix2 r j)
          + rd (S := S128) (after (List.drop 35 ops3) W (Proc.devRef .tc main_v123)) (ix1 j)) := by
  simp only [List.drop_succ_cons, List.drop_zero]
  after_results_simp
  exact relu_bias_apply (W (Proc.devRef .tc main_v170)) (W (Proc.devRef .tc main_v123)) (by decide) (by decide) (by decide) r j

/-- The same over the whole window. -/
theorem rout2 (V : Valuation τ sig (Elt Ideal)) (r : Fin 50000) (j : Fin 128) :
    rd (S := S50000x128) (after ops3 V (Proc.devRef .tc main_v174)) (ix2 r j)
      = reluE (rd (S := S50000x128) (after ops3 V (Proc.devRef .tc main_v170)) (ix2 r j) + rd (S := S128) (after ops3 V (Proc.devRef .tc main_v123)) (ix1 j)) := by
  rw [after_split 35 ops3 V]
  exact rout2_key _ r j

set_option maxHeartbeats 1000000 in
/-- From operation 35 of window 2 on: row 1 of the bias argument cut out and flattened. -/
theorem rvec2_key (W : Valuation τ sig (Elt Ideal)) (j : Fin 128) :
    rd (S := S128) (after (List.drop 35 ops2) W (Proc.devRef .tc main_v123)) (ix1 j)
      = rd (S := S3x128) (after (List.drop 35 ops2) W (Proc.devRef .tc main_arg3)) (ix2 (1 : Fin 3) j) := by
  simp only [List.drop_succ_cons, List.drop_zero]
  after_results_simp
  exact row_vec_apply _ 1 _ _ (1 : Fin 3) rfl j

/-- The same over the whole window. -/
theorem rvec2 (V : Valuation τ sig (Elt Ideal)) (j : Fin 128) :
    rd (S := S128) (after ops2 V (Proc.devRef .tc main_v123)) (ix1 j) = rd (S := S3x128) (after ops2 V (Proc.devRef .tc main_arg3)) (ix2 (1 : Fin 3) j) := by
  rw [after_split 35 ops2 V]
  exact rvec2_key _ j

variable (m' : (ℓ : Loc nD τ sig) → Buf (Elt Ideal) ℓ) (c : Dev nD)

/-- THE REFERENCE'S STAGE: the hidden state at `(r, j)` is the rectifier of the aggregate there plus entry `(1, j)`
    of the bias argument (the aggregate is written in an earlier or the same window, the bias vector in window 2, the
    argument never; none is written after the window that reads it). -/
theorem ref_h2 (r : Fin 50000) (j : Fin 128) :
    rd (S := S50000x128) (R14 (F := Ideal) m' c (Proc.devRef .tc main_v174)) (ix2 r j)
      = reluE (rd (S := S50000x128) (R14 (F := Ideal) m' c (Proc.devRef .tc main_v170)) (ix2 r j) + rd (S := S3x128) (R14 (F := Ideal) m' c (Proc.devRef .tc main_arg3)) (ix2 (1 : Fin 3) j)) := by
  have e1 : R14 (F := Ideal) m' c (Proc.devRef .tc main_v174) = after ops3 (R3 m' c) (Proc.devRef .tc main_v174) :=
    carry4 m' c main_v174 (by decide)
  have e2 : after ops3 (R3 m' c) (Proc.devRef .tc main_v170) = R14 (F := Ideal) m' c (Proc.devRef .tc main_v170) :=
    (carry4 m' c main_v170 (by decide)).symm
  have e3 : after ops3 (R3 m' c) (Proc.devRef .tc main_v123) = after ops2 (R2 m' c) (Proc.devRef .tc main_v123) :=
    (carry4 m' c main_v123 (by decide)).symm.trans (carry3 m' c main_v123 (by decide))
  have e4 : after ops2 (R2 m' c) (Proc.devRef .tc main_arg3) = R14 (F := Ideal) m' c (Proc.devRef .tc main_arg3) :=
    (carry3 m' c main_arg3 (by decide)).symm
  rw [e1, rout2, e2, e3, rvec2, e4]

end Reference

end Cert.StageAct

end
-- ==== Proof.StageAct2.lean ====
/- Graph layer 2's bias and rectifier. The kernel program's array after region 8 and the reference's array
   after its rectifier are the same function, all of whose entries are real numbers, whenever the arrays they
   are computed from are. The region's output at `(r, j)` is the rectifier of its first input at `(r, j)` plus its bias
   row at lane `j`; the first input and the bias row are buffers of the final state, and the bias row reads back to
   the bias argument; the reference's run of operations computes the same expression. -/
import proofs.«407945_j8993661518245_1_alg».proof.Proof.Iface
import proofs.«407945_j8993661518245_1_alg».proof.Proof.KCarry
import proofs.«407945_j8993661518245_1_alg».proof.Proof.RegBias8
import proofs.«407945_j8993661518245_1_alg».proof.Proof.StageActRd2

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.LibFinite Cert.StageActLib

/-! ## The kernel program's stage -/

section Kernel

open Cert.KernelIdeal Cert.KernelIdeal.Gen Cert.KernelIdeal.GenP

variable (m : (ℓ : Loc nD τ sig) → Buf (Elt Ideal) ℓ) (ρ : Dev nD → PrngReg) (c : Dev nD)

/-- THE KERNEL PROGRAM'S STAGE: region 8's output at `(r, j)` is the rectifier of its input there plus
    entry `(1, j)` of the bias argument (the bias row is made from the argument just before the region, and the
    argument is never written). -/
theorem kernel_h2 (r : Fin 50000) (j : Fin 128) :
    rd (S := S50000x128) (W58 (F := Ideal) m ρ c (Proc.devRef .tc main_v130)) (ix2 r j)
      = reluE (rd (S := S50000x128) (W58 (F := Ideal) m ρ c (Proc.devRef .tc main_v126)) (ix2 r j) + rd (S := S3x128) (W58 (F := Ideal) m ρ c (Proc.devRef .tc main_arg3)) (ix2 (1 : Fin 3) j)) := by
  have e1 : (W58 (F := Ideal) m ρ c (Proc.devRef .tc main_v130) : S50000x128.Idx → EReal) = (dat8 (V18 m ρ) c).arrAt 2 cfg8.N :=
    Cert.KernelIdeal.KCarry.reg8_arr2 m ρ c
  have e2 : (V18 (F := Ideal) m ρ c main_v126 : S50000x128.Idx → EReal) = W58 (F := Ideal) m ρ c (Proc.devRef .tc main_v126) :=
    Cert.KernelIdeal.KCarry.reg8_in0 m ρ c
  have e3 : rd (S := S1x128) (V18 (F := Ideal) m ρ c main_v129) (ix2 (0 : Fin 1) j)
      = rd (S := S3x128) (W17 (F := Ideal) m ρ c (Proc.devRef .tc main_arg3)) (ix2 (1 : Fin 3) j) := kbias2 (W17 m ρ c) j
  have e4 : W17 (F := Ideal) m ρ c (Proc.devRef .tc main_arg3) = W58 (F := Ideal) m ρ c (Proc.devRef .tc main_arg3) :=
    (Cert.KernelIdeal.KCarry.carry17 m ρ c main_arg3 (by decide)).symm
  refine (congrFun e1 (ix2 r j)).trans ((Cert.KernelIdeal.RegBias8.out_apply (V18 m ρ) c r j).trans ?_)
  show reluE (rd (S := S50000x128) (V18 (F := Ideal) m ρ c main_v126) (ix2 r j)
      + rd (S := S1x128) (V18 (F := Ideal) m ρ c main_v129) (ix2 (0 : Fin 1) j)) = _
  rw [e2, e3, e4]

end Kernel

/-! ## The two programs' stages agree -/

open Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- If the layer's aggregate is the same real-valued array in the two programs and the bias argument is the same
    real-valued array, the layer's hidden state is the same real-valued array: each program adds bias entry
    `(1, j)` to the aggregate's entry `(r, j)` and takes the rectifier; sums and maxima of reals are real. -/
theorem h2 (h : Cert.Iface.Agg2 m ρ m' c)
    (hb : (Kf m ρ c Cert.KernelIdeal.main_arg3 : Cert.KernelIdeal.S3x128.Idx → EReal) = Rf m' c Cert.ReferenceIdeal.main_arg3)
    (hbf : AllFin (Kf m ρ c Cert.KernelIdeal.main_arg3 : Cert.KernelIdeal.S3x128.Idx → EReal)) :
    Cert.Iface.H2 m ρ m' c := by
  unfold Cert.Iface.Agg2 at h
  obtain ⟨hx, hxf⟩ := h
  have hx' : (Cert.KernelIdeal.GenP.W58 (F := Ideal) m ρ c (Proc.devRef .tc Cert.KernelIdeal.main_v126) : Cert.KernelIdeal.S50000x128.Idx → EReal)
      = Cert.ReferenceIdeal.RefRun.R14 (F := Ideal) m' c (Proc.devRef .tc Cert.ReferenceIdeal.main_v170) := hx
  have hb' : (Cert.KernelIdeal.GenP.W58 (F := Ideal) m ρ c (Proc.devRef .tc Cert.KernelIdeal.main_arg3) : Cert.KernelIdeal.S3x128.Idx → EReal)
      = Cert.ReferenceIdeal.RefRun.R14 (F := Ideal) m' c (Proc.devRef .tc Cert.ReferenceIdeal.main_arg3) := hb
  unfold Cert.Iface.H2
  refine ⟨funext fun i => ?_, ?_⟩
  · obtain ⟨r, j, rfl⟩ : ∃ (r : Fin 50000) (j : Fin 128), i = ix2 r j := ⟨i 0, i 1, eq_ix2 i⟩
    refine (kernel_h2 m ρ c r j).trans ?_
    rw [hx', hb']
    exact (ref_h2 m' c r j).symm
  · intro i
    obtain ⟨r, j, rfl⟩ : ∃ (r : Fin 50000) (j : Fin 128), i = ix2 r j := ⟨i 0, i 1, eq_ix2 i⟩
    exact Eq.mpr (congrArg IsFin (kernel_h2 m ρ c r j))
      (isFin_reluE ((hxf (ix2 r j)).add (hbf (ix2 (1 : Fin 3) j))))

end Cert.StageAct

end
-- ==== Proof.RegBias11.lean ====
/- Region 11 of the kernel program (the bias-add followed by the rectifier), read as a whole-array value: after the
   region its output array holds, at row `r` and lane `j`, the rectifier of `x r j + b 0 j`, where `x` (50000 by 128)
   and `b` (1 by 128) are the region's two input arrays as it finds them; the two input arrays are left as found.
   The region walks the rows in ten blocks of 5000; each point adds the one bias row to its block of `x`, applies the
   rectifier and writes the block back, and the ten blocks tile the array. -/
import proofs.«407945_j8993661518245_1_alg».proof.Proof.FrameKI
import proofs.«407945_j8993661518245_1_alg».proof.Proof.LibAct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegBias11

open Idealize.ShloMosaic Idealize.ShloMosaic.TcCoe Idealize.ShloMosaic.ValueIdx
open Idealize.ShloMosaic.Pipeline (Dat Cfg Window)
open Cert.KernelIdeal.Gen Cert.KernelIdeal.GenP Cert.LibAct

/-! ## The body's payload at one element -/

/-- The bias row, broadcast over the rows and added to the block, at row `p` and lane `q`: the block's element plus
    the bias row's element of the same lane (the two shape casts are to the same shape, and the broadcast of a
    one-row array reads its one row). -/
theorem biased_apply (x0 : Vec Ideal S5000x128 .f32) (x1 : Vec Ideal S1x128 .f32) (p : Fin 5000) (q : Fin 128) :
    addf (F := Ideal) (φ := .f32) (shapeCast S5000x128 x0 shapeCasts_S5000x128_S5000x128)
      (broadcastTo S5000x128 (shapeCast S1x128 x1 shapeCasts_S1x128_S1x128) broadcasts_S1x128_S5000x128) (ix2 p q)
      = x0 (ix2 p q) + x1 (ix2 (0 : Fin 1) q) := by
  rw [shapeCast_self, shapeCast_self, addf_apply]
  exact congrArg (x0 (ix2 p q) + ·) (broadcastTo_1b_ab_apply x1 broadcasts_S1x128_S5000x128 p q)

/-- What the body stores, at row `p` and lane `q` of the block: the rectifier of that sum (the maximum with the zero
    word, which denotes `0`). -/
theorem stored_apply (x0 : Vec Ideal S5000x128 .f32) (x1 : Vec Ideal S1x128 .f32) (p : Fin 5000) (q : Fin 128) :
    k11_pay1 x0 x1 (ix2 p q) = reluE (x0 (ix2 p q) + x1 (ix2 (0 : Fin 1) q)) := by
  unfold k11_pay1
  show max (addf (F := Ideal) (φ := .f32) (shapeCast S5000x128 x0 shapeCasts_S5000x128_S5000x128)
      (broadcastTo S5000x128 (shapeCast S1x128 x1 shapeCasts_S1x128_S1x128) broadcasts_S1x128_S5000x128) (ix2 p q))
      (Ideal.ofBits .f32 0x00000000#32) = _
  rw [biased_apply, Ideal.ofBits_zero_f32, reluE_def]

/-! ## The whole-array value -/

/-- The output array as one function of the two input arrays: at each index the rectifier of the `x` entry plus the
    bias entry of the same lane. -/
def G (x : Vec Ideal S50000x128 .f32) (b : Vec Ideal S1x128 .f32) : Vec Ideal S50000x128 .f32 :=
  fun i => reluE (x i + b (ix2 (0 : Fin 1) (i 1 : Fin 128)))

theorem G_apply (x : Vec Ideal S50000x128 .f32) (b : Vec Ideal S1x128 .f32) (r : Fin 50000) (j : Fin 128) :
    G x b (ix2 r j) = reluE (x (ix2 r j) + b (ix2 (0 : Fin 1) j)) := rfl

/-! ## From the blocks to the array -/

theorem offsets_zero : (![0, 0] : Fin 2 → Nat) = fun _ => 0 := funext fun a => by fin_cases a <;> rfl

/-- The block index maps over the ten points: the two 50000-row windows are at block `(t, 0)`, the bias row's at
    `(0, 0)`. -/
theorem block_indices : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- Row `p`, lane `q` of the input block at point `t` is the array element that row `p`, lane `q` of the output block
    at `t` is: both blocks sit at rows `5000 t` onward. -/
theorem x_block_at (t : Fin cfg11.N) (p : Fin 5000) (q : Fin 128) :
    ((cfg11.win 0).blk t).view.emb (ix2 p q) = ((cfg11.win 2).blk t).view.emb (ix2 p q) := by
  obtain ⟨e0, e1, e2, e3, e4, e5⟩ := block_indices t
  funext a; apply Fin.ext
  match a with
  | ⟨0, _⟩ => show win11_0.index t (0 : Fin 2) * 5000 + 1 * p.val = win11_2.index t (0 : Fin 2) * 5000 + 1 * p.val; omega
  | ⟨1, _⟩ => show win11_0.index t (1 : Fin 2) * 128 + 1 * q.val = win11_2.index t (1 : Fin 2) * 128 + 1 * q.val; omega

/-- Lane `q` of the bias block (always the whole one-row array) is row 0 and the lane of the output block's element. -/
theorem bias_block_at (t : Fin cfg11.N) (p : Fin 5000) (q : Fin 128) :
    ((cfg11.win 1).blk t).view.emb (ix2 (0 : Fin 1) q) = ix2 (0 : Fin 1) ((((cfg11.win 2).blk t).view.emb (ix2 p q)) 1 : Fin 128) := by
  obtain ⟨e0, e1, e2, e3, e4, e5⟩ := block_indices t
  funext a; apply Fin.ext
  match a with
  | ⟨0, _⟩ => show win11_1.index t (0 : Fin 2) * 1 + 1 * 0 = 0; omega
  | ⟨1, _⟩ => show win11_1.index t (1 : Fin 2) * 128 + 1 * q.val = win11_2.index t (1 : Fin 2) * 128 + 1 * q.val; omega

/-- An index of the output array is in point `t`'s block iff each coordinate is in the block's range on its axis. -/
theorem mem_out_block (t : Fin cfg11.N) (i : S50000x128.Idx) :
    i ∈ ((cfg11.win 2).blk t).view.set ↔ ∀ a : Fin 2, win11_2.index t a * S5000x128.size a ≤ (i a).val ∧ (i a).val < win11_2.index t a * S5000x128.size a + S5000x128.size a := by
  show i ∈ ((View.whole main_v190).slice (win11_2.rect t)).set ↔ _
  rw [View.set_slice_whole, Rect.mem_set_unit]
  exact Iff.rfl

/-- Every index of the output array is in the block of the point its row divided by 5000 names, and every point
    writes its block back. -/
theorem out_blocks_cover (i : S50000x128.Idx) : ∃ t : Fin cfg11.N, (cfg11.win 2).flush t = true ∧ i ∈ ((cfg11.win 2).blk t).view.set := by
  have hi0 : (i 0).val < 50000 := (i 0).isLt
  have hi1 : (i 1).val < 128 := (i 1).isLt
  have hN : cfg11.N = 10 := N_11
  let t : Fin cfg11.N := ⟨(i 0).val / 5000, by rw [hN]; omega⟩
  obtain ⟨e0, e1, e2, e3, e4, e5⟩ := block_indices t
  have ht : t.val = (i 0).val / 5000 := rfl
  refine ⟨t, flush11_2 t, ?_⟩
  rw [mem_out_block]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 128 ≤ (i 1).val ∧ (i 1).val < win11_2.index t (1 : Fin 2) * 128 + 128; omega

section Value

variable (V : (c : Dev nD) → (b : Ref sig .tc) → Buf (Elt Ideal) ((c : Thread nD τ).loc b))

/-- The two input arrays as the region finds them, at their literal types: `x`, 50000 by 128, and the bias row `b`,
    1 by 128. -/
abbrev xarr (c : Dev nD) : Vec Ideal S50000x128 .f32 := V c (Pipeline.arrRef spec11 0)
abbrev barr (c : Dev nD) : Vec Ideal S1x128 .f32 := V c (Pipeline.arrRef spec11 1)

/-- What point `t` writes back is block `t` of `G` of the two input arrays as the region finds them. -/
theorem written_back_eq (c : Dev nD) (t : Fin cfg11.N) :
    (dat11 V c).flushed 2 t
      = ((cfg11.win 2).blk t).view.read (Elt Ideal) (G (xarr V c) (barr V c)) := by
  show (cfg11.win 2).cut (grid11.coords t) ((dat11 V c).after 2 t) = _
  rw [after11_2]
  unfold out11_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (stored_apply (iblk11 V c 0 t) (iblk11 V c 1 t) p q).trans ?_
  show reluE (xarr V c (((cfg11.win 0).blk t).view.emb (ix2 p q))
        + barr V c (((cfg11.win 1).blk t).view.emb (ix2 (0 : Fin 1) q)))
      = reluE (xarr V c (((cfg11.win 2).blk t).view.emb (ix2 p q))
        + barr V c (ix2 (0 : Fin 1) ((((cfg11.win 2).blk t).view.emb (ix2 p q)) 1 : Fin 128)))
  exact congrArg reluE (congrArg₂ (fun a b : EReal => a + b) (congrArg (xarr V c) (x_block_at t p q)) (congrArg (barr V c) (bias_block_at t p q)))

/-- THE OUTPUT ARRAY after the region: `G` of the two input arrays. -/
theorem out_eq (c : Dev nD) :
    (dat11 V c).arrAt 2 cfg11.N = G (xarr V c) (barr V c) :=
  (dat11 V c).arrAt_eq_of_cover 2 _ (fun t _ => written_back_eq V c t) out_blocks_cover

/-- The output array at row `r`, lane `j`. -/
theorem out_apply (c : Dev nD) (r : Fin 50000) (j : Fin 128) :
    ((dat11 V c).arrAt 2 cfg11.N) (ix2 r j)
      = reluE (xarr V c (ix2 r j) + barr V c (ix2 (0 : Fin 1) j)) :=
  congrFun (out_eq V c) (ix2 r j)

/-- The two input arrays are never written: after the region they are as it found them. -/
theorem kept0 (c : Dev nD) : (dat11 V c).arrAt 0 cfg11.N = V c (Pipeline.arrRef spec11 0) :=
  ((dat11 V c).arrAt_in 0 rfl cfg11.N).trans (A_eq11 V c 0)
theorem kept1 (c : Dev nD) : (dat11 V c).arrAt 1 cfg11.N = V c (Pipeline.arrRef spec11 1) :=
  ((dat11 V c).arrAt_in 1 rfl cfg11.N).trans (A_eq11 V c 1)

end Value

end Cert.KernelIdeal.RegBias11

end
-- ==== Proof.StageActRd3.lean ====
/- The program texts behind graph layer 3's bias and rectifier, read at one entry. In the kernel program the bias row that the
   region finds is made by the host operations just before it; in the reference the bias is broadcast down the rows,
   added, and the activation applied by a short run of host operations. Each is read off the fold of its operation
   list: the list is cut where the run starts, everything before the cut stays one unnamed state, and the run's few
   operations are composed over it. -/
import proofs.«407945_j8993661518245_1_alg».proof.Proof.Gen.KernelIdeal.Launch
import proofs.«407945_j8993661518245_1_alg».proof.Proof.RefOps
import proofs.«407945_j8993661518245_1_alg».proof.Proof.StageActLib

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.StageActLib

/-! ## The kernel program: the bias row the region finds -/

section Kernel

open Cert.KernelIdeal Cert.KernelIdeal.Gen

set_option maxHeartbeats 1000000 in
/-- The bias row of region 11 is row 2 of the 3 by 128 bias argument, cut out, flattened and reshaped to one row:
    lane `j` holds the argument's entry `(2, j)`. The argument is not written by these operations. -/
theorem kbias3 (V : Valuation τ sig (Elt Ideal)) (j : Fin 128) :
    rd (S := S1x128) (after hostOps11_2 V (Proc.devRef .tc main_v189)) (ix2 (0 : Fin 1) j)
      = rd (S := S3x128) (V (Proc.devRef .tc main_arg3)) (ix2 (2 : Fin 3) j) := by
  after_results
  exact row_row_apply _ 2 _ _ _ (2 : Fin 3) rfl 0 j

end Kernel

/-! ## The reference: the activation's run of operations -/

section Reference

open Cert.ReferenceIdeal Cert.ReferenceIdeal.RefRun

set_option maxHeartbeats 1000000 in
/-- From operation 10 of window 5 on: the bias vector broadcast down the rows and added to the aggregate, then the
    maximum with a zero array, at any state `W` before. -/
theorem rout3_key (W : Valuation τ sig (Elt Ideal)) (r : Fin 50000) (j : Fin 128) :
    rd (S := S50000x128) (after (List.drop 10 ops5) W (Proc.devRef .tc main_v250)) (ix2 r j)
      = reluE (rd (S := S50000x128) (after (List.drop 10 ops5) W (Proc.devRef .tc main_v246)) (ix2 r j)
          + rd (S := S128) (after (List.drop 10 ops5) W (Proc.devRef .tc main_v199)) (ix1 j)) := by
  simp only [List.drop_succ_cons, List.drop_zero]
  after_results_simp
  exact relu_bias_apply (W (Proc.devRef .tc main_v246)) (W (Proc.devRef .tc main_v199)) (by decide) (by decide) (by decide) r j

/-- The same over the whole window. -/
theorem rout3 (V : Valuation τ sig (Elt Ideal)) (r : Fin 50000) (j : Fin 128) :
    rd (S := S50000x128) (after ops5 V (Proc.devRef .tc main_v250)) (ix2 r j)
      = reluE (rd (S := S50000x128) (after ops5 V (Proc.devRef .tc main_v246)) (ix2 r j) + rd (S := S128) (after ops5 V (Proc.devRef .tc main_v199)) (ix1 j)) := by
  rw [after_split 10 ops5 V]
  exact rout3_key _ r j

set_option maxHeartbeats 1000000 in
/-- From operation 8 of window 4 on: row 2 of the bias argument cut out and flattened. -/
theorem rvec3_key (W : Valuation τ sig (Elt Ideal)) (j : Fin 128) :
    rd (S := S128) (after (List.drop 8 ops4) W (Proc.devRef .tc main_v199)) (ix1 j)
      = rd (S := S3x128) (after (List.drop 8 ops4) W (Proc.devRef .tc main_arg3)) (ix2 (2 : Fin 3) j) := by
  simp only [List.drop_succ_cons, List.drop_zero]
  after_results_simp
  exact row_vec_apply _ 2 _ _ (2 : Fin 3) rfl j

/-- The same over the whole window. -/
theorem rvec3 (V : Valuation τ sig (Elt Ideal)) (j : Fin 128) :
    rd (S := S128) (after ops4 V (Proc.devRef .tc main_v199)) (ix1 j) = rd (S := S3x128) (after ops4 V (Proc.devRef .tc main_arg3)) (ix2 (2 : Fin 3) j) := by
  rw [after_split 8 ops4 V]
  exact rvec3_key _ j

variable (m' : (ℓ : Loc nD τ sig) → Buf (Elt Ideal) ℓ) (c : Dev nD)

/-- THE REFERENCE'S STAGE: the hidden state at `(r, j)` is the rectifier of the aggregate there plus entry `(2, j)`
    of the bias argument (the aggregate is written in an earlier or the same window, the bias vector in window 4, the
    argument never; none is written after the window that reads it). -/
theorem ref_h3 (r : Fin 50000) (j : Fin 128) :
    rd (S := S50000x128) (R14 (F := Ideal) m' c (Proc.devRef .tc main_v250)) (ix2 r j)
      = reluE (rd (S := S50000x128) (R14 (F := Ideal) m' c (Proc.devRef .tc main_v246)) (ix2 r j) + rd (S := S3x128) (R14 (F := Ideal) m' c (Proc.devRef .tc main_arg3)) (ix2 (2 : Fin 3) j)) := by
  have e1 : R14 (F := Ideal) m' c (Proc.devRef .tc main_v250) = after ops5 (R5 m' c) (Proc.devRef .tc main_v250) :=
    carry6 m' c main_v250 (by decide)
  have e2 : after ops5 (R5 m' c) (Proc.devRef .tc main_v246) = R14 (F := Ideal) m' c (Proc.devRef .tc main_v246) :=
    (carry6 m' c main_v246 (by decide)).symm
  have e3 : after ops5 (R5 m' c) (Proc.devRef .tc main_v199) = after ops4 (R4 m' c) (Proc.devRef .tc main_v199) :=
    (carry6 m' c main_v199 (by decide)).symm.trans (carry5 m' c main_v199 (by decide))
  have e4 : after ops4 (R4 m' c) (Proc.devRef .tc main_arg3) = R14 (F := Ideal) m' c (Proc.devRef .tc main_arg3) :=
    (carry5 m' c main_arg3 (by decide)).symm
  rw [e1, rout3, e2, e3, rvec3, e4]

end Reference

end Cert.StageAct

end
-- ==== Proof.StageAct3.lean ====
/- Graph layer 3's bias and rectifier. The kernel program's array after region 11 and the reference's array
   after its rectifier are the same function, all of whose entries are real numbers, whenever the arrays they
   are computed from are. The region's output at `(r, j)` is the rectifier of its first input at `(r, j)` plus its bias
   row at lane `j`; the first input and the bias row are buffers of the final state, and the bias row reads back to
   the bias argument; the reference's run of operations computes the same expression. -/
import proofs.«407945_j8993661518245_1_alg».proof.Proof.Iface
import proofs.«407945_j8993661518245_1_alg».proof.Proof.KCarry
import proofs.«407945_j8993661518245_1_alg».proof.Proof.RegBias11
import proofs.«407945_j8993661518245_1_alg».proof.Proof.StageActRd3

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.LibFinite Cert.StageActLib

/-! ## The kernel program's stage -/

section Kernel

open Cert.KernelIdeal Cert.KernelIdeal.Gen Cert.KernelIdeal.GenP

variable (m : (ℓ : Loc nD τ sig) → Buf (Elt Ideal) ℓ) (ρ : Dev nD → PrngReg) (c : Dev nD)

/-- THE KERNEL PROGRAM'S STAGE: region 11's output at `(r, j)` is the rectifier of its input there plus
    entry `(2, j)` of the bias argument (the bias row is made from the argument just before the region, and the
    argument is never written). -/
theorem kernel_h3 (r : Fin 50000) (j : Fin 128) :
    rd (S := S50000x128) (W58 (F := Ideal) m ρ c (Proc.devRef .tc main_v190)) (ix2 r j)
      = reluE (rd (S := S50000x128) (W58 (F := Ideal) m ρ c (Proc.devRef .tc main_v186)) (ix2 r j) + rd (S := S3x128) (W58 (F := Ideal) m ρ c (Proc.devRef .tc main_arg3)) (ix2 (2 : Fin 3) j)) := by
  have e1 : (W58 (F := Ideal) m ρ c (Proc.devRef .tc main_v190) : S50000x128.Idx → EReal) = (dat11 (V25 m ρ) c).arrAt 2 cfg11.N :=
    Cert.KernelIdeal.KCarry.reg11_arr2 m ρ c
  have e2 : (V25 (F := Ideal) m ρ c main_v186 : S50000x128.Idx → EReal) = W58 (F := Ideal) m ρ c (Proc.devRef .tc main_v186) :=
    Cert.KernelIdeal.KCarry.reg11_in0 m ρ c
  have e3 : rd (S := S1x128) (V25 (F := Ideal) m ρ c main_v189) (ix2 (0 : Fin 1) j)
      = rd (S := S3x128) (W24 (F := Ideal) m ρ c (Proc.devRef .tc main_arg3)) (ix2 (2 : Fin 3) j) := kbias3 (W24 m ρ c) j
  have e4 : W24 (F := Ideal) m ρ c (Proc.devRef .tc main_arg3) = W58 (F := Ideal) m ρ c (Proc.devRef .tc main_arg3) :=
    (Cert.KernelIdeal.KCarry.carry24 m ρ c main_arg3 (by decide)).symm
  refine (congrFun e1 (ix2 r j)).trans ((Cert.KernelIdeal.RegBias11.out_apply (V25 m ρ) c r j).trans ?_)
  show reluE (rd (S := S50000x128) (V25 (F := Ideal) m ρ c main_v186) (ix2 r j)
      + rd (S := S1x128) (V25 (F := Ideal) m ρ c main_v189) (ix2 (0 : Fin 1) j)) = _
  rw [e2, e3, e4]

end Kernel

/-! ## The two programs' stages agree -/

open Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- If the layer's aggregate is the same real-valued array in the two programs and the bias argument is the same
    real-valued array, the layer's hidden state is the same real-valued array: each program adds bias entry
    `(2, j)` to the aggregate's entry `(r, j)` and takes the rectifier; sums and maxima of reals are real. -/
theorem h3 (h : Cert.Iface.Agg3 m ρ m' c)
    (hb : (Kf m ρ c Cert.KernelIdeal.main_arg3 : Cert.KernelIdeal.S3x128.Idx → EReal) = Rf m' c Cert.ReferenceIdeal.main_arg3)
    (hbf : AllFin (Kf m ρ c Cert.KernelIdeal.main_arg3 : Cert.KernelIdeal.S3x128.Idx → EReal)) :
    Cert.Iface.H3 m ρ m' c := by
  unfold Cert.Iface.Agg3 at h
  obtain ⟨hx, hxf⟩ := h
  have hx' : (Cert.KernelIdeal.GenP.W58 (F := Ideal) m ρ c (Proc.devRef .tc Cert.KernelIdeal.main_v186) : Cert.KernelIdeal.S50000x128.Idx → EReal)
      = Cert.ReferenceIdeal.RefRun.R14 (F := Ideal) m' c (Proc.devRef .tc Cert.ReferenceIdeal.main_v246) := hx
  have hb' : (Cert.KernelIdeal.GenP.W58 (F := Ideal) m ρ c (Proc.devRef .tc Cert.KernelIdeal.main_arg3) : Cert.KernelIdeal.S3x128.Idx → EReal)
      = Cert.ReferenceIdeal.RefRun.R14 (F := Ideal) m' c (Proc.devRef .tc Cert.ReferenceIdeal.main_arg3) := hb
  unfold Cert.Iface.H3
  refine ⟨funext fun i => ?_, ?_⟩
  · obtain ⟨r, j, rfl⟩ : ∃ (r : Fin 50000) (j : Fin 128), i = ix2 r j := ⟨i 0, i 1, eq_ix2 i⟩
    refine (kernel_h3 m ρ c r j).trans ?_
    rw [hx', hb']
    exact (ref_h3 m' c r j).symm
  · intro i
    obtain ⟨r, j, rfl⟩ : ∃ (r : Fin 50000) (j : Fin 128), i = ix2 r j := ⟨i 0, i 1, eq_ix2 i⟩
    exact Eq.mpr (congrArg IsFin (kernel_h3 m ρ c r j))
      (isFin_reluE ((hxf (ix2 r j)).add (hbf (ix2 (2 : Fin 3) j))))

end Cert.StageAct

end
-- ==== Proof.RegBias14.lean ====
/- Region 14 of the kernel program (the bias-add followed by the exponential linear unit), read as a whole-array value:
   after the region its output array holds, at row `r` and lane `j`, the unit of `x r j + b 0 j` — the sum itself where
   it is above zero, `e ^ sum - 1` elsewhere —, where `x` (50000 by 128) and `b` (1 by 128) are the region's two input
   arrays as it finds them; the two input arrays are left as found. The region walks the rows in ten blocks of 5000;
   each point adds the one bias row to its block of `x`, applies the unit and writes the block back, and the ten
   blocks tile the array. -/
import proofs.«407945_j8993661518245_1_alg».proof.Proof.FrameKI
import proofs.«407945_j8993661518245_1_alg».proof.Proof.LibAct
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.RegBias14

open Idealize.ShloMosaic Idealize.ShloMosaic.TcCoe Idealize.ShloMosaic.ValueIdx
open Idealize.ShloMosaic.Pipeline (Dat Cfg Window)
open Cert.KernelIdeal.Gen Cert.KernelIdeal.GenP Cert.LibAct

/-! ## The body's payload at one element -/

/-- The bias row, broadcast over the rows and added to the block, at row `p` and lane `q`: the block's element plus
    the bias row's element of the same lane (the two shape casts are to the same shape, and the broadcast of a
    one-row array reads its one row). -/
theorem biased_apply (x0 : Vec Ideal S5000x128 .f32) (x1 : Vec Ideal S1x128 .f32) (p : Fin 5000) (q : Fin 128) :
    addf (F := Ideal) (φ := .f32) (shapeCast S5000x128 x0 shapeCasts_S5000x128_S5000x128)
      (broadcastTo S5000x128 (shapeCast S1x128 x1 shapeCasts_S1x128_S1x128) broadcasts_S1x128_S5000x128) (ix2 p q)
      = x0 (ix2 p q) + x1 (ix2 (0 : Fin 1) q) := by
  rw [shapeCast_self, shapeCast_self, addf_apply]
  exact congrArg (x0 (ix2 p q) + ·) (broadcastTo_1b_ab_apply x1 broadcasts_S1x128_S5000x128 p q)

/-- What the body stores, at row `p` and lane `q` of the block: the exponential linear unit of that sum. The body selects,
    on the comparison of the sum with the zero word (which denotes `0`), between the sum and its exponential less the
    word of one (which denotes `1`); the comparison's bit is set exactly when the sum is above zero. -/
theorem stored_apply (x0 : Vec Ideal S5000x128 .f32) (x1 : Vec Ideal S1x128 .f32) (p : Fin 5000) (q : Fin 128) :
    k14_pay1 x0 x1 (ix2 p q) = eluK (x0 (ix2 p q) + x1 (ix2 (0 : Fin 1) q)) := by
  unfold k14_pay1
  show Scalar.select (Ideal.cmp .ogt (addf (F := Ideal) (φ := .f32) (shapeCast S5000x128 x0 shapeCasts_S5000x128_S5000x128)
        (broadcastTo S5000x128 (shapeCast S1x128 x1 shapeCasts_S1x128_S1x128) broadcasts_S1x128_S5000x128) (ix2 p q))
        (Ideal.ofBits .f32 0x00000000#32))
      (addf (F := Ideal) (φ := .f32) (shapeCast S5000x128 x0 shapeCasts_S5000x128_S5000x128)
        (broadcastTo S5000x128 (shapeCast S1x128 x1 shapeCasts_S1x128_S1x128) broadcasts_S1x128_S5000x128) (ix2 p q))
      (Ideal.exp (addf (F := Ideal) (φ := .f32) (shapeCast S5000x128 x0 shapeCasts_S5000x128_S5000x128)
        (broadcastTo S5000x128 (shapeCast S1x128 x1 shapeCasts_S1x128_S1x128) broadcasts_S1x128_S5000x128) (ix2 p q))
        - Ideal.ofBits .f32 0x3F800000#32) = _
  rw [biased_apply, Ideal.ofBits_zero_f32, Ideal.ofBits_one_f32, eluK_def]
  unfold Ideal.cmp Scalar.select
  by_cases h : 0 < x0 (ix2 p q) + x1 (ix2 (0 : Fin 1) q)
  · rw [if_pos h]; simp [h]
  · rw [if_neg h]; simp [h]

/-! ## The whole-array value -/

/-- The output array as one function of the two input arrays: at each index the exponential linear unit of the `x` entry
    plus the bias entry of the same lane. -/
def G (x : Vec Ideal S50000x128 .f32) (b : Vec Ideal S1x128 .f32) : Vec Ideal S50000x128 .f32 :=
  fun i => eluK (x i + b (ix2 (0 : Fin 1) (i 1 : Fin 128)))

theorem G_apply (x : Vec Ideal S50000x128 .f32) (b : Vec Ideal S1x128 .f32) (r : Fin 50000) (j : Fin 128) :
    G x b (ix2 r j) = eluK (x (ix2 r j) + b (ix2 (0 : Fin 1) j)) := rfl

/-! ## From the blocks to the array -/

theorem offsets_zero : (![0, 0] : Fin 2 → Nat) = fun _ => 0 := funext fun a => by fin_cases a <;> rfl

/-- The block index maps over the ten points: the two 50000-row windows are at block `(t, 0)`, the bias row's at
    `(0, 0)`. -/
theorem block_indices : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- Row `p`, lane `q` of the input block at point `t` is the array element that row `p`, lane `q` of the output block
    at `t` is: both blocks sit at rows `5000 t` onward. -/
theorem x_block_at (t : Fin cfg14.N) (p : Fin 5000) (q : Fin 128) :
    ((cfg14.win 0).blk t).view.emb (ix2 p q) = ((cfg14.win 2).blk t).view.emb (ix2 p q) := by
  obtain ⟨e0, e1, e2, e3, e4, e5⟩ := block_indices t
  funext a; apply Fin.ext
  match a with
  | ⟨0, _⟩ => show win14_0.index t (0 : Fin 2) * 5000 + 1 * p.val = win14_2.index t (0 : Fin 2) * 5000 + 1 * p.val; omega
  | ⟨1, _⟩ => show win14_0.index t (1 : Fin 2) * 128 + 1 * q.val = win14_2.index t (1 : Fin 2) * 128 + 1 * q.val; omega

/-- Lane `q` of the bias block (always the whole one-row array) is row 0 and the lane of the output block's element. -/
theorem bias_block_at (t : Fin cfg14.N) (p : Fin 5000) (q : Fin 128) :
    ((cfg14.win 1).blk t).view.emb (ix2 (0 : Fin 1) q) = ix2 (0 : Fin 1) ((((cfg14.win 2).blk t).view.emb (ix2 p q)) 1 : Fin 128) := by
  obtain ⟨e0, e1, e2, e3, e4, e5⟩ := block_indices t
  funext a; apply Fin.ext
  match a with
  | ⟨0, _⟩ => show win14_1.index t (0 : Fin 2) * 1 + 1 * 0 = 0; omega
  | ⟨1, _⟩ => show win14_1.index t (1 : Fin 2) * 128 + 1 * q.val = win14_2.index t (1 : Fin 2) * 128 + 1 * q.val; omega

/-- An index of the output array is in point `t`'s block iff each coordinate is in the block's range on its axis. -/
theorem mem_out_block (t : Fin cfg14.N) (i : S50000x128.Idx) :
    i ∈ ((cfg14.win 2).blk t).view.set ↔ ∀ a : Fin 2, win14_2.index t a * S5000x128.size a ≤ (i a).val ∧ (i a).val < win14_2.index t a * S5000x128.size a + S5000x128.size a := by
  show i ∈ ((View.whole main_v344).slice (win14_2.rect t)).set ↔ _
  rw [View.set_slice_whole, Rect.mem_set_unit]
  exact Iff.rfl

/-- Every index of the output array is in the block of the point its row divided by 5000 names, and every point
    writes its block back. -/
theorem out_blocks_cover (i : S50000x128.Idx) : ∃ t : Fin cfg14.N, (cfg14.win 2).flush t = true ∧ i ∈ ((cfg14.win 2).blk t).view.set := by
  have hi0 : (i 0).val < 50000 := (i 0).isLt
  have hi1 : (i 1).val < 128 := (i 1).isLt
  have hN : cfg14.N = 10 := N_14
  let t : Fin cfg14.N := ⟨(i 0).val / 5000, by rw [hN]; omega⟩
  obtain ⟨e0, e1, e2, e3, e4, e5⟩ := block_indices t
  have ht : t.val = (i 0).val / 5000 := rfl
  refine ⟨t, flush14_2 t, ?_⟩
  rw [mem_out_block]
  intro a
  match a with
  | ⟨0, _⟩ => show win14_2.index t (0 : Fin 2) * 5000 ≤ (i 0).val ∧ (i 0).val < win14_2.index t (0 : Fin 2) * 5000 + 5000; omega
  | ⟨1, _⟩ => show win14_2.index t (1 : Fin 2) * 128 ≤ (i 1).val ∧ (i 1).val < win14_2.index t (1 : Fin 2) * 128 + 128; omega

section Value

variable (V : (c : Dev nD) → (b : Ref sig .tc) → Buf (Elt Ideal) ((c : Thread nD τ).loc b))

/-- The two input arrays as the region finds them, at their literal types: `x`, 50000 by 128, and the bias row `b`,
    1 by 128. -/
abbrev xarr (c : Dev nD) : Vec Ideal S50000x128 .f32 := V c (Pipeline.arrRef spec14 0)
abbrev barr (c : Dev nD) : Vec Ideal S1x128 .f32 := V c (Pipeline.arrRef spec14 1)

/-- What point `t` writes back is block `t` of `G` of the two input arrays as the region finds them. -/
theorem written_back_eq (c : Dev nD) (t : Fin cfg14.N) :
    (dat14 V c).flushed 2 t
      = ((cfg14.win 2).blk t).view.read (Elt Ideal) (G (xarr V c) (barr V c)) := by
  show (cfg14.win 2).cut (grid14.coords t) ((dat14 V c).after 2 t) = _
  rw [after14_2]
  unfold out14_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (stored_apply (iblk14 V c 0 t) (iblk14 V c 1 t) p q).trans ?_
  show eluK (xarr V c (((cfg14.win 0).blk t).view.emb (ix2 p q))
        + barr V c (((cfg14.win 1).blk t).view.emb (ix2 (0 : Fin 1) q)))
      = eluK (xarr V c (((cfg14.win 2).blk t).view.emb (ix2 p q))
        + barr V c (ix2 (0 : Fin 1) ((((cfg14.win 2).blk t).view.emb (ix2 p q)) 1 : Fin 128)))
  exact congrArg eluK (congrArg₂ (fun a b : EReal => a + b) (congrArg (xarr V c) (x_block_at t p q)) (congrArg (barr V c) (bias_block_at t p q)))

/-- THE OUTPUT ARRAY after the region: `G` of the two input arrays. -/
theorem out_eq (c : Dev nD) :
    (dat14 V c).arrAt 2 cfg14.N = G (xarr V c) (barr V c) :=
  (dat14 V c).arrAt_eq_of_cover 2 _ (fun t _ => written_back_eq V c t) out_blocks_cover

/-- The output array at row `r`, lane `j`. -/
theorem out_apply (c : Dev nD) (r : Fin 50000) (j : Fin 128) :
    ((dat14 V c).arrAt 2 cfg14.N) (ix2 r j)
      = eluK (xarr V c (ix2 r j) + barr V c (ix2 (0 : Fin 1) j)) :=
  congrFun (out_eq V c) (ix2 r j)

/-- The two input arrays are never written: after the region they are as it found them. -/
theorem kept0 (c : Dev nD) : (dat14 V c).arrAt 0 cfg14.N = V c (Pipeline.arrRef spec14 0) :=
  ((dat14 V c).arrAt_in 0 rfl cfg14.N).trans (A_eq14 V c 0)
theorem kept1 (c : Dev nD) : (dat14 V c).arrAt 1 cfg14.N = V c (Pipeline.arrRef spec14 1) :=
  ((dat14 V c).arrAt_in 1 rfl cfg14.N).trans (A_eq14 V c 1)

end Value

end Cert.KernelIdeal.RegBias14

end
-- ==== Proof.StageActRdXc.lean ====
/- The program texts behind the first branch's bias and exponential linear unit, read at one entry. In the kernel program the bias row that the
   region finds is made by the host operations just before it; in the reference the bias is broadcast down the rows,
   added, and the activation applied by a short run of host operations. Each is read off the fold of its operation
   list: the list is cut where the run starts, everything before the cut stays one unnamed state, and the run's few
   operations are composed over it. -/
import proofs.«407945_j8993661518245_1_alg».proof.Proof.Gen.KernelIdeal.Launch
import proofs.«407945_j8993661518245_1_alg».proof.Proof.RefOps
import proofs.«407945_j8993661518245_1_alg».proof.Proof.StageActLib

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.StageActLib

/-! ## The kernel program: the bias row the region finds -/

section Kernel

open Cert.KernelIdeal Cert.KernelIdeal.Gen

set_option maxHeartbeats 1000000 in
/-- The bias row of region 14 is the 128-vector bias argument reshaped to one row: lane `j` holds its entry `j`. -/
theorem kbiasXc (V : Valuation τ sig (Elt Ideal)) (j : Fin 128) :
    rd (S := S1x128) (after hostOps14_2 V (Proc.devRef .tc main_v343)) (ix2 (0 : Fin 1) j)
      = rd (S := S128) (V (Proc.devRef .tc main_arg9)) (ix1 j) := by
  after_results
  exact vec_row_apply _ _ 0 j

end Kernel

/-! ## The reference: the activation's run of operations -/

section Reference

open Cert.ReferenceIdeal Cert.ReferenceIdeal.RefRun

set_option maxHeartbeats 1000000 in
/-- From operation 38 of window 8 on: the bias vector broadcast down the rows and added to the aggregate, then the
    unit spelled with its two comparisons, the inner choice, `e^· − 1`, the product with a ones array and the outer
    choice, at any state `W` before. -/
theorem routXc_key (W : Valuation τ sig (Elt Ideal)) (r : Fin 50000) (j : Fin 128) :
    rd (S := S50000x128) (after (List.drop 38 ops8) W (Proc.devRef .tc main_v417)) (ix2 r j)
      = eluK (rd (S := S50000x128) (after (List.drop 38 ops8) W (Proc.devRef .tc main_v413)) (ix2 r j)
          + rd (S := S128) (after (List.drop 38 ops8) W (Proc.devRef .tc main_arg9)) (ix1 j)) := by
  simp only [List.drop_succ_cons, List.drop_zero]
  after_results_simp
  refine (elu_ref_apply (T := S50000x128)
    (addf (W (Proc.devRef .tc main_v413)) (broadcastInDim S50000x128 ![0, 1] (by decide) (broadcastInDim S1x128 ![1] (by decide) (W (Proc.devRef .tc main_arg9)))))
    (by decide) (by decide) (by decide) (by decide) (ix2 r j)).trans ?_
  exact congrArg eluK (bias_add_apply (W (Proc.devRef .tc main_v413)) (W (Proc.devRef .tc main_arg9)) (by decide) (by decide) r j)

/-- The same over the whole window. -/
theorem routXc (V : Valuation τ sig (Elt Ideal)) (r : Fin 50000) (j : Fin 128) :
    rd (S := S50000x128) (after ops8 V (Proc.devRef .tc main_v417)) (ix2 r j)
      = eluK (rd (S := S50000x128) (after ops8 V (Proc.devRef .tc main_v413)) (ix2 r j) + rd (S := S128) (after ops8 V (Proc.devRef .tc main_arg9)) (ix1 j)) := by
  rw [after_split 38 ops8 V]
  exact routXc_key _ r j

variable (m' : (ℓ : Loc nD τ sig) → Buf (Elt Ideal) ℓ) (c : Dev nD)

/-- THE REFERENCE'S STAGE: the branch's node features at `(r, j)` are the unit of the aggregate there plus entry `j` of
    the bias argument (the aggregate is written earlier in window 8, the argument never; neither is written later). -/
theorem ref_xcnode (r : Fin 50000) (j : Fin 128) :
    rd (S := S50000x128) (R14 (F := Ideal) m' c (Proc.devRef .tc main_v417)) (ix2 r j)
      = eluK (rd (S := S50000x128) (R14 (F := Ideal) m' c (Proc.devRef .tc main_v413)) (ix2 r j) + rd (S := S128) (R14 (F := Ideal) m' c (Proc.devRef .tc main_arg9)) (ix1 j)) := by
  have e1 : R14 (F := Ideal) m' c (Proc.devRef .tc main_v417) = after ops8 (R8 m' c) (Proc.devRef .tc main_v417) :=
    carry9 m' c main_v417 (by decide)
  have e2 : after ops8 (R8 m' c) (Proc.devRef .tc main_v413) = R14 (F := Ideal) m' c (Proc.devRef .tc main_v413) :=
    (carry9 m' c main_v413 (by decide)).symm
  have e3 : after ops8 (R8 m' c) (Proc.devRef .tc main_arg9) = R14 (F := Ideal) m' c (Proc.devRef .tc main_arg9) :=
    (carry9 m' c main_arg9 (by decide)).symm
  rw [e1, routXc, e2, e3]

end Reference

end Cert.StageAct

end
-- ==== Proof.StageActXc.lean ====
/- The first branch's bias and exponential linear unit. The kernel program's array after region 14 and the reference's array
   after its exponential linear unit are the same function whenever the arrays they
   are computed from are. The region's output at `(r, j)` is the exponential linear unit of its first input at `(r, j)` plus its bias
   row at lane `j`; the first input and the bias row are buffers of the final state, and the bias row reads back to
   the bias argument; the reference's run of operations computes the same expression. -/
import proofs.«407945_j8993661518245_1_alg».proof.Proof.Iface
import proofs.«407945_j8993661518245_1_alg».proof.Proof.KCarry
import proofs.«407945_j8993661518245_1_alg».proof.Proof.RegBias14
import proofs.«407945_j8993661518245_1_alg».proof.Proof.StageActRdXc

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.LibFinite Cert.StageActLib

/-! ## The kernel program's stage -/

section Kernel

open Cert.KernelIdeal Cert.KernelIdeal.Gen Cert.KernelIdeal.GenP

variable (m : (ℓ : Loc nD τ sig) → Buf (Elt Ideal) ℓ) (ρ : Dev nD → PrngReg) (c : Dev nD)

/-- THE KERNEL PROGRAM'S STAGE: region 14's output at `(r, j)` is the exponential linear unit of its input there plus
    entry `j` of the bias argument (the bias row is made from the argument just before the region, and the
    argument is never written). -/
theorem kernel_xcnode (r : Fin 50000) (j : Fin 128) :
    rd (S := S50000x128) (W58 (F := Ideal) m ρ c (Proc.devRef .tc main_v344)) (ix2 r j)
      = eluK (rd (S := S50000x128) (W58 (F := Ideal) m ρ c (Proc.devRef .tc main_v342)) (ix2 r j) + rd (S := S128) (W58 (F := Ideal) m ρ c (Proc.devRef .tc main_arg9)) (ix1 j)) := by
  have e1 : (W58 (F := Ideal) m ρ c (Proc.devRef .tc main_v344) : S50000x128.Idx → EReal) = (dat14 (V35 m ρ) c).arrAt 2 cfg14.N :=
    Cert.KernelIdeal.KCarry.reg14_arr2 m ρ c
  have e2 : (V35 (F := Ideal) m ρ c main_v342 : S50000x128.Idx → EReal) = W58 (F := Ideal) m ρ c (Proc.devRef .tc main_v342) :=
    Cert.KernelIdeal.KCarry.reg14_in0 m ρ c
  have e3 : rd (S := S1x128) (V35 (F := Ideal) m ρ c main_v343) (ix2 (0 : Fin 1) j)
      = rd (S := S128) (W34 (F := Ideal) m ρ c (Proc.devRef .tc main_arg9)) (ix1 j) := kbiasXc (W34 m ρ c) j
  have e4 : W34 (F := Ideal) m ρ c (Proc.devRef .tc main_arg9) = W58 (F := Ideal) m ρ c (Proc.devRef .tc main_arg9) :=
    (Cert.KernelIdeal.KCarry.carry34 m ρ c main_arg9 (by decide)).symm
  refine (congrFun e1 (ix2 r j)).trans ((Cert.KernelIdeal.RegBias14.out_apply (V35 m ρ) c r j).trans ?_)
  show eluK (rd (S := S50000x128) (V35 (F := Ideal) m ρ c main_v342) (ix2 r j)
      + rd (S := S1x128) (V35 (F := Ideal) m ρ c main_v343) (ix2 (0 : Fin 1) j)) = _
  rw [e2, e3, e4]

end Kernel

/-! ## The two programs' stages agree -/

open Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- If the branch's aggregate is the same array in the two programs and the bias argument is the same vector, the
    branch's node features are the same array: each program adds bias entry `j` to the aggregate's entry `(r, j)` and
    applies the unit, which the two programs spell differently but which is one function on the extended reals. -/
theorem xcnode (h : Cert.Iface.AggXc m ρ m' c)
    (hb : (Kf m ρ c Cert.KernelIdeal.main_arg9 : Cert.KernelIdeal.S128.Idx → EReal) = Rf m' c Cert.ReferenceIdeal.main_arg9) :
    Cert.Iface.XcNode m ρ m' c := by
  unfold Cert.Iface.AggXc at h
  have hx' : (Cert.KernelIdeal.GenP.W58 (F := Ideal) m ρ c (Proc.devRef .tc Cert.KernelIdeal.main_v342) : Cert.KernelIdeal.S50000x128.Idx → EReal)
      = Cert.ReferenceIdeal.RefRun.R14 (F := Ideal) m' c (Proc.devRef .tc Cert.ReferenceIdeal.main_v413) := h
  have hb' : (Cert.KernelIdeal.GenP.W58 (F := Ideal) m ρ c (Proc.devRef .tc Cert.KernelIdeal.main_arg9) : Cert.KernelIdeal.S128.Idx → EReal)
      = Cert.ReferenceIdeal.RefRun.R14 (F := Ideal) m' c (Proc.devRef .tc Cert.ReferenceIdeal.main_arg9) := hb
  unfold Cert.Iface.XcNode
  refine funext fun i => ?_
  obtain ⟨r, j, rfl⟩ : ∃ (r : Fin 50000) (j : Fin 128), i = ix2 r j := ⟨i 0, i 1, eq_ix2 i⟩
  refine (kernel_xcnode m ρ c r j).trans ?_
  rw [hx', hb']
  exact (ref_xcnode m' c r j).symm

end Cert.StageAct

end
-- ==== Proof.RegBias17.lean ====
/- Region 17 of the kernel program (the bias-add followed by the exponential linear unit), read as a whole-array value:
   after the region its output array holds, at row `r` and lane `j`, the unit of `x r j + b 0 j` — the sum itself where
   it is above zero, `e ^ sum - 1` elsewhere —, where `x` (50000 by 128) and `b` (1 by 128) are the region's two input
   arrays as it finds them; the two input arrays are left as found. The region walks the rows in ten blocks of 5000;
   each point adds the one bias row to its block of `x`, applies the unit and writes the block back, and the ten
   blocks tile the array. -/
import proofs.«407945_j8993661518245_1_alg».proof.Proof.FrameKI
import proofs.«407945_j8993661518245_1_alg».proof.Proof.LibAct
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.RegBias17

open Idealize.ShloMosaic Idealize.ShloMosaic.TcCoe Idealize.ShloMosaic.ValueIdx
open Idealize.ShloMosaic.Pipeline (Dat Cfg Window)
open Cert.KernelIdeal.Gen Cert.KernelIdeal.GenP Cert.LibAct

/-! ## The body's payload at one element -/

/-- The bias row, broadcast over the rows and added to the block, at row `p` and lane `q`: the block's element plus
    the bias row's element of the same lane (the two shape casts are to the same shape, and the broadcast of a
    one-row array reads its one row). -/
theorem biased_apply (x0 : Vec Ideal S5000x128 .f32) (x1 : Vec Ideal S1x128 .f32) (p : Fin 5000) (q : Fin 128) :
    addf (F := Ideal) (φ := .f32) (shapeCast S5000x128 x0 shapeCasts_S5000x128_S5000x128)
      (broadcastTo S5000x128 (shapeCast S1x128 x1 shapeCasts_S1x128_S1x128) broadcasts_S1x128_S5000x128) (ix2 p q)
      = x0 (ix2 p q) + x1 (ix2 (0 : Fin 1) q) := by
  rw [shapeCast_self, shapeCast_self, addf_apply]
  exact congrArg (x0 (ix2 p q) + ·) (broadcastTo_1b_ab_apply x1 broadcasts_S1x128_S5000x128 p q)

/-- What the body stores, at row `p` and lane `q` of the block: the exponential linear unit of that sum. The body selects,
    on the comparison of the sum with the zero word (which denotes `0`), between the sum and its exponential less the
    word of one (which denotes `1`); the comparison's bit is set exactly when the sum is above zero. -/
theorem stored_apply (x0 : Vec Ideal S5000x128 .f32) (x1 : Vec Ideal S1x128 .f32) (p : Fin 5000) (q : Fin 128) :
    k17_pay1 x0 x1 (ix2 p q) = eluK (x0 (ix2 p q) + x1 (ix2 (0 : Fin 1) q)) := by
  unfold k17_pay1
  show Scalar.select (Ideal.cmp .ogt (addf (F := Ideal) (φ := .f32) (shapeCast S5000x128 x0 shapeCasts_S5000x128_S5000x128)
        (broadcastTo S5000x128 (shapeCast S1x128 x1 shapeCasts_S1x128_S1x128) broadcasts_S1x128_S5000x128) (ix2 p q))
        (Ideal.ofBits .f32 0x00000000#32))
      (addf (F := Ideal) (φ := .f32) (shapeCast S5000x128 x0 shapeCasts_S5000x128_S5000x128)
        (broadcastTo S5000x128 (shapeCast S1x128 x1 shapeCasts_S1x128_S1x128) broadcasts_S1x128_S5000x128) (ix2 p q))
      (Ideal.exp (addf (F := Ideal) (φ := .f32) (shapeCast S5000x128 x0 shapeCasts_S5000x128_S5000x128)
        (broadcastTo S5000x128 (shapeCast S1x128 x1 shapeCasts_S1x128_S1x128) broadcasts_S1x128_S5000x128) (ix2 p q))
        - Ideal.ofBits .f32 0x3F800000#32) = _
  rw [biased_apply, Ideal.ofBits_zero_f32, Ideal.ofBits_one_f32, eluK_def]
  unfold Ideal.cmp Scalar.select
  by_cases h : 0 < x0 (ix2 p q) + x1 (ix2 (0 : Fin 1) q)
  · rw [if_pos h]; simp [h]
  · rw [if_neg h]; simp [h]

/-! ## The whole-array value -/

/-- The output array as one function of the two input arrays: at each index the exponential linear unit of the `x` entry
    plus the bias entry of the same lane. -/
def G (x : Vec Ideal S50000x128 .f32) (b : Vec Ideal S1x128 .f32) : Vec Ideal S50000x128 .f32 :=
  fun i => eluK (x i + b (ix2 (0 : Fin 1) (i 1 : Fin 128)))

theorem G_apply (x : Vec Ideal S50000x128 .f32) (b : Vec Ideal S1x128 .f32) (r : Fin 50000) (j : Fin 128) :
    G x b (ix2 r j) = eluK (x (ix2 r j) + b (ix2 (0 : Fin 1) j)) := rfl

/-! ## From the blocks to the array -/

theorem offsets_zero : (![0, 0] : Fin 2 → Nat) = fun _ => 0 := funext fun a => by fin_cases a <;> rfl

/-- The block index maps over the ten points: the two 50000-row windows are at block `(t, 0)`, the bias row's at
    `(0, 0)`. -/
theorem block_indices : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

/-- Row `p`, lane `q` of the input block at point `t` is the array element that row `p`, lane `q` of the output block
    at `t` is: both blocks sit at rows `5000 t` onward. -/
theorem x_block_at (t : Fin cfg17.N) (p : Fin 5000) (q : Fin 128) :
    ((cfg17.win 0).blk t).view.emb (ix2 p q) = ((cfg17.win 2).blk t).view.emb (ix2 p q) := by
  obtain ⟨e0, e1, e2, e3, e4, e5⟩ := block_indices t
  funext a; apply Fin.ext
  match a with
  | ⟨0, _⟩ => show win17_0.index t (0 : Fin 2) * 5000 + 1 * p.val = win17_2.index t (0 : Fin 2) * 5000 + 1 * p.val; omega
  | ⟨1, _⟩ => show win17_0.index t (1 : Fin 2) * 128 + 1 * q.val = win17_2.index t (1 : Fin 2) * 128 + 1 * q.val; omega

/-- Lane `q` of the bias block (always the whole one-row array) is row 0 and the lane of the output block's element. -/
theorem bias_block_at (t : Fin cfg17.N) (p : Fin 5000) (q : Fin 128) :
    ((cfg17.win 1).blk t).view.emb (ix2 (0 : Fin 1) q) = ix2 (0 : Fin 1) ((((cfg17.win 2).blk t).view.emb (ix2 p q)) 1 : Fin 128) := by
  obtain ⟨e0, e1, e2, e3, e4, e5⟩ := block_indices t
  funext a; apply Fin.ext
  match a with
  | ⟨0, _⟩ => show win17_1.index t (0 : Fin 2) * 1 + 1 * 0 = 0; omega
  | ⟨1, _⟩ => show win17_1.index t (1 : Fin 2) * 128 + 1 * q.val = win17_2.index t (1 : Fin 2) * 128 + 1 * q.val; omega

/-- An index of the output array is in point `t`'s block iff each coordinate is in the block's range on its axis. -/
theorem mem_out_block (t : Fin cfg17.N) (i : S50000x128.Idx) :
    i ∈ ((cfg17.win 2).blk t).view.set ↔ ∀ a : Fin 2, win17_2.index t a * S5000x128.size a ≤ (i a).val ∧ (i a).val < win17_2.index t a * S5000x128.size a + S5000x128.size a := by
  show i ∈ ((View.whole main_v407).slice (win17_2.rect t)).set ↔ _
  rw [View.set_slice_whole, Rect.mem_set_unit]
  exact Iff.rfl

/-- Every index of the output array is in the block of the point its row divided by 5000 names, and every point
    writes its block back. -/
theorem out_blocks_cover (i : S50000x128.Idx) : ∃ t : Fin cfg17.N, (cfg17.win 2).flush t = true ∧ i ∈ ((cfg17.win 2).blk t).view.set := by
  have hi0 : (i 0).val < 50000 := (i 0).isLt
  have hi1 : (i 1).val < 128 := (i 1).isLt
  have hN : cfg17.N = 10 := N_17
  let t : Fin cfg17.N := ⟨(i 0).val / 5000, by rw [hN]; omega⟩
  obtain ⟨e0, e1, e2, e3, e4, e5⟩ := block_indices t
  have ht : t.val = (i 0).val / 5000 := rfl
  refine ⟨t, flush17_2 t, ?_⟩
  rw [mem_out_block]
  intro a
  match a with
  | ⟨0, _⟩ => show win17_2.index t (0 : Fin 2) * 5000 ≤ (i 0).val ∧ (i 0).val < win17_2.index t (0 : Fin 2) * 5000 + 5000; omega
  | ⟨1, _⟩ => show win17_2.index t (1 : Fin 2) * 128 ≤ (i 1).val ∧ (i 1).val < win17_2.index t (1 : Fin 2) * 128 + 128; omega

section Value

variable (V : (c : Dev nD) → (b : Ref sig .tc) → Buf (Elt Ideal) ((c : Thread nD τ).loc b))

/-- The two input arrays as the region finds them, at their literal types: `x`, 50000 by 128, and the bias row `b`,
    1 by 128. -/
abbrev xarr (c : Dev nD) : Vec Ideal S50000x128 .f32 := V c (Pipeline.arrRef spec17 0)
abbrev barr (c : Dev nD) : Vec Ideal S1x128 .f32 := V c (Pipeline.arrRef spec17 1)

/-- What point `t` writes back is block `t` of `G` of the two input arrays as the region finds them. -/
theorem written_back_eq (c : Dev nD) (t : Fin cfg17.N) :
    (dat17 V c).flushed 2 t
      = ((cfg17.win 2).blk t).view.read (Elt Ideal) (G (xarr V c) (barr V c)) := by
  show (cfg17.win 2).cut (grid17.coords t) ((dat17 V c).after 2 t) = _
  rw [after17_2]
  unfold out17_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (stored_apply (iblk17 V c 0 t) (iblk17 V c 1 t) p q).trans ?_
  show eluK (xarr V c (((cfg17.win 0).blk t).view.emb (ix2 p q))
        + barr V c (((cfg17.win 1).blk t).view.emb (ix2 (0 : Fin 1) q)))
      = eluK (xarr V c (((cfg17.win 2).blk t).view.emb (ix2 p q))
        + barr V c (ix2 (0 : Fin 1) ((((cfg17.win 2).blk t).view.emb (ix2 p q)) 1 : Fin 128)))
  exact congrArg eluK (congrArg₂ (fun a b : EReal => a + b) (congrArg (xarr V c) (x_block_at t p q)) (congrArg (barr V c) (bias_block_at t p q)))

/-- THE OUTPUT ARRAY after the region: `G` of the two input arrays. -/
theorem out_eq (c : Dev nD) :
    (dat17 V c).arrAt 2 cfg17.N = G (xarr V c) (barr V c) :=
  (dat17 V c).arrAt_eq_of_cover 2 _ (fun t _ => written_back_eq V c t) out_blocks_cover

/-- The output array at row `r`, lane `j`. -/
theorem out_apply (c : Dev nD) (r : Fin 50000) (j : Fin 128) :
    ((dat17 V c).arrAt 2 cfg17.N) (ix2 r j)
      = eluK (xarr V c (ix2 r j) + barr V c (ix2 (0 : Fin 1) j)) :=
  congrFun (out_eq V c) (ix2 r j)

/-- The two input arrays are never written: after the region they are as it found them. -/
theorem kept0 (c : Dev nD) : (dat17 V c).arrAt 0 cfg17.N = V c (Pipeline.arrRef spec17 0) :=
  ((dat17 V c).arrAt_in 0 rfl cfg17.N).trans (A_eq17 V c 0)
theorem kept1 (c : Dev nD) : (dat17 V c).arrAt 1 cfg17.N = V c (Pipeline.arrRef spec17 1) :=
  ((dat17 V c).arrAt_in 1 rfl cfg17.N).trans (A_eq17 V c 1)

end Value

end Cert.KernelIdeal.RegBias17

end
-- ==== Proof.StageActRdXo.lean ====
/- The program texts behind the second branch's bias and exponential linear unit, read at one entry. In the kernel program the bias row that the
   region finds is made by the host operations just before it; in the reference the bias is broadcast down the rows,
   added, and the activation applied by a short run of host operations. Each is read off the fold of its operation
   list: the list is cut where the run starts, everything before the cut stays one unnamed state, and the run's few
   operations are composed over it. -/
import proofs.«407945_j8993661518245_1_alg».proof.Proof.Gen.KernelIdeal.Launch
import proofs.«407945_j8993661518245_1_alg».proof.Proof.RefOps
import proofs.«407945_j8993661518245_1_alg».proof.Proof.StageActLib

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.StageActLib

/-! ## The kernel program: the bias row the region finds -/

section Kernel

open Cert.KernelIdeal Cert.KernelIdeal.Gen

set_option maxHeartbeats 1000000 in
/-- The bias row of region 17 is the 128-vector bias argument reshaped to one row: lane `j` holds its entry `j`. -/
theorem kbiasXo (V : Valuation τ sig (Elt Ideal)) (j : Fin 128) :
    rd (S := S1x128) (after hostOps17_2 V (Proc.devRef .tc main_v406)) (ix2 (0 : Fin 1) j)
      = rd (S := S128) (V (Proc.devRef .tc main_arg11)) (ix1 j) := by
  after_results
  exact vec_row_apply _ _ 0 j

end Kernel

/-! ## The reference: the activation's run of operations -/

section Reference

open Cert.ReferenceIdeal Cert.ReferenceIdeal.RefRun

set_option maxHeartbeats 1000000 in
/-- From operation 16 of window 10 on: the bias vector broadcast down the rows and added to the aggregate, then the
    unit spelled with its two comparisons, the inner choice, `e^· − 1`, the product with a ones array and the outer
    choice, at any state `W` before. -/
theorem routXo_key (W : Valuation τ sig (Elt Ideal)) (r : Fin 50000) (j : Fin 128) :
    rd (S := S50000x128) (after (List.drop 16 ops10) W (Proc.devRef .tc main_v496)) (ix2 r j)
      = eluK (rd (S := S50000x128) (after (List.drop 16 ops10) W (Proc.devRef .tc main_v492)) (ix2 r j)
          + rd (S := S128) (after (List.drop 16 ops10) W (Proc.devRef .tc main_arg11)) (ix1 j)) := by
  simp only [List.drop_succ_cons, List.drop_zero]
  after_results_simp
  refine (elu_ref_apply (T := S50000x128)
    (addf (W (Proc.devRef .tc main_v492)) (broadcastInDim S50000x128 ![0, 1] (by decide) (broadcastInDim S1x128 ![1] (by decide) (W (Proc.devRef .tc main_arg11)))))
    (by decide) (by decide) (by decide) (by decide) (ix2 r j)).trans ?_
  exact congrArg eluK (bias_add_apply (W (Proc.devRef .tc main_v492)) (W (Proc.devRef .tc main_arg11)) (by decide) (by decide) r j)

/-- The same over the whole window. -/
theorem routXo (V : Valuation τ sig (Elt Ideal)) (r : Fin 50000) (j : Fin 128) :
    rd (S := S50000x128) (after ops10 V (Proc.devRef .tc main_v496)) (ix2 r j)
      = eluK (rd (S := S50000x128) (after ops10 V (Proc.devRef .tc main_v492)) (ix2 r j) + rd (S := S128) (after ops10 V (Proc.devRef .tc main_arg11)) (ix1 j)) := by
  rw [after_split 16 ops10 V]
  exact routXo_key _ r j

variable (m' : (ℓ : Loc nD τ sig) → Buf (Elt Ideal) ℓ) (c : Dev nD)

/-- THE REFERENCE'S STAGE: the branch's node features at `(r, j)` are the unit of the aggregate there plus entry `j` of
    the bias argument (the aggregate is written earlier in window 10, the argument never; neither is written later). -/
theorem ref_xonode (r : Fin 50000) (j : Fin 128) :
    rd (S := S50000x128) (R14 (F := Ideal) m' c (Proc.devRef .tc main_v496)) (ix2 r j)
      = eluK (rd (S := S50000x128) (R14 (F := Ideal) m' c (Proc.devRef .tc main_v492)) (ix2 r j) + rd (S := S128) (R14 (F := Ideal) m' c (Proc.devRef .tc main_arg11)) (ix1 j)) := by
  have e1 : R14 (F := Ideal) m' c (Proc.devRef .tc main_v496) = after ops10 (R10 m' c) (Proc.devRef .tc main_v496) :=
    carry11 m' c main_v496 (by decide)
  have e2 : after ops10 (R10 m' c) (Proc.devRef .tc main_v492) = R14 (F := Ideal) m' c (Proc.devRef .tc main_v492) :=
    (carry11 m' c main_v492 (by decide)).symm
  have e3 : after ops10 (R10 m' c) (Proc.devRef .tc main_arg11) = R14 (F := Ideal) m' c (Proc.devRef .tc main_arg11) :=
    (carry11 m' c main_arg11 (by decide)).symm
  rw [e1, routXo, e2, e3]

end Reference

end Cert.StageAct

end
-- ==== Proof.StageActXo.lean ====
/- The second branch's bias and exponential linear unit. The kernel program's array after region 17 and the reference's array
   after its exponential linear unit are the same function whenever the arrays they
   are computed from are. The region's output at `(r, j)` is the exponential linear unit of its first input at `(r, j)` plus its bias
   row at lane `j`; the first input and the bias row are buffers of the final state, and the bias row reads back to
   the bias argument; the reference's run of operations computes the same expression. -/
import proofs.«407945_j8993661518245_1_alg».proof.Proof.Iface
import proofs.«407945_j8993661518245_1_alg».proof.Proof.KCarry
import proofs.«407945_j8993661518245_1_alg».proof.Proof.RegBias17
import proofs.«407945_j8993661518245_1_alg».proof.Proof.StageActRdXo

set_option maxRecDepth 16384

noncomputable section

namespace Cert.StageAct

open Idealize.ShloMosaic Idealize.ShloMosaic.TcCoe Idealize.SL.Sem Idealize.ShloMosaic.StableHlo Idealize.ShloMosaic.ValueIdx
open Cert.LibAct Cert.LibFinite Cert.StageActLib

/-! ## The kernel program's stage -/

section Kernel

open Cert.KernelIdeal Cert.KernelIdeal.Gen Cert.KernelIdeal.GenP

variable (m : (ℓ : Loc nD τ sig) → Buf (Elt Ideal) ℓ) (ρ : Dev nD → PrngReg) (c : Dev nD)

/-- THE KERNEL PROGRAM'S STAGE: region 17's output at `(r, j)` is the exponential linear unit of its input there plus
    entry `j` of the bias argument (the bias row is made from the argument just before the region, and the
    argument is never written). -/
theorem kernel_xonode (r : Fin 50000) (j : Fin 128) :
    rd (S := S50000x128) (W58 (F := Ideal) m ρ c (Proc.devRef .tc main_v407)) (ix2 r j)
      = eluK (rd (S := S50000x128) (W58 (F := Ideal) m ρ c (Proc.devRef .tc main_v405)) (ix2 r j) + rd (S := S128) (W58 (F := Ideal) m ρ c (Proc.devRef .tc main_arg11)) (ix1 j)) := by
  have e1 : (W58 (F := Ideal) m ρ c (Proc.devRef .tc main_v407) : S50000x128.Idx → EReal) = (dat17 (V43 m ρ) c).arrAt 2 cfg17.N :=
    Cert.KernelIdeal.KCarry.reg17_arr2 m ρ c
  have e2 : (V43 (F := Ideal) m ρ c main_v405 : S50000x128.Idx → EReal) = W58 (F := Ideal) m ρ c (Proc.devRef .tc main_v405) :=
    Cert.KernelIdeal.KCarry.reg17_in0 m ρ c
  have e3 : rd (S := S1x128) (V43 (F := Ideal) m ρ c main_v406) (ix2 (0 : Fin 1) j)
      = rd (S := S128) (W42 (F := Ideal) m ρ c (Proc.devRef .tc main_arg11)) (ix1 j) := kbiasXo (W42 m ρ c) j
  have e4 : W42 (F := Ideal) m ρ c (Proc.devRef .tc main_arg11) = W58 (F := Ideal) m ρ c (Proc.devRef .tc main_arg11) :=
    (Cert.KernelIdeal.KCarry.carry42 m ρ c main_arg11 (by decide)).symm
  refine (congrFun e1 (ix2 r j)).trans ((Cert.KernelIdeal.RegBias17.out_apply (V43 m ρ) c r j).trans ?_)
  show eluK (rd (S := S50000x128) (V43 (F := Ideal) m ρ c main_v405) (ix2 r j)
      + rd (S := S1x128) (V43 (F := Ideal) m ρ c main_v406) (ix2 (0 : Fin 1) j)) = _
  rw [e2, e3, e4]

end Kernel

/-! ## The two programs' stages agree -/

open Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- If the branch's aggregate is the same array in the two programs and the bias argument is the same vector, the
    branch's node features are the same array: each program adds bias entry `j` to the aggregate's entry `(r, j)` and
    applies the unit, which the two programs spell differently but which is one function on the extended reals. -/
theorem xonode (h : Cert.Iface.AggXo m ρ m' c)
    (hb : (Kf m ρ c Cert.KernelIdeal.main_arg11 : Cert.KernelIdeal.S128.Idx → EReal) = Rf m' c Cert.ReferenceIdeal.main_arg11) :
    Cert.Iface.XoNode m ρ m' c := by
  unfold Cert.Iface.AggXo at h
  have hx' : (Cert.KernelIdeal.GenP.W58 (F := Ideal) m ρ c (Proc.devRef .tc Cert.KernelIdeal.main_v405) : Cert.KernelIdeal.S50000x128.Idx → EReal)
      = Cert.ReferenceIdeal.RefRun.R14 (F := Ideal) m' c (Proc.devRef .tc Cert.ReferenceIdeal.main_v492) := h
  have hb' : (Cert.KernelIdeal.GenP.W58 (F := Ideal) m ρ c (Proc.devRef .tc Cert.KernelIdeal.main_arg11) : Cert.KernelIdeal.S128.Idx → EReal)
      = Cert.ReferenceIdeal.RefRun.R14 (F := Ideal) m' c (Proc.devRef .tc Cert.ReferenceIdeal.main_arg11) := hb
  unfold Cert.Iface.XoNode
  refine funext fun i => ?_
  obtain ⟨r, j, rfl⟩ : ∃ (r : Fin 50000) (j : Fin 128), i = ix2 r j := ⟨i 0, i 1, eq_ix2 i⟩
  refine (kernel_xonode m ρ c r j).trans ?_
  rw [hx', hb']
  exact (ref_xonode m' c r j).symm

end Cert.StageAct

end
-- ==== Proof.LibDotSplit.lean ====
/- A contraction over a concatenated vector splits into the two contractions over its halves. For `a : Fin m → EReal`,
   `b : Fin n → EReal` and weights `w` over `Fin (m + n)`, the sum over `k` of `(a ++ b) k · w k` is the sum of
   `a k · w k` over the first `m` indices plus the sum of `b k · w (m + k)` over the last `n`. A sum over `Fin (m + n)`
   splits at `m` with no condition on the terms, so nothing here needs finite values. Stated at `128 + 128 = 256`, with
   the concatenation written as `Fin.append` and as an explicit test `k < 128` on the index. -/
import Mathlib.Data.EReal.Basic
import Mathlib.Algebra.BigOperators.Fin

namespace Cert.LibDotSplit

open scoped BigOperators

/-- The general splitting, `Fin.append` form. -/
theorem sum_append_mul_gen {m n : Nat} (a : Fin m → EReal) (b : Fin n → EReal) (w : Fin (m + n) → EReal) :
    ∑ k : Fin (m + n), Fin.append a b k * w k
      = (∑ k : Fin m, a k * w (Fin.castAdd n k)) + ∑ k : Fin n, b k * w (Fin.natAdd m k) := by
  rw [Fin.sum_univ_add]
  simp only [Fin.append_left, Fin.append_right]

/-- The general splitting, with the concatenation as a test on the index. -/
theorem sum_dite_mul_gen {m n : Nat} (a : Fin m → EReal) (b : Fin n → EReal) (w : Fin (m + n) → EReal) :
    ∑ k : Fin (m + n), (if h : k.val < m then a ⟨k.val, h⟩ else b ⟨k.val - m, by omega⟩) * w k
      = (∑ k : Fin m, a k * w (Fin.castAdd n k)) + ∑ k : Fin n, b k * w (Fin.natAdd m k) := by
  rw [Fin.sum_univ_add]
  congr 1
  · refine Finset.sum_congr rfl fun k _ => ?_
    rw [dif_pos (show (Fin.castAdd n k).val < m from k.isLt)]
    rfl
  · refine Finset.sum_congr rfl fun k _ => ?_
    rw [dif_neg (show ¬ (Fin.natAdd m k).val < m from by simp [Fin.natAdd])]
    congr 2
    exact Fin.ext (by simp [Fin.natAdd])

/-- The test form agrees with `Fin.append` at every index. -/
theorem dite_eq_append {m n : Nat} (a : Fin m → EReal) (b : Fin n → EReal) (k : Fin (m + n)) :
    (if h : k.val < m then a ⟨k.val, h⟩ else b ⟨k.val - m, by omega⟩) = Fin.append a b k := by
  induction k using Fin.addCases with
  | left i =>
    rw [Fin.append_left, dif_pos (show (Fin.castAdd n i).val < m from i.isLt)]; rfl
  | right i =>
    rw [Fin.append_right, dif_neg (show ¬ (Fin.natAdd m i).val < m from by simp [Fin.natAdd])]
    congr 1
    exact Fin.ext (by simp [Fin.natAdd])

/-- At `128 + 128 = 256`, `Fin.append` form. -/
theorem sum_append_mul (a b : Fin 128 → EReal) (w : Fin 256 → EReal) :
    ∑ k : Fin 256, (Fin.append a b k) * w k
      = (∑ k : Fin 128, a k * w (Fin.castAdd 128 k)) + ∑ k : Fin 128, b k * w (Fin.natAdd 128 k) :=
  sum_append_mul_gen a b w

/-- At `128 + 128 = 256`, test form. -/
theorem sum_dite_mul (a b : Fin 128 → EReal) (w : Fin 256 → EReal) :
    ∑ k : Fin 256, (if h : k.val < 128 then a ⟨k.val, h⟩ else b ⟨k.val - 128, by omega⟩) * w k
      = (∑ k : Fin 128, a k * w (Fin.castAdd 128 k)) + ∑ k : Fin 128, b k * w (Fin.natAdd 128 k) :=
  sum_dite_mul_gen (m := 128) (n := 128) a b w

/-- The two halves' weight indices as explicit numbers: `k` and `128 + k`. -/
theorem castAdd_val (k : Fin 128) : (Fin.castAdd 128 k).val = k.val := rfl
theorem natAdd_val (k : Fin 128) : (Fin.natAdd 128 k).val = 128 + k.val := rfl

/-- Any sum over 256 indices splits at 128 (no product shape assumed). -/
theorem sum_split (f : Fin 256 → EReal) :
    ∑ k : Fin 256, f k = (∑ k : Fin 128, f (Fin.castAdd 128 k)) + ∑ k : Fin 128, f (Fin.natAdd 128 k) :=
  Fin.sum_univ_add (a := 128) (b := 128) f

end Cert.LibDotSplit
-- ==== Proof.LibHostRead.lean ====
/- Host operations of the two programs read at an index, at the ideal instance: a gather of whole rows by a column
   of index words, the accumulating scatter of whole rows (and of single entries) by a column of index words, the
   concatenation of two vectors, the host's column sum and matrix product.  Every statement is over literal-rank
   shapes of arbitrary extents, so both programs (edge lists of 1600000 and of 1700000 entries) use the same lemma. -/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value

noncomputable section

namespace Cert.HostRead

open Idealize.ShloMosaic Idealize.ShloMosaic.ValueIdx
open scoped BigOperators

/-- A gather of whole rows of an [N × D] table by an [M × 1] column of index words (jnp's `table[idx]`): row `p` of
    the result is the table's row at the word read signed and clamped into [0, N-1]. -/
theorem rowGather_apply {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![M, 1]⟩ w) (p : Fin M) (q : Fin D) (hN : 0 < N) :
    Host.gather d x idx (ix2 p q) = x (ix2 ⟨min (idx (ix2 p 0)).toInt.toNat (N - 1), by omega⟩ q) := by
  obtain ⟨od, cd, ob, sb, sm, ivd, ss, wf⟩ := d
  subst hoff hcoll hob hsb hsim hivd
  set d : GatherDims ⟨2, ![N, D]⟩ ⟨2, ![M, 1]⟩ ⟨2, ![M, D]⟩ := ⟨[1], [0], [], [], [0], 1, ss, wf⟩ with hd
  have hsl : ss 0 = 1 := d.slice_collapsed 0 (List.mem_singleton.mpr rfl)
  have hb : ∀ a : Fin 2, a ∉ d.operandBatchingDims := fun a => List.not_mem_nil
  unfold Host.gather
  congr 1
  funext a
  refine Fin.ext ?_
  match a with
  | ⟨0, _⟩ =>
    show d.start (ix2 p q) idx 0 + d.batchCoord (ix2 p q) 0 + d.offCoord (ix2 p q) 0 = min (idx (ix2 p 0)).toInt.toNat (N - 1)
    rw [GatherDims.batchCoord_eq_zero _ _ _ (hb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 p q) ⟨List.idxOf (0 : Fin 2) d.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    show min (idx (ix2 p 0)).toInt.toNat (N - ss 0) = _
    rw [hsl]
  | ⟨1, _⟩ =>
    show d.start (ix2 p q) idx 1 + d.batchCoord (ix2 p q) 1 + d.offCoord (ix2 p q) 1 = q.val
    rw [GatherDims.batchCoord_eq_zero _ _ _ (hb 1)]
    have hst : d.start (ix2 p q) idx 1 = 0 := by
      unfold GatherDims.start
      rw [dif_neg (show (1 : Fin 2) ∉ [(0 : Fin 2)] by decide)]
    rw [hst]
    unfold GatherDims.offCoord
    have hk : (1 : Fin 2) ∈ d.sKept := (by decide : (1 : Fin 2) ∈ (List.finRange 2).filter (· ∉ [(0 : Fin 2)] ++ []))
    rw [dif_pos hk]
    simp only [Nat.zero_add]
    rfl

/-- Where an update entry (p, q') of the row scatter lands: on operand axis 0 the start is the index word of row `p`
    read signed and the window coordinate is 0 (the axis is inserted); on axis 1 the start is 0 and the window
    coordinate is `q'`. So it lands at (n, q) exactly when the word is `n` and `q' = q`. -/
theorem row_resultIdx_iff {N M D w : Nat}
    (wf : ScatterDims.WF ⟨2, ![N, D]⟩ ⟨2, ![M, 1]⟩ ⟨2, ![M, D]⟩ [1] [0] [0] 1)
    (idx : IVec ⟨2, ![M, 1]⟩ w) (p : Fin M) (q' : Fin D) (n : Fin N) (q : Fin D) :
    (⟨[1], [0], [0], 1, wf⟩ : ScatterDims ⟨2, ![N, D]⟩ ⟨2, ![M, 1]⟩ ⟨2, ![M, D]⟩).resultIdx? (ix2 p q') idx = some (ix2 n q)
      ↔ (idx (ix2 p 0)).toInt = (n.val : Int) ∧ q' = q := by
  set d : ScatterDims ⟨2, ![N, D]⟩ ⟨2, ![M, 1]⟩ ⟨2, ![M, D]⟩ := ⟨[1], [0], [0], 1, wf⟩ with hd
  have hs0 : d.start (ix2 p q') idx 0 = (idx (ix2 p 0)).toInt := by
    unfold ScatterDims.start
    rw [dif_pos (show (0 : Fin 2) ∈ d.scatterDimsToOperandDims from List.mem_singleton.mpr rfl)]
    congr 2
    funext b; refine Fin.ext ?_
    match b with
    | ⟨0, _⟩ => rfl
    | ⟨1, _⟩ => rfl
  have hs1 : d.start (ix2 p q') idx 1 = 0 := by
    unfold ScatterDims.start
    rw [dif_neg (show (1 : Fin 2) ∉ [(0 : Fin 2)] by decide)]
  have hw0 : d.window (ix2 p q') 0 = 0 := by
    unfold ScatterDims.window
    have hk : (0 : Fin 2) ∉ d.sKept := (by decide : (0 : Fin 2) ∉ (List.finRange 2).filter (· ∉ [(0 : Fin 2)]))
    rw [dif_neg hk]
  have hw1 : d.window (ix2 p q') 1 = q'.val := by
    unfold ScatterDims.window
    have hk : (1 : Fin 2) ∈ d.sKept := (by decide : (1 : Fin 2) ∈ (List.finRange 2).filter (· ∉ [(0 : Fin 2)]))
    rw [dif_pos hk]
    rfl
  unfold ScatterDims.resultIdx?
  split
  · rename_i h
    rw [Option.some.injEq, funext_iff, Fin.forall_fin_two]
    have h0 := h 0
    have h1 := h 1
    rw [hs0, hw0] at h0
    rw [hs1, hw1] at h1
    simp only [Fin.ext_iff, hs0, hs1, hw0, hw1]
    show ((idx (ix2 p 0)).toInt + ((0 : Nat) : Int)).toNat = n.val ∧ ((0 : Int) + (q'.val : Int)).toNat = q.val ↔ _
    constructor
    · rintro ⟨a, b⟩; constructor <;> omega
    · rintro ⟨a, b⟩; constructor <;> omega
  · rename_i h
    constructor
    · intro hh; exact absurd hh (by simp)
    · rintro ⟨a, b⟩
      exfalso; apply h
      rw [Fin.forall_fin_two, hs0, hs1, hw0, hw1]
      have hn : n.val < N := n.isLt
      have hq : q'.val < D := q'.isLt
      refine ⟨⟨by omega, ?_⟩, ⟨by omega, ?_⟩⟩
      · show (idx (ix2 p 0)).toInt + ((0 : Nat) : Int) < (N : Int); omega
      · show (0 : Int) + (q'.val : Int) < (D : Int); omega

/-- The accumulating scatter of the rows of an [M × D] update into an [N × D] operand by an [M × 1] column of index
    words: entry (n, q) gains every update entry (p, q) whose word, read signed, is `n`. -/
theorem rowScatterAdd_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hivd : d.indexVectorDim = 1)
    (x : (⟨2, ![N, D]⟩ : Shape).Idx → EReal) (idx : IVec ⟨2, ![M, 1]⟩ w) (upd : (⟨2, ![M, D]⟩ : Shape).Idx → EReal)
    (n : Fin N) (q : Fin D) :
    Ideal.hostScatterAdd d x idx upd (ix2 n q)
      = x (ix2 n q) + ∑ p : Fin M, if (idx (ix2 p 0)).toInt = (n.val : Int) then upd (ix2 p q) else 0 := by
  obtain ⟨uw, iw, sd, ivd, wf⟩ := d
  subst huw hiw hsd hivd
  unfold Ideal.hostScatterAdd
  congr 1
  rw [Finset.sum_filter, sum_idx2]
  refine Finset.sum_congr rfl fun p _ => ?_
  rw [Finset.sum_congr rfl (fun b _ => if_congr (row_resultIdx_iff wf idx p b n q) rfl rfl)]
  by_cases hI : (idx (ix2 p 0)).toInt = (n.val : Int)
  · simp [hI]
  · simp [hI]

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {R : Type*} [AddCommMonoid R] {n : Nat} (f : (⟨1, ![n]⟩ : Shape).Idx → R) :
    ∑ i, f i = ∑ a : Fin n, f (ix1 a) := by
  rw [← Equiv.sum_comp (idxEquiv1 (n := n)).symm f]
  rfl

/-- Where update entry `p` of the vector scatter lands: the start on the operand's one axis is the index word of row
    `p` read signed, the window coordinate 0. So it lands at `n` exactly when the word is `n`. -/
theorem vec_resultIdx_iff {N M w : Nat}
    (wf : ScatterDims.WF ⟨1, ![N]⟩ ⟨2, ![M, 1]⟩ ⟨1, ![M]⟩ [] [0] [0] 1)
    (idx : IVec ⟨2, ![M, 1]⟩ w) (p : Fin M) (n : Fin N) :
    (⟨[], [0], [0], 1, wf⟩ : ScatterDims ⟨1, ![N]⟩ ⟨2, ![M, 1]⟩ ⟨1, ![M]⟩).resultIdx? (ix1 p) idx = some (ix1 n)
      ↔ (idx (ix2 p 0)).toInt = (n.val : Int) := by
  set d : ScatterDims ⟨1, ![N]⟩ ⟨2, ![M, 1]⟩ ⟨1, ![M]⟩ := ⟨[], [0], [0], 1, wf⟩ with hd
  have hs0 : d.start (ix1 p) idx 0 = (idx (ix2 p 0)).toInt := by
    unfold ScatterDims.start
    rw [dif_pos (show (0 : Fin 1) ∈ d.scatterDimsToOperandDims from List.mem_singleton.mpr rfl)]
    congr 2
    funext b; refine Fin.ext ?_
    match b with
    | ⟨0, _⟩ => rfl
    | ⟨1, _⟩ => rfl
  have hw0 : d.window (ix1 p) 0 = 0 := by
    unfold ScatterDims.window
    have hk : (0 : Fin 1) ∉ d.sKept := (by decide : (0 : Fin 1) ∉ (List.finRange 1).filter (· ∉ [(0 : Fin 1)]))
    rw [dif_neg hk]
  unfold ScatterDims.resultIdx?
  split
  · rename_i h
    rw [Option.some.injEq, funext_iff, Fin.forall_fin_one]
    have h0 := h 0
    rw [hs0, hw0] at h0
    simp only [Fin.ext_iff, hs0, hw0]
    show ((idx (ix2 p 0)).toInt + ((0 : Nat) : Int)).toNat = n.val ↔ _
    constructor
    · intro a; omega
    · intro a; omega
  · rename_i h
    constructor
    · intro hh; exact absurd hh (by simp)
    · intro a
      exfalso; apply h
      rw [Fin.forall_fin_one, hs0, hw0]
      have hn : n.val < N := n.isLt
      refine ⟨by omega, ?_⟩
      show (idx (ix2 p 0)).toInt + ((0 : Nat) : Int) < (N : Int); omega

/-- The same for a vector operand and a vector of updates. -/
theorem vecScatterAdd_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ p : Fin M, if (idx (ix2 p 0)).toInt = (n.val : Int) then upd (ix1 p) else 0 := by
  obtain ⟨uw, iw, sd, ivd, wf⟩ := d
  subst huw hiw hsd hivd
  unfold Ideal.hostScatterAdd
  congr 1
  rw [Finset.sum_filter, sum_idx1]
  exact Finset.sum_congr rfl fun p _ => if_congr (vec_resultIdx_iff wf idx p n) rfl rfl

/-- Two vectors laid end to end, read at a position: the first below its length, the second from there on. -/
theorem concat2_apply {α : Type} {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (j : Fin (A + B)) :
    concatenate (⟨1, ![A + B]⟩ : Shape) 0 [⟨⟨1, ![A]⟩, a⟩, ⟨⟨1, ![B]⟩, b⟩] h (ix1 j)
      = if hj : j.val < A then a (ix1 ⟨j.val, hj⟩) else b (ix1 ⟨j.val - A, by omega⟩) := by
  split
  · rename_i hj
    exact concatenate_pair_apply_left 0 a b h (ix1 j) rfl (ix1 ⟨j.val, hj⟩) (fun c => by
      match c with
      | ⟨0, _⟩ => rfl)
  · rename_i hj
    exact concatenate_pair_apply_right 0 a b h (ix1 j) rfl rfl (ix1 ⟨j.val - A, by omega⟩)
      (fun c hc => absurd (Subsingleton.elim _ _) hc) (by show j.val - A + A = j.val; omega)

/-- The host's sum of an [N × D] array over its first axis, from the initial value `init`. -/
theorem colReduceAdd_apply {N D : Nat} (h' : (⟨2, ![N, D]⟩ : Shape).ReducesTo [0] ⟨1, ![D]⟩)
    (x : (⟨2, ![N, D]⟩ : Shape).Idx → EReal) (init : EReal) (q : Fin D) :
    Ideal.hostReduceAdd h' x init (ix1 q) = init + ∑ n : Fin N, x (ix2 n q) := by
  have h : (⟨2, ![N, D]⟩ : Shape).Reduces [0] ⟨1, ![D]⟩ := ⟨h'.1, Nat.one_pos, h'.2⟩
  rw [Ideal.hostReduceAdd_single h' h]
  show init + ∑ k : Fin N, x (h.lift (ix1 q) k) = _
  congr 1
  refine Finset.sum_congr rfl fun k _ => ?_
  congr 1
  funext c; refine Fin.ext ?_
  match c with
  | ⟨0, _⟩ => rfl
  | ⟨1, _⟩ => rfl

/-- The host's product of an [N × K] by a [K × D] array (contracting the first's axis 1 with the second's axis 0). -/
theorem dot_apply {N K D : Nat} (d : DotDims ⟨2, ![N, K]⟩ ⟨2, ![K, D]⟩ ⟨2, ![N, D]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, D]⟩ : Shape).Idx → EReal) (n : Fin N) (q : Fin D) :
    (∑ k : d.contr.Idx, l (d.lhsIdx (ix2 n q) k) * r (d.rhsIdx (ix2 n q) k)) = ∑ k : Fin K, l (ix2 n k) * r (ix2 k q) := by
  obtain ⟨lc, rc, ln, rn, lb, rb, wf⟩ := d
  subst hlc hrc hln hrn hlb hrb
  set d : DotDims ⟨2, ![N, K]⟩ ⟨2, ![K, D]⟩ ⟨2, ![N, D]⟩ := ⟨[1], [0], [0], [1], [], [], wf⟩ with hd
  have hr : d.contr.rank = 1 := rfl
  have hs : d.contr.size ⟨0, by omega⟩ = K := rfl
  rw [← Equiv.sum_comp (contrEquiv1 d K hr hs).symm]
  refine Finset.sum_congr rfl fun k _ => ?_
  have hl : d.lhsIdx (ix2 n q) ((contrEquiv1 d K hr hs).symm k) = ix2 n k := by
    funext a; refine Fin.ext ?_
    match a with
    | ⟨0, _⟩ => rfl
    | ⟨1, _⟩ => rfl
  have hr' : d.rhsIdx (ix2 n q) ((contrEquiv1 d K hr hs).symm k) = ix2 k q := by
    funext a; refine Fin.ext ?_
    match a with
    | ⟨0, _⟩ => rfl
    | ⟨1, _⟩ => rfl
  rw [hl, hr']

end Cert.HostRead

end
-- ==== Proof.StageAttLib.lean ====
/- The attention block's host operations read at an index, at the ideal instance. Three facts are stated here, each over
   literal-rank shapes of arbitrary row count, so that the edge table (400000 rows) and the node table (50000 rows) use
   the same statement:

   * re-indexing operations (a broadcast along axes, a unit-stride slice) only move entries, so a property of every
     entry of the operand holds of every entry of the result;
   * the softmax over the two columns of an [N, 2] table of real numbers is a table of real numbers: the row maximum
     of two reals is real, the exponential of a real is a positive real, the sum of two positive reals is a positive
     real, and a real divided by a nonzero real is real;
   * a contraction of a row-wise concatenation [a | b] of two [M, 128] tables with a [256, 2] table of weights is the
     sum of the contraction of a with the first 128 weight rows and of b with the last 128: a sum over 256 indices
     splits at 128 whatever its terms, so no entry has to be finite. -/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.IdealHost
import Idealize.ShloMosaic.Lib.Pipeline.Value
import Idealize.ShloMosaic.Lib.Pipeline.Frame
import Idealize.ShloMosaic.Lib.StableHlo.Run
import Mathlib.Data.Finset.Fold
import proofs.«407945_j8993661518245_1_alg».proof.Proof.LibFinite
import proofs.«407945_j8993661518245_1_alg».proof.Proof.LibDotSplit
import proofs.«407945_j8993661518245_1_alg».proof.Proof.LibHostRead

noncomputable section

namespace Cert.StageAtt

open Idealize.ShloMosaic Idealize.ShloMosaic.ValueIdx Cert.LibFinite
open scoped BigOperators

/-! ## A line of operations cut in two -/

/-- Running a line of operations is running its first `k` and then the rest. -/
theorem after_split {τ : Topo} {sig : RefSig} {Val : EltTy → Type} (k : Nat) (ops : List (HloOp τ sig Val))
    (V : Valuation τ sig Val) :
    StableHlo.after ops V = StableHlo.after (ops.drop k) (StableHlo.after (ops.take k) V) := by
  conv_lhs => rw [← List.take_append_drop k ops]
  exact StableHlo.after_append _ _ _

/-! ## The row index of an edge's endpoint -/

/-- An edge list's endpoint column as gather indices: a negative entry is counted from the end (`n` is added), and
    the vector becomes an `[E, 1]` column. -/
def rowIdx {E : Nat} (hb0 : (⟨0, ![]⟩ : Shape).BroadcastsInDim ⟨1, ![E]⟩ ![])
    (hb1 : (⟨1, ![E]⟩ : Shape).BroadcastsInDim ⟨2, ![E, 1]⟩ ![0]) (n : BitVec 32) (a : IVec ⟨1, ![E]⟩ 32) :
    IVec ⟨2, ![E, 1]⟩ 32 :=
  broadcastInDim ⟨2, ![E, 1]⟩ ![0] hb1
    (select (cmpi .slt a (broadcastInDim ⟨1, ![E]⟩ ![] hb0 (constantI ⟨0, ![]⟩ 32 0#32)))
      (addi a (broadcastInDim ⟨1, ![E]⟩ ![] hb0 (constantI ⟨0, ![]⟩ 32 n))) a)

/-! ## Re-indexing operations move entries -/

/-- Every entry of a broadcast is an entry of its operand. -/
theorem broadcastInDim_forall {α : Type} {s t : Shape} {P : α → Prop} (dims : Fin s.rank → Fin t.rank)
    (h : s.BroadcastsInDim t dims) (x : s.Idx → α) (hx : ∀ k, P (x k)) (j : t.Idx) : P (broadcastInDim t dims h x j) := by
  unfold broadcastInDim; exact hx _

/-- Every entry of a unit-stride slice is an entry of its operand. -/
theorem extractStridedSlice_forall {α : Type} {s t : Shape} {P : α → Prop} (off : Fin s.rank → Nat) (x : s.Idx → α)
    (h : s.Slices off t) (hx : ∀ k, P (x k)) (j : t.Idx) : P (extractStridedSlice t off x h j) := by
  unfold extractStridedSlice; exact hx _

/-! ## The constants of a softmax -/

/-- The pattern of `-∞` denotes `⊥`. -/
theorem ofBits_neg_inf : Ideal.ofBits .f32 0xFF800000#32 = ⊥ := by
  simp [Ideal.ofBits, Ideal.ieee]

/-! ## A maximum over a nonempty finite set of reals, started at `⊥`, is real -/

theorem isFin_fold_max {ι : Type*} (s : Finset ι) (hs : s.Nonempty) (f : ι → EReal) (hf : ∀ i ∈ s, IsFin (f i)) :
    IsFin (s.fold max ⊥ f) := by
  constructor
  · exact ((Finset.fold_max_lt (c := (⊤ : EReal))).mpr
      ⟨bot_lt_top, fun i hi => lt_top_iff_ne_top.mpr (hf i hi).1⟩).ne
  · obtain ⟨i, hi⟩ := hs
    have hle : f i ≤ s.fold max ⊥ f := (Finset.le_fold_max (f i)).mpr (Or.inr ⟨i, hi, le_rfl⟩)
    intro e
    rw [e] at hle
    exact (hf i hi).2 (le_bot_iff.mp hle)

/-! ## The softmax over two columns -/

section Softmax

variable {N : Nat}
  (hred : (⟨2, ![N, 2]⟩ : Shape).ReducesTo [1] ⟨1, ![N]⟩) (hS : 0 < (⟨0, ![]⟩ : Shape).numel)
  (hb0 : (⟨0, ![]⟩ : Shape).BroadcastsInDim ⟨1, ![N]⟩ ![])
  (hb1 : (⟨1, ![N]⟩ : Shape).BroadcastsInDim ⟨2, ![N, 1]⟩ ![0])
  (hb2 : (⟨2, ![N, 1]⟩ : Shape).BroadcastsInDim ⟨2, ![N, 2]⟩ ![0, 1])

/-- The row maximum, as the programs spell it: the reduction by maximum along the columns from `-∞`, once more
    maximized against `-∞`. -/
def rowMax (x : FVec Ideal ⟨2, ![N, 2]⟩ .f32) : FVec Ideal ⟨1, ![N]⟩ .f32 :=
  maximumf (broadcastInDim ⟨1, ![N]⟩ ![] hb0 (constant (F := Ideal) ⟨0, ![]⟩ .f32 0xFF800000#32))
    (Host.reduce FloatOps.maximumf x (constant (F := Ideal) ⟨0, ![]⟩ .f32 0xFF800000#32) hred hS)

/-- The shifted exponentials `exp (x − rowmax)`. -/
def shiftExp (x : FVec Ideal ⟨2, ![N, 2]⟩ .f32) : FVec Ideal ⟨2, ![N, 2]⟩ .f32 :=
  Host.exp (subf x (broadcastInDim ⟨2, ![N, 2]⟩ ![0, 1] hb2 (broadcastInDim ⟨2, ![N, 1]⟩ ![0] hb1 (rowMax hred hS hb0 x))))

/-- The softmax over the two columns, as the programs spell it. -/
def softmax2 (x : FVec Ideal ⟨2, ![N, 2]⟩ .f32) : FVec Ideal ⟨2, ![N, 2]⟩ .f32 :=
  Host.divf (shiftExp hred hS hb0 hb1 hb2 x)
    (broadcastInDim ⟨2, ![N, 2]⟩ ![0, 1] hb2 (broadcastInDim ⟨2, ![N, 1]⟩ ![0] hb1
      (Host.reduceAdd (shiftExp hred hS hb0 hb1 hb2 x) (constant (F := Ideal) ⟨0, ![]⟩ .f32 0x00000000#32) hred hS)))

/-- The same softmax with the row maximum handed in as an `[N, 1]` column (a program may compute that column in an
    earlier line). -/
def softmaxOf (x : FVec Ideal ⟨2, ![N, 2]⟩ .f32) (mcol : FVec Ideal ⟨2, ![N, 1]⟩ .f32) : FVec Ideal ⟨2, ![N, 2]⟩ .f32 :=
  Host.divf (Host.exp (subf x (broadcastInDim ⟨2, ![N, 2]⟩ ![0, 1] hb2 mcol)))
    (broadcastInDim ⟨2, ![N, 2]⟩ ![0, 1] hb2 (broadcastInDim ⟨2, ![N, 1]⟩ ![0] hb1
      (Host.reduceAdd (Host.exp (subf x (broadcastInDim ⟨2, ![N, 2]⟩ ![0, 1] hb2 mcol)))
        (constant (F := Ideal) ⟨0, ![]⟩ .f32 0x00000000#32) hred hS)))

/-- With the row maximum of the same table it is the softmax. -/
theorem softmaxOf_rowMax (x : FVec Ideal ⟨2, ![N, 2]⟩ .f32) :
    softmaxOf hred hS hb1 hb2 x (broadcastInDim ⟨2, ![N, 1]⟩ ![0] hb1 (rowMax hred hS hb0 x))
      = softmax2 hred hS hb0 hb1 hb2 x := rfl

variable (x : FVec Ideal ⟨2, ![N, 2]⟩ .f32) (hx : ∀ i, IsFin (x i))
include hx

/-- The row maximum of a table of reals is real. -/
theorem rowMax_fin (k : (⟨1, ![N]⟩ : Shape).Idx) : IsFin (rowMax hred hS hb0 x k) := by
  have h : (⟨2, ![N, 2]⟩ : Shape).Reduces [1] ⟨1, ![N]⟩ := ⟨hred.1, Nat.one_pos, hred.2⟩
  unfold rowMax
  rw [maximumf_apply, broadcastInDim_scalar_apply, constant_apply, ofBits_neg_inf, max_eq_right bot_le,
    Host.reduce_eq_fold_single FloatOps.maximumf x _ hred h hS k, constant_apply, ofBits_neg_inf]
  exact isFin_fold_max _ ⟨⟨0, Nat.zero_lt_two⟩, Finset.mem_univ _⟩ _ fun t _ => hx _

/-- Each shifted exponential is a positive real. -/
theorem shiftExp_fin (i : (⟨2, ![N, 2]⟩ : Shape).Idx) :
    IsFin (shiftExp hred hS hb0 hb1 hb2 x i) ∧ 0 < shiftExp hred hS hb0 hb1 hb2 x i := by
  have hm : IsFin (broadcastInDim ⟨2, ![N, 2]⟩ ![0, 1] hb2 (broadcastInDim ⟨2, ![N, 1]⟩ ![0] hb1 (rowMax hred hS hb0 x)) i) :=
    broadcastInDim_forall _ _ _ (broadcastInDim_forall _ _ _ (rowMax_fin hred hS hb0 x hx)) i
  exact ⟨((hx i).sub hm).exp, ((hx i).sub hm).exp_pos⟩

/-- The softmax over two columns of a table of reals is a table of reals. -/
theorem softmax2_fin (i : (⟨2, ![N, 2]⟩ : Shape).Idx) : IsFin (softmax2 hred hS hb0 hb1 hb2 x i) := by
  have h : (⟨2, ![N, 2]⟩ : Shape).Reduces [1] ⟨1, ![N]⟩ := ⟨hred.1, Nat.one_pos, hred.2⟩
  have he := shiftExp_fin hred hS hb0 hb1 hb2 x hx
  have hs : ∀ k, IsFin (Host.reduceAdd (shiftExp hred hS hb0 hb1 hb2 x)
        (constant (F := Ideal) ⟨0, ![]⟩ .f32 0x00000000#32) hred hS k)
      ∧ 0 < Host.reduceAdd (shiftExp hred hS hb0 hb1 hb2 x)
        (constant (F := Ideal) ⟨0, ![]⟩ .f32 0x00000000#32) hred hS k := by
    intro k
    rw [hostReduceAdd_apply, Ideal.hostReduceAdd_single hred h, constant_apply, Ideal.ofBits_zero_f32, zero_add]
    refine ⟨isFin_sum_univ _ fun t => (he _).1, ?_⟩
    exact lt_of_lt_of_le (he (h.lift k ⟨0, Nat.zero_lt_two⟩)).2
      (Finset.single_le_sum (f := fun t => shiftExp hred hS hb0 hb1 hb2 x (h.lift k t)) (fun t _ => (he _).2.le)
        (Finset.mem_univ (⟨0, Nat.zero_lt_two⟩ : Fin ((⟨2, ![N, 2]⟩ : Shape).size 1))))
  have hsb := broadcastInDim_forall (P := fun v : EReal => IsFin v ∧ 0 < v) _ hb2 _
    (broadcastInDim_forall (P := fun v : EReal => IsFin v ∧ 0 < v) _ hb1 _ hs) i
  unfold softmax2
  rw [hostDivf_apply]
  exact (he i).1.div hsb.1 hsb.2.ne'

end Softmax

/-! ## Products and contractions of tables of reals -/

/-- A host contraction of two tables of reals is a table of reals: each entry is a finite sum of products. -/
theorem dotGeneral_fin {sl sr so : Shape} (d : DotDims sl sr so) (l : FVec Ideal sl .f32) (r : FVec Ideal sr .f32)
    (hl : ∀ i, IsFin (l i)) (hr : ∀ i, IsFin (r i)) (j : so.Idx) : IsFin (Host.dotGeneral d none l r j) := by
  show IsFin (FloatOps.dotGeneral d none .single l r j)
  rw [Ideal.dotGeneral_apply]
  exact isFin_sum _ _ fun k _ => (hl _).mul (hr _)

/-- One column of a table of reals, broadcast along the rows' entries, times a table of reals. -/
theorem mul_col_fin {s1 s2 t : Shape} (off : Fin s1.rank → Nat) (hs : s1.Slices off s2) (dims : Fin s2.rank → Fin t.rank)
    (hb : s2.BroadcastsInDim t dims) (a : FVec Ideal s1 .f32) (x : FVec Ideal t .f32)
    (ha : ∀ i, IsFin (a i)) (hx : ∀ i, IsFin (x i)) (j : t.Idx) :
    IsFin (mulf (broadcastInDim t dims hb (extractStridedSlice s2 off a hs)) x j) := by
  rw [mulf_apply]
  exact (broadcastInDim_forall _ _ _ (extractStridedSlice_forall _ _ _ ha) j).mul (hx j)

/-- A sum of a table of reals and a broadcast row of reals. -/
theorem add_row_fin {s1 s2 t : Shape} (d1 : Fin s1.rank → Fin s2.rank) (h1 : s1.BroadcastsInDim s2 d1)
    (d2 : Fin s2.rank → Fin t.rank) (h2 : s2.BroadcastsInDim t d2) (x : FVec Ideal t .f32) (b : FVec Ideal s1 .f32)
    (hx : ∀ i, IsFin (x i)) (hb : ∀ i, IsFin (b i)) (j : t.Idx) :
    IsFin (addf x (broadcastInDim t d2 h2 (broadcastInDim s2 d1 h1 b)) j) := by
  rw [addf_apply]
  exact (hx j).add (broadcastInDim_forall _ _ _ (broadcastInDim_forall _ _ _ hb) j)

/-! ## The contraction of a concatenation splits -/

/-- `[a | b] · w = a · w[0:128] + b · w[128:256]` for `a, b : [M, 128]` and `w : [256, 2]`, entry by entry, with no condition
    on the entries. -/
theorem dot_concat_split {M : Nat}
    (D1 : DotDims ⟨2, ![M, 128]⟩ ⟨2, ![128, 2]⟩ ⟨2, ![M, 2]⟩)
    (h1lc : D1.lhsContracting = [1]) (h1rc : D1.rhsContracting = [0]) (h1ln : D1.lhsNonContracting = [0])
    (h1rn : D1.rhsNonContracting = [1]) (h1lb : D1.lhsBatch = []) (h1rb : D1.rhsBatch = [])
    (D2 : DotDims ⟨2, ![M, 256]⟩ ⟨2, ![256, 2]⟩ ⟨2, ![M, 2]⟩)
    (h2lc : D2.lhsContracting = [1]) (h2rc : D2.rhsContracting = [0]) (h2ln : D2.lhsNonContracting = [0])
    (h2rn : D2.rhsNonContracting = [1]) (h2lb : D2.lhsBatch = []) (h2rb : D2.rhsBatch = [])
    (hc : Shape.Concatenates [(⟨2, ![M, 128]⟩ : Shape), ⟨2, ![M, 128]⟩] ⟨2, ![M, 256]⟩ 1)
    (hs0 : (⟨2, ![256, 2]⟩ : Shape).Slices ![0, 0] ⟨2, ![128, 2]⟩)
    (hs1 : (⟨2, ![256, 2]⟩ : Shape).Slices ![128, 0] ⟨2, ![128, 2]⟩)
    (a b : FVec Ideal ⟨2, ![M, 128]⟩ .f32) (w : FVec Ideal ⟨2, ![256, 2]⟩ .f32) :
    addf (Host.dotGeneral D1 none a (extractStridedSlice ⟨2, ![128, 2]⟩ ![0, 0] w hs0))
        (Host.dotGeneral D1 none b (extractStridedSlice ⟨2, ![128, 2]⟩ ![128, 0] w hs1))
      = Host.dotGeneral D2 none (concatenate ⟨2, ![M, 256]⟩ 1 [⟨⟨2, ![M, 128]⟩, a⟩, ⟨⟨2, ![M, 128]⟩, b⟩] hc) w := by
  funext j
  obtain ⟨e, o, rfl⟩ : ∃ e o, j = ix2 e o := ⟨j 0, j 1, eq_ix2 j⟩
  rw [addf_apply]
  show FloatOps.dotGeneral D1 none .single a _ (ix2 e o) + FloatOps.dotGeneral D1 none .single b _ (ix2 e o)
    = FloatOps.dotGeneral D2 none .single _ w (ix2 e o)
  rw [Ideal.dotGeneral_apply, Ideal.dotGeneral_apply, Ideal.dotGeneral_apply,
    Cert.HostRead.dot_apply D1 h1lc h1rc h1ln h1rn h1lb h1rb, Cert.HostRead.dot_apply D1 h1lc h1rc h1ln h1rn h1lb h1rb,
    Cert.HostRead.dot_apply D2 h2lc h2rc h2ln h2rn h2lb h2rb, Cert.LibDotSplit.sum_split]
  congr 1
  · refine Finset.sum_congr rfl fun k _ => ?_
    rw [slice2_axis0_apply 0 w hs0 k o (Fin.castAdd 128 k) (by simp),
      concatenate_pair_apply_left 1 a b hc (ix2 e (Fin.castAdd 128 k)) rfl (ix2 e k)
        (fun c => by match c with | ⟨0, _⟩ => rfl | ⟨1, _⟩ => rfl)]
  · refine Finset.sum_congr rfl fun k _ => ?_
    rw [slice2_axis0_apply 128 w hs1 k o (Fin.natAdd 128 k) rfl,
      concatenate_pair_apply_right 1 a b hc (ix2 e (Fin.natAdd 128 k)) rfl rfl (ix2 e k)
        (fun c hc' => by
          match c with
          | ⟨0, _⟩ => rfl
          | ⟨1, _⟩ => exact absurd rfl hc')
        (by show k.val + 128 = 128 + k.val; omega)]

end Cert.StageAtt

end
-- ==== Proof.StageAttK.lean ====
/- The kernel program's attention stretches read as functions of the buffers they start from: the edge attention (the
   softmax over the two edge logits), the node-attention logits before aggregation, the node attention (a bias and a
   softmax over two columns after the aggregation), and the two branch inputs (one column of the node attention times
   the hidden state). Each stretch is a line of host operations; what it leaves in a buffer is the composition of the
   operations on the path to that buffer, over the contents the line started from. -/
import proofs.«407945_j8993661518245_1_alg».proof.Proof.Gen.KernelIdeal.Launch
import proofs.«407945_j8993661518245_1_alg».proof.Proof.StageAttLib
import Idealize.ShloMosaic.Lib.StableHlo.Run

set_option maxRecDepth 4140
set_option maxHeartbeats 4000000

noncomputable section

namespace Cert.StageAtt.K

open Cert.KernelIdeal Cert.KernelIdeal.Gen Idealize.ShloMosaic Idealize.ShloMosaic.TcCoe Idealize.SL.Sem
  Idealize.ShloMosaic.StableHlo Cert.StageAtt

/-- The edge logits `h[src] · W[0:128] + h[dst] · W[128:256] + b`: the two endpoint rows of the hidden state, each
    contracted with its half of the weights. -/
def logits (h : FVec Ideal S50000x128 .f32) (src dst : IVec S400000 32) (w : FVec Ideal S256x2 .f32) (b : FVec Ideal S2 .f32) :
    FVec Ideal S400000x2 .f32 :=
  addf (addf
      (Host.dotGeneral dot_S400000x128_S128x2_S400000x2_1_0_0_1_n_n none
        (Host.gather gather_S50000x128_S400000x1_S400000x128_1_0_n_n_0_1_1128 h
          (rowIdx bcast_S_S400000 bcast_S400000_S400000x1_0 50000#32 src))
        (extractStridedSlice S128x2 ![0, 0] w slices_S256x2_S128x2_0_0))
      (Host.dotGeneral dot_S400000x128_S128x2_S400000x2_1_0_0_1_n_n none
        (Host.gather gather_S50000x128_S400000x1_S400000x128_1_0_n_n_0_1_1128 h
          (rowIdx bcast_S_S400000 bcast_S400000_S400000x1_0 50000#32 dst))
        (extractStridedSlice S128x2 ![128, 0] w slices_S256x2_S128x2_128_0)))
    (broadcastInDim S400000x2 ![0, 1] bcast_S1x2_S400000x2_0_1 (broadcastInDim S1x2 ![1] bcast_S2_S1x2_1 b))

/-- The edge attention is the softmax of the edge logits. -/
theorem read_v223 (V : Valuation τ sig (Elt Ideal)) :
    after (hostOps12 (F := Ideal)) V (Proc.devRef .tc main_v223)
      = softmax2 reducesTo_S400000x2_S400000_d1 h_S_ bcast_S_S400000 bcast_S400000_S400000x1_0 bcast_S400000x1_S400000x2_0_1
          (logits (V (Proc.devRef .tc main_v190)) (V (Proc.devRef .tc main_arg24)) (V (Proc.devRef .tc main_arg25))
            (V (Proc.devRef .tc main_arg4)) (V (Proc.devRef .tc main_arg5))) := by
  after_results_simp
  all_goals rfl

/-- The node-attention logits before aggregation: the hidden state contracted with the node-attention weights. -/
theorem read_v224 (V : Valuation τ sig (Elt Ideal)) :
    (after (hostOps12 (F := Ideal)) V (Proc.devRef .tc main_v224) : FVec Ideal S50000x2 .f32)
      = Host.dotGeneral (F := Ideal) (φ₁ := .f32) (φ₂ := .f32) dot_S50000x128_S128x2_S50000x2_1_0_0_1_n_n none
          (V (Proc.devRef .tc main_v190) : FVec Ideal S50000x128 .f32) (V (Proc.devRef .tc main_arg6) : FVec Ideal S128x2 .f32) := by
  after_results_simp
  all_goals rfl

/-- The node attention: the aggregated logits plus their bias, through the softmax over the two columns. -/
theorem read_v284 (W : Valuation τ sig (Elt Ideal)) :
    after (List.drop 42 (hostOps12_2 (F := Ideal))) W (Proc.devRef .tc main_v284)
      = softmax2 reducesTo_S50000x2_S50000_d1 h_S_ bcast_S_S50000 bcast_S50000_S50000x1_0 bcast_S50000x1_S50000x2_0_1
          (addf (W (Proc.devRef .tc main_v270))
            (broadcastInDim S50000x2 ![0, 1] bcast_S1x2_S50000x2_0_1 (broadcastInDim S1x2 ![1] bcast_S2_S1x2_1 (W (Proc.devRef .tc main_arg7))))) := by
  simp only [List.drop_succ_cons, List.drop_zero]
  after_results
  all_goals rfl

/-- The operations after the aggregation write neither the aggregate nor the bias argument. -/
theorem tail42_v270 (W : Valuation τ sig (Elt Ideal)) :
    after (List.drop 42 (hostOps12_2 (F := Ideal))) W (Proc.devRef .tc main_v270) = W (Proc.devRef .tc main_v270) := by
  simp only [List.drop_succ_cons, List.drop_zero]
  after_results
  all_goals rfl
theorem tail42_arg7 (W : Valuation τ sig (Elt Ideal)) :
    after (List.drop 42 (hostOps12_2 (F := Ideal))) W (Proc.devRef .tc main_arg7) = W (Proc.devRef .tc main_arg7) := by
  simp only [List.drop_succ_cons, List.drop_zero]
  after_results
  all_goals rfl

/-- The first branch's input: column 0 of the node attention, along each row, times the hidden state. -/
theorem read_v287 (W : Valuation τ sig (Elt Ideal)) :
    (after (List.drop 59 (hostOps12_2 (F := Ideal))) W (Proc.devRef .tc main_v287) : FVec Ideal S50000x128 .f32)
      = mulf (F := Ideal) (φ := .f32) (broadcastInDim S50000x128 ![0, 1] bcast_S50000x1_S50000x128_0_1
          (extractStridedSlice S50000x1 ![0, 0] (W (Proc.devRef .tc main_v284) : FVec Ideal S50000x2 .f32) slices_S50000x2_S50000x1_0_0))
          (W (Proc.devRef .tc main_v190) : FVec Ideal S50000x128 .f32) := by
  simp only [List.drop_succ_cons, List.drop_zero]
  after_results
  all_goals rfl
theorem tail59_v284 (W : Valuation τ sig (Elt Ideal)) :
    after (List.drop 59 (hostOps12_2 (F := Ideal))) W (Proc.devRef .tc main_v284) = W (Proc.devRef .tc main_v284) := by
  simp only [List.drop_succ_cons, List.drop_zero]
  after_results
  all_goals rfl
theorem tail59_v190 (W : Valuation τ sig (Elt Ideal)) :
    after (List.drop 59 (hostOps12_2 (F := Ideal))) W (Proc.devRef .tc main_v190) = W (Proc.devRef .tc main_v190) := by
  simp only [List.drop_succ_cons, List.drop_zero]
  after_results
  all_goals rfl

/-- The second branch's input: column 1 of the node attention times the hidden state. -/
theorem read_v350 (V : Valuation τ sig (Elt Ideal)) :
    (after (hostOps15 (F := Ideal)) V (Proc.devRef .tc main_v350) : FVec Ideal S50000x128 .f32)
      = mulf (F := Ideal) (φ := .f32) (broadcastInDim S50000x128 ![0, 1] bcast_S50000x1_S50000x128_0_1
          (extractStridedSlice S50000x1 ![0, 1] (V (Proc.devRef .tc main_v284) : FVec Ideal S50000x2 .f32) slices_S50000x2_S50000x1_0_1))
          (V (Proc.devRef .tc main_v190) : FVec Ideal S50000x128 .f32) := by
  after_results
  all_goals rfl

end Cert.StageAtt.K

end
-- ==== Proof.StageAttR.lean ====
/- The reference's attention lines read as functions of the buffers they start from. The reference's operations come
   in windows of about sixty; the hidden state after the last graph layer is written in the middle of one
   window, and the aggregated node-attention logits in the middle of another, so those windows are cut after that
   operation and only the rest is read: the edge attention (one contraction of the concatenated endpoint rows with the
   whole weight table, then the softmax over two logits), the node-attention logits, the node attention (a bias, then
   the row maximum in one window and the rest of the softmax in the next), and the two branch inputs. -/
import proofs.«407945_j8993661518245_1_alg».proof.Proof.RefOps
import proofs.«407945_j8993661518245_1_alg».proof.Proof.StageAttLib
import Idealize.ShloMosaic.Lib.StableHlo.Run

set_option maxRecDepth 4140
set_option maxHeartbeats 4000000

noncomputable section

namespace Cert.StageAtt.R

open Cert.ReferenceIdeal Cert.ReferenceIdeal.Gen Cert.ReferenceIdeal.RefRun Idealize.ShloMosaic Idealize.ShloMosaic.TcCoe
  Idealize.SL.Sem Idealize.ShloMosaic.StableHlo Cert.StageAtt

/-- The edge logits `[h[src] | h[dst]] · W + b`: the two endpoint rows of the hidden state side by side, contracted
    with the whole weight table. -/
def logits (h : FVec Ideal S50000x128 .f32) (src dst : IVec S400000 32) (w : FVec Ideal S256x2 .f32) (b : FVec Ideal S2 .f32) :
    FVec Ideal S400000x2 .f32 :=
  addf (Host.dotGeneral dot_S400000x256_S256x2_S400000x2_1_0_0_1_n_n none
      (concatenate S400000x256 1
        [⟨S400000x128, Host.gather gather_S50000x128_S400000x1_S400000x128_1_0_n_n_0_1_1128 h
            (rowIdx bcast_S_S400000 bcast_S400000_S400000x1_0 50000#32 src)⟩,
         ⟨S400000x128, Host.gather gather_S50000x128_S400000x1_S400000x128_1_0_n_n_0_1_1128 h
            (rowIdx bcast_S_S400000 bcast_S400000_S400000x1_0 50000#32 dst)⟩]
        concatenates_S400000x128_S400000x128_S400000x256_d1) w)
    (broadcastInDim S400000x2 ![0, 1] bcast_S1x2_S400000x2_0_1 (broadcastInDim S1x2 ![1] bcast_S2_S1x2_1 b))

/-! ## The window that writes the hidden state, after that operation -/

/-- The edge attention is the softmax of the edge logits. -/
theorem read_v280 (W : Valuation τ sig (Elt Ideal)) :
    after (List.drop 16 (ops5 (F := Ideal))) W (Proc.devRef .tc main_v280)
      = softmax2 reducesTo_S400000x2_S400000_d1 h_S_ bcast_S_S400000 bcast_S400000_S400000x1_0 bcast_S400000x1_S400000x2_0_1
          (logits (W (Proc.devRef .tc main_v250)) (W (Proc.devRef .tc main_arg24)) (W (Proc.devRef .tc main_arg25))
            (W (Proc.devRef .tc main_arg4)) (W (Proc.devRef .tc main_arg5))) := by
  simp only [List.drop_succ_cons, List.drop_zero]
  after_results
  all_goals rfl

/-- The node-attention logits before aggregation. -/
theorem read_v281 (W : Valuation τ sig (Elt Ideal)) :
    (after (List.drop 16 (ops5 (F := Ideal))) W (Proc.devRef .tc main_v281) : FVec Ideal S50000x2 .f32)
      = Host.dotGeneral (F := Ideal) (φ₁ := .f32) (φ₂ := .f32) dot_S50000x128_S128x2_S50000x2_1_0_0_1_n_n none
          (W (Proc.devRef .tc main_v250) : FVec Ideal S50000x128 .f32) (W (Proc.devRef .tc main_arg6) : FVec Ideal S128x2 .f32) := by
  simp only [List.drop_succ_cons, List.drop_zero]
  after_results
  all_goals rfl

/-- The rest of that window writes neither the hidden state nor an argument. -/
theorem tail16 (W : Valuation τ sig (Elt Ideal)) :
    after (List.drop 16 (ops5 (F := Ideal))) W (Proc.devRef .tc main_v250) = W (Proc.devRef .tc main_v250)
    ∧ after (List.drop 16 (ops5 (F := Ideal))) W (Proc.devRef .tc main_arg24) = W (Proc.devRef .tc main_arg24)
    ∧ after (List.drop 16 (ops5 (F := Ideal))) W (Proc.devRef .tc main_arg25) = W (Proc.devRef .tc main_arg25)
    ∧ after (List.drop 16 (ops5 (F := Ideal))) W (Proc.devRef .tc main_arg4) = W (Proc.devRef .tc main_arg4)
    ∧ after (List.drop 16 (ops5 (F := Ideal))) W (Proc.devRef .tc main_arg5) = W (Proc.devRef .tc main_arg5)
    ∧ after (List.drop 16 (ops5 (F := Ideal))) W (Proc.devRef .tc main_arg6) = W (Proc.devRef .tc main_arg6) := by
  simp only [List.drop_succ_cons, List.drop_zero]
  refine ⟨?_, ?_, ?_, ?_, ?_, ?_⟩ <;> (after_results_simp) <;> rfl

/-! ## The window that writes the aggregated node-attention logits, after that operation -/

/-- The logits plus their bias. -/
theorem read_v330 (W : Valuation τ sig (Elt Ideal)) :
    (after (List.drop 53 (ops6 (F := Ideal))) W (Proc.devRef .tc main_v330) : FVec Ideal S50000x2 .f32)
      = addf (F := Ideal) (φ := .f32) (W (Proc.devRef .tc main_v327) : FVec Ideal S50000x2 .f32)
          (broadcastInDim S50000x2 ![0, 1] bcast_S1x2_S50000x2_0_1
            (broadcastInDim S1x2 ![1] bcast_S2_S1x2_1 (W (Proc.devRef .tc main_arg7) : FVec Ideal S2 .f32))) := by
  simp only [List.drop_succ_cons, List.drop_zero]
  after_results
  all_goals rfl

/-- The row maximum of the biased logits, as a column. -/
theorem read_v334 (W : Valuation τ sig (Elt Ideal)) :
    (after (List.drop 53 (ops6 (F := Ideal))) W (Proc.devRef .tc main_v334) : FVec Ideal S50000x1 .f32)
      = broadcastInDim S50000x1 ![0] bcast_S50000_S50000x1_0
          (rowMax reducesTo_S50000x2_S50000_d1 h_S_ bcast_S_S50000
            (addf (W (Proc.devRef .tc main_v327) : FVec Ideal S50000x2 .f32)
              (broadcastInDim S50000x2 ![0, 1] bcast_S1x2_S50000x2_0_1
                (broadcastInDim S1x2 ![1] bcast_S2_S1x2_1 (W (Proc.devRef .tc main_arg7) : FVec Ideal S2 .f32))))) := by
  simp only [List.drop_succ_cons, List.drop_zero]
  after_results
  all_goals rfl

/-- The rest of that window writes neither the aggregate nor the bias argument. -/
theorem tail53 (W : Valuation τ sig (Elt Ideal)) :
    after (List.drop 53 (ops6 (F := Ideal))) W (Proc.devRef .tc main_v327) = W (Proc.devRef .tc main_v327)
    ∧ after (List.drop 53 (ops6 (F := Ideal))) W (Proc.devRef .tc main_arg7) = W (Proc.devRef .tc main_arg7) := by
  simp only [List.drop_succ_cons, List.drop_zero]
  refine ⟨?_, ?_⟩ <;> (after_results_simp) <;> rfl

/-! ## The next window: the rest of the softmax, then the first branch's input -/

/-- The node attention from the biased logits and their row maximum. -/
theorem read_v341 (V : Valuation τ sig (Elt Ideal)) :
    after (ops7 (F := Ideal)) V (Proc.devRef .tc main_v341)
      = softmaxOf reducesTo_S50000x2_S50000_d1 h_S_ bcast_S50000_S50000x1_0 bcast_S50000x1_S50000x2_0_1
          (V (Proc.devRef .tc main_v330)) (V (Proc.devRef .tc main_v334)) := by
  after_results_simp
  all_goals rfl

/-- The first branch's input: column 0 of the node attention, along each row, times the hidden state. -/
theorem read_v344 (W : Valuation τ sig (Elt Ideal)) :
    (after (List.drop 8 (ops7 (F := Ideal))) W (Proc.devRef .tc main_v344) : FVec Ideal S50000x128 .f32)
      = mulf (F := Ideal) (φ := .f32) (broadcastInDim S50000x128 ![0, 1] bcast_S50000x1_S50000x128_0_1
          (extractStridedSlice S50000x1 ![0, 0] (W (Proc.devRef .tc main_v341) : FVec Ideal S50000x2 .f32) slices_S50000x2_S50000x1_0_0))
          (W (Proc.devRef .tc main_v250) : FVec Ideal S50000x128 .f32) := by
  simp only [List.drop_succ_cons, List.drop_zero]
  after_results_simp
  all_goals rfl

/-- The rest of that window writes neither the node attention nor the hidden state. -/
theorem tail8 (W : Valuation τ sig (Elt Ideal)) :
    after (List.drop 8 (ops7 (F := Ideal))) W (Proc.devRef .tc main_v341) = W (Proc.devRef .tc main_v341)
    ∧ after (List.drop 8 (ops7 (F := Ideal))) W (Proc.devRef .tc main_v250) = W (Proc.devRef .tc main_v250) := by
  simp only [List.drop_succ_cons, List.drop_zero]
  refine ⟨?_, ?_⟩ <;> (after_results_simp) <;> rfl

/-! ## The window after: the second branch's input -/

/-- The second branch's input: column 1 of the node attention times the hidden state. -/
theorem read_v423 (W : Valuation τ sig (Elt Ideal)) :
    (after (List.drop 60 (ops8 (F := Ideal))) W (Proc.devRef .tc main_v423) : FVec Ideal S50000x128 .f32)
      = mulf (F := Ideal) (φ := .f32) (broadcastInDim S50000x128 ![0, 1] bcast_S50000x1_S50000x128_0_1
          (extractStridedSlice S50000x1 ![0, 1] (W (Proc.devRef .tc main_v341) : FVec Ideal S50000x2 .f32) slices_S50000x2_S50000x1_0_1))
          (W (Proc.devRef .tc main_v250) : FVec Ideal S50000x128 .f32) := by
  simp only [List.drop_succ_cons, List.drop_zero]
  after_results
  all_goals rfl

/-- The rest of that window writes neither the node attention nor the hidden state. -/
theorem tail60 (W : Valuation τ sig (Elt Ideal)) :
    after (List.drop 60 (ops8 (F := Ideal))) W (Proc.devRef .tc main_v341) = W (Proc.devRef .tc main_v341)
    ∧ after (List.drop 60 (ops8 (F := Ideal))) W (Proc.devRef .tc main_v250) = W (Proc.devRef .tc main_v250) := by
  simp only [List.drop_succ_cons, List.drop_zero]
  refine ⟨?_, ?_⟩ <;> (after_results_simp) <;> rfl

end Cert.StageAtt.R

end
-- ==== Proof.StageAtt.lean ====
/- The attention block between the last graph layer and the two branches, as implications between boundary predicates.

   * `eatt`: the edge attention. The one place where the two programs compute differently: the kernel contracts the
     source rows with the first 128 weight rows and the target rows with the last 128 and adds the two products, the
     reference contracts the row-wise concatenation [source row | target row] with all 256 weight rows. A sum over
     256 indices splits at 128 whatever its terms, so the two logits are equal at every extended real; the bias and
     the softmax over the two logits are then the same functions of equal arguments.
   * `nat`: the node-attention logits before aggregation, the hidden state contracted with a [128, 2] table: the same
     contraction of equal arguments; a finite sum of products of real numbers is real.
   * `natt`: the node attention, a bias and a softmax over two columns: the same functions of equal arguments; the
     softmax of a table of real numbers is a table of real numbers.
   * `xcin`, `xoin`: column 0 (column 1) of the node attention, repeated along each row, times the hidden state: the
     same functions of equal arguments; a product of real numbers is real. -/
import proofs.«407945_j8993661518245_1_alg».proof.Proof.Iface
import proofs.«407945_j8993661518245_1_alg».proof.Proof.KCarry
import proofs.«407945_j8993661518245_1_alg».proof.Proof.StageAttK
import proofs.«407945_j8993661518245_1_alg».proof.Proof.StageAttR

set_option maxRecDepth 16384

noncomputable section

namespace Cert.StageAtt

open Idealize.ShloMosaic Idealize.SL.Sem Idealize.ShloMosaic.StableHlo Cert.Iface Cert.LibFinite

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel program's final contents, stretch by stretch -/

section Kernel

open Cert.KernelIdeal Cert.KernelIdeal.Gen Cert.KernelIdeal.GenP

/-- The edge attention at the end is the softmax of the edge logits of the final hidden state and arguments. -/
theorem k_v223 : (Kf m ρ c main_v223 : S400000x2.Idx → EReal)
    = softmax2 reducesTo_S400000x2_S400000_d1 h_S_ bcast_S_S400000 bcast_S400000_S400000x1_0 bcast_S400000x1_S400000x2_0_1
        (K.logits (Kf m ρ c main_v190) (Kf m ρ c main_arg24) (Kf m ρ c main_arg25) (Kf m ρ c main_arg4) (Kf m ρ c main_arg5)) := by
  rw [show Kf m ρ c main_v223 = W27 (F := Ideal) m ρ c (Proc.devRef .tc main_v223) from KCarry.carry27 m ρ c main_v223 (by decide),
    show Kf m ρ c main_v190 = W26 (F := Ideal) m ρ c (Proc.devRef .tc main_v190) from KCarry.carry26 m ρ c main_v190 (by decide),
    show Kf m ρ c main_arg24 = W26 (F := Ideal) m ρ c (Proc.devRef .tc main_arg24) from KCarry.carry26 m ρ c main_arg24 (by decide),
    show Kf m ρ c main_arg25 = W26 (F := Ideal) m ρ c (Proc.devRef .tc main_arg25) from KCarry.carry26 m ρ c main_arg25 (by decide),
    show Kf m ρ c main_arg4 = W26 (F := Ideal) m ρ c (Proc.devRef .tc main_arg4) from KCarry.carry26 m ρ c main_arg4 (by decide),
    show Kf m ρ c main_arg5 = W26 (F := Ideal) m ρ c (Proc.devRef .tc main_arg5) from KCarry.carry26 m ρ c main_arg5 (by decide)]
  exact K.read_v223 (W26 (F := Ideal) m ρ c)

/-- The node-attention logits before aggregation at the end. -/
theorem k_v224 : (Kf m ρ c main_v224 : S50000x2.Idx → EReal)
    = Host.dotGeneral (F := Ideal) (φ₁ := .f32) (φ₂ := .f32) dot_S50000x128_S128x2_S50000x2_1_0_0_1_n_n none
        (Kf m ρ c main_v190 : FVec Ideal S50000x128 .f32) (Kf m ρ c main_arg6 : FVec Ideal S128x2 .f32) := by
  rw [show Kf m ρ c main_v224 = W27 (F := Ideal) m ρ c (Proc.devRef .tc main_v224) from KCarry.carry27 m ρ c main_v224 (by decide),
    show Kf m ρ c main_v190 = W26 (F := Ideal) m ρ c (Proc.devRef .tc main_v190) from KCarry.carry26 m ρ c main_v190 (by decide),
    show Kf m ρ c main_arg6 = W26 (F := Ideal) m ρ c (Proc.devRef .tc main_arg6) from KCarry.carry26 m ρ c main_arg6 (by decide)]
  exact K.read_v224 (W26 (F := Ideal) m ρ c)

/-- A buffer no later stretch writes, seen from the middle of the stretch that aggregates the node-attention logits. -/
theorem k_mid (k : Nat) (b : Ref sig .tc) (hb : b ∉ KCarry.wlFrom29) :
    Kf m ρ c b = after (List.drop k (hostOps12_2 (F := Ideal))) (after (List.take k (hostOps12_2 (F := Ideal))) (W28 (F := Ideal) m ρ c))
      (Proc.devRef .tc b) :=
  (KCarry.carry29 m ρ c b hb).trans (congrFun (after_split k (hostOps12_2 (F := Ideal)) (W28 (F := Ideal) m ρ c)) _)

/-- The node attention at the end is the softmax of the final aggregate plus the bias. -/
theorem k_v284 : (Kf m ρ c main_v284 : S50000x2.Idx → EReal)
    = softmax2 reducesTo_S50000x2_S50000_d1 h_S_ bcast_S_S50000 bcast_S50000_S50000x1_0 bcast_S50000x1_S50000x2_0_1
        (addf (Kf m ρ c main_v270)
          (broadcastInDim S50000x2 ![0, 1] bcast_S1x2_S50000x2_0_1 (broadcastInDim S1x2 ![1] bcast_S2_S1x2_1 (Kf m ρ c main_arg7)))) := by
  rw [k_mid m ρ c 42 main_v284 (by decide), k_mid m ρ c 42 main_v270 (by decide), k_mid m ρ c 42 main_arg7 (by decide),
    K.tail42_v270, K.tail42_arg7]
  exact K.read_v284 _

/-- The first branch's input at the end. -/
theorem k_v287 : (Kf m ρ c main_v287 : S50000x128.Idx → EReal)
    = mulf (F := Ideal) (φ := .f32) (broadcastInDim S50000x128 ![0, 1] bcast_S50000x1_S50000x128_0_1
        (extractStridedSlice S50000x1 ![0, 0] (Kf m ρ c main_v284 : FVec Ideal S50000x2 .f32) slices_S50000x2_S50000x1_0_0))
        (Kf m ρ c main_v190 : FVec Ideal S50000x128 .f32) := by
  rw [k_mid m ρ c 59 main_v287 (by decide), k_mid m ρ c 59 main_v284 (by decide), k_mid m ρ c 59 main_v190 (by decide),
    K.tail59_v284, K.tail59_v190]
  exact K.read_v287 _

/-- The second branch's input at the end. -/
theorem k_v350 : (Kf m ρ c main_v350 : S50000x128.Idx → EReal)
    = mulf (F := Ideal) (φ := .f32) (broadcastInDim S50000x128 ![0, 1] bcast_S50000x1_S50000x128_0_1
        (extractStridedSlice S50000x1 ![0, 1] (Kf m ρ c main_v284 : FVec Ideal S50000x2 .f32) slices_S50000x2_S50000x1_0_1))
        (Kf m ρ c main_v190 : FVec Ideal S50000x128 .f32) := by
  rw [show Kf m ρ c main_v350 = W37 (F := Ideal) m ρ c (Proc.devRef .tc main_v350) from KCarry.carry37 m ρ c main_v350 (by decide),
    show Kf m ρ c main_v284 = W36 (F := Ideal) m ρ c (Proc.devRef .tc main_v284) from KCarry.carry36 m ρ c main_v284 (by decide),
    show Kf m ρ c main_v190 = W36 (F := Ideal) m ρ c (Proc.devRef .tc main_v190) from KCarry.carry36 m ρ c main_v190 (by decide)]
  exact K.read_v350 (W36 (F := Ideal) m ρ c)

end Kernel

/-! ## The reference's final contents, window by window -/

section Reference

open Cert.ReferenceIdeal Cert.ReferenceIdeal.Gen Cert.ReferenceIdeal.RefRun

/-- A buffer no later window writes, seen from the middle of the window that writes the hidden state. -/
theorem r_mid5 (b : Ref sig .tc) (hb : b ∉ wlFrom6) :
    Rf m' c b = after (List.drop 16 (ops5 (F := Ideal))) (after (List.take 16 (ops5 (F := Ideal))) (R5 (F := Ideal) m' c)) (Proc.devRef .tc b) :=
  (carry6 m' c b hb).trans (congrFun (after_split 16 (ops5 (F := Ideal)) (R5 (F := Ideal) m' c)) _)

/-- The same from the middle of the window that writes the aggregated node-attention logits. -/
theorem r_mid6 (b : Ref sig .tc) (hb : b ∉ wlFrom7) :
    Rf m' c b = after (List.drop 53 (ops6 (F := Ideal))) (after (List.take 53 (ops6 (F := Ideal))) (R6 (F := Ideal) m' c)) (Proc.devRef .tc b) :=
  (carry7 m' c b hb).trans (congrFun (after_split 53 (ops6 (F := Ideal)) (R6 (F := Ideal) m' c)) _)

/-- The same from the window that writes the node attention, after that operation. -/
theorem r_mid7 (b : Ref sig .tc) (hb : b ∉ wlFrom8) :
    Rf m' c b = after (List.drop 8 (ops7 (F := Ideal))) (after (List.take 8 (ops7 (F := Ideal))) (R7 (F := Ideal) m' c)) (Proc.devRef .tc b) :=
  (carry8 m' c b hb).trans (congrFun (after_split 8 (ops7 (F := Ideal)) (R7 (F := Ideal) m' c)) _)

/-- The same from the last operations of the window after. -/
theorem r_mid8 (b : Ref sig .tc) (hb : b ∉ wlFrom9) :
    Rf m' c b = after (List.drop 60 (ops8 (F := Ideal))) (after (List.take 60 (ops8 (F := Ideal))) (R8 (F := Ideal) m' c)) (Proc.devRef .tc b) :=
  (carry9 m' c b hb).trans (congrFun (after_split 60 (ops8 (F := Ideal)) (R8 (F := Ideal) m' c)) _)

/-- The edge attention at the end is the softmax of the edge logits of the final hidden state and arguments. -/
theorem r_v280 : (Rf m' c main_v280 : S400000x2.Idx → EReal)
    = softmax2 reducesTo_S400000x2_S400000_d1 h_S_ bcast_S_S400000 bcast_S400000_S400000x1_0 bcast_S400000x1_S400000x2_0_1
        (R.logits (Rf m' c main_v250) (Rf m' c main_arg24) (Rf m' c main_arg25) (Rf m' c main_arg4) (Rf m' c main_arg5)) := by
  rw [r_mid5 m' c main_v280 (by decide), r_mid5 m' c main_v250 (by decide), r_mid5 m' c main_arg24 (by decide),
    r_mid5 m' c main_arg25 (by decide), r_mid5 m' c main_arg4 (by decide), r_mid5 m' c main_arg5 (by decide),
    (R.tail16 _).1, (R.tail16 _).2.1, (R.tail16 _).2.2.1, (R.tail16 _).2.2.2.1, (R.tail16 _).2.2.2.2.1]
  exact R.read_v280 _

/-- The node-attention logits before aggregation at the end. -/
theorem r_v281 : (Rf m' c main_v281 : S50000x2.Idx → EReal)
    = Host.dotGeneral (F := Ideal) (φ₁ := .f32) (φ₂ := .f32) dot_S50000x128_S128x2_S50000x2_1_0_0_1_n_n none
        (Rf m' c main_v250 : FVec Ideal S50000x128 .f32) (Rf m' c main_arg6 : FVec Ideal S128x2 .f32) := by
  rw [r_mid5 m' c main_v281 (by decide), r_mid5 m' c main_v250 (by decide), r_mid5 m' c main_arg6 (by decide),
    (R.tail16 _).1, (R.tail16 _).2.2.2.2.2]
  exact R.read_v281 _

/-- The node attention at the end is the softmax of the final aggregate plus the bias. -/
theorem r_v341 : (Rf m' c main_v341 : S50000x2.Idx → EReal)
    = softmax2 reducesTo_S50000x2_S50000_d1 h_S_ bcast_S_S50000 bcast_S50000_S50000x1_0 bcast_S50000x1_S50000x2_0_1
        (addf (Rf m' c main_v327)
          (broadcastInDim S50000x2 ![0, 1] bcast_S1x2_S50000x2_0_1 (broadcastInDim S1x2 ![1] bcast_S2_S1x2_1 (Rf m' c main_arg7)))) := by
  have e : (Rf m' c main_v341 : S50000x2.Idx → EReal)
      = softmaxOf reducesTo_S50000x2_S50000_d1 h_S_ bcast_S50000_S50000x1_0 bcast_S50000x1_S50000x2_0_1
          (Rf m' c main_v330) (Rf m' c main_v334) := by
    rw [show Rf m' c main_v341 = R8 (F := Ideal) m' c (Proc.devRef .tc main_v341) from carry8 m' c main_v341 (by decide),
      show Rf m' c main_v330 = R7 (F := Ideal) m' c (Proc.devRef .tc main_v330) from carry7 m' c main_v330 (by decide),
      show Rf m' c main_v334 = R7 (F := Ideal) m' c (Proc.devRef .tc main_v334) from carry7 m' c main_v334 (by decide)]
    exact R.read_v341 (R7 (F := Ideal) m' c)
  rw [e, r_mid6 m' c main_v330 (by decide), r_mid6 m' c main_v334 (by decide), r_mid6 m' c main_v327 (by decide),
    r_mid6 m' c main_arg7 (by decide), R.read_v330, R.read_v334, (R.tail53 _).1, (R.tail53 _).2]
  exact softmaxOf_rowMax _ _ _ _ _ _

/-- The first branch's input at the end. -/
theorem r_v344 : (Rf m' c main_v344 : S50000x128.Idx → EReal)
    = mulf (F := Ideal) (φ := .f32) (broadcastInDim S50000x128 ![0, 1] bcast_S50000x1_S50000x128_0_1
        (extractStridedSlice S50000x1 ![0, 0] (Rf m' c main_v341 : FVec Ideal S50000x2 .f32) slices_S50000x2_S50000x1_0_0))
        (Rf m' c main_v250 : FVec Ideal S50000x128 .f32) := by
  rw [r_mid7 m' c main_v344 (by decide), r_mid7 m' c main_v341 (by decide), r_mid7 m' c main_v250 (by decide),
    (R.tail8 _).1, (R.tail8 _).2]
  exact R.read_v344 _

/-- The second branch's input at the end. -/
theorem r_v423 : (Rf m' c main_v423 : S50000x128.Idx → EReal)
    = mulf (F := Ideal) (φ := .f32) (broadcastInDim S50000x128 ![0, 1] bcast_S50000x1_S50000x128_0_1
        (extractStridedSlice S50000x1 ![0, 1] (Rf m' c main_v341 : FVec Ideal S50000x2 .f32) slices_S50000x2_S50000x1_0_1))
        (Rf m' c main_v250 : FVec Ideal S50000x128 .f32) := by
  rw [r_mid8 m' c main_v423 (by decide), r_mid8 m' c main_v341 (by decide), r_mid8 m' c main_v250 (by decide),
    (R.tail60 _).1, (R.tail60 _).2]
  exact R.read_v423 _

end Reference

/-! ## The two spellings of the edge logits agree -/

/-- `h[src] · W[0:128] + h[dst] · W[128:256] + b = [h[src] | h[dst]] · W + b`, at every extended real. -/
theorem logits_eq (X : FVec Ideal Cert.KernelIdeal.S50000x128 .f32) (A B : IVec Cert.KernelIdeal.S400000 32)
    (Wt : FVec Ideal Cert.KernelIdeal.S256x2 .f32) (E : FVec Ideal Cert.KernelIdeal.S2 .f32) :
    K.logits X A B Wt E = R.logits X A B Wt E := by
  unfold K.logits R.logits
  rw [dot_concat_split Cert.KernelIdeal.dot_S400000x128_S128x2_S400000x2_1_0_0_1_n_n rfl rfl rfl rfl rfl rfl
    Cert.ReferenceIdeal.dot_S400000x256_S256x2_S400000x2_1_0_0_1_n_n rfl rfl rfl rfl rfl rfl
    Cert.ReferenceIdeal.Gen.concatenates_S400000x128_S400000x128_S400000x256_d1
    Cert.KernelIdeal.Gen.slices_S256x2_S128x2_0_0 Cert.KernelIdeal.Gen.slices_S256x2_S128x2_128_0]
  rfl

/-! ## The implications -/

/-- The edge attention: the hidden state and the edge lists, weights and bias agree, so the attention tables do. -/
theorem eatt (h : H3 m ρ m' c)
    (hs : (Kf m ρ c Cert.KernelIdeal.main_arg24 : Cert.KernelIdeal.S400000.Idx → BitVec 32) = Rf m' c Cert.ReferenceIdeal.main_arg24)
    (hd : (Kf m ρ c Cert.KernelIdeal.main_arg25 : Cert.KernelIdeal.S400000.Idx → BitVec 32) = Rf m' c Cert.ReferenceIdeal.main_arg25)
    (hw : (Kf m ρ c Cert.KernelIdeal.main_arg4 : Cert.KernelIdeal.S256x2.Idx → EReal) = Rf m' c Cert.ReferenceIdeal.main_arg4)
    (hb : (Kf m ρ c Cert.KernelIdeal.main_arg5 : Cert.KernelIdeal.S2.Idx → EReal) = Rf m' c Cert.ReferenceIdeal.main_arg5) :
    EAtt m ρ m' c := by
  show (Kf m ρ c Cert.KernelIdeal.main_v223 : Cert.KernelIdeal.S400000x2.Idx → EReal) = Rf m' c Cert.ReferenceIdeal.main_v280
  rw [k_v223, r_v280, h.1, hs, hd, hw, hb, logits_eq]
  all_goals rfl

/-- The node-attention logits before aggregation: equal, and real when the hidden state and the weights are. -/
theorem nat (h : H3 m ρ m' c)
    (hw : (Kf m ρ c Cert.KernelIdeal.main_arg6 : Cert.KernelIdeal.S128x2.Idx → EReal) = Rf m' c Cert.ReferenceIdeal.main_arg6)
    (hwf : AllFin (Kf m ρ c Cert.KernelIdeal.main_arg6 : Cert.KernelIdeal.S128x2.Idx → EReal)) :
    NaT m ρ m' c := by
  refine ⟨?_, ?_⟩
  · rw [k_v224, r_v281, h.1, hw]
    all_goals rfl
  · rw [k_v224]
    exact dotGeneral_fin _ _ _ h.2 hwf

/-- The node attention: equal, and real when the aggregated logits and the bias are. -/
theorem natt (h : AggNa m ρ m' c)
    (hb : (Kf m ρ c Cert.KernelIdeal.main_arg7 : Cert.KernelIdeal.S2.Idx → EReal) = Rf m' c Cert.ReferenceIdeal.main_arg7)
    (hbf : AllFin (Kf m ρ c Cert.KernelIdeal.main_arg7 : Cert.KernelIdeal.S2.Idx → EReal)) :
    NAtt m ρ m' c := by
  refine ⟨?_, ?_⟩
  · rw [k_v284, r_v341, h.1, hb]
    all_goals rfl
  · rw [k_v284]
    exact softmax2_fin _ _ _ _ _ _ (add_row_fin _ _ _ _ _ _ h.2 hbf)

/-- The first branch's input: equal, and real when the node attention and the hidden state are. -/
theorem xcin (h3 : H3 m ρ m' c) (ha : NAtt m ρ m' c) : XcIn m ρ m' c := by
  refine ⟨?_, ?_⟩
  · rw [k_v287, r_v344, ha.1, h3.1]
    all_goals rfl
  · rw [k_v287]
    exact mul_col_fin _ _ _ _ _ _ ha.2 h3.2

/-- The second branch's input likewise, from column 1. -/
theorem xoin (h3 : H3 m ρ m' c) (ha : NAtt m ρ m' c) : XoIn m ρ m' c := by
  refine ⟨?_, ?_⟩
  · rw [k_v350, r_v423, ha.1, h3.1]
    all_goals rfl
  · rw [k_v350]
    exact mul_col_fin _ _ _ _ _ _ ha.2 h3.2

end Cert.StageAtt

end
-- ==== Proof.HeadsSplit.lean ====
/- A line of host operations read in two parts. The device's buffer contents after a whole line are the contents after
   the line's tail, run from what its head left; so a buffer that the tail does not write holds at the end what the head
   left there, and a buffer written in the middle of a line can be named as an input of the operations after it.
   Also here: the one rewriting pass that reads buffers out of a line, and the two ways an equality between the two
   programs' buffers is moved between the end of the run and an earlier point of it. -/
import Idealize.ShloMosaic.Lib.StableHlo.Run
import Idealize.ShloMosaic.Lib.Pipeline.Frame

namespace Cert.StageHeads

open Idealize.ShloMosaic Idealize.SL.Sem Idealize.ShloMosaic.StableHlo

section
variable {τ : Topo} {sig : RefSig} {Val : EltTy → Type}

/-- A line run from contents `V` is its last operations run from what its first `k` operations left. -/
theorem after_take_drop (ops : List (HloOp τ sig Val)) (k : Nat) (V : Valuation τ sig Val) :
    after ops V = after (ops.drop k) (after (ops.take k) V) := by
  rw [← StableHlo.after_append, List.take_append_drop]
end

/-- Reads buffers out of a line of operations written out as a list (the part of a list after its first `k` entries
    included): an operation's result at its own buffer is its function of its operands' contents, and at any other
    buffer it is what was there before the operation. -/
macro "read_results" loc:(Lean.Parser.Tactic.location)? : tactic =>
  `(tactic| simp (disch := decide) only [after_cons, after_nil, List.drop_succ_cons, List.drop_zero,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] $[$loc]?)

/-- An equality of two final buffers, each of which already held its final contents at an earlier point of its
    program, is an equality of the contents at those earlier points. -/
theorem pull {α : Sort _} {a a' b b' : α} (h : a = b) (ha : a = a') (hb : b = b') : a' = b' :=
  ha ▸ hb ▸ h

/-- An equality of two buffers at earlier points of the two programs, neither buffer written afterwards, is an
    equality of the final buffers. -/
theorem push {α : Sort _} {a a' b b' : α} (h : a' = b') (ha : a = a') (hb : b = b') : a = b :=
  ha.trans (h.trans hb.symm)

end Cert.StageHeads
-- ==== Proof.HeadsC.lean ====
/- The first classification head, as one equation between the two programs' lines of host operations: the kernel
   program's last stretches and the reference's windows apply the same operations to the pooled first-branch features. -/
import proofs.«407945_j8993661518245_1_alg».proof.Proof.Gen.KernelIdeal.Launch
import proofs.«407945_j8993661518245_1_alg».proof.Proof.RefOps
import proofs.«407945_j8993661518245_1_alg».proof.Proof.HeadsSplit

noncomputable section

namespace Cert.StageHeads

open Idealize.ShloMosaic Idealize.SL.Sem Idealize.ShloMosaic.StableHlo

set_option maxRecDepth 4096

variable {F : FTy → Type} [FloatOps F]

set_option maxHeartbeats 0 in
/-- The first head. From the pooled first-branch features `x` (512 graphs by 128 channels) both programs compute
    `log_softmax (n (relu (n x · W₁ + b₁)) · W₂ + b₂)`, where `n` subtracts each column's mean over the 512 rows, multiplies by the
    reciprocal root of (that column's mean squared deviation over the 512 rows plus a constant), then adds a constant: the same operations in
    the same order. With `x` and the four weight arrays equal, the two results are one term. The reference's line
    also holds operations of the second branch before these; they are set aside first. -/
theorem res0_stage (V : Valuation Cert.KernelIdeal.τ Cert.KernelIdeal.sig (Elt F)) (V10 : Valuation Cert.ReferenceIdeal.τ Cert.ReferenceIdeal.sig (Elt F))
    (hx : (V (Proc.devRef .tc Cert.KernelIdeal.main_v347) : (⟨Cert.KernelIdeal.S512x128, .f32⟩ : BufTy).Contents (Elt F)) = after Cert.ReferenceIdeal.RefRun.ops10 V10 (Proc.devRef .tc Cert.ReferenceIdeal.main_v420))
    (h12 : (V (Proc.devRef .tc Cert.KernelIdeal.main_arg12) : (⟨Cert.KernelIdeal.S128x128, .f32⟩ : BufTy).Contents (Elt F)) = after Cert.ReferenceIdeal.RefRun.ops10 V10 (Proc.devRef .tc Cert.ReferenceIdeal.main_arg12))
    (h13 : (V (Proc.devRef .tc Cert.KernelIdeal.main_arg13) : (⟨Cert.KernelIdeal.S128, .f32⟩ : BufTy).Contents (Elt F)) = after Cert.ReferenceIdeal.RefRun.ops10 V10 (Proc.devRef .tc Cert.ReferenceIdeal.main_arg13))
    (h14 : (V (Proc.devRef .tc Cert.KernelIdeal.main_arg14) : (⟨Cert.KernelIdeal.S128x10, .f32⟩ : BufTy).Contents (Elt F)) = after Cert.ReferenceIdeal.RefRun.ops10 V10 (Proc.devRef .tc Cert.ReferenceIdeal.main_arg14))
    (h15 : (V (Proc.devRef .tc Cert.KernelIdeal.main_arg15) : (⟨Cert.KernelIdeal.S10, .f32⟩ : BufTy).Contents (Elt F)) = after Cert.ReferenceIdeal.RefRun.ops10 V10 (Proc.devRef .tc Cert.ReferenceIdeal.main_arg15)) :
    (after Cert.KernelIdeal.Gen.hostOps18_3 (after Cert.KernelIdeal.Gen.hostOps18_2 (after Cert.KernelIdeal.Gen.hostOps18_1 (after Cert.KernelIdeal.Gen.hostOps18 V))) (Proc.devRef .tc Cert.KernelIdeal.main_v462) : (⟨Cert.KernelIdeal.S512x10, .f32⟩ : BufTy).Contents (Elt F))
      = after Cert.ReferenceIdeal.RefRun.ops11 (after Cert.ReferenceIdeal.RefRun.ops10 V10) (Proc.devRef .tc Cert.ReferenceIdeal.main_v551) := by
  rw [after_take_drop Cert.ReferenceIdeal.RefRun.ops10 38 V10] at hx h12 h13 h14 h15 ⊢
  generalize after (List.take 38 Cert.ReferenceIdeal.RefRun.ops10) V10 = W at hx h12 h13 h14 h15 ⊢
  read_results at hx h12 h13 h14 h15 ⊢
  rw [hx, h12, h13, h14, h15]
  rfl

end Cert.StageHeads

end
-- ==== Proof.HeadsO.lean ====
/- The second classification head, as one equation between the two programs' lines of host operations. -/
import proofs.«407945_j8993661518245_1_alg».proof.Proof.Gen.KernelIdeal.Launch
import proofs.«407945_j8993661518245_1_alg».proof.Proof.RefOps
import proofs.«407945_j8993661518245_1_alg».proof.Proof.HeadsSplit

noncomputable section

namespace Cert.StageHeads

open Idealize.ShloMosaic Idealize.SL.Sem Idealize.ShloMosaic.StableHlo

set_option maxRecDepth 4096

variable {F : FTy → Type} [FloatOps F]

set_option maxHeartbeats 0 in
/-- The second head: on the pooled second-branch features and with its own four weight arrays, the first head's
    sequence of operations (normalize the columns, weight and bias, `relu`, normalize, weight and bias, `log_softmax`). With those five inputs equal the two results are one term. The reference's line also holds the end
    of the first head before these operations; it is set aside first. -/
theorem res1_stage (V : Valuation Cert.KernelIdeal.τ Cert.KernelIdeal.sig (Elt F)) (V11 : Valuation Cert.ReferenceIdeal.τ Cert.ReferenceIdeal.sig (Elt F))
    (hx : (V (Proc.devRef .tc Cert.KernelIdeal.main_v410) : (⟨Cert.KernelIdeal.S512x128, .f32⟩ : BufTy).Contents (Elt F)) = after Cert.ReferenceIdeal.RefRun.ops11 V11 (Proc.devRef .tc Cert.ReferenceIdeal.main_v499))
    (h16 : (V (Proc.devRef .tc Cert.KernelIdeal.main_arg16) : (⟨Cert.KernelIdeal.S128x128, .f32⟩ : BufTy).Contents (Elt F)) = after Cert.ReferenceIdeal.RefRun.ops11 V11 (Proc.devRef .tc Cert.ReferenceIdeal.main_arg16))
    (h17 : (V (Proc.devRef .tc Cert.KernelIdeal.main_arg17) : (⟨Cert.KernelIdeal.S128, .f32⟩ : BufTy).Contents (Elt F)) = after Cert.ReferenceIdeal.RefRun.ops11 V11 (Proc.devRef .tc Cert.ReferenceIdeal.main_arg17))
    (h18 : (V (Proc.devRef .tc Cert.KernelIdeal.main_arg18) : (⟨Cert.KernelIdeal.S128x10, .f32⟩ : BufTy).Contents (Elt F)) = after Cert.ReferenceIdeal.RefRun.ops11 V11 (Proc.devRef .tc Cert.ReferenceIdeal.main_arg18))
    (h19 : (V (Proc.devRef .tc Cert.KernelIdeal.main_arg19) : (⟨Cert.KernelIdeal.S10, .f32⟩ : BufTy).Contents (Elt F)) = after Cert.ReferenceIdeal.RefRun.ops11 V11 (Proc.devRef .tc Cert.ReferenceIdeal.main_arg19)) :
    (after Cert.KernelIdeal.Gen.hostOps18_7 (after Cert.KernelIdeal.Gen.hostOps18_6 (after Cert.KernelIdeal.Gen.hostOps18_5 (after Cert.KernelIdeal.Gen.hostOps18_4 V))) (Proc.devRef .tc Cert.KernelIdeal.main_v514) : (⟨Cert.KernelIdeal.S512x10, .f32⟩ : BufTy).Contents (Elt F))
      = after Cert.ReferenceIdeal.RefRun.ops12 (after Cert.ReferenceIdeal.RefRun.ops11 V11) (Proc.devRef .tc Cert.ReferenceIdeal.main_v603) := by
  rw [after_take_drop Cert.ReferenceIdeal.RefRun.ops11 42 V11] at hx h16 h17 h18 h19 ⊢
  generalize after (List.take 42 Cert.ReferenceIdeal.RefRun.ops11) V11 = W at hx h16 h17 h18 h19 ⊢
  read_results at hx h16 h17 h18 h19 ⊢
  rw [hx, h16, h17, h18, h19]
  rfl

end Cert.StageHeads

end
-- ==== Proof.HeadsCO.lean ====
/- The two poolings per graph and the third classification head, as equations between the two programs' lines of host
   operations. Everything is the same text in both programs except the third head's two activations, which the two
   programs spell differently; there the lines are read at an entry and the two spellings compared as functions of one
   extended real. -/
import proofs.«407945_j8993661518245_1_alg».proof.Proof.Gen.KernelIdeal.Launch
import proofs.«407945_j8993661518245_1_alg».proof.Proof.RefOps
import proofs.«407945_j8993661518245_1_alg».proof.Proof.HeadsSplit
import proofs.«407945_j8993661518245_1_alg».proof.Proof.LibElu

noncomputable section

namespace Cert.StageHeads

open Idealize.ShloMosaic Idealize.SL.Sem Idealize.ShloMosaic.StableHlo

set_option maxRecDepth 4096

section shared
variable {F : FTy → Type} [FloatOps F]

/-- Pooling the first branch's node features per graph: a zero array of 512 by 128, into which every node's row is
    added at the row its graph number names. Both programs write the same operations (the zero array, the graph numbers as a column, the scattered sum); with the node features
    and the graph numbers equal the results are one term. In the reference's line the node features are themselves
    written earlier in the same line: the line is read from just after them. -/
theorem xc_stage (V : Valuation Cert.KernelIdeal.τ Cert.KernelIdeal.sig (Elt F)) (V8 : Valuation Cert.ReferenceIdeal.τ Cert.ReferenceIdeal.sig (Elt F))
    (hx : (V (Proc.devRef .tc Cert.KernelIdeal.main_v344) : (⟨Cert.KernelIdeal.S50000x128, .f32⟩ : BufTy).Contents (Elt F)) = after Cert.ReferenceIdeal.RefRun.ops8 V8 (Proc.devRef .tc Cert.ReferenceIdeal.main_v417))
    (hb : (V (Proc.devRef .tc Cert.KernelIdeal.main_arg26) : (⟨Cert.KernelIdeal.S50000, .i32⟩ : BufTy).Contents (Elt F)) = after Cert.ReferenceIdeal.RefRun.ops8 V8 (Proc.devRef .tc Cert.ReferenceIdeal.main_arg26)) :
    (after Cert.KernelIdeal.Gen.hostOps15 V (Proc.devRef .tc Cert.KernelIdeal.main_v347) : (⟨Cert.KernelIdeal.S512x128, .f32⟩ : BufTy).Contents (Elt F))
      = after Cert.ReferenceIdeal.RefRun.ops8 V8 (Proc.devRef .tc Cert.ReferenceIdeal.main_v420) := by
  rw [after_take_drop Cert.ReferenceIdeal.RefRun.ops8 56 V8] at hx hb ⊢
  generalize after (List.take 56 Cert.ReferenceIdeal.RefRun.ops8) V8 = W at hx hb ⊢
  read_results at hx hb ⊢
  rw [hx, hb]
  rfl

/-- Pooling the second branch's node features per graph: the same operations. -/
theorem xo_stage (V : Valuation Cert.KernelIdeal.τ Cert.KernelIdeal.sig (Elt F)) (V10 : Valuation Cert.ReferenceIdeal.τ Cert.ReferenceIdeal.sig (Elt F))
    (hx : (V (Proc.devRef .tc Cert.KernelIdeal.main_v407) : (⟨Cert.KernelIdeal.S50000x128, .f32⟩ : BufTy).Contents (Elt F)) = after Cert.ReferenceIdeal.RefRun.ops10 V10 (Proc.devRef .tc Cert.ReferenceIdeal.main_v496))
    (hb : (V (Proc.devRef .tc Cert.KernelIdeal.main_arg26) : (⟨Cert.KernelIdeal.S50000, .i32⟩ : BufTy).Contents (Elt F)) = after Cert.ReferenceIdeal.RefRun.ops10 V10 (Proc.devRef .tc Cert.ReferenceIdeal.main_arg26)) :
    (after Cert.KernelIdeal.Gen.hostOps18 V (Proc.devRef .tc Cert.KernelIdeal.main_v410) : (⟨Cert.KernelIdeal.S512x128, .f32⟩ : BufTy).Contents (Elt F))
      = after Cert.ReferenceIdeal.RefRun.ops10 V10 (Proc.devRef .tc Cert.ReferenceIdeal.main_v499) := by
  rw [after_take_drop Cert.ReferenceIdeal.RefRun.ops10 34 V10] at hx hb ⊢
  generalize after (List.take 34 Cert.ReferenceIdeal.RefRun.ops10) V10 = W at hx hb ⊢
  read_results at hx hb ⊢
  rw [hx, hb]
  rfl

set_option maxHeartbeats 0 in
/-- The third head up to its first activation: the two pooled arrays side by side (512 by 256), each column
    normalized over the 512 rows as in the other heads, times a 256 by 128 weight array plus a bias row. The same operations in both
    programs; with the two pooled arrays and the two weight arrays equal the results are one term. -/
theorem res2a_stage (V : Valuation Cert.KernelIdeal.τ Cert.KernelIdeal.sig (Elt F)) (V12 : Valuation Cert.ReferenceIdeal.τ Cert.ReferenceIdeal.sig (Elt F))
    (hc : (V (Proc.devRef .tc Cert.KernelIdeal.main_v347) : (⟨Cert.KernelIdeal.S512x128, .f32⟩ : BufTy).Contents (Elt F)) = after Cert.ReferenceIdeal.RefRun.ops12 V12 (Proc.devRef .tc Cert.ReferenceIdeal.main_v420))
    (ho : (V (Proc.devRef .tc Cert.KernelIdeal.main_v410) : (⟨Cert.KernelIdeal.S512x128, .f32⟩ : BufTy).Contents (Elt F)) = after Cert.ReferenceIdeal.RefRun.ops12 V12 (Proc.devRef .tc Cert.ReferenceIdeal.main_v499))
    (h20 : (V (Proc.devRef .tc Cert.KernelIdeal.main_arg20) : (⟨Cert.KernelIdeal.S256x128, .f32⟩ : BufTy).Contents (Elt F)) = after Cert.ReferenceIdeal.RefRun.ops12 V12 (Proc.devRef .tc Cert.ReferenceIdeal.main_arg20))
    (h21 : (V (Proc.devRef .tc Cert.KernelIdeal.main_arg21) : (⟨Cert.KernelIdeal.S128, .f32⟩ : BufTy).Contents (Elt F)) = after Cert.ReferenceIdeal.RefRun.ops12 V12 (Proc.devRef .tc Cert.ReferenceIdeal.main_arg21)) :
    (after Cert.KernelIdeal.Gen.hostOps18_8 V (Proc.devRef .tc Cert.KernelIdeal.main_v540) : (⟨Cert.KernelIdeal.S512x128, .f32⟩ : BufTy).Contents (Elt F))
      = after Cert.ReferenceIdeal.RefRun.ops13 (after Cert.ReferenceIdeal.RefRun.ops12 V12) (Proc.devRef .tc Cert.ReferenceIdeal.main_v629) := by
  rw [after_take_drop Cert.ReferenceIdeal.RefRun.ops12 46 V12] at hc ho h20 h21 ⊢
  generalize after (List.take 46 Cert.ReferenceIdeal.RefRun.ops12) V12 = W at hc ho h20 h21 ⊢
  read_results at hc ho h20 h21 ⊢
  rw [hc, ho, h20, h21]
  rfl

set_option maxHeartbeats 0 in
/-- The third head after its second activation: normalize each column over the 512 rows, times a 128 by 10 weight
    array plus a bias row, then `log_softmax` along each row. The same operations in both programs. -/
theorem res2c_stage (V : Valuation Cert.KernelIdeal.τ Cert.KernelIdeal.sig (Elt F)) (V13 : Valuation Cert.ReferenceIdeal.τ Cert.ReferenceIdeal.sig (Elt F))
    (hx : (V (Proc.devRef .tc Cert.KernelIdeal.main_v552) : (⟨Cert.KernelIdeal.S512x128, .f32⟩ : BufTy).Contents (Elt F)) = after Cert.ReferenceIdeal.RefRun.ops13 V13 (Proc.devRef .tc Cert.ReferenceIdeal.main_v631))
    (h22 : (V (Proc.devRef .tc Cert.KernelIdeal.main_arg22) : (⟨Cert.KernelIdeal.S128x10, .f32⟩ : BufTy).Contents (Elt F)) = after Cert.ReferenceIdeal.RefRun.ops13 V13 (Proc.devRef .tc Cert.ReferenceIdeal.main_arg22))
    (h23 : (V (Proc.devRef .tc Cert.KernelIdeal.main_arg23) : (⟨Cert.KernelIdeal.S10, .f32⟩ : BufTy).Contents (Elt F)) = after Cert.ReferenceIdeal.RefRun.ops13 V13 (Proc.devRef .tc Cert.ReferenceIdeal.main_arg23)) :
    (after Cert.KernelIdeal.Gen.hostOps18_13 (after Cert.KernelIdeal.Gen.hostOps18_12 V) (Proc.devRef .tc Cert.KernelIdeal.main_v578) : (⟨Cert.KernelIdeal.S512x10, .f32⟩ : BufTy).Contents (Elt F))
      = after Cert.ReferenceIdeal.RefRun.ops13 V13 (Proc.devRef .tc Cert.ReferenceIdeal.main_v657) := by
  rw [after_take_drop Cert.ReferenceIdeal.RefRun.ops13 34 V13] at hx h22 h23 ⊢
  generalize after (List.take 34 Cert.ReferenceIdeal.RefRun.ops13) V13 = W at hx h22 h23 ⊢
  read_results at hx h22 h23 ⊢
  rw [hx, h22, h23]
  rfl

end shared

section activation

/-- The third head's first activation, the one place where the two programs' texts differ. At each entry `v` one
    program takes `v` where `0 < v` and `e^v − 1` elsewhere; the other takes `v` where `0 < v` and
    `1 · expm1 (0 where 0 < v, else v)` elsewhere. These are one function of `v` on the extended reals, so equal
    arguments give equal results. Both arguments are written earlier in the lines read here: each line is read from
    just after its argument. -/
theorem elu1_stage (V : Valuation Cert.KernelIdeal.τ Cert.KernelIdeal.sig (Elt Ideal)) (V13 : Valuation Cert.ReferenceIdeal.τ Cert.ReferenceIdeal.sig (Elt Ideal))
    (hx : (after Cert.KernelIdeal.Gen.hostOps18_8 V (Proc.devRef .tc Cert.KernelIdeal.main_v540) : (⟨Cert.KernelIdeal.S512x128, .f32⟩ : BufTy).Contents (Elt Ideal)) = after Cert.ReferenceIdeal.RefRun.ops13 V13 (Proc.devRef .tc Cert.ReferenceIdeal.main_v629)) :
    (after Cert.KernelIdeal.Gen.hostOps18_9 (after Cert.KernelIdeal.Gen.hostOps18_8 V) (Proc.devRef .tc Cert.KernelIdeal.main_v546) : (⟨Cert.KernelIdeal.S512x128, .f32⟩ : BufTy).Contents (Elt Ideal))
      = after Cert.ReferenceIdeal.RefRun.ops13 V13 (Proc.devRef .tc Cert.ReferenceIdeal.main_v630) := by
  rw [after_take_drop Cert.KernelIdeal.Gen.hostOps18_8 32 V, after_take_drop Cert.ReferenceIdeal.RefRun.ops13 4 V13] at hx ⊢
  generalize after (List.take 32 Cert.KernelIdeal.Gen.hostOps18_8) V = Wk at hx ⊢
  generalize after (List.take 4 Cert.ReferenceIdeal.RefRun.ops13) V13 = Wr at hx ⊢
  read_results at hx ⊢
  rw [hx]
  funext i
  exact Cert.LibElu.term_eq _

/-- The third head's second activation: the same two spellings, applied to the first activation's result. -/
theorem elu2_stage (V : Valuation Cert.KernelIdeal.τ Cert.KernelIdeal.sig (Elt Ideal)) (V13 : Valuation Cert.ReferenceIdeal.τ Cert.ReferenceIdeal.sig (Elt Ideal))
    (hx : (V (Proc.devRef .tc Cert.KernelIdeal.main_v546) : (⟨Cert.KernelIdeal.S512x128, .f32⟩ : BufTy).Contents (Elt Ideal)) = after Cert.ReferenceIdeal.RefRun.ops13 V13 (Proc.devRef .tc Cert.ReferenceIdeal.main_v630)) :
    (after Cert.KernelIdeal.Gen.hostOps18_11 (after Cert.KernelIdeal.Gen.hostOps18_10 V) (Proc.devRef .tc Cert.KernelIdeal.main_v552) : (⟨Cert.KernelIdeal.S512x128, .f32⟩ : BufTy).Contents (Elt Ideal))
      = after Cert.ReferenceIdeal.RefRun.ops13 V13 (Proc.devRef .tc Cert.ReferenceIdeal.main_v631) := by
  rw [after_take_drop Cert.ReferenceIdeal.RefRun.ops13 19 V13] at hx ⊢
  generalize after (List.take 19 Cert.ReferenceIdeal.RefRun.ops13) V13 = Wr at hx ⊢
  read_results at hx ⊢
  rw [hx]
  funext i
  exact Cert.LibElu.term_eq _

end activation

end Cert.StageHeads

end
-- ==== Proof.StageHeads.lean ====
/- Everything after the two branches' node features: the pooling of each branch per graph and the three classification
   heads. All of it is host operations in both programs, and the same operations in the same order, except that the
   third head's two activations are spelled differently (one function of an extended real, two spellings). Each theorem
   takes the equality of the arrays going in — a boundary predicate, and the weight arrays as the two programs hold
   them at the end — and gives the boundary predicate of the array coming out. An array is read where its writer left
   it: a buffer is written once, so it holds its final contents from that point on, and the equalities are moved
   between the end of the two runs and those points. No finiteness is needed here. -/
import proofs.«407945_j8993661518245_1_alg».proof.Proof.Iface
import proofs.«407945_j8993661518245_1_alg».proof.Proof.KCarry
import proofs.«407945_j8993661518245_1_alg».proof.Proof.HeadsSplit
import proofs.«407945_j8993661518245_1_alg».proof.Proof.HeadsC
import proofs.«407945_j8993661518245_1_alg».proof.Proof.HeadsO
import proofs.«407945_j8993661518245_1_alg».proof.Proof.HeadsCO

set_option maxRecDepth 16384

noncomputable section

namespace Cert.StageHeads

open Idealize.ShloMosaic Idealize.SL.Sem Idealize.ShloMosaic.StableHlo
open Cert.Iface

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The first branch pooled per graph: equal node features and equal graph numbers give equal pooled arrays. -/
theorem xc (h : XcNode m ρ m' c) (hbatch : (Kf m ρ c Cert.KernelIdeal.main_arg26 : Cert.KernelIdeal.S50000.Idx → BitVec 32) = Rf m' c Cert.ReferenceIdeal.main_arg26) :
    Xc m ρ m' c :=
  push (xc_stage (Cert.KernelIdeal.GenP.W36 m ρ c) (Cert.ReferenceIdeal.RefRun.R8 m' c)
      (pull h (Cert.KernelIdeal.KCarry.carry36 m ρ c Cert.KernelIdeal.main_v344 (by decide)) (Cert.ReferenceIdeal.RefRun.carry9 m' c Cert.ReferenceIdeal.main_v417 (by decide)))
      (pull hbatch (Cert.KernelIdeal.KCarry.carry36 m ρ c Cert.KernelIdeal.main_arg26 (by decide)) (Cert.ReferenceIdeal.RefRun.carry9 m' c Cert.ReferenceIdeal.main_arg26 (by decide))))
    (Cert.KernelIdeal.KCarry.carry37 m ρ c Cert.KernelIdeal.main_v347 (by decide)) (Cert.ReferenceIdeal.RefRun.carry9 m' c Cert.ReferenceIdeal.main_v420 (by decide))

/-- The second branch pooled per graph. -/
theorem xo (h : XoNode m ρ m' c) (hbatch : (Kf m ρ c Cert.KernelIdeal.main_arg26 : Cert.KernelIdeal.S50000.Idx → BitVec 32) = Rf m' c Cert.ReferenceIdeal.main_arg26) :
    Xo m ρ m' c :=
  push (xo_stage (Cert.KernelIdeal.GenP.W44 m ρ c) (Cert.ReferenceIdeal.RefRun.R10 m' c)
      (pull h (Cert.KernelIdeal.KCarry.carry44 m ρ c Cert.KernelIdeal.main_v407 (by decide)) (Cert.ReferenceIdeal.RefRun.carry11 m' c Cert.ReferenceIdeal.main_v496 (by decide)))
      (pull hbatch (Cert.KernelIdeal.KCarry.carry44 m ρ c Cert.KernelIdeal.main_arg26 (by decide)) (Cert.ReferenceIdeal.RefRun.carry11 m' c Cert.ReferenceIdeal.main_arg26 (by decide))))
    (Cert.KernelIdeal.KCarry.carry45 m ρ c Cert.KernelIdeal.main_v410 (by decide)) (Cert.ReferenceIdeal.RefRun.carry11 m' c Cert.ReferenceIdeal.main_v499 (by decide))

/-- The first result: equal pooled first-branch arrays and equal weights of the first head give equal results. -/
theorem res0 (h : Xc m ρ m' c)
    (h12 : (Kf m ρ c Cert.KernelIdeal.main_arg12 : Cert.KernelIdeal.S128x128.Idx → EReal) = Rf m' c Cert.ReferenceIdeal.main_arg12) (h13 : (Kf m ρ c Cert.KernelIdeal.main_arg13 : Cert.KernelIdeal.S128.Idx → EReal) = Rf m' c Cert.ReferenceIdeal.main_arg13)
    (h14 : (Kf m ρ c Cert.KernelIdeal.main_arg14 : Cert.KernelIdeal.S128x10.Idx → EReal) = Rf m' c Cert.ReferenceIdeal.main_arg14) (h15 : (Kf m ρ c Cert.KernelIdeal.main_arg15 : Cert.KernelIdeal.S10.Idx → EReal) = Rf m' c Cert.ReferenceIdeal.main_arg15) :
    Res0 m ρ m' c :=
  push (res0_stage (Cert.KernelIdeal.GenP.W44 m ρ c) (Cert.ReferenceIdeal.RefRun.R10 m' c)
      (pull h (Cert.KernelIdeal.KCarry.carry44 m ρ c Cert.KernelIdeal.main_v347 (by decide)) (Cert.ReferenceIdeal.RefRun.carry11 m' c Cert.ReferenceIdeal.main_v420 (by decide)))
      (pull h12 (Cert.KernelIdeal.KCarry.carry44 m ρ c Cert.KernelIdeal.main_arg12 (by decide)) (Cert.ReferenceIdeal.RefRun.carry11 m' c Cert.ReferenceIdeal.main_arg12 (by decide)))
      (pull h13 (Cert.KernelIdeal.KCarry.carry44 m ρ c Cert.KernelIdeal.main_arg13 (by decide)) (Cert.ReferenceIdeal.RefRun.carry11 m' c Cert.ReferenceIdeal.main_arg13 (by decide)))
      (pull h14 (Cert.KernelIdeal.KCarry.carry44 m ρ c Cert.KernelIdeal.main_arg14 (by decide)) (Cert.ReferenceIdeal.RefRun.carry11 m' c Cert.ReferenceIdeal.main_arg14 (by decide)))
      (pull h15 (Cert.KernelIdeal.KCarry.carry44 m ρ c Cert.KernelIdeal.main_arg15 (by decide)) (Cert.ReferenceIdeal.RefRun.carry11 m' c Cert.ReferenceIdeal.main_arg15 (by decide))))
    (Cert.KernelIdeal.KCarry.carry48 m ρ c Cert.KernelIdeal.main_v462 (by decide)) (Cert.ReferenceIdeal.RefRun.carry12 m' c Cert.ReferenceIdeal.main_v551 (by decide))

/-- The second result: equal pooled second-branch arrays and equal weights of the second head give equal results. -/
theorem res1 (h : Xo m ρ m' c)
    (h16 : (Kf m ρ c Cert.KernelIdeal.main_arg16 : Cert.KernelIdeal.S128x128.Idx → EReal) = Rf m' c Cert.ReferenceIdeal.main_arg16) (h17 : (Kf m ρ c Cert.KernelIdeal.main_arg17 : Cert.KernelIdeal.S128.Idx → EReal) = Rf m' c Cert.ReferenceIdeal.main_arg17)
    (h18 : (Kf m ρ c Cert.KernelIdeal.main_arg18 : Cert.KernelIdeal.S128x10.Idx → EReal) = Rf m' c Cert.ReferenceIdeal.main_arg18) (h19 : (Kf m ρ c Cert.KernelIdeal.main_arg19 : Cert.KernelIdeal.S10.Idx → EReal) = Rf m' c Cert.ReferenceIdeal.main_arg19) :
    Res1 m ρ m' c :=
  push (res1_stage (Cert.KernelIdeal.GenP.W48 m ρ c) (Cert.ReferenceIdeal.RefRun.R11 m' c)
      (pull h (Cert.KernelIdeal.KCarry.carry48 m ρ c Cert.KernelIdeal.main_v410 (by decide)) (Cert.ReferenceIdeal.RefRun.carry12 m' c Cert.ReferenceIdeal.main_v499 (by decide)))
      (pull h16 (Cert.KernelIdeal.KCarry.carry48 m ρ c Cert.KernelIdeal.main_arg16 (by decide)) (Cert.ReferenceIdeal.RefRun.carry12 m' c Cert.ReferenceIdeal.main_arg16 (by decide)))
      (pull h17 (Cert.KernelIdeal.KCarry.carry48 m ρ c Cert.KernelIdeal.main_arg17 (by decide)) (Cert.ReferenceIdeal.RefRun.carry12 m' c Cert.ReferenceIdeal.main_arg17 (by decide)))
      (pull h18 (Cert.KernelIdeal.KCarry.carry48 m ρ c Cert.KernelIdeal.main_arg18 (by decide)) (Cert.ReferenceIdeal.RefRun.carry12 m' c Cert.ReferenceIdeal.main_arg18 (by decide)))
      (pull h19 (Cert.KernelIdeal.KCarry.carry48 m ρ c Cert.KernelIdeal.main_arg19 (by decide)) (Cert.ReferenceIdeal.RefRun.carry12 m' c Cert.ReferenceIdeal.main_arg19 (by decide))))
    (Cert.KernelIdeal.KCarry.carry52 m ρ c Cert.KernelIdeal.main_v514 (by decide)) (Cert.ReferenceIdeal.RefRun.carry13 m' c Cert.ReferenceIdeal.main_v603 (by decide))

/-- The third result: equal pooled arrays of both branches and equal weights of the third head give equal results.
    Four steps: up to the first activation; the first activation; the second; the rest. -/
theorem res2 (hc : Xc m ρ m' c) (ho : Xo m ρ m' c)
    (h20 : (Kf m ρ c Cert.KernelIdeal.main_arg20 : Cert.KernelIdeal.S256x128.Idx → EReal) = Rf m' c Cert.ReferenceIdeal.main_arg20) (h21 : (Kf m ρ c Cert.KernelIdeal.main_arg21 : Cert.KernelIdeal.S128.Idx → EReal) = Rf m' c Cert.ReferenceIdeal.main_arg21)
    (h22 : (Kf m ρ c Cert.KernelIdeal.main_arg22 : Cert.KernelIdeal.S128x10.Idx → EReal) = Rf m' c Cert.ReferenceIdeal.main_arg22) (h23 : (Kf m ρ c Cert.KernelIdeal.main_arg23 : Cert.KernelIdeal.S10.Idx → EReal) = Rf m' c Cert.ReferenceIdeal.main_arg23) :
    Res2 m ρ m' c := by
  have ea : (Kf m ρ c Cert.KernelIdeal.main_v540 : Cert.KernelIdeal.S512x128.Idx → EReal) = Rf m' c Cert.ReferenceIdeal.main_v629 :=
    push (res2a_stage (Cert.KernelIdeal.GenP.W52 m ρ c) (Cert.ReferenceIdeal.RefRun.R12 m' c)
        (pull hc (Cert.KernelIdeal.KCarry.carry52 m ρ c Cert.KernelIdeal.main_v347 (by decide)) (Cert.ReferenceIdeal.RefRun.carry13 m' c Cert.ReferenceIdeal.main_v420 (by decide)))
        (pull ho (Cert.KernelIdeal.KCarry.carry52 m ρ c Cert.KernelIdeal.main_v410 (by decide)) (Cert.ReferenceIdeal.RefRun.carry13 m' c Cert.ReferenceIdeal.main_v499 (by decide)))
        (pull h20 (Cert.KernelIdeal.KCarry.carry52 m ρ c Cert.KernelIdeal.main_arg20 (by decide)) (Cert.ReferenceIdeal.RefRun.carry13 m' c Cert.ReferenceIdeal.main_arg20 (by decide)))
        (pull h21 (Cert.KernelIdeal.KCarry.carry52 m ρ c Cert.KernelIdeal.main_arg21 (by decide)) (Cert.ReferenceIdeal.RefRun.carry13 m' c Cert.ReferenceIdeal.main_arg21 (by decide))))
      (Cert.KernelIdeal.KCarry.carry53 m ρ c Cert.KernelIdeal.main_v540 (by decide)) rfl
  have eb : (Kf m ρ c Cert.KernelIdeal.main_v546 : Cert.KernelIdeal.S512x128.Idx → EReal) = Rf m' c Cert.ReferenceIdeal.main_v630 :=
    push (elu1_stage (Cert.KernelIdeal.GenP.W52 m ρ c) (Cert.ReferenceIdeal.RefRun.R13 m' c) (pull ea (Cert.KernelIdeal.KCarry.carry53 m ρ c Cert.KernelIdeal.main_v540 (by decide)) rfl))
      (Cert.KernelIdeal.KCarry.carry54 m ρ c Cert.KernelIdeal.main_v546 (by decide)) rfl
  have ec : (Kf m ρ c Cert.KernelIdeal.main_v552 : Cert.KernelIdeal.S512x128.Idx → EReal) = Rf m' c Cert.ReferenceIdeal.main_v631 :=
    push (elu2_stage (Cert.KernelIdeal.GenP.W54 m ρ c) (Cert.ReferenceIdeal.RefRun.R13 m' c) (pull eb (Cert.KernelIdeal.KCarry.carry54 m ρ c Cert.KernelIdeal.main_v546 (by decide)) rfl))
      (Cert.KernelIdeal.KCarry.carry56 m ρ c Cert.KernelIdeal.main_v552 (by decide)) rfl
  exact res2c_stage (Cert.KernelIdeal.GenP.W56 m ρ c) (Cert.ReferenceIdeal.RefRun.R13 m' c)
    (pull ec (Cert.KernelIdeal.KCarry.carry56 m ρ c Cert.KernelIdeal.main_v552 (by decide)) rfl)
    (pull h22 (Cert.KernelIdeal.KCarry.carry56 m ρ c Cert.KernelIdeal.main_arg22 (by decide)) rfl)
    (pull h23 (Cert.KernelIdeal.KCarry.carry56 m ρ c Cert.KernelIdeal.main_arg23 (by decide)) rfl)

end Cert.StageHeads

end
-- ==== Proof.lean ====
/-
  The certificate's claims. A graph network's forward pass is computed twice: by a program of eighteen tiled kernels among
  host operations, and by a plain array program. Both end with every buffer at a fold of their operations over the launch
  memory. A chain of boundary facts — the same intermediate array in both programs, with real entries wherever a later
  variance needs them — runs from the arguments to the three results: a normalization whose variance the kernels take as
  E[x²] − E[x]² and the reference as E[(x − E x)²] (equal on real columns, which is why finiteness is carried), a projection,
  an activation, an aggregation over the graph, three times over; two attentions (one product over 256 columns against two
  over 128); two weighted branches with an exponential unit written in two ways; a pooling; three heads. The kernel program's
  frames are its launch theorem over the segments, the reference's frame is its run with the results dropped, and the
  idealization rewrote nothing.
-/
import proofs.«407945_j8993661518245_1_alg».proof.Defs
import proofs.«407945_j8993661518245_1_alg».proof.Proof.Gen.Kernel
import proofs.«407945_j8993661518245_1_alg».proof.Proof.Gen.KernelIdeal
import proofs.«407945_j8993661518245_1_alg».proof.Proof.Gen.ReferenceIdeal
import proofs.«407945_j8993661518245_1_alg».proof.Proof.Gen.Pre_finite_inputs
import proofs.«407945_j8993661518245_1_alg».proof.Proof.KFrame
import proofs.«407945_j8993661518245_1_alg».proof.Proof.KRun
import proofs.«407945_j8993661518245_1_alg».proof.Proof.RefRun
import proofs.«407945_j8993661518245_1_alg».proof.Proof.Iface
import proofs.«407945_j8993661518245_1_alg».proof.Proof.StageArgs
import proofs.«407945_j8993661518245_1_alg».proof.Proof.StageBnmm0
import proofs.«407945_j8993661518245_1_alg».proof.Proof.StageBnmm1
import proofs.«407945_j8993661518245_1_alg».proof.Proof.StageBnmm2
import proofs.«407945_j8993661518245_1_alg».proof.Proof.StageBnmm3
import proofs.«407945_j8993661518245_1_alg».proof.Proof.StageBnmm4
import proofs.«407945_j8993661518245_1_alg».proof.Proof.StageBnmm5
import proofs.«407945_j8993661518245_1_alg».proof.Proof.StageAgg1
import proofs.«407945_j8993661518245_1_alg».proof.Proof.StageAgg2
import proofs.«407945_j8993661518245_1_alg».proof.Proof.StageAgg3
import proofs.«407945_j8993661518245_1_alg».proof.Proof.StageAggNa
import proofs.«407945_j8993661518245_1_alg».proof.Proof.StageAggXc
import proofs.«407945_j8993661518245_1_alg».proof.Proof.StageAggXo
import proofs.«407945_j8993661518245_1_alg».proof.Proof.StageAct0
import proofs.«407945_j8993661518245_1_alg».proof.Proof.StageAct1
import proofs.«407945_j8993661518245_1_alg».proof.Proof.StageAct2
import proofs.«407945_j8993661518245_1_alg».proof.Proof.StageAct3
import proofs.«407945_j8993661518245_1_alg».proof.Proof.StageActXc
import proofs.«407945_j8993661518245_1_alg».proof.Proof.StageActXo
import proofs.«407945_j8993661518245_1_alg».proof.Proof.StageAtt
import proofs.«407945_j8993661518245_1_alg».proof.Proof.StageHeads

noncomputable section

namespace Cert.Proof

open Idealize.ShloMosaic Idealize.SL.Sem Cert.Iface

section Chain

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- From finite float arguments that agree in the two programs, the three results agree: the chain of boundary facts. -/
theorem results (hpre : Cert.Pre_KernelIdeal m) (hag : Cert.StageArgs.Agree m m' c) :
    Res0 m ρ m' c ∧ Res1 m ρ m' c ∧ Res2 m ρ m' c := by
  have e24 := Cert.StageArgs.arg_eq24 m ρ m' c hag
  have e25 := Cert.StageArgs.arg_eq25 m ρ m' c hag
  have e26 := Cert.StageArgs.arg_eq26 m ρ m' c hag
  have t0 := Cert.StageBnmm0.t0 m ρ m' c (Cert.StageArgs.arg_eq0 m ρ m' c hag) (Cert.StageArgs.arg_fin0 m ρ c hpre)
    (Cert.StageArgs.arg_eq1 m ρ m' c hag) (Cert.StageArgs.arg_fin1 m ρ c hpre)
  have h0 := Cert.StageAct.h0 m ρ m' c t0
  have w2 := Cert.StageArgs.arg_eq2 m ρ m' c hag
  have w2f := Cert.StageArgs.arg_fin2 m ρ c hpre
  have b3 := Cert.StageArgs.arg_eq3 m ρ m' c hag
  have b3f := Cert.StageArgs.arg_fin3 m ρ c hpre
  have t1 := Cert.StageBnmm1.t1 m ρ m' c h0 w2 w2f
  have a1 := Cert.StageAgg1.agg1 m ρ m' c t1 (heq_of_eq e24) (heq_of_eq e25)
  have h1 := Cert.StageAct.h1 m ρ m' c a1 b3 b3f
  have t2 := Cert.StageBnmm2.t2 m ρ m' c h1 w2 w2f
  have a2 := Cert.StageAgg2.agg2 m ρ m' c t2 (heq_of_eq e24) (heq_of_eq e25)
  have h2 := Cert.StageAct.h2 m ρ m' c a2 b3 b3f
  have t3 := Cert.StageBnmm3.t3 m ρ m' c h2 w2 w2f
  have a3 := Cert.StageAgg3.agg3 m ρ m' c t3 (heq_of_eq e24) (heq_of_eq e25)
  have h3 := Cert.StageAct.h3 m ρ m' c a3 b3 b3f
  have ea := Cert.StageAtt.eatt m ρ m' c h3 e24 e25 (Cert.StageArgs.arg_eq4 m ρ m' c hag) (Cert.StageArgs.arg_eq5 m ρ m' c hag)
  have nt := Cert.StageAtt.nat m ρ m' c h3 (Cert.StageArgs.arg_eq6 m ρ m' c hag) (Cert.StageArgs.arg_fin6 m ρ c hpre)
  have an := Cert.StageAggNa.aggna m ρ m' c nt (heq_of_eq e24) (heq_of_eq e25)
  have na := Cert.StageAtt.natt m ρ m' c an (Cert.StageArgs.arg_eq7 m ρ m' c hag) (Cert.StageArgs.arg_fin7 m ρ c hpre)
  have xci := Cert.StageAtt.xcin m ρ m' c h3 na
  have xoi := Cert.StageAtt.xoin m ρ m' c h3 na
  have txc := Cert.StageBnmm4.txc m ρ m' c xci (Cert.StageArgs.arg_eq8 m ρ m' c hag)
  have txo := Cert.StageBnmm5.txo m ρ m' c xoi (Cert.StageArgs.arg_eq10 m ρ m' c hag)
  have axc := Cert.StageAggXc.aggxc m ρ m' c txc ea (heq_of_eq e24) (heq_of_eq e25)
  have axo := Cert.StageAggXo.aggxo m ρ m' c txo ea (heq_of_eq e24) (heq_of_eq e25)
  have xcn := Cert.StageAct.xcnode m ρ m' c axc (Cert.StageArgs.arg_eq9 m ρ m' c hag)
  have xon := Cert.StageAct.xonode m ρ m' c axo (Cert.StageArgs.arg_eq11 m ρ m' c hag)
  have xc := Cert.StageHeads.xc m ρ m' c xcn e26
  have xo := Cert.StageHeads.xo m ρ m' c xon e26
  exact ⟨Cert.StageHeads.res0 m ρ m' c xc (Cert.StageArgs.arg_eq12 m ρ m' c hag) (Cert.StageArgs.arg_eq13 m ρ m' c hag) (Cert.StageArgs.arg_eq14 m ρ m' c hag) (Cert.StageArgs.arg_eq15 m ρ m' c hag),
    Cert.StageHeads.res1 m ρ m' c xo (Cert.StageArgs.arg_eq16 m ρ m' c hag) (Cert.StageArgs.arg_eq17 m ρ m' c hag) (Cert.StageArgs.arg_eq18 m ρ m' c hag) (Cert.StageArgs.arg_eq19 m ρ m' c hag),
    Cert.StageHeads.res2 m ρ m' c xc xo (Cert.StageArgs.arg_eq20 m ρ m' c hag) (Cert.StageArgs.arg_eq21 m ρ m' c hag) (Cert.StageArgs.arg_eq22 m ρ m' c hag) (Cert.StageArgs.arg_eq23 m ρ m' c hag)⟩

end Chain

theorem frame_k : Cert.frame_Kernel := fun m ρ _ => Cert.Kernel.KFrame.frame m ρ
theorem frame_ki : Cert.frame_KernelIdeal := fun m ρ _ => Cert.KernelIdeal.KRun.frame m ρ
/-- The reference's frame: its run, the results dropped, each argument read back to the launch memory. -/
theorem frame_ri : Cert.frame_ReferenceIdeal := fun m ρ _ =>
  (θ_run Cert.ReferenceIdeal.defs _ _).mono (fun r h c =>
    ⟨(h c _).trans (Cert.ReferenceIdeal.RefRun.R14_main_arg0 _ c),
     (h c _).trans (Cert.ReferenceIdeal.RefRun.R14_main_arg1 _ c),
     (h c _).trans (Cert.ReferenceIdeal.RefRun.R14_main_arg2 _ c),
     (h c _).trans (Cert.ReferenceIdeal.RefRun.R14_main_arg3 _ c),
     (h c _).trans (Cert.ReferenceIdeal.RefRun.R14_main_arg4 _ c),
     (h c _).trans (Cert.ReferenceIdeal.RefRun.R14_main_arg5 _ c),
     (h c _).trans (Cert.ReferenceIdeal.RefRun.R14_main_arg6 _ c),
     (h c _).trans (Cert.ReferenceIdeal.RefRun.R14_main_arg7 _ c),
     (h c _).trans (Cert.ReferenceIdeal.RefRun.R14_main_arg8 _ c),
     (h c _).trans (Cert.ReferenceIdeal.RefRun.R14_main_arg9 _ c),
     (h c _).trans (Cert.ReferenceIdeal.RefRun.R14_main_arg10 _ c),
     (h c _).trans (Cert.ReferenceIdeal.RefRun.R14_main_arg11 _ c),
     (h c _).trans (Cert.ReferenceIdeal.RefRun.R14_main_arg12 _ c),
     (h c _).trans (Cert.ReferenceIdeal.RefRun.R14_main_arg13 _ c),
     (h c _).trans (Cert.ReferenceIdeal.RefRun.R14_main_arg14 _ c),
     (h c _).trans (Cert.ReferenceIdeal.RefRun.R14_main_arg15 _ c),
     (h c _).trans (Cert.ReferenceIdeal.RefRun.R14_main_arg16 _ c),
     (h c _).trans (Cert.ReferenceIdeal.RefRun.R14_main_arg17 _ c),
     (h c _).trans (Cert.ReferenceIdeal.RefRun.R14_main_arg18 _ c),
     (h c _).trans (Cert.ReferenceIdeal.RefRun.R14_main_arg19 _ c),
     (h c _).trans (Cert.ReferenceIdeal.RefRun.R14_main_arg20 _ c),
     (h c _).trans (Cert.ReferenceIdeal.RefRun.R14_main_arg21 _ c),
     (h c _).trans (Cert.ReferenceIdeal.RefRun.R14_main_arg22 _ c),
     (h c _).trans (Cert.ReferenceIdeal.RefRun.R14_main_arg23 _ c),
     (h c _).trans (Cert.ReferenceIdeal.RefRun.R14_main_arg24 _ c),
     (h c _).trans (Cert.ReferenceIdeal.RefRun.R14_main_arg25 _ c),
     (h c _).trans (Cert.ReferenceIdeal.RefRun.R14_main_arg26 _ c)⟩)
    (Cert.ReferenceIdeal.RefRun.run (F := Ideal) m ρ)

theorem preserves : Cert.preserves_Kernel_KernelIdeal := trivial

/-- The two idealized programs, from memories that agree on the arguments, end with the same three results: the kernel
    program's final contents of its result buffers, which the chain of boundary facts shows to be the reference's. -/
theorem algebraic : Cert.algebraic_KernelIdeal_ReferenceIdeal := by
  intro m ρ m' ρ' hpre hag
  refine ⟨fun c => Cert.KernelIdeal.GenP.W58 (F := Ideal) m ρ c (Proc.devRef .tc Cert.KernelIdeal.main_v462),
    fun c => Cert.KernelIdeal.GenP.W58 (F := Ideal) m ρ c (Proc.devRef .tc Cert.KernelIdeal.main_v514),
    fun c => Cert.KernelIdeal.GenP.W58 (F := Ideal) m ρ c (Proc.devRef .tc Cert.KernelIdeal.main_v578),
    Cert.KernelIdeal.KRun.run (F := Ideal) m ρ, ?_⟩
  refine (θ_run Cert.ReferenceIdeal.defs _ _).mono (fun r h c => ?_) (Cert.ReferenceIdeal.RefRun.run (F := Ideal) m' ρ')
  obtain ⟨r0, r1, r2⟩ := results m ρ m' c hpre (hag c)
  exact ⟨(h c _).trans r0.symm, (h c _).trans r1.symm, (h c _).trans r2.symm,
     (h c _).trans (Cert.ReferenceIdeal.RefRun.R14_main_arg0 _ c),
     (h c _).trans (Cert.ReferenceIdeal.RefRun.R14_main_arg1 _ c),
     (h c _).trans (Cert.ReferenceIdeal.RefRun.R14_main_arg2 _ c),
     (h c _).trans (Cert.ReferenceIdeal.RefRun.R14_main_arg3 _ c),
     (h c _).trans (Cert.ReferenceIdeal.RefRun.R14_main_arg4 _ c),
     (h c _).trans (Cert.ReferenceIdeal.RefRun.R14_main_arg5 _ c),
     (h c _).trans (Cert.ReferenceIdeal.RefRun.R14_main_arg6 _ c),
     (h c _).trans (Cert.ReferenceIdeal.RefRun.R14_main_arg7 _ c),
     (h c _).trans (Cert.ReferenceIdeal.RefRun.R14_main_arg8 _ c),
     (h c _).trans (Cert.ReferenceIdeal.RefRun.R14_main_arg9 _ c),
     (h c _).trans (Cert.ReferenceIdeal.RefRun.R14_main_arg10 _ c),
     (h c _).trans (Cert.ReferenceIdeal.RefRun.R14_main_arg11 _ c),
     (h c _).trans (Cert.ReferenceIdeal.RefRun.R14_main_arg12 _ c),
     (h c _).trans (Cert.ReferenceIdeal.RefRun.R14_main_arg13 _ c),
     (h c _).trans (Cert.ReferenceIdeal.RefRun.R14_main_arg14 _ c),
     (h c _).trans (Cert.ReferenceIdeal.RefRun.R14_main_arg15 _ c),
     (h c _).trans (Cert.ReferenceIdeal.RefRun.R14_main_arg16 _ c),
     (h c _).trans (Cert.ReferenceIdeal.RefRun.R14_main_arg17 _ c),
     (h c _).trans (Cert.ReferenceIdeal.RefRun.R14_main_arg18 _ c),
     (h c _).trans (Cert.ReferenceIdeal.RefRun.R14_main_arg19 _ c),
     (h c _).trans (Cert.ReferenceIdeal.RefRun.R14_main_arg20 _ c),
     (h c _).trans (Cert.ReferenceIdeal.RefRun.R14_main_arg21 _ c),
     (h c _).trans (Cert.ReferenceIdeal.RefRun.R14_main_arg22 _ c),
     (h c _).trans (Cert.ReferenceIdeal.RefRun.R14_main_arg23 _ c),
     (h c _).trans (Cert.ReferenceIdeal.RefRun.R14_main_arg24 _ c),
     (h c _).trans (Cert.ReferenceIdeal.RefRun.R14_main_arg25 _ c),
     (h c _).trans (Cert.ReferenceIdeal.RefRun.R14_main_arg26 _ c)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
